-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  main_v3
-- ==== Kernel.lean ====
abbrev S16384x64 : Shape := ⟨2, ![16384, 64]⟩
abbrev S512x64 : Shape := ⟨2, ![512, 64]⟩
abbrev S512x1 : Shape := ⟨2, ![512, 1]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x64_S512x64_0_0 : ∀ a, (![0, 0] : Fin 2 → Nat) a + S512x64.size a ≤ S512x64.size a
  h_S512x64 : 0 < S512x64.numel
  slices_S512x64_o0_0_S512x1 : S512x64.Slices ![0, 0] S512x1
  shapeCasts_S512x1_S512 : S512x1.ShapeCasts S512
  slices_S512x64_o0_6_S512x1 : S512x64.Slices ![0, 6] S512x1
  slices_S512x64_o0_12_S512x1 : S512x64.Slices ![0, 12] S512x1
  slices_S512x64_o0_13_S512x1 : S512x64.Slices ![0, 13] S512x1
  slices_S512x64_o0_14_S512x1 : S512x64.Slices ![0, 14] S512x1
  slices_S512x64_o0_15_S512x1 : S512x64.Slices ![0, 15] S512x1
  slices_S512x64_o0_16_S512x1 : S512x64.Slices ![0, 16] S512x1
  slices_S512x64_o0_17_S512x1 : S512x64.Slices ![0, 17] S512x1
  slices_S512x64_o0_23_S512x1 : S512x64.Slices ![0, 23] S512x1
  slices_S512x64_o0_24_S512x1 : S512x64.Slices ![0, 24] S512x1
  slices_S512x64_o0_25_S512x1 : S512x64.Slices ![0, 25] S512x1
  slices_S512x64_o0_26_S512x1 : S512x64.Slices ![0, 26] S512x1
  slices_S512x64_o0_27_S512x1 : S512x64.Slices ![0, 27] S512x1
  slices_S512x64_o0_28_S512x1 : S512x64.Slices ![0, 28] S512x1
  slices_S512x64_o0_32_S512x1 : S512x64.Slices ![0, 32] S512x1
  slices_S512x64_o0_34_S512x1 : S512x64.Slices ![0, 34] S512x1
  slices_S512x64_o0_36_S512x1 : S512x64.Slices ![0, 36] S512x1
  slices_S512x64_o0_41_S512x1 : S512x64.Slices ![0, 41] S512x1
  slices_S512x64_o0_42_S512x1 : S512x64.Slices ![0, 42] S512x1
  slices_S512x64_o0_43_S512x1 : S512x64.Slices ![0, 43] S512x1
  slices_S512x64_o0_45_S512x1 : S512x64.Slices ![0, 45] S512x1
  slices_S512x64_o0_47_S512x1 : S512x64.Slices ![0, 47] S512x1
  slices_S512x64_o0_49_S512x1 : S512x64.Slices ![0, 49] S512x1
  slices_S512x64_o0_52_S512x1 : S512x64.Slices ![0, 52] S512x1
  slices_S512x64_o0_53_S512x1 : S512x64.Slices ![0, 53] S512x1
  slices_S512x64_o0_54_S512x1 : S512x64.Slices ![0, 54] S512x1
  slices_S512x64_o0_55_S512x1 : S512x64.Slices ![0, 55] S512x1
  slices_S512x64_o0_56_S512x1 : S512x64.Slices ![0, 56] S512x1
  slices_S512x64_o0_60_S512x1 : S512x64.Slices ![0, 60] S512x1
  slices_S512x64_o0_62_S512x1 : S512x64.Slices ![0, 62] S512x1
  slices_S512x64_o0_63_S512x1 : S512x64.Slices ![0, 63] S512x1
  shapeCasts_S512_S512x1 : S512.ShapeCasts S512x1
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x64_d1 : Shape.Concatenates (S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: S512x1 :: []) S512x64 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S16384x64.size a
  hwx0_1 : ∀ i : grid0.Coords, EltTy.bits .f32 = 32 ∨ (Rect.block (s := S16384x64) S512x64.size (cc0_transform_1 i) (hinb0_1 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x1 : Shape := ⟨2, ![16384, 1]⟩
abbrev S16384 : Shape := ⟨1, ![16384]⟩
abbrev S_ : Shape := ⟨0, ![]⟩
abbrev S16384x16 : Shape := ⟨2, ![16384, 16]⟩

abbrev nBuf : Space → Nat
  | .hbm => 4182
  | .vmem => 0
  | .smem => 0
  | _ => 0

abbrev hbmTy0_0 (i : Nat) : BufTy := match i % 128 with
  | 0 => ⟨S16384x64, .f32⟩
  | 1 => ⟨S16384x1, .f32⟩
  | 2 => ⟨S16384, .f32⟩
  | 3 => ⟨S16384x1, .f32⟩
  | 4 => ⟨S16384, .f32⟩
  | 5 => ⟨S16384x1, .f32⟩
  | 6 => ⟨S16384, .f32⟩
  | 7 => ⟨S16384x1, .f32⟩
  | 8 => ⟨S16384, .f32⟩
  | 9 => ⟨S16384x1, .f32⟩
  | 10 => ⟨S16384, .f32⟩
  | 11 => ⟨S16384x1, .f32⟩
  | 12 => ⟨S16384, .f32⟩
  | 13 => ⟨S16384x1, .f32⟩
  | 14 => ⟨S16384, .f32⟩
  | 15 => ⟨S16384x1, .f32⟩
  | 16 => ⟨S16384, .f32⟩
  | 17 => ⟨S16384x1, .f32⟩
  | 18 => ⟨S16384, .f32⟩
  | 19 => ⟨S16384x1, .f32⟩
  | 20 => ⟨S16384, .f32⟩
  | 21 => ⟨S16384x1, .f32⟩
  | 22 => ⟨S16384, .f32⟩
  | 23 => ⟨S16384x1, .f32⟩
  | 24 => ⟨S16384, .f32⟩
  | 25 => ⟨S16384x1, .f32⟩
  | 26 => ⟨S16384, .f32⟩
  | 27 => ⟨S16384x1, .f32⟩
  | 28 => ⟨S16384, .f32⟩
  | 29 => ⟨S16384x1, .f32⟩
  | 30 => ⟨S16384, .f32⟩
  | 31 => ⟨S16384x1, .f32⟩
  | 32 => ⟨S16384, .f32⟩
  | 33 => ⟨S16384x1, .f32⟩
  | 34 => ⟨S16384, .f32⟩
  | 35 => ⟨S16384x1, .f32⟩
  | 36 => ⟨S16384, .f32⟩
  | 37 => ⟨S16384x1, .f32⟩
  | 38 => ⟨S16384, .f32⟩
  | 39 => ⟨S16384x1, .f32⟩
  | 40 => ⟨S16384, .f32⟩
  | 41 => ⟨S16384x1, .f32⟩
  | 42 => ⟨S16384, .f32⟩
  | 43 => ⟨S16384x1, .f32⟩
  | 44 => ⟨S16384, .f32⟩
  | 45 => ⟨S16384x1, .f32⟩
  | 46 => ⟨S16384, .f32⟩
  | 47 => ⟨S16384x1, .f32⟩
  | 48 => ⟨S16384, .f32⟩
  | 49 => ⟨S16384x1, .f32⟩
  | 50 => ⟨S16384, .f32⟩
  | 51 => ⟨S16384x1, .f32⟩
  | 52 => ⟨S16384, .f32⟩
  | 53 => ⟨S16384x1, .f32⟩
  | 54 => ⟨S16384, .f32⟩
  | 55 => ⟨S16384x1, .f32⟩
  | 56 => ⟨S16384, .f32⟩
  | 57 => ⟨S16384x1, .f32⟩
  | 58 => ⟨S16384, .f32⟩
  | 59 => ⟨S16384x1, .f32⟩
  | 60 => ⟨S16384, .f32⟩
  | 61 => ⟨S16384x1, .f32⟩
  | 62 => ⟨S16384, .f32⟩
  | 63 => ⟨S16384x1, .f32⟩
  | 64 => ⟨S16384, .f32⟩
  | 65 => ⟨S16384x1, .f32⟩
  | 66 => ⟨S16384, .f32⟩
  | 67 => ⟨S16384x1, .f32⟩
  | 68 => ⟨S16384, .f32⟩
  | 69 => ⟨S16384x1, .f32⟩
  | 70 => ⟨S16384, .f32⟩
  | 71 => ⟨S16384x1, .f32⟩
  | 72 => ⟨S16384, .f32⟩
  | 73 => ⟨S16384x1, .f32⟩
  | 74 => ⟨S16384, .f32⟩
  | 75 => ⟨S16384x1, .f32⟩
  | 76 => ⟨S16384, .f32⟩
  | 77 => ⟨S16384x1, .f32⟩
  | 78 => ⟨S16384, .f32⟩
  | 79 => ⟨S16384x1, .f32⟩
  | 80 => ⟨S16384, .f32⟩
  | 81 => ⟨S16384x1, .f32⟩
  | 82 => ⟨S16384, .f32⟩
  | 83 => ⟨S16384x1, .f32⟩
  | 84 => ⟨S16384, .f32⟩
  | 85 => ⟨S16384x1, .f32⟩
  | 86 => ⟨S16384, .f32⟩
  | 87 => ⟨S16384x1, .f32⟩
  | 88 => ⟨S16384, .f32⟩
  | 89 => ⟨S16384x1, .f32⟩
  | 90 => ⟨S16384, .f32⟩
  | 91 => ⟨S16384x1, .f32⟩
  | 92 => ⟨S16384, .f32⟩
  | 93 => ⟨S16384x1, .f32⟩
  | 94 => ⟨S16384, .f32⟩
  | 95 => ⟨S16384x1, .f32⟩
  | 96 => ⟨S16384, .f32⟩
  | 97 => ⟨S16384x1, .f32⟩
  | 98 => ⟨S16384, .f32⟩
  | 99 => ⟨S16384x1, .f32⟩
  | 100 => ⟨S16384, .f32⟩
  | 101 => ⟨S16384x1, .f32⟩
  | 102 => ⟨S16384, .f32⟩
  | 103 => ⟨S16384x1, .f32⟩
  | 104 => ⟨S16384, .f32⟩
  | 105 => ⟨S16384x1, .f32⟩
  | 106 => ⟨S16384, .f32⟩
  | 107 => ⟨S16384x1, .f32⟩
  | 108 => ⟨S16384, .f32⟩
  | 109 => ⟨S16384x1, .f32⟩
  | 110 => ⟨S16384, .f32⟩
  | 111 => ⟨S16384x1, .f32⟩
  | 112 => ⟨S16384, .f32⟩
  | 113 => ⟨S16384x1, .f32⟩
  | 114 => ⟨S16384, .f32⟩
  | 115 => ⟨S16384x1, .f32⟩
  | 116 => ⟨S16384, .f32⟩
  | 117 => ⟨S16384x1, .f32⟩
  | 118 => ⟨S16384, .f32⟩
  | 119 => ⟨S16384x1, .f32⟩
  | 120 => ⟨S16384, .f32⟩
  | 121 => ⟨S16384x1, .f32⟩
  | 122 => ⟨S16384, .f32⟩
  | 123 => ⟨S16384x1, .f32⟩
  | 124 => ⟨S16384, .f32⟩
  | 125 => ⟨S16384x1, .f32⟩
  | 126 => ⟨S16384, .f32⟩
  | 127 => ⟨S16384x1, .f32⟩
  | _ => ⟨S16384x64, .f32⟩

abbrev hbmTy0_1 (i : Nat) : BufTy := match i % 128 with
  | 0 => ⟨S16384, .f32⟩
  | 1 => ⟨S_, .f32⟩
  | 2 => ⟨S16384, .f32⟩
  | 3 => ⟨S_, .f32⟩
  | 4 => ⟨S16384, .f32⟩
  | 5 => ⟨S_, .f32⟩
  | 6 => ⟨S16384, .f32⟩
  | 7 => ⟨S_, .f32⟩
  | 8 => ⟨S16384, .f32⟩
  | 9 => ⟨S_, .f32⟩
  | 10 => ⟨S16384, .f32⟩
  | 11 => ⟨S_, .f32⟩
  | 12 => ⟨S16384, .f32⟩
  | 13 => ⟨S_, .f32⟩
  | 14 => ⟨S16384, .f32⟩
  | 15 => ⟨S_, .f32⟩
  | 16 => ⟨S16384, .f32⟩
  | 17 => ⟨S_, .f32⟩
  | 18 => ⟨S16384, .f32⟩
  | 19 => ⟨S_, .f32⟩
  | 20 => ⟨S16384, .f32⟩
  | 21 => ⟨S_, .f32⟩
  | 22 => ⟨S16384, .f32⟩
  | 23 => ⟨S_, .f32⟩
  | 24 => ⟨S16384, .f32⟩
  | 25 => ⟨S_, .f32⟩
  | 26 => ⟨S16384, .f32⟩
  | 27 => ⟨S_, .f32⟩
  | 28 => ⟨S16384, .f32⟩
  | 29 => ⟨S_, .f32⟩
  | 30 => ⟨S16384, .f32⟩
  | 31 => ⟨S_, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_2 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_3 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_4 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_5 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_6 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_7 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_8 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_9 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_10 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_11 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_12 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_13 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_14 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_15 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_16 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_17 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_18 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_19 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_20 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_21 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_22 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_23 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_24 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_25 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_26 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_27 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_28 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_29 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_30 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_31 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_32 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384x1, .f32⟩
  | 18 => ⟨S16384x1, .f32⟩
  | 19 => ⟨S16384x1, .f32⟩
  | 20 => ⟨S16384x1, .f32⟩
  | 21 => ⟨S16384x1, .f32⟩
  | 22 => ⟨S16384x1, .f32⟩
  | 23 => ⟨S16384x1, .f32⟩
  | 24 => ⟨S16384x1, .f32⟩
  | 25 => ⟨S16384x1, .f32⟩
  | 26 => ⟨S16384x1, .f32⟩
  | 27 => ⟨S16384x1, .f32⟩
  | 28 => ⟨S16384x1, .f32⟩
  | 29 => ⟨S16384x1, .f32⟩
  | 30 => ⟨S16384x1, .f32⟩
  | 31 => ⟨S16384x1, .f32⟩
  | 32 => ⟨S16384x1, .f32⟩
  | 33 => ⟨S16384x1, .f32⟩
  | 34 => ⟨S16384x1, .f32⟩
  | 35 => ⟨S16384x1, .f32⟩
  | 36 => ⟨S16384x1, .f32⟩
  | 37 => ⟨S16384x1, .f32⟩
  | 38 => ⟨S16384x1, .f32⟩
  | 39 => ⟨S16384x1, .f32⟩
  | 40 => ⟨S16384x1, .f32⟩
  | 41 => ⟨S16384x1, .f32⟩
  | 42 => ⟨S16384x1, .f32⟩
  | 43 => ⟨S16384x1, .f32⟩
  | 44 => ⟨S16384x1, .f32⟩
  | 45 => ⟨S16384x1, .f32⟩
  | 46 => ⟨S16384x1, .f32⟩
  | 47 => ⟨S16384x1, .f32⟩
  | 48 => ⟨S16384x1, .f32⟩
  | 49 => ⟨S16384x1, .f32⟩
  | 50 => ⟨S16384x1, .f32⟩
  | 51 => ⟨S16384x1, .f32⟩
  | 52 => ⟨S16384x1, .f32⟩
  | 53 => ⟨S16384x1, .f32⟩
  | 54 => ⟨S16384x1, .f32⟩
  | 55 => ⟨S16384x1, .f32⟩
  | 56 => ⟨S16384x1, .f32⟩
  | 57 => ⟨S16384x1, .f32⟩
  | 58 => ⟨S16384x1, .f32⟩
  | 59 => ⟨S16384x1, .f32⟩
  | 60 => ⟨S16384x1, .f32⟩
  | 61 => ⟨S16384x1, .f32⟩
  | 62 => ⟨S16384x1, .f32⟩
  | 63 => ⟨S16384x1, .f32⟩
  | 64 => ⟨S16384x1, .f32⟩
  | 65 => ⟨S16384x1, .f32⟩
  | 66 => ⟨S16384x1, .f32⟩
  | 67 => ⟨S16384x1, .f32⟩
  | 68 => ⟨S16384x1, .f32⟩
  | 69 => ⟨S16384x1, .f32⟩
  | 70 => ⟨S16384x1, .f32⟩
  | 71 => ⟨S16384x1, .f32⟩
  | 72 => ⟨S16384x1, .f32⟩
  | 73 => ⟨S16384x1, .f32⟩
  | 74 => ⟨S16384x1, .f32⟩
  | 75 => ⟨S16384x1, .f32⟩
  | 76 => ⟨S16384x1, .f32⟩
  | 77 => ⟨S16384x1, .f32⟩
  | 78 => ⟨S16384x1, .f32⟩
  | 79 => ⟨S16384x1, .f32⟩
  | 80 => ⟨S16384x1, .f32⟩
  | 81 => ⟨S16384x16, .f32⟩
  | 82 => ⟨S16384x16, .f32⟩
  | 83 => ⟨S16384x16, .f32⟩
  | 84 => ⟨S16384x16, .f32⟩
  | 85 => ⟨S16384x64, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩
abbrev main_v110 : Ref sig .tc := ⟨.hbm, 111, rfl⟩
abbrev main_v111 : Ref sig .tc := ⟨.hbm, 112, rfl⟩
abbrev main_v112 : Ref sig .tc := ⟨.hbm, 113, rfl⟩
abbrev main_v113 : Ref sig .tc := ⟨.hbm, 114, rfl⟩
abbrev main_v114 : Ref sig .tc := ⟨.hbm, 115, rfl⟩
abbrev main_v115 : Ref sig .tc := ⟨.hbm, 116, rfl⟩
abbrev main_v116 : Ref sig .tc := ⟨.hbm, 117, rfl⟩
abbrev main_v117 : Ref sig .tc := ⟨.hbm, 118, rfl⟩
abbrev main_v118 : Ref sig .tc := ⟨.hbm, 119, rfl⟩
abbrev main_v119 : Ref sig .tc := ⟨.hbm, 120, rfl⟩
abbrev main_v120 : Ref sig .tc := ⟨.hbm, 121, rfl⟩
abbrev main_v121 : Ref sig .tc := ⟨.hbm, 122, rfl⟩
abbrev main_v122 : Ref sig .tc := ⟨.hbm, 123, rfl⟩
abbrev main_v123 : Ref sig .tc := ⟨.hbm, 124, rfl⟩
abbrev main_v124 : Ref sig .tc := ⟨.hbm, 125, rfl⟩
abbrev main_v125 : Ref sig .tc := ⟨.hbm, 126, rfl⟩
abbrev main_v126 : Ref sig .tc := ⟨.hbm, 127, rfl⟩
abbrev main_v127 : Ref sig .tc := ⟨.hbm, 128, rfl⟩
abbrev main_cst : Ref sig .tc := ⟨.hbm, 129, rfl⟩
abbrev main_v128 : Ref sig .tc := ⟨.hbm, 130, rfl⟩
abbrev main_cst_0 : Ref sig .tc := ⟨.hbm, 131, rfl⟩
abbrev main_v129 : Ref sig .tc := ⟨.hbm, 132, rfl⟩
abbrev main_cst_1 : Ref sig .tc := ⟨.hbm, 133, rfl⟩
abbrev main_v130 : Ref sig .tc := ⟨.hbm, 134, rfl⟩
abbrev main_cst_2 : Ref sig .tc := ⟨.hbm, 135, rfl⟩
abbrev main_v131 : Ref sig .tc := ⟨.hbm, 136, rfl⟩
abbrev main_cst_3 : Ref sig .tc := ⟨.hbm, 137, rfl⟩
abbrev main_v132 : Ref sig .tc := ⟨.hbm, 138, rfl⟩
abbrev main_cst_4 : Ref sig .tc := ⟨.hbm, 139, rfl⟩
abbrev main_v133 : Ref sig .tc := ⟨.hbm, 140, rfl⟩
abbrev main_cst_5 : Ref sig .tc := ⟨.hbm, 141, rfl⟩
abbrev main_v134 : Ref sig .tc := ⟨.hbm, 142, rfl⟩
abbrev main_cst_6 : Ref sig .tc := ⟨.hbm, 143, rfl⟩
abbrev main_v135 : Ref sig .tc := ⟨.hbm, 144, rfl⟩
abbrev main_cst_7 : Ref sig .tc := ⟨.hbm, 145, rfl⟩
abbrev main_v136 : Ref sig .tc := ⟨.hbm, 146, rfl⟩
abbrev main_cst_8 : Ref sig .tc := ⟨.hbm, 147, rfl⟩
abbrev main_v137 : Ref sig .tc := ⟨.hbm, 148, rfl⟩
abbrev main_cst_9 : Ref sig .tc := ⟨.hbm, 149, rfl⟩
abbrev main_v138 : Ref sig .tc := ⟨.hbm, 150, rfl⟩
abbrev main_cst_10 : Ref sig .tc := ⟨.hbm, 151, rfl⟩
abbrev main_v139 : Ref sig .tc := ⟨.hbm, 152, rfl⟩
abbrev main_cst_11 : Ref sig .tc := ⟨.hbm, 153, rfl⟩
abbrev main_v140 : Ref sig .tc := ⟨.hbm, 154, rfl⟩
abbrev main_cst_12 : Ref sig .tc := ⟨.hbm, 155, rfl⟩
abbrev main_v141 : Ref sig .tc := ⟨.hbm, 156, rfl⟩
abbrev main_cst_13 : Ref sig .tc := ⟨.hbm, 157, rfl⟩
abbrev main_v142 : Ref sig .tc := ⟨.hbm, 158, rfl⟩
abbrev main_cst_14 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_v298 : Ref sig .tc := ⟨.hbm, 315, rfl⟩
abbrev main_v299 : Ref sig .tc := ⟨.hbm, 316, rfl⟩
abbrev main_v300 : Ref sig .tc := ⟨.hbm, 317, rfl⟩
abbrev main_v301 : Ref sig .tc := ⟨.hbm, 318, rfl⟩
abbrev main_v302 : Ref sig .tc := ⟨.hbm, 319, rfl⟩
abbrev main_v303 : Ref sig .tc := ⟨.hbm, 320, rfl⟩
abbrev main_v304 : Ref sig .tc := ⟨.hbm, 321, rfl⟩
abbrev main_v305 : Ref sig .tc := ⟨.hbm, 322, rfl⟩
abbrev main_v306 : Ref sig .tc := ⟨.hbm, 323, rfl⟩
abbrev main_v307 : Ref sig .tc := ⟨.hbm, 324, rfl⟩
abbrev main_v308 : Ref sig .tc := ⟨.hbm, 325, rfl⟩
abbrev main_v309 : Ref sig .tc := ⟨.hbm, 326, rfl⟩
abbrev main_v310 : Ref sig .tc := ⟨.hbm, 327, rfl⟩
abbrev main_v311 : Ref sig .tc := ⟨.hbm, 328, rfl⟩
abbrev main_v312 : Ref sig .tc := ⟨.hbm, 329, rfl⟩
abbrev main_v313 : Ref sig .tc := ⟨.hbm, 330, rfl⟩
abbrev main_v314 : Ref sig .tc := ⟨.hbm, 331, rfl⟩
abbrev main_v315 : Ref sig .tc := ⟨.hbm, 332, rfl⟩
abbrev main_v316 : Ref sig .tc := ⟨.hbm, 333, rfl⟩
abbrev main_v317 : Ref sig .tc := ⟨.hbm, 334, rfl⟩
abbrev main_v318 : Ref sig .tc := ⟨.hbm, 335, rfl⟩
abbrev main_v319 : Ref sig .tc := ⟨.hbm, 336, rfl⟩
abbrev main_v320 : Ref sig .tc := ⟨.hbm, 337, rfl⟩
abbrev main_v321 : Ref sig .tc := ⟨.hbm, 338, rfl⟩
abbrev main_v322 : Ref sig .tc := ⟨.hbm, 339, rfl⟩
abbrev main_v323 : Ref sig .tc := ⟨.hbm, 340, rfl⟩
abbrev main_v324 : Ref sig .tc := ⟨.hbm, 341, rfl⟩
abbrev main_v325 : Ref sig .tc := ⟨.hbm, 342, rfl⟩
abbrev main_v326 : Ref sig .tc := ⟨.hbm, 343, rfl⟩
abbrev main_v327 : Ref sig .tc := ⟨.hbm, 344, rfl⟩
abbrev main_v328 : Ref sig .tc := ⟨.hbm, 345, rfl⟩
abbrev main_v329 : Ref sig .tc := ⟨.hbm, 346, rfl⟩
abbrev main_v330 : Ref sig .tc := ⟨.hbm, 347, rfl⟩
abbrev main_v331 : Ref sig .tc := ⟨.hbm, 348, rfl⟩
abbrev main_v332 : Ref sig .tc := ⟨.hbm, 349, rfl⟩
abbrev main_v333 : Ref sig .tc := ⟨.hbm, 350, rfl⟩
abbrev main_v334 : Ref sig .tc := ⟨.hbm, 351, rfl⟩
abbrev main_v335 : Ref sig .tc := ⟨.hbm, 352, rfl⟩
abbrev main_v336 : Ref sig .tc := ⟨.hbm, 353, rfl⟩
abbrev main_v337 : Ref sig .tc := ⟨.hbm, 354, rfl⟩
abbrev main_v338 : Ref sig .tc := ⟨.hbm, 355, rfl⟩
abbrev main_v339 : Ref sig .tc := ⟨.hbm, 356, rfl⟩
abbrev main_v340 : Ref sig .tc := ⟨.hbm, 357, rfl⟩
abbrev main_v341 : Ref sig .tc := ⟨.hbm, 358, rfl⟩
abbrev main_v342 : Ref sig .tc := ⟨.hbm, 359, rfl⟩
abbrev main_v343 : Ref sig .tc := ⟨.hbm, 360, rfl⟩
abbrev main_v344 : Ref sig .tc := ⟨.hbm, 361, rfl⟩
abbrev main_v345 : Ref sig .tc := ⟨.hbm, 362, rfl⟩
abbrev main_v346 : Ref sig .tc := ⟨.hbm, 363, rfl⟩
abbrev main_v347 : Ref sig .tc := ⟨.hbm, 364, rfl⟩
abbrev main_v348 : Ref sig .tc := ⟨.hbm, 365, rfl⟩
abbrev main_v349 : Ref sig .tc := ⟨.hbm, 366, rfl⟩
abbrev main_v350 : Ref sig .tc := ⟨.hbm, 367, rfl⟩
abbrev main_v351 : Ref sig .tc := ⟨.hbm, 368, rfl⟩
abbrev main_v352 : Ref sig .tc := ⟨.hbm, 369, rfl⟩
abbrev main_v353 : Ref sig .tc := ⟨.hbm, 370, rfl⟩
abbrev main_v354 : Ref sig .tc := ⟨.hbm, 371, rfl⟩
abbrev main_v355 : Ref sig .tc := ⟨.hbm, 372, rfl⟩
abbrev main_v356 : Ref sig .tc := ⟨.hbm, 373, rfl⟩
abbrev main_v357 : Ref sig .tc := ⟨.hbm, 374, rfl⟩
abbrev main_v358 : Ref sig .tc := ⟨.hbm, 375, rfl⟩
abbrev main_v359 : Ref sig .tc := ⟨.hbm, 376, rfl⟩
abbrev main_v360 : Ref sig .tc := ⟨.hbm, 377, rfl⟩
abbrev main_v361 : Ref sig .tc := ⟨.hbm, 378, rfl⟩
abbrev main_v362 : Ref sig .tc := ⟨.hbm, 379, rfl⟩
abbrev main_v363 : Ref sig .tc := ⟨.hbm, 380, rfl⟩
abbrev main_v364 : Ref sig .tc := ⟨.hbm, 381, rfl⟩
abbrev main_v365 : Ref sig .tc := ⟨.hbm, 382, rfl⟩
abbrev main_v366 : Ref sig .tc := ⟨.hbm, 383, rfl⟩
abbrev main_v367 : Ref sig .tc := ⟨.hbm, 384, rfl⟩
abbrev main_v368 : Ref sig .tc := ⟨.hbm, 385, rfl⟩
abbrev main_v369 : Ref sig .tc := ⟨.hbm, 386, rfl⟩
abbrev main_v370 : Ref sig .tc := ⟨.hbm, 387, rfl⟩
abbrev main_v371 : Ref sig .tc := ⟨.hbm, 388, rfl⟩
abbrev main_v372 : Ref sig .tc := ⟨.hbm, 389, rfl⟩
abbrev main_v373 : Ref sig .tc := ⟨.hbm, 390, rfl⟩
abbrev main_v374 : Ref sig .tc := ⟨.hbm, 391, rfl⟩
abbrev main_v375 : Ref sig .tc := ⟨.hbm, 392, rfl⟩
abbrev main_v376 : Ref sig .tc := ⟨.hbm, 393, rfl⟩
abbrev main_v377 : Ref sig .tc := ⟨.hbm, 394, rfl⟩
abbrev main_v378 : Ref sig .tc := ⟨.hbm, 395, rfl⟩
abbrev main_v379 : Ref sig .tc := ⟨.hbm, 396, rfl⟩
abbrev main_v380 : Ref sig .tc := ⟨.hbm, 397, rfl⟩
abbrev main_v381 : Ref sig .tc := ⟨.hbm, 398, rfl⟩
abbrev main_v382 : Ref sig .tc := ⟨.hbm, 399, rfl⟩
abbrev main_v383 : Ref sig .tc := ⟨.hbm, 400, rfl⟩
abbrev main_v384 : Ref sig .tc := ⟨.hbm, 401, rfl⟩
abbrev main_v385 : Ref sig .tc := ⟨.hbm, 402, rfl⟩
abbrev main_v386 : Ref sig .tc := ⟨.hbm, 403, rfl⟩
abbrev main_v387 : Ref sig .tc := ⟨.hbm, 404, rfl⟩
abbrev main_v388 : Ref sig .tc := ⟨.hbm, 405, rfl⟩
abbrev main_v389 : Ref sig .tc := ⟨.hbm, 406, rfl⟩
abbrev main_v390 : Ref sig .tc := ⟨.hbm, 407, rfl⟩
abbrev main_v391 : Ref sig .tc := ⟨.hbm, 408, rfl⟩
abbrev main_v392 : Ref sig .tc := ⟨.hbm, 409, rfl⟩
abbrev main_v393 : Ref sig .tc := ⟨.hbm, 410, rfl⟩
abbrev main_v394 : Ref sig .tc := ⟨.hbm, 411, rfl⟩
abbrev main_v395 : Ref sig .tc := ⟨.hbm, 412, rfl⟩
abbrev main_v396 : Ref sig .tc := ⟨.hbm, 413, rfl⟩
abbrev main_v397 : Ref sig .tc := ⟨.hbm, 414, rfl⟩
abbrev main_v398 : Ref sig .tc := ⟨.hbm, 415, rfl⟩
abbrev main_v399 : Ref sig .tc := ⟨.hbm, 416, rfl⟩
abbrev main_v400 : Ref sig .tc := ⟨.hbm, 417, rfl⟩
abbrev main_v401 : Ref sig .tc := ⟨.hbm, 418, rfl⟩
abbrev main_v402 : Ref sig .tc := ⟨.hbm, 419, rfl⟩
abbrev main_v403 : Ref sig .tc := ⟨.hbm, 420, rfl⟩
abbrev main_v404 : Ref sig .tc := ⟨.hbm, 421, rfl⟩
abbrev main_v405 : Ref sig .tc := ⟨.hbm, 422, rfl⟩
abbrev main_v406 : Ref sig .tc := ⟨.hbm, 423, rfl⟩
abbrev main_v407 : Ref sig .tc := ⟨.hbm, 424, rfl⟩
abbrev main_v408 : Ref sig .tc := ⟨.hbm, 425, rfl⟩
abbrev main_v409 : Ref sig .tc := ⟨.hbm, 426, rfl⟩
abbrev main_v410 : Ref sig .tc := ⟨.hbm, 427, rfl⟩
abbrev main_v411 : Ref sig .tc := ⟨.hbm, 428, rfl⟩
abbrev main_v412 : Ref sig .tc := ⟨.hbm, 429, rfl⟩
abbrev main_v413 : Ref sig .tc := ⟨.hbm, 430, rfl⟩
abbrev main_v414 : Ref sig .tc := ⟨.hbm, 431, rfl⟩
abbrev main_v415 : Ref sig .tc := ⟨.hbm, 432, rfl⟩
abbrev main_v416 : Ref sig .tc := ⟨.hbm, 433, rfl⟩
abbrev main_v417 : Ref sig .tc := ⟨.hbm, 434, rfl⟩
abbrev main_v418 : Ref sig .tc := ⟨.hbm, 435, rfl⟩
abbrev main_v419 : Ref sig .tc := ⟨.hbm, 436, rfl⟩
abbrev main_v420 : Ref sig .tc := ⟨.hbm, 437, rfl⟩
abbrev main_v421 : Ref sig .tc := ⟨.hbm, 438, rfl⟩
abbrev main_v422 : Ref sig .tc := ⟨.hbm, 439, rfl⟩
abbrev main_v423 : Ref sig .tc := ⟨.hbm, 440, rfl⟩
abbrev main_v424 : Ref sig .tc := ⟨.hbm, 441, rfl⟩
abbrev main_v425 : Ref sig .tc := ⟨.hbm, 442, rfl⟩
abbrev main_v426 : Ref sig .tc := ⟨.hbm, 443, rfl⟩
abbrev main_v427 : Ref sig .tc := ⟨.hbm, 444, rfl⟩
abbrev main_v428 : Ref sig .tc := ⟨.hbm, 445, rfl⟩
abbrev main_v429 : Ref sig .tc := ⟨.hbm, 446, rfl⟩
abbrev main_v430 : Ref sig .tc := ⟨.hbm, 447, rfl⟩
abbrev main_v431 : Ref sig .tc := ⟨.hbm, 448, rfl⟩
abbrev main_v432 : Ref sig .tc := ⟨.hbm, 449, rfl⟩
abbrev main_v433 : Ref sig .tc := ⟨.hbm, 450, rfl⟩
abbrev main_v434 : Ref sig .tc := ⟨.hbm, 451, rfl⟩
abbrev main_v435 : Ref sig .tc := ⟨.hbm, 452, rfl⟩
abbrev main_v436 : Ref sig .tc := ⟨.hbm, 453, rfl⟩
abbrev main_v437 : Ref sig .tc := ⟨.hbm, 454, rfl⟩
abbrev main_v438 : Ref sig .tc := ⟨.hbm, 455, rfl⟩
abbrev main_v439 : Ref sig .tc := ⟨.hbm, 456, rfl⟩
abbrev main_v440 : Ref sig .tc := ⟨.hbm, 457, rfl⟩
abbrev main_v441 : Ref sig .tc := ⟨.hbm, 458, rfl⟩
abbrev main_v442 : Ref sig .tc := ⟨.hbm, 459, rfl⟩
abbrev main_v443 : Ref sig .tc := ⟨.hbm, 460, rfl⟩
abbrev main_v444 : Ref sig .tc := ⟨.hbm, 461, rfl⟩
abbrev main_v445 : Ref sig .tc := ⟨.hbm, 462, rfl⟩
abbrev main_v446 : Ref sig .tc := ⟨.hbm, 463, rfl⟩
abbrev main_v447 : Ref sig .tc := ⟨.hbm, 464, rfl⟩
abbrev main_v448 : Ref sig .tc := ⟨.hbm, 465, rfl⟩
abbrev main_v449 : Ref sig .tc := ⟨.hbm, 466, rfl⟩
abbrev main_v450 : Ref sig .tc := ⟨.hbm, 467, rfl⟩
abbrev main_v451 : Ref sig .tc := ⟨.hbm, 468, rfl⟩
abbrev main_v452 : Ref sig .tc := ⟨.hbm, 469, rfl⟩
abbrev main_v453 : Ref sig .tc := ⟨.hbm, 470, rfl⟩
abbrev main_v454 : Ref sig .tc := ⟨.hbm, 471, rfl⟩
abbrev main_v455 : Ref sig .tc := ⟨.hbm, 472, rfl⟩
abbrev main_v456 : Ref sig .tc := ⟨.hbm, 473, rfl⟩
abbrev main_v457 : Ref sig .tc := ⟨.hbm, 474, rfl⟩
abbrev main_v458 : Ref sig .tc := ⟨.hbm, 475, rfl⟩
abbrev main_v459 : Ref sig .tc := ⟨.hbm, 476, rfl⟩
abbrev main_v460 : Ref sig .tc := ⟨.hbm, 477, rfl⟩
abbrev main_v461 : Ref sig .tc := ⟨.hbm, 478, rfl⟩
abbrev main_v462 : Ref sig .tc := ⟨.hbm, 479, rfl⟩
abbrev main_v463 : Ref sig .tc := ⟨.hbm, 480, rfl⟩
abbrev main_v464 : Ref sig .tc := ⟨.hbm, 481, rfl⟩
abbrev main_v465 : Ref sig .tc := ⟨.hbm, 482, rfl⟩
abbrev main_v466 : Ref sig .tc := ⟨.hbm, 483, rfl⟩
abbrev main_v467 : Ref sig .tc := ⟨.hbm, 484, rfl⟩
abbrev main_v468 : Ref sig .tc := ⟨.hbm, 485, rfl⟩
abbrev main_v469 : Ref sig .tc := ⟨.hbm, 486, rfl⟩
abbrev main_v470 : Ref sig .tc := ⟨.hbm, 487, rfl⟩
abbrev main_v471 : Ref sig .tc := ⟨.hbm, 488, rfl⟩
abbrev main_v472 : Ref sig .tc := ⟨.hbm, 489, rfl⟩
abbrev main_v473 : Ref sig .tc := ⟨.hbm, 490, rfl⟩
abbrev main_v474 : Ref sig .tc := ⟨.hbm, 491, rfl⟩
abbrev main_v475 : Ref sig .tc := ⟨.hbm, 492, rfl⟩
abbrev main_v476 : Ref sig .tc := ⟨.hbm, 493, rfl⟩
abbrev main_v477 : Ref sig .tc := ⟨.hbm, 494, rfl⟩
abbrev main_v478 : Ref sig .tc := ⟨.hbm, 495, rfl⟩
abbrev main_v479 : Ref sig .tc := ⟨.hbm, 496, rfl⟩
abbrev main_v480 : Ref sig .tc := ⟨.hbm, 497, rfl⟩
abbrev main_v481 : Ref sig .tc := ⟨.hbm, 498, rfl⟩
abbrev main_v482 : Ref sig .tc := ⟨.hbm, 499, rfl⟩
abbrev main_v483 : Ref sig .tc := ⟨.hbm, 500, rfl⟩
abbrev main_v484 : Ref sig .tc := ⟨.hbm, 501, rfl⟩
abbrev main_v485 : Ref sig .tc := ⟨.hbm, 502, rfl⟩
abbrev main_v486 : Ref sig .tc := ⟨.hbm, 503, rfl⟩
abbrev main_v487 : Ref sig .tc := ⟨.hbm, 504, rfl⟩
abbrev main_v488 : Ref sig .tc := ⟨.hbm, 505, rfl⟩
abbrev main_v489 : Ref sig .tc := ⟨.hbm, 506, rfl⟩
abbrev main_v490 : Ref sig .tc := ⟨.hbm, 507, rfl⟩
abbrev main_v491 : Ref sig .tc := ⟨.hbm, 508, rfl⟩
abbrev main_v492 : Ref sig .tc := ⟨.hbm, 509, rfl⟩
abbrev main_v493 : Ref sig .tc := ⟨.hbm, 510, rfl⟩
abbrev main_v494 : Ref sig .tc := ⟨.hbm, 511, rfl⟩
abbrev main_v495 : Ref sig .tc := ⟨.hbm, 512, rfl⟩
abbrev main_v496 : Ref sig .tc := ⟨.hbm, 513, rfl⟩
abbrev main_v497 : Ref sig .tc := ⟨.hbm, 514, rfl⟩
abbrev main_v498 : Ref sig .tc := ⟨.hbm, 515, rfl⟩
abbrev main_v499 : Ref sig .tc := ⟨.hbm, 516, rfl⟩
abbrev main_v500 : Ref sig .tc := ⟨.hbm, 517, rfl⟩
abbrev main_v501 : Ref sig .tc := ⟨.hbm, 518, rfl⟩
abbrev main_v502 : Ref sig .tc := ⟨.hbm, 519, rfl⟩
abbrev main_v503 : Ref sig .tc := ⟨.hbm, 520, rfl⟩
abbrev main_v504 : Ref sig .tc := ⟨.hbm, 521, rfl⟩
abbrev main_v505 : Ref sig .tc := ⟨.hbm, 522, rfl⟩
abbrev main_v506 : Ref sig .tc := ⟨.hbm, 523, rfl⟩
abbrev main_v507 : Ref sig .tc := ⟨.hbm, 524, rfl⟩
abbrev main_v508 : Ref sig .tc := ⟨.hbm, 525, rfl⟩
abbrev main_v509 : Ref sig .tc := ⟨.hbm, 526, rfl⟩
abbrev main_v510 : Ref sig .tc := ⟨.hbm, 527, rfl⟩
abbrev main_v511 : Ref sig .tc := ⟨.hbm, 528, rfl⟩
abbrev main_v512 : Ref sig .tc := ⟨.hbm, 529, rfl⟩
abbrev main_v513 : Ref sig .tc := ⟨.hbm, 530, rfl⟩
abbrev main_v514 : Ref sig .tc := ⟨.hbm, 531, rfl⟩
abbrev main_v515 : Ref sig .tc := ⟨.hbm, 532, rfl⟩
abbrev main_v516 : Ref sig .tc := ⟨.hbm, 533, rfl⟩
abbrev main_v517 : Ref sig .tc := ⟨.hbm, 534, rfl⟩
abbrev main_v518 : Ref sig .tc := ⟨.hbm, 535, rfl⟩
abbrev main_v519 : Ref sig .tc := ⟨.hbm, 536, rfl⟩
abbrev main_v520 : Ref sig .tc := ⟨.hbm, 537, rfl⟩
abbrev main_v521 : Ref sig .tc := ⟨.hbm, 538, rfl⟩
abbrev main_v522 : Ref sig .tc := ⟨.hbm, 539, rfl⟩
abbrev main_v523 : Ref sig .tc := ⟨.hbm, 540, rfl⟩
abbrev main_v524 : Ref sig .tc := ⟨.hbm, 541, rfl⟩
abbrev main_v525 : Ref sig .tc := ⟨.hbm, 542, rfl⟩
abbrev main_v526 : Ref sig .tc := ⟨.hbm, 543, rfl⟩
abbrev main_v527 : Ref sig .tc := ⟨.hbm, 544, rfl⟩
abbrev main_v528 : Ref sig .tc := ⟨.hbm, 545, rfl⟩
abbrev main_v529 : Ref sig .tc := ⟨.hbm, 546, rfl⟩
abbrev main_v530 : Ref sig .tc := ⟨.hbm, 547, rfl⟩
abbrev main_v531 : Ref sig .tc := ⟨.hbm, 548, rfl⟩
abbrev main_v532 : Ref sig .tc := ⟨.hbm, 549, rfl⟩
abbrev main_v533 : Ref sig .tc := ⟨.hbm, 550, rfl⟩
abbrev main_v534 : Ref sig .tc := ⟨.hbm, 551, rfl⟩
abbrev main_v535 : Ref sig .tc := ⟨.hbm, 552, rfl⟩
abbrev main_v536 : Ref sig .tc := ⟨.hbm, 553, rfl⟩
abbrev main_v537 : Ref sig .tc := ⟨.hbm, 554, rfl⟩
abbrev main_v538 : Ref sig .tc := ⟨.hbm, 555, rfl⟩
abbrev main_v539 : Ref sig .tc := ⟨.hbm, 556, rfl⟩
abbrev main_v540 : Ref sig .tc := ⟨.hbm, 557, rfl⟩
abbrev main_v541 : Ref sig .tc := ⟨.hbm, 558, rfl⟩
abbrev main_v542 : Ref sig .tc := ⟨.hbm, 559, rfl⟩
abbrev main_v543 : Ref sig .tc := ⟨.hbm, 560, rfl⟩
abbrev main_v544 : Ref sig .tc := ⟨.hbm, 561, rfl⟩
abbrev main_v545 : Ref sig .tc := ⟨.hbm, 562, rfl⟩
abbrev main_v546 : Ref sig .tc := ⟨.hbm, 563, rfl⟩
abbrev main_v547 : Ref sig .tc := ⟨.hbm, 564, rfl⟩
abbrev main_v548 : Ref sig .tc := ⟨.hbm, 565, rfl⟩
abbrev main_v549 : Ref sig .tc := ⟨.hbm, 566, rfl⟩
abbrev main_v550 : Ref sig .tc := ⟨.hbm, 567, rfl⟩
abbrev main_v551 : Ref sig .tc := ⟨.hbm, 568, rfl⟩
abbrev main_v552 : Ref sig .tc := ⟨.hbm, 569, rfl⟩
abbrev main_v553 : Ref sig .tc := ⟨.hbm, 570, rfl⟩
abbrev main_v554 : Ref sig .tc := ⟨.hbm, 571, rfl⟩
abbrev main_v555 : Ref sig .tc := ⟨.hbm, 572, rfl⟩
abbrev main_v556 : Ref sig .tc := ⟨.hbm, 573, rfl⟩
abbrev main_v557 : Ref sig .tc := ⟨.hbm, 574, rfl⟩
abbrev main_v558 : Ref sig .tc := ⟨.hbm, 575, rfl⟩
abbrev main_v559 : Ref sig .tc := ⟨.hbm, 576, rfl⟩
abbrev main_v560 : Ref sig .tc := ⟨.hbm, 577, rfl⟩
abbrev main_v561 : Ref sig .tc := ⟨.hbm, 578, rfl⟩
abbrev main_v562 : Ref sig .tc := ⟨.hbm, 579, rfl⟩
abbrev main_v563 : Ref sig .tc := ⟨.hbm, 580, rfl⟩
abbrev main_v564 : Ref sig .tc := ⟨.hbm, 581, rfl⟩
abbrev main_v565 : Ref sig .tc := ⟨.hbm, 582, rfl⟩
abbrev main_v566 : Ref sig .tc := ⟨.hbm, 583, rfl⟩
abbrev main_v567 : Ref sig .tc := ⟨.hbm, 584, rfl⟩
abbrev main_v568 : Ref sig .tc := ⟨.hbm, 585, rfl⟩
abbrev main_v569 : Ref sig .tc := ⟨.hbm, 586, rfl⟩
abbrev main_v570 : Ref sig .tc := ⟨.hbm, 587, rfl⟩
abbrev main_v571 : Ref sig .tc := ⟨.hbm, 588, rfl⟩
abbrev main_v572 : Ref sig .tc := ⟨.hbm, 589, rfl⟩
abbrev main_v573 : Ref sig .tc := ⟨.hbm, 590, rfl⟩
abbrev main_v574 : Ref sig .tc := ⟨.hbm, 591, rfl⟩
abbrev main_v575 : Ref sig .tc := ⟨.hbm, 592, rfl⟩
abbrev main_v576 : Ref sig .tc := ⟨.hbm, 593, rfl⟩
abbrev main_v577 : Ref sig .tc := ⟨.hbm, 594, rfl⟩
abbrev main_v578 : Ref sig .tc := ⟨.hbm, 595, rfl⟩
abbrev main_v579 : Ref sig .tc := ⟨.hbm, 596, rfl⟩
abbrev main_v580 : Ref sig .tc := ⟨.hbm, 597, rfl⟩
abbrev main_v581 : Ref sig .tc := ⟨.hbm, 598, rfl⟩
abbrev main_v582 : Ref sig .tc := ⟨.hbm, 599, rfl⟩
abbrev main_v583 : Ref sig .tc := ⟨.hbm, 600, rfl⟩
abbrev main_v584 : Ref sig .tc := ⟨.hbm, 601, rfl⟩
abbrev main_v585 : Ref sig .tc := ⟨.hbm, 602, rfl⟩
abbrev main_v586 : Ref sig .tc := ⟨.hbm, 603, rfl⟩
abbrev main_v587 : Ref sig .tc := ⟨.hbm, 604, rfl⟩
abbrev main_v588 : Ref sig .tc := ⟨.hbm, 605, rfl⟩
abbrev main_v589 : Ref sig .tc := ⟨.hbm, 606, rfl⟩
abbrev main_v590 : Ref sig .tc := ⟨.hbm, 607, rfl⟩
abbrev main_v591 : Ref sig .tc := ⟨.hbm, 608, rfl⟩
abbrev main_v592 : Ref sig .tc := ⟨.hbm, 609, rfl⟩
abbrev main_v593 : Ref sig .tc := ⟨.hbm, 610, rfl⟩
abbrev main_v594 : Ref sig .tc := ⟨.hbm, 611, rfl⟩
abbrev main_v595 : Ref sig .tc := ⟨.hbm, 612, rfl⟩
abbrev main_v596 : Ref sig .tc := ⟨.hbm, 613, rfl⟩
abbrev main_v597 : Ref sig .tc := ⟨.hbm, 614, rfl⟩
abbrev main_v598 : Ref sig .tc := ⟨.hbm, 615, rfl⟩
abbrev main_v599 : Ref sig .tc := ⟨.hbm, 616, rfl⟩
abbrev main_v600 : Ref sig .tc := ⟨.hbm, 617, rfl⟩
abbrev main_v601 : Ref sig .tc := ⟨.hbm, 618, rfl⟩
abbrev main_v602 : Ref sig .tc := ⟨.hbm, 619, rfl⟩
abbrev main_v603 : Ref sig .tc := ⟨.hbm, 620, rfl⟩
abbrev main_v604 : Ref sig .tc := ⟨.hbm, 621, rfl⟩
abbrev main_v605 : Ref sig .tc := ⟨.hbm, 622, rfl⟩
abbrev main_v606 : Ref sig .tc := ⟨.hbm, 623, rfl⟩
abbrev main_v607 : Ref sig .tc := ⟨.hbm, 624, rfl⟩
abbrev main_v608 : Ref sig .tc := ⟨.hbm, 625, rfl⟩
abbrev main_v609 : Ref sig .tc := ⟨.hbm, 626, rfl⟩
abbrev main_v610 : Ref sig .tc := ⟨.hbm, 627, rfl⟩
abbrev main_v611 : Ref sig .tc := ⟨.hbm, 628, rfl⟩
abbrev main_v612 : Ref sig .tc := ⟨.hbm, 629, rfl⟩
abbrev main_v613 : Ref sig .tc := ⟨.hbm, 630, rfl⟩
abbrev main_v614 : Ref sig .tc := ⟨.hbm, 631, rfl⟩
abbrev main_v615 : Ref sig .tc := ⟨.hbm, 632, rfl⟩
abbrev main_v616 : Ref sig .tc := ⟨.hbm, 633, rfl⟩
abbrev main_v617 : Ref sig .tc := ⟨.hbm, 634, rfl⟩
abbrev main_v618 : Ref sig .tc := ⟨.hbm, 635, rfl⟩
abbrev main_v619 : Ref sig .tc := ⟨.hbm, 636, rfl⟩
abbrev main_v620 : Ref sig .tc := ⟨.hbm, 637, rfl⟩
abbrev main_v621 : Ref sig .tc := ⟨.hbm, 638, rfl⟩
abbrev main_v622 : Ref sig .tc := ⟨.hbm, 639, rfl⟩
abbrev main_v623 : Ref sig .tc := ⟨.hbm, 640, rfl⟩
abbrev main_v624 : Ref sig .tc := ⟨.hbm, 641, rfl⟩
abbrev main_v625 : Ref sig .tc := ⟨.hbm, 642, rfl⟩
abbrev main_v626 : Ref sig .tc := ⟨.hbm, 643, rfl⟩
abbrev main_v627 : Ref sig .tc := ⟨.hbm, 644, rfl⟩
abbrev main_v628 : Ref sig .tc := ⟨.hbm, 645, rfl⟩
abbrev main_v629 : Ref sig .tc := ⟨.hbm, 646, rfl⟩
abbrev main_v630 : Ref sig .tc := ⟨.hbm, 647, rfl⟩
abbrev main_v631 : Ref sig .tc := ⟨.hbm, 648, rfl⟩
abbrev main_v632 : Ref sig .tc := ⟨.hbm, 649, rfl⟩
abbrev main_v633 : Ref sig .tc := ⟨.hbm, 650, rfl⟩
abbrev main_v634 : Ref sig .tc := ⟨.hbm, 651, rfl⟩
abbrev main_v635 : Ref sig .tc := ⟨.hbm, 652, rfl⟩
abbrev main_v636 : Ref sig .tc := ⟨.hbm, 653, rfl⟩
abbrev main_v637 : Ref sig .tc := ⟨.hbm, 654, rfl⟩
abbrev main_v638 : Ref sig .tc := ⟨.hbm, 655, rfl⟩
abbrev main_v639 : Ref sig .tc := ⟨.hbm, 656, rfl⟩
abbrev main_v640 : Ref sig .tc := ⟨.hbm, 657, rfl⟩
abbrev main_v641 : Ref sig .tc := ⟨.hbm, 658, rfl⟩
abbrev main_v642 : Ref sig .tc := ⟨.hbm, 659, rfl⟩
abbrev main_v643 : Ref sig .tc := ⟨.hbm, 660, rfl⟩
abbrev main_v644 : Ref sig .tc := ⟨.hbm, 661, rfl⟩
abbrev main_v645 : Ref sig .tc := ⟨.hbm, 662, rfl⟩
abbrev main_v646 : Ref sig .tc := ⟨.hbm, 663, rfl⟩
abbrev main_v647 : Ref sig .tc := ⟨.hbm, 664, rfl⟩
abbrev main_v648 : Ref sig .tc := ⟨.hbm, 665, rfl⟩
abbrev main_v649 : Ref sig .tc := ⟨.hbm, 666, rfl⟩
abbrev main_v650 : Ref sig .tc := ⟨.hbm, 667, rfl⟩
abbrev main_v651 : Ref sig .tc := ⟨.hbm, 668, rfl⟩
abbrev main_v652 : Ref sig .tc := ⟨.hbm, 669, rfl⟩
abbrev main_v653 : Ref sig .tc := ⟨.hbm, 670, rfl⟩
abbrev main_v654 : Ref sig .tc := ⟨.hbm, 671, rfl⟩
abbrev main_v655 : Ref sig .tc := ⟨.hbm, 672, rfl⟩
abbrev main_v656 : Ref sig .tc := ⟨.hbm, 673, rfl⟩
abbrev main_v657 : Ref sig .tc := ⟨.hbm, 674, rfl⟩
abbrev main_v658 : Ref sig .tc := ⟨.hbm, 675, rfl⟩
abbrev main_v659 : Ref sig .tc := ⟨.hbm, 676, rfl⟩
abbrev main_v660 : Ref sig .tc := ⟨.hbm, 677, rfl⟩
abbrev main_v661 : Ref sig .tc := ⟨.hbm, 678, rfl⟩
abbrev main_v662 : Ref sig .tc := ⟨.hbm, 679, rfl⟩
abbrev main_v663 : Ref sig .tc := ⟨.hbm, 680, rfl⟩
abbrev main_v664 : Ref sig .tc := ⟨.hbm, 681, rfl⟩
abbrev main_v665 : Ref sig .tc := ⟨.hbm, 682, rfl⟩
abbrev main_v666 : Ref sig .tc := ⟨.hbm, 683, rfl⟩
abbrev main_v667 : Ref sig .tc := ⟨.hbm, 684, rfl⟩
abbrev main_v668 : Ref sig .tc := ⟨.hbm, 685, rfl⟩
abbrev main_v669 : Ref sig .tc := ⟨.hbm, 686, rfl⟩
abbrev main_v670 : Ref sig .tc := ⟨.hbm, 687, rfl⟩
abbrev main_v671 : Ref sig .tc := ⟨.hbm, 688, rfl⟩
abbrev main_v672 : Ref sig .tc := ⟨.hbm, 689, rfl⟩
abbrev main_v673 : Ref sig .tc := ⟨.hbm, 690, rfl⟩
abbrev main_v674 : Ref sig .tc := ⟨.hbm, 691, rfl⟩
abbrev main_v675 : Ref sig .tc := ⟨.hbm, 692, rfl⟩
abbrev main_v676 : Ref sig .tc := ⟨.hbm, 693, rfl⟩
abbrev main_v677 : Ref sig .tc := ⟨.hbm, 694, rfl⟩
abbrev main_v678 : Ref sig .tc := ⟨.hbm, 695, rfl⟩
abbrev main_v679 : Ref sig .tc := ⟨.hbm, 696, rfl⟩
abbrev main_v680 : Ref sig .tc := ⟨.hbm, 697, rfl⟩
abbrev main_v681 : Ref sig .tc := ⟨.hbm, 698, rfl⟩
abbrev main_v682 : Ref sig .tc := ⟨.hbm, 699, rfl⟩
abbrev main_v683 : Ref sig .tc := ⟨.hbm, 700, rfl⟩
abbrev main_v684 : Ref sig .tc := ⟨.hbm, 701, rfl⟩
abbrev main_v685 : Ref sig .tc := ⟨.hbm, 702, rfl⟩
abbrev main_v686 : Ref sig .tc := ⟨.hbm, 703, rfl⟩
abbrev main_v687 : Ref sig .tc := ⟨.hbm, 704, rfl⟩
abbrev main_v688 : Ref sig .tc := ⟨.hbm, 705, rfl⟩
abbrev main_v689 : Ref sig .tc := ⟨.hbm, 706, rfl⟩
abbrev main_v690 : Ref sig .tc := ⟨.hbm, 707, rfl⟩
abbrev main_v691 : Ref sig .tc := ⟨.hbm, 708, rfl⟩
abbrev main_v692 : Ref sig .tc := ⟨.hbm, 709, rfl⟩
abbrev main_v693 : Ref sig .tc := ⟨.hbm, 710, rfl⟩
abbrev main_v694 : Ref sig .tc := ⟨.hbm, 711, rfl⟩
abbrev main_v695 : Ref sig .tc := ⟨.hbm, 712, rfl⟩
abbrev main_v696 : Ref sig .tc := ⟨.hbm, 713, rfl⟩
abbrev main_v697 : Ref sig .tc := ⟨.hbm, 714, rfl⟩
abbrev main_v698 : Ref sig .tc := ⟨.hbm, 715, rfl⟩
abbrev main_v699 : Ref sig .tc := ⟨.hbm, 716, rfl⟩
abbrev main_v700 : Ref sig .tc := ⟨.hbm, 717, rfl⟩
abbrev main_v701 : Ref sig .tc := ⟨.hbm, 718, rfl⟩
abbrev main_v702 : Ref sig .tc := ⟨.hbm, 719, rfl⟩
abbrev main_v703 : Ref sig .tc := ⟨.hbm, 720, rfl⟩
abbrev main_v704 : Ref sig .tc := ⟨.hbm, 721, rfl⟩
abbrev main_v705 : Ref sig .tc := ⟨.hbm, 722, rfl⟩
abbrev main_v706 : Ref sig .tc := ⟨.hbm, 723, rfl⟩
abbrev main_v707 : Ref sig .tc := ⟨.hbm, 724, rfl⟩
abbrev main_v708 : Ref sig .tc := ⟨.hbm, 725, rfl⟩
abbrev main_v709 : Ref sig .tc := ⟨.hbm, 726, rfl⟩
abbrev main_v710 : Ref sig .tc := ⟨.hbm, 727, rfl⟩
abbrev main_v711 : Ref sig .tc := ⟨.hbm, 728, rfl⟩
abbrev main_v712 : Ref sig .tc := ⟨.hbm, 729, rfl⟩
abbrev main_v713 : Ref sig .tc := ⟨.hbm, 730, rfl⟩
abbrev main_v714 : Ref sig .tc := ⟨.hbm, 731, rfl⟩
abbrev main_v715 : Ref sig .tc := ⟨.hbm, 732, rfl⟩
abbrev main_v716 : Ref sig .tc := ⟨.hbm, 733, rfl⟩
abbrev main_v717 : Ref sig .tc := ⟨.hbm, 734, rfl⟩
abbrev main_v718 : Ref sig .tc := ⟨.hbm, 735, rfl⟩
abbrev main_v719 : Ref sig .tc := ⟨.hbm, 736, rfl⟩
abbrev main_v720 : Ref sig .tc := ⟨.hbm, 737, rfl⟩
abbrev main_v721 : Ref sig .tc := ⟨.hbm, 738, rfl⟩
abbrev main_v722 : Ref sig .tc := ⟨.hbm, 739, rfl⟩
abbrev main_v723 : Ref sig .tc := ⟨.hbm, 740, rfl⟩
abbrev main_v724 : Ref sig .tc := ⟨.hbm, 741, rfl⟩
abbrev main_v725 : Ref sig .tc := ⟨.hbm, 742, rfl⟩
abbrev main_v726 : Ref sig .tc := ⟨.hbm, 743, rfl⟩
abbrev main_v727 : Ref sig .tc := ⟨.hbm, 744, rfl⟩
abbrev main_v728 : Ref sig .tc := ⟨.hbm, 745, rfl⟩
abbrev main_v729 : Ref sig .tc := ⟨.hbm, 746, rfl⟩
abbrev main_v730 : Ref sig .tc := ⟨.hbm, 747, rfl⟩
abbrev main_v731 : Ref sig .tc := ⟨.hbm, 748, rfl⟩
abbrev main_v732 : Ref sig .tc := ⟨.hbm, 749, rfl⟩
abbrev main_v733 : Ref sig .tc := ⟨.hbm, 750, rfl⟩
abbrev main_v734 : Ref sig .tc := ⟨.hbm, 751, rfl⟩
abbrev main_v735 : Ref sig .tc := ⟨.hbm, 752, rfl⟩
abbrev main_v736 : Ref sig .tc := ⟨.hbm, 753, rfl⟩
abbrev main_v737 : Ref sig .tc := ⟨.hbm, 754, rfl⟩
abbrev main_v738 : Ref sig .tc := ⟨.hbm, 755, rfl⟩
abbrev main_v739 : Ref sig .tc := ⟨.hbm, 756, rfl⟩
abbrev main_v740 : Ref sig .tc := ⟨.hbm, 757, rfl⟩
abbrev main_v741 : Ref sig .tc := ⟨.hbm, 758, rfl⟩
abbrev main_v742 : Ref sig .tc := ⟨.hbm, 759, rfl⟩
abbrev main_v743 : Ref sig .tc := ⟨.hbm, 760, rfl⟩
abbrev main_v744 : Ref sig .tc := ⟨.hbm, 761, rfl⟩
abbrev main_v745 : Ref sig .tc := ⟨.hbm, 762, rfl⟩
abbrev main_v746 : Ref sig .tc := ⟨.hbm, 763, rfl⟩
abbrev main_v747 : Ref sig .tc := ⟨.hbm, 764, rfl⟩
abbrev main_v748 : Ref sig .tc := ⟨.hbm, 765, rfl⟩
abbrev main_v749 : Ref sig .tc := ⟨.hbm, 766, rfl⟩
abbrev main_v750 : Ref sig .tc := ⟨.hbm, 767, rfl⟩
abbrev main_v751 : Ref sig .tc := ⟨.hbm, 768, rfl⟩
abbrev main_v752 : Ref sig .tc := ⟨.hbm, 769, rfl⟩
abbrev main_v753 : Ref sig .tc := ⟨.hbm, 770, rfl⟩
abbrev main_v754 : Ref sig .tc := ⟨.hbm, 771, rfl⟩
abbrev main_v755 : Ref sig .tc := ⟨.hbm, 772, rfl⟩
abbrev main_v756 : Ref sig .tc := ⟨.hbm, 773, rfl⟩
abbrev main_v757 : Ref sig .tc := ⟨.hbm, 774, rfl⟩
abbrev main_v758 : Ref sig .tc := ⟨.hbm, 775, rfl⟩
abbrev main_v759 : Ref sig .tc := ⟨.hbm, 776, rfl⟩
abbrev main_v760 : Ref sig .tc := ⟨.hbm, 777, rfl⟩
abbrev main_v761 : Ref sig .tc := ⟨.hbm, 778, rfl⟩
abbrev main_v762 : Ref sig .tc := ⟨.hbm, 779, rfl⟩
abbrev main_v763 : Ref sig .tc := ⟨.hbm, 780, rfl⟩
abbrev main_v764 : Ref sig .tc := ⟨.hbm, 781, rfl⟩
abbrev main_v765 : Ref sig .tc := ⟨.hbm, 782, rfl⟩
abbrev main_v766 : Ref sig .tc := ⟨.hbm, 783, rfl⟩
abbrev main_v767 : Ref sig .tc := ⟨.hbm, 784, rfl⟩
abbrev main_v768 : Ref sig .tc := ⟨.hbm, 785, rfl⟩
abbrev main_v769 : Ref sig .tc := ⟨.hbm, 786, rfl⟩
abbrev main_v770 : Ref sig .tc := ⟨.hbm, 787, rfl⟩
abbrev main_v771 : Ref sig .tc := ⟨.hbm, 788, rfl⟩
abbrev main_v772 : Ref sig .tc := ⟨.hbm, 789, rfl⟩
abbrev main_v773 : Ref sig .tc := ⟨.hbm, 790, rfl⟩
abbrev main_v774 : Ref sig .tc := ⟨.hbm, 791, rfl⟩
abbrev main_v775 : Ref sig .tc := ⟨.hbm, 792, rfl⟩
abbrev main_v776 : Ref sig .tc := ⟨.hbm, 793, rfl⟩
abbrev main_v777 : Ref sig .tc := ⟨.hbm, 794, rfl⟩
abbrev main_v778 : Ref sig .tc := ⟨.hbm, 795, rfl⟩
abbrev main_v779 : Ref sig .tc := ⟨.hbm, 796, rfl⟩
abbrev main_v780 : Ref sig .tc := ⟨.hbm, 797, rfl⟩
abbrev main_v781 : Ref sig .tc := ⟨.hbm, 798, rfl⟩
abbrev main_v782 : Ref sig .tc := ⟨.hbm, 799, rfl⟩
abbrev main_v783 : Ref sig .tc := ⟨.hbm, 800, rfl⟩
abbrev main_v784 : Ref sig .tc := ⟨.hbm, 801, rfl⟩
abbrev main_v785 : Ref sig .tc := ⟨.hbm, 802, rfl⟩
abbrev main_v786 : Ref sig .tc := ⟨.hbm, 803, rfl⟩
abbrev main_v787 : Ref sig .tc := ⟨.hbm, 804, rfl⟩
abbrev main_v788 : Ref sig .tc := ⟨.hbm, 805, rfl⟩
abbrev main_v789 : Ref sig .tc := ⟨.hbm, 806, rfl⟩
abbrev main_v790 : Ref sig .tc := ⟨.hbm, 807, rfl⟩
abbrev main_v791 : Ref sig .tc := ⟨.hbm, 808, rfl⟩
abbrev main_v792 : Ref sig .tc := ⟨.hbm, 809, rfl⟩
abbrev main_v793 : Ref sig .tc := ⟨.hbm, 810, rfl⟩
abbrev main_v794 : Ref sig .tc := ⟨.hbm, 811, rfl⟩
abbrev main_v795 : Ref sig .tc := ⟨.hbm, 812, rfl⟩
abbrev main_v796 : Ref sig .tc := ⟨.hbm, 813, rfl⟩
abbrev main_v797 : Ref sig .tc := ⟨.hbm, 814, rfl⟩
abbrev main_v798 : Ref sig .tc := ⟨.hbm, 815, rfl⟩
abbrev main_v799 : Ref sig .tc := ⟨.hbm, 816, rfl⟩
abbrev main_v800 : Ref sig .tc := ⟨.hbm, 817, rfl⟩
abbrev main_v801 : Ref sig .tc := ⟨.hbm, 818, rfl⟩
abbrev main_v802 : Ref sig .tc := ⟨.hbm, 819, rfl⟩
abbrev main_v803 : Ref sig .tc := ⟨.hbm, 820, rfl⟩
abbrev main_v804 : Ref sig .tc := ⟨.hbm, 821, rfl⟩
abbrev main_v805 : Ref sig .tc := ⟨.hbm, 822, rfl⟩
abbrev main_v806 : Ref sig .tc := ⟨.hbm, 823, rfl⟩
abbrev main_v807 : Ref sig .tc := ⟨.hbm, 824, rfl⟩
abbrev main_v808 : Ref sig .tc := ⟨.hbm, 825, rfl⟩
abbrev main_v809 : Ref sig .tc := ⟨.hbm, 826, rfl⟩
abbrev main_v810 : Ref sig .tc := ⟨.hbm, 827, rfl⟩
abbrev main_v811 : Ref sig .tc := ⟨.hbm, 828, rfl⟩
abbrev main_v812 : Ref sig .tc := ⟨.hbm, 829, rfl⟩
abbrev main_v813 : Ref sig .tc := ⟨.hbm, 830, rfl⟩
abbrev main_v814 : Ref sig .tc := ⟨.hbm, 831, rfl⟩
abbrev main_v815 : Ref sig .tc := ⟨.hbm, 832, rfl⟩
abbrev main_v816 : Ref sig .tc := ⟨.hbm, 833, rfl⟩
abbrev main_v817 : Ref sig .tc := ⟨.hbm, 834, rfl⟩
abbrev main_v818 : Ref sig .tc := ⟨.hbm, 835, rfl⟩
abbrev main_v819 : Ref sig .tc := ⟨.hbm, 836, rfl⟩
abbrev main_v820 : Ref sig .tc := ⟨.hbm, 837, rfl⟩
abbrev main_v821 : Ref sig .tc := ⟨.hbm, 838, rfl⟩
abbrev main_v822 : Ref sig .tc := ⟨.hbm, 839, rfl⟩
abbrev main_v823 : Ref sig .tc := ⟨.hbm, 840, rfl⟩
abbrev main_v824 : Ref sig .tc := ⟨.hbm, 841, rfl⟩
abbrev main_v825 : Ref sig .tc := ⟨.hbm, 842, rfl⟩
abbrev main_v826 : Ref sig .tc := ⟨.hbm, 843, rfl⟩
abbrev main_v827 : Ref sig .tc := ⟨.hbm, 844, rfl⟩
abbrev main_v828 : Ref sig .tc := ⟨.hbm, 845, rfl⟩
abbrev main_v829 : Ref sig .tc := ⟨.hbm, 846, rfl⟩
abbrev main_v830 : Ref sig .tc := ⟨.hbm, 847, rfl⟩
abbrev main_v831 : Ref sig .tc := ⟨.hbm, 848, rfl⟩
abbrev main_v832 : Ref sig .tc := ⟨.hbm, 849, rfl⟩
abbrev main_v833 : Ref sig .tc := ⟨.hbm, 850, rfl⟩
abbrev main_v834 : Ref sig .tc := ⟨.hbm, 851, rfl⟩
abbrev main_v835 : Ref sig .tc := ⟨.hbm, 852, rfl⟩
abbrev main_v836 : Ref sig .tc := ⟨.hbm, 853, rfl⟩
abbrev main_v837 : Ref sig .tc := ⟨.hbm, 854, rfl⟩
abbrev main_v838 : Ref sig .tc := ⟨.hbm, 855, rfl⟩
abbrev main_v839 : Ref sig .tc := ⟨.hbm, 856, rfl⟩
abbrev main_v840 : Ref sig .tc := ⟨.hbm, 857, rfl⟩
abbrev main_v841 : Ref sig .tc := ⟨.hbm, 858, rfl⟩
abbrev main_v842 : Ref sig .tc := ⟨.hbm, 859, rfl⟩
abbrev main_v843 : Ref sig .tc := ⟨.hbm, 860, rfl⟩
abbrev main_v844 : Ref sig .tc := ⟨.hbm, 861, rfl⟩
abbrev main_v845 : Ref sig .tc := ⟨.hbm, 862, rfl⟩
abbrev main_v846 : Ref sig .tc := ⟨.hbm, 863, rfl⟩
abbrev main_v847 : Ref sig .tc := ⟨.hbm, 864, rfl⟩
abbrev main_v848 : Ref sig .tc := ⟨.hbm, 865, rfl⟩
abbrev main_v849 : Ref sig .tc := ⟨.hbm, 866, rfl⟩
abbrev main_v850 : Ref sig .tc := ⟨.hbm, 867, rfl⟩
abbrev main_v851 : Ref sig .tc := ⟨.hbm, 868, rfl⟩
abbrev main_v852 : Ref sig .tc := ⟨.hbm, 869, rfl⟩
abbrev main_v853 : Ref sig .tc := ⟨.hbm, 870, rfl⟩
abbrev main_v854 : Ref sig .tc := ⟨.hbm, 871, rfl⟩
abbrev main_v855 : Ref sig .tc := ⟨.hbm, 872, rfl⟩
abbrev main_v856 : Ref sig .tc := ⟨.hbm, 873, rfl⟩
abbrev main_v857 : Ref sig .tc := ⟨.hbm, 874, rfl⟩
abbrev main_v858 : Ref sig .tc := ⟨.hbm, 875, rfl⟩
abbrev main_v859 : Ref sig .tc := ⟨.hbm, 876, rfl⟩
abbrev main_v860 : Ref sig .tc := ⟨.hbm, 877, rfl⟩
abbrev main_v861 : Ref sig .tc := ⟨.hbm, 878, rfl⟩
abbrev main_v862 : Ref sig .tc := ⟨.hbm, 879, rfl⟩
abbrev main_v863 : Ref sig .tc := ⟨.hbm, 880, rfl⟩
abbrev main_v864 : Ref sig .tc := ⟨.hbm, 881, rfl⟩
abbrev main_v865 : Ref sig .tc := ⟨.hbm, 882, rfl⟩
abbrev main_v866 : Ref sig .tc := ⟨.hbm, 883, rfl⟩
abbrev main_v867 : Ref sig .tc := ⟨.hbm, 884, rfl⟩
abbrev main_v868 : Ref sig .tc := ⟨.hbm, 885, rfl⟩
abbrev main_v869 : Ref sig .tc := ⟨.hbm, 886, rfl⟩
abbrev main_v870 : Ref sig .tc := ⟨.hbm, 887, rfl⟩
abbrev main_v871 : Ref sig .tc := ⟨.hbm, 888, rfl⟩
abbrev main_v872 : Ref sig .tc := ⟨.hbm, 889, rfl⟩
abbrev main_v873 : Ref sig .tc := ⟨.hbm, 890, rfl⟩
abbrev main_v874 : Ref sig .tc := ⟨.hbm, 891, rfl⟩
abbrev main_v875 : Ref sig .tc := ⟨.hbm, 892, rfl⟩
abbrev main_v876 : Ref sig .tc := ⟨.hbm, 893, rfl⟩
abbrev main_v877 : Ref sig .tc := ⟨.hbm, 894, rfl⟩
abbrev main_v878 : Ref sig .tc := ⟨.hbm, 895, rfl⟩
abbrev main_v879 : Ref sig .tc := ⟨.hbm, 896, rfl⟩
abbrev main_v880 : Ref sig .tc := ⟨.hbm, 897, rfl⟩
abbrev main_v881 : Ref sig .tc := ⟨.hbm, 898, rfl⟩
abbrev main_v882 : Ref sig .tc := ⟨.hbm, 899, rfl⟩
abbrev main_v883 : Ref sig .tc := ⟨.hbm, 900, rfl⟩
abbrev main_v884 : Ref sig .tc := ⟨.hbm, 901, rfl⟩
abbrev main_v885 : Ref sig .tc := ⟨.hbm, 902, rfl⟩
abbrev main_v886 : Ref sig .tc := ⟨.hbm, 903, rfl⟩
abbrev main_v887 : Ref sig .tc := ⟨.hbm, 904, rfl⟩
abbrev main_v888 : Ref sig .tc := ⟨.hbm, 905, rfl⟩
abbrev main_v889 : Ref sig .tc := ⟨.hbm, 906, rfl⟩
abbrev main_v890 : Ref sig .tc := ⟨.hbm, 907, rfl⟩
abbrev main_v891 : Ref sig .tc := ⟨.hbm, 908, rfl⟩
abbrev main_v892 : Ref sig .tc := ⟨.hbm, 909, rfl⟩
abbrev main_v893 : Ref sig .tc := ⟨.hbm, 910, rfl⟩
abbrev main_v894 : Ref sig .tc := ⟨.hbm, 911, rfl⟩
abbrev main_v895 : Ref sig .tc := ⟨.hbm, 912, rfl⟩
abbrev main_v896 : Ref sig .tc := ⟨.hbm, 913, rfl⟩
abbrev main_v897 : Ref sig .tc := ⟨.hbm, 914, rfl⟩
abbrev main_v898 : Ref sig .tc := ⟨.hbm, 915, rfl⟩
abbrev main_v899 : Ref sig .tc := ⟨.hbm, 916, rfl⟩
abbrev main_v900 : Ref sig .tc := ⟨.hbm, 917, rfl⟩
abbrev main_v901 : Ref sig .tc := ⟨.hbm, 918, rfl⟩
abbrev main_v902 : Ref sig .tc := ⟨.hbm, 919, rfl⟩
abbrev main_v903 : Ref sig .tc := ⟨.hbm, 920, rfl⟩
abbrev main_v904 : Ref sig .tc := ⟨.hbm, 921, rfl⟩
abbrev main_v905 : Ref sig .tc := ⟨.hbm, 922, rfl⟩
abbrev main_v906 : Ref sig .tc := ⟨.hbm, 923, rfl⟩
abbrev main_v907 : Ref sig .tc := ⟨.hbm, 924, rfl⟩
abbrev main_v908 : Ref sig .tc := ⟨.hbm, 925, rfl⟩
abbrev main_v909 : Ref sig .tc := ⟨.hbm, 926, rfl⟩
abbrev main_v910 : Ref sig .tc := ⟨.hbm, 927, rfl⟩
abbrev main_v911 : Ref sig .tc := ⟨.hbm, 928, rfl⟩
abbrev main_v912 : Ref sig .tc := ⟨.hbm, 929, rfl⟩
abbrev main_v913 : Ref sig .tc := ⟨.hbm, 930, rfl⟩
abbrev main_v914 : Ref sig .tc := ⟨.hbm, 931, rfl⟩
abbrev main_v915 : Ref sig .tc := ⟨.hbm, 932, rfl⟩
abbrev main_v916 : Ref sig .tc := ⟨.hbm, 933, rfl⟩
abbrev main_v917 : Ref sig .tc := ⟨.hbm, 934, rfl⟩
abbrev main_v918 : Ref sig .tc := ⟨.hbm, 935, rfl⟩
abbrev main_v919 : Ref sig .tc := ⟨.hbm, 936, rfl⟩
abbrev main_v920 : Ref sig .tc := ⟨.hbm, 937, rfl⟩
abbrev main_v921 : Ref sig .tc := ⟨.hbm, 938, rfl⟩
abbrev main_v922 : Ref sig .tc := ⟨.hbm, 939, rfl⟩
abbrev main_v923 : Ref sig .tc := ⟨.hbm, 940, rfl⟩
abbrev main_v924 : Ref sig .tc := ⟨.hbm, 941, rfl⟩
abbrev main_v925 : Ref sig .tc := ⟨.hbm, 942, rfl⟩
abbrev main_v926 : Ref sig .tc := ⟨.hbm, 943, rfl⟩
abbrev main_v927 : Ref sig .tc := ⟨.hbm, 944, rfl⟩
abbrev main_v928 : Ref sig .tc := ⟨.hbm, 945, rfl⟩
abbrev main_v929 : Ref sig .tc := ⟨.hbm, 946, rfl⟩
abbrev main_v930 : Ref sig .tc := ⟨.hbm, 947, rfl⟩
abbrev main_v931 : Ref sig .tc := ⟨.hbm, 948, rfl⟩
abbrev main_v932 : Ref sig .tc := ⟨.hbm, 949, rfl⟩
abbrev main_v933 : Ref sig .tc := ⟨.hbm, 950, rfl⟩
abbrev main_v934 : Ref sig .tc := ⟨.hbm, 951, rfl⟩
abbrev main_v935 : Ref sig .tc := ⟨.hbm, 952, rfl⟩
abbrev main_v936 : Ref sig .tc := ⟨.hbm, 953, rfl⟩
abbrev main_v937 : Ref sig .tc := ⟨.hbm, 954, rfl⟩
abbrev main_v938 : Ref sig .tc := ⟨.hbm, 955, rfl⟩
abbrev main_v939 : Ref sig .tc := ⟨.hbm, 956, rfl⟩
abbrev main_v940 : Ref sig .tc := ⟨.hbm, 957, rfl⟩
abbrev main_v941 : Ref sig .tc := ⟨.hbm, 958, rfl⟩
abbrev main_v942 : Ref sig .tc := ⟨.hbm, 959, rfl⟩
abbrev main_v943 : Ref sig .tc := ⟨.hbm, 960, rfl⟩
abbrev main_v944 : Ref sig .tc := ⟨.hbm, 961, rfl⟩
abbrev main_v945 : Ref sig .tc := ⟨.hbm, 962, rfl⟩
abbrev main_v946 : Ref sig .tc := ⟨.hbm, 963, rfl⟩
abbrev main_v947 : Ref sig .tc := ⟨.hbm, 964, rfl⟩
abbrev main_v948 : Ref sig .tc := ⟨.hbm, 965, rfl⟩
abbrev main_v949 : Ref sig .tc := ⟨.hbm, 966, rfl⟩
abbrev main_v950 : Ref sig .tc := ⟨.hbm, 967, rfl⟩
abbrev main_v951 : Ref sig .tc := ⟨.hbm, 968, rfl⟩
abbrev main_v952 : Ref sig .tc := ⟨.hbm, 969, rfl⟩
abbrev main_v953 : Ref sig .tc := ⟨.hbm, 970, rfl⟩
abbrev main_v954 : Ref sig .tc := ⟨.hbm, 971, rfl⟩
abbrev main_v955 : Ref sig .tc := ⟨.hbm, 972, rfl⟩
abbrev main_v956 : Ref sig .tc := ⟨.hbm, 973, rfl⟩
abbrev main_v957 : Ref sig .tc := ⟨.hbm, 974, rfl⟩
abbrev main_v958 : Ref sig .tc := ⟨.hbm, 975, rfl⟩
abbrev main_v959 : Ref sig .tc := ⟨.hbm, 976, rfl⟩
abbrev main_v960 : Ref sig .tc := ⟨.hbm, 977, rfl⟩
abbrev main_v961 : Ref sig .tc := ⟨.hbm, 978, rfl⟩
abbrev main_v962 : Ref sig .tc := ⟨.hbm, 979, rfl⟩
abbrev main_v963 : Ref sig .tc := ⟨.hbm, 980, rfl⟩
abbrev main_v964 : Ref sig .tc := ⟨.hbm, 981, rfl⟩
abbrev main_v965 : Ref sig .tc := ⟨.hbm, 982, rfl⟩
abbrev main_v966 : Ref sig .tc := ⟨.hbm, 983, rfl⟩
abbrev main_v967 : Ref sig .tc := ⟨.hbm, 984, rfl⟩
abbrev main_v968 : Ref sig .tc := ⟨.hbm, 985, rfl⟩
abbrev main_v969 : Ref sig .tc := ⟨.hbm, 986, rfl⟩
abbrev main_v970 : Ref sig .tc := ⟨.hbm, 987, rfl⟩
abbrev main_v971 : Ref sig .tc := ⟨.hbm, 988, rfl⟩
abbrev main_v972 : Ref sig .tc := ⟨.hbm, 989, rfl⟩
abbrev main_v973 : Ref sig .tc := ⟨.hbm, 990, rfl⟩
abbrev main_v974 : Ref sig .tc := ⟨.hbm, 991, rfl⟩
abbrev main_v975 : Ref sig .tc := ⟨.hbm, 992, rfl⟩
abbrev main_v976 : Ref sig .tc := ⟨.hbm, 993, rfl⟩
abbrev main_v977 : Ref sig .tc := ⟨.hbm, 994, rfl⟩
abbrev main_v978 : Ref sig .tc := ⟨.hbm, 995, rfl⟩
abbrev main_v979 : Ref sig .tc := ⟨.hbm, 996, rfl⟩
abbrev main_v980 : Ref sig .tc := ⟨.hbm, 997, rfl⟩
abbrev main_v981 : Ref sig .tc := ⟨.hbm, 998, rfl⟩
abbrev main_v982 : Ref sig .tc := ⟨.hbm, 999, rfl⟩
abbrev main_v983 : Ref sig .tc := ⟨.hbm, 1000, rfl⟩
abbrev main_v984 : Ref sig .tc := ⟨.hbm, 1001, rfl⟩
abbrev main_v985 : Ref sig .tc := ⟨.hbm, 1002, rfl⟩
abbrev main_v986 : Ref sig .tc := ⟨.hbm, 1003, rfl⟩
abbrev main_v987 : Ref sig .tc := ⟨.hbm, 1004, rfl⟩
abbrev main_v988 : Ref sig .tc := ⟨.hbm, 1005, rfl⟩
abbrev main_v989 : Ref sig .tc := ⟨.hbm, 1006, rfl⟩
abbrev main_v990 : Ref sig .tc := ⟨.hbm, 1007, rfl⟩
abbrev main_v991 : Ref sig .tc := ⟨.hbm, 1008, rfl⟩
abbrev main_v992 : Ref sig .tc := ⟨.hbm, 1009, rfl⟩
abbrev main_v993 : Ref sig .tc := ⟨.hbm, 1010, rfl⟩
abbrev main_v994 : Ref sig .tc := ⟨.hbm, 1011, rfl⟩
abbrev main_v995 : Ref sig .tc := ⟨.hbm, 1012, rfl⟩
abbrev main_v996 : Ref sig .tc := ⟨.hbm, 1013, rfl⟩
abbrev main_v997 : Ref sig .tc := ⟨.hbm, 1014, rfl⟩
abbrev main_v998 : Ref sig .tc := ⟨.hbm, 1015, rfl⟩
abbrev main_v999 : Ref sig .tc := ⟨.hbm, 1016, rfl⟩
abbrev main_v1000 : Ref sig .tc := ⟨.hbm, 1017, rfl⟩
abbrev main_v1001 : Ref sig .tc := ⟨.hbm, 1018, rfl⟩
abbrev main_v1002 : Ref sig .tc := ⟨.hbm, 1019, rfl⟩
abbrev main_v1003 : Ref sig .tc := ⟨.hbm, 1020, rfl⟩
abbrev main_v1004 : Ref sig .tc := ⟨.hbm, 1021, rfl⟩
abbrev main_v1005 : Ref sig .tc := ⟨.hbm, 1022, rfl⟩
abbrev main_v1006 : Ref sig .tc := ⟨.hbm, 1023, rfl⟩
abbrev main_v1007 : Ref sig .tc := ⟨.hbm, 1024, rfl⟩
abbrev main_v1008 : Ref sig .tc := ⟨.hbm, 1025, rfl⟩
abbrev main_v1009 : Ref sig .tc := ⟨.hbm, 1026, rfl⟩
abbrev main_v1010 : Ref sig .tc := ⟨.hbm, 1027, rfl⟩
abbrev main_v1011 : Ref sig .tc := ⟨.hbm, 1028, rfl⟩
abbrev main_v1012 : Ref sig .tc := ⟨.hbm, 1029, rfl⟩
abbrev main_v1013 : Ref sig .tc := ⟨.hbm, 1030, rfl⟩
abbrev main_v1014 : Ref sig .tc := ⟨.hbm, 1031, rfl⟩
abbrev main_v1015 : Ref sig .tc := ⟨.hbm, 1032, rfl⟩
abbrev main_v1016 : Ref sig .tc := ⟨.hbm, 1033, rfl⟩
abbrev main_v1017 : Ref sig .tc := ⟨.hbm, 1034, rfl⟩
abbrev main_v1018 : Ref sig .tc := ⟨.hbm, 1035, rfl⟩
abbrev main_v1019 : Ref sig .tc := ⟨.hbm, 1036, rfl⟩
abbrev main_v1020 : Ref sig .tc := ⟨.hbm, 1037, rfl⟩
abbrev main_v1021 : Ref sig .tc := ⟨.hbm, 1038, rfl⟩
abbrev main_v1022 : Ref sig .tc := ⟨.hbm, 1039, rfl⟩
abbrev main_v1023 : Ref sig .tc := ⟨.hbm, 1040, rfl⟩
abbrev main_v1024 : Ref sig .tc := ⟨.hbm, 1041, rfl⟩
abbrev main_v1025 : Ref sig .tc := ⟨.hbm, 1042, rfl⟩
abbrev main_v1026 : Ref sig .tc := ⟨.hbm, 1043, rfl⟩
abbrev main_v1027 : Ref sig .tc := ⟨.hbm, 1044, rfl⟩
abbrev main_v1028 : Ref sig .tc := ⟨.hbm, 1045, rfl⟩
abbrev main_v1029 : Ref sig .tc := ⟨.hbm, 1046, rfl⟩
abbrev main_v1030 : Ref sig .tc := ⟨.hbm, 1047, rfl⟩
abbrev main_v1031 : Ref sig .tc := ⟨.hbm, 1048, rfl⟩
abbrev main_v1032 : Ref sig .tc := ⟨.hbm, 1049, rfl⟩
abbrev main_v1033 : Ref sig .tc := ⟨.hbm, 1050, rfl⟩
abbrev main_v1034 : Ref sig .tc := ⟨.hbm, 1051, rfl⟩
abbrev main_v1035 : Ref sig .tc := ⟨.hbm, 1052, rfl⟩
abbrev main_v1036 : Ref sig .tc := ⟨.hbm, 1053, rfl⟩
abbrev main_v1037 : Ref sig .tc := ⟨.hbm, 1054, rfl⟩
abbrev main_v1038 : Ref sig .tc := ⟨.hbm, 1055, rfl⟩
abbrev main_v1039 : Ref sig .tc := ⟨.hbm, 1056, rfl⟩
abbrev main_v1040 : Ref sig .tc := ⟨.hbm, 1057, rfl⟩
abbrev main_v1041 : Ref sig .tc := ⟨.hbm, 1058, rfl⟩
abbrev main_v1042 : Ref sig .tc := ⟨.hbm, 1059, rfl⟩
abbrev main_v1043 : Ref sig .tc := ⟨.hbm, 1060, rfl⟩
abbrev main_v1044 : Ref sig .tc := ⟨.hbm, 1061, rfl⟩
abbrev main_v1045 : Ref sig .tc := ⟨.hbm, 1062, rfl⟩
abbrev main_v1046 : Ref sig .tc := ⟨.hbm, 1063, rfl⟩
abbrev main_v1047 : Ref sig .tc := ⟨.hbm, 1064, rfl⟩
abbrev main_v1048 : Ref sig .tc := ⟨.hbm, 1065, rfl⟩
abbrev main_v1049 : Ref sig .tc := ⟨.hbm, 1066, rfl⟩
abbrev main_v1050 : Ref sig .tc := ⟨.hbm, 1067, rfl⟩
abbrev main_v1051 : Ref sig .tc := ⟨.hbm, 1068, rfl⟩
abbrev main_v1052 : Ref sig .tc := ⟨.hbm, 1069, rfl⟩
abbrev main_v1053 : Ref sig .tc := ⟨.hbm, 1070, rfl⟩
abbrev main_v1054 : Ref sig .tc := ⟨.hbm, 1071, rfl⟩
abbrev main_v1055 : Ref sig .tc := ⟨.hbm, 1072, rfl⟩
abbrev main_v1056 : Ref sig .tc := ⟨.hbm, 1073, rfl⟩
abbrev main_v1057 : Ref sig .tc := ⟨.hbm, 1074, rfl⟩
abbrev main_v1058 : Ref sig .tc := ⟨.hbm, 1075, rfl⟩
abbrev main_v1059 : Ref sig .tc := ⟨.hbm, 1076, rfl⟩
abbrev main_v1060 : Ref sig .tc := ⟨.hbm, 1077, rfl⟩
abbrev main_v1061 : Ref sig .tc := ⟨.hbm, 1078, rfl⟩
abbrev main_v1062 : Ref sig .tc := ⟨.hbm, 1079, rfl⟩
abbrev main_v1063 : Ref sig .tc := ⟨.hbm, 1080, rfl⟩
abbrev main_v1064 : Ref sig .tc := ⟨.hbm, 1081, rfl⟩
abbrev main_v1065 : Ref sig .tc := ⟨.hbm, 1082, rfl⟩
abbrev main_v1066 : Ref sig .tc := ⟨.hbm, 1083, rfl⟩
abbrev main_v1067 : Ref sig .tc := ⟨.hbm, 1084, rfl⟩
abbrev main_v1068 : Ref sig .tc := ⟨.hbm, 1085, rfl⟩
abbrev main_v1069 : Ref sig .tc := ⟨.hbm, 1086, rfl⟩
abbrev main_v1070 : Ref sig .tc := ⟨.hbm, 1087, rfl⟩
abbrev main_v1071 : Ref sig .tc := ⟨.hbm, 1088, rfl⟩
abbrev main_v1072 : Ref sig .tc := ⟨.hbm, 1089, rfl⟩
abbrev main_v1073 : Ref sig .tc := ⟨.hbm, 1090, rfl⟩
abbrev main_v1074 : Ref sig .tc := ⟨.hbm, 1091, rfl⟩
abbrev main_v1075 : Ref sig .tc := ⟨.hbm, 1092, rfl⟩
abbrev main_v1076 : Ref sig .tc := ⟨.hbm, 1093, rfl⟩
abbrev main_v1077 : Ref sig .tc := ⟨.hbm, 1094, rfl⟩
abbrev main_v1078 : Ref sig .tc := ⟨.hbm, 1095, rfl⟩
abbrev main_v1079 : Ref sig .tc := ⟨.hbm, 1096, rfl⟩
abbrev main_v1080 : Ref sig .tc := ⟨.hbm, 1097, rfl⟩
abbrev main_v1081 : Ref sig .tc := ⟨.hbm, 1098, rfl⟩
abbrev main_v1082 : Ref sig .tc := ⟨.hbm, 1099, rfl⟩
abbrev main_v1083 : Ref sig .tc := ⟨.hbm, 1100, rfl⟩
abbrev main_v1084 : Ref sig .tc := ⟨.hbm, 1101, rfl⟩
abbrev main_v1085 : Ref sig .tc := ⟨.hbm, 1102, rfl⟩
abbrev main_v1086 : Ref sig .tc := ⟨.hbm, 1103, rfl⟩
abbrev main_v1087 : Ref sig .tc := ⟨.hbm, 1104, rfl⟩
abbrev main_v1088 : Ref sig .tc := ⟨.hbm, 1105, rfl⟩
abbrev main_v1089 : Ref sig .tc := ⟨.hbm, 1106, rfl⟩
abbrev main_v1090 : Ref sig .tc := ⟨.hbm, 1107, rfl⟩
abbrev main_v1091 : Ref sig .tc := ⟨.hbm, 1108, rfl⟩
abbrev main_v1092 : Ref sig .tc := ⟨.hbm, 1109, rfl⟩
abbrev main_v1093 : Ref sig .tc := ⟨.hbm, 1110, rfl⟩
abbrev main_v1094 : Ref sig .tc := ⟨.hbm, 1111, rfl⟩
abbrev main_v1095 : Ref sig .tc := ⟨.hbm, 1112, rfl⟩
abbrev main_v1096 : Ref sig .tc := ⟨.hbm, 1113, rfl⟩
abbrev main_v1097 : Ref sig .tc := ⟨.hbm, 1114, rfl⟩
abbrev main_v1098 : Ref sig .tc := ⟨.hbm, 1115, rfl⟩
abbrev main_v1099 : Ref sig .tc := ⟨.hbm, 1116, rfl⟩
abbrev main_v1100 : Ref sig .tc := ⟨.hbm, 1117, rfl⟩
abbrev main_v1101 : Ref sig .tc := ⟨.hbm, 1118, rfl⟩
abbrev main_v1102 : Ref sig .tc := ⟨.hbm, 1119, rfl⟩
abbrev main_v1103 : Ref sig .tc := ⟨.hbm, 1120, rfl⟩
abbrev main_v1104 : Ref sig .tc := ⟨.hbm, 1121, rfl⟩
abbrev main_v1105 : Ref sig .tc := ⟨.hbm, 1122, rfl⟩
abbrev main_v1106 : Ref sig .tc := ⟨.hbm, 1123, rfl⟩
abbrev main_v1107 : Ref sig .tc := ⟨.hbm, 1124, rfl⟩
abbrev main_v1108 : Ref sig .tc := ⟨.hbm, 1125, rfl⟩
abbrev main_v1109 : Ref sig .tc := ⟨.hbm, 1126, rfl⟩
abbrev main_v1110 : Ref sig .tc := ⟨.hbm, 1127, rfl⟩
abbrev main_v1111 : Ref sig .tc := ⟨.hbm, 1128, rfl⟩
abbrev main_v1112 : Ref sig .tc := ⟨.hbm, 1129, rfl⟩
abbrev main_v1113 : Ref sig .tc := ⟨.hbm, 1130, rfl⟩
abbrev main_v1114 : Ref sig .tc := ⟨.hbm, 1131, rfl⟩
abbrev main_v1115 : Ref sig .tc := ⟨.hbm, 1132, rfl⟩
abbrev main_v1116 : Ref sig .tc := ⟨.hbm, 1133, rfl⟩
abbrev main_v1117 : Ref sig .tc := ⟨.hbm, 1134, rfl⟩
abbrev main_v1118 : Ref sig .tc := ⟨.hbm, 1135, rfl⟩
abbrev main_v1119 : Ref sig .tc := ⟨.hbm, 1136, rfl⟩
abbrev main_v1120 : Ref sig .tc := ⟨.hbm, 1137, rfl⟩
abbrev main_v1121 : Ref sig .tc := ⟨.hbm, 1138, rfl⟩
abbrev main_v1122 : Ref sig .tc := ⟨.hbm, 1139, rfl⟩
abbrev main_v1123 : Ref sig .tc := ⟨.hbm, 1140, rfl⟩
abbrev main_v1124 : Ref sig .tc := ⟨.hbm, 1141, rfl⟩
abbrev main_v1125 : Ref sig .tc := ⟨.hbm, 1142, rfl⟩
abbrev main_v1126 : Ref sig .tc := ⟨.hbm, 1143, rfl⟩
abbrev main_v1127 : Ref sig .tc := ⟨.hbm, 1144, rfl⟩
abbrev main_v1128 : Ref sig .tc := ⟨.hbm, 1145, rfl⟩
abbrev main_v1129 : Ref sig .tc := ⟨.hbm, 1146, rfl⟩
abbrev main_v1130 : Ref sig .tc := ⟨.hbm, 1147, rfl⟩
abbrev main_v1131 : Ref sig .tc := ⟨.hbm, 1148, rfl⟩
abbrev main_v1132 : Ref sig .tc := ⟨.hbm, 1149, rfl⟩
abbrev main_v1133 : Ref sig .tc := ⟨.hbm, 1150, rfl⟩
abbrev main_v1134 : Ref sig .tc := ⟨.hbm, 1151, rfl⟩
abbrev main_v1135 : Ref sig .tc := ⟨.hbm, 1152, rfl⟩
abbrev main_v1136 : Ref sig .tc := ⟨.hbm, 1153, rfl⟩
abbrev main_v1137 : Ref sig .tc := ⟨.hbm, 1154, rfl⟩
abbrev main_v1138 : Ref sig .tc := ⟨.hbm, 1155, rfl⟩
abbrev main_v1139 : Ref sig .tc := ⟨.hbm, 1156, rfl⟩
abbrev main_v1140 : Ref sig .tc := ⟨.hbm, 1157, rfl⟩
abbrev main_v1141 : Ref sig .tc := ⟨.hbm, 1158, rfl⟩
abbrev main_v1142 : Ref sig .tc := ⟨.hbm, 1159, rfl⟩
abbrev main_v1143 : Ref sig .tc := ⟨.hbm, 1160, rfl⟩
abbrev main_v1144 : Ref sig .tc := ⟨.hbm, 1161, rfl⟩
abbrev main_v1145 : Ref sig .tc := ⟨.hbm, 1162, rfl⟩
abbrev main_v1146 : Ref sig .tc := ⟨.hbm, 1163, rfl⟩
abbrev main_v1147 : Ref sig .tc := ⟨.hbm, 1164, rfl⟩
abbrev main_v1148 : Ref sig .tc := ⟨.hbm, 1165, rfl⟩
abbrev main_v1149 : Ref sig .tc := ⟨.hbm, 1166, rfl⟩
abbrev main_v1150 : Ref sig .tc := ⟨.hbm, 1167, rfl⟩
abbrev main_v1151 : Ref sig .tc := ⟨.hbm, 1168, rfl⟩
abbrev main_v1152 : Ref sig .tc := ⟨.hbm, 1169, rfl⟩
abbrev main_v1153 : Ref sig .tc := ⟨.hbm, 1170, rfl⟩
abbrev main_v1154 : Ref sig .tc := ⟨.hbm, 1171, rfl⟩
abbrev main_v1155 : Ref sig .tc := ⟨.hbm, 1172, rfl⟩
abbrev main_v1156 : Ref sig .tc := ⟨.hbm, 1173, rfl⟩
abbrev main_v1157 : Ref sig .tc := ⟨.hbm, 1174, rfl⟩
abbrev main_v1158 : Ref sig .tc := ⟨.hbm, 1175, rfl⟩
abbrev main_v1159 : Ref sig .tc := ⟨.hbm, 1176, rfl⟩
abbrev main_v1160 : Ref sig .tc := ⟨.hbm, 1177, rfl⟩
abbrev main_v1161 : Ref sig .tc := ⟨.hbm, 1178, rfl⟩
abbrev main_v1162 : Ref sig .tc := ⟨.hbm, 1179, rfl⟩
abbrev main_v1163 : Ref sig .tc := ⟨.hbm, 1180, rfl⟩
abbrev main_v1164 : Ref sig .tc := ⟨.hbm, 1181, rfl⟩
abbrev main_v1165 : Ref sig .tc := ⟨.hbm, 1182, rfl⟩
abbrev main_v1166 : Ref sig .tc := ⟨.hbm, 1183, rfl⟩
abbrev main_v1167 : Ref sig .tc := ⟨.hbm, 1184, rfl⟩
abbrev main_v1168 : Ref sig .tc := ⟨.hbm, 1185, rfl⟩
abbrev main_v1169 : Ref sig .tc := ⟨.hbm, 1186, rfl⟩
abbrev main_v1170 : Ref sig .tc := ⟨.hbm, 1187, rfl⟩
abbrev main_v1171 : Ref sig .tc := ⟨.hbm, 1188, rfl⟩
abbrev main_v1172 : Ref sig .tc := ⟨.hbm, 1189, rfl⟩
abbrev main_v1173 : Ref sig .tc := ⟨.hbm, 1190, rfl⟩
abbrev main_v1174 : Ref sig .tc := ⟨.hbm, 1191, rfl⟩
abbrev main_v1175 : Ref sig .tc := ⟨.hbm, 1192, rfl⟩
abbrev main_v1176 : Ref sig .tc := ⟨.hbm, 1193, rfl⟩
abbrev main_v1177 : Ref sig .tc := ⟨.hbm, 1194, rfl⟩
abbrev main_v1178 : Ref sig .tc := ⟨.hbm, 1195, rfl⟩
abbrev main_v1179 : Ref sig .tc := ⟨.hbm, 1196, rfl⟩
abbrev main_v1180 : Ref sig .tc := ⟨.hbm, 1197, rfl⟩
abbrev main_v1181 : Ref sig .tc := ⟨.hbm, 1198, rfl⟩
abbrev main_v1182 : Ref sig .tc := ⟨.hbm, 1199, rfl⟩
abbrev main_v1183 : Ref sig .tc := ⟨.hbm, 1200, rfl⟩
abbrev main_v1184 : Ref sig .tc := ⟨.hbm, 1201, rfl⟩
abbrev main_v1185 : Ref sig .tc := ⟨.hbm, 1202, rfl⟩
abbrev main_v1186 : Ref sig .tc := ⟨.hbm, 1203, rfl⟩
abbrev main_v1187 : Ref sig .tc := ⟨.hbm, 1204, rfl⟩
abbrev main_v1188 : Ref sig .tc := ⟨.hbm, 1205, rfl⟩
abbrev main_v1189 : Ref sig .tc := ⟨.hbm, 1206, rfl⟩
abbrev main_v1190 : Ref sig .tc := ⟨.hbm, 1207, rfl⟩
abbrev main_v1191 : Ref sig .tc := ⟨.hbm, 1208, rfl⟩
abbrev main_v1192 : Ref sig .tc := ⟨.hbm, 1209, rfl⟩
abbrev main_v1193 : Ref sig .tc := ⟨.hbm, 1210, rfl⟩
abbrev main_v1194 : Ref sig .tc := ⟨.hbm, 1211, rfl⟩
abbrev main_v1195 : Ref sig .tc := ⟨.hbm, 1212, rfl⟩
abbrev main_v1196 : Ref sig .tc := ⟨.hbm, 1213, rfl⟩
abbrev main_v1197 : Ref sig .tc := ⟨.hbm, 1214, rfl⟩
abbrev main_v1198 : Ref sig .tc := ⟨.hbm, 1215, rfl⟩
abbrev main_v1199 : Ref sig .tc := ⟨.hbm, 1216, rfl⟩
abbrev main_v1200 : Ref sig .tc := ⟨.hbm, 1217, rfl⟩
abbrev main_v1201 : Ref sig .tc := ⟨.hbm, 1218, rfl⟩
abbrev main_v1202 : Ref sig .tc := ⟨.hbm, 1219, rfl⟩
abbrev main_v1203 : Ref sig .tc := ⟨.hbm, 1220, rfl⟩
abbrev main_v1204 : Ref sig .tc := ⟨.hbm, 1221, rfl⟩
abbrev main_v1205 : Ref sig .tc := ⟨.hbm, 1222, rfl⟩
abbrev main_v1206 : Ref sig .tc := ⟨.hbm, 1223, rfl⟩
abbrev main_v1207 : Ref sig .tc := ⟨.hbm, 1224, rfl⟩
abbrev main_v1208 : Ref sig .tc := ⟨.hbm, 1225, rfl⟩
abbrev main_v1209 : Ref sig .tc := ⟨.hbm, 1226, rfl⟩
abbrev main_v1210 : Ref sig .tc := ⟨.hbm, 1227, rfl⟩
abbrev main_v1211 : Ref sig .tc := ⟨.hbm, 1228, rfl⟩
abbrev main_v1212 : Ref sig .tc := ⟨.hbm, 1229, rfl⟩
abbrev main_v1213 : Ref sig .tc := ⟨.hbm, 1230, rfl⟩
abbrev main_v1214 : Ref sig .tc := ⟨.hbm, 1231, rfl⟩
abbrev main_v1215 : Ref sig .tc := ⟨.hbm, 1232, rfl⟩
abbrev main_v1216 : Ref sig .tc := ⟨.hbm, 1233, rfl⟩
abbrev main_v1217 : Ref sig .tc := ⟨.hbm, 1234, rfl⟩
abbrev main_v1218 : Ref sig .tc := ⟨.hbm, 1235, rfl⟩
abbrev main_v1219 : Ref sig .tc := ⟨.hbm, 1236, rfl⟩
abbrev main_v1220 : Ref sig .tc := ⟨.hbm, 1237, rfl⟩
abbrev main_v1221 : Ref sig .tc := ⟨.hbm, 1238, rfl⟩
abbrev main_v1222 : Ref sig .tc := ⟨.hbm, 1239, rfl⟩
abbrev main_v1223 : Ref sig .tc := ⟨.hbm, 1240, rfl⟩
abbrev main_v1224 : Ref sig .tc := ⟨.hbm, 1241, rfl⟩
abbrev main_v1225 : Ref sig .tc := ⟨.hbm, 1242, rfl⟩
abbrev main_v1226 : Ref sig .tc := ⟨.hbm, 1243, rfl⟩
abbrev main_v1227 : Ref sig .tc := ⟨.hbm, 1244, rfl⟩
abbrev main_v1228 : Ref sig .tc := ⟨.hbm, 1245, rfl⟩
abbrev main_v1229 : Ref sig .tc := ⟨.hbm, 1246, rfl⟩
abbrev main_v1230 : Ref sig .tc := ⟨.hbm, 1247, rfl⟩
abbrev main_v1231 : Ref sig .tc := ⟨.hbm, 1248, rfl⟩
abbrev main_v1232 : Ref sig .tc := ⟨.hbm, 1249, rfl⟩
abbrev main_v1233 : Ref sig .tc := ⟨.hbm, 1250, rfl⟩
abbrev main_v1234 : Ref sig .tc := ⟨.hbm, 1251, rfl⟩
abbrev main_v1235 : Ref sig .tc := ⟨.hbm, 1252, rfl⟩
abbrev main_v1236 : Ref sig .tc := ⟨.hbm, 1253, rfl⟩
abbrev main_v1237 : Ref sig .tc := ⟨.hbm, 1254, rfl⟩
abbrev main_v1238 : Ref sig .tc := ⟨.hbm, 1255, rfl⟩
abbrev main_v1239 : Ref sig .tc := ⟨.hbm, 1256, rfl⟩
abbrev main_v1240 : Ref sig .tc := ⟨.hbm, 1257, rfl⟩
abbrev main_v1241 : Ref sig .tc := ⟨.hbm, 1258, rfl⟩
abbrev main_v1242 : Ref sig .tc := ⟨.hbm, 1259, rfl⟩
abbrev main_v1243 : Ref sig .tc := ⟨.hbm, 1260, rfl⟩
abbrev main_v1244 : Ref sig .tc := ⟨.hbm, 1261, rfl⟩
abbrev main_v1245 : Ref sig .tc := ⟨.hbm, 1262, rfl⟩
abbrev main_v1246 : Ref sig .tc := ⟨.hbm, 1263, rfl⟩
abbrev main_v1247 : Ref sig .tc := ⟨.hbm, 1264, rfl⟩
abbrev main_v1248 : Ref sig .tc := ⟨.hbm, 1265, rfl⟩
abbrev main_v1249 : Ref sig .tc := ⟨.hbm, 1266, rfl⟩
abbrev main_v1250 : Ref sig .tc := ⟨.hbm, 1267, rfl⟩
abbrev main_v1251 : Ref sig .tc := ⟨.hbm, 1268, rfl⟩
abbrev main_v1252 : Ref sig .tc := ⟨.hbm, 1269, rfl⟩
abbrev main_v1253 : Ref sig .tc := ⟨.hbm, 1270, rfl⟩
abbrev main_v1254 : Ref sig .tc := ⟨.hbm, 1271, rfl⟩
abbrev main_v1255 : Ref sig .tc := ⟨.hbm, 1272, rfl⟩
abbrev main_v1256 : Ref sig .tc := ⟨.hbm, 1273, rfl⟩
abbrev main_v1257 : Ref sig .tc := ⟨.hbm, 1274, rfl⟩
abbrev main_v1258 : Ref sig .tc := ⟨.hbm, 1275, rfl⟩
abbrev main_v1259 : Ref sig .tc := ⟨.hbm, 1276, rfl⟩
abbrev main_v1260 : Ref sig .tc := ⟨.hbm, 1277, rfl⟩
abbrev main_v1261 : Ref sig .tc := ⟨.hbm, 1278, rfl⟩
abbrev main_v1262 : Ref sig .tc := ⟨.hbm, 1279, rfl⟩
abbrev main_v1263 : Ref sig .tc := ⟨.hbm, 1280, rfl⟩
abbrev main_v1264 : Ref sig .tc := ⟨.hbm, 1281, rfl⟩
abbrev main_v1265 : Ref sig .tc := ⟨.hbm, 1282, rfl⟩
abbrev main_v1266 : Ref sig .tc := ⟨.hbm, 1283, rfl⟩
abbrev main_v1267 : Ref sig .tc := ⟨.hbm, 1284, rfl⟩
abbrev main_v1268 : Ref sig .tc := ⟨.hbm, 1285, rfl⟩
abbrev main_v1269 : Ref sig .tc := ⟨.hbm, 1286, rfl⟩
abbrev main_v1270 : Ref sig .tc := ⟨.hbm, 1287, rfl⟩
abbrev main_v1271 : Ref sig .tc := ⟨.hbm, 1288, rfl⟩
abbrev main_v1272 : Ref sig .tc := ⟨.hbm, 1289, rfl⟩
abbrev main_v1273 : Ref sig .tc := ⟨.hbm, 1290, rfl⟩
abbrev main_v1274 : Ref sig .tc := ⟨.hbm, 1291, rfl⟩
abbrev main_v1275 : Ref sig .tc := ⟨.hbm, 1292, rfl⟩
abbrev main_v1276 : Ref sig .tc := ⟨.hbm, 1293, rfl⟩
abbrev main_v1277 : Ref sig .tc := ⟨.hbm, 1294, rfl⟩
abbrev main_v1278 : Ref sig .tc := ⟨.hbm, 1295, rfl⟩
abbrev main_v1279 : Ref sig .tc := ⟨.hbm, 1296, rfl⟩
abbrev main_v1280 : Ref sig .tc := ⟨.hbm, 1297, rfl⟩
abbrev main_v1281 : Ref sig .tc := ⟨.hbm, 1298, rfl⟩
abbrev main_v1282 : Ref sig .tc := ⟨.hbm, 1299, rfl⟩
abbrev main_v1283 : Ref sig .tc := ⟨.hbm, 1300, rfl⟩
abbrev main_v1284 : Ref sig .tc := ⟨.hbm, 1301, rfl⟩
abbrev main_v1285 : Ref sig .tc := ⟨.hbm, 1302, rfl⟩
abbrev main_v1286 : Ref sig .tc := ⟨.hbm, 1303, rfl⟩
abbrev main_v1287 : Ref sig .tc := ⟨.hbm, 1304, rfl⟩
abbrev main_v1288 : Ref sig .tc := ⟨.hbm, 1305, rfl⟩
abbrev main_v1289 : Ref sig .tc := ⟨.hbm, 1306, rfl⟩
abbrev main_v1290 : Ref sig .tc := ⟨.hbm, 1307, rfl⟩
abbrev main_v1291 : Ref sig .tc := ⟨.hbm, 1308, rfl⟩
abbrev main_v1292 : Ref sig .tc := ⟨.hbm, 1309, rfl⟩
abbrev main_v1293 : Ref sig .tc := ⟨.hbm, 1310, rfl⟩
abbrev main_v1294 : Ref sig .tc := ⟨.hbm, 1311, rfl⟩
abbrev main_v1295 : Ref sig .tc := ⟨.hbm, 1312, rfl⟩
abbrev main_v1296 : Ref sig .tc := ⟨.hbm, 1313, rfl⟩
abbrev main_v1297 : Ref sig .tc := ⟨.hbm, 1314, rfl⟩
abbrev main_v1298 : Ref sig .tc := ⟨.hbm, 1315, rfl⟩
abbrev main_v1299 : Ref sig .tc := ⟨.hbm, 1316, rfl⟩
abbrev main_v1300 : Ref sig .tc := ⟨.hbm, 1317, rfl⟩
abbrev main_v1301 : Ref sig .tc := ⟨.hbm, 1318, rfl⟩
abbrev main_v1302 : Ref sig .tc := ⟨.hbm, 1319, rfl⟩
abbrev main_v1303 : Ref sig .tc := ⟨.hbm, 1320, rfl⟩
abbrev main_v1304 : Ref sig .tc := ⟨.hbm, 1321, rfl⟩
abbrev main_v1305 : Ref sig .tc := ⟨.hbm, 1322, rfl⟩
abbrev main_v1306 : Ref sig .tc := ⟨.hbm, 1323, rfl⟩
abbrev main_v1307 : Ref sig .tc := ⟨.hbm, 1324, rfl⟩
abbrev main_v1308 : Ref sig .tc := ⟨.hbm, 1325, rfl⟩
abbrev main_v1309 : Ref sig .tc := ⟨.hbm, 1326, rfl⟩
abbrev main_v1310 : Ref sig .tc := ⟨.hbm, 1327, rfl⟩
abbrev main_v1311 : Ref sig .tc := ⟨.hbm, 1328, rfl⟩
abbrev main_v1312 : Ref sig .tc := ⟨.hbm, 1329, rfl⟩
abbrev main_v1313 : Ref sig .tc := ⟨.hbm, 1330, rfl⟩
abbrev main_v1314 : Ref sig .tc := ⟨.hbm, 1331, rfl⟩
abbrev main_v1315 : Ref sig .tc := ⟨.hbm, 1332, rfl⟩
abbrev main_v1316 : Ref sig .tc := ⟨.hbm, 1333, rfl⟩
abbrev main_v1317 : Ref sig .tc := ⟨.hbm, 1334, rfl⟩
abbrev main_v1318 : Ref sig .tc := ⟨.hbm, 1335, rfl⟩
abbrev main_v1319 : Ref sig .tc := ⟨.hbm, 1336, rfl⟩
abbrev main_v1320 : Ref sig .tc := ⟨.hbm, 1337, rfl⟩
abbrev main_v1321 : Ref sig .tc := ⟨.hbm, 1338, rfl⟩
abbrev main_v1322 : Ref sig .tc := ⟨.hbm, 1339, rfl⟩
abbrev main_v1323 : Ref sig .tc := ⟨.hbm, 1340, rfl⟩
abbrev main_v1324 : Ref sig .tc := ⟨.hbm, 1341, rfl⟩
abbrev main_v1325 : Ref sig .tc := ⟨.hbm, 1342, rfl⟩
abbrev main_v1326 : Ref sig .tc := ⟨.hbm, 1343, rfl⟩
abbrev main_v1327 : Ref sig .tc := ⟨.hbm, 1344, rfl⟩
abbrev main_v1328 : Ref sig .tc := ⟨.hbm, 1345, rfl⟩
abbrev main_v1329 : Ref sig .tc := ⟨.hbm, 1346, rfl⟩
abbrev main_v1330 : Ref sig .tc := ⟨.hbm, 1347, rfl⟩
abbrev main_v1331 : Ref sig .tc := ⟨.hbm, 1348, rfl⟩
abbrev main_v1332 : Ref sig .tc := ⟨.hbm, 1349, rfl⟩
abbrev main_v1333 : Ref sig .tc := ⟨.hbm, 1350, rfl⟩
abbrev main_v1334 : Ref sig .tc := ⟨.hbm, 1351, rfl⟩
abbrev main_v1335 : Ref sig .tc := ⟨.hbm, 1352, rfl⟩
abbrev main_v1336 : Ref sig .tc := ⟨.hbm, 1353, rfl⟩
abbrev main_v1337 : Ref sig .tc := ⟨.hbm, 1354, rfl⟩
abbrev main_v1338 : Ref sig .tc := ⟨.hbm, 1355, rfl⟩
abbrev main_v1339 : Ref sig .tc := ⟨.hbm, 1356, rfl⟩
abbrev main_v1340 : Ref sig .tc := ⟨.hbm, 1357, rfl⟩
abbrev main_v1341 : Ref sig .tc := ⟨.hbm, 1358, rfl⟩
abbrev main_v1342 : Ref sig .tc := ⟨.hbm, 1359, rfl⟩
abbrev main_v1343 : Ref sig .tc := ⟨.hbm, 1360, rfl⟩
abbrev main_v1344 : Ref sig .tc := ⟨.hbm, 1361, rfl⟩
abbrev main_v1345 : Ref sig .tc := ⟨.hbm, 1362, rfl⟩
abbrev main_v1346 : Ref sig .tc := ⟨.hbm, 1363, rfl⟩
abbrev main_v1347 : Ref sig .tc := ⟨.hbm, 1364, rfl⟩
abbrev main_v1348 : Ref sig .tc := ⟨.hbm, 1365, rfl⟩
abbrev main_v1349 : Ref sig .tc := ⟨.hbm, 1366, rfl⟩
abbrev main_v1350 : Ref sig .tc := ⟨.hbm, 1367, rfl⟩
abbrev main_v1351 : Ref sig .tc := ⟨.hbm, 1368, rfl⟩
abbrev main_v1352 : Ref sig .tc := ⟨.hbm, 1369, rfl⟩
abbrev main_v1353 : Ref sig .tc := ⟨.hbm, 1370, rfl⟩
abbrev main_v1354 : Ref sig .tc := ⟨.hbm, 1371, rfl⟩
abbrev main_v1355 : Ref sig .tc := ⟨.hbm, 1372, rfl⟩
abbrev main_v1356 : Ref sig .tc := ⟨.hbm, 1373, rfl⟩
abbrev main_v1357 : Ref sig .tc := ⟨.hbm, 1374, rfl⟩
abbrev main_v1358 : Ref sig .tc := ⟨.hbm, 1375, rfl⟩
abbrev main_v1359 : Ref sig .tc := ⟨.hbm, 1376, rfl⟩
abbrev main_v1360 : Ref sig .tc := ⟨.hbm, 1377, rfl⟩
abbrev main_v1361 : Ref sig .tc := ⟨.hbm, 1378, rfl⟩
abbrev main_v1362 : Ref sig .tc := ⟨.hbm, 1379, rfl⟩
abbrev main_v1363 : Ref sig .tc := ⟨.hbm, 1380, rfl⟩
abbrev main_v1364 : Ref sig .tc := ⟨.hbm, 1381, rfl⟩
abbrev main_v1365 : Ref sig .tc := ⟨.hbm, 1382, rfl⟩
abbrev main_v1366 : Ref sig .tc := ⟨.hbm, 1383, rfl⟩
abbrev main_v1367 : Ref sig .tc := ⟨.hbm, 1384, rfl⟩
abbrev main_v1368 : Ref sig .tc := ⟨.hbm, 1385, rfl⟩
abbrev main_v1369 : Ref sig .tc := ⟨.hbm, 1386, rfl⟩
abbrev main_v1370 : Ref sig .tc := ⟨.hbm, 1387, rfl⟩
abbrev main_v1371 : Ref sig .tc := ⟨.hbm, 1388, rfl⟩
abbrev main_v1372 : Ref sig .tc := ⟨.hbm, 1389, rfl⟩
abbrev main_v1373 : Ref sig .tc := ⟨.hbm, 1390, rfl⟩
abbrev main_v1374 : Ref sig .tc := ⟨.hbm, 1391, rfl⟩
abbrev main_v1375 : Ref sig .tc := ⟨.hbm, 1392, rfl⟩
abbrev main_v1376 : Ref sig .tc := ⟨.hbm, 1393, rfl⟩
abbrev main_v1377 : Ref sig .tc := ⟨.hbm, 1394, rfl⟩
abbrev main_v1378 : Ref sig .tc := ⟨.hbm, 1395, rfl⟩
abbrev main_v1379 : Ref sig .tc := ⟨.hbm, 1396, rfl⟩
abbrev main_v1380 : Ref sig .tc := ⟨.hbm, 1397, rfl⟩
abbrev main_v1381 : Ref sig .tc := ⟨.hbm, 1398, rfl⟩
abbrev main_v1382 : Ref sig .tc := ⟨.hbm, 1399, rfl⟩
abbrev main_v1383 : Ref sig .tc := ⟨.hbm, 1400, rfl⟩
abbrev main_v1384 : Ref sig .tc := ⟨.hbm, 1401, rfl⟩
abbrev main_v1385 : Ref sig .tc := ⟨.hbm, 1402, rfl⟩
abbrev main_v1386 : Ref sig .tc := ⟨.hbm, 1403, rfl⟩
abbrev main_v1387 : Ref sig .tc := ⟨.hbm, 1404, rfl⟩
abbrev main_v1388 : Ref sig .tc := ⟨.hbm, 1405, rfl⟩
abbrev main_v1389 : Ref sig .tc := ⟨.hbm, 1406, rfl⟩
abbrev main_v1390 : Ref sig .tc := ⟨.hbm, 1407, rfl⟩
abbrev main_v1391 : Ref sig .tc := ⟨.hbm, 1408, rfl⟩
abbrev main_v1392 : Ref sig .tc := ⟨.hbm, 1409, rfl⟩
abbrev main_v1393 : Ref sig .tc := ⟨.hbm, 1410, rfl⟩
abbrev main_v1394 : Ref sig .tc := ⟨.hbm, 1411, rfl⟩
abbrev main_v1395 : Ref sig .tc := ⟨.hbm, 1412, rfl⟩
abbrev main_v1396 : Ref sig .tc := ⟨.hbm, 1413, rfl⟩
abbrev main_v1397 : Ref sig .tc := ⟨.hbm, 1414, rfl⟩
abbrev main_v1398 : Ref sig .tc := ⟨.hbm, 1415, rfl⟩
abbrev main_v1399 : Ref sig .tc := ⟨.hbm, 1416, rfl⟩
abbrev main_v1400 : Ref sig .tc := ⟨.hbm, 1417, rfl⟩
abbrev main_v1401 : Ref sig .tc := ⟨.hbm, 1418, rfl⟩
abbrev main_v1402 : Ref sig .tc := ⟨.hbm, 1419, rfl⟩
abbrev main_v1403 : Ref sig .tc := ⟨.hbm, 1420, rfl⟩
abbrev main_v1404 : Ref sig .tc := ⟨.hbm, 1421, rfl⟩
abbrev main_v1405 : Ref sig .tc := ⟨.hbm, 1422, rfl⟩
abbrev main_v1406 : Ref sig .tc := ⟨.hbm, 1423, rfl⟩
abbrev main_v1407 : Ref sig .tc := ⟨.hbm, 1424, rfl⟩
abbrev main_v1408 : Ref sig .tc := ⟨.hbm, 1425, rfl⟩
abbrev main_v1409 : Ref sig .tc := ⟨.hbm, 1426, rfl⟩
abbrev main_v1410 : Ref sig .tc := ⟨.hbm, 1427, rfl⟩
abbrev main_v1411 : Ref sig .tc := ⟨.hbm, 1428, rfl⟩
abbrev main_v1412 : Ref sig .tc := ⟨.hbm, 1429, rfl⟩
abbrev main_v1413 : Ref sig .tc := ⟨.hbm, 1430, rfl⟩
abbrev main_v1414 : Ref sig .tc := ⟨.hbm, 1431, rfl⟩
abbrev main_v1415 : Ref sig .tc := ⟨.hbm, 1432, rfl⟩
abbrev main_v1416 : Ref sig .tc := ⟨.hbm, 1433, rfl⟩
abbrev main_v1417 : Ref sig .tc := ⟨.hbm, 1434, rfl⟩
abbrev main_v1418 : Ref sig .tc := ⟨.hbm, 1435, rfl⟩
abbrev main_v1419 : Ref sig .tc := ⟨.hbm, 1436, rfl⟩
abbrev main_v1420 : Ref sig .tc := ⟨.hbm, 1437, rfl⟩
abbrev main_v1421 : Ref sig .tc := ⟨.hbm, 1438, rfl⟩
abbrev main_v1422 : Ref sig .tc := ⟨.hbm, 1439, rfl⟩
abbrev main_v1423 : Ref sig .tc := ⟨.hbm, 1440, rfl⟩
abbrev main_v1424 : Ref sig .tc := ⟨.hbm, 1441, rfl⟩
abbrev main_v1425 : Ref sig .tc := ⟨.hbm, 1442, rfl⟩
abbrev main_v1426 : Ref sig .tc := ⟨.hbm, 1443, rfl⟩
abbrev main_v1427 : Ref sig .tc := ⟨.hbm, 1444, rfl⟩
abbrev main_v1428 : Ref sig .tc := ⟨.hbm, 1445, rfl⟩
abbrev main_v1429 : Ref sig .tc := ⟨.hbm, 1446, rfl⟩
abbrev main_v1430 : Ref sig .tc := ⟨.hbm, 1447, rfl⟩
abbrev main_v1431 : Ref sig .tc := ⟨.hbm, 1448, rfl⟩
abbrev main_v1432 : Ref sig .tc := ⟨.hbm, 1449, rfl⟩
abbrev main_v1433 : Ref sig .tc := ⟨.hbm, 1450, rfl⟩
abbrev main_v1434 : Ref sig .tc := ⟨.hbm, 1451, rfl⟩
abbrev main_v1435 : Ref sig .tc := ⟨.hbm, 1452, rfl⟩
abbrev main_v1436 : Ref sig .tc := ⟨.hbm, 1453, rfl⟩
abbrev main_v1437 : Ref sig .tc := ⟨.hbm, 1454, rfl⟩
abbrev main_v1438 : Ref sig .tc := ⟨.hbm, 1455, rfl⟩
abbrev main_v1439 : Ref sig .tc := ⟨.hbm, 1456, rfl⟩
abbrev main_v1440 : Ref sig .tc := ⟨.hbm, 1457, rfl⟩
abbrev main_v1441 : Ref sig .tc := ⟨.hbm, 1458, rfl⟩
abbrev main_v1442 : Ref sig .tc := ⟨.hbm, 1459, rfl⟩
abbrev main_v1443 : Ref sig .tc := ⟨.hbm, 1460, rfl⟩
abbrev main_v1444 : Ref sig .tc := ⟨.hbm, 1461, rfl⟩
abbrev main_v1445 : Ref sig .tc := ⟨.hbm, 1462, rfl⟩
abbrev main_v1446 : Ref sig .tc := ⟨.hbm, 1463, rfl⟩
abbrev main_v1447 : Ref sig .tc := ⟨.hbm, 1464, rfl⟩
abbrev main_v1448 : Ref sig .tc := ⟨.hbm, 1465, rfl⟩
abbrev main_v1449 : Ref sig .tc := ⟨.hbm, 1466, rfl⟩
abbrev main_v1450 : Ref sig .tc := ⟨.hbm, 1467, rfl⟩
abbrev main_v1451 : Ref sig .tc := ⟨.hbm, 1468, rfl⟩
abbrev main_v1452 : Ref sig .tc := ⟨.hbm, 1469, rfl⟩
abbrev main_v1453 : Ref sig .tc := ⟨.hbm, 1470, rfl⟩
abbrev main_v1454 : Ref sig .tc := ⟨.hbm, 1471, rfl⟩
abbrev main_v1455 : Ref sig .tc := ⟨.hbm, 1472, rfl⟩
abbrev main_v1456 : Ref sig .tc := ⟨.hbm, 1473, rfl⟩
abbrev main_v1457 : Ref sig .tc := ⟨.hbm, 1474, rfl⟩
abbrev main_v1458 : Ref sig .tc := ⟨.hbm, 1475, rfl⟩
abbrev main_v1459 : Ref sig .tc := ⟨.hbm, 1476, rfl⟩
abbrev main_v1460 : Ref sig .tc := ⟨.hbm, 1477, rfl⟩
abbrev main_v1461 : Ref sig .tc := ⟨.hbm, 1478, rfl⟩
abbrev main_v1462 : Ref sig .tc := ⟨.hbm, 1479, rfl⟩
abbrev main_v1463 : Ref sig .tc := ⟨.hbm, 1480, rfl⟩
abbrev main_v1464 : Ref sig .tc := ⟨.hbm, 1481, rfl⟩
abbrev main_v1465 : Ref sig .tc := ⟨.hbm, 1482, rfl⟩
abbrev main_v1466 : Ref sig .tc := ⟨.hbm, 1483, rfl⟩
abbrev main_v1467 : Ref sig .tc := ⟨.hbm, 1484, rfl⟩
abbrev main_v1468 : Ref sig .tc := ⟨.hbm, 1485, rfl⟩
abbrev main_v1469 : Ref sig .tc := ⟨.hbm, 1486, rfl⟩
abbrev main_v1470 : Ref sig .tc := ⟨.hbm, 1487, rfl⟩
abbrev main_v1471 : Ref sig .tc := ⟨.hbm, 1488, rfl⟩
abbrev main_v1472 : Ref sig .tc := ⟨.hbm, 1489, rfl⟩
abbrev main_v1473 : Ref sig .tc := ⟨.hbm, 1490, rfl⟩
abbrev main_v1474 : Ref sig .tc := ⟨.hbm, 1491, rfl⟩
abbrev main_v1475 : Ref sig .tc := ⟨.hbm, 1492, rfl⟩
abbrev main_v1476 : Ref sig .tc := ⟨.hbm, 1493, rfl⟩
abbrev main_v1477 : Ref sig .tc := ⟨.hbm, 1494, rfl⟩
abbrev main_v1478 : Ref sig .tc := ⟨.hbm, 1495, rfl⟩
abbrev main_v1479 : Ref sig .tc := ⟨.hbm, 1496, rfl⟩
abbrev main_v1480 : Ref sig .tc := ⟨.hbm, 1497, rfl⟩
abbrev main_v1481 : Ref sig .tc := ⟨.hbm, 1498, rfl⟩
abbrev main_v1482 : Ref sig .tc := ⟨.hbm, 1499, rfl⟩
abbrev main_v1483 : Ref sig .tc := ⟨.hbm, 1500, rfl⟩
abbrev main_v1484 : Ref sig .tc := ⟨.hbm, 1501, rfl⟩
abbrev main_v1485 : Ref sig .tc := ⟨.hbm, 1502, rfl⟩
abbrev main_v1486 : Ref sig .tc := ⟨.hbm, 1503, rfl⟩
abbrev main_v1487 : Ref sig .tc := ⟨.hbm, 1504, rfl⟩
abbrev main_v1488 : Ref sig .tc := ⟨.hbm, 1505, rfl⟩
abbrev main_v1489 : Ref sig .tc := ⟨.hbm, 1506, rfl⟩
abbrev main_v1490 : Ref sig .tc := ⟨.hbm, 1507, rfl⟩
abbrev main_v1491 : Ref sig .tc := ⟨.hbm, 1508, rfl⟩
abbrev main_v1492 : Ref sig .tc := ⟨.hbm, 1509, rfl⟩
abbrev main_v1493 : Ref sig .tc := ⟨.hbm, 1510, rfl⟩
abbrev main_v1494 : Ref sig .tc := ⟨.hbm, 1511, rfl⟩
abbrev main_v1495 : Ref sig .tc := ⟨.hbm, 1512, rfl⟩
abbrev main_v1496 : Ref sig .tc := ⟨.hbm, 1513, rfl⟩
abbrev main_v1497 : Ref sig .tc := ⟨.hbm, 1514, rfl⟩
abbrev main_v1498 : Ref sig .tc := ⟨.hbm, 1515, rfl⟩
abbrev main_v1499 : Ref sig .tc := ⟨.hbm, 1516, rfl⟩
abbrev main_v1500 : Ref sig .tc := ⟨.hbm, 1517, rfl⟩
abbrev main_v1501 : Ref sig .tc := ⟨.hbm, 1518, rfl⟩
abbrev main_v1502 : Ref sig .tc := ⟨.hbm, 1519, rfl⟩
abbrev main_v1503 : Ref sig .tc := ⟨.hbm, 1520, rfl⟩
abbrev main_v1504 : Ref sig .tc := ⟨.hbm, 1521, rfl⟩
abbrev main_v1505 : Ref sig .tc := ⟨.hbm, 1522, rfl⟩
abbrev main_v1506 : Ref sig .tc := ⟨.hbm, 1523, rfl⟩
abbrev main_v1507 : Ref sig .tc := ⟨.hbm, 1524, rfl⟩
abbrev main_v1508 : Ref sig .tc := ⟨.hbm, 1525, rfl⟩
abbrev main_v1509 : Ref sig .tc := ⟨.hbm, 1526, rfl⟩
abbrev main_v1510 : Ref sig .tc := ⟨.hbm, 1527, rfl⟩
abbrev main_v1511 : Ref sig .tc := ⟨.hbm, 1528, rfl⟩
abbrev main_v1512 : Ref sig .tc := ⟨.hbm, 1529, rfl⟩
abbrev main_v1513 : Ref sig .tc := ⟨.hbm, 1530, rfl⟩
abbrev main_v1514 : Ref sig .tc := ⟨.hbm, 1531, rfl⟩
abbrev main_v1515 : Ref sig .tc := ⟨.hbm, 1532, rfl⟩
abbrev main_v1516 : Ref sig .tc := ⟨.hbm, 1533, rfl⟩
abbrev main_v1517 : Ref sig .tc := ⟨.hbm, 1534, rfl⟩
abbrev main_v1518 : Ref sig .tc := ⟨.hbm, 1535, rfl⟩
abbrev main_v1519 : Ref sig .tc := ⟨.hbm, 1536, rfl⟩
abbrev main_v1520 : Ref sig .tc := ⟨.hbm, 1537, rfl⟩
abbrev main_v1521 : Ref sig .tc := ⟨.hbm, 1538, rfl⟩
abbrev main_v1522 : Ref sig .tc := ⟨.hbm, 1539, rfl⟩
abbrev main_v1523 : Ref sig .tc := ⟨.hbm, 1540, rfl⟩
abbrev main_v1524 : Ref sig .tc := ⟨.hbm, 1541, rfl⟩
abbrev main_v1525 : Ref sig .tc := ⟨.hbm, 1542, rfl⟩
abbrev main_v1526 : Ref sig .tc := ⟨.hbm, 1543, rfl⟩
abbrev main_v1527 : Ref sig .tc := ⟨.hbm, 1544, rfl⟩
abbrev main_v1528 : Ref sig .tc := ⟨.hbm, 1545, rfl⟩
abbrev main_v1529 : Ref sig .tc := ⟨.hbm, 1546, rfl⟩
abbrev main_v1530 : Ref sig .tc := ⟨.hbm, 1547, rfl⟩
abbrev main_v1531 : Ref sig .tc := ⟨.hbm, 1548, rfl⟩
abbrev main_v1532 : Ref sig .tc := ⟨.hbm, 1549, rfl⟩
abbrev main_v1533 : Ref sig .tc := ⟨.hbm, 1550, rfl⟩
abbrev main_v1534 : Ref sig .tc := ⟨.hbm, 1551, rfl⟩
abbrev main_v1535 : Ref sig .tc := ⟨.hbm, 1552, rfl⟩
abbrev main_v1536 : Ref sig .tc := ⟨.hbm, 1553, rfl⟩
abbrev main_v1537 : Ref sig .tc := ⟨.hbm, 1554, rfl⟩
abbrev main_v1538 : Ref sig .tc := ⟨.hbm, 1555, rfl⟩
abbrev main_v1539 : Ref sig .tc := ⟨.hbm, 1556, rfl⟩
abbrev main_v1540 : Ref sig .tc := ⟨.hbm, 1557, rfl⟩
abbrev main_v1541 : Ref sig .tc := ⟨.hbm, 1558, rfl⟩
abbrev main_v1542 : Ref sig .tc := ⟨.hbm, 1559, rfl⟩
abbrev main_v1543 : Ref sig .tc := ⟨.hbm, 1560, rfl⟩
abbrev main_v1544 : Ref sig .tc := ⟨.hbm, 1561, rfl⟩
abbrev main_v1545 : Ref sig .tc := ⟨.hbm, 1562, rfl⟩
abbrev main_v1546 : Ref sig .tc := ⟨.hbm, 1563, rfl⟩
abbrev main_v1547 : Ref sig .tc := ⟨.hbm, 1564, rfl⟩
abbrev main_v1548 : Ref sig .tc := ⟨.hbm, 1565, rfl⟩
abbrev main_v1549 : Ref sig .tc := ⟨.hbm, 1566, rfl⟩
abbrev main_v1550 : Ref sig .tc := ⟨.hbm, 1567, rfl⟩
abbrev main_v1551 : Ref sig .tc := ⟨.hbm, 1568, rfl⟩
abbrev main_v1552 : Ref sig .tc := ⟨.hbm, 1569, rfl⟩
abbrev main_v1553 : Ref sig .tc := ⟨.hbm, 1570, rfl⟩
abbrev main_v1554 : Ref sig .tc := ⟨.hbm, 1571, rfl⟩
abbrev main_v1555 : Ref sig .tc := ⟨.hbm, 1572, rfl⟩
abbrev main_v1556 : Ref sig .tc := ⟨.hbm, 1573, rfl⟩
abbrev main_v1557 : Ref sig .tc := ⟨.hbm, 1574, rfl⟩
abbrev main_v1558 : Ref sig .tc := ⟨.hbm, 1575, rfl⟩
abbrev main_v1559 : Ref sig .tc := ⟨.hbm, 1576, rfl⟩
abbrev main_v1560 : Ref sig .tc := ⟨.hbm, 1577, rfl⟩
abbrev main_v1561 : Ref sig .tc := ⟨.hbm, 1578, rfl⟩
abbrev main_v1562 : Ref sig .tc := ⟨.hbm, 1579, rfl⟩
abbrev main_v1563 : Ref sig .tc := ⟨.hbm, 1580, rfl⟩
abbrev main_v1564 : Ref sig .tc := ⟨.hbm, 1581, rfl⟩
abbrev main_v1565 : Ref sig .tc := ⟨.hbm, 1582, rfl⟩
abbrev main_v1566 : Ref sig .tc := ⟨.hbm, 1583, rfl⟩
abbrev main_v1567 : Ref sig .tc := ⟨.hbm, 1584, rfl⟩
abbrev main_v1568 : Ref sig .tc := ⟨.hbm, 1585, rfl⟩
abbrev main_v1569 : Ref sig .tc := ⟨.hbm, 1586, rfl⟩
abbrev main_v1570 : Ref sig .tc := ⟨.hbm, 1587, rfl⟩
abbrev main_v1571 : Ref sig .tc := ⟨.hbm, 1588, rfl⟩
abbrev main_v1572 : Ref sig .tc := ⟨.hbm, 1589, rfl⟩
abbrev main_v1573 : Ref sig .tc := ⟨.hbm, 1590, rfl⟩
abbrev main_v1574 : Ref sig .tc := ⟨.hbm, 1591, rfl⟩
abbrev main_v1575 : Ref sig .tc := ⟨.hbm, 1592, rfl⟩
abbrev main_v1576 : Ref sig .tc := ⟨.hbm, 1593, rfl⟩
abbrev main_v1577 : Ref sig .tc := ⟨.hbm, 1594, rfl⟩
abbrev main_v1578 : Ref sig .tc := ⟨.hbm, 1595, rfl⟩
abbrev main_v1579 : Ref sig .tc := ⟨.hbm, 1596, rfl⟩
abbrev main_v1580 : Ref sig .tc := ⟨.hbm, 1597, rfl⟩
abbrev main_v1581 : Ref sig .tc := ⟨.hbm, 1598, rfl⟩
abbrev main_v1582 : Ref sig .tc := ⟨.hbm, 1599, rfl⟩
abbrev main_v1583 : Ref sig .tc := ⟨.hbm, 1600, rfl⟩
abbrev main_v1584 : Ref sig .tc := ⟨.hbm, 1601, rfl⟩
abbrev main_v1585 : Ref sig .tc := ⟨.hbm, 1602, rfl⟩
abbrev main_v1586 : Ref sig .tc := ⟨.hbm, 1603, rfl⟩
abbrev main_v1587 : Ref sig .tc := ⟨.hbm, 1604, rfl⟩
abbrev main_v1588 : Ref sig .tc := ⟨.hbm, 1605, rfl⟩
abbrev main_v1589 : Ref sig .tc := ⟨.hbm, 1606, rfl⟩
abbrev main_v1590 : Ref sig .tc := ⟨.hbm, 1607, rfl⟩
abbrev main_v1591 : Ref sig .tc := ⟨.hbm, 1608, rfl⟩
abbrev main_v1592 : Ref sig .tc := ⟨.hbm, 1609, rfl⟩
abbrev main_v1593 : Ref sig .tc := ⟨.hbm, 1610, rfl⟩
abbrev main_v1594 : Ref sig .tc := ⟨.hbm, 1611, rfl⟩
abbrev main_v1595 : Ref sig .tc := ⟨.hbm, 1612, rfl⟩
abbrev main_v1596 : Ref sig .tc := ⟨.hbm, 1613, rfl⟩
abbrev main_v1597 : Ref sig .tc := ⟨.hbm, 1614, rfl⟩
abbrev main_v1598 : Ref sig .tc := ⟨.hbm, 1615, rfl⟩
abbrev main_v1599 : Ref sig .tc := ⟨.hbm, 1616, rfl⟩
abbrev main_v1600 : Ref sig .tc := ⟨.hbm, 1617, rfl⟩
abbrev main_v1601 : Ref sig .tc := ⟨.hbm, 1618, rfl⟩
abbrev main_v1602 : Ref sig .tc := ⟨.hbm, 1619, rfl⟩
abbrev main_v1603 : Ref sig .tc := ⟨.hbm, 1620, rfl⟩
abbrev main_v1604 : Ref sig .tc := ⟨.hbm, 1621, rfl⟩
abbrev main_v1605 : Ref sig .tc := ⟨.hbm, 1622, rfl⟩
abbrev main_v1606 : Ref sig .tc := ⟨.hbm, 1623, rfl⟩
abbrev main_v1607 : Ref sig .tc := ⟨.hbm, 1624, rfl⟩
abbrev main_v1608 : Ref sig .tc := ⟨.hbm, 1625, rfl⟩
abbrev main_v1609 : Ref sig .tc := ⟨.hbm, 1626, rfl⟩
abbrev main_v1610 : Ref sig .tc := ⟨.hbm, 1627, rfl⟩
abbrev main_v1611 : Ref sig .tc := ⟨.hbm, 1628, rfl⟩
abbrev main_v1612 : Ref sig .tc := ⟨.hbm, 1629, rfl⟩
abbrev main_v1613 : Ref sig .tc := ⟨.hbm, 1630, rfl⟩
abbrev main_v1614 : Ref sig .tc := ⟨.hbm, 1631, rfl⟩
abbrev main_v1615 : Ref sig .tc := ⟨.hbm, 1632, rfl⟩
abbrev main_v1616 : Ref sig .tc := ⟨.hbm, 1633, rfl⟩
abbrev main_v1617 : Ref sig .tc := ⟨.hbm, 1634, rfl⟩
abbrev main_v1618 : Ref sig .tc := ⟨.hbm, 1635, rfl⟩
abbrev main_v1619 : Ref sig .tc := ⟨.hbm, 1636, rfl⟩
abbrev main_v1620 : Ref sig .tc := ⟨.hbm, 1637, rfl⟩
abbrev main_v1621 : Ref sig .tc := ⟨.hbm, 1638, rfl⟩
abbrev main_v1622 : Ref sig .tc := ⟨.hbm, 1639, rfl⟩
abbrev main_v1623 : Ref sig .tc := ⟨.hbm, 1640, rfl⟩
abbrev main_v1624 : Ref sig .tc := ⟨.hbm, 1641, rfl⟩
abbrev main_v1625 : Ref sig .tc := ⟨.hbm, 1642, rfl⟩
abbrev main_v1626 : Ref sig .tc := ⟨.hbm, 1643, rfl⟩
abbrev main_v1627 : Ref sig .tc := ⟨.hbm, 1644, rfl⟩
abbrev main_v1628 : Ref sig .tc := ⟨.hbm, 1645, rfl⟩
abbrev main_v1629 : Ref sig .tc := ⟨.hbm, 1646, rfl⟩
abbrev main_v1630 : Ref sig .tc := ⟨.hbm, 1647, rfl⟩
abbrev main_v1631 : Ref sig .tc := ⟨.hbm, 1648, rfl⟩
abbrev main_v1632 : Ref sig .tc := ⟨.hbm, 1649, rfl⟩
abbrev main_v1633 : Ref sig .tc := ⟨.hbm, 1650, rfl⟩
abbrev main_v1634 : Ref sig .tc := ⟨.hbm, 1651, rfl⟩
abbrev main_v1635 : Ref sig .tc := ⟨.hbm, 1652, rfl⟩
abbrev main_v1636 : Ref sig .tc := ⟨.hbm, 1653, rfl⟩
abbrev main_v1637 : Ref sig .tc := ⟨.hbm, 1654, rfl⟩
abbrev main_v1638 : Ref sig .tc := ⟨.hbm, 1655, rfl⟩
abbrev main_v1639 : Ref sig .tc := ⟨.hbm, 1656, rfl⟩
abbrev main_v1640 : Ref sig .tc := ⟨.hbm, 1657, rfl⟩
abbrev main_v1641 : Ref sig .tc := ⟨.hbm, 1658, rfl⟩
abbrev main_v1642 : Ref sig .tc := ⟨.hbm, 1659, rfl⟩
abbrev main_v1643 : Ref sig .tc := ⟨.hbm, 1660, rfl⟩
abbrev main_v1644 : Ref sig .tc := ⟨.hbm, 1661, rfl⟩
abbrev main_v1645 : Ref sig .tc := ⟨.hbm, 1662, rfl⟩
abbrev main_v1646 : Ref sig .tc := ⟨.hbm, 1663, rfl⟩
abbrev main_v1647 : Ref sig .tc := ⟨.hbm, 1664, rfl⟩
abbrev main_v1648 : Ref sig .tc := ⟨.hbm, 1665, rfl⟩
abbrev main_v1649 : Ref sig .tc := ⟨.hbm, 1666, rfl⟩
abbrev main_v1650 : Ref sig .tc := ⟨.hbm, 1667, rfl⟩
abbrev main_v1651 : Ref sig .tc := ⟨.hbm, 1668, rfl⟩
abbrev main_v1652 : Ref sig .tc := ⟨.hbm, 1669, rfl⟩
abbrev main_v1653 : Ref sig .tc := ⟨.hbm, 1670, rfl⟩
abbrev main_v1654 : Ref sig .tc := ⟨.hbm, 1671, rfl⟩
abbrev main_v1655 : Ref sig .tc := ⟨.hbm, 1672, rfl⟩
abbrev main_v1656 : Ref sig .tc := ⟨.hbm, 1673, rfl⟩
abbrev main_v1657 : Ref sig .tc := ⟨.hbm, 1674, rfl⟩
abbrev main_v1658 : Ref sig .tc := ⟨.hbm, 1675, rfl⟩
abbrev main_v1659 : Ref sig .tc := ⟨.hbm, 1676, rfl⟩
abbrev main_v1660 : Ref sig .tc := ⟨.hbm, 1677, rfl⟩
abbrev main_v1661 : Ref sig .tc := ⟨.hbm, 1678, rfl⟩
abbrev main_v1662 : Ref sig .tc := ⟨.hbm, 1679, rfl⟩
abbrev main_v1663 : Ref sig .tc := ⟨.hbm, 1680, rfl⟩
abbrev main_v1664 : Ref sig .tc := ⟨.hbm, 1681, rfl⟩
abbrev main_v1665 : Ref sig .tc := ⟨.hbm, 1682, rfl⟩
abbrev main_v1666 : Ref sig .tc := ⟨.hbm, 1683, rfl⟩
abbrev main_v1667 : Ref sig .tc := ⟨.hbm, 1684, rfl⟩
abbrev main_v1668 : Ref sig .tc := ⟨.hbm, 1685, rfl⟩
abbrev main_v1669 : Ref sig .tc := ⟨.hbm, 1686, rfl⟩
abbrev main_v1670 : Ref sig .tc := ⟨.hbm, 1687, rfl⟩
abbrev main_v1671 : Ref sig .tc := ⟨.hbm, 1688, rfl⟩
abbrev main_v1672 : Ref sig .tc := ⟨.hbm, 1689, rfl⟩
abbrev main_v1673 : Ref sig .tc := ⟨.hbm, 1690, rfl⟩
abbrev main_v1674 : Ref sig .tc := ⟨.hbm, 1691, rfl⟩
abbrev main_v1675 : Ref sig .tc := ⟨.hbm, 1692, rfl⟩
abbrev main_v1676 : Ref sig .tc := ⟨.hbm, 1693, rfl⟩
abbrev main_v1677 : Ref sig .tc := ⟨.hbm, 1694, rfl⟩
abbrev main_v1678 : Ref sig .tc := ⟨.hbm, 1695, rfl⟩
abbrev main_v1679 : Ref sig .tc := ⟨.hbm, 1696, rfl⟩
abbrev main_v1680 : Ref sig .tc := ⟨.hbm, 1697, rfl⟩
abbrev main_v1681 : Ref sig .tc := ⟨.hbm, 1698, rfl⟩
abbrev main_v1682 : Ref sig .tc := ⟨.hbm, 1699, rfl⟩
abbrev main_v1683 : Ref sig .tc := ⟨.hbm, 1700, rfl⟩
abbrev main_v1684 : Ref sig .tc := ⟨.hbm, 1701, rfl⟩
abbrev main_v1685 : Ref sig .tc := ⟨.hbm, 1702, rfl⟩
abbrev main_v1686 : Ref sig .tc := ⟨.hbm, 1703, rfl⟩
abbrev main_v1687 : Ref sig .tc := ⟨.hbm, 1704, rfl⟩
abbrev main_v1688 : Ref sig .tc := ⟨.hbm, 1705, rfl⟩
abbrev main_v1689 : Ref sig .tc := ⟨.hbm, 1706, rfl⟩
abbrev main_v1690 : Ref sig .tc := ⟨.hbm, 1707, rfl⟩
abbrev main_v1691 : Ref sig .tc := ⟨.hbm, 1708, rfl⟩
abbrev main_v1692 : Ref sig .tc := ⟨.hbm, 1709, rfl⟩
abbrev main_v1693 : Ref sig .tc := ⟨.hbm, 1710, rfl⟩
abbrev main_v1694 : Ref sig .tc := ⟨.hbm, 1711, rfl⟩
abbrev main_v1695 : Ref sig .tc := ⟨.hbm, 1712, rfl⟩
abbrev main_v1696 : Ref sig .tc := ⟨.hbm, 1713, rfl⟩
abbrev main_v1697 : Ref sig .tc := ⟨.hbm, 1714, rfl⟩
abbrev main_v1698 : Ref sig .tc := ⟨.hbm, 1715, rfl⟩
abbrev main_v1699 : Ref sig .tc := ⟨.hbm, 1716, rfl⟩
abbrev main_v1700 : Ref sig .tc := ⟨.hbm, 1717, rfl⟩
abbrev main_v1701 : Ref sig .tc := ⟨.hbm, 1718, rfl⟩
abbrev main_v1702 : Ref sig .tc := ⟨.hbm, 1719, rfl⟩
abbrev main_v1703 : Ref sig .tc := ⟨.hbm, 1720, rfl⟩
abbrev main_v1704 : Ref sig .tc := ⟨.hbm, 1721, rfl⟩
abbrev main_v1705 : Ref sig .tc := ⟨.hbm, 1722, rfl⟩
abbrev main_v1706 : Ref sig .tc := ⟨.hbm, 1723, rfl⟩
abbrev main_v1707 : Ref sig .tc := ⟨.hbm, 1724, rfl⟩
abbrev main_v1708 : Ref sig .tc := ⟨.hbm, 1725, rfl⟩
abbrev main_v1709 : Ref sig .tc := ⟨.hbm, 1726, rfl⟩
abbrev main_v1710 : Ref sig .tc := ⟨.hbm, 1727, rfl⟩
abbrev main_v1711 : Ref sig .tc := ⟨.hbm, 1728, rfl⟩
abbrev main_v1712 : Ref sig .tc := ⟨.hbm, 1729, rfl⟩
abbrev main_v1713 : Ref sig .tc := ⟨.hbm, 1730, rfl⟩
abbrev main_v1714 : Ref sig .tc := ⟨.hbm, 1731, rfl⟩
abbrev main_v1715 : Ref sig .tc := ⟨.hbm, 1732, rfl⟩
abbrev main_v1716 : Ref sig .tc := ⟨.hbm, 1733, rfl⟩
abbrev main_v1717 : Ref sig .tc := ⟨.hbm, 1734, rfl⟩
abbrev main_v1718 : Ref sig .tc := ⟨.hbm, 1735, rfl⟩
abbrev main_v1719 : Ref sig .tc := ⟨.hbm, 1736, rfl⟩
abbrev main_v1720 : Ref sig .tc := ⟨.hbm, 1737, rfl⟩
abbrev main_v1721 : Ref sig .tc := ⟨.hbm, 1738, rfl⟩
abbrev main_v1722 : Ref sig .tc := ⟨.hbm, 1739, rfl⟩
abbrev main_v1723 : Ref sig .tc := ⟨.hbm, 1740, rfl⟩
abbrev main_v1724 : Ref sig .tc := ⟨.hbm, 1741, rfl⟩
abbrev main_v1725 : Ref sig .tc := ⟨.hbm, 1742, rfl⟩
abbrev main_v1726 : Ref sig .tc := ⟨.hbm, 1743, rfl⟩
abbrev main_v1727 : Ref sig .tc := ⟨.hbm, 1744, rfl⟩
abbrev main_v1728 : Ref sig .tc := ⟨.hbm, 1745, rfl⟩
abbrev main_v1729 : Ref sig .tc := ⟨.hbm, 1746, rfl⟩
abbrev main_v1730 : Ref sig .tc := ⟨.hbm, 1747, rfl⟩
abbrev main_v1731 : Ref sig .tc := ⟨.hbm, 1748, rfl⟩
abbrev main_v1732 : Ref sig .tc := ⟨.hbm, 1749, rfl⟩
abbrev main_v1733 : Ref sig .tc := ⟨.hbm, 1750, rfl⟩
abbrev main_v1734 : Ref sig .tc := ⟨.hbm, 1751, rfl⟩
abbrev main_v1735 : Ref sig .tc := ⟨.hbm, 1752, rfl⟩
abbrev main_v1736 : Ref sig .tc := ⟨.hbm, 1753, rfl⟩
abbrev main_v1737 : Ref sig .tc := ⟨.hbm, 1754, rfl⟩
abbrev main_v1738 : Ref sig .tc := ⟨.hbm, 1755, rfl⟩
abbrev main_v1739 : Ref sig .tc := ⟨.hbm, 1756, rfl⟩
abbrev main_v1740 : Ref sig .tc := ⟨.hbm, 1757, rfl⟩
abbrev main_v1741 : Ref sig .tc := ⟨.hbm, 1758, rfl⟩
abbrev main_v1742 : Ref sig .tc := ⟨.hbm, 1759, rfl⟩
abbrev main_v1743 : Ref sig .tc := ⟨.hbm, 1760, rfl⟩
abbrev main_v1744 : Ref sig .tc := ⟨.hbm, 1761, rfl⟩
abbrev main_v1745 : Ref sig .tc := ⟨.hbm, 1762, rfl⟩
abbrev main_v1746 : Ref sig .tc := ⟨.hbm, 1763, rfl⟩
abbrev main_v1747 : Ref sig .tc := ⟨.hbm, 1764, rfl⟩
abbrev main_v1748 : Ref sig .tc := ⟨.hbm, 1765, rfl⟩
abbrev main_v1749 : Ref sig .tc := ⟨.hbm, 1766, rfl⟩
abbrev main_v1750 : Ref sig .tc := ⟨.hbm, 1767, rfl⟩
abbrev main_v1751 : Ref sig .tc := ⟨.hbm, 1768, rfl⟩
abbrev main_v1752 : Ref sig .tc := ⟨.hbm, 1769, rfl⟩
abbrev main_v1753 : Ref sig .tc := ⟨.hbm, 1770, rfl⟩
abbrev main_v1754 : Ref sig .tc := ⟨.hbm, 1771, rfl⟩
abbrev main_v1755 : Ref sig .tc := ⟨.hbm, 1772, rfl⟩
abbrev main_v1756 : Ref sig .tc := ⟨.hbm, 1773, rfl⟩
abbrev main_v1757 : Ref sig .tc := ⟨.hbm, 1774, rfl⟩
abbrev main_v1758 : Ref sig .tc := ⟨.hbm, 1775, rfl⟩
abbrev main_v1759 : Ref sig .tc := ⟨.hbm, 1776, rfl⟩
abbrev main_v1760 : Ref sig .tc := ⟨.hbm, 1777, rfl⟩
abbrev main_v1761 : Ref sig .tc := ⟨.hbm, 1778, rfl⟩
abbrev main_v1762 : Ref sig .tc := ⟨.hbm, 1779, rfl⟩
abbrev main_v1763 : Ref sig .tc := ⟨.hbm, 1780, rfl⟩
abbrev main_v1764 : Ref sig .tc := ⟨.hbm, 1781, rfl⟩
abbrev main_v1765 : Ref sig .tc := ⟨.hbm, 1782, rfl⟩
abbrev main_v1766 : Ref sig .tc := ⟨.hbm, 1783, rfl⟩
abbrev main_v1767 : Ref sig .tc := ⟨.hbm, 1784, rfl⟩
abbrev main_v1768 : Ref sig .tc := ⟨.hbm, 1785, rfl⟩
abbrev main_v1769 : Ref sig .tc := ⟨.hbm, 1786, rfl⟩
abbrev main_v1770 : Ref sig .tc := ⟨.hbm, 1787, rfl⟩
abbrev main_v1771 : Ref sig .tc := ⟨.hbm, 1788, rfl⟩
abbrev main_v1772 : Ref sig .tc := ⟨.hbm, 1789, rfl⟩
abbrev main_v1773 : Ref sig .tc := ⟨.hbm, 1790, rfl⟩
abbrev main_v1774 : Ref sig .tc := ⟨.hbm, 1791, rfl⟩
abbrev main_v1775 : Ref sig .tc := ⟨.hbm, 1792, rfl⟩
abbrev main_v1776 : Ref sig .tc := ⟨.hbm, 1793, rfl⟩
abbrev main_v1777 : Ref sig .tc := ⟨.hbm, 1794, rfl⟩
abbrev main_v1778 : Ref sig .tc := ⟨.hbm, 1795, rfl⟩
abbrev main_v1779 : Ref sig .tc := ⟨.hbm, 1796, rfl⟩
abbrev main_v1780 : Ref sig .tc := ⟨.hbm, 1797, rfl⟩
abbrev main_v1781 : Ref sig .tc := ⟨.hbm, 1798, rfl⟩
abbrev main_v1782 : Ref sig .tc := ⟨.hbm, 1799, rfl⟩
abbrev main_v1783 : Ref sig .tc := ⟨.hbm, 1800, rfl⟩
abbrev main_v1784 : Ref sig .tc := ⟨.hbm, 1801, rfl⟩
abbrev main_v1785 : Ref sig .tc := ⟨.hbm, 1802, rfl⟩
abbrev main_v1786 : Ref sig .tc := ⟨.hbm, 1803, rfl⟩
abbrev main_v1787 : Ref sig .tc := ⟨.hbm, 1804, rfl⟩
abbrev main_v1788 : Ref sig .tc := ⟨.hbm, 1805, rfl⟩
abbrev main_v1789 : Ref sig .tc := ⟨.hbm, 1806, rfl⟩
abbrev main_v1790 : Ref sig .tc := ⟨.hbm, 1807, rfl⟩
abbrev main_v1791 : Ref sig .tc := ⟨.hbm, 1808, rfl⟩
abbrev main_v1792 : Ref sig .tc := ⟨.hbm, 1809, rfl⟩
abbrev main_v1793 : Ref sig .tc := ⟨.hbm, 1810, rfl⟩
abbrev main_v1794 : Ref sig .tc := ⟨.hbm, 1811, rfl⟩
abbrev main_v1795 : Ref sig .tc := ⟨.hbm, 1812, rfl⟩
abbrev main_v1796 : Ref sig .tc := ⟨.hbm, 1813, rfl⟩
abbrev main_v1797 : Ref sig .tc := ⟨.hbm, 1814, rfl⟩
abbrev main_v1798 : Ref sig .tc := ⟨.hbm, 1815, rfl⟩
abbrev main_v1799 : Ref sig .tc := ⟨.hbm, 1816, rfl⟩
abbrev main_v1800 : Ref sig .tc := ⟨.hbm, 1817, rfl⟩
abbrev main_v1801 : Ref sig .tc := ⟨.hbm, 1818, rfl⟩
abbrev main_v1802 : Ref sig .tc := ⟨.hbm, 1819, rfl⟩
abbrev main_v1803 : Ref sig .tc := ⟨.hbm, 1820, rfl⟩
abbrev main_v1804 : Ref sig .tc := ⟨.hbm, 1821, rfl⟩
abbrev main_v1805 : Ref sig .tc := ⟨.hbm, 1822, rfl⟩
abbrev main_v1806 : Ref sig .tc := ⟨.hbm, 1823, rfl⟩
abbrev main_v1807 : Ref sig .tc := ⟨.hbm, 1824, rfl⟩
abbrev main_v1808 : Ref sig .tc := ⟨.hbm, 1825, rfl⟩
abbrev main_v1809 : Ref sig .tc := ⟨.hbm, 1826, rfl⟩
abbrev main_v1810 : Ref sig .tc := ⟨.hbm, 1827, rfl⟩
abbrev main_v1811 : Ref sig .tc := ⟨.hbm, 1828, rfl⟩
abbrev main_v1812 : Ref sig .tc := ⟨.hbm, 1829, rfl⟩
abbrev main_v1813 : Ref sig .tc := ⟨.hbm, 1830, rfl⟩
abbrev main_v1814 : Ref sig .tc := ⟨.hbm, 1831, rfl⟩
abbrev main_v1815 : Ref sig .tc := ⟨.hbm, 1832, rfl⟩
abbrev main_v1816 : Ref sig .tc := ⟨.hbm, 1833, rfl⟩
abbrev main_v1817 : Ref sig .tc := ⟨.hbm, 1834, rfl⟩
abbrev main_v1818 : Ref sig .tc := ⟨.hbm, 1835, rfl⟩
abbrev main_v1819 : Ref sig .tc := ⟨.hbm, 1836, rfl⟩
abbrev main_v1820 : Ref sig .tc := ⟨.hbm, 1837, rfl⟩
abbrev main_v1821 : Ref sig .tc := ⟨.hbm, 1838, rfl⟩
abbrev main_v1822 : Ref sig .tc := ⟨.hbm, 1839, rfl⟩
abbrev main_v1823 : Ref sig .tc := ⟨.hbm, 1840, rfl⟩
abbrev main_v1824 : Ref sig .tc := ⟨.hbm, 1841, rfl⟩
abbrev main_v1825 : Ref sig .tc := ⟨.hbm, 1842, rfl⟩
abbrev main_v1826 : Ref sig .tc := ⟨.hbm, 1843, rfl⟩
abbrev main_v1827 : Ref sig .tc := ⟨.hbm, 1844, rfl⟩
abbrev main_v1828 : Ref sig .tc := ⟨.hbm, 1845, rfl⟩
abbrev main_v1829 : Ref sig .tc := ⟨.hbm, 1846, rfl⟩
abbrev main_v1830 : Ref sig .tc := ⟨.hbm, 1847, rfl⟩
abbrev main_v1831 : Ref sig .tc := ⟨.hbm, 1848, rfl⟩
abbrev main_v1832 : Ref sig .tc := ⟨.hbm, 1849, rfl⟩
abbrev main_v1833 : Ref sig .tc := ⟨.hbm, 1850, rfl⟩
abbrev main_v1834 : Ref sig .tc := ⟨.hbm, 1851, rfl⟩
abbrev main_v1835 : Ref sig .tc := ⟨.hbm, 1852, rfl⟩
abbrev main_v1836 : Ref sig .tc := ⟨.hbm, 1853, rfl⟩
abbrev main_v1837 : Ref sig .tc := ⟨.hbm, 1854, rfl⟩
abbrev main_v1838 : Ref sig .tc := ⟨.hbm, 1855, rfl⟩
abbrev main_v1839 : Ref sig .tc := ⟨.hbm, 1856, rfl⟩
abbrev main_v1840 : Ref sig .tc := ⟨.hbm, 1857, rfl⟩
abbrev main_v1841 : Ref sig .tc := ⟨.hbm, 1858, rfl⟩
abbrev main_v1842 : Ref sig .tc := ⟨.hbm, 1859, rfl⟩
abbrev main_v1843 : Ref sig .tc := ⟨.hbm, 1860, rfl⟩
abbrev main_v1844 : Ref sig .tc := ⟨.hbm, 1861, rfl⟩
abbrev main_v1845 : Ref sig .tc := ⟨.hbm, 1862, rfl⟩
abbrev main_v1846 : Ref sig .tc := ⟨.hbm, 1863, rfl⟩
abbrev main_v1847 : Ref sig .tc := ⟨.hbm, 1864, rfl⟩
abbrev main_v1848 : Ref sig .tc := ⟨.hbm, 1865, rfl⟩
abbrev main_v1849 : Ref sig .tc := ⟨.hbm, 1866, rfl⟩
abbrev main_v1850 : Ref sig .tc := ⟨.hbm, 1867, rfl⟩
abbrev main_v1851 : Ref sig .tc := ⟨.hbm, 1868, rfl⟩
abbrev main_v1852 : Ref sig .tc := ⟨.hbm, 1869, rfl⟩
abbrev main_v1853 : Ref sig .tc := ⟨.hbm, 1870, rfl⟩
abbrev main_v1854 : Ref sig .tc := ⟨.hbm, 1871, rfl⟩
abbrev main_v1855 : Ref sig .tc := ⟨.hbm, 1872, rfl⟩
abbrev main_v1856 : Ref sig .tc := ⟨.hbm, 1873, rfl⟩
abbrev main_v1857 : Ref sig .tc := ⟨.hbm, 1874, rfl⟩
abbrev main_v1858 : Ref sig .tc := ⟨.hbm, 1875, rfl⟩
abbrev main_v1859 : Ref sig .tc := ⟨.hbm, 1876, rfl⟩
abbrev main_v1860 : Ref sig .tc := ⟨.hbm, 1877, rfl⟩
abbrev main_v1861 : Ref sig .tc := ⟨.hbm, 1878, rfl⟩
abbrev main_v1862 : Ref sig .tc := ⟨.hbm, 1879, rfl⟩
abbrev main_v1863 : Ref sig .tc := ⟨.hbm, 1880, rfl⟩
abbrev main_v1864 : Ref sig .tc := ⟨.hbm, 1881, rfl⟩
abbrev main_v1865 : Ref sig .tc := ⟨.hbm, 1882, rfl⟩
abbrev main_v1866 : Ref sig .tc := ⟨.hbm, 1883, rfl⟩
abbrev main_v1867 : Ref sig .tc := ⟨.hbm, 1884, rfl⟩
abbrev main_v1868 : Ref sig .tc := ⟨.hbm, 1885, rfl⟩
abbrev main_v1869 : Ref sig .tc := ⟨.hbm, 1886, rfl⟩
abbrev main_v1870 : Ref sig .tc := ⟨.hbm, 1887, rfl⟩
abbrev main_v1871 : Ref sig .tc := ⟨.hbm, 1888, rfl⟩
abbrev main_v1872 : Ref sig .tc := ⟨.hbm, 1889, rfl⟩
abbrev main_v1873 : Ref sig .tc := ⟨.hbm, 1890, rfl⟩
abbrev main_v1874 : Ref sig .tc := ⟨.hbm, 1891, rfl⟩
abbrev main_v1875 : Ref sig .tc := ⟨.hbm, 1892, rfl⟩
abbrev main_v1876 : Ref sig .tc := ⟨.hbm, 1893, rfl⟩
abbrev main_v1877 : Ref sig .tc := ⟨.hbm, 1894, rfl⟩
abbrev main_v1878 : Ref sig .tc := ⟨.hbm, 1895, rfl⟩
abbrev main_v1879 : Ref sig .tc := ⟨.hbm, 1896, rfl⟩
abbrev main_v1880 : Ref sig .tc := ⟨.hbm, 1897, rfl⟩
abbrev main_v1881 : Ref sig .tc := ⟨.hbm, 1898, rfl⟩
abbrev main_v1882 : Ref sig .tc := ⟨.hbm, 1899, rfl⟩
abbrev main_v1883 : Ref sig .tc := ⟨.hbm, 1900, rfl⟩
abbrev main_v1884 : Ref sig .tc := ⟨.hbm, 1901, rfl⟩
abbrev main_v1885 : Ref sig .tc := ⟨.hbm, 1902, rfl⟩
abbrev main_v1886 : Ref sig .tc := ⟨.hbm, 1903, rfl⟩
abbrev main_v1887 : Ref sig .tc := ⟨.hbm, 1904, rfl⟩
abbrev main_v1888 : Ref sig .tc := ⟨.hbm, 1905, rfl⟩
abbrev main_v1889 : Ref sig .tc := ⟨.hbm, 1906, rfl⟩
abbrev main_v1890 : Ref sig .tc := ⟨.hbm, 1907, rfl⟩
abbrev main_v1891 : Ref sig .tc := ⟨.hbm, 1908, rfl⟩
abbrev main_v1892 : Ref sig .tc := ⟨.hbm, 1909, rfl⟩
abbrev main_v1893 : Ref sig .tc := ⟨.hbm, 1910, rfl⟩
abbrev main_v1894 : Ref sig .tc := ⟨.hbm, 1911, rfl⟩
abbrev main_v1895 : Ref sig .tc := ⟨.hbm, 1912, rfl⟩
abbrev main_v1896 : Ref sig .tc := ⟨.hbm, 1913, rfl⟩
abbrev main_v1897 : Ref sig .tc := ⟨.hbm, 1914, rfl⟩
abbrev main_v1898 : Ref sig .tc := ⟨.hbm, 1915, rfl⟩
abbrev main_v1899 : Ref sig .tc := ⟨.hbm, 1916, rfl⟩
abbrev main_v1900 : Ref sig .tc := ⟨.hbm, 1917, rfl⟩
abbrev main_v1901 : Ref sig .tc := ⟨.hbm, 1918, rfl⟩
abbrev main_v1902 : Ref sig .tc := ⟨.hbm, 1919, rfl⟩
abbrev main_v1903 : Ref sig .tc := ⟨.hbm, 1920, rfl⟩
abbrev main_v1904 : Ref sig .tc := ⟨.hbm, 1921, rfl⟩
abbrev main_v1905 : Ref sig .tc := ⟨.hbm, 1922, rfl⟩
abbrev main_v1906 : Ref sig .tc := ⟨.hbm, 1923, rfl⟩
abbrev main_v1907 : Ref sig .tc := ⟨.hbm, 1924, rfl⟩
abbrev main_v1908 : Ref sig .tc := ⟨.hbm, 1925, rfl⟩
abbrev main_v1909 : Ref sig .tc := ⟨.hbm, 1926, rfl⟩
abbrev main_v1910 : Ref sig .tc := ⟨.hbm, 1927, rfl⟩
abbrev main_v1911 : Ref sig .tc := ⟨.hbm, 1928, rfl⟩
abbrev main_v1912 : Ref sig .tc := ⟨.hbm, 1929, rfl⟩
abbrev main_v1913 : Ref sig .tc := ⟨.hbm, 1930, rfl⟩
abbrev main_v1914 : Ref sig .tc := ⟨.hbm, 1931, rfl⟩
abbrev main_v1915 : Ref sig .tc := ⟨.hbm, 1932, rfl⟩
abbrev main_v1916 : Ref sig .tc := ⟨.hbm, 1933, rfl⟩
abbrev main_v1917 : Ref sig .tc := ⟨.hbm, 1934, rfl⟩
abbrev main_v1918 : Ref sig .tc := ⟨.hbm, 1935, rfl⟩
abbrev main_v1919 : Ref sig .tc := ⟨.hbm, 1936, rfl⟩
abbrev main_v1920 : Ref sig .tc := ⟨.hbm, 1937, rfl⟩
abbrev main_v1921 : Ref sig .tc := ⟨.hbm, 1938, rfl⟩
abbrev main_v1922 : Ref sig .tc := ⟨.hbm, 1939, rfl⟩
abbrev main_v1923 : Ref sig .tc := ⟨.hbm, 1940, rfl⟩
abbrev main_v1924 : Ref sig .tc := ⟨.hbm, 1941, rfl⟩
abbrev main_v1925 : Ref sig .tc := ⟨.hbm, 1942, rfl⟩
abbrev main_v1926 : Ref sig .tc := ⟨.hbm, 1943, rfl⟩
abbrev main_v1927 : Ref sig .tc := ⟨.hbm, 1944, rfl⟩
abbrev main_v1928 : Ref sig .tc := ⟨.hbm, 1945, rfl⟩
abbrev main_v1929 : Ref sig .tc := ⟨.hbm, 1946, rfl⟩
abbrev main_v1930 : Ref sig .tc := ⟨.hbm, 1947, rfl⟩
abbrev main_v1931 : Ref sig .tc := ⟨.hbm, 1948, rfl⟩
abbrev main_v1932 : Ref sig .tc := ⟨.hbm, 1949, rfl⟩
abbrev main_v1933 : Ref sig .tc := ⟨.hbm, 1950, rfl⟩
abbrev main_v1934 : Ref sig .tc := ⟨.hbm, 1951, rfl⟩
abbrev main_v1935 : Ref sig .tc := ⟨.hbm, 1952, rfl⟩
abbrev main_v1936 : Ref sig .tc := ⟨.hbm, 1953, rfl⟩
abbrev main_v1937 : Ref sig .tc := ⟨.hbm, 1954, rfl⟩
abbrev main_v1938 : Ref sig .tc := ⟨.hbm, 1955, rfl⟩
abbrev main_v1939 : Ref sig .tc := ⟨.hbm, 1956, rfl⟩
abbrev main_v1940 : Ref sig .tc := ⟨.hbm, 1957, rfl⟩
abbrev main_v1941 : Ref sig .tc := ⟨.hbm, 1958, rfl⟩
abbrev main_v1942 : Ref sig .tc := ⟨.hbm, 1959, rfl⟩
abbrev main_v1943 : Ref sig .tc := ⟨.hbm, 1960, rfl⟩
abbrev main_v1944 : Ref sig .tc := ⟨.hbm, 1961, rfl⟩
abbrev main_v1945 : Ref sig .tc := ⟨.hbm, 1962, rfl⟩
abbrev main_v1946 : Ref sig .tc := ⟨.hbm, 1963, rfl⟩
abbrev main_v1947 : Ref sig .tc := ⟨.hbm, 1964, rfl⟩
abbrev main_v1948 : Ref sig .tc := ⟨.hbm, 1965, rfl⟩
abbrev main_v1949 : Ref sig .tc := ⟨.hbm, 1966, rfl⟩
abbrev main_v1950 : Ref sig .tc := ⟨.hbm, 1967, rfl⟩
abbrev main_v1951 : Ref sig .tc := ⟨.hbm, 1968, rfl⟩
abbrev main_v1952 : Ref sig .tc := ⟨.hbm, 1969, rfl⟩
abbrev main_v1953 : Ref sig .tc := ⟨.hbm, 1970, rfl⟩
abbrev main_v1954 : Ref sig .tc := ⟨.hbm, 1971, rfl⟩
abbrev main_v1955 : Ref sig .tc := ⟨.hbm, 1972, rfl⟩
abbrev main_v1956 : Ref sig .tc := ⟨.hbm, 1973, rfl⟩
abbrev main_v1957 : Ref sig .tc := ⟨.hbm, 1974, rfl⟩
abbrev main_v1958 : Ref sig .tc := ⟨.hbm, 1975, rfl⟩
abbrev main_v1959 : Ref sig .tc := ⟨.hbm, 1976, rfl⟩
abbrev main_v1960 : Ref sig .tc := ⟨.hbm, 1977, rfl⟩
abbrev main_v1961 : Ref sig .tc := ⟨.hbm, 1978, rfl⟩
abbrev main_v1962 : Ref sig .tc := ⟨.hbm, 1979, rfl⟩
abbrev main_v1963 : Ref sig .tc := ⟨.hbm, 1980, rfl⟩
abbrev main_v1964 : Ref sig .tc := ⟨.hbm, 1981, rfl⟩
abbrev main_v1965 : Ref sig .tc := ⟨.hbm, 1982, rfl⟩
abbrev main_v1966 : Ref sig .tc := ⟨.hbm, 1983, rfl⟩
abbrev main_v1967 : Ref sig .tc := ⟨.hbm, 1984, rfl⟩
abbrev main_v1968 : Ref sig .tc := ⟨.hbm, 1985, rfl⟩
abbrev main_v1969 : Ref sig .tc := ⟨.hbm, 1986, rfl⟩
abbrev main_v1970 : Ref sig .tc := ⟨.hbm, 1987, rfl⟩
abbrev main_v1971 : Ref sig .tc := ⟨.hbm, 1988, rfl⟩
abbrev main_v1972 : Ref sig .tc := ⟨.hbm, 1989, rfl⟩
abbrev main_v1973 : Ref sig .tc := ⟨.hbm, 1990, rfl⟩
abbrev main_v1974 : Ref sig .tc := ⟨.hbm, 1991, rfl⟩
abbrev main_v1975 : Ref sig .tc := ⟨.hbm, 1992, rfl⟩
abbrev main_v1976 : Ref sig .tc := ⟨.hbm, 1993, rfl⟩
abbrev main_v1977 : Ref sig .tc := ⟨.hbm, 1994, rfl⟩
abbrev main_v1978 : Ref sig .tc := ⟨.hbm, 1995, rfl⟩
abbrev main_v1979 : Ref sig .tc := ⟨.hbm, 1996, rfl⟩
abbrev main_v1980 : Ref sig .tc := ⟨.hbm, 1997, rfl⟩
abbrev main_v1981 : Ref sig .tc := ⟨.hbm, 1998, rfl⟩
abbrev main_v1982 : Ref sig .tc := ⟨.hbm, 1999, rfl⟩
abbrev main_v1983 : Ref sig .tc := ⟨.hbm, 2000, rfl⟩
abbrev main_v1984 : Ref sig .tc := ⟨.hbm, 2001, rfl⟩
abbrev main_v1985 : Ref sig .tc := ⟨.hbm, 2002, rfl⟩
abbrev main_v1986 : Ref sig .tc := ⟨.hbm, 2003, rfl⟩
abbrev main_v1987 : Ref sig .tc := ⟨.hbm, 2004, rfl⟩
abbrev main_v1988 : Ref sig .tc := ⟨.hbm, 2005, rfl⟩
abbrev main_v1989 : Ref sig .tc := ⟨.hbm, 2006, rfl⟩
abbrev main_v1990 : Ref sig .tc := ⟨.hbm, 2007, rfl⟩
abbrev main_v1991 : Ref sig .tc := ⟨.hbm, 2008, rfl⟩
abbrev main_v1992 : Ref sig .tc := ⟨.hbm, 2009, rfl⟩
abbrev main_v1993 : Ref sig .tc := ⟨.hbm, 2010, rfl⟩
abbrev main_v1994 : Ref sig .tc := ⟨.hbm, 2011, rfl⟩
abbrev main_v1995 : Ref sig .tc := ⟨.hbm, 2012, rfl⟩
abbrev main_v1996 : Ref sig .tc := ⟨.hbm, 2013, rfl⟩
abbrev main_v1997 : Ref sig .tc := ⟨.hbm, 2014, rfl⟩
abbrev main_v1998 : Ref sig .tc := ⟨.hbm, 2015, rfl⟩
abbrev main_v1999 : Ref sig .tc := ⟨.hbm, 2016, rfl⟩
abbrev main_v2000 : Ref sig .tc := ⟨.hbm, 2017, rfl⟩
abbrev main_v2001 : Ref sig .tc := ⟨.hbm, 2018, rfl⟩
abbrev main_v2002 : Ref sig .tc := ⟨.hbm, 2019, rfl⟩
abbrev main_v2003 : Ref sig .tc := ⟨.hbm, 2020, rfl⟩
abbrev main_v2004 : Ref sig .tc := ⟨.hbm, 2021, rfl⟩
abbrev main_v2005 : Ref sig .tc := ⟨.hbm, 2022, rfl⟩
abbrev main_v2006 : Ref sig .tc := ⟨.hbm, 2023, rfl⟩
abbrev main_v2007 : Ref sig .tc := ⟨.hbm, 2024, rfl⟩
abbrev main_v2008 : Ref sig .tc := ⟨.hbm, 2025, rfl⟩
abbrev main_v2009 : Ref sig .tc := ⟨.hbm, 2026, rfl⟩
abbrev main_v2010 : Ref sig .tc := ⟨.hbm, 2027, rfl⟩
abbrev main_v2011 : Ref sig .tc := ⟨.hbm, 2028, rfl⟩
abbrev main_v2012 : Ref sig .tc := ⟨.hbm, 2029, rfl⟩
abbrev main_v2013 : Ref sig .tc := ⟨.hbm, 2030, rfl⟩
abbrev main_v2014 : Ref sig .tc := ⟨.hbm, 2031, rfl⟩
abbrev main_v2015 : Ref sig .tc := ⟨.hbm, 2032, rfl⟩
abbrev main_v2016 : Ref sig .tc := ⟨.hbm, 2033, rfl⟩
abbrev main_v2017 : Ref sig .tc := ⟨.hbm, 2034, rfl⟩
abbrev main_v2018 : Ref sig .tc := ⟨.hbm, 2035, rfl⟩
abbrev main_v2019 : Ref sig .tc := ⟨.hbm, 2036, rfl⟩
abbrev main_v2020 : Ref sig .tc := ⟨.hbm, 2037, rfl⟩
abbrev main_v2021 : Ref sig .tc := ⟨.hbm, 2038, rfl⟩
abbrev main_v2022 : Ref sig .tc := ⟨.hbm, 2039, rfl⟩
abbrev main_v2023 : Ref sig .tc := ⟨.hbm, 2040, rfl⟩
abbrev main_v2024 : Ref sig .tc := ⟨.hbm, 2041, rfl⟩
abbrev main_v2025 : Ref sig .tc := ⟨.hbm, 2042, rfl⟩
abbrev main_v2026 : Ref sig .tc := ⟨.hbm, 2043, rfl⟩
abbrev main_v2027 : Ref sig .tc := ⟨.hbm, 2044, rfl⟩
abbrev main_v2028 : Ref sig .tc := ⟨.hbm, 2045, rfl⟩
abbrev main_v2029 : Ref sig .tc := ⟨.hbm, 2046, rfl⟩
abbrev main_v2030 : Ref sig .tc := ⟨.hbm, 2047, rfl⟩
abbrev main_v2031 : Ref sig .tc := ⟨.hbm, 2048, rfl⟩
abbrev main_v2032 : Ref sig .tc := ⟨.hbm, 2049, rfl⟩
abbrev main_v2033 : Ref sig .tc := ⟨.hbm, 2050, rfl⟩
abbrev main_v2034 : Ref sig .tc := ⟨.hbm, 2051, rfl⟩
abbrev main_v2035 : Ref sig .tc := ⟨.hbm, 2052, rfl⟩
abbrev main_v2036 : Ref sig .tc := ⟨.hbm, 2053, rfl⟩
abbrev main_v2037 : Ref sig .tc := ⟨.hbm, 2054, rfl⟩
abbrev main_v2038 : Ref sig .tc := ⟨.hbm, 2055, rfl⟩
abbrev main_v2039 : Ref sig .tc := ⟨.hbm, 2056, rfl⟩
abbrev main_v2040 : Ref sig .tc := ⟨.hbm, 2057, rfl⟩
abbrev main_v2041 : Ref sig .tc := ⟨.hbm, 2058, rfl⟩
abbrev main_v2042 : Ref sig .tc := ⟨.hbm, 2059, rfl⟩
abbrev main_v2043 : Ref sig .tc := ⟨.hbm, 2060, rfl⟩
abbrev main_v2044 : Ref sig .tc := ⟨.hbm, 2061, rfl⟩
abbrev main_v2045 : Ref sig .tc := ⟨.hbm, 2062, rfl⟩
abbrev main_v2046 : Ref sig .tc := ⟨.hbm, 2063, rfl⟩
abbrev main_v2047 : Ref sig .tc := ⟨.hbm, 2064, rfl⟩
abbrev main_v2048 : Ref sig .tc := ⟨.hbm, 2065, rfl⟩
abbrev main_v2049 : Ref sig .tc := ⟨.hbm, 2066, rfl⟩
abbrev main_v2050 : Ref sig .tc := ⟨.hbm, 2067, rfl⟩
abbrev main_v2051 : Ref sig .tc := ⟨.hbm, 2068, rfl⟩
abbrev main_v2052 : Ref sig .tc := ⟨.hbm, 2069, rfl⟩
abbrev main_v2053 : Ref sig .tc := ⟨.hbm, 2070, rfl⟩
abbrev main_v2054 : Ref sig .tc := ⟨.hbm, 2071, rfl⟩
abbrev main_v2055 : Ref sig .tc := ⟨.hbm, 2072, rfl⟩
abbrev main_v2056 : Ref sig .tc := ⟨.hbm, 2073, rfl⟩
abbrev main_v2057 : Ref sig .tc := ⟨.hbm, 2074, rfl⟩
abbrev main_v2058 : Ref sig .tc := ⟨.hbm, 2075, rfl⟩
abbrev main_v2059 : Ref sig .tc := ⟨.hbm, 2076, rfl⟩
abbrev main_v2060 : Ref sig .tc := ⟨.hbm, 2077, rfl⟩
abbrev main_v2061 : Ref sig .tc := ⟨.hbm, 2078, rfl⟩
abbrev main_v2062 : Ref sig .tc := ⟨.hbm, 2079, rfl⟩
abbrev main_v2063 : Ref sig .tc := ⟨.hbm, 2080, rfl⟩
abbrev main_v2064 : Ref sig .tc := ⟨.hbm, 2081, rfl⟩
abbrev main_v2065 : Ref sig .tc := ⟨.hbm, 2082, rfl⟩
abbrev main_v2066 : Ref sig .tc := ⟨.hbm, 2083, rfl⟩
abbrev main_v2067 : Ref sig .tc := ⟨.hbm, 2084, rfl⟩
abbrev main_v2068 : Ref sig .tc := ⟨.hbm, 2085, rfl⟩
abbrev main_v2069 : Ref sig .tc := ⟨.hbm, 2086, rfl⟩
abbrev main_v2070 : Ref sig .tc := ⟨.hbm, 2087, rfl⟩
abbrev main_v2071 : Ref sig .tc := ⟨.hbm, 2088, rfl⟩
abbrev main_v2072 : Ref sig .tc := ⟨.hbm, 2089, rfl⟩
abbrev main_v2073 : Ref sig .tc := ⟨.hbm, 2090, rfl⟩
abbrev main_v2074 : Ref sig .tc := ⟨.hbm, 2091, rfl⟩
abbrev main_v2075 : Ref sig .tc := ⟨.hbm, 2092, rfl⟩
abbrev main_v2076 : Ref sig .tc := ⟨.hbm, 2093, rfl⟩
abbrev main_v2077 : Ref sig .tc := ⟨.hbm, 2094, rfl⟩
abbrev main_v2078 : Ref sig .tc := ⟨.hbm, 2095, rfl⟩
abbrev main_v2079 : Ref sig .tc := ⟨.hbm, 2096, rfl⟩
abbrev main_v2080 : Ref sig .tc := ⟨.hbm, 2097, rfl⟩
abbrev main_v2081 : Ref sig .tc := ⟨.hbm, 2098, rfl⟩
abbrev main_v2082 : Ref sig .tc := ⟨.hbm, 2099, rfl⟩
abbrev main_v2083 : Ref sig .tc := ⟨.hbm, 2100, rfl⟩
abbrev main_v2084 : Ref sig .tc := ⟨.hbm, 2101, rfl⟩
abbrev main_v2085 : Ref sig .tc := ⟨.hbm, 2102, rfl⟩
abbrev main_v2086 : Ref sig .tc := ⟨.hbm, 2103, rfl⟩
abbrev main_v2087 : Ref sig .tc := ⟨.hbm, 2104, rfl⟩
abbrev main_v2088 : Ref sig .tc := ⟨.hbm, 2105, rfl⟩
abbrev main_v2089 : Ref sig .tc := ⟨.hbm, 2106, rfl⟩
abbrev main_v2090 : Ref sig .tc := ⟨.hbm, 2107, rfl⟩
abbrev main_v2091 : Ref sig .tc := ⟨.hbm, 2108, rfl⟩
abbrev main_v2092 : Ref sig .tc := ⟨.hbm, 2109, rfl⟩
abbrev main_v2093 : Ref sig .tc := ⟨.hbm, 2110, rfl⟩
abbrev main_v2094 : Ref sig .tc := ⟨.hbm, 2111, rfl⟩
abbrev main_v2095 : Ref sig .tc := ⟨.hbm, 2112, rfl⟩
abbrev main_v2096 : Ref sig .tc := ⟨.hbm, 2113, rfl⟩
abbrev main_v2097 : Ref sig .tc := ⟨.hbm, 2114, rfl⟩
abbrev main_v2098 : Ref sig .tc := ⟨.hbm, 2115, rfl⟩
abbrev main_v2099 : Ref sig .tc := ⟨.hbm, 2116, rfl⟩
abbrev main_v2100 : Ref sig .tc := ⟨.hbm, 2117, rfl⟩
abbrev main_v2101 : Ref sig .tc := ⟨.hbm, 2118, rfl⟩
abbrev main_v2102 : Ref sig .tc := ⟨.hbm, 2119, rfl⟩
abbrev main_v2103 : Ref sig .tc := ⟨.hbm, 2120, rfl⟩
abbrev main_v2104 : Ref sig .tc := ⟨.hbm, 2121, rfl⟩
abbrev main_v2105 : Ref sig .tc := ⟨.hbm, 2122, rfl⟩
abbrev main_v2106 : Ref sig .tc := ⟨.hbm, 2123, rfl⟩
abbrev main_v2107 : Ref sig .tc := ⟨.hbm, 2124, rfl⟩
abbrev main_v2108 : Ref sig .tc := ⟨.hbm, 2125, rfl⟩
abbrev main_v2109 : Ref sig .tc := ⟨.hbm, 2126, rfl⟩
abbrev main_v2110 : Ref sig .tc := ⟨.hbm, 2127, rfl⟩
abbrev main_v2111 : Ref sig .tc := ⟨.hbm, 2128, rfl⟩
abbrev main_v2112 : Ref sig .tc := ⟨.hbm, 2129, rfl⟩
abbrev main_v2113 : Ref sig .tc := ⟨.hbm, 2130, rfl⟩
abbrev main_v2114 : Ref sig .tc := ⟨.hbm, 2131, rfl⟩
abbrev main_v2115 : Ref sig .tc := ⟨.hbm, 2132, rfl⟩
abbrev main_v2116 : Ref sig .tc := ⟨.hbm, 2133, rfl⟩
abbrev main_v2117 : Ref sig .tc := ⟨.hbm, 2134, rfl⟩
abbrev main_v2118 : Ref sig .tc := ⟨.hbm, 2135, rfl⟩
abbrev main_v2119 : Ref sig .tc := ⟨.hbm, 2136, rfl⟩
abbrev main_v2120 : Ref sig .tc := ⟨.hbm, 2137, rfl⟩
abbrev main_v2121 : Ref sig .tc := ⟨.hbm, 2138, rfl⟩
abbrev main_v2122 : Ref sig .tc := ⟨.hbm, 2139, rfl⟩
abbrev main_v2123 : Ref sig .tc := ⟨.hbm, 2140, rfl⟩
abbrev main_v2124 : Ref sig .tc := ⟨.hbm, 2141, rfl⟩
abbrev main_v2125 : Ref sig .tc := ⟨.hbm, 2142, rfl⟩
abbrev main_v2126 : Ref sig .tc := ⟨.hbm, 2143, rfl⟩
abbrev main_v2127 : Ref sig .tc := ⟨.hbm, 2144, rfl⟩
abbrev main_v2128 : Ref sig .tc := ⟨.hbm, 2145, rfl⟩
abbrev main_v2129 : Ref sig .tc := ⟨.hbm, 2146, rfl⟩
abbrev main_v2130 : Ref sig .tc := ⟨.hbm, 2147, rfl⟩
abbrev main_v2131 : Ref sig .tc := ⟨.hbm, 2148, rfl⟩
abbrev main_v2132 : Ref sig .tc := ⟨.hbm, 2149, rfl⟩
abbrev main_v2133 : Ref sig .tc := ⟨.hbm, 2150, rfl⟩
abbrev main_v2134 : Ref sig .tc := ⟨.hbm, 2151, rfl⟩
abbrev main_v2135 : Ref sig .tc := ⟨.hbm, 2152, rfl⟩
abbrev main_v2136 : Ref sig .tc := ⟨.hbm, 2153, rfl⟩
abbrev main_v2137 : Ref sig .tc := ⟨.hbm, 2154, rfl⟩
abbrev main_v2138 : Ref sig .tc := ⟨.hbm, 2155, rfl⟩
abbrev main_v2139 : Ref sig .tc := ⟨.hbm, 2156, rfl⟩
abbrev main_v2140 : Ref sig .tc := ⟨.hbm, 2157, rfl⟩
abbrev main_v2141 : Ref sig .tc := ⟨.hbm, 2158, rfl⟩
abbrev main_v2142 : Ref sig .tc := ⟨.hbm, 2159, rfl⟩
abbrev main_v2143 : Ref sig .tc := ⟨.hbm, 2160, rfl⟩
abbrev main_v2144 : Ref sig .tc := ⟨.hbm, 2161, rfl⟩
abbrev main_v2145 : Ref sig .tc := ⟨.hbm, 2162, rfl⟩
abbrev main_v2146 : Ref sig .tc := ⟨.hbm, 2163, rfl⟩
abbrev main_v2147 : Ref sig .tc := ⟨.hbm, 2164, rfl⟩
abbrev main_v2148 : Ref sig .tc := ⟨.hbm, 2165, rfl⟩
abbrev main_v2149 : Ref sig .tc := ⟨.hbm, 2166, rfl⟩
abbrev main_v2150 : Ref sig .tc := ⟨.hbm, 2167, rfl⟩
abbrev main_v2151 : Ref sig .tc := ⟨.hbm, 2168, rfl⟩
abbrev main_v2152 : Ref sig .tc := ⟨.hbm, 2169, rfl⟩
abbrev main_v2153 : Ref sig .tc := ⟨.hbm, 2170, rfl⟩
abbrev main_v2154 : Ref sig .tc := ⟨.hbm, 2171, rfl⟩
abbrev main_v2155 : Ref sig .tc := ⟨.hbm, 2172, rfl⟩
abbrev main_v2156 : Ref sig .tc := ⟨.hbm, 2173, rfl⟩
abbrev main_v2157 : Ref sig .tc := ⟨.hbm, 2174, rfl⟩
abbrev main_v2158 : Ref sig .tc := ⟨.hbm, 2175, rfl⟩
abbrev main_v2159 : Ref sig .tc := ⟨.hbm, 2176, rfl⟩
abbrev main_v2160 : Ref sig .tc := ⟨.hbm, 2177, rfl⟩
abbrev main_v2161 : Ref sig .tc := ⟨.hbm, 2178, rfl⟩
abbrev main_v2162 : Ref sig .tc := ⟨.hbm, 2179, rfl⟩
abbrev main_v2163 : Ref sig .tc := ⟨.hbm, 2180, rfl⟩
abbrev main_v2164 : Ref sig .tc := ⟨.hbm, 2181, rfl⟩
abbrev main_v2165 : Ref sig .tc := ⟨.hbm, 2182, rfl⟩
abbrev main_v2166 : Ref sig .tc := ⟨.hbm, 2183, rfl⟩
abbrev main_v2167 : Ref sig .tc := ⟨.hbm, 2184, rfl⟩
abbrev main_v2168 : Ref sig .tc := ⟨.hbm, 2185, rfl⟩
abbrev main_v2169 : Ref sig .tc := ⟨.hbm, 2186, rfl⟩
abbrev main_v2170 : Ref sig .tc := ⟨.hbm, 2187, rfl⟩
abbrev main_v2171 : Ref sig .tc := ⟨.hbm, 2188, rfl⟩
abbrev main_v2172 : Ref sig .tc := ⟨.hbm, 2189, rfl⟩
abbrev main_v2173 : Ref sig .tc := ⟨.hbm, 2190, rfl⟩
abbrev main_v2174 : Ref sig .tc := ⟨.hbm, 2191, rfl⟩
abbrev main_v2175 : Ref sig .tc := ⟨.hbm, 2192, rfl⟩
abbrev main_v2176 : Ref sig .tc := ⟨.hbm, 2193, rfl⟩
abbrev main_v2177 : Ref sig .tc := ⟨.hbm, 2194, rfl⟩
abbrev main_v2178 : Ref sig .tc := ⟨.hbm, 2195, rfl⟩
abbrev main_v2179 : Ref sig .tc := ⟨.hbm, 2196, rfl⟩
abbrev main_v2180 : Ref sig .tc := ⟨.hbm, 2197, rfl⟩
abbrev main_v2181 : Ref sig .tc := ⟨.hbm, 2198, rfl⟩
abbrev main_v2182 : Ref sig .tc := ⟨.hbm, 2199, rfl⟩
abbrev main_v2183 : Ref sig .tc := ⟨.hbm, 2200, rfl⟩
abbrev main_v2184 : Ref sig .tc := ⟨.hbm, 2201, rfl⟩
abbrev main_v2185 : Ref sig .tc := ⟨.hbm, 2202, rfl⟩
abbrev main_v2186 : Ref sig .tc := ⟨.hbm, 2203, rfl⟩
abbrev main_v2187 : Ref sig .tc := ⟨.hbm, 2204, rfl⟩
abbrev main_v2188 : Ref sig .tc := ⟨.hbm, 2205, rfl⟩
abbrev main_v2189 : Ref sig .tc := ⟨.hbm, 2206, rfl⟩
abbrev main_v2190 : Ref sig .tc := ⟨.hbm, 2207, rfl⟩
abbrev main_v2191 : Ref sig .tc := ⟨.hbm, 2208, rfl⟩
abbrev main_v2192 : Ref sig .tc := ⟨.hbm, 2209, rfl⟩
abbrev main_v2193 : Ref sig .tc := ⟨.hbm, 2210, rfl⟩
abbrev main_v2194 : Ref sig .tc := ⟨.hbm, 2211, rfl⟩
abbrev main_v2195 : Ref sig .tc := ⟨.hbm, 2212, rfl⟩
abbrev main_v2196 : Ref sig .tc := ⟨.hbm, 2213, rfl⟩
abbrev main_v2197 : Ref sig .tc := ⟨.hbm, 2214, rfl⟩
abbrev main_v2198 : Ref sig .tc := ⟨.hbm, 2215, rfl⟩
abbrev main_v2199 : Ref sig .tc := ⟨.hbm, 2216, rfl⟩
abbrev main_v2200 : Ref sig .tc := ⟨.hbm, 2217, rfl⟩
abbrev main_v2201 : Ref sig .tc := ⟨.hbm, 2218, rfl⟩
abbrev main_v2202 : Ref sig .tc := ⟨.hbm, 2219, rfl⟩
abbrev main_v2203 : Ref sig .tc := ⟨.hbm, 2220, rfl⟩
abbrev main_v2204 : Ref sig .tc := ⟨.hbm, 2221, rfl⟩
abbrev main_v2205 : Ref sig .tc := ⟨.hbm, 2222, rfl⟩
abbrev main_v2206 : Ref sig .tc := ⟨.hbm, 2223, rfl⟩
abbrev main_v2207 : Ref sig .tc := ⟨.hbm, 2224, rfl⟩
abbrev main_v2208 : Ref sig .tc := ⟨.hbm, 2225, rfl⟩
abbrev main_v2209 : Ref sig .tc := ⟨.hbm, 2226, rfl⟩
abbrev main_v2210 : Ref sig .tc := ⟨.hbm, 2227, rfl⟩
abbrev main_v2211 : Ref sig .tc := ⟨.hbm, 2228, rfl⟩
abbrev main_v2212 : Ref sig .tc := ⟨.hbm, 2229, rfl⟩
abbrev main_v2213 : Ref sig .tc := ⟨.hbm, 2230, rfl⟩
abbrev main_v2214 : Ref sig .tc := ⟨.hbm, 2231, rfl⟩
abbrev main_v2215 : Ref sig .tc := ⟨.hbm, 2232, rfl⟩
abbrev main_v2216 : Ref sig .tc := ⟨.hbm, 2233, rfl⟩
abbrev main_v2217 : Ref sig .tc := ⟨.hbm, 2234, rfl⟩
abbrev main_v2218 : Ref sig .tc := ⟨.hbm, 2235, rfl⟩
abbrev main_v2219 : Ref sig .tc := ⟨.hbm, 2236, rfl⟩
abbrev main_v2220 : Ref sig .tc := ⟨.hbm, 2237, rfl⟩
abbrev main_v2221 : Ref sig .tc := ⟨.hbm, 2238, rfl⟩
abbrev main_v2222 : Ref sig .tc := ⟨.hbm, 2239, rfl⟩
abbrev main_v2223 : Ref sig .tc := ⟨.hbm, 2240, rfl⟩
abbrev main_v2224 : Ref sig .tc := ⟨.hbm, 2241, rfl⟩
abbrev main_v2225 : Ref sig .tc := ⟨.hbm, 2242, rfl⟩
abbrev main_v2226 : Ref sig .tc := ⟨.hbm, 2243, rfl⟩
abbrev main_v2227 : Ref sig .tc := ⟨.hbm, 2244, rfl⟩
abbrev main_v2228 : Ref sig .tc := ⟨.hbm, 2245, rfl⟩
abbrev main_v2229 : Ref sig .tc := ⟨.hbm, 2246, rfl⟩
abbrev main_v2230 : Ref sig .tc := ⟨.hbm, 2247, rfl⟩
abbrev main_v2231 : Ref sig .tc := ⟨.hbm, 2248, rfl⟩
abbrev main_v2232 : Ref sig .tc := ⟨.hbm, 2249, rfl⟩
abbrev main_v2233 : Ref sig .tc := ⟨.hbm, 2250, rfl⟩
abbrev main_v2234 : Ref sig .tc := ⟨.hbm, 2251, rfl⟩
abbrev main_v2235 : Ref sig .tc := ⟨.hbm, 2252, rfl⟩
abbrev main_v2236 : Ref sig .tc := ⟨.hbm, 2253, rfl⟩
abbrev main_v2237 : Ref sig .tc := ⟨.hbm, 2254, rfl⟩
abbrev main_v2238 : Ref sig .tc := ⟨.hbm, 2255, rfl⟩
abbrev main_v2239 : Ref sig .tc := ⟨.hbm, 2256, rfl⟩
abbrev main_v2240 : Ref sig .tc := ⟨.hbm, 2257, rfl⟩
abbrev main_v2241 : Ref sig .tc := ⟨.hbm, 2258, rfl⟩
abbrev main_v2242 : Ref sig .tc := ⟨.hbm, 2259, rfl⟩
abbrev main_v2243 : Ref sig .tc := ⟨.hbm, 2260, rfl⟩
abbrev main_v2244 : Ref sig .tc := ⟨.hbm, 2261, rfl⟩
abbrev main_v2245 : Ref sig .tc := ⟨.hbm, 2262, rfl⟩
abbrev main_v2246 : Ref sig .tc := ⟨.hbm, 2263, rfl⟩
abbrev main_v2247 : Ref sig .tc := ⟨.hbm, 2264, rfl⟩
abbrev main_v2248 : Ref sig .tc := ⟨.hbm, 2265, rfl⟩
abbrev main_v2249 : Ref sig .tc := ⟨.hbm, 2266, rfl⟩
abbrev main_v2250 : Ref sig .tc := ⟨.hbm, 2267, rfl⟩
abbrev main_v2251 : Ref sig .tc := ⟨.hbm, 2268, rfl⟩
abbrev main_v2252 : Ref sig .tc := ⟨.hbm, 2269, rfl⟩
abbrev main_v2253 : Ref sig .tc := ⟨.hbm, 2270, rfl⟩
abbrev main_v2254 : Ref sig .tc := ⟨.hbm, 2271, rfl⟩
abbrev main_v2255 : Ref sig .tc := ⟨.hbm, 2272, rfl⟩
abbrev main_v2256 : Ref sig .tc := ⟨.hbm, 2273, rfl⟩
abbrev main_v2257 : Ref sig .tc := ⟨.hbm, 2274, rfl⟩
abbrev main_v2258 : Ref sig .tc := ⟨.hbm, 2275, rfl⟩
abbrev main_v2259 : Ref sig .tc := ⟨.hbm, 2276, rfl⟩
abbrev main_v2260 : Ref sig .tc := ⟨.hbm, 2277, rfl⟩
abbrev main_v2261 : Ref sig .tc := ⟨.hbm, 2278, rfl⟩
abbrev main_v2262 : Ref sig .tc := ⟨.hbm, 2279, rfl⟩
abbrev main_v2263 : Ref sig .tc := ⟨.hbm, 2280, rfl⟩
abbrev main_v2264 : Ref sig .tc := ⟨.hbm, 2281, rfl⟩
abbrev main_v2265 : Ref sig .tc := ⟨.hbm, 2282, rfl⟩
abbrev main_v2266 : Ref sig .tc := ⟨.hbm, 2283, rfl⟩
abbrev main_v2267 : Ref sig .tc := ⟨.hbm, 2284, rfl⟩
abbrev main_v2268 : Ref sig .tc := ⟨.hbm, 2285, rfl⟩
abbrev main_v2269 : Ref sig .tc := ⟨.hbm, 2286, rfl⟩
abbrev main_v2270 : Ref sig .tc := ⟨.hbm, 2287, rfl⟩
abbrev main_v2271 : Ref sig .tc := ⟨.hbm, 2288, rfl⟩
abbrev main_v2272 : Ref sig .tc := ⟨.hbm, 2289, rfl⟩
abbrev main_v2273 : Ref sig .tc := ⟨.hbm, 2290, rfl⟩
abbrev main_v2274 : Ref sig .tc := ⟨.hbm, 2291, rfl⟩
abbrev main_v2275 : Ref sig .tc := ⟨.hbm, 2292, rfl⟩
abbrev main_v2276 : Ref sig .tc := ⟨.hbm, 2293, rfl⟩
abbrev main_v2277 : Ref sig .tc := ⟨.hbm, 2294, rfl⟩
abbrev main_v2278 : Ref sig .tc := ⟨.hbm, 2295, rfl⟩
abbrev main_v2279 : Ref sig .tc := ⟨.hbm, 2296, rfl⟩
abbrev main_v2280 : Ref sig .tc := ⟨.hbm, 2297, rfl⟩
abbrev main_v2281 : Ref sig .tc := ⟨.hbm, 2298, rfl⟩
abbrev main_v2282 : Ref sig .tc := ⟨.hbm, 2299, rfl⟩
abbrev main_v2283 : Ref sig .tc := ⟨.hbm, 2300, rfl⟩
abbrev main_v2284 : Ref sig .tc := ⟨.hbm, 2301, rfl⟩
abbrev main_v2285 : Ref sig .tc := ⟨.hbm, 2302, rfl⟩
abbrev main_v2286 : Ref sig .tc := ⟨.hbm, 2303, rfl⟩
abbrev main_v2287 : Ref sig .tc := ⟨.hbm, 2304, rfl⟩
abbrev main_v2288 : Ref sig .tc := ⟨.hbm, 2305, rfl⟩
abbrev main_v2289 : Ref sig .tc := ⟨.hbm, 2306, rfl⟩
abbrev main_v2290 : Ref sig .tc := ⟨.hbm, 2307, rfl⟩
abbrev main_v2291 : Ref sig .tc := ⟨.hbm, 2308, rfl⟩
abbrev main_v2292 : Ref sig .tc := ⟨.hbm, 2309, rfl⟩
abbrev main_v2293 : Ref sig .tc := ⟨.hbm, 2310, rfl⟩
abbrev main_v2294 : Ref sig .tc := ⟨.hbm, 2311, rfl⟩
abbrev main_v2295 : Ref sig .tc := ⟨.hbm, 2312, rfl⟩
abbrev main_v2296 : Ref sig .tc := ⟨.hbm, 2313, rfl⟩
abbrev main_v2297 : Ref sig .tc := ⟨.hbm, 2314, rfl⟩
abbrev main_v2298 : Ref sig .tc := ⟨.hbm, 2315, rfl⟩
abbrev main_v2299 : Ref sig .tc := ⟨.hbm, 2316, rfl⟩
abbrev main_v2300 : Ref sig .tc := ⟨.hbm, 2317, rfl⟩
abbrev main_v2301 : Ref sig .tc := ⟨.hbm, 2318, rfl⟩
abbrev main_v2302 : Ref sig .tc := ⟨.hbm, 2319, rfl⟩
abbrev main_v2303 : Ref sig .tc := ⟨.hbm, 2320, rfl⟩
abbrev main_v2304 : Ref sig .tc := ⟨.hbm, 2321, rfl⟩
abbrev main_v2305 : Ref sig .tc := ⟨.hbm, 2322, rfl⟩
abbrev main_v2306 : Ref sig .tc := ⟨.hbm, 2323, rfl⟩
abbrev main_v2307 : Ref sig .tc := ⟨.hbm, 2324, rfl⟩
abbrev main_v2308 : Ref sig .tc := ⟨.hbm, 2325, rfl⟩
abbrev main_v2309 : Ref sig .tc := ⟨.hbm, 2326, rfl⟩
abbrev main_v2310 : Ref sig .tc := ⟨.hbm, 2327, rfl⟩
abbrev main_v2311 : Ref sig .tc := ⟨.hbm, 2328, rfl⟩
abbrev main_v2312 : Ref sig .tc := ⟨.hbm, 2329, rfl⟩
abbrev main_v2313 : Ref sig .tc := ⟨.hbm, 2330, rfl⟩
abbrev main_v2314 : Ref sig .tc := ⟨.hbm, 2331, rfl⟩
abbrev main_v2315 : Ref sig .tc := ⟨.hbm, 2332, rfl⟩
abbrev main_v2316 : Ref sig .tc := ⟨.hbm, 2333, rfl⟩
abbrev main_v2317 : Ref sig .tc := ⟨.hbm, 2334, rfl⟩
abbrev main_v2318 : Ref sig .tc := ⟨.hbm, 2335, rfl⟩
abbrev main_v2319 : Ref sig .tc := ⟨.hbm, 2336, rfl⟩
abbrev main_v2320 : Ref sig .tc := ⟨.hbm, 2337, rfl⟩
abbrev main_v2321 : Ref sig .tc := ⟨.hbm, 2338, rfl⟩
abbrev main_v2322 : Ref sig .tc := ⟨.hbm, 2339, rfl⟩
abbrev main_v2323 : Ref sig .tc := ⟨.hbm, 2340, rfl⟩
abbrev main_v2324 : Ref sig .tc := ⟨.hbm, 2341, rfl⟩
abbrev main_v2325 : Ref sig .tc := ⟨.hbm, 2342, rfl⟩
abbrev main_v2326 : Ref sig .tc := ⟨.hbm, 2343, rfl⟩
abbrev main_v2327 : Ref sig .tc := ⟨.hbm, 2344, rfl⟩
abbrev main_v2328 : Ref sig .tc := ⟨.hbm, 2345, rfl⟩
abbrev main_v2329 : Ref sig .tc := ⟨.hbm, 2346, rfl⟩
abbrev main_v2330 : Ref sig .tc := ⟨.hbm, 2347, rfl⟩
abbrev main_v2331 : Ref sig .tc := ⟨.hbm, 2348, rfl⟩
abbrev main_v2332 : Ref sig .tc := ⟨.hbm, 2349, rfl⟩
abbrev main_v2333 : Ref sig .tc := ⟨.hbm, 2350, rfl⟩
abbrev main_v2334 : Ref sig .tc := ⟨.hbm, 2351, rfl⟩
abbrev main_v2335 : Ref sig .tc := ⟨.hbm, 2352, rfl⟩
abbrev main_v2336 : Ref sig .tc := ⟨.hbm, 2353, rfl⟩
abbrev main_v2337 : Ref sig .tc := ⟨.hbm, 2354, rfl⟩
abbrev main_v2338 : Ref sig .tc := ⟨.hbm, 2355, rfl⟩
abbrev main_v2339 : Ref sig .tc := ⟨.hbm, 2356, rfl⟩
abbrev main_v2340 : Ref sig .tc := ⟨.hbm, 2357, rfl⟩
abbrev main_v2341 : Ref sig .tc := ⟨.hbm, 2358, rfl⟩
abbrev main_v2342 : Ref sig .tc := ⟨.hbm, 2359, rfl⟩
abbrev main_v2343 : Ref sig .tc := ⟨.hbm, 2360, rfl⟩
abbrev main_v2344 : Ref sig .tc := ⟨.hbm, 2361, rfl⟩
abbrev main_v2345 : Ref sig .tc := ⟨.hbm, 2362, rfl⟩
abbrev main_v2346 : Ref sig .tc := ⟨.hbm, 2363, rfl⟩
abbrev main_v2347 : Ref sig .tc := ⟨.hbm, 2364, rfl⟩
abbrev main_v2348 : Ref sig .tc := ⟨.hbm, 2365, rfl⟩
abbrev main_v2349 : Ref sig .tc := ⟨.hbm, 2366, rfl⟩
abbrev main_v2350 : Ref sig .tc := ⟨.hbm, 2367, rfl⟩
abbrev main_v2351 : Ref sig .tc := ⟨.hbm, 2368, rfl⟩
abbrev main_v2352 : Ref sig .tc := ⟨.hbm, 2369, rfl⟩
abbrev main_v2353 : Ref sig .tc := ⟨.hbm, 2370, rfl⟩
abbrev main_v2354 : Ref sig .tc := ⟨.hbm, 2371, rfl⟩
abbrev main_v2355 : Ref sig .tc := ⟨.hbm, 2372, rfl⟩
abbrev main_v2356 : Ref sig .tc := ⟨.hbm, 2373, rfl⟩
abbrev main_v2357 : Ref sig .tc := ⟨.hbm, 2374, rfl⟩
abbrev main_v2358 : Ref sig .tc := ⟨.hbm, 2375, rfl⟩
abbrev main_v2359 : Ref sig .tc := ⟨.hbm, 2376, rfl⟩
abbrev main_v2360 : Ref sig .tc := ⟨.hbm, 2377, rfl⟩
abbrev main_v2361 : Ref sig .tc := ⟨.hbm, 2378, rfl⟩
abbrev main_v2362 : Ref sig .tc := ⟨.hbm, 2379, rfl⟩
abbrev main_v2363 : Ref sig .tc := ⟨.hbm, 2380, rfl⟩
abbrev main_v2364 : Ref sig .tc := ⟨.hbm, 2381, rfl⟩
abbrev main_v2365 : Ref sig .tc := ⟨.hbm, 2382, rfl⟩
abbrev main_v2366 : Ref sig .tc := ⟨.hbm, 2383, rfl⟩
abbrev main_v2367 : Ref sig .tc := ⟨.hbm, 2384, rfl⟩
abbrev main_v2368 : Ref sig .tc := ⟨.hbm, 2385, rfl⟩
abbrev main_v2369 : Ref sig .tc := ⟨.hbm, 2386, rfl⟩
abbrev main_v2370 : Ref sig .tc := ⟨.hbm, 2387, rfl⟩
abbrev main_v2371 : Ref sig .tc := ⟨.hbm, 2388, rfl⟩
abbrev main_v2372 : Ref sig .tc := ⟨.hbm, 2389, rfl⟩
abbrev main_v2373 : Ref sig .tc := ⟨.hbm, 2390, rfl⟩
abbrev main_v2374 : Ref sig .tc := ⟨.hbm, 2391, rfl⟩
abbrev main_v2375 : Ref sig .tc := ⟨.hbm, 2392, rfl⟩
abbrev main_v2376 : Ref sig .tc := ⟨.hbm, 2393, rfl⟩
abbrev main_v2377 : Ref sig .tc := ⟨.hbm, 2394, rfl⟩
abbrev main_v2378 : Ref sig .tc := ⟨.hbm, 2395, rfl⟩
abbrev main_v2379 : Ref sig .tc := ⟨.hbm, 2396, rfl⟩
abbrev main_v2380 : Ref sig .tc := ⟨.hbm, 2397, rfl⟩
abbrev main_v2381 : Ref sig .tc := ⟨.hbm, 2398, rfl⟩
abbrev main_v2382 : Ref sig .tc := ⟨.hbm, 2399, rfl⟩
abbrev main_v2383 : Ref sig .tc := ⟨.hbm, 2400, rfl⟩
abbrev main_v2384 : Ref sig .tc := ⟨.hbm, 2401, rfl⟩
abbrev main_v2385 : Ref sig .tc := ⟨.hbm, 2402, rfl⟩
abbrev main_v2386 : Ref sig .tc := ⟨.hbm, 2403, rfl⟩
abbrev main_v2387 : Ref sig .tc := ⟨.hbm, 2404, rfl⟩
abbrev main_v2388 : Ref sig .tc := ⟨.hbm, 2405, rfl⟩
abbrev main_v2389 : Ref sig .tc := ⟨.hbm, 2406, rfl⟩
abbrev main_v2390 : Ref sig .tc := ⟨.hbm, 2407, rfl⟩
abbrev main_v2391 : Ref sig .tc := ⟨.hbm, 2408, rfl⟩
abbrev main_v2392 : Ref sig .tc := ⟨.hbm, 2409, rfl⟩
abbrev main_v2393 : Ref sig .tc := ⟨.hbm, 2410, rfl⟩
abbrev main_v2394 : Ref sig .tc := ⟨.hbm, 2411, rfl⟩
abbrev main_v2395 : Ref sig .tc := ⟨.hbm, 2412, rfl⟩
abbrev main_v2396 : Ref sig .tc := ⟨.hbm, 2413, rfl⟩
abbrev main_v2397 : Ref sig .tc := ⟨.hbm, 2414, rfl⟩
abbrev main_v2398 : Ref sig .tc := ⟨.hbm, 2415, rfl⟩
abbrev main_v2399 : Ref sig .tc := ⟨.hbm, 2416, rfl⟩
abbrev main_v2400 : Ref sig .tc := ⟨.hbm, 2417, rfl⟩
abbrev main_v2401 : Ref sig .tc := ⟨.hbm, 2418, rfl⟩
abbrev main_v2402 : Ref sig .tc := ⟨.hbm, 2419, rfl⟩
abbrev main_v2403 : Ref sig .tc := ⟨.hbm, 2420, rfl⟩
abbrev main_v2404 : Ref sig .tc := ⟨.hbm, 2421, rfl⟩
abbrev main_v2405 : Ref sig .tc := ⟨.hbm, 2422, rfl⟩
abbrev main_v2406 : Ref sig .tc := ⟨.hbm, 2423, rfl⟩
abbrev main_v2407 : Ref sig .tc := ⟨.hbm, 2424, rfl⟩
abbrev main_v2408 : Ref sig .tc := ⟨.hbm, 2425, rfl⟩
abbrev main_v2409 : Ref sig .tc := ⟨.hbm, 2426, rfl⟩
abbrev main_v2410 : Ref sig .tc := ⟨.hbm, 2427, rfl⟩
abbrev main_v2411 : Ref sig .tc := ⟨.hbm, 2428, rfl⟩
abbrev main_v2412 : Ref sig .tc := ⟨.hbm, 2429, rfl⟩
abbrev main_v2413 : Ref sig .tc := ⟨.hbm, 2430, rfl⟩
abbrev main_v2414 : Ref sig .tc := ⟨.hbm, 2431, rfl⟩
abbrev main_v2415 : Ref sig .tc := ⟨.hbm, 2432, rfl⟩
abbrev main_v2416 : Ref sig .tc := ⟨.hbm, 2433, rfl⟩
abbrev main_v2417 : Ref sig .tc := ⟨.hbm, 2434, rfl⟩
abbrev main_v2418 : Ref sig .tc := ⟨.hbm, 2435, rfl⟩
abbrev main_v2419 : Ref sig .tc := ⟨.hbm, 2436, rfl⟩
abbrev main_v2420 : Ref sig .tc := ⟨.hbm, 2437, rfl⟩
abbrev main_v2421 : Ref sig .tc := ⟨.hbm, 2438, rfl⟩
abbrev main_v2422 : Ref sig .tc := ⟨.hbm, 2439, rfl⟩
abbrev main_v2423 : Ref sig .tc := ⟨.hbm, 2440, rfl⟩
abbrev main_v2424 : Ref sig .tc := ⟨.hbm, 2441, rfl⟩
abbrev main_v2425 : Ref sig .tc := ⟨.hbm, 2442, rfl⟩
abbrev main_v2426 : Ref sig .tc := ⟨.hbm, 2443, rfl⟩
abbrev main_v2427 : Ref sig .tc := ⟨.hbm, 2444, rfl⟩
abbrev main_v2428 : Ref sig .tc := ⟨.hbm, 2445, rfl⟩
abbrev main_v2429 : Ref sig .tc := ⟨.hbm, 2446, rfl⟩
abbrev main_v2430 : Ref sig .tc := ⟨.hbm, 2447, rfl⟩
abbrev main_v2431 : Ref sig .tc := ⟨.hbm, 2448, rfl⟩
abbrev main_v2432 : Ref sig .tc := ⟨.hbm, 2449, rfl⟩
abbrev main_v2433 : Ref sig .tc := ⟨.hbm, 2450, rfl⟩
abbrev main_v2434 : Ref sig .tc := ⟨.hbm, 2451, rfl⟩
abbrev main_v2435 : Ref sig .tc := ⟨.hbm, 2452, rfl⟩
abbrev main_v2436 : Ref sig .tc := ⟨.hbm, 2453, rfl⟩
abbrev main_v2437 : Ref sig .tc := ⟨.hbm, 2454, rfl⟩
abbrev main_v2438 : Ref sig .tc := ⟨.hbm, 2455, rfl⟩
abbrev main_v2439 : Ref sig .tc := ⟨.hbm, 2456, rfl⟩
abbrev main_v2440 : Ref sig .tc := ⟨.hbm, 2457, rfl⟩
abbrev main_v2441 : Ref sig .tc := ⟨.hbm, 2458, rfl⟩
abbrev main_v2442 : Ref sig .tc := ⟨.hbm, 2459, rfl⟩
abbrev main_v2443 : Ref sig .tc := ⟨.hbm, 2460, rfl⟩
abbrev main_v2444 : Ref sig .tc := ⟨.hbm, 2461, rfl⟩
abbrev main_v2445 : Ref sig .tc := ⟨.hbm, 2462, rfl⟩
abbrev main_v2446 : Ref sig .tc := ⟨.hbm, 2463, rfl⟩
abbrev main_v2447 : Ref sig .tc := ⟨.hbm, 2464, rfl⟩
abbrev main_v2448 : Ref sig .tc := ⟨.hbm, 2465, rfl⟩
abbrev main_v2449 : Ref sig .tc := ⟨.hbm, 2466, rfl⟩
abbrev main_v2450 : Ref sig .tc := ⟨.hbm, 2467, rfl⟩
abbrev main_v2451 : Ref sig .tc := ⟨.hbm, 2468, rfl⟩
abbrev main_v2452 : Ref sig .tc := ⟨.hbm, 2469, rfl⟩
abbrev main_v2453 : Ref sig .tc := ⟨.hbm, 2470, rfl⟩
abbrev main_v2454 : Ref sig .tc := ⟨.hbm, 2471, rfl⟩
abbrev main_v2455 : Ref sig .tc := ⟨.hbm, 2472, rfl⟩
abbrev main_v2456 : Ref sig .tc := ⟨.hbm, 2473, rfl⟩
abbrev main_v2457 : Ref sig .tc := ⟨.hbm, 2474, rfl⟩
abbrev main_v2458 : Ref sig .tc := ⟨.hbm, 2475, rfl⟩
abbrev main_v2459 : Ref sig .tc := ⟨.hbm, 2476, rfl⟩
abbrev main_v2460 : Ref sig .tc := ⟨.hbm, 2477, rfl⟩
abbrev main_v2461 : Ref sig .tc := ⟨.hbm, 2478, rfl⟩
abbrev main_v2462 : Ref sig .tc := ⟨.hbm, 2479, rfl⟩
abbrev main_v2463 : Ref sig .tc := ⟨.hbm, 2480, rfl⟩
abbrev main_v2464 : Ref sig .tc := ⟨.hbm, 2481, rfl⟩
abbrev main_v2465 : Ref sig .tc := ⟨.hbm, 2482, rfl⟩
abbrev main_v2466 : Ref sig .tc := ⟨.hbm, 2483, rfl⟩
abbrev main_v2467 : Ref sig .tc := ⟨.hbm, 2484, rfl⟩
abbrev main_v2468 : Ref sig .tc := ⟨.hbm, 2485, rfl⟩
abbrev main_v2469 : Ref sig .tc := ⟨.hbm, 2486, rfl⟩
abbrev main_v2470 : Ref sig .tc := ⟨.hbm, 2487, rfl⟩
abbrev main_v2471 : Ref sig .tc := ⟨.hbm, 2488, rfl⟩
abbrev main_v2472 : Ref sig .tc := ⟨.hbm, 2489, rfl⟩
abbrev main_v2473 : Ref sig .tc := ⟨.hbm, 2490, rfl⟩
abbrev main_v2474 : Ref sig .tc := ⟨.hbm, 2491, rfl⟩
abbrev main_v2475 : Ref sig .tc := ⟨.hbm, 2492, rfl⟩
abbrev main_v2476 : Ref sig .tc := ⟨.hbm, 2493, rfl⟩
abbrev main_v2477 : Ref sig .tc := ⟨.hbm, 2494, rfl⟩
abbrev main_v2478 : Ref sig .tc := ⟨.hbm, 2495, rfl⟩
abbrev main_v2479 : Ref sig .tc := ⟨.hbm, 2496, rfl⟩
abbrev main_v2480 : Ref sig .tc := ⟨.hbm, 2497, rfl⟩
abbrev main_v2481 : Ref sig .tc := ⟨.hbm, 2498, rfl⟩
abbrev main_v2482 : Ref sig .tc := ⟨.hbm, 2499, rfl⟩
abbrev main_v2483 : Ref sig .tc := ⟨.hbm, 2500, rfl⟩
abbrev main_v2484 : Ref sig .tc := ⟨.hbm, 2501, rfl⟩
abbrev main_v2485 : Ref sig .tc := ⟨.hbm, 2502, rfl⟩
abbrev main_v2486 : Ref sig .tc := ⟨.hbm, 2503, rfl⟩
abbrev main_v2487 : Ref sig .tc := ⟨.hbm, 2504, rfl⟩
abbrev main_v2488 : Ref sig .tc := ⟨.hbm, 2505, rfl⟩
abbrev main_v2489 : Ref sig .tc := ⟨.hbm, 2506, rfl⟩
abbrev main_v2490 : Ref sig .tc := ⟨.hbm, 2507, rfl⟩
abbrev main_v2491 : Ref sig .tc := ⟨.hbm, 2508, rfl⟩
abbrev main_v2492 : Ref sig .tc := ⟨.hbm, 2509, rfl⟩
abbrev main_v2493 : Ref sig .tc := ⟨.hbm, 2510, rfl⟩
abbrev main_v2494 : Ref sig .tc := ⟨.hbm, 2511, rfl⟩
abbrev main_v2495 : Ref sig .tc := ⟨.hbm, 2512, rfl⟩
abbrev main_v2496 : Ref sig .tc := ⟨.hbm, 2513, rfl⟩
abbrev main_v2497 : Ref sig .tc := ⟨.hbm, 2514, rfl⟩
abbrev main_v2498 : Ref sig .tc := ⟨.hbm, 2515, rfl⟩
abbrev main_v2499 : Ref sig .tc := ⟨.hbm, 2516, rfl⟩
abbrev main_v2500 : Ref sig .tc := ⟨.hbm, 2517, rfl⟩
abbrev main_v2501 : Ref sig .tc := ⟨.hbm, 2518, rfl⟩
abbrev main_v2502 : Ref sig .tc := ⟨.hbm, 2519, rfl⟩
abbrev main_v2503 : Ref sig .tc := ⟨.hbm, 2520, rfl⟩
abbrev main_v2504 : Ref sig .tc := ⟨.hbm, 2521, rfl⟩
abbrev main_v2505 : Ref sig .tc := ⟨.hbm, 2522, rfl⟩
abbrev main_v2506 : Ref sig .tc := ⟨.hbm, 2523, rfl⟩
abbrev main_v2507 : Ref sig .tc := ⟨.hbm, 2524, rfl⟩
abbrev main_v2508 : Ref sig .tc := ⟨.hbm, 2525, rfl⟩
abbrev main_v2509 : Ref sig .tc := ⟨.hbm, 2526, rfl⟩
abbrev main_v2510 : Ref sig .tc := ⟨.hbm, 2527, rfl⟩
abbrev main_v2511 : Ref sig .tc := ⟨.hbm, 2528, rfl⟩
abbrev main_v2512 : Ref sig .tc := ⟨.hbm, 2529, rfl⟩
abbrev main_v2513 : Ref sig .tc := ⟨.hbm, 2530, rfl⟩
abbrev main_v2514 : Ref sig .tc := ⟨.hbm, 2531, rfl⟩
abbrev main_v2515 : Ref sig .tc := ⟨.hbm, 2532, rfl⟩
abbrev main_v2516 : Ref sig .tc := ⟨.hbm, 2533, rfl⟩
abbrev main_v2517 : Ref sig .tc := ⟨.hbm, 2534, rfl⟩
abbrev main_v2518 : Ref sig .tc := ⟨.hbm, 2535, rfl⟩
abbrev main_v2519 : Ref sig .tc := ⟨.hbm, 2536, rfl⟩
abbrev main_v2520 : Ref sig .tc := ⟨.hbm, 2537, rfl⟩
abbrev main_v2521 : Ref sig .tc := ⟨.hbm, 2538, rfl⟩
abbrev main_v2522 : Ref sig .tc := ⟨.hbm, 2539, rfl⟩
abbrev main_v2523 : Ref sig .tc := ⟨.hbm, 2540, rfl⟩
abbrev main_v2524 : Ref sig .tc := ⟨.hbm, 2541, rfl⟩
abbrev main_v2525 : Ref sig .tc := ⟨.hbm, 2542, rfl⟩
abbrev main_v2526 : Ref sig .tc := ⟨.hbm, 2543, rfl⟩
abbrev main_v2527 : Ref sig .tc := ⟨.hbm, 2544, rfl⟩
abbrev main_v2528 : Ref sig .tc := ⟨.hbm, 2545, rfl⟩
abbrev main_v2529 : Ref sig .tc := ⟨.hbm, 2546, rfl⟩
abbrev main_v2530 : Ref sig .tc := ⟨.hbm, 2547, rfl⟩
abbrev main_v2531 : Ref sig .tc := ⟨.hbm, 2548, rfl⟩
abbrev main_v2532 : Ref sig .tc := ⟨.hbm, 2549, rfl⟩
abbrev main_v2533 : Ref sig .tc := ⟨.hbm, 2550, rfl⟩
abbrev main_v2534 : Ref sig .tc := ⟨.hbm, 2551, rfl⟩
abbrev main_v2535 : Ref sig .tc := ⟨.hbm, 2552, rfl⟩
abbrev main_v2536 : Ref sig .tc := ⟨.hbm, 2553, rfl⟩
abbrev main_v2537 : Ref sig .tc := ⟨.hbm, 2554, rfl⟩
abbrev main_v2538 : Ref sig .tc := ⟨.hbm, 2555, rfl⟩
abbrev main_v2539 : Ref sig .tc := ⟨.hbm, 2556, rfl⟩
abbrev main_v2540 : Ref sig .tc := ⟨.hbm, 2557, rfl⟩
abbrev main_v2541 : Ref sig .tc := ⟨.hbm, 2558, rfl⟩
abbrev main_v2542 : Ref sig .tc := ⟨.hbm, 2559, rfl⟩
abbrev main_v2543 : Ref sig .tc := ⟨.hbm, 2560, rfl⟩
abbrev main_v2544 : Ref sig .tc := ⟨.hbm, 2561, rfl⟩
abbrev main_v2545 : Ref sig .tc := ⟨.hbm, 2562, rfl⟩
abbrev main_v2546 : Ref sig .tc := ⟨.hbm, 2563, rfl⟩
abbrev main_v2547 : Ref sig .tc := ⟨.hbm, 2564, rfl⟩
abbrev main_v2548 : Ref sig .tc := ⟨.hbm, 2565, rfl⟩
abbrev main_v2549 : Ref sig .tc := ⟨.hbm, 2566, rfl⟩
abbrev main_v2550 : Ref sig .tc := ⟨.hbm, 2567, rfl⟩
abbrev main_v2551 : Ref sig .tc := ⟨.hbm, 2568, rfl⟩
abbrev main_v2552 : Ref sig .tc := ⟨.hbm, 2569, rfl⟩
abbrev main_v2553 : Ref sig .tc := ⟨.hbm, 2570, rfl⟩
abbrev main_v2554 : Ref sig .tc := ⟨.hbm, 2571, rfl⟩
abbrev main_v2555 : Ref sig .tc := ⟨.hbm, 2572, rfl⟩
abbrev main_v2556 : Ref sig .tc := ⟨.hbm, 2573, rfl⟩
abbrev main_v2557 : Ref sig .tc := ⟨.hbm, 2574, rfl⟩
abbrev main_v2558 : Ref sig .tc := ⟨.hbm, 2575, rfl⟩
abbrev main_v2559 : Ref sig .tc := ⟨.hbm, 2576, rfl⟩
abbrev main_v2560 : Ref sig .tc := ⟨.hbm, 2577, rfl⟩
abbrev main_v2561 : Ref sig .tc := ⟨.hbm, 2578, rfl⟩
abbrev main_v2562 : Ref sig .tc := ⟨.hbm, 2579, rfl⟩
abbrev main_v2563 : Ref sig .tc := ⟨.hbm, 2580, rfl⟩
abbrev main_v2564 : Ref sig .tc := ⟨.hbm, 2581, rfl⟩
abbrev main_v2565 : Ref sig .tc := ⟨.hbm, 2582, rfl⟩
abbrev main_v2566 : Ref sig .tc := ⟨.hbm, 2583, rfl⟩
abbrev main_v2567 : Ref sig .tc := ⟨.hbm, 2584, rfl⟩
abbrev main_v2568 : Ref sig .tc := ⟨.hbm, 2585, rfl⟩
abbrev main_v2569 : Ref sig .tc := ⟨.hbm, 2586, rfl⟩
abbrev main_v2570 : Ref sig .tc := ⟨.hbm, 2587, rfl⟩
abbrev main_v2571 : Ref sig .tc := ⟨.hbm, 2588, rfl⟩
abbrev main_v2572 : Ref sig .tc := ⟨.hbm, 2589, rfl⟩
abbrev main_v2573 : Ref sig .tc := ⟨.hbm, 2590, rfl⟩
abbrev main_v2574 : Ref sig .tc := ⟨.hbm, 2591, rfl⟩
abbrev main_v2575 : Ref sig .tc := ⟨.hbm, 2592, rfl⟩
abbrev main_v2576 : Ref sig .tc := ⟨.hbm, 2593, rfl⟩
abbrev main_v2577 : Ref sig .tc := ⟨.hbm, 2594, rfl⟩
abbrev main_v2578 : Ref sig .tc := ⟨.hbm, 2595, rfl⟩
abbrev main_v2579 : Ref sig .tc := ⟨.hbm, 2596, rfl⟩
abbrev main_v2580 : Ref sig .tc := ⟨.hbm, 2597, rfl⟩
abbrev main_v2581 : Ref sig .tc := ⟨.hbm, 2598, rfl⟩
abbrev main_v2582 : Ref sig .tc := ⟨.hbm, 2599, rfl⟩
abbrev main_v2583 : Ref sig .tc := ⟨.hbm, 2600, rfl⟩
abbrev main_v2584 : Ref sig .tc := ⟨.hbm, 2601, rfl⟩
abbrev main_v2585 : Ref sig .tc := ⟨.hbm, 2602, rfl⟩
abbrev main_v2586 : Ref sig .tc := ⟨.hbm, 2603, rfl⟩
abbrev main_v2587 : Ref sig .tc := ⟨.hbm, 2604, rfl⟩
abbrev main_v2588 : Ref sig .tc := ⟨.hbm, 2605, rfl⟩
abbrev main_v2589 : Ref sig .tc := ⟨.hbm, 2606, rfl⟩
abbrev main_v2590 : Ref sig .tc := ⟨.hbm, 2607, rfl⟩
abbrev main_v2591 : Ref sig .tc := ⟨.hbm, 2608, rfl⟩
abbrev main_v2592 : Ref sig .tc := ⟨.hbm, 2609, rfl⟩
abbrev main_v2593 : Ref sig .tc := ⟨.hbm, 2610, rfl⟩
abbrev main_v2594 : Ref sig .tc := ⟨.hbm, 2611, rfl⟩
abbrev main_v2595 : Ref sig .tc := ⟨.hbm, 2612, rfl⟩
abbrev main_v2596 : Ref sig .tc := ⟨.hbm, 2613, rfl⟩
abbrev main_v2597 : Ref sig .tc := ⟨.hbm, 2614, rfl⟩
abbrev main_v2598 : Ref sig .tc := ⟨.hbm, 2615, rfl⟩
abbrev main_v2599 : Ref sig .tc := ⟨.hbm, 2616, rfl⟩
abbrev main_v2600 : Ref sig .tc := ⟨.hbm, 2617, rfl⟩
abbrev main_v2601 : Ref sig .tc := ⟨.hbm, 2618, rfl⟩
abbrev main_v2602 : Ref sig .tc := ⟨.hbm, 2619, rfl⟩
abbrev main_v2603 : Ref sig .tc := ⟨.hbm, 2620, rfl⟩
abbrev main_v2604 : Ref sig .tc := ⟨.hbm, 2621, rfl⟩
abbrev main_v2605 : Ref sig .tc := ⟨.hbm, 2622, rfl⟩
abbrev main_v2606 : Ref sig .tc := ⟨.hbm, 2623, rfl⟩
abbrev main_v2607 : Ref sig .tc := ⟨.hbm, 2624, rfl⟩
abbrev main_v2608 : Ref sig .tc := ⟨.hbm, 2625, rfl⟩
abbrev main_v2609 : Ref sig .tc := ⟨.hbm, 2626, rfl⟩
abbrev main_v2610 : Ref sig .tc := ⟨.hbm, 2627, rfl⟩
abbrev main_v2611 : Ref sig .tc := ⟨.hbm, 2628, rfl⟩
abbrev main_v2612 : Ref sig .tc := ⟨.hbm, 2629, rfl⟩
abbrev main_v2613 : Ref sig .tc := ⟨.hbm, 2630, rfl⟩
abbrev main_v2614 : Ref sig .tc := ⟨.hbm, 2631, rfl⟩
abbrev main_v2615 : Ref sig .tc := ⟨.hbm, 2632, rfl⟩
abbrev main_v2616 : Ref sig .tc := ⟨.hbm, 2633, rfl⟩
abbrev main_v2617 : Ref sig .tc := ⟨.hbm, 2634, rfl⟩
abbrev main_v2618 : Ref sig .tc := ⟨.hbm, 2635, rfl⟩
abbrev main_v2619 : Ref sig .tc := ⟨.hbm, 2636, rfl⟩
abbrev main_v2620 : Ref sig .tc := ⟨.hbm, 2637, rfl⟩
abbrev main_v2621 : Ref sig .tc := ⟨.hbm, 2638, rfl⟩
abbrev main_v2622 : Ref sig .tc := ⟨.hbm, 2639, rfl⟩
abbrev main_v2623 : Ref sig .tc := ⟨.hbm, 2640, rfl⟩
abbrev main_v2624 : Ref sig .tc := ⟨.hbm, 2641, rfl⟩
abbrev main_v2625 : Ref sig .tc := ⟨.hbm, 2642, rfl⟩
abbrev main_v2626 : Ref sig .tc := ⟨.hbm, 2643, rfl⟩
abbrev main_v2627 : Ref sig .tc := ⟨.hbm, 2644, rfl⟩
abbrev main_v2628 : Ref sig .tc := ⟨.hbm, 2645, rfl⟩
abbrev main_v2629 : Ref sig .tc := ⟨.hbm, 2646, rfl⟩
abbrev main_v2630 : Ref sig .tc := ⟨.hbm, 2647, rfl⟩
abbrev main_v2631 : Ref sig .tc := ⟨.hbm, 2648, rfl⟩
abbrev main_v2632 : Ref sig .tc := ⟨.hbm, 2649, rfl⟩
abbrev main_v2633 : Ref sig .tc := ⟨.hbm, 2650, rfl⟩
abbrev main_v2634 : Ref sig .tc := ⟨.hbm, 2651, rfl⟩
abbrev main_v2635 : Ref sig .tc := ⟨.hbm, 2652, rfl⟩
abbrev main_v2636 : Ref sig .tc := ⟨.hbm, 2653, rfl⟩
abbrev main_v2637 : Ref sig .tc := ⟨.hbm, 2654, rfl⟩
abbrev main_v2638 : Ref sig .tc := ⟨.hbm, 2655, rfl⟩
abbrev main_v2639 : Ref sig .tc := ⟨.hbm, 2656, rfl⟩
abbrev main_v2640 : Ref sig .tc := ⟨.hbm, 2657, rfl⟩
abbrev main_v2641 : Ref sig .tc := ⟨.hbm, 2658, rfl⟩
abbrev main_v2642 : Ref sig .tc := ⟨.hbm, 2659, rfl⟩
abbrev main_v2643 : Ref sig .tc := ⟨.hbm, 2660, rfl⟩
abbrev main_v2644 : Ref sig .tc := ⟨.hbm, 2661, rfl⟩
abbrev main_v2645 : Ref sig .tc := ⟨.hbm, 2662, rfl⟩
abbrev main_v2646 : Ref sig .tc := ⟨.hbm, 2663, rfl⟩
abbrev main_v2647 : Ref sig .tc := ⟨.hbm, 2664, rfl⟩
abbrev main_v2648 : Ref sig .tc := ⟨.hbm, 2665, rfl⟩
abbrev main_v2649 : Ref sig .tc := ⟨.hbm, 2666, rfl⟩
abbrev main_v2650 : Ref sig .tc := ⟨.hbm, 2667, rfl⟩
abbrev main_v2651 : Ref sig .tc := ⟨.hbm, 2668, rfl⟩
abbrev main_v2652 : Ref sig .tc := ⟨.hbm, 2669, rfl⟩
abbrev main_v2653 : Ref sig .tc := ⟨.hbm, 2670, rfl⟩
abbrev main_v2654 : Ref sig .tc := ⟨.hbm, 2671, rfl⟩
abbrev main_v2655 : Ref sig .tc := ⟨.hbm, 2672, rfl⟩
abbrev main_v2656 : Ref sig .tc := ⟨.hbm, 2673, rfl⟩
abbrev main_v2657 : Ref sig .tc := ⟨.hbm, 2674, rfl⟩
abbrev main_v2658 : Ref sig .tc := ⟨.hbm, 2675, rfl⟩
abbrev main_v2659 : Ref sig .tc := ⟨.hbm, 2676, rfl⟩
abbrev main_v2660 : Ref sig .tc := ⟨.hbm, 2677, rfl⟩
abbrev main_v2661 : Ref sig .tc := ⟨.hbm, 2678, rfl⟩
abbrev main_v2662 : Ref sig .tc := ⟨.hbm, 2679, rfl⟩
abbrev main_v2663 : Ref sig .tc := ⟨.hbm, 2680, rfl⟩
abbrev main_v2664 : Ref sig .tc := ⟨.hbm, 2681, rfl⟩
abbrev main_v2665 : Ref sig .tc := ⟨.hbm, 2682, rfl⟩
abbrev main_v2666 : Ref sig .tc := ⟨.hbm, 2683, rfl⟩
abbrev main_v2667 : Ref sig .tc := ⟨.hbm, 2684, rfl⟩
abbrev main_v2668 : Ref sig .tc := ⟨.hbm, 2685, rfl⟩
abbrev main_v2669 : Ref sig .tc := ⟨.hbm, 2686, rfl⟩
abbrev main_v2670 : Ref sig .tc := ⟨.hbm, 2687, rfl⟩
abbrev main_v2671 : Ref sig .tc := ⟨.hbm, 2688, rfl⟩
abbrev main_v2672 : Ref sig .tc := ⟨.hbm, 2689, rfl⟩
abbrev main_v2673 : Ref sig .tc := ⟨.hbm, 2690, rfl⟩
abbrev main_v2674 : Ref sig .tc := ⟨.hbm, 2691, rfl⟩
abbrev main_v2675 : Ref sig .tc := ⟨.hbm, 2692, rfl⟩
abbrev main_v2676 : Ref sig .tc := ⟨.hbm, 2693, rfl⟩
abbrev main_v2677 : Ref sig .tc := ⟨.hbm, 2694, rfl⟩
abbrev main_v2678 : Ref sig .tc := ⟨.hbm, 2695, rfl⟩
abbrev main_v2679 : Ref sig .tc := ⟨.hbm, 2696, rfl⟩
abbrev main_v2680 : Ref sig .tc := ⟨.hbm, 2697, rfl⟩
abbrev main_v2681 : Ref sig .tc := ⟨.hbm, 2698, rfl⟩
abbrev main_v2682 : Ref sig .tc := ⟨.hbm, 2699, rfl⟩
abbrev main_v2683 : Ref sig .tc := ⟨.hbm, 2700, rfl⟩
abbrev main_v2684 : Ref sig .tc := ⟨.hbm, 2701, rfl⟩
abbrev main_v2685 : Ref sig .tc := ⟨.hbm, 2702, rfl⟩
abbrev main_v2686 : Ref sig .tc := ⟨.hbm, 2703, rfl⟩
abbrev main_v2687 : Ref sig .tc := ⟨.hbm, 2704, rfl⟩
abbrev main_v2688 : Ref sig .tc := ⟨.hbm, 2705, rfl⟩
abbrev main_v2689 : Ref sig .tc := ⟨.hbm, 2706, rfl⟩
abbrev main_v2690 : Ref sig .tc := ⟨.hbm, 2707, rfl⟩
abbrev main_v2691 : Ref sig .tc := ⟨.hbm, 2708, rfl⟩
abbrev main_v2692 : Ref sig .tc := ⟨.hbm, 2709, rfl⟩
abbrev main_v2693 : Ref sig .tc := ⟨.hbm, 2710, rfl⟩
abbrev main_v2694 : Ref sig .tc := ⟨.hbm, 2711, rfl⟩
abbrev main_v2695 : Ref sig .tc := ⟨.hbm, 2712, rfl⟩
abbrev main_v2696 : Ref sig .tc := ⟨.hbm, 2713, rfl⟩
abbrev main_v2697 : Ref sig .tc := ⟨.hbm, 2714, rfl⟩
abbrev main_v2698 : Ref sig .tc := ⟨.hbm, 2715, rfl⟩
abbrev main_v2699 : Ref sig .tc := ⟨.hbm, 2716, rfl⟩
abbrev main_v2700 : Ref sig .tc := ⟨.hbm, 2717, rfl⟩
abbrev main_v2701 : Ref sig .tc := ⟨.hbm, 2718, rfl⟩
abbrev main_v2702 : Ref sig .tc := ⟨.hbm, 2719, rfl⟩
abbrev main_v2703 : Ref sig .tc := ⟨.hbm, 2720, rfl⟩
abbrev main_v2704 : Ref sig .tc := ⟨.hbm, 2721, rfl⟩
abbrev main_v2705 : Ref sig .tc := ⟨.hbm, 2722, rfl⟩
abbrev main_v2706 : Ref sig .tc := ⟨.hbm, 2723, rfl⟩
abbrev main_v2707 : Ref sig .tc := ⟨.hbm, 2724, rfl⟩
abbrev main_v2708 : Ref sig .tc := ⟨.hbm, 2725, rfl⟩
abbrev main_v2709 : Ref sig .tc := ⟨.hbm, 2726, rfl⟩
abbrev main_v2710 : Ref sig .tc := ⟨.hbm, 2727, rfl⟩
abbrev main_v2711 : Ref sig .tc := ⟨.hbm, 2728, rfl⟩
abbrev main_v2712 : Ref sig .tc := ⟨.hbm, 2729, rfl⟩
abbrev main_v2713 : Ref sig .tc := ⟨.hbm, 2730, rfl⟩
abbrev main_v2714 : Ref sig .tc := ⟨.hbm, 2731, rfl⟩
abbrev main_v2715 : Ref sig .tc := ⟨.hbm, 2732, rfl⟩
abbrev main_v2716 : Ref sig .tc := ⟨.hbm, 2733, rfl⟩
abbrev main_v2717 : Ref sig .tc := ⟨.hbm, 2734, rfl⟩
abbrev main_v2718 : Ref sig .tc := ⟨.hbm, 2735, rfl⟩
abbrev main_v2719 : Ref sig .tc := ⟨.hbm, 2736, rfl⟩
abbrev main_v2720 : Ref sig .tc := ⟨.hbm, 2737, rfl⟩
abbrev main_v2721 : Ref sig .tc := ⟨.hbm, 2738, rfl⟩
abbrev main_v2722 : Ref sig .tc := ⟨.hbm, 2739, rfl⟩
abbrev main_v2723 : Ref sig .tc := ⟨.hbm, 2740, rfl⟩
abbrev main_v2724 : Ref sig .tc := ⟨.hbm, 2741, rfl⟩
abbrev main_v2725 : Ref sig .tc := ⟨.hbm, 2742, rfl⟩
abbrev main_v2726 : Ref sig .tc := ⟨.hbm, 2743, rfl⟩
abbrev main_v2727 : Ref sig .tc := ⟨.hbm, 2744, rfl⟩
abbrev main_v2728 : Ref sig .tc := ⟨.hbm, 2745, rfl⟩
abbrev main_v2729 : Ref sig .tc := ⟨.hbm, 2746, rfl⟩
abbrev main_v2730 : Ref sig .tc := ⟨.hbm, 2747, rfl⟩
abbrev main_v2731 : Ref sig .tc := ⟨.hbm, 2748, rfl⟩
abbrev main_v2732 : Ref sig .tc := ⟨.hbm, 2749, rfl⟩
abbrev main_v2733 : Ref sig .tc := ⟨.hbm, 2750, rfl⟩
abbrev main_v2734 : Ref sig .tc := ⟨.hbm, 2751, rfl⟩
abbrev main_v2735 : Ref sig .tc := ⟨.hbm, 2752, rfl⟩
abbrev main_v2736 : Ref sig .tc := ⟨.hbm, 2753, rfl⟩
abbrev main_v2737 : Ref sig .tc := ⟨.hbm, 2754, rfl⟩
abbrev main_v2738 : Ref sig .tc := ⟨.hbm, 2755, rfl⟩
abbrev main_v2739 : Ref sig .tc := ⟨.hbm, 2756, rfl⟩
abbrev main_v2740 : Ref sig .tc := ⟨.hbm, 2757, rfl⟩
abbrev main_v2741 : Ref sig .tc := ⟨.hbm, 2758, rfl⟩
abbrev main_v2742 : Ref sig .tc := ⟨.hbm, 2759, rfl⟩
abbrev main_v2743 : Ref sig .tc := ⟨.hbm, 2760, rfl⟩
abbrev main_v2744 : Ref sig .tc := ⟨.hbm, 2761, rfl⟩
abbrev main_v2745 : Ref sig .tc := ⟨.hbm, 2762, rfl⟩
abbrev main_v2746 : Ref sig .tc := ⟨.hbm, 2763, rfl⟩
abbrev main_v2747 : Ref sig .tc := ⟨.hbm, 2764, rfl⟩
abbrev main_v2748 : Ref sig .tc := ⟨.hbm, 2765, rfl⟩
abbrev main_v2749 : Ref sig .tc := ⟨.hbm, 2766, rfl⟩
abbrev main_v2750 : Ref sig .tc := ⟨.hbm, 2767, rfl⟩
abbrev main_v2751 : Ref sig .tc := ⟨.hbm, 2768, rfl⟩
abbrev main_v2752 : Ref sig .tc := ⟨.hbm, 2769, rfl⟩
abbrev main_v2753 : Ref sig .tc := ⟨.hbm, 2770, rfl⟩
abbrev main_v2754 : Ref sig .tc := ⟨.hbm, 2771, rfl⟩
abbrev main_v2755 : Ref sig .tc := ⟨.hbm, 2772, rfl⟩
abbrev main_v2756 : Ref sig .tc := ⟨.hbm, 2773, rfl⟩
abbrev main_v2757 : Ref sig .tc := ⟨.hbm, 2774, rfl⟩
abbrev main_v2758 : Ref sig .tc := ⟨.hbm, 2775, rfl⟩
abbrev main_v2759 : Ref sig .tc := ⟨.hbm, 2776, rfl⟩
abbrev main_v2760 : Ref sig .tc := ⟨.hbm, 2777, rfl⟩
abbrev main_v2761 : Ref sig .tc := ⟨.hbm, 2778, rfl⟩
abbrev main_v2762 : Ref sig .tc := ⟨.hbm, 2779, rfl⟩
abbrev main_v2763 : Ref sig .tc := ⟨.hbm, 2780, rfl⟩
abbrev main_v2764 : Ref sig .tc := ⟨.hbm, 2781, rfl⟩
abbrev main_v2765 : Ref sig .tc := ⟨.hbm, 2782, rfl⟩
abbrev main_v2766 : Ref sig .tc := ⟨.hbm, 2783, rfl⟩
abbrev main_v2767 : Ref sig .tc := ⟨.hbm, 2784, rfl⟩
abbrev main_v2768 : Ref sig .tc := ⟨.hbm, 2785, rfl⟩
abbrev main_v2769 : Ref sig .tc := ⟨.hbm, 2786, rfl⟩
abbrev main_v2770 : Ref sig .tc := ⟨.hbm, 2787, rfl⟩
abbrev main_v2771 : Ref sig .tc := ⟨.hbm, 2788, rfl⟩
abbrev main_v2772 : Ref sig .tc := ⟨.hbm, 2789, rfl⟩
abbrev main_v2773 : Ref sig .tc := ⟨.hbm, 2790, rfl⟩
abbrev main_v2774 : Ref sig .tc := ⟨.hbm, 2791, rfl⟩
abbrev main_v2775 : Ref sig .tc := ⟨.hbm, 2792, rfl⟩
abbrev main_v2776 : Ref sig .tc := ⟨.hbm, 2793, rfl⟩
abbrev main_v2777 : Ref sig .tc := ⟨.hbm, 2794, rfl⟩
abbrev main_v2778 : Ref sig .tc := ⟨.hbm, 2795, rfl⟩
abbrev main_v2779 : Ref sig .tc := ⟨.hbm, 2796, rfl⟩
abbrev main_v2780 : Ref sig .tc := ⟨.hbm, 2797, rfl⟩
abbrev main_v2781 : Ref sig .tc := ⟨.hbm, 2798, rfl⟩
abbrev main_v2782 : Ref sig .tc := ⟨.hbm, 2799, rfl⟩
abbrev main_v2783 : Ref sig .tc := ⟨.hbm, 2800, rfl⟩
abbrev main_v2784 : Ref sig .tc := ⟨.hbm, 2801, rfl⟩
abbrev main_v2785 : Ref sig .tc := ⟨.hbm, 2802, rfl⟩
abbrev main_v2786 : Ref sig .tc := ⟨.hbm, 2803, rfl⟩
abbrev main_v2787 : Ref sig .tc := ⟨.hbm, 2804, rfl⟩
abbrev main_v2788 : Ref sig .tc := ⟨.hbm, 2805, rfl⟩
abbrev main_v2789 : Ref sig .tc := ⟨.hbm, 2806, rfl⟩
abbrev main_v2790 : Ref sig .tc := ⟨.hbm, 2807, rfl⟩
abbrev main_v2791 : Ref sig .tc := ⟨.hbm, 2808, rfl⟩
abbrev main_v2792 : Ref sig .tc := ⟨.hbm, 2809, rfl⟩
abbrev main_v2793 : Ref sig .tc := ⟨.hbm, 2810, rfl⟩
abbrev main_v2794 : Ref sig .tc := ⟨.hbm, 2811, rfl⟩
abbrev main_v2795 : Ref sig .tc := ⟨.hbm, 2812, rfl⟩
abbrev main_v2796 : Ref sig .tc := ⟨.hbm, 2813, rfl⟩
abbrev main_v2797 : Ref sig .tc := ⟨.hbm, 2814, rfl⟩
abbrev main_v2798 : Ref sig .tc := ⟨.hbm, 2815, rfl⟩
abbrev main_v2799 : Ref sig .tc := ⟨.hbm, 2816, rfl⟩
abbrev main_v2800 : Ref sig .tc := ⟨.hbm, 2817, rfl⟩
abbrev main_v2801 : Ref sig .tc := ⟨.hbm, 2818, rfl⟩
abbrev main_v2802 : Ref sig .tc := ⟨.hbm, 2819, rfl⟩
abbrev main_v2803 : Ref sig .tc := ⟨.hbm, 2820, rfl⟩
abbrev main_v2804 : Ref sig .tc := ⟨.hbm, 2821, rfl⟩
abbrev main_v2805 : Ref sig .tc := ⟨.hbm, 2822, rfl⟩
abbrev main_v2806 : Ref sig .tc := ⟨.hbm, 2823, rfl⟩
abbrev main_v2807 : Ref sig .tc := ⟨.hbm, 2824, rfl⟩
abbrev main_v2808 : Ref sig .tc := ⟨.hbm, 2825, rfl⟩
abbrev main_v2809 : Ref sig .tc := ⟨.hbm, 2826, rfl⟩
abbrev main_v2810 : Ref sig .tc := ⟨.hbm, 2827, rfl⟩
abbrev main_v2811 : Ref sig .tc := ⟨.hbm, 2828, rfl⟩
abbrev main_v2812 : Ref sig .tc := ⟨.hbm, 2829, rfl⟩
abbrev main_v2813 : Ref sig .tc := ⟨.hbm, 2830, rfl⟩
abbrev main_v2814 : Ref sig .tc := ⟨.hbm, 2831, rfl⟩
abbrev main_v2815 : Ref sig .tc := ⟨.hbm, 2832, rfl⟩
abbrev main_v2816 : Ref sig .tc := ⟨.hbm, 2833, rfl⟩
abbrev main_v2817 : Ref sig .tc := ⟨.hbm, 2834, rfl⟩
abbrev main_v2818 : Ref sig .tc := ⟨.hbm, 2835, rfl⟩
abbrev main_v2819 : Ref sig .tc := ⟨.hbm, 2836, rfl⟩
abbrev main_v2820 : Ref sig .tc := ⟨.hbm, 2837, rfl⟩
abbrev main_v2821 : Ref sig .tc := ⟨.hbm, 2838, rfl⟩
abbrev main_v2822 : Ref sig .tc := ⟨.hbm, 2839, rfl⟩
abbrev main_v2823 : Ref sig .tc := ⟨.hbm, 2840, rfl⟩
abbrev main_v2824 : Ref sig .tc := ⟨.hbm, 2841, rfl⟩
abbrev main_v2825 : Ref sig .tc := ⟨.hbm, 2842, rfl⟩
abbrev main_v2826 : Ref sig .tc := ⟨.hbm, 2843, rfl⟩
abbrev main_v2827 : Ref sig .tc := ⟨.hbm, 2844, rfl⟩
abbrev main_v2828 : Ref sig .tc := ⟨.hbm, 2845, rfl⟩
abbrev main_v2829 : Ref sig .tc := ⟨.hbm, 2846, rfl⟩
abbrev main_v2830 : Ref sig .tc := ⟨.hbm, 2847, rfl⟩
abbrev main_v2831 : Ref sig .tc := ⟨.hbm, 2848, rfl⟩
abbrev main_v2832 : Ref sig .tc := ⟨.hbm, 2849, rfl⟩
abbrev main_v2833 : Ref sig .tc := ⟨.hbm, 2850, rfl⟩
abbrev main_v2834 : Ref sig .tc := ⟨.hbm, 2851, rfl⟩
abbrev main_v2835 : Ref sig .tc := ⟨.hbm, 2852, rfl⟩
abbrev main_v2836 : Ref sig .tc := ⟨.hbm, 2853, rfl⟩
abbrev main_v2837 : Ref sig .tc := ⟨.hbm, 2854, rfl⟩
abbrev main_v2838 : Ref sig .tc := ⟨.hbm, 2855, rfl⟩
abbrev main_v2839 : Ref sig .tc := ⟨.hbm, 2856, rfl⟩
abbrev main_v2840 : Ref sig .tc := ⟨.hbm, 2857, rfl⟩
abbrev main_v2841 : Ref sig .tc := ⟨.hbm, 2858, rfl⟩
abbrev main_v2842 : Ref sig .tc := ⟨.hbm, 2859, rfl⟩
abbrev main_v2843 : Ref sig .tc := ⟨.hbm, 2860, rfl⟩
abbrev main_v2844 : Ref sig .tc := ⟨.hbm, 2861, rfl⟩
abbrev main_v2845 : Ref sig .tc := ⟨.hbm, 2862, rfl⟩
abbrev main_v2846 : Ref sig .tc := ⟨.hbm, 2863, rfl⟩
abbrev main_v2847 : Ref sig .tc := ⟨.hbm, 2864, rfl⟩
abbrev main_v2848 : Ref sig .tc := ⟨.hbm, 2865, rfl⟩
abbrev main_v2849 : Ref sig .tc := ⟨.hbm, 2866, rfl⟩
abbrev main_v2850 : Ref sig .tc := ⟨.hbm, 2867, rfl⟩
abbrev main_v2851 : Ref sig .tc := ⟨.hbm, 2868, rfl⟩
abbrev main_v2852 : Ref sig .tc := ⟨.hbm, 2869, rfl⟩
abbrev main_v2853 : Ref sig .tc := ⟨.hbm, 2870, rfl⟩
abbrev main_v2854 : Ref sig .tc := ⟨.hbm, 2871, rfl⟩
abbrev main_v2855 : Ref sig .tc := ⟨.hbm, 2872, rfl⟩
abbrev main_v2856 : Ref sig .tc := ⟨.hbm, 2873, rfl⟩
abbrev main_v2857 : Ref sig .tc := ⟨.hbm, 2874, rfl⟩
abbrev main_v2858 : Ref sig .tc := ⟨.hbm, 2875, rfl⟩
abbrev main_v2859 : Ref sig .tc := ⟨.hbm, 2876, rfl⟩
abbrev main_v2860 : Ref sig .tc := ⟨.hbm, 2877, rfl⟩
abbrev main_v2861 : Ref sig .tc := ⟨.hbm, 2878, rfl⟩
abbrev main_v2862 : Ref sig .tc := ⟨.hbm, 2879, rfl⟩
abbrev main_v2863 : Ref sig .tc := ⟨.hbm, 2880, rfl⟩
abbrev main_v2864 : Ref sig .tc := ⟨.hbm, 2881, rfl⟩
abbrev main_v2865 : Ref sig .tc := ⟨.hbm, 2882, rfl⟩
abbrev main_v2866 : Ref sig .tc := ⟨.hbm, 2883, rfl⟩
abbrev main_v2867 : Ref sig .tc := ⟨.hbm, 2884, rfl⟩
abbrev main_v2868 : Ref sig .tc := ⟨.hbm, 2885, rfl⟩
abbrev main_v2869 : Ref sig .tc := ⟨.hbm, 2886, rfl⟩
abbrev main_v2870 : Ref sig .tc := ⟨.hbm, 2887, rfl⟩
abbrev main_v2871 : Ref sig .tc := ⟨.hbm, 2888, rfl⟩
abbrev main_v2872 : Ref sig .tc := ⟨.hbm, 2889, rfl⟩
abbrev main_v2873 : Ref sig .tc := ⟨.hbm, 2890, rfl⟩
abbrev main_v2874 : Ref sig .tc := ⟨.hbm, 2891, rfl⟩
abbrev main_v2875 : Ref sig .tc := ⟨.hbm, 2892, rfl⟩
abbrev main_v2876 : Ref sig .tc := ⟨.hbm, 2893, rfl⟩
abbrev main_v2877 : Ref sig .tc := ⟨.hbm, 2894, rfl⟩
abbrev main_v2878 : Ref sig .tc := ⟨.hbm, 2895, rfl⟩
abbrev main_v2879 : Ref sig .tc := ⟨.hbm, 2896, rfl⟩
abbrev main_v2880 : Ref sig .tc := ⟨.hbm, 2897, rfl⟩
abbrev main_v2881 : Ref sig .tc := ⟨.hbm, 2898, rfl⟩
abbrev main_v2882 : Ref sig .tc := ⟨.hbm, 2899, rfl⟩
abbrev main_v2883 : Ref sig .tc := ⟨.hbm, 2900, rfl⟩
abbrev main_v2884 : Ref sig .tc := ⟨.hbm, 2901, rfl⟩
abbrev main_v2885 : Ref sig .tc := ⟨.hbm, 2902, rfl⟩
abbrev main_v2886 : Ref sig .tc := ⟨.hbm, 2903, rfl⟩
abbrev main_v2887 : Ref sig .tc := ⟨.hbm, 2904, rfl⟩
abbrev main_v2888 : Ref sig .tc := ⟨.hbm, 2905, rfl⟩
abbrev main_v2889 : Ref sig .tc := ⟨.hbm, 2906, rfl⟩
abbrev main_v2890 : Ref sig .tc := ⟨.hbm, 2907, rfl⟩
abbrev main_v2891 : Ref sig .tc := ⟨.hbm, 2908, rfl⟩
abbrev main_v2892 : Ref sig .tc := ⟨.hbm, 2909, rfl⟩
abbrev main_v2893 : Ref sig .tc := ⟨.hbm, 2910, rfl⟩
abbrev main_v2894 : Ref sig .tc := ⟨.hbm, 2911, rfl⟩
abbrev main_v2895 : Ref sig .tc := ⟨.hbm, 2912, rfl⟩
abbrev main_v2896 : Ref sig .tc := ⟨.hbm, 2913, rfl⟩
abbrev main_v2897 : Ref sig .tc := ⟨.hbm, 2914, rfl⟩
abbrev main_v2898 : Ref sig .tc := ⟨.hbm, 2915, rfl⟩
abbrev main_v2899 : Ref sig .tc := ⟨.hbm, 2916, rfl⟩
abbrev main_v2900 : Ref sig .tc := ⟨.hbm, 2917, rfl⟩
abbrev main_v2901 : Ref sig .tc := ⟨.hbm, 2918, rfl⟩
abbrev main_v2902 : Ref sig .tc := ⟨.hbm, 2919, rfl⟩
abbrev main_v2903 : Ref sig .tc := ⟨.hbm, 2920, rfl⟩
abbrev main_v2904 : Ref sig .tc := ⟨.hbm, 2921, rfl⟩
abbrev main_v2905 : Ref sig .tc := ⟨.hbm, 2922, rfl⟩
abbrev main_v2906 : Ref sig .tc := ⟨.hbm, 2923, rfl⟩
abbrev main_v2907 : Ref sig .tc := ⟨.hbm, 2924, rfl⟩
abbrev main_v2908 : Ref sig .tc := ⟨.hbm, 2925, rfl⟩
abbrev main_v2909 : Ref sig .tc := ⟨.hbm, 2926, rfl⟩
abbrev main_v2910 : Ref sig .tc := ⟨.hbm, 2927, rfl⟩
abbrev main_v2911 : Ref sig .tc := ⟨.hbm, 2928, rfl⟩
abbrev main_v2912 : Ref sig .tc := ⟨.hbm, 2929, rfl⟩
abbrev main_v2913 : Ref sig .tc := ⟨.hbm, 2930, rfl⟩
abbrev main_v2914 : Ref sig .tc := ⟨.hbm, 2931, rfl⟩
abbrev main_v2915 : Ref sig .tc := ⟨.hbm, 2932, rfl⟩
abbrev main_v2916 : Ref sig .tc := ⟨.hbm, 2933, rfl⟩
abbrev main_v2917 : Ref sig .tc := ⟨.hbm, 2934, rfl⟩
abbrev main_v2918 : Ref sig .tc := ⟨.hbm, 2935, rfl⟩
abbrev main_v2919 : Ref sig .tc := ⟨.hbm, 2936, rfl⟩
abbrev main_v2920 : Ref sig .tc := ⟨.hbm, 2937, rfl⟩
abbrev main_v2921 : Ref sig .tc := ⟨.hbm, 2938, rfl⟩
abbrev main_v2922 : Ref sig .tc := ⟨.hbm, 2939, rfl⟩
abbrev main_v2923 : Ref sig .tc := ⟨.hbm, 2940, rfl⟩
abbrev main_v2924 : Ref sig .tc := ⟨.hbm, 2941, rfl⟩
abbrev main_v2925 : Ref sig .tc := ⟨.hbm, 2942, rfl⟩
abbrev main_v2926 : Ref sig .tc := ⟨.hbm, 2943, rfl⟩
abbrev main_v2927 : Ref sig .tc := ⟨.hbm, 2944, rfl⟩
abbrev main_v2928 : Ref sig .tc := ⟨.hbm, 2945, rfl⟩
abbrev main_v2929 : Ref sig .tc := ⟨.hbm, 2946, rfl⟩
abbrev main_v2930 : Ref sig .tc := ⟨.hbm, 2947, rfl⟩
abbrev main_v2931 : Ref sig .tc := ⟨.hbm, 2948, rfl⟩
abbrev main_v2932 : Ref sig .tc := ⟨.hbm, 2949, rfl⟩
abbrev main_v2933 : Ref sig .tc := ⟨.hbm, 2950, rfl⟩
abbrev main_v2934 : Ref sig .tc := ⟨.hbm, 2951, rfl⟩
abbrev main_v2935 : Ref sig .tc := ⟨.hbm, 2952, rfl⟩
abbrev main_v2936 : Ref sig .tc := ⟨.hbm, 2953, rfl⟩
abbrev main_v2937 : Ref sig .tc := ⟨.hbm, 2954, rfl⟩
abbrev main_v2938 : Ref sig .tc := ⟨.hbm, 2955, rfl⟩
abbrev main_v2939 : Ref sig .tc := ⟨.hbm, 2956, rfl⟩
abbrev main_v2940 : Ref sig .tc := ⟨.hbm, 2957, rfl⟩
abbrev main_v2941 : Ref sig .tc := ⟨.hbm, 2958, rfl⟩
abbrev main_v2942 : Ref sig .tc := ⟨.hbm, 2959, rfl⟩
abbrev main_v2943 : Ref sig .tc := ⟨.hbm, 2960, rfl⟩
abbrev main_v2944 : Ref sig .tc := ⟨.hbm, 2961, rfl⟩
abbrev main_v2945 : Ref sig .tc := ⟨.hbm, 2962, rfl⟩
abbrev main_v2946 : Ref sig .tc := ⟨.hbm, 2963, rfl⟩
abbrev main_v2947 : Ref sig .tc := ⟨.hbm, 2964, rfl⟩
abbrev main_v2948 : Ref sig .tc := ⟨.hbm, 2965, rfl⟩
abbrev main_v2949 : Ref sig .tc := ⟨.hbm, 2966, rfl⟩
abbrev main_v2950 : Ref sig .tc := ⟨.hbm, 2967, rfl⟩
abbrev main_v2951 : Ref sig .tc := ⟨.hbm, 2968, rfl⟩
abbrev main_v2952 : Ref sig .tc := ⟨.hbm, 2969, rfl⟩
abbrev main_v2953 : Ref sig .tc := ⟨.hbm, 2970, rfl⟩
abbrev main_v2954 : Ref sig .tc := ⟨.hbm, 2971, rfl⟩
abbrev main_v2955 : Ref sig .tc := ⟨.hbm, 2972, rfl⟩
abbrev main_v2956 : Ref sig .tc := ⟨.hbm, 2973, rfl⟩
abbrev main_v2957 : Ref sig .tc := ⟨.hbm, 2974, rfl⟩
abbrev main_v2958 : Ref sig .tc := ⟨.hbm, 2975, rfl⟩
abbrev main_v2959 : Ref sig .tc := ⟨.hbm, 2976, rfl⟩
abbrev main_v2960 : Ref sig .tc := ⟨.hbm, 2977, rfl⟩
abbrev main_v2961 : Ref sig .tc := ⟨.hbm, 2978, rfl⟩
abbrev main_v2962 : Ref sig .tc := ⟨.hbm, 2979, rfl⟩
abbrev main_v2963 : Ref sig .tc := ⟨.hbm, 2980, rfl⟩
abbrev main_v2964 : Ref sig .tc := ⟨.hbm, 2981, rfl⟩
abbrev main_v2965 : Ref sig .tc := ⟨.hbm, 2982, rfl⟩
abbrev main_v2966 : Ref sig .tc := ⟨.hbm, 2983, rfl⟩
abbrev main_v2967 : Ref sig .tc := ⟨.hbm, 2984, rfl⟩
abbrev main_v2968 : Ref sig .tc := ⟨.hbm, 2985, rfl⟩
abbrev main_v2969 : Ref sig .tc := ⟨.hbm, 2986, rfl⟩
abbrev main_v2970 : Ref sig .tc := ⟨.hbm, 2987, rfl⟩
abbrev main_v2971 : Ref sig .tc := ⟨.hbm, 2988, rfl⟩
abbrev main_v2972 : Ref sig .tc := ⟨.hbm, 2989, rfl⟩
abbrev main_v2973 : Ref sig .tc := ⟨.hbm, 2990, rfl⟩
abbrev main_v2974 : Ref sig .tc := ⟨.hbm, 2991, rfl⟩
abbrev main_v2975 : Ref sig .tc := ⟨.hbm, 2992, rfl⟩
abbrev main_v2976 : Ref sig .tc := ⟨.hbm, 2993, rfl⟩
abbrev main_v2977 : Ref sig .tc := ⟨.hbm, 2994, rfl⟩
abbrev main_v2978 : Ref sig .tc := ⟨.hbm, 2995, rfl⟩
abbrev main_v2979 : Ref sig .tc := ⟨.hbm, 2996, rfl⟩
abbrev main_v2980 : Ref sig .tc := ⟨.hbm, 2997, rfl⟩
abbrev main_v2981 : Ref sig .tc := ⟨.hbm, 2998, rfl⟩
abbrev main_v2982 : Ref sig .tc := ⟨.hbm, 2999, rfl⟩
abbrev main_v2983 : Ref sig .tc := ⟨.hbm, 3000, rfl⟩
abbrev main_v2984 : Ref sig .tc := ⟨.hbm, 3001, rfl⟩
abbrev main_v2985 : Ref sig .tc := ⟨.hbm, 3002, rfl⟩
abbrev main_v2986 : Ref sig .tc := ⟨.hbm, 3003, rfl⟩
abbrev main_v2987 : Ref sig .tc := ⟨.hbm, 3004, rfl⟩
abbrev main_v2988 : Ref sig .tc := ⟨.hbm, 3005, rfl⟩
abbrev main_v2989 : Ref sig .tc := ⟨.hbm, 3006, rfl⟩
abbrev main_v2990 : Ref sig .tc := ⟨.hbm, 3007, rfl⟩
abbrev main_v2991 : Ref sig .tc := ⟨.hbm, 3008, rfl⟩
abbrev main_v2992 : Ref sig .tc := ⟨.hbm, 3009, rfl⟩
abbrev main_v2993 : Ref sig .tc := ⟨.hbm, 3010, rfl⟩
abbrev main_v2994 : Ref sig .tc := ⟨.hbm, 3011, rfl⟩
abbrev main_v2995 : Ref sig .tc := ⟨.hbm, 3012, rfl⟩
abbrev main_v2996 : Ref sig .tc := ⟨.hbm, 3013, rfl⟩
abbrev main_v2997 : Ref sig .tc := ⟨.hbm, 3014, rfl⟩
abbrev main_v2998 : Ref sig .tc := ⟨.hbm, 3015, rfl⟩
abbrev main_v2999 : Ref sig .tc := ⟨.hbm, 3016, rfl⟩
abbrev main_v3000 : Ref sig .tc := ⟨.hbm, 3017, rfl⟩
abbrev main_v3001 : Ref sig .tc := ⟨.hbm, 3018, rfl⟩
abbrev main_v3002 : Ref sig .tc := ⟨.hbm, 3019, rfl⟩
abbrev main_v3003 : Ref sig .tc := ⟨.hbm, 3020, rfl⟩
abbrev main_v3004 : Ref sig .tc := ⟨.hbm, 3021, rfl⟩
abbrev main_v3005 : Ref sig .tc := ⟨.hbm, 3022, rfl⟩
abbrev main_v3006 : Ref sig .tc := ⟨.hbm, 3023, rfl⟩
abbrev main_v3007 : Ref sig .tc := ⟨.hbm, 3024, rfl⟩
abbrev main_v3008 : Ref sig .tc := ⟨.hbm, 3025, rfl⟩
abbrev main_v3009 : Ref sig .tc := ⟨.hbm, 3026, rfl⟩
abbrev main_v3010 : Ref sig .tc := ⟨.hbm, 3027, rfl⟩
abbrev main_v3011 : Ref sig .tc := ⟨.hbm, 3028, rfl⟩
abbrev main_v3012 : Ref sig .tc := ⟨.hbm, 3029, rfl⟩
abbrev main_v3013 : Ref sig .tc := ⟨.hbm, 3030, rfl⟩
abbrev main_v3014 : Ref sig .tc := ⟨.hbm, 3031, rfl⟩
abbrev main_v3015 : Ref sig .tc := ⟨.hbm, 3032, rfl⟩
abbrev main_v3016 : Ref sig .tc := ⟨.hbm, 3033, rfl⟩
abbrev main_v3017 : Ref sig .tc := ⟨.hbm, 3034, rfl⟩
abbrev main_v3018 : Ref sig .tc := ⟨.hbm, 3035, rfl⟩
abbrev main_v3019 : Ref sig .tc := ⟨.hbm, 3036, rfl⟩
abbrev main_v3020 : Ref sig .tc := ⟨.hbm, 3037, rfl⟩
abbrev main_v3021 : Ref sig .tc := ⟨.hbm, 3038, rfl⟩
abbrev main_v3022 : Ref sig .tc := ⟨.hbm, 3039, rfl⟩
abbrev main_v3023 : Ref sig .tc := ⟨.hbm, 3040, rfl⟩
abbrev main_v3024 : Ref sig .tc := ⟨.hbm, 3041, rfl⟩
abbrev main_v3025 : Ref sig .tc := ⟨.hbm, 3042, rfl⟩
abbrev main_v3026 : Ref sig .tc := ⟨.hbm, 3043, rfl⟩
abbrev main_v3027 : Ref sig .tc := ⟨.hbm, 3044, rfl⟩
abbrev main_v3028 : Ref sig .tc := ⟨.hbm, 3045, rfl⟩
abbrev main_v3029 : Ref sig .tc := ⟨.hbm, 3046, rfl⟩
abbrev main_v3030 : Ref sig .tc := ⟨.hbm, 3047, rfl⟩
abbrev main_v3031 : Ref sig .tc := ⟨.hbm, 3048, rfl⟩
abbrev main_v3032 : Ref sig .tc := ⟨.hbm, 3049, rfl⟩
abbrev main_v3033 : Ref sig .tc := ⟨.hbm, 3050, rfl⟩
abbrev main_v3034 : Ref sig .tc := ⟨.hbm, 3051, rfl⟩
abbrev main_v3035 : Ref sig .tc := ⟨.hbm, 3052, rfl⟩
abbrev main_v3036 : Ref sig .tc := ⟨.hbm, 3053, rfl⟩
abbrev main_v3037 : Ref sig .tc := ⟨.hbm, 3054, rfl⟩
abbrev main_v3038 : Ref sig .tc := ⟨.hbm, 3055, rfl⟩
abbrev main_v3039 : Ref sig .tc := ⟨.hbm, 3056, rfl⟩
abbrev main_v3040 : Ref sig .tc := ⟨.hbm, 3057, rfl⟩
abbrev main_v3041 : Ref sig .tc := ⟨.hbm, 3058, rfl⟩
abbrev main_v3042 : Ref sig .tc := ⟨.hbm, 3059, rfl⟩
abbrev main_v3043 : Ref sig .tc := ⟨.hbm, 3060, rfl⟩
abbrev main_v3044 : Ref sig .tc := ⟨.hbm, 3061, rfl⟩
abbrev main_v3045 : Ref sig .tc := ⟨.hbm, 3062, rfl⟩
abbrev main_v3046 : Ref sig .tc := ⟨.hbm, 3063, rfl⟩
abbrev main_v3047 : Ref sig .tc := ⟨.hbm, 3064, rfl⟩
abbrev main_v3048 : Ref sig .tc := ⟨.hbm, 3065, rfl⟩
abbrev main_v3049 : Ref sig .tc := ⟨.hbm, 3066, rfl⟩
abbrev main_v3050 : Ref sig .tc := ⟨.hbm, 3067, rfl⟩
abbrev main_v3051 : Ref sig .tc := ⟨.hbm, 3068, rfl⟩
abbrev main_v3052 : Ref sig .tc := ⟨.hbm, 3069, rfl⟩
abbrev main_v3053 : Ref sig .tc := ⟨.hbm, 3070, rfl⟩
abbrev main_v3054 : Ref sig .tc := ⟨.hbm, 3071, rfl⟩
abbrev main_v3055 : Ref sig .tc := ⟨.hbm, 3072, rfl⟩
abbrev main_v3056 : Ref sig .tc := ⟨.hbm, 3073, rfl⟩
abbrev main_v3057 : Ref sig .tc := ⟨.hbm, 3074, rfl⟩
abbrev main_v3058 : Ref sig .tc := ⟨.hbm, 3075, rfl⟩
abbrev main_v3059 : Ref sig .tc := ⟨.hbm, 3076, rfl⟩
abbrev main_v3060 : Ref sig .tc := ⟨.hbm, 3077, rfl⟩
abbrev main_v3061 : Ref sig .tc := ⟨.hbm, 3078, rfl⟩
abbrev main_v3062 : Ref sig .tc := ⟨.hbm, 3079, rfl⟩
abbrev main_v3063 : Ref sig .tc := ⟨.hbm, 3080, rfl⟩
abbrev main_v3064 : Ref sig .tc := ⟨.hbm, 3081, rfl⟩
abbrev main_v3065 : Ref sig .tc := ⟨.hbm, 3082, rfl⟩
abbrev main_v3066 : Ref sig .tc := ⟨.hbm, 3083, rfl⟩
abbrev main_v3067 : Ref sig .tc := ⟨.hbm, 3084, rfl⟩
abbrev main_v3068 : Ref sig .tc := ⟨.hbm, 3085, rfl⟩
abbrev main_v3069 : Ref sig .tc := ⟨.hbm, 3086, rfl⟩
abbrev main_v3070 : Ref sig .tc := ⟨.hbm, 3087, rfl⟩
abbrev main_v3071 : Ref sig .tc := ⟨.hbm, 3088, rfl⟩
abbrev main_v3072 : Ref sig .tc := ⟨.hbm, 3089, rfl⟩
abbrev main_v3073 : Ref sig .tc := ⟨.hbm, 3090, rfl⟩
abbrev main_v3074 : Ref sig .tc := ⟨.hbm, 3091, rfl⟩
abbrev main_v3075 : Ref sig .tc := ⟨.hbm, 3092, rfl⟩
abbrev main_v3076 : Ref sig .tc := ⟨.hbm, 3093, rfl⟩
abbrev main_v3077 : Ref sig .tc := ⟨.hbm, 3094, rfl⟩
abbrev main_v3078 : Ref sig .tc := ⟨.hbm, 3095, rfl⟩
abbrev main_v3079 : Ref sig .tc := ⟨.hbm, 3096, rfl⟩
abbrev main_v3080 : Ref sig .tc := ⟨.hbm, 3097, rfl⟩
abbrev main_v3081 : Ref sig .tc := ⟨.hbm, 3098, rfl⟩
abbrev main_v3082 : Ref sig .tc := ⟨.hbm, 3099, rfl⟩
abbrev main_v3083 : Ref sig .tc := ⟨.hbm, 3100, rfl⟩
abbrev main_v3084 : Ref sig .tc := ⟨.hbm, 3101, rfl⟩
abbrev main_v3085 : Ref sig .tc := ⟨.hbm, 3102, rfl⟩
abbrev main_v3086 : Ref sig .tc := ⟨.hbm, 3103, rfl⟩
abbrev main_v3087 : Ref sig .tc := ⟨.hbm, 3104, rfl⟩
abbrev main_v3088 : Ref sig .tc := ⟨.hbm, 3105, rfl⟩
abbrev main_v3089 : Ref sig .tc := ⟨.hbm, 3106, rfl⟩
abbrev main_v3090 : Ref sig .tc := ⟨.hbm, 3107, rfl⟩
abbrev main_v3091 : Ref sig .tc := ⟨.hbm, 3108, rfl⟩
abbrev main_v3092 : Ref sig .tc := ⟨.hbm, 3109, rfl⟩
abbrev main_v3093 : Ref sig .tc := ⟨.hbm, 3110, rfl⟩
abbrev main_v3094 : Ref sig .tc := ⟨.hbm, 3111, rfl⟩
abbrev main_v3095 : Ref sig .tc := ⟨.hbm, 3112, rfl⟩
abbrev main_v3096 : Ref sig .tc := ⟨.hbm, 3113, rfl⟩
abbrev main_v3097 : Ref sig .tc := ⟨.hbm, 3114, rfl⟩
abbrev main_v3098 : Ref sig .tc := ⟨.hbm, 3115, rfl⟩
abbrev main_v3099 : Ref sig .tc := ⟨.hbm, 3116, rfl⟩
abbrev main_v3100 : Ref sig .tc := ⟨.hbm, 3117, rfl⟩
abbrev main_v3101 : Ref sig .tc := ⟨.hbm, 3118, rfl⟩
abbrev main_v3102 : Ref sig .tc := ⟨.hbm, 3119, rfl⟩
abbrev main_v3103 : Ref sig .tc := ⟨.hbm, 3120, rfl⟩
abbrev main_v3104 : Ref sig .tc := ⟨.hbm, 3121, rfl⟩
abbrev main_v3105 : Ref sig .tc := ⟨.hbm, 3122, rfl⟩
abbrev main_v3106 : Ref sig .tc := ⟨.hbm, 3123, rfl⟩
abbrev main_v3107 : Ref sig .tc := ⟨.hbm, 3124, rfl⟩
abbrev main_v3108 : Ref sig .tc := ⟨.hbm, 3125, rfl⟩
abbrev main_v3109 : Ref sig .tc := ⟨.hbm, 3126, rfl⟩
abbrev main_v3110 : Ref sig .tc := ⟨.hbm, 3127, rfl⟩
abbrev main_v3111 : Ref sig .tc := ⟨.hbm, 3128, rfl⟩
abbrev main_v3112 : Ref sig .tc := ⟨.hbm, 3129, rfl⟩
abbrev main_v3113 : Ref sig .tc := ⟨.hbm, 3130, rfl⟩
abbrev main_v3114 : Ref sig .tc := ⟨.hbm, 3131, rfl⟩
abbrev main_v3115 : Ref sig .tc := ⟨.hbm, 3132, rfl⟩
abbrev main_v3116 : Ref sig .tc := ⟨.hbm, 3133, rfl⟩
abbrev main_v3117 : Ref sig .tc := ⟨.hbm, 3134, rfl⟩
abbrev main_v3118 : Ref sig .tc := ⟨.hbm, 3135, rfl⟩
abbrev main_v3119 : Ref sig .tc := ⟨.hbm, 3136, rfl⟩
abbrev main_v3120 : Ref sig .tc := ⟨.hbm, 3137, rfl⟩
abbrev main_v3121 : Ref sig .tc := ⟨.hbm, 3138, rfl⟩
abbrev main_v3122 : Ref sig .tc := ⟨.hbm, 3139, rfl⟩
abbrev main_v3123 : Ref sig .tc := ⟨.hbm, 3140, rfl⟩
abbrev main_v3124 : Ref sig .tc := ⟨.hbm, 3141, rfl⟩
abbrev main_v3125 : Ref sig .tc := ⟨.hbm, 3142, rfl⟩
abbrev main_v3126 : Ref sig .tc := ⟨.hbm, 3143, rfl⟩
abbrev main_v3127 : Ref sig .tc := ⟨.hbm, 3144, rfl⟩
abbrev main_v3128 : Ref sig .tc := ⟨.hbm, 3145, rfl⟩
abbrev main_v3129 : Ref sig .tc := ⟨.hbm, 3146, rfl⟩
abbrev main_v3130 : Ref sig .tc := ⟨.hbm, 3147, rfl⟩
abbrev main_v3131 : Ref sig .tc := ⟨.hbm, 3148, rfl⟩
abbrev main_v3132 : Ref sig .tc := ⟨.hbm, 3149, rfl⟩
abbrev main_v3133 : Ref sig .tc := ⟨.hbm, 3150, rfl⟩
abbrev main_v3134 : Ref sig .tc := ⟨.hbm, 3151, rfl⟩
abbrev main_v3135 : Ref sig .tc := ⟨.hbm, 3152, rfl⟩
abbrev main_v3136 : Ref sig .tc := ⟨.hbm, 3153, rfl⟩
abbrev main_v3137 : Ref sig .tc := ⟨.hbm, 3154, rfl⟩
abbrev main_v3138 : Ref sig .tc := ⟨.hbm, 3155, rfl⟩
abbrev main_v3139 : Ref sig .tc := ⟨.hbm, 3156, rfl⟩
abbrev main_v3140 : Ref sig .tc := ⟨.hbm, 3157, rfl⟩
abbrev main_v3141 : Ref sig .tc := ⟨.hbm, 3158, rfl⟩
abbrev main_v3142 : Ref sig .tc := ⟨.hbm, 3159, rfl⟩
abbrev main_v3143 : Ref sig .tc := ⟨.hbm, 3160, rfl⟩
abbrev main_v3144 : Ref sig .tc := ⟨.hbm, 3161, rfl⟩
abbrev main_v3145 : Ref sig .tc := ⟨.hbm, 3162, rfl⟩
abbrev main_v3146 : Ref sig .tc := ⟨.hbm, 3163, rfl⟩
abbrev main_v3147 : Ref sig .tc := ⟨.hbm, 3164, rfl⟩
abbrev main_v3148 : Ref sig .tc := ⟨.hbm, 3165, rfl⟩
abbrev main_v3149 : Ref sig .tc := ⟨.hbm, 3166, rfl⟩
abbrev main_v3150 : Ref sig .tc := ⟨.hbm, 3167, rfl⟩
abbrev main_v3151 : Ref sig .tc := ⟨.hbm, 3168, rfl⟩
abbrev main_v3152 : Ref sig .tc := ⟨.hbm, 3169, rfl⟩
abbrev main_v3153 : Ref sig .tc := ⟨.hbm, 3170, rfl⟩
abbrev main_v3154 : Ref sig .tc := ⟨.hbm, 3171, rfl⟩
abbrev main_v3155 : Ref sig .tc := ⟨.hbm, 3172, rfl⟩
abbrev main_v3156 : Ref sig .tc := ⟨.hbm, 3173, rfl⟩
abbrev main_v3157 : Ref sig .tc := ⟨.hbm, 3174, rfl⟩
abbrev main_v3158 : Ref sig .tc := ⟨.hbm, 3175, rfl⟩
abbrev main_v3159 : Ref sig .tc := ⟨.hbm, 3176, rfl⟩
abbrev main_v3160 : Ref sig .tc := ⟨.hbm, 3177, rfl⟩
abbrev main_v3161 : Ref sig .tc := ⟨.hbm, 3178, rfl⟩
abbrev main_v3162 : Ref sig .tc := ⟨.hbm, 3179, rfl⟩
abbrev main_v3163 : Ref sig .tc := ⟨.hbm, 3180, rfl⟩
abbrev main_v3164 : Ref sig .tc := ⟨.hbm, 3181, rfl⟩
abbrev main_v3165 : Ref sig .tc := ⟨.hbm, 3182, rfl⟩
abbrev main_v3166 : Ref sig .tc := ⟨.hbm, 3183, rfl⟩
abbrev main_v3167 : Ref sig .tc := ⟨.hbm, 3184, rfl⟩
abbrev main_v3168 : Ref sig .tc := ⟨.hbm, 3185, rfl⟩
abbrev main_v3169 : Ref sig .tc := ⟨.hbm, 3186, rfl⟩
abbrev main_v3170 : Ref sig .tc := ⟨.hbm, 3187, rfl⟩
abbrev main_v3171 : Ref sig .tc := ⟨.hbm, 3188, rfl⟩
abbrev main_v3172 : Ref sig .tc := ⟨.hbm, 3189, rfl⟩
abbrev main_v3173 : Ref sig .tc := ⟨.hbm, 3190, rfl⟩
abbrev main_v3174 : Ref sig .tc := ⟨.hbm, 3191, rfl⟩
abbrev main_v3175 : Ref sig .tc := ⟨.hbm, 3192, rfl⟩
abbrev main_v3176 : Ref sig .tc := ⟨.hbm, 3193, rfl⟩
abbrev main_v3177 : Ref sig .tc := ⟨.hbm, 3194, rfl⟩
abbrev main_v3178 : Ref sig .tc := ⟨.hbm, 3195, rfl⟩
abbrev main_v3179 : Ref sig .tc := ⟨.hbm, 3196, rfl⟩
abbrev main_v3180 : Ref sig .tc := ⟨.hbm, 3197, rfl⟩
abbrev main_v3181 : Ref sig .tc := ⟨.hbm, 3198, rfl⟩
abbrev main_v3182 : Ref sig .tc := ⟨.hbm, 3199, rfl⟩
abbrev main_v3183 : Ref sig .tc := ⟨.hbm, 3200, rfl⟩
abbrev main_v3184 : Ref sig .tc := ⟨.hbm, 3201, rfl⟩
abbrev main_v3185 : Ref sig .tc := ⟨.hbm, 3202, rfl⟩
abbrev main_v3186 : Ref sig .tc := ⟨.hbm, 3203, rfl⟩
abbrev main_v3187 : Ref sig .tc := ⟨.hbm, 3204, rfl⟩
abbrev main_v3188 : Ref sig .tc := ⟨.hbm, 3205, rfl⟩
abbrev main_v3189 : Ref sig .tc := ⟨.hbm, 3206, rfl⟩
abbrev main_v3190 : Ref sig .tc := ⟨.hbm, 3207, rfl⟩
abbrev main_v3191 : Ref sig .tc := ⟨.hbm, 3208, rfl⟩
abbrev main_v3192 : Ref sig .tc := ⟨.hbm, 3209, rfl⟩
abbrev main_v3193 : Ref sig .tc := ⟨.hbm, 3210, rfl⟩
abbrev main_v3194 : Ref sig .tc := ⟨.hbm, 3211, rfl⟩
abbrev main_v3195 : Ref sig .tc := ⟨.hbm, 3212, rfl⟩
abbrev main_v3196 : Ref sig .tc := ⟨.hbm, 3213, rfl⟩
abbrev main_v3197 : Ref sig .tc := ⟨.hbm, 3214, rfl⟩
abbrev main_v3198 : Ref sig .tc := ⟨.hbm, 3215, rfl⟩
abbrev main_v3199 : Ref sig .tc := ⟨.hbm, 3216, rfl⟩
abbrev main_v3200 : Ref sig .tc := ⟨.hbm, 3217, rfl⟩
abbrev main_v3201 : Ref sig .tc := ⟨.hbm, 3218, rfl⟩
abbrev main_v3202 : Ref sig .tc := ⟨.hbm, 3219, rfl⟩
abbrev main_v3203 : Ref sig .tc := ⟨.hbm, 3220, rfl⟩
abbrev main_v3204 : Ref sig .tc := ⟨.hbm, 3221, rfl⟩
abbrev main_v3205 : Ref sig .tc := ⟨.hbm, 3222, rfl⟩
abbrev main_v3206 : Ref sig .tc := ⟨.hbm, 3223, rfl⟩
abbrev main_v3207 : Ref sig .tc := ⟨.hbm, 3224, rfl⟩
abbrev main_v3208 : Ref sig .tc := ⟨.hbm, 3225, rfl⟩
abbrev main_v3209 : Ref sig .tc := ⟨.hbm, 3226, rfl⟩
abbrev main_v3210 : Ref sig .tc := ⟨.hbm, 3227, rfl⟩
abbrev main_v3211 : Ref sig .tc := ⟨.hbm, 3228, rfl⟩
abbrev main_v3212 : Ref sig .tc := ⟨.hbm, 3229, rfl⟩
abbrev main_v3213 : Ref sig .tc := ⟨.hbm, 3230, rfl⟩
abbrev main_v3214 : Ref sig .tc := ⟨.hbm, 3231, rfl⟩
abbrev main_v3215 : Ref sig .tc := ⟨.hbm, 3232, rfl⟩
abbrev main_v3216 : Ref sig .tc := ⟨.hbm, 3233, rfl⟩
abbrev main_v3217 : Ref sig .tc := ⟨.hbm, 3234, rfl⟩
abbrev main_v3218 : Ref sig .tc := ⟨.hbm, 3235, rfl⟩
abbrev main_v3219 : Ref sig .tc := ⟨.hbm, 3236, rfl⟩
abbrev main_v3220 : Ref sig .tc := ⟨.hbm, 3237, rfl⟩
abbrev main_v3221 : Ref sig .tc := ⟨.hbm, 3238, rfl⟩
abbrev main_v3222 : Ref sig .tc := ⟨.hbm, 3239, rfl⟩
abbrev main_v3223 : Ref sig .tc := ⟨.hbm, 3240, rfl⟩
abbrev main_v3224 : Ref sig .tc := ⟨.hbm, 3241, rfl⟩
abbrev main_v3225 : Ref sig .tc := ⟨.hbm, 3242, rfl⟩
abbrev main_v3226 : Ref sig .tc := ⟨.hbm, 3243, rfl⟩
abbrev main_v3227 : Ref sig .tc := ⟨.hbm, 3244, rfl⟩
abbrev main_v3228 : Ref sig .tc := ⟨.hbm, 3245, rfl⟩
abbrev main_v3229 : Ref sig .tc := ⟨.hbm, 3246, rfl⟩
abbrev main_v3230 : Ref sig .tc := ⟨.hbm, 3247, rfl⟩
abbrev main_v3231 : Ref sig .tc := ⟨.hbm, 3248, rfl⟩
abbrev main_v3232 : Ref sig .tc := ⟨.hbm, 3249, rfl⟩
abbrev main_v3233 : Ref sig .tc := ⟨.hbm, 3250, rfl⟩
abbrev main_v3234 : Ref sig .tc := ⟨.hbm, 3251, rfl⟩
abbrev main_v3235 : Ref sig .tc := ⟨.hbm, 3252, rfl⟩
abbrev main_v3236 : Ref sig .tc := ⟨.hbm, 3253, rfl⟩
abbrev main_v3237 : Ref sig .tc := ⟨.hbm, 3254, rfl⟩
abbrev main_v3238 : Ref sig .tc := ⟨.hbm, 3255, rfl⟩
abbrev main_v3239 : Ref sig .tc := ⟨.hbm, 3256, rfl⟩
abbrev main_v3240 : Ref sig .tc := ⟨.hbm, 3257, rfl⟩
abbrev main_v3241 : Ref sig .tc := ⟨.hbm, 3258, rfl⟩
abbrev main_v3242 : Ref sig .tc := ⟨.hbm, 3259, rfl⟩
abbrev main_v3243 : Ref sig .tc := ⟨.hbm, 3260, rfl⟩
abbrev main_v3244 : Ref sig .tc := ⟨.hbm, 3261, rfl⟩
abbrev main_v3245 : Ref sig .tc := ⟨.hbm, 3262, rfl⟩
abbrev main_v3246 : Ref sig .tc := ⟨.hbm, 3263, rfl⟩
abbrev main_v3247 : Ref sig .tc := ⟨.hbm, 3264, rfl⟩
abbrev main_v3248 : Ref sig .tc := ⟨.hbm, 3265, rfl⟩
abbrev main_v3249 : Ref sig .tc := ⟨.hbm, 3266, rfl⟩
abbrev main_v3250 : Ref sig .tc := ⟨.hbm, 3267, rfl⟩
abbrev main_v3251 : Ref sig .tc := ⟨.hbm, 3268, rfl⟩
abbrev main_v3252 : Ref sig .tc := ⟨.hbm, 3269, rfl⟩
abbrev main_v3253 : Ref sig .tc := ⟨.hbm, 3270, rfl⟩
abbrev main_v3254 : Ref sig .tc := ⟨.hbm, 3271, rfl⟩
abbrev main_v3255 : Ref sig .tc := ⟨.hbm, 3272, rfl⟩
abbrev main_v3256 : Ref sig .tc := ⟨.hbm, 3273, rfl⟩
abbrev main_v3257 : Ref sig .tc := ⟨.hbm, 3274, rfl⟩
abbrev main_v3258 : Ref sig .tc := ⟨.hbm, 3275, rfl⟩
abbrev main_v3259 : Ref sig .tc := ⟨.hbm, 3276, rfl⟩
abbrev main_v3260 : Ref sig .tc := ⟨.hbm, 3277, rfl⟩
abbrev main_v3261 : Ref sig .tc := ⟨.hbm, 3278, rfl⟩
abbrev main_v3262 : Ref sig .tc := ⟨.hbm, 3279, rfl⟩
abbrev main_v3263 : Ref sig .tc := ⟨.hbm, 3280, rfl⟩
abbrev main_v3264 : Ref sig .tc := ⟨.hbm, 3281, rfl⟩
abbrev main_v3265 : Ref sig .tc := ⟨.hbm, 3282, rfl⟩
abbrev main_v3266 : Ref sig .tc := ⟨.hbm, 3283, rfl⟩
abbrev main_v3267 : Ref sig .tc := ⟨.hbm, 3284, rfl⟩
abbrev main_v3268 : Ref sig .tc := ⟨.hbm, 3285, rfl⟩
abbrev main_v3269 : Ref sig .tc := ⟨.hbm, 3286, rfl⟩
abbrev main_v3270 : Ref sig .tc := ⟨.hbm, 3287, rfl⟩
abbrev main_v3271 : Ref sig .tc := ⟨.hbm, 3288, rfl⟩
abbrev main_v3272 : Ref sig .tc := ⟨.hbm, 3289, rfl⟩
abbrev main_v3273 : Ref sig .tc := ⟨.hbm, 3290, rfl⟩
abbrev main_v3274 : Ref sig .tc := ⟨.hbm, 3291, rfl⟩
abbrev main_v3275 : Ref sig .tc := ⟨.hbm, 3292, rfl⟩
abbrev main_v3276 : Ref sig .tc := ⟨.hbm, 3293, rfl⟩
abbrev main_v3277 : Ref sig .tc := ⟨.hbm, 3294, rfl⟩
abbrev main_v3278 : Ref sig .tc := ⟨.hbm, 3295, rfl⟩
abbrev main_v3279 : Ref sig .tc := ⟨.hbm, 3296, rfl⟩
abbrev main_v3280 : Ref sig .tc := ⟨.hbm, 3297, rfl⟩
abbrev main_v3281 : Ref sig .tc := ⟨.hbm, 3298, rfl⟩
abbrev main_v3282 : Ref sig .tc := ⟨.hbm, 3299, rfl⟩
abbrev main_v3283 : Ref sig .tc := ⟨.hbm, 3300, rfl⟩
abbrev main_v3284 : Ref sig .tc := ⟨.hbm, 3301, rfl⟩
abbrev main_v3285 : Ref sig .tc := ⟨.hbm, 3302, rfl⟩
abbrev main_v3286 : Ref sig .tc := ⟨.hbm, 3303, rfl⟩
abbrev main_v3287 : Ref sig .tc := ⟨.hbm, 3304, rfl⟩
abbrev main_v3288 : Ref sig .tc := ⟨.hbm, 3305, rfl⟩
abbrev main_v3289 : Ref sig .tc := ⟨.hbm, 3306, rfl⟩
abbrev main_v3290 : Ref sig .tc := ⟨.hbm, 3307, rfl⟩
abbrev main_v3291 : Ref sig .tc := ⟨.hbm, 3308, rfl⟩
abbrev main_v3292 : Ref sig .tc := ⟨.hbm, 3309, rfl⟩
abbrev main_v3293 : Ref sig .tc := ⟨.hbm, 3310, rfl⟩
abbrev main_v3294 : Ref sig .tc := ⟨.hbm, 3311, rfl⟩
abbrev main_v3295 : Ref sig .tc := ⟨.hbm, 3312, rfl⟩
abbrev main_v3296 : Ref sig .tc := ⟨.hbm, 3313, rfl⟩
abbrev main_v3297 : Ref sig .tc := ⟨.hbm, 3314, rfl⟩
abbrev main_v3298 : Ref sig .tc := ⟨.hbm, 3315, rfl⟩
abbrev main_v3299 : Ref sig .tc := ⟨.hbm, 3316, rfl⟩
abbrev main_v3300 : Ref sig .tc := ⟨.hbm, 3317, rfl⟩
abbrev main_v3301 : Ref sig .tc := ⟨.hbm, 3318, rfl⟩
abbrev main_v3302 : Ref sig .tc := ⟨.hbm, 3319, rfl⟩
abbrev main_v3303 : Ref sig .tc := ⟨.hbm, 3320, rfl⟩
abbrev main_v3304 : Ref sig .tc := ⟨.hbm, 3321, rfl⟩
abbrev main_v3305 : Ref sig .tc := ⟨.hbm, 3322, rfl⟩
abbrev main_v3306 : Ref sig .tc := ⟨.hbm, 3323, rfl⟩
abbrev main_v3307 : Ref sig .tc := ⟨.hbm, 3324, rfl⟩
abbrev main_v3308 : Ref sig .tc := ⟨.hbm, 3325, rfl⟩
abbrev main_v3309 : Ref sig .tc := ⟨.hbm, 3326, rfl⟩
abbrev main_v3310 : Ref sig .tc := ⟨.hbm, 3327, rfl⟩
abbrev main_v3311 : Ref sig .tc := ⟨.hbm, 3328, rfl⟩
abbrev main_v3312 : Ref sig .tc := ⟨.hbm, 3329, rfl⟩
abbrev main_v3313 : Ref sig .tc := ⟨.hbm, 3330, rfl⟩
abbrev main_v3314 : Ref sig .tc := ⟨.hbm, 3331, rfl⟩
abbrev main_v3315 : Ref sig .tc := ⟨.hbm, 3332, rfl⟩
abbrev main_v3316 : Ref sig .tc := ⟨.hbm, 3333, rfl⟩
abbrev main_v3317 : Ref sig .tc := ⟨.hbm, 3334, rfl⟩
abbrev main_v3318 : Ref sig .tc := ⟨.hbm, 3335, rfl⟩
abbrev main_v3319 : Ref sig .tc := ⟨.hbm, 3336, rfl⟩
abbrev main_v3320 : Ref sig .tc := ⟨.hbm, 3337, rfl⟩
abbrev main_v3321 : Ref sig .tc := ⟨.hbm, 3338, rfl⟩
abbrev main_v3322 : Ref sig .tc := ⟨.hbm, 3339, rfl⟩
abbrev main_v3323 : Ref sig .tc := ⟨.hbm, 3340, rfl⟩
abbrev main_v3324 : Ref sig .tc := ⟨.hbm, 3341, rfl⟩
abbrev main_v3325 : Ref sig .tc := ⟨.hbm, 3342, rfl⟩
abbrev main_v3326 : Ref sig .tc := ⟨.hbm, 3343, rfl⟩
abbrev main_v3327 : Ref sig .tc := ⟨.hbm, 3344, rfl⟩
abbrev main_v3328 : Ref sig .tc := ⟨.hbm, 3345, rfl⟩
abbrev main_v3329 : Ref sig .tc := ⟨.hbm, 3346, rfl⟩
abbrev main_v3330 : Ref sig .tc := ⟨.hbm, 3347, rfl⟩
abbrev main_v3331 : Ref sig .tc := ⟨.hbm, 3348, rfl⟩
abbrev main_v3332 : Ref sig .tc := ⟨.hbm, 3349, rfl⟩
abbrev main_v3333 : Ref sig .tc := ⟨.hbm, 3350, rfl⟩
abbrev main_v3334 : Ref sig .tc := ⟨.hbm, 3351, rfl⟩
abbrev main_v3335 : Ref sig .tc := ⟨.hbm, 3352, rfl⟩
abbrev main_v3336 : Ref sig .tc := ⟨.hbm, 3353, rfl⟩
abbrev main_v3337 : Ref sig .tc := ⟨.hbm, 3354, rfl⟩
abbrev main_v3338 : Ref sig .tc := ⟨.hbm, 3355, rfl⟩
abbrev main_v3339 : Ref sig .tc := ⟨.hbm, 3356, rfl⟩
abbrev main_v3340 : Ref sig .tc := ⟨.hbm, 3357, rfl⟩
abbrev main_v3341 : Ref sig .tc := ⟨.hbm, 3358, rfl⟩
abbrev main_v3342 : Ref sig .tc := ⟨.hbm, 3359, rfl⟩
abbrev main_v3343 : Ref sig .tc := ⟨.hbm, 3360, rfl⟩
abbrev main_v3344 : Ref sig .tc := ⟨.hbm, 3361, rfl⟩
abbrev main_v3345 : Ref sig .tc := ⟨.hbm, 3362, rfl⟩
abbrev main_v3346 : Ref sig .tc := ⟨.hbm, 3363, rfl⟩
abbrev main_v3347 : Ref sig .tc := ⟨.hbm, 3364, rfl⟩
abbrev main_v3348 : Ref sig .tc := ⟨.hbm, 3365, rfl⟩
abbrev main_v3349 : Ref sig .tc := ⟨.hbm, 3366, rfl⟩
abbrev main_v3350 : Ref sig .tc := ⟨.hbm, 3367, rfl⟩
abbrev main_v3351 : Ref sig .tc := ⟨.hbm, 3368, rfl⟩
abbrev main_v3352 : Ref sig .tc := ⟨.hbm, 3369, rfl⟩
abbrev main_v3353 : Ref sig .tc := ⟨.hbm, 3370, rfl⟩
abbrev main_v3354 : Ref sig .tc := ⟨.hbm, 3371, rfl⟩
abbrev main_v3355 : Ref sig .tc := ⟨.hbm, 3372, rfl⟩
abbrev main_v3356 : Ref sig .tc := ⟨.hbm, 3373, rfl⟩
abbrev main_v3357 : Ref sig .tc := ⟨.hbm, 3374, rfl⟩
abbrev main_v3358 : Ref sig .tc := ⟨.hbm, 3375, rfl⟩
abbrev main_v3359 : Ref sig .tc := ⟨.hbm, 3376, rfl⟩
abbrev main_v3360 : Ref sig .tc := ⟨.hbm, 3377, rfl⟩
abbrev main_v3361 : Ref sig .tc := ⟨.hbm, 3378, rfl⟩
abbrev main_v3362 : Ref sig .tc := ⟨.hbm, 3379, rfl⟩
abbrev main_v3363 : Ref sig .tc := ⟨.hbm, 3380, rfl⟩
abbrev main_v3364 : Ref sig .tc := ⟨.hbm, 3381, rfl⟩
abbrev main_v3365 : Ref sig .tc := ⟨.hbm, 3382, rfl⟩
abbrev main_v3366 : Ref sig .tc := ⟨.hbm, 3383, rfl⟩
abbrev main_v3367 : Ref sig .tc := ⟨.hbm, 3384, rfl⟩
abbrev main_v3368 : Ref sig .tc := ⟨.hbm, 3385, rfl⟩
abbrev main_v3369 : Ref sig .tc := ⟨.hbm, 3386, rfl⟩
abbrev main_v3370 : Ref sig .tc := ⟨.hbm, 3387, rfl⟩
abbrev main_v3371 : Ref sig .tc := ⟨.hbm, 3388, rfl⟩
abbrev main_v3372 : Ref sig .tc := ⟨.hbm, 3389, rfl⟩
abbrev main_v3373 : Ref sig .tc := ⟨.hbm, 3390, rfl⟩
abbrev main_v3374 : Ref sig .tc := ⟨.hbm, 3391, rfl⟩
abbrev main_v3375 : Ref sig .tc := ⟨.hbm, 3392, rfl⟩
abbrev main_v3376 : Ref sig .tc := ⟨.hbm, 3393, rfl⟩
abbrev main_v3377 : Ref sig .tc := ⟨.hbm, 3394, rfl⟩
abbrev main_v3378 : Ref sig .tc := ⟨.hbm, 3395, rfl⟩
abbrev main_v3379 : Ref sig .tc := ⟨.hbm, 3396, rfl⟩
abbrev main_v3380 : Ref sig .tc := ⟨.hbm, 3397, rfl⟩
abbrev main_v3381 : Ref sig .tc := ⟨.hbm, 3398, rfl⟩
abbrev main_v3382 : Ref sig .tc := ⟨.hbm, 3399, rfl⟩
abbrev main_v3383 : Ref sig .tc := ⟨.hbm, 3400, rfl⟩
abbrev main_v3384 : Ref sig .tc := ⟨.hbm, 3401, rfl⟩
abbrev main_v3385 : Ref sig .tc := ⟨.hbm, 3402, rfl⟩
abbrev main_v3386 : Ref sig .tc := ⟨.hbm, 3403, rfl⟩
abbrev main_v3387 : Ref sig .tc := ⟨.hbm, 3404, rfl⟩
abbrev main_v3388 : Ref sig .tc := ⟨.hbm, 3405, rfl⟩
abbrev main_v3389 : Ref sig .tc := ⟨.hbm, 3406, rfl⟩
abbrev main_v3390 : Ref sig .tc := ⟨.hbm, 3407, rfl⟩
abbrev main_v3391 : Ref sig .tc := ⟨.hbm, 3408, rfl⟩
abbrev main_v3392 : Ref sig .tc := ⟨.hbm, 3409, rfl⟩
abbrev main_v3393 : Ref sig .tc := ⟨.hbm, 3410, rfl⟩
abbrev main_v3394 : Ref sig .tc := ⟨.hbm, 3411, rfl⟩
abbrev main_v3395 : Ref sig .tc := ⟨.hbm, 3412, rfl⟩
abbrev main_v3396 : Ref sig .tc := ⟨.hbm, 3413, rfl⟩
abbrev main_v3397 : Ref sig .tc := ⟨.hbm, 3414, rfl⟩
abbrev main_v3398 : Ref sig .tc := ⟨.hbm, 3415, rfl⟩
abbrev main_v3399 : Ref sig .tc := ⟨.hbm, 3416, rfl⟩
abbrev main_v3400 : Ref sig .tc := ⟨.hbm, 3417, rfl⟩
abbrev main_v3401 : Ref sig .tc := ⟨.hbm, 3418, rfl⟩
abbrev main_v3402 : Ref sig .tc := ⟨.hbm, 3419, rfl⟩
abbrev main_v3403 : Ref sig .tc := ⟨.hbm, 3420, rfl⟩
abbrev main_v3404 : Ref sig .tc := ⟨.hbm, 3421, rfl⟩
abbrev main_v3405 : Ref sig .tc := ⟨.hbm, 3422, rfl⟩
abbrev main_v3406 : Ref sig .tc := ⟨.hbm, 3423, rfl⟩
abbrev main_v3407 : Ref sig .tc := ⟨.hbm, 3424, rfl⟩
abbrev main_v3408 : Ref sig .tc := ⟨.hbm, 3425, rfl⟩
abbrev main_v3409 : Ref sig .tc := ⟨.hbm, 3426, rfl⟩
abbrev main_v3410 : Ref sig .tc := ⟨.hbm, 3427, rfl⟩
abbrev main_v3411 : Ref sig .tc := ⟨.hbm, 3428, rfl⟩
abbrev main_v3412 : Ref sig .tc := ⟨.hbm, 3429, rfl⟩
abbrev main_v3413 : Ref sig .tc := ⟨.hbm, 3430, rfl⟩
abbrev main_v3414 : Ref sig .tc := ⟨.hbm, 3431, rfl⟩
abbrev main_v3415 : Ref sig .tc := ⟨.hbm, 3432, rfl⟩
abbrev main_v3416 : Ref sig .tc := ⟨.hbm, 3433, rfl⟩
abbrev main_v3417 : Ref sig .tc := ⟨.hbm, 3434, rfl⟩
abbrev main_v3418 : Ref sig .tc := ⟨.hbm, 3435, rfl⟩
abbrev main_v3419 : Ref sig .tc := ⟨.hbm, 3436, rfl⟩
abbrev main_v3420 : Ref sig .tc := ⟨.hbm, 3437, rfl⟩
abbrev main_v3421 : Ref sig .tc := ⟨.hbm, 3438, rfl⟩
abbrev main_v3422 : Ref sig .tc := ⟨.hbm, 3439, rfl⟩
abbrev main_v3423 : Ref sig .tc := ⟨.hbm, 3440, rfl⟩
abbrev main_v3424 : Ref sig .tc := ⟨.hbm, 3441, rfl⟩
abbrev main_v3425 : Ref sig .tc := ⟨.hbm, 3442, rfl⟩
abbrev main_v3426 : Ref sig .tc := ⟨.hbm, 3443, rfl⟩
abbrev main_v3427 : Ref sig .tc := ⟨.hbm, 3444, rfl⟩
abbrev main_v3428 : Ref sig .tc := ⟨.hbm, 3445, rfl⟩
abbrev main_v3429 : Ref sig .tc := ⟨.hbm, 3446, rfl⟩
abbrev main_v3430 : Ref sig .tc := ⟨.hbm, 3447, rfl⟩
abbrev main_v3431 : Ref sig .tc := ⟨.hbm, 3448, rfl⟩
abbrev main_v3432 : Ref sig .tc := ⟨.hbm, 3449, rfl⟩
abbrev main_v3433 : Ref sig .tc := ⟨.hbm, 3450, rfl⟩
abbrev main_v3434 : Ref sig .tc := ⟨.hbm, 3451, rfl⟩
abbrev main_v3435 : Ref sig .tc := ⟨.hbm, 3452, rfl⟩
abbrev main_v3436 : Ref sig .tc := ⟨.hbm, 3453, rfl⟩
abbrev main_v3437 : Ref sig .tc := ⟨.hbm, 3454, rfl⟩
abbrev main_v3438 : Ref sig .tc := ⟨.hbm, 3455, rfl⟩
abbrev main_v3439 : Ref sig .tc := ⟨.hbm, 3456, rfl⟩
abbrev main_v3440 : Ref sig .tc := ⟨.hbm, 3457, rfl⟩
abbrev main_v3441 : Ref sig .tc := ⟨.hbm, 3458, rfl⟩
abbrev main_v3442 : Ref sig .tc := ⟨.hbm, 3459, rfl⟩
abbrev main_v3443 : Ref sig .tc := ⟨.hbm, 3460, rfl⟩
abbrev main_v3444 : Ref sig .tc := ⟨.hbm, 3461, rfl⟩
abbrev main_v3445 : Ref sig .tc := ⟨.hbm, 3462, rfl⟩
abbrev main_v3446 : Ref sig .tc := ⟨.hbm, 3463, rfl⟩
abbrev main_v3447 : Ref sig .tc := ⟨.hbm, 3464, rfl⟩
abbrev main_v3448 : Ref sig .tc := ⟨.hbm, 3465, rfl⟩
abbrev main_v3449 : Ref sig .tc := ⟨.hbm, 3466, rfl⟩
abbrev main_v3450 : Ref sig .tc := ⟨.hbm, 3467, rfl⟩
abbrev main_v3451 : Ref sig .tc := ⟨.hbm, 3468, rfl⟩
abbrev main_v3452 : Ref sig .tc := ⟨.hbm, 3469, rfl⟩
abbrev main_v3453 : Ref sig .tc := ⟨.hbm, 3470, rfl⟩
abbrev main_v3454 : Ref sig .tc := ⟨.hbm, 3471, rfl⟩
abbrev main_v3455 : Ref sig .tc := ⟨.hbm, 3472, rfl⟩
abbrev main_v3456 : Ref sig .tc := ⟨.hbm, 3473, rfl⟩
abbrev main_v3457 : Ref sig .tc := ⟨.hbm, 3474, rfl⟩
abbrev main_v3458 : Ref sig .tc := ⟨.hbm, 3475, rfl⟩
abbrev main_v3459 : Ref sig .tc := ⟨.hbm, 3476, rfl⟩
abbrev main_v3460 : Ref sig .tc := ⟨.hbm, 3477, rfl⟩
abbrev main_v3461 : Ref sig .tc := ⟨.hbm, 3478, rfl⟩
abbrev main_v3462 : Ref sig .tc := ⟨.hbm, 3479, rfl⟩
abbrev main_v3463 : Ref sig .tc := ⟨.hbm, 3480, rfl⟩
abbrev main_v3464 : Ref sig .tc := ⟨.hbm, 3481, rfl⟩
abbrev main_v3465 : Ref sig .tc := ⟨.hbm, 3482, rfl⟩
abbrev main_v3466 : Ref sig .tc := ⟨.hbm, 3483, rfl⟩
abbrev main_v3467 : Ref sig .tc := ⟨.hbm, 3484, rfl⟩
abbrev main_v3468 : Ref sig .tc := ⟨.hbm, 3485, rfl⟩
abbrev main_v3469 : Ref sig .tc := ⟨.hbm, 3486, rfl⟩
abbrev main_v3470 : Ref sig .tc := ⟨.hbm, 3487, rfl⟩
abbrev main_v3471 : Ref sig .tc := ⟨.hbm, 3488, rfl⟩
abbrev main_v3472 : Ref sig .tc := ⟨.hbm, 3489, rfl⟩
abbrev main_v3473 : Ref sig .tc := ⟨.hbm, 3490, rfl⟩
abbrev main_v3474 : Ref sig .tc := ⟨.hbm, 3491, rfl⟩
abbrev main_v3475 : Ref sig .tc := ⟨.hbm, 3492, rfl⟩
abbrev main_v3476 : Ref sig .tc := ⟨.hbm, 3493, rfl⟩
abbrev main_v3477 : Ref sig .tc := ⟨.hbm, 3494, rfl⟩
abbrev main_v3478 : Ref sig .tc := ⟨.hbm, 3495, rfl⟩
abbrev main_v3479 : Ref sig .tc := ⟨.hbm, 3496, rfl⟩
abbrev main_v3480 : Ref sig .tc := ⟨.hbm, 3497, rfl⟩
abbrev main_v3481 : Ref sig .tc := ⟨.hbm, 3498, rfl⟩
abbrev main_v3482 : Ref sig .tc := ⟨.hbm, 3499, rfl⟩
abbrev main_v3483 : Ref sig .tc := ⟨.hbm, 3500, rfl⟩
abbrev main_v3484 : Ref sig .tc := ⟨.hbm, 3501, rfl⟩
abbrev main_v3485 : Ref sig .tc := ⟨.hbm, 3502, rfl⟩
abbrev main_v3486 : Ref sig .tc := ⟨.hbm, 3503, rfl⟩
abbrev main_v3487 : Ref sig .tc := ⟨.hbm, 3504, rfl⟩
abbrev main_v3488 : Ref sig .tc := ⟨.hbm, 3505, rfl⟩
abbrev main_v3489 : Ref sig .tc := ⟨.hbm, 3506, rfl⟩
abbrev main_v3490 : Ref sig .tc := ⟨.hbm, 3507, rfl⟩
abbrev main_v3491 : Ref sig .tc := ⟨.hbm, 3508, rfl⟩
abbrev main_v3492 : Ref sig .tc := ⟨.hbm, 3509, rfl⟩
abbrev main_v3493 : Ref sig .tc := ⟨.hbm, 3510, rfl⟩
abbrev main_v3494 : Ref sig .tc := ⟨.hbm, 3511, rfl⟩
abbrev main_v3495 : Ref sig .tc := ⟨.hbm, 3512, rfl⟩
abbrev main_v3496 : Ref sig .tc := ⟨.hbm, 3513, rfl⟩
abbrev main_v3497 : Ref sig .tc := ⟨.hbm, 3514, rfl⟩
abbrev main_v3498 : Ref sig .tc := ⟨.hbm, 3515, rfl⟩
abbrev main_v3499 : Ref sig .tc := ⟨.hbm, 3516, rfl⟩
abbrev main_v3500 : Ref sig .tc := ⟨.hbm, 3517, rfl⟩
abbrev main_v3501 : Ref sig .tc := ⟨.hbm, 3518, rfl⟩
abbrev main_v3502 : Ref sig .tc := ⟨.hbm, 3519, rfl⟩
abbrev main_v3503 : Ref sig .tc := ⟨.hbm, 3520, rfl⟩
abbrev main_v3504 : Ref sig .tc := ⟨.hbm, 3521, rfl⟩
abbrev main_v3505 : Ref sig .tc := ⟨.hbm, 3522, rfl⟩
abbrev main_v3506 : Ref sig .tc := ⟨.hbm, 3523, rfl⟩
abbrev main_v3507 : Ref sig .tc := ⟨.hbm, 3524, rfl⟩
abbrev main_v3508 : Ref sig .tc := ⟨.hbm, 3525, rfl⟩
abbrev main_v3509 : Ref sig .tc := ⟨.hbm, 3526, rfl⟩
abbrev main_v3510 : Ref sig .tc := ⟨.hbm, 3527, rfl⟩
abbrev main_v3511 : Ref sig .tc := ⟨.hbm, 3528, rfl⟩
abbrev main_v3512 : Ref sig .tc := ⟨.hbm, 3529, rfl⟩
abbrev main_v3513 : Ref sig .tc := ⟨.hbm, 3530, rfl⟩
abbrev main_v3514 : Ref sig .tc := ⟨.hbm, 3531, rfl⟩
abbrev main_v3515 : Ref sig .tc := ⟨.hbm, 3532, rfl⟩
abbrev main_v3516 : Ref sig .tc := ⟨.hbm, 3533, rfl⟩
abbrev main_v3517 : Ref sig .tc := ⟨.hbm, 3534, rfl⟩
abbrev main_v3518 : Ref sig .tc := ⟨.hbm, 3535, rfl⟩
abbrev main_v3519 : Ref sig .tc := ⟨.hbm, 3536, rfl⟩
abbrev main_v3520 : Ref sig .tc := ⟨.hbm, 3537, rfl⟩
abbrev main_v3521 : Ref sig .tc := ⟨.hbm, 3538, rfl⟩
abbrev main_v3522 : Ref sig .tc := ⟨.hbm, 3539, rfl⟩
abbrev main_v3523 : Ref sig .tc := ⟨.hbm, 3540, rfl⟩
abbrev main_v3524 : Ref sig .tc := ⟨.hbm, 3541, rfl⟩
abbrev main_v3525 : Ref sig .tc := ⟨.hbm, 3542, rfl⟩
abbrev main_v3526 : Ref sig .tc := ⟨.hbm, 3543, rfl⟩
abbrev main_v3527 : Ref sig .tc := ⟨.hbm, 3544, rfl⟩
abbrev main_v3528 : Ref sig .tc := ⟨.hbm, 3545, rfl⟩
abbrev main_v3529 : Ref sig .tc := ⟨.hbm, 3546, rfl⟩
abbrev main_v3530 : Ref sig .tc := ⟨.hbm, 3547, rfl⟩
abbrev main_v3531 : Ref sig .tc := ⟨.hbm, 3548, rfl⟩
abbrev main_v3532 : Ref sig .tc := ⟨.hbm, 3549, rfl⟩
abbrev main_v3533 : Ref sig .tc := ⟨.hbm, 3550, rfl⟩
abbrev main_v3534 : Ref sig .tc := ⟨.hbm, 3551, rfl⟩
abbrev main_v3535 : Ref sig .tc := ⟨.hbm, 3552, rfl⟩
abbrev main_v3536 : Ref sig .tc := ⟨.hbm, 3553, rfl⟩
abbrev main_v3537 : Ref sig .tc := ⟨.hbm, 3554, rfl⟩
abbrev main_v3538 : Ref sig .tc := ⟨.hbm, 3555, rfl⟩
abbrev main_v3539 : Ref sig .tc := ⟨.hbm, 3556, rfl⟩
abbrev main_v3540 : Ref sig .tc := ⟨.hbm, 3557, rfl⟩
abbrev main_v3541 : Ref sig .tc := ⟨.hbm, 3558, rfl⟩
abbrev main_v3542 : Ref sig .tc := ⟨.hbm, 3559, rfl⟩
abbrev main_v3543 : Ref sig .tc := ⟨.hbm, 3560, rfl⟩
abbrev main_v3544 : Ref sig .tc := ⟨.hbm, 3561, rfl⟩
abbrev main_v3545 : Ref sig .tc := ⟨.hbm, 3562, rfl⟩
abbrev main_v3546 : Ref sig .tc := ⟨.hbm, 3563, rfl⟩
abbrev main_v3547 : Ref sig .tc := ⟨.hbm, 3564, rfl⟩
abbrev main_v3548 : Ref sig .tc := ⟨.hbm, 3565, rfl⟩
abbrev main_v3549 : Ref sig .tc := ⟨.hbm, 3566, rfl⟩
abbrev main_v3550 : Ref sig .tc := ⟨.hbm, 3567, rfl⟩
abbrev main_v3551 : Ref sig .tc := ⟨.hbm, 3568, rfl⟩
abbrev main_v3552 : Ref sig .tc := ⟨.hbm, 3569, rfl⟩
abbrev main_v3553 : Ref sig .tc := ⟨.hbm, 3570, rfl⟩
abbrev main_v3554 : Ref sig .tc := ⟨.hbm, 3571, rfl⟩
abbrev main_v3555 : Ref sig .tc := ⟨.hbm, 3572, rfl⟩
abbrev main_v3556 : Ref sig .tc := ⟨.hbm, 3573, rfl⟩
abbrev main_v3557 : Ref sig .tc := ⟨.hbm, 3574, rfl⟩
abbrev main_v3558 : Ref sig .tc := ⟨.hbm, 3575, rfl⟩
abbrev main_v3559 : Ref sig .tc := ⟨.hbm, 3576, rfl⟩
abbrev main_v3560 : Ref sig .tc := ⟨.hbm, 3577, rfl⟩
abbrev main_v3561 : Ref sig .tc := ⟨.hbm, 3578, rfl⟩
abbrev main_v3562 : Ref sig .tc := ⟨.hbm, 3579, rfl⟩
abbrev main_v3563 : Ref sig .tc := ⟨.hbm, 3580, rfl⟩
abbrev main_v3564 : Ref sig .tc := ⟨.hbm, 3581, rfl⟩
abbrev main_v3565 : Ref sig .tc := ⟨.hbm, 3582, rfl⟩
abbrev main_v3566 : Ref sig .tc := ⟨.hbm, 3583, rfl⟩
abbrev main_v3567 : Ref sig .tc := ⟨.hbm, 3584, rfl⟩
abbrev main_v3568 : Ref sig .tc := ⟨.hbm, 3585, rfl⟩
abbrev main_v3569 : Ref sig .tc := ⟨.hbm, 3586, rfl⟩
abbrev main_v3570 : Ref sig .tc := ⟨.hbm, 3587, rfl⟩
abbrev main_v3571 : Ref sig .tc := ⟨.hbm, 3588, rfl⟩
abbrev main_v3572 : Ref sig .tc := ⟨.hbm, 3589, rfl⟩
abbrev main_v3573 : Ref sig .tc := ⟨.hbm, 3590, rfl⟩
abbrev main_v3574 : Ref sig .tc := ⟨.hbm, 3591, rfl⟩
abbrev main_v3575 : Ref sig .tc := ⟨.hbm, 3592, rfl⟩
abbrev main_v3576 : Ref sig .tc := ⟨.hbm, 3593, rfl⟩
abbrev main_v3577 : Ref sig .tc := ⟨.hbm, 3594, rfl⟩
abbrev main_v3578 : Ref sig .tc := ⟨.hbm, 3595, rfl⟩
abbrev main_v3579 : Ref sig .tc := ⟨.hbm, 3596, rfl⟩
abbrev main_v3580 : Ref sig .tc := ⟨.hbm, 3597, rfl⟩
abbrev main_v3581 : Ref sig .tc := ⟨.hbm, 3598, rfl⟩
abbrev main_v3582 : Ref sig .tc := ⟨.hbm, 3599, rfl⟩
abbrev main_v3583 : Ref sig .tc := ⟨.hbm, 3600, rfl⟩
abbrev main_v3584 : Ref sig .tc := ⟨.hbm, 3601, rfl⟩
abbrev main_v3585 : Ref sig .tc := ⟨.hbm, 3602, rfl⟩
abbrev main_v3586 : Ref sig .tc := ⟨.hbm, 3603, rfl⟩
abbrev main_v3587 : Ref sig .tc := ⟨.hbm, 3604, rfl⟩
abbrev main_v3588 : Ref sig .tc := ⟨.hbm, 3605, rfl⟩
abbrev main_v3589 : Ref sig .tc := ⟨.hbm, 3606, rfl⟩
abbrev main_v3590 : Ref sig .tc := ⟨.hbm, 3607, rfl⟩
abbrev main_v3591 : Ref sig .tc := ⟨.hbm, 3608, rfl⟩
abbrev main_v3592 : Ref sig .tc := ⟨.hbm, 3609, rfl⟩
abbrev main_v3593 : Ref sig .tc := ⟨.hbm, 3610, rfl⟩
abbrev main_v3594 : Ref sig .tc := ⟨.hbm, 3611, rfl⟩
abbrev main_v3595 : Ref sig .tc := ⟨.hbm, 3612, rfl⟩
abbrev main_v3596 : Ref sig .tc := ⟨.hbm, 3613, rfl⟩
abbrev main_v3597 : Ref sig .tc := ⟨.hbm, 3614, rfl⟩
abbrev main_v3598 : Ref sig .tc := ⟨.hbm, 3615, rfl⟩
abbrev main_v3599 : Ref sig .tc := ⟨.hbm, 3616, rfl⟩
abbrev main_v3600 : Ref sig .tc := ⟨.hbm, 3617, rfl⟩
abbrev main_v3601 : Ref sig .tc := ⟨.hbm, 3618, rfl⟩
abbrev main_v3602 : Ref sig .tc := ⟨.hbm, 3619, rfl⟩
abbrev main_v3603 : Ref sig .tc := ⟨.hbm, 3620, rfl⟩
abbrev main_v3604 : Ref sig .tc := ⟨.hbm, 3621, rfl⟩
abbrev main_v3605 : Ref sig .tc := ⟨.hbm, 3622, rfl⟩
abbrev main_v3606 : Ref sig .tc := ⟨.hbm, 3623, rfl⟩
abbrev main_v3607 : Ref sig .tc := ⟨.hbm, 3624, rfl⟩
abbrev main_v3608 : Ref sig .tc := ⟨.hbm, 3625, rfl⟩
abbrev main_v3609 : Ref sig .tc := ⟨.hbm, 3626, rfl⟩
abbrev main_v3610 : Ref sig .tc := ⟨.hbm, 3627, rfl⟩
abbrev main_v3611 : Ref sig .tc := ⟨.hbm, 3628, rfl⟩
abbrev main_v3612 : Ref sig .tc := ⟨.hbm, 3629, rfl⟩
abbrev main_v3613 : Ref sig .tc := ⟨.hbm, 3630, rfl⟩
abbrev main_v3614 : Ref sig .tc := ⟨.hbm, 3631, rfl⟩
abbrev main_v3615 : Ref sig .tc := ⟨.hbm, 3632, rfl⟩
abbrev main_v3616 : Ref sig .tc := ⟨.hbm, 3633, rfl⟩
abbrev main_v3617 : Ref sig .tc := ⟨.hbm, 3634, rfl⟩
abbrev main_v3618 : Ref sig .tc := ⟨.hbm, 3635, rfl⟩
abbrev main_v3619 : Ref sig .tc := ⟨.hbm, 3636, rfl⟩
abbrev main_v3620 : Ref sig .tc := ⟨.hbm, 3637, rfl⟩
abbrev main_v3621 : Ref sig .tc := ⟨.hbm, 3638, rfl⟩
abbrev main_v3622 : Ref sig .tc := ⟨.hbm, 3639, rfl⟩
abbrev main_v3623 : Ref sig .tc := ⟨.hbm, 3640, rfl⟩
abbrev main_v3624 : Ref sig .tc := ⟨.hbm, 3641, rfl⟩
abbrev main_v3625 : Ref sig .tc := ⟨.hbm, 3642, rfl⟩
abbrev main_v3626 : Ref sig .tc := ⟨.hbm, 3643, rfl⟩
abbrev main_v3627 : Ref sig .tc := ⟨.hbm, 3644, rfl⟩
abbrev main_v3628 : Ref sig .tc := ⟨.hbm, 3645, rfl⟩
abbrev main_v3629 : Ref sig .tc := ⟨.hbm, 3646, rfl⟩
abbrev main_v3630 : Ref sig .tc := ⟨.hbm, 3647, rfl⟩
abbrev main_v3631 : Ref sig .tc := ⟨.hbm, 3648, rfl⟩
abbrev main_v3632 : Ref sig .tc := ⟨.hbm, 3649, rfl⟩
abbrev main_v3633 : Ref sig .tc := ⟨.hbm, 3650, rfl⟩
abbrev main_v3634 : Ref sig .tc := ⟨.hbm, 3651, rfl⟩
abbrev main_v3635 : Ref sig .tc := ⟨.hbm, 3652, rfl⟩
abbrev main_v3636 : Ref sig .tc := ⟨.hbm, 3653, rfl⟩
abbrev main_v3637 : Ref sig .tc := ⟨.hbm, 3654, rfl⟩
abbrev main_v3638 : Ref sig .tc := ⟨.hbm, 3655, rfl⟩
abbrev main_v3639 : Ref sig .tc := ⟨.hbm, 3656, rfl⟩
abbrev main_v3640 : Ref sig .tc := ⟨.hbm, 3657, rfl⟩
abbrev main_v3641 : Ref sig .tc := ⟨.hbm, 3658, rfl⟩
abbrev main_v3642 : Ref sig .tc := ⟨.hbm, 3659, rfl⟩
abbrev main_v3643 : Ref sig .tc := ⟨.hbm, 3660, rfl⟩
abbrev main_v3644 : Ref sig .tc := ⟨.hbm, 3661, rfl⟩
abbrev main_v3645 : Ref sig .tc := ⟨.hbm, 3662, rfl⟩
abbrev main_v3646 : Ref sig .tc := ⟨.hbm, 3663, rfl⟩
abbrev main_v3647 : Ref sig .tc := ⟨.hbm, 3664, rfl⟩
abbrev main_v3648 : Ref sig .tc := ⟨.hbm, 3665, rfl⟩
abbrev main_v3649 : Ref sig .tc := ⟨.hbm, 3666, rfl⟩
abbrev main_v3650 : Ref sig .tc := ⟨.hbm, 3667, rfl⟩
abbrev main_v3651 : Ref sig .tc := ⟨.hbm, 3668, rfl⟩
abbrev main_v3652 : Ref sig .tc := ⟨.hbm, 3669, rfl⟩
abbrev main_v3653 : Ref sig .tc := ⟨.hbm, 3670, rfl⟩
abbrev main_v3654 : Ref sig .tc := ⟨.hbm, 3671, rfl⟩
abbrev main_v3655 : Ref sig .tc := ⟨.hbm, 3672, rfl⟩
abbrev main_v3656 : Ref sig .tc := ⟨.hbm, 3673, rfl⟩
abbrev main_v3657 : Ref sig .tc := ⟨.hbm, 3674, rfl⟩
abbrev main_v3658 : Ref sig .tc := ⟨.hbm, 3675, rfl⟩
abbrev main_v3659 : Ref sig .tc := ⟨.hbm, 3676, rfl⟩
abbrev main_v3660 : Ref sig .tc := ⟨.hbm, 3677, rfl⟩
abbrev main_v3661 : Ref sig .tc := ⟨.hbm, 3678, rfl⟩
abbrev main_v3662 : Ref sig .tc := ⟨.hbm, 3679, rfl⟩
abbrev main_v3663 : Ref sig .tc := ⟨.hbm, 3680, rfl⟩
abbrev main_v3664 : Ref sig .tc := ⟨.hbm, 3681, rfl⟩
abbrev main_v3665 : Ref sig .tc := ⟨.hbm, 3682, rfl⟩
abbrev main_v3666 : Ref sig .tc := ⟨.hbm, 3683, rfl⟩
abbrev main_v3667 : Ref sig .tc := ⟨.hbm, 3684, rfl⟩
abbrev main_v3668 : Ref sig .tc := ⟨.hbm, 3685, rfl⟩
abbrev main_v3669 : Ref sig .tc := ⟨.hbm, 3686, rfl⟩
abbrev main_v3670 : Ref sig .tc := ⟨.hbm, 3687, rfl⟩
abbrev main_v3671 : Ref sig .tc := ⟨.hbm, 3688, rfl⟩
abbrev main_v3672 : Ref sig .tc := ⟨.hbm, 3689, rfl⟩
abbrev main_v3673 : Ref sig .tc := ⟨.hbm, 3690, rfl⟩
abbrev main_v3674 : Ref sig .tc := ⟨.hbm, 3691, rfl⟩
abbrev main_v3675 : Ref sig .tc := ⟨.hbm, 3692, rfl⟩
abbrev main_v3676 : Ref sig .tc := ⟨.hbm, 3693, rfl⟩
abbrev main_v3677 : Ref sig .tc := ⟨.hbm, 3694, rfl⟩
abbrev main_v3678 : Ref sig .tc := ⟨.hbm, 3695, rfl⟩
abbrev main_v3679 : Ref sig .tc := ⟨.hbm, 3696, rfl⟩
abbrev main_v3680 : Ref sig .tc := ⟨.hbm, 3697, rfl⟩
abbrev main_v3681 : Ref sig .tc := ⟨.hbm, 3698, rfl⟩
abbrev main_v3682 : Ref sig .tc := ⟨.hbm, 3699, rfl⟩
abbrev main_v3683 : Ref sig .tc := ⟨.hbm, 3700, rfl⟩
abbrev main_v3684 : Ref sig .tc := ⟨.hbm, 3701, rfl⟩
abbrev main_v3685 : Ref sig .tc := ⟨.hbm, 3702, rfl⟩
abbrev main_v3686 : Ref sig .tc := ⟨.hbm, 3703, rfl⟩
abbrev main_v3687 : Ref sig .tc := ⟨.hbm, 3704, rfl⟩
abbrev main_v3688 : Ref sig .tc := ⟨.hbm, 3705, rfl⟩
abbrev main_v3689 : Ref sig .tc := ⟨.hbm, 3706, rfl⟩
abbrev main_v3690 : Ref sig .tc := ⟨.hbm, 3707, rfl⟩
abbrev main_v3691 : Ref sig .tc := ⟨.hbm, 3708, rfl⟩
abbrev main_v3692 : Ref sig .tc := ⟨.hbm, 3709, rfl⟩
abbrev main_v3693 : Ref sig .tc := ⟨.hbm, 3710, rfl⟩
abbrev main_v3694 : Ref sig .tc := ⟨.hbm, 3711, rfl⟩
abbrev main_v3695 : Ref sig .tc := ⟨.hbm, 3712, rfl⟩
abbrev main_v3696 : Ref sig .tc := ⟨.hbm, 3713, rfl⟩
abbrev main_v3697 : Ref sig .tc := ⟨.hbm, 3714, rfl⟩
abbrev main_v3698 : Ref sig .tc := ⟨.hbm, 3715, rfl⟩
abbrev main_v3699 : Ref sig .tc := ⟨.hbm, 3716, rfl⟩
abbrev main_v3700 : Ref sig .tc := ⟨.hbm, 3717, rfl⟩
abbrev main_v3701 : Ref sig .tc := ⟨.hbm, 3718, rfl⟩
abbrev main_v3702 : Ref sig .tc := ⟨.hbm, 3719, rfl⟩
abbrev main_v3703 : Ref sig .tc := ⟨.hbm, 3720, rfl⟩
abbrev main_v3704 : Ref sig .tc := ⟨.hbm, 3721, rfl⟩
abbrev main_v3705 : Ref sig .tc := ⟨.hbm, 3722, rfl⟩
abbrev main_v3706 : Ref sig .tc := ⟨.hbm, 3723, rfl⟩
abbrev main_v3707 : Ref sig .tc := ⟨.hbm, 3724, rfl⟩
abbrev main_v3708 : Ref sig .tc := ⟨.hbm, 3725, rfl⟩
abbrev main_v3709 : Ref sig .tc := ⟨.hbm, 3726, rfl⟩
abbrev main_v3710 : Ref sig .tc := ⟨.hbm, 3727, rfl⟩
abbrev main_v3711 : Ref sig .tc := ⟨.hbm, 3728, rfl⟩
abbrev main_v3712 : Ref sig .tc := ⟨.hbm, 3729, rfl⟩
abbrev main_v3713 : Ref sig .tc := ⟨.hbm, 3730, rfl⟩
abbrev main_v3714 : Ref sig .tc := ⟨.hbm, 3731, rfl⟩
abbrev main_v3715 : Ref sig .tc := ⟨.hbm, 3732, rfl⟩
abbrev main_v3716 : Ref sig .tc := ⟨.hbm, 3733, rfl⟩
abbrev main_v3717 : Ref sig .tc := ⟨.hbm, 3734, rfl⟩
abbrev main_v3718 : Ref sig .tc := ⟨.hbm, 3735, rfl⟩
abbrev main_v3719 : Ref sig .tc := ⟨.hbm, 3736, rfl⟩
abbrev main_v3720 : Ref sig .tc := ⟨.hbm, 3737, rfl⟩
abbrev main_v3721 : Ref sig .tc := ⟨.hbm, 3738, rfl⟩
abbrev main_v3722 : Ref sig .tc := ⟨.hbm, 3739, rfl⟩
abbrev main_v3723 : Ref sig .tc := ⟨.hbm, 3740, rfl⟩
abbrev main_v3724 : Ref sig .tc := ⟨.hbm, 3741, rfl⟩
abbrev main_v3725 : Ref sig .tc := ⟨.hbm, 3742, rfl⟩
abbrev main_v3726 : Ref sig .tc := ⟨.hbm, 3743, rfl⟩
abbrev main_v3727 : Ref sig .tc := ⟨.hbm, 3744, rfl⟩
abbrev main_v3728 : Ref sig .tc := ⟨.hbm, 3745, rfl⟩
abbrev main_v3729 : Ref sig .tc := ⟨.hbm, 3746, rfl⟩
abbrev main_v3730 : Ref sig .tc := ⟨.hbm, 3747, rfl⟩
abbrev main_v3731 : Ref sig .tc := ⟨.hbm, 3748, rfl⟩
abbrev main_v3732 : Ref sig .tc := ⟨.hbm, 3749, rfl⟩
abbrev main_v3733 : Ref sig .tc := ⟨.hbm, 3750, rfl⟩
abbrev main_v3734 : Ref sig .tc := ⟨.hbm, 3751, rfl⟩
abbrev main_v3735 : Ref sig .tc := ⟨.hbm, 3752, rfl⟩
abbrev main_v3736 : Ref sig .tc := ⟨.hbm, 3753, rfl⟩
abbrev main_v3737 : Ref sig .tc := ⟨.hbm, 3754, rfl⟩
abbrev main_v3738 : Ref sig .tc := ⟨.hbm, 3755, rfl⟩
abbrev main_v3739 : Ref sig .tc := ⟨.hbm, 3756, rfl⟩
abbrev main_v3740 : Ref sig .tc := ⟨.hbm, 3757, rfl⟩
abbrev main_v3741 : Ref sig .tc := ⟨.hbm, 3758, rfl⟩
abbrev main_v3742 : Ref sig .tc := ⟨.hbm, 3759, rfl⟩
abbrev main_v3743 : Ref sig .tc := ⟨.hbm, 3760, rfl⟩
abbrev main_v3744 : Ref sig .tc := ⟨.hbm, 3761, rfl⟩
abbrev main_v3745 : Ref sig .tc := ⟨.hbm, 3762, rfl⟩
abbrev main_v3746 : Ref sig .tc := ⟨.hbm, 3763, rfl⟩
abbrev main_v3747 : Ref sig .tc := ⟨.hbm, 3764, rfl⟩
abbrev main_v3748 : Ref sig .tc := ⟨.hbm, 3765, rfl⟩
abbrev main_v3749 : Ref sig .tc := ⟨.hbm, 3766, rfl⟩
abbrev main_v3750 : Ref sig .tc := ⟨.hbm, 3767, rfl⟩
abbrev main_v3751 : Ref sig .tc := ⟨.hbm, 3768, rfl⟩
abbrev main_v3752 : Ref sig .tc := ⟨.hbm, 3769, rfl⟩
abbrev main_v3753 : Ref sig .tc := ⟨.hbm, 3770, rfl⟩
abbrev main_v3754 : Ref sig .tc := ⟨.hbm, 3771, rfl⟩
abbrev main_v3755 : Ref sig .tc := ⟨.hbm, 3772, rfl⟩
abbrev main_v3756 : Ref sig .tc := ⟨.hbm, 3773, rfl⟩
abbrev main_v3757 : Ref sig .tc := ⟨.hbm, 3774, rfl⟩
abbrev main_v3758 : Ref sig .tc := ⟨.hbm, 3775, rfl⟩
abbrev main_v3759 : Ref sig .tc := ⟨.hbm, 3776, rfl⟩
abbrev main_v3760 : Ref sig .tc := ⟨.hbm, 3777, rfl⟩
abbrev main_v3761 : Ref sig .tc := ⟨.hbm, 3778, rfl⟩
abbrev main_v3762 : Ref sig .tc := ⟨.hbm, 3779, rfl⟩
abbrev main_v3763 : Ref sig .tc := ⟨.hbm, 3780, rfl⟩
abbrev main_v3764 : Ref sig .tc := ⟨.hbm, 3781, rfl⟩
abbrev main_v3765 : Ref sig .tc := ⟨.hbm, 3782, rfl⟩
abbrev main_v3766 : Ref sig .tc := ⟨.hbm, 3783, rfl⟩
abbrev main_v3767 : Ref sig .tc := ⟨.hbm, 3784, rfl⟩
abbrev main_v3768 : Ref sig .tc := ⟨.hbm, 3785, rfl⟩
abbrev main_v3769 : Ref sig .tc := ⟨.hbm, 3786, rfl⟩
abbrev main_v3770 : Ref sig .tc := ⟨.hbm, 3787, rfl⟩
abbrev main_v3771 : Ref sig .tc := ⟨.hbm, 3788, rfl⟩
abbrev main_v3772 : Ref sig .tc := ⟨.hbm, 3789, rfl⟩
abbrev main_v3773 : Ref sig .tc := ⟨.hbm, 3790, rfl⟩
abbrev main_v3774 : Ref sig .tc := ⟨.hbm, 3791, rfl⟩
abbrev main_v3775 : Ref sig .tc := ⟨.hbm, 3792, rfl⟩
abbrev main_v3776 : Ref sig .tc := ⟨.hbm, 3793, rfl⟩
abbrev main_v3777 : Ref sig .tc := ⟨.hbm, 3794, rfl⟩
abbrev main_v3778 : Ref sig .tc := ⟨.hbm, 3795, rfl⟩
abbrev main_v3779 : Ref sig .tc := ⟨.hbm, 3796, rfl⟩
abbrev main_v3780 : Ref sig .tc := ⟨.hbm, 3797, rfl⟩
abbrev main_v3781 : Ref sig .tc := ⟨.hbm, 3798, rfl⟩
abbrev main_v3782 : Ref sig .tc := ⟨.hbm, 3799, rfl⟩
abbrev main_v3783 : Ref sig .tc := ⟨.hbm, 3800, rfl⟩
abbrev main_v3784 : Ref sig .tc := ⟨.hbm, 3801, rfl⟩
abbrev main_v3785 : Ref sig .tc := ⟨.hbm, 3802, rfl⟩
abbrev main_v3786 : Ref sig .tc := ⟨.hbm, 3803, rfl⟩
abbrev main_v3787 : Ref sig .tc := ⟨.hbm, 3804, rfl⟩
abbrev main_v3788 : Ref sig .tc := ⟨.hbm, 3805, rfl⟩
abbrev main_v3789 : Ref sig .tc := ⟨.hbm, 3806, rfl⟩
abbrev main_v3790 : Ref sig .tc := ⟨.hbm, 3807, rfl⟩
abbrev main_v3791 : Ref sig .tc := ⟨.hbm, 3808, rfl⟩
abbrev main_v3792 : Ref sig .tc := ⟨.hbm, 3809, rfl⟩
abbrev main_v3793 : Ref sig .tc := ⟨.hbm, 3810, rfl⟩
abbrev main_v3794 : Ref sig .tc := ⟨.hbm, 3811, rfl⟩
abbrev main_v3795 : Ref sig .tc := ⟨.hbm, 3812, rfl⟩
abbrev main_v3796 : Ref sig .tc := ⟨.hbm, 3813, rfl⟩
abbrev main_v3797 : Ref sig .tc := ⟨.hbm, 3814, rfl⟩
abbrev main_v3798 : Ref sig .tc := ⟨.hbm, 3815, rfl⟩
abbrev main_v3799 : Ref sig .tc := ⟨.hbm, 3816, rfl⟩
abbrev main_v3800 : Ref sig .tc := ⟨.hbm, 3817, rfl⟩
abbrev main_v3801 : Ref sig .tc := ⟨.hbm, 3818, rfl⟩
abbrev main_v3802 : Ref sig .tc := ⟨.hbm, 3819, rfl⟩
abbrev main_v3803 : Ref sig .tc := ⟨.hbm, 3820, rfl⟩
abbrev main_v3804 : Ref sig .tc := ⟨.hbm, 3821, rfl⟩
abbrev main_v3805 : Ref sig .tc := ⟨.hbm, 3822, rfl⟩
abbrev main_v3806 : Ref sig .tc := ⟨.hbm, 3823, rfl⟩
abbrev main_v3807 : Ref sig .tc := ⟨.hbm, 3824, rfl⟩
abbrev main_v3808 : Ref sig .tc := ⟨.hbm, 3825, rfl⟩
abbrev main_v3809 : Ref sig .tc := ⟨.hbm, 3826, rfl⟩
abbrev main_v3810 : Ref sig .tc := ⟨.hbm, 3827, rfl⟩
abbrev main_v3811 : Ref sig .tc := ⟨.hbm, 3828, rfl⟩
abbrev main_v3812 : Ref sig .tc := ⟨.hbm, 3829, rfl⟩
abbrev main_v3813 : Ref sig .tc := ⟨.hbm, 3830, rfl⟩
abbrev main_v3814 : Ref sig .tc := ⟨.hbm, 3831, rfl⟩
abbrev main_v3815 : Ref sig .tc := ⟨.hbm, 3832, rfl⟩
abbrev main_v3816 : Ref sig .tc := ⟨.hbm, 3833, rfl⟩
abbrev main_v3817 : Ref sig .tc := ⟨.hbm, 3834, rfl⟩
abbrev main_v3818 : Ref sig .tc := ⟨.hbm, 3835, rfl⟩
abbrev main_v3819 : Ref sig .tc := ⟨.hbm, 3836, rfl⟩
abbrev main_v3820 : Ref sig .tc := ⟨.hbm, 3837, rfl⟩
abbrev main_v3821 : Ref sig .tc := ⟨.hbm, 3838, rfl⟩
abbrev main_v3822 : Ref sig .tc := ⟨.hbm, 3839, rfl⟩
abbrev main_v3823 : Ref sig .tc := ⟨.hbm, 3840, rfl⟩
abbrev main_v3824 : Ref sig .tc := ⟨.hbm, 3841, rfl⟩
abbrev main_v3825 : Ref sig .tc := ⟨.hbm, 3842, rfl⟩
abbrev main_v3826 : Ref sig .tc := ⟨.hbm, 3843, rfl⟩
abbrev main_v3827 : Ref sig .tc := ⟨.hbm, 3844, rfl⟩
abbrev main_v3828 : Ref sig .tc := ⟨.hbm, 3845, rfl⟩
abbrev main_v3829 : Ref sig .tc := ⟨.hbm, 3846, rfl⟩
abbrev main_v3830 : Ref sig .tc := ⟨.hbm, 3847, rfl⟩
abbrev main_v3831 : Ref sig .tc := ⟨.hbm, 3848, rfl⟩
abbrev main_v3832 : Ref sig .tc := ⟨.hbm, 3849, rfl⟩
abbrev main_v3833 : Ref sig .tc := ⟨.hbm, 3850, rfl⟩
abbrev main_v3834 : Ref sig .tc := ⟨.hbm, 3851, rfl⟩
abbrev main_v3835 : Ref sig .tc := ⟨.hbm, 3852, rfl⟩
abbrev main_v3836 : Ref sig .tc := ⟨.hbm, 3853, rfl⟩
abbrev main_v3837 : Ref sig .tc := ⟨.hbm, 3854, rfl⟩
abbrev main_v3838 : Ref sig .tc := ⟨.hbm, 3855, rfl⟩
abbrev main_v3839 : Ref sig .tc := ⟨.hbm, 3856, rfl⟩
abbrev main_v3840 : Ref sig .tc := ⟨.hbm, 3857, rfl⟩
abbrev main_v3841 : Ref sig .tc := ⟨.hbm, 3858, rfl⟩
abbrev main_v3842 : Ref sig .tc := ⟨.hbm, 3859, rfl⟩
abbrev main_v3843 : Ref sig .tc := ⟨.hbm, 3860, rfl⟩
abbrev main_v3844 : Ref sig .tc := ⟨.hbm, 3861, rfl⟩
abbrev main_v3845 : Ref sig .tc := ⟨.hbm, 3862, rfl⟩
abbrev main_v3846 : Ref sig .tc := ⟨.hbm, 3863, rfl⟩
abbrev main_v3847 : Ref sig .tc := ⟨.hbm, 3864, rfl⟩
abbrev main_v3848 : Ref sig .tc := ⟨.hbm, 3865, rfl⟩
abbrev main_v3849 : Ref sig .tc := ⟨.hbm, 3866, rfl⟩
abbrev main_v3850 : Ref sig .tc := ⟨.hbm, 3867, rfl⟩
abbrev main_v3851 : Ref sig .tc := ⟨.hbm, 3868, rfl⟩
abbrev main_v3852 : Ref sig .tc := ⟨.hbm, 3869, rfl⟩
abbrev main_v3853 : Ref sig .tc := ⟨.hbm, 3870, rfl⟩
abbrev main_v3854 : Ref sig .tc := ⟨.hbm, 3871, rfl⟩
abbrev main_v3855 : Ref sig .tc := ⟨.hbm, 3872, rfl⟩
abbrev main_v3856 : Ref sig .tc := ⟨.hbm, 3873, rfl⟩
abbrev main_v3857 : Ref sig .tc := ⟨.hbm, 3874, rfl⟩
abbrev main_v3858 : Ref sig .tc := ⟨.hbm, 3875, rfl⟩
abbrev main_v3859 : Ref sig .tc := ⟨.hbm, 3876, rfl⟩
abbrev main_v3860 : Ref sig .tc := ⟨.hbm, 3877, rfl⟩
abbrev main_v3861 : Ref sig .tc := ⟨.hbm, 3878, rfl⟩
abbrev main_v3862 : Ref sig .tc := ⟨.hbm, 3879, rfl⟩
abbrev main_v3863 : Ref sig .tc := ⟨.hbm, 3880, rfl⟩
abbrev main_v3864 : Ref sig .tc := ⟨.hbm, 3881, rfl⟩
abbrev main_v3865 : Ref sig .tc := ⟨.hbm, 3882, rfl⟩
abbrev main_v3866 : Ref sig .tc := ⟨.hbm, 3883, rfl⟩
abbrev main_v3867 : Ref sig .tc := ⟨.hbm, 3884, rfl⟩
abbrev main_v3868 : Ref sig .tc := ⟨.hbm, 3885, rfl⟩
abbrev main_v3869 : Ref sig .tc := ⟨.hbm, 3886, rfl⟩
abbrev main_v3870 : Ref sig .tc := ⟨.hbm, 3887, rfl⟩
abbrev main_v3871 : Ref sig .tc := ⟨.hbm, 3888, rfl⟩
abbrev main_v3872 : Ref sig .tc := ⟨.hbm, 3889, rfl⟩
abbrev main_v3873 : Ref sig .tc := ⟨.hbm, 3890, rfl⟩
abbrev main_v3874 : Ref sig .tc := ⟨.hbm, 3891, rfl⟩
abbrev main_v3875 : Ref sig .tc := ⟨.hbm, 3892, rfl⟩
abbrev main_v3876 : Ref sig .tc := ⟨.hbm, 3893, rfl⟩
abbrev main_v3877 : Ref sig .tc := ⟨.hbm, 3894, rfl⟩
abbrev main_v3878 : Ref sig .tc := ⟨.hbm, 3895, rfl⟩
abbrev main_v3879 : Ref sig .tc := ⟨.hbm, 3896, rfl⟩
abbrev main_v3880 : Ref sig .tc := ⟨.hbm, 3897, rfl⟩
abbrev main_v3881 : Ref sig .tc := ⟨.hbm, 3898, rfl⟩
abbrev main_v3882 : Ref sig .tc := ⟨.hbm, 3899, rfl⟩
abbrev main_v3883 : Ref sig .tc := ⟨.hbm, 3900, rfl⟩
abbrev main_v3884 : Ref sig .tc := ⟨.hbm, 3901, rfl⟩
abbrev main_v3885 : Ref sig .tc := ⟨.hbm, 3902, rfl⟩
abbrev main_v3886 : Ref sig .tc := ⟨.hbm, 3903, rfl⟩
abbrev main_v3887 : Ref sig .tc := ⟨.hbm, 3904, rfl⟩
abbrev main_v3888 : Ref sig .tc := ⟨.hbm, 3905, rfl⟩
abbrev main_v3889 : Ref sig .tc := ⟨.hbm, 3906, rfl⟩
abbrev main_v3890 : Ref sig .tc := ⟨.hbm, 3907, rfl⟩
abbrev main_v3891 : Ref sig .tc := ⟨.hbm, 3908, rfl⟩
abbrev main_v3892 : Ref sig .tc := ⟨.hbm, 3909, rfl⟩
abbrev main_v3893 : Ref sig .tc := ⟨.hbm, 3910, rfl⟩
abbrev main_v3894 : Ref sig .tc := ⟨.hbm, 3911, rfl⟩
abbrev main_v3895 : Ref sig .tc := ⟨.hbm, 3912, rfl⟩
abbrev main_v3896 : Ref sig .tc := ⟨.hbm, 3913, rfl⟩
abbrev main_v3897 : Ref sig .tc := ⟨.hbm, 3914, rfl⟩
abbrev main_v3898 : Ref sig .tc := ⟨.hbm, 3915, rfl⟩
abbrev main_v3899 : Ref sig .tc := ⟨.hbm, 3916, rfl⟩
abbrev main_v3900 : Ref sig .tc := ⟨.hbm, 3917, rfl⟩
abbrev main_v3901 : Ref sig .tc := ⟨.hbm, 3918, rfl⟩
abbrev main_v3902 : Ref sig .tc := ⟨.hbm, 3919, rfl⟩
abbrev main_v3903 : Ref sig .tc := ⟨.hbm, 3920, rfl⟩
abbrev main_v3904 : Ref sig .tc := ⟨.hbm, 3921, rfl⟩
abbrev main_v3905 : Ref sig .tc := ⟨.hbm, 3922, rfl⟩
abbrev main_v3906 : Ref sig .tc := ⟨.hbm, 3923, rfl⟩
abbrev main_v3907 : Ref sig .tc := ⟨.hbm, 3924, rfl⟩
abbrev main_v3908 : Ref sig .tc := ⟨.hbm, 3925, rfl⟩
abbrev main_v3909 : Ref sig .tc := ⟨.hbm, 3926, rfl⟩
abbrev main_v3910 : Ref sig .tc := ⟨.hbm, 3927, rfl⟩
abbrev main_v3911 : Ref sig .tc := ⟨.hbm, 3928, rfl⟩
abbrev main_v3912 : Ref sig .tc := ⟨.hbm, 3929, rfl⟩
abbrev main_v3913 : Ref sig .tc := ⟨.hbm, 3930, rfl⟩
abbrev main_v3914 : Ref sig .tc := ⟨.hbm, 3931, rfl⟩
abbrev main_v3915 : Ref sig .tc := ⟨.hbm, 3932, rfl⟩
abbrev main_v3916 : Ref sig .tc := ⟨.hbm, 3933, rfl⟩
abbrev main_v3917 : Ref sig .tc := ⟨.hbm, 3934, rfl⟩
abbrev main_v3918 : Ref sig .tc := ⟨.hbm, 3935, rfl⟩
abbrev main_v3919 : Ref sig .tc := ⟨.hbm, 3936, rfl⟩
abbrev main_v3920 : Ref sig .tc := ⟨.hbm, 3937, rfl⟩
abbrev main_v3921 : Ref sig .tc := ⟨.hbm, 3938, rfl⟩
abbrev main_v3922 : Ref sig .tc := ⟨.hbm, 3939, rfl⟩
abbrev main_v3923 : Ref sig .tc := ⟨.hbm, 3940, rfl⟩
abbrev main_v3924 : Ref sig .tc := ⟨.hbm, 3941, rfl⟩
abbrev main_v3925 : Ref sig .tc := ⟨.hbm, 3942, rfl⟩
abbrev main_v3926 : Ref sig .tc := ⟨.hbm, 3943, rfl⟩
abbrev main_v3927 : Ref sig .tc := ⟨.hbm, 3944, rfl⟩
abbrev main_v3928 : Ref sig .tc := ⟨.hbm, 3945, rfl⟩
abbrev main_v3929 : Ref sig .tc := ⟨.hbm, 3946, rfl⟩
abbrev main_v3930 : Ref sig .tc := ⟨.hbm, 3947, rfl⟩
abbrev main_v3931 : Ref sig .tc := ⟨.hbm, 3948, rfl⟩
abbrev main_v3932 : Ref sig .tc := ⟨.hbm, 3949, rfl⟩
abbrev main_v3933 : Ref sig .tc := ⟨.hbm, 3950, rfl⟩
abbrev main_v3934 : Ref sig .tc := ⟨.hbm, 3951, rfl⟩
abbrev main_v3935 : Ref sig .tc := ⟨.hbm, 3952, rfl⟩
abbrev main_v3936 : Ref sig .tc := ⟨.hbm, 3953, rfl⟩
abbrev main_v3937 : Ref sig .tc := ⟨.hbm, 3954, rfl⟩
abbrev main_v3938 : Ref sig .tc := ⟨.hbm, 3955, rfl⟩
abbrev main_v3939 : Ref sig .tc := ⟨.hbm, 3956, rfl⟩
abbrev main_v3940 : Ref sig .tc := ⟨.hbm, 3957, rfl⟩
abbrev main_v3941 : Ref sig .tc := ⟨.hbm, 3958, rfl⟩
abbrev main_v3942 : Ref sig .tc := ⟨.hbm, 3959, rfl⟩
abbrev main_v3943 : Ref sig .tc := ⟨.hbm, 3960, rfl⟩
abbrev main_v3944 : Ref sig .tc := ⟨.hbm, 3961, rfl⟩
abbrev main_v3945 : Ref sig .tc := ⟨.hbm, 3962, rfl⟩
abbrev main_v3946 : Ref sig .tc := ⟨.hbm, 3963, rfl⟩
abbrev main_v3947 : Ref sig .tc := ⟨.hbm, 3964, rfl⟩
abbrev main_v3948 : Ref sig .tc := ⟨.hbm, 3965, rfl⟩
abbrev main_v3949 : Ref sig .tc := ⟨.hbm, 3966, rfl⟩
abbrev main_v3950 : Ref sig .tc := ⟨.hbm, 3967, rfl⟩
abbrev main_v3951 : Ref sig .tc := ⟨.hbm, 3968, rfl⟩
abbrev main_v3952 : Ref sig .tc := ⟨.hbm, 3969, rfl⟩
abbrev main_v3953 : Ref sig .tc := ⟨.hbm, 3970, rfl⟩
abbrev main_v3954 : Ref sig .tc := ⟨.hbm, 3971, rfl⟩
abbrev main_v3955 : Ref sig .tc := ⟨.hbm, 3972, rfl⟩
abbrev main_v3956 : Ref sig .tc := ⟨.hbm, 3973, rfl⟩
abbrev main_v3957 : Ref sig .tc := ⟨.hbm, 3974, rfl⟩
abbrev main_v3958 : Ref sig .tc := ⟨.hbm, 3975, rfl⟩
abbrev main_v3959 : Ref sig .tc := ⟨.hbm, 3976, rfl⟩
abbrev main_v3960 : Ref sig .tc := ⟨.hbm, 3977, rfl⟩
abbrev main_v3961 : Ref sig .tc := ⟨.hbm, 3978, rfl⟩
abbrev main_v3962 : Ref sig .tc := ⟨.hbm, 3979, rfl⟩
abbrev main_v3963 : Ref sig .tc := ⟨.hbm, 3980, rfl⟩
abbrev main_v3964 : Ref sig .tc := ⟨.hbm, 3981, rfl⟩
abbrev main_v3965 : Ref sig .tc := ⟨.hbm, 3982, rfl⟩
abbrev main_v3966 : Ref sig .tc := ⟨.hbm, 3983, rfl⟩
abbrev main_v3967 : Ref sig .tc := ⟨.hbm, 3984, rfl⟩
abbrev main_v3968 : Ref sig .tc := ⟨.hbm, 3985, rfl⟩
abbrev main_v3969 : Ref sig .tc := ⟨.hbm, 3986, rfl⟩
abbrev main_v3970 : Ref sig .tc := ⟨.hbm, 3987, rfl⟩
abbrev main_v3971 : Ref sig .tc := ⟨.hbm, 3988, rfl⟩
abbrev main_v3972 : Ref sig .tc := ⟨.hbm, 3989, rfl⟩
abbrev main_v3973 : Ref sig .tc := ⟨.hbm, 3990, rfl⟩
abbrev main_v3974 : Ref sig .tc := ⟨.hbm, 3991, rfl⟩
abbrev main_v3975 : Ref sig .tc := ⟨.hbm, 3992, rfl⟩
abbrev main_v3976 : Ref sig .tc := ⟨.hbm, 3993, rfl⟩
abbrev main_v3977 : Ref sig .tc := ⟨.hbm, 3994, rfl⟩
abbrev main_v3978 : Ref sig .tc := ⟨.hbm, 3995, rfl⟩
abbrev main_v3979 : Ref sig .tc := ⟨.hbm, 3996, rfl⟩
abbrev main_v3980 : Ref sig .tc := ⟨.hbm, 3997, rfl⟩
abbrev main_v3981 : Ref sig .tc := ⟨.hbm, 3998, rfl⟩
abbrev main_v3982 : Ref sig .tc := ⟨.hbm, 3999, rfl⟩
abbrev main_v3983 : Ref sig .tc := ⟨.hbm, 4000, rfl⟩
abbrev main_v3984 : Ref sig .tc := ⟨.hbm, 4001, rfl⟩
abbrev main_v3985 : Ref sig .tc := ⟨.hbm, 4002, rfl⟩
abbrev main_v3986 : Ref sig .tc := ⟨.hbm, 4003, rfl⟩
abbrev main_v3987 : Ref sig .tc := ⟨.hbm, 4004, rfl⟩
abbrev main_v3988 : Ref sig .tc := ⟨.hbm, 4005, rfl⟩
abbrev main_v3989 : Ref sig .tc := ⟨.hbm, 4006, rfl⟩
abbrev main_v3990 : Ref sig .tc := ⟨.hbm, 4007, rfl⟩
abbrev main_v3991 : Ref sig .tc := ⟨.hbm, 4008, rfl⟩
abbrev main_v3992 : Ref sig .tc := ⟨.hbm, 4009, rfl⟩
abbrev main_v3993 : Ref sig .tc := ⟨.hbm, 4010, rfl⟩
abbrev main_v3994 : Ref sig .tc := ⟨.hbm, 4011, rfl⟩
abbrev main_v3995 : Ref sig .tc := ⟨.hbm, 4012, rfl⟩
abbrev main_v3996 : Ref sig .tc := ⟨.hbm, 4013, rfl⟩
abbrev main_v3997 : Ref sig .tc := ⟨.hbm, 4014, rfl⟩
abbrev main_v3998 : Ref sig .tc := ⟨.hbm, 4015, rfl⟩
abbrev main_v3999 : Ref sig .tc := ⟨.hbm, 4016, rfl⟩
abbrev main_v4000 : Ref sig .tc := ⟨.hbm, 4017, rfl⟩
abbrev main_v4001 : Ref sig .tc := ⟨.hbm, 4018, rfl⟩
abbrev main_v4002 : Ref sig .tc := ⟨.hbm, 4019, rfl⟩
abbrev main_v4003 : Ref sig .tc := ⟨.hbm, 4020, rfl⟩
abbrev main_v4004 : Ref sig .tc := ⟨.hbm, 4021, rfl⟩
abbrev main_v4005 : Ref sig .tc := ⟨.hbm, 4022, rfl⟩
abbrev main_v4006 : Ref sig .tc := ⟨.hbm, 4023, rfl⟩
abbrev main_v4007 : Ref sig .tc := ⟨.hbm, 4024, rfl⟩
abbrev main_v4008 : Ref sig .tc := ⟨.hbm, 4025, rfl⟩
abbrev main_v4009 : Ref sig .tc := ⟨.hbm, 4026, rfl⟩
abbrev main_v4010 : Ref sig .tc := ⟨.hbm, 4027, rfl⟩
abbrev main_v4011 : Ref sig .tc := ⟨.hbm, 4028, rfl⟩
abbrev main_v4012 : Ref sig .tc := ⟨.hbm, 4029, rfl⟩
abbrev main_v4013 : Ref sig .tc := ⟨.hbm, 4030, rfl⟩
abbrev main_v4014 : Ref sig .tc := ⟨.hbm, 4031, rfl⟩
abbrev main_v4015 : Ref sig .tc := ⟨.hbm, 4032, rfl⟩
abbrev main_v4016 : Ref sig .tc := ⟨.hbm, 4033, rfl⟩
abbrev main_v4017 : Ref sig .tc := ⟨.hbm, 4034, rfl⟩
abbrev main_v4018 : Ref sig .tc := ⟨.hbm, 4035, rfl⟩
abbrev main_v4019 : Ref sig .tc := ⟨.hbm, 4036, rfl⟩
abbrev main_v4020 : Ref sig .tc := ⟨.hbm, 4037, rfl⟩
abbrev main_v4021 : Ref sig .tc := ⟨.hbm, 4038, rfl⟩
abbrev main_v4022 : Ref sig .tc := ⟨.hbm, 4039, rfl⟩
abbrev main_v4023 : Ref sig .tc := ⟨.hbm, 4040, rfl⟩
abbrev main_v4024 : Ref sig .tc := ⟨.hbm, 4041, rfl⟩
abbrev main_v4025 : Ref sig .tc := ⟨.hbm, 4042, rfl⟩
abbrev main_v4026 : Ref sig .tc := ⟨.hbm, 4043, rfl⟩
abbrev main_v4027 : Ref sig .tc := ⟨.hbm, 4044, rfl⟩
abbrev main_v4028 : Ref sig .tc := ⟨.hbm, 4045, rfl⟩
abbrev main_v4029 : Ref sig .tc := ⟨.hbm, 4046, rfl⟩
abbrev main_v4030 : Ref sig .tc := ⟨.hbm, 4047, rfl⟩
abbrev main_v4031 : Ref sig .tc := ⟨.hbm, 4048, rfl⟩
abbrev main_v4032 : Ref sig .tc := ⟨.hbm, 4049, rfl⟩
abbrev main_v4033 : Ref sig .tc := ⟨.hbm, 4050, rfl⟩
abbrev main_v4034 : Ref sig .tc := ⟨.hbm, 4051, rfl⟩
abbrev main_v4035 : Ref sig .tc := ⟨.hbm, 4052, rfl⟩
abbrev main_v4036 : Ref sig .tc := ⟨.hbm, 4053, rfl⟩
abbrev main_v4037 : Ref sig .tc := ⟨.hbm, 4054, rfl⟩
abbrev main_v4038 : Ref sig .tc := ⟨.hbm, 4055, rfl⟩
abbrev main_v4039 : Ref sig .tc := ⟨.hbm, 4056, rfl⟩
abbrev main_v4040 : Ref sig .tc := ⟨.hbm, 4057, rfl⟩
abbrev main_v4041 : Ref sig .tc := ⟨.hbm, 4058, rfl⟩
abbrev main_v4042 : Ref sig .tc := ⟨.hbm, 4059, rfl⟩
abbrev main_v4043 : Ref sig .tc := ⟨.hbm, 4060, rfl⟩
abbrev main_v4044 : Ref sig .tc := ⟨.hbm, 4061, rfl⟩
abbrev main_v4045 : Ref sig .tc := ⟨.hbm, 4062, rfl⟩
abbrev main_v4046 : Ref sig .tc := ⟨.hbm, 4063, rfl⟩
abbrev main_v4047 : Ref sig .tc := ⟨.hbm, 4064, rfl⟩
abbrev main_v4048 : Ref sig .tc := ⟨.hbm, 4065, rfl⟩
abbrev main_v4049 : Ref sig .tc := ⟨.hbm, 4066, rfl⟩
abbrev main_v4050 : Ref sig .tc := ⟨.hbm, 4067, rfl⟩
abbrev main_v4051 : Ref sig .tc := ⟨.hbm, 4068, rfl⟩
abbrev main_v4052 : Ref sig .tc := ⟨.hbm, 4069, rfl⟩
abbrev main_v4053 : Ref sig .tc := ⟨.hbm, 4070, rfl⟩
abbrev main_v4054 : Ref sig .tc := ⟨.hbm, 4071, rfl⟩
abbrev main_v4055 : Ref sig .tc := ⟨.hbm, 4072, rfl⟩
abbrev main_v4056 : Ref sig .tc := ⟨.hbm, 4073, rfl⟩
abbrev main_v4057 : Ref sig .tc := ⟨.hbm, 4074, rfl⟩
abbrev main_v4058 : Ref sig .tc := ⟨.hbm, 4075, rfl⟩
abbrev main_v4059 : Ref sig .tc := ⟨.hbm, 4076, rfl⟩
abbrev main_v4060 : Ref sig .tc := ⟨.hbm, 4077, rfl⟩
abbrev main_v4061 : Ref sig .tc := ⟨.hbm, 4078, rfl⟩
abbrev main_v4062 : Ref sig .tc := ⟨.hbm, 4079, rfl⟩
abbrev main_v4063 : Ref sig .tc := ⟨.hbm, 4080, rfl⟩
abbrev main_v4064 : Ref sig .tc := ⟨.hbm, 4081, rfl⟩
abbrev main_v4065 : Ref sig .tc := ⟨.hbm, 4082, rfl⟩
abbrev main_v4066 : Ref sig .tc := ⟨.hbm, 4083, rfl⟩
abbrev main_v4067 : Ref sig .tc := ⟨.hbm, 4084, rfl⟩
abbrev main_v4068 : Ref sig .tc := ⟨.hbm, 4085, rfl⟩
abbrev main_v4069 : Ref sig .tc := ⟨.hbm, 4086, rfl⟩
abbrev main_v4070 : Ref sig .tc := ⟨.hbm, 4087, rfl⟩
abbrev main_v4071 : Ref sig .tc := ⟨.hbm, 4088, rfl⟩
abbrev main_v4072 : Ref sig .tc := ⟨.hbm, 4089, rfl⟩
abbrev main_v4073 : Ref sig .tc := ⟨.hbm, 4090, rfl⟩
abbrev main_v4074 : Ref sig .tc := ⟨.hbm, 4091, rfl⟩
abbrev main_v4075 : Ref sig .tc := ⟨.hbm, 4092, rfl⟩
abbrev main_v4076 : Ref sig .tc := ⟨.hbm, 4093, rfl⟩
abbrev main_v4077 : Ref sig .tc := ⟨.hbm, 4094, rfl⟩
abbrev main_v4078 : Ref sig .tc := ⟨.hbm, 4095, rfl⟩
abbrev main_v4079 : Ref sig .tc := ⟨.hbm, 4096, rfl⟩
abbrev main_v4080 : Ref sig .tc := ⟨.hbm, 4097, rfl⟩
abbrev main_v4081 : Ref sig .tc := ⟨.hbm, 4098, rfl⟩
abbrev main_v4082 : Ref sig .tc := ⟨.hbm, 4099, rfl⟩
abbrev main_v4083 : Ref sig .tc := ⟨.hbm, 4100, rfl⟩
abbrev main_v4084 : Ref sig .tc := ⟨.hbm, 4101, rfl⟩
abbrev main_v4085 : Ref sig .tc := ⟨.hbm, 4102, rfl⟩
abbrev main_v4086 : Ref sig .tc := ⟨.hbm, 4103, rfl⟩
abbrev main_v4087 : Ref sig .tc := ⟨.hbm, 4104, rfl⟩
abbrev main_v4088 : Ref sig .tc := ⟨.hbm, 4105, rfl⟩
abbrev main_v4089 : Ref sig .tc := ⟨.hbm, 4106, rfl⟩
abbrev main_v4090 : Ref sig .tc := ⟨.hbm, 4107, rfl⟩
abbrev main_v4091 : Ref sig .tc := ⟨.hbm, 4108, rfl⟩
abbrev main_v4092 : Ref sig .tc := ⟨.hbm, 4109, rfl⟩
abbrev main_v4093 : Ref sig .tc := ⟨.hbm, 4110, rfl⟩
abbrev main_v4094 : Ref sig .tc := ⟨.hbm, 4111, rfl⟩
abbrev main_v4095 : Ref sig .tc := ⟨.hbm, 4112, rfl⟩
abbrev main_v4096 : Ref sig .tc := ⟨.hbm, 4113, rfl⟩
abbrev main_v4097 : Ref sig .tc := ⟨.hbm, 4114, rfl⟩
abbrev main_v4098 : Ref sig .tc := ⟨.hbm, 4115, rfl⟩
abbrev main_v4099 : Ref sig .tc := ⟨.hbm, 4116, rfl⟩
abbrev main_v4100 : Ref sig .tc := ⟨.hbm, 4117, rfl⟩
abbrev main_v4101 : Ref sig .tc := ⟨.hbm, 4118, rfl⟩
abbrev main_v4102 : Ref sig .tc := ⟨.hbm, 4119, rfl⟩
abbrev main_v4103 : Ref sig .tc := ⟨.hbm, 4120, rfl⟩
abbrev main_v4104 : Ref sig .tc := ⟨.hbm, 4121, rfl⟩
abbrev main_v4105 : Ref sig .tc := ⟨.hbm, 4122, rfl⟩
abbrev main_v4106 : Ref sig .tc := ⟨.hbm, 4123, rfl⟩
abbrev main_v4107 : Ref sig .tc := ⟨.hbm, 4124, rfl⟩
abbrev main_v4108 : Ref sig .tc := ⟨.hbm, 4125, rfl⟩
abbrev main_v4109 : Ref sig .tc := ⟨.hbm, 4126, rfl⟩
abbrev main_v4110 : Ref sig .tc := ⟨.hbm, 4127, rfl⟩
abbrev main_v4111 : Ref sig .tc := ⟨.hbm, 4128, rfl⟩
abbrev main_v4112 : Ref sig .tc := ⟨.hbm, 4129, rfl⟩
abbrev main_v4113 : Ref sig .tc := ⟨.hbm, 4130, rfl⟩
abbrev main_v4114 : Ref sig .tc := ⟨.hbm, 4131, rfl⟩
abbrev main_v4115 : Ref sig .tc := ⟨.hbm, 4132, rfl⟩
abbrev main_v4116 : Ref sig .tc := ⟨.hbm, 4133, rfl⟩
abbrev main_v4117 : Ref sig .tc := ⟨.hbm, 4134, rfl⟩
abbrev main_v4118 : Ref sig .tc := ⟨.hbm, 4135, rfl⟩
abbrev main_v4119 : Ref sig .tc := ⟨.hbm, 4136, rfl⟩
abbrev main_v4120 : Ref sig .tc := ⟨.hbm, 4137, rfl⟩
abbrev main_v4121 : Ref sig .tc := ⟨.hbm, 4138, rfl⟩
abbrev main_v4122 : Ref sig .tc := ⟨.hbm, 4139, rfl⟩
abbrev main_v4123 : Ref sig .tc := ⟨.hbm, 4140, rfl⟩
abbrev main_v4124 : Ref sig .tc := ⟨.hbm, 4141, rfl⟩
abbrev main_v4125 : Ref sig .tc := ⟨.hbm, 4142, rfl⟩
abbrev main_v4126 : Ref sig .tc := ⟨.hbm, 4143, rfl⟩
abbrev main_v4127 : Ref sig .tc := ⟨.hbm, 4144, rfl⟩
abbrev main_v4128 : Ref sig .tc := ⟨.hbm, 4145, rfl⟩
abbrev main_v4129 : Ref sig .tc := ⟨.hbm, 4146, rfl⟩
abbrev main_v4130 : Ref sig .tc := ⟨.hbm, 4147, rfl⟩
abbrev main_v4131 : Ref sig .tc := ⟨.hbm, 4148, rfl⟩
abbrev main_v4132 : Ref sig .tc := ⟨.hbm, 4149, rfl⟩
abbrev main_v4133 : Ref sig .tc := ⟨.hbm, 4150, rfl⟩
abbrev main_v4134 : Ref sig .tc := ⟨.hbm, 4151, rfl⟩
abbrev main_v4135 : Ref sig .tc := ⟨.hbm, 4152, rfl⟩
abbrev main_v4136 : Ref sig .tc := ⟨.hbm, 4153, rfl⟩
abbrev main_v4137 : Ref sig .tc := ⟨.hbm, 4154, rfl⟩
abbrev main_v4138 : Ref sig .tc := ⟨.hbm, 4155, rfl⟩
abbrev main_v4139 : Ref sig .tc := ⟨.hbm, 4156, rfl⟩
abbrev main_v4140 : Ref sig .tc := ⟨.hbm, 4157, rfl⟩
abbrev main_v4141 : Ref sig .tc := ⟨.hbm, 4158, rfl⟩
abbrev main_v4142 : Ref sig .tc := ⟨.hbm, 4159, rfl⟩
abbrev main_v4143 : Ref sig .tc := ⟨.hbm, 4160, rfl⟩
abbrev main_v4144 : Ref sig .tc := ⟨.hbm, 4161, rfl⟩
abbrev main_v4145 : Ref sig .tc := ⟨.hbm, 4162, rfl⟩
abbrev main_v4146 : Ref sig .tc := ⟨.hbm, 4163, rfl⟩
abbrev main_v4147 : Ref sig .tc := ⟨.hbm, 4164, rfl⟩
abbrev main_v4148 : Ref sig .tc := ⟨.hbm, 4165, rfl⟩
abbrev main_v4149 : Ref sig .tc := ⟨.hbm, 4166, rfl⟩
abbrev main_v4150 : Ref sig .tc := ⟨.hbm, 4167, rfl⟩
abbrev main_v4151 : Ref sig .tc := ⟨.hbm, 4168, rfl⟩
abbrev main_v4152 : Ref sig .tc := ⟨.hbm, 4169, rfl⟩
abbrev main_v4153 : Ref sig .tc := ⟨.hbm, 4170, rfl⟩
abbrev main_v4154 : Ref sig .tc := ⟨.hbm, 4171, rfl⟩
abbrev main_v4155 : Ref sig .tc := ⟨.hbm, 4172, rfl⟩
abbrev main_v4156 : Ref sig .tc := ⟨.hbm, 4173, rfl⟩
abbrev main_v4157 : Ref sig .tc := ⟨.hbm, 4174, rfl⟩
abbrev main_v4158 : Ref sig .tc := ⟨.hbm, 4175, rfl⟩
abbrev main_v4159 : Ref sig .tc := ⟨.hbm, 4176, rfl⟩
abbrev main_v4160 : Ref sig .tc := ⟨.hbm, 4177, rfl⟩
abbrev main_v4161 : Ref sig .tc := ⟨.hbm, 4178, rfl⟩
abbrev main_v4162 : Ref sig .tc := ⟨.hbm, 4179, rfl⟩
abbrev main_v4163 : Ref sig .tc := ⟨.hbm, 4180, rfl⟩
abbrev main_v4164 : Ref sig .tc := ⟨.hbm, 4181, rfl⟩

abbrev nD : Nat := 1
abbrev τ : Topo := Topo.v7x

variable {F : FTy → Type} [FloatOps F]

class Facts₀ : Prop where
  slices_S16384x64_S16384x1_0_0 : S16384x64.Slices ![0, 0] S16384x1
  shapeCasts_S16384x1_S16384 : S16384x1.ShapeCasts S16384
  slices_S16384x64_S16384x1_0_1 : S16384x64.Slices ![0, 1] S16384x1
  slices_S16384x64_S16384x1_0_2 : S16384x64.Slices ![0, 2] S16384x1
  slices_S16384x64_S16384x1_0_3 : S16384x64.Slices ![0, 3] S16384x1
  slices_S16384x64_S16384x1_0_4 : S16384x64.Slices ![0, 4] S16384x1
  slices_S16384x64_S16384x1_0_5 : S16384x64.Slices ![0, 5] S16384x1
  slices_S16384x64_S16384x1_0_6 : S16384x64.Slices ![0, 6] S16384x1
  slices_S16384x64_S16384x1_0_7 : S16384x64.Slices ![0, 7] S16384x1
  slices_S16384x64_S16384x1_0_8 : S16384x64.Slices ![0, 8] S16384x1
  slices_S16384x64_S16384x1_0_9 : S16384x64.Slices ![0, 9] S16384x1
  slices_S16384x64_S16384x1_0_10 : S16384x64.Slices ![0, 10] S16384x1
  slices_S16384x64_S16384x1_0_11 : S16384x64.Slices ![0, 11] S16384x1
  slices_S16384x64_S16384x1_0_12 : S16384x64.Slices ![0, 12] S16384x1
  slices_S16384x64_S16384x1_0_13 : S16384x64.Slices ![0, 13] S16384x1
  slices_S16384x64_S16384x1_0_14 : S16384x64.Slices ![0, 14] S16384x1
  slices_S16384x64_S16384x1_0_15 : S16384x64.Slices ![0, 15] S16384x1
  slices_S16384x64_S16384x1_0_16 : S16384x64.Slices ![0, 16] S16384x1
  slices_S16384x64_S16384x1_0_17 : S16384x64.Slices ![0, 17] S16384x1
  slices_S16384x64_S16384x1_0_18 : S16384x64.Slices ![0, 18] S16384x1
  slices_S16384x64_S16384x1_0_19 : S16384x64.Slices ![0, 19] S16384x1
  slices_S16384x64_S16384x1_0_20 : S16384x64.Slices ![0, 20] S16384x1
  slices_S16384x64_S16384x1_0_21 : S16384x64.Slices ![0, 21] S16384x1
  slices_S16384x64_S16384x1_0_22 : S16384x64.Slices ![0, 22] S16384x1
  slices_S16384x64_S16384x1_0_23 : S16384x64.Slices ![0, 23] S16384x1
  slices_S16384x64_S16384x1_0_24 : S16384x64.Slices ![0, 24] S16384x1
  slices_S16384x64_S16384x1_0_25 : S16384x64.Slices ![0, 25] S16384x1
  slices_S16384x64_S16384x1_0_26 : S16384x64.Slices ![0, 26] S16384x1
  slices_S16384x64_S16384x1_0_27 : S16384x64.Slices ![0, 27] S16384x1
  slices_S16384x64_S16384x1_0_28 : S16384x64.Slices ![0, 28] S16384x1
  slices_S16384x64_S16384x1_0_29 : S16384x64.Slices ![0, 29] S16384x1
  slices_S16384x64_S16384x1_0_30 : S16384x64.Slices ![0, 30] S16384x1
  slices_S16384x64_S16384x1_0_31 : S16384x64.Slices ![0, 31] S16384x1
  slices_S16384x64_S16384x1_0_32 : S16384x64.Slices ![0, 32] S16384x1
  slices_S16384x64_S16384x1_0_33 : S16384x64.Slices ![0, 33] S16384x1
  slices_S16384x64_S16384x1_0_34 : S16384x64.Slices ![0, 34] S16384x1
  slices_S16384x64_S16384x1_0_35 : S16384x64.Slices ![0, 35] S16384x1
  slices_S16384x64_S16384x1_0_36 : S16384x64.Slices ![0, 36] S16384x1
  slices_S16384x64_S16384x1_0_37 : S16384x64.Slices ![0, 37] S16384x1
  slices_S16384x64_S16384x1_0_38 : S16384x64.Slices ![0, 38] S16384x1
  slices_S16384x64_S16384x1_0_39 : S16384x64.Slices ![0, 39] S16384x1
  slices_S16384x64_S16384x1_0_40 : S16384x64.Slices ![0, 40] S16384x1
  slices_S16384x64_S16384x1_0_41 : S16384x64.Slices ![0, 41] S16384x1
  slices_S16384x64_S16384x1_0_42 : S16384x64.Slices ![0, 42] S16384x1
  slices_S16384x64_S16384x1_0_43 : S16384x64.Slices ![0, 43] S16384x1
  slices_S16384x64_S16384x1_0_44 : S16384x64.Slices ![0, 44] S16384x1
  slices_S16384x64_S16384x1_0_45 : S16384x64.Slices ![0, 45] S16384x1
  slices_S16384x64_S16384x1_0_46 : S16384x64.Slices ![0, 46] S16384x1
  slices_S16384x64_S16384x1_0_47 : S16384x64.Slices ![0, 47] S16384x1
  slices_S16384x64_S16384x1_0_48 : S16384x64.Slices ![0, 48] S16384x1
  slices_S16384x64_S16384x1_0_49 : S16384x64.Slices ![0, 49] S16384x1
  slices_S16384x64_S16384x1_0_50 : S16384x64.Slices ![0, 50] S16384x1
  slices_S16384x64_S16384x1_0_51 : S16384x64.Slices ![0, 51] S16384x1
  slices_S16384x64_S16384x1_0_52 : S16384x64.Slices ![0, 52] S16384x1
  slices_S16384x64_S16384x1_0_53 : S16384x64.Slices ![0, 53] S16384x1
  slices_S16384x64_S16384x1_0_54 : S16384x64.Slices ![0, 54] S16384x1
  slices_S16384x64_S16384x1_0_55 : S16384x64.Slices ![0, 55] S16384x1
  slices_S16384x64_S16384x1_0_56 : S16384x64.Slices ![0, 56] S16384x1
  slices_S16384x64_S16384x1_0_57 : S16384x64.Slices ![0, 57] S16384x1
  slices_S16384x64_S16384x1_0_58 : S16384x64.Slices ![0, 58] S16384x1
  slices_S16384x64_S16384x1_0_59 : S16384x64.Slices ![0, 59] S16384x1
  slices_S16384x64_S16384x1_0_60 : S16384x64.Slices ![0, 60] S16384x1
  slices_S16384x64_S16384x1_0_61 : S16384x64.Slices ![0, 61] S16384x1
  slices_S16384x64_S16384x1_0_62 : S16384x64.Slices ![0, 62] S16384x1
  slices_S16384x64_S16384x1_0_63 : S16384x64.Slices ![0, 63] S16384x1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x1_S16384x1_S16384x1_S16384x1_S16384x1_S16384x1_S16384x1_S16384x1_S16384x1_S16384x1_S16384x1_S16384x1_S16384x1_S16384x1_S16384x16_d1 : Shape.Concatenates [S16384x1, S16384x1, S16384x1, S16384x1, S16384x1, S16384x1, S16384x1, S16384x1, S16384x1, S16384x1, S16384x1, S16384x1, S16384x1, S16384x1, S16384x1, S16384x1] S16384x16 1
  concatenates_S16384x16_S16384x16_S16384x16_S16384x16_S16384x64_d1 : Shape.Concatenates [S16384x16, S16384x16, S16384x16, S16384x16] S16384x64 1

variable [Facts₀]

class Facts : Prop extends Facts₀ where

variable [Facts]
-- ==== Proof.KernelValue.lean ====
/- The kernel's result array, from blocks to the array. The one pipelined call runs over 32 grid
   points; at point t the input window holds rows 512·t … 512·t+511 of the [16384,64] argument and the output window
   writes rows 512·t … 512·t+511 of the result. The body's value on a block is carried as ONE opaque function of the
   block (the frame module's `out0_1`), never opened: the result array is that function applied block by block
   (`outArr`). Written here: a block of an array (`blk`), the array assembled from a block function (`arrOf`, `arrOf_at`),
   the printed index maps over the grid (`idx_facts`), the input block as rows of the argument (`read_blk0`, `iblk_eq`),
   what a point writes back as a block of the assembled array (`cut_eq_read`, `flushed_eq`), the cover of the array by the
   32 output blocks (`mem_blk1`, `cover1`), the array after the run (`final`) and the run re-posted (`run`). -/
import proofs.«146075_j27728308863612_2_alg».proof.Proof.KernelIdealFrame
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.TcCoe Idealize.SL.Sem
open Idealize.ShloMosaic.Pipeline (Dat)

-- the body's block function is one opaque function of the block throughout this module
attribute [local irreducible] Cert.KernelIdeal.GenP.out0_1

/-! ## Blocks of an array, and an array assembled from a block function -/

/-- rows 512·t … 512·t+511 of an [16384,64] array -/
def blk (X : Vec Ideal S16384x64 .f32) (t : Fin 32) : Vec Ideal S512x64 .f32 :=
  fun y => X (ValueIdx.ix2 ⟨512 * t.val + (y 0).val, by have h : (y 0).val < 512 := (y 0).isLt; have := t.isLt; omega⟩ (y 1))

theorem blk_apply (X : Vec Ideal S16384x64 .f32) (t : Fin 32) (p : Fin 512) (c : Fin 64) :
    blk X t (ValueIdx.ix2 p c) = X (ValueIdx.ix2 ⟨512 * t.val + p.val, by have := p.isLt; have := t.isLt; omega⟩ c) := rfl

/-- An [16384,64] array assembled from a function of [512,64] blocks: row r is row r % 512 of the function's value on
    block r / 512 of the argument. -/
def arrOf (f : Vec Ideal S512x64 .f32 → Vec Ideal S512x64 .f32) (X : Vec Ideal S16384x64 .f32) : Vec Ideal S16384x64 .f32 :=
  fun j => f (blk X ⟨(j 0).val / 512, by have h : (j 0).val < 16384 := (j 0).isLt; omega⟩)
    (ValueIdx.ix2 ⟨(j 0).val % 512, Nat.mod_lt _ (by decide)⟩ (j 1))

/-- The assembled array at an index of block t, row y0 inside the block. -/
theorem arrOf_at (f : Vec Ideal S512x64 .f32 → Vec Ideal S512x64 .f32) (X : Vec Ideal S16384x64 .f32) (t : Fin 32)
    (j : S16384x64.Idx) (y : S512x64.Idx) (h0 : (j 0).val = 512 * t.val + (y 0).val) (h1 : (j 1).val = (y 1).val) :
    arrOf f X j = f (blk X t) y := by
  have hy0 : (y 0).val < 512 := (y 0).isLt
  have ht : ∀ h, (⟨(j 0).val / 512, h⟩ : Fin 32) = t := fun h => Fin.ext (by show (j 0).val / 512 = t.val; omega)
  have hy : ∀ h, (ValueIdx.ix2 (⟨(j 0).val % 512, h⟩ : Fin 512) (j 1) : S512x64.Idx) = y := fun h => by
    funext a; apply Fin.ext
    match a with
    | ⟨0, _⟩ => show (j 0).val % 512 = (y 0).val; omega
    | ⟨1, _⟩ => exact h1
  unfold arrOf
  rw [ht, hy]

/-- The printed index maps over the grid: both windows' block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem lt32 (t : Fin cfg0.N) : t.val < 32 := Nat.lt_of_lt_of_eq t.isLt (show cfg0.N = 32 from N_0)

/-- The input window's block at point t, read off an array, is rows 512·t … of it. -/
theorem read_blk0 (X : Vec Ideal S16384x64 .f32) (t : Fin cfg0.N) :
    ((cfg0.win 0).blk t).view.read (Elt Ideal) X = blk X ⟨t.val, lt32 t⟩ := by
  funext y
  rw [View.read_apply]
  show X (((cfg0.win 0).blk t).view.emb y) = X _
  refine congrArg X ?_
  funext a; apply Fin.ext
  match a with
  | ⟨0, _⟩ => show win0_0.index t (0 : Fin 2) * 512 + 1 * (y 0).val = 512 * t.val + (y 0).val; rw [(idx_facts t).1]; omega
  | ⟨1, _⟩ => show win0_0.index t (1 : Fin 2) * 64 + 1 * (y 1).val = (y 1).val; rw [(idx_facts t).2.1]; omega

/-- What the output window moves at point t of a block function's value on rows 512·t … is block t of the assembled array. -/
theorem cut_eq_read (f : Vec Ideal S512x64 .f32 → Vec Ideal S512x64 .f32) (X : Vec Ideal S16384x64 .f32) (t : Fin cfg0.N)
    (B : Vec Ideal S512x64 .f32) (hB : B = blk X ⟨t.val, lt32 t⟩) :
    (cfg0.win 1).cut (grid0.coords t) (f B) = ((cfg0.win 1).blk t).view.read (Elt Ideal) (arrOf f X) := by
  subst hB
  funext y
  rw [View.read_apply]
  show f (blk X ⟨t.val, lt32 t⟩) ((cfg0.win 1).xinj (grid0.coords t) y) = arrOf f X (((cfg0.win 1).blk t).view.emb y)
  refine (arrOf_at f X ⟨t.val, lt32 t⟩ (((cfg0.win 1).blk t).view.emb y) ((cfg0.win 1).xinj (grid0.coords t) y) ?_ ?_).symm
  · show win0_1.index t (0 : Fin 2) * 512 + 1 * (y 0).val = 512 * t.val + (y 0).val; rw [(idx_facts t).2.2.1]; omega
  · show win0_1.index t (1 : Fin 2) * 64 + 1 * (y 1).val = (y 1).val; rw [(idx_facts t).2.2.2]; omega

/-- An index of the array is in point t's output block iff each coordinate is in the block's range on its axis. -/
theorem mem_blk1 (t : Fin cfg0.N) (i : S16384x64.Idx) :
    i ∈ ((cfg0.win 1).blk t).view.set ↔ ∀ a : Fin 2, win0_1.index t a * S512x64.size a ≤ (i a).val ∧ (i a).val < win0_1.index t a * S512x64.size a + S512x64.size a := by
  show i ∈ ((View.whole main_v0).slice (win0_1.rect t)).set ↔ _
  rw [View.set_slice_whole, Rect.mem_set_unit]
  exact Iff.rfl

/-- The 32 output blocks cover the array: row r is in the block of point r / 512. -/
theorem cover1 (i : S16384x64.Idx) : ∃ t : Fin cfg0.N, (cfg0.win 1).flush t = true ∧ i ∈ ((cfg0.win 1).blk t).view.set := by
  have hi0 : (i 0).val < 16384 := (i 0).isLt
  have hi1 : (i 1).val < 64 := (i 1).isLt
  have hN : cfg0.N = 32 := N_0
  have ht : (i 0).val / 512 < cfg0.N := by rw [hN]; omega
  refine ⟨⟨(i 0).val / 512, ht⟩, flush0_1 _, ?_⟩
  rw [mem_blk1]
  obtain ⟨-, -, e0, e1⟩ := idx_facts ⟨(i 0).val / 512, ht⟩
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_1.index ⟨(i 0).val / 512, ht⟩ (1 : Fin 2) * 64 ≤ (i 1).val ∧ (i 1).val < win0_1.index ⟨(i 0).val / 512, ht⟩ (1 : Fin 2) * 64 + 64
    rw [e1]; omega

/-! ## The kernel's result array -/

/-- the kernel's result array as a function of its argument array: block by block, the body's value on the argument's block -/
def outArr (X : Vec Ideal S16384x64 .f32) : Vec Ideal S16384x64 .f32 :=
  fun j => GenP.out0_1 (F := Ideal) (blk X ⟨(j 0).val / 512, by have h : (j 0).val < 16384 := (j 0).isLt; omega⟩)
    (ValueIdx.ix2 ⟨(j 0).val % 512, Nat.mod_lt _ (by decide)⟩ (j 1))

/-- It is the array assembled from the body's block function. -/
theorem outArr_eq (X : Vec Ideal S16384x64 .f32) : outArr X = arrOf (GenP.out0_1 (F := Ideal)) X := rfl

theorem outArr_apply (X : Vec Ideal S16384x64 .f32) (t : Fin 32) (p : Fin 512) (q : Fin 64) :
    outArr X (ValueIdx.ix2 ⟨512 * t.val + p.val, by have := p.isLt; have := t.isLt; omega⟩ q)
      = GenP.out0_1 (F := Ideal) (blk X t) (ValueIdx.ix2 p q) :=
  (congrFun (outArr_eq X) _).trans (arrOf_at (GenP.out0_1 (F := Ideal)) X t _ (ValueIdx.ix2 p q) rfl rfl)

variable (m : (ℓ : Loc nD τ sig) → Buf (Elt Ideal) ℓ) (ρ : Dev nD → PrngReg)

/-- The input block the run finds at point t is rows 512·t … 512·t+511 of the argument array. -/
theorem iblk_eq (c : Dev nD) (t : Fin cfg0.N) :
    GenP.iblk m c 0 t = blk (m ((c.tc : Thread nD τ).loc main_arg0)) ⟨t.val, lt32 t⟩ := by
  unfold GenP.iblk
  exact read_blk0 (m ((c.tc : Thread nD τ).loc main_arg0)) t

/-- WHAT POINT t WRITES BACK is block t of the result array of the argument array. -/
theorem flushed_eq (c : Dev nD) (t : Fin cfg0.N) :
    (GenP.dats m 0 c).flushed 1 t
      = ((cfg0.win 1).blk t).view.read (Elt Ideal) (outArr (m ((c.tc : Thread nD τ).loc main_arg0))) := by
  show (cfg0.win 1).cut (grid0.coords t) ((GenP.dats m 0 c).after 1 t) = _
  rw [GenP.after0_1, outArr_eq]
  exact cut_eq_read (GenP.out0_1 (F := Ideal)) (m ((c.tc : Thread nD τ).loc main_arg0)) t (GenP.iblk m c 0 t) (iblk_eq m c t)

/-- THE ARRAY after the run: the 32 blocks written back cover it, each the body's value on the argument's block. -/
theorem final (c : Dev nD) :
    (GenP.dats m 0 c).arrAt 1 cfg0.N = outArr (m ((c.tc : Thread nD τ).loc main_arg0)) :=
  (GenP.dats m 0 c).arrAt_eq_of_cover 1 (outArr (m ((c.tc : Thread nD τ).loc main_arg0))) (fun t _ => flushed_eq m c t) cover1

/-- The run, read: the result array is the body's value block by block of the argument array, the argument unchanged. -/
theorem run : θ_run (defs (F := Ideal)) (onTc (τ := τ) (main (F := Ideal))) ⟨m, fun _ => 0, ρ⟩ (fun r => ∀ c : Dev nD,
      r.2.mem ((c.tc : Thread nD τ).loc main_v0) = outArr (m ((c.tc : Thread nD τ).loc main_arg0))
      ∧ r.2.mem ((c.tc : Thread nD τ).loc main_arg0) = m ((c.tc : Thread nD τ).loc main_arg0)) :=
  (θ_run defs _ _).mono (fun r h c => ⟨((h c).1 1).trans (final m c),
      ((h c).1 0).trans (((GenP.dats m 0 c).arrAt_in 0 rfl _).trans ((GenP.A_eq m c 0).trans (GenP.V_main_arg0 m c)))⟩)
    (GenP.run_main m ρ)

end Cert.KernelIdeal.RowValue

end
-- ==== Proof.Ssa.lean ====
/-
  Single-assignment host programs.

  The reference's @main is a straight line of host operations in which operation number k (counting
  from 1) writes the buffer of index k and reads only buffers of smaller index: every buffer is
  assigned once, before any use.  For such a line the contents W it ends with satisfy every
  operation's defining equation at once -- each operation maps W to W -- because nothing after an
  operation writes a buffer it touches.  These are the equations a value proof reads the line through.
-/
import Idealize.ShloMosaic.Lib.StableHlo.Run

namespace Cert.Ssa

open Idealize.ShloMosaic Idealize.ShloMosaic.TcCoe Idealize.ShloMosaic.StableHlo

variable {τ : Topo} {sig : RefSig} {Val : EltTy → Type}

/-- An operation in single-assignment position k: it touches only buffers of index at most k, writes only
    buffers of index k, and applying it twice leaves what applying it once leaves (it does not read what it
    writes). -/
structure At (k : ℕ) (op : HloOp τ sig Val) : Prop where
  bufs_le : ∀ b ∈ op.bufs, b.idx.val ≤ k
  writes_eq : ∀ b ∈ op.writes, b.idx.val = k
  idem : ∀ F : Valuation τ sig Val, op.result (op.result F) = op.result F

/-- A line of operations in single-assignment order, its first operation in position k. -/
def Ordered : ℕ → List (HloOp τ sig Val) → Prop
  | _, [] => True
  | k, op :: ops => At k op ∧ Ordered (k + 1) ops

theorem Ordered.append {l₁ l₂ : List (HloOp τ sig Val)} :
    ∀ {k : ℕ}, Ordered k l₁ → Ordered (k + l₁.length) l₂ → Ordered k (l₁ ++ l₂) := by
  induction l₁ with
  | nil => intro k _ h; simpa using h
  | cons op l ih =>
    intro k h₁ h₂
    refine ⟨h₁.1, ih h₁.2 ?_⟩
    have e : k + 1 + l.length = k + (op :: l).length := by simp [List.length_cons]; omega
    rw [e]; exact h₂

/-- Operations in positions k and later write only buffers of index at least k ... -/
theorem Ordered.le_of_mem_writes {ops : List (HloOp τ sig Val)} :
    ∀ {k : ℕ}, Ordered k ops → ∀ op ∈ ops, ∀ b ∈ op.writes, k ≤ b.idx.val := by
  induction ops with
  | nil => intro k _ op h; cases h
  | cons o l ih =>
    intro k h op hop b hb
    rcases List.mem_cons.1 hop with rfl | hop
    · exact (h.1.writes_eq b hb).ge
    · exact (Nat.le_succ k).trans (ih h.2 op hop b hb)

/-- ... so they leave every buffer of smaller index as it was. -/
theorem Ordered.after_eq {ops : List (HloOp τ sig Val)} {k : ℕ} (h : Ordered k ops) (V : Valuation τ sig Val)
    (b : DevRef τ sig) (hb : b.idx.val < k) : after ops V b = V b :=
  after_of_forall_not_mem ops V fun op hop hw => absurd (h.le_of_mem_writes op hop b hw) (Nat.not_le.2 hb)

/-- The contents a single-assignment line ends with are fixed by each of its operations. -/
theorem Ordered.fix {ops : List (HloOp τ sig Val)} :
    ∀ {k : ℕ}, Ordered k ops → ∀ (V : Valuation τ sig Val), ∀ op ∈ ops, op.result (after ops V) = after ops V := by
  induction ops with
  | nil => intro k _ V op h; cases h
  | cons o l ih =>
    intro k h V op hop
    rw [after_cons]
    rcases List.mem_cons.1 hop with rfl | hop
    · -- the head: the tail leaves the buffers it touches alone
      have hag : ∀ b ∈ op.bufs, after l (op.result V) b = op.result V b := fun b hb =>
        h.2.after_eq _ b (Nat.lt_succ_of_le (h.1.bufs_le b hb))
      funext b
      by_cases hb : b ∈ op.writes
      · rw [op.result_congr hag b (op.writes_sub hb), h.1.idem V, hag b (op.writes_sub hb)]
      · exact op.result_of_not_mem _ hb
    · exact ih h.2 (o.result V) op hop

/-! ## The builders' operations in single-assignment position, and their equations -/

section Builders

variable {x a b y : Ref sig .tc}

private theorem ne_of_idx_lt {r y : Ref sig .tc} {k : ℕ} (h₁ : (r : DevRef τ sig).idx.val < k) (h₂ : (y : DevRef τ sig).idx.val = k) :
    r ≠ y := fun h => by subst h; omega

/-- An operation that writes the one buffer y, whose result at y does not change when it is applied to its own
    result, is idempotent. -/
private theorem idem_of_single (op : HloOp τ sig Val) (y : Ref sig .tc) (hw : op.writes = {(y : DevRef τ sig)})
    (h : ∀ F : Valuation τ sig Val, op.result (op.result F) y = op.result F y) (F : Valuation τ sig Val) :
    op.result (op.result F) = op.result F := by
  funext b
  by_cases hb : b ∈ op.writes
  · have : b = (y : DevRef τ sig) := by rw [hw] at hb; exact Finset.mem_singleton.1 hb
    subst this; exact h F
  · exact op.result_of_not_mem _ hb

/-- An operation that writes the one buffer y is the identity on W exactly when W at y is its value. -/
private theorem fix_iff_of_single (op : HloOp τ sig Val) (y : Ref sig .tc) (hw : op.writes = {(y : DevRef τ sig)})
    (W : Valuation τ sig Val) : op.result W = W ↔ W y = op.result W y := by
  constructor
  · intro h; exact (congrFun h y).symm
  · intro h; funext b
    by_cases hb : b ∈ op.writes
    · have : b = (y : DevRef τ sig) := by rw [hw] at hb; exact Finset.mem_singleton.1 hb
      subst this; exact h.symm
    · exact op.result_of_not_mem _ hb

theorem nullary_at {k : ℕ} (v : y.ty.Contents Val) (hy) (h₂ : (y : DevRef τ sig).idx.val = k) :
    At k (nullary (τ := τ) (Val := Val) y v hy) where
  bufs_le b hb := by
    rw [nullary_bufs] at hb; cases Finset.mem_singleton.1 hb; exact h₂.le
  writes_eq b hb := by rw [nullary_writes] at hb; cases Finset.mem_singleton.1 hb; exact h₂
  idem := idem_of_single _ y (nullary_writes y v hy) fun F => by rw [nullary_result, nullary_result]

theorem nullary_fix_iff (v : y.ty.Contents Val) (hy) (W : Valuation τ sig Val) :
    (nullary (τ := τ) y v hy).result W = W ↔ W y = v := by
  rw [fix_iff_of_single _ y (nullary_writes y v hy), nullary_result]

theorem unary_at {k : ℕ} (f : x.ty.Contents Val → y.ty.Contents Val) (hx hy)
    (h₁ : (x : DevRef τ sig).idx.val < k) (h₂ : (y : DevRef τ sig).idx.val = k) :
    At k (unary (τ := τ) (Val := Val) x y f hx hy) where
  bufs_le b hb := by
    rw [unary_bufs] at hb
    rcases Finset.mem_insert.1 hb with rfl | hb
    · exact h₁.le
    · cases Finset.mem_singleton.1 hb; exact h₂.le
  writes_eq b hb := by rw [unary_writes] at hb; cases Finset.mem_singleton.1 hb; exact h₂
  idem := idem_of_single _ y (unary_writes x y f hx hy) fun F => by
    rw [unary_result, unary_result, unary_result_ne x y f hx hy F (ne_of_idx_lt h₁ h₂)]

theorem unary_fix_iff (f : x.ty.Contents Val → y.ty.Contents Val) (hx hy) (W : Valuation τ sig Val) :
    (unary (τ := τ) x y f hx hy).result W = W ↔ W y = f (W x) := by
  rw [fix_iff_of_single _ y (unary_writes x y f hx hy), unary_result]

theorem reshape_at {k : ℕ} (he hn hx hy)
    (h₁ : (x : DevRef τ sig).idx.val < k) (h₂ : (y : DevRef τ sig).idx.val = k) :
    At k (reshape (τ := τ) (Val := Val) x y he hn hx hy) where
  bufs_le b hb := by
    rw [reshape_bufs] at hb
    rcases Finset.mem_insert.1 hb with rfl | hb
    · exact h₁.le
    · cases Finset.mem_singleton.1 hb; exact h₂.le
  writes_eq b hb := by rw [reshape_writes] at hb; cases Finset.mem_singleton.1 hb; exact h₂
  idem := idem_of_single _ y (reshape_writes x y he hn hx hy) fun F => by
    rw [reshape_result, reshape_result, reshape_result_ne x y he hn hx hy F (ne_of_idx_lt h₁ h₂)]

theorem reshape_fix_iff (he hn hx hy) (W : Valuation τ sig Val) :
    (reshape (τ := τ) (Val := Val) x y he hn hx hy).result W = W
      ↔ W y = fun i => he ▸ shapeCast y.ty.shape (W x) hn i := by
  rw [fix_iff_of_single _ y (reshape_writes x y he hn hx hy), reshape_result]

theorem binary_at {k : ℕ} (f : a.ty.Contents Val → b.ty.Contents Val → y.ty.Contents Val) (ha hb hy)
    (h₀ : (a : DevRef τ sig).idx.val < k) (h₁ : (b : DevRef τ sig).idx.val < k) (h₂ : (y : DevRef τ sig).idx.val = k) :
    At k (binary (τ := τ) (Val := Val) a b y f ha hb hy) where
  bufs_le c hc := by
    rw [binary_bufs] at hc
    rcases Finset.mem_insert.1 hc with rfl | hc
    · exact h₀.le
    rcases Finset.mem_insert.1 hc with rfl | hc
    · exact h₁.le
    · cases Finset.mem_singleton.1 hc; exact h₂.le
  writes_eq c hc := by rw [binary_writes] at hc; cases Finset.mem_singleton.1 hc; exact h₂
  idem := idem_of_single _ y (binary_writes a b y f ha hb hy) fun F => by
    rw [binary_result, binary_result, binary_result_ne a b y f ha hb hy F (ne_of_idx_lt h₀ h₂),
      binary_result_ne a b y f ha hb hy F (ne_of_idx_lt h₁ h₂)]

theorem binary_fix_iff (f : a.ty.Contents Val → b.ty.Contents Val → y.ty.Contents Val) (ha hb hy) (W : Valuation τ sig Val) :
    (binary (τ := τ) a b y f ha hb hy).result W = W ↔ W y = f (W a) (W b) := by
  rw [fix_iff_of_single _ y (binary_writes a b y f ha hb hy), binary_result]

theorem nary_at {k n : ℕ} (xs : Fin n → Ref sig .tc) (f : ((j : Fin n) → (xs j).ty.Contents Val) → y.ty.Contents Val) (hxs hy)
    (h₁ : ∀ j, ((xs j : Ref sig .tc) : DevRef τ sig).idx.val < k) (h₂ : (y : DevRef τ sig).idx.val = k) :
    At k (nary (τ := τ) (Val := Val) xs y f hxs hy) where
  bufs_le c hc := by
    rcases Finset.mem_insert.1 hc with rfl | hc
    · exact h₂.le
    · obtain ⟨j, -, rfl⟩ := Finset.mem_image.1 hc; exact (h₁ j).le
  writes_eq c hc := by rw [nary_writes] at hc; cases Finset.mem_singleton.1 hc; exact h₂
  idem := idem_of_single _ y (nary_writes y xs f hxs hy) fun F => by
    rw [nary_result, nary_result]
    exact congrArg f (funext fun j => nary_result_ne y xs f hxs hy F (ne_of_idx_lt (h₁ j) h₂))

theorem nary_fix_iff {n : ℕ} (xs : Fin n → Ref sig .tc) (f : ((j : Fin n) → (xs j).ty.Contents Val) → y.ty.Contents Val) (hxs hy)
    (W : Valuation τ sig Val) :
    (nary (τ := τ) xs y f hxs hy).result W = W ↔ W y = f (fun j => W (xs j)) := by
  rw [fix_iff_of_single _ y (nary_writes y xs f hxs hy), nary_result]

end Builders

end Cert.Ssa
-- ==== Proof.RefTactics.lean ====
/-
  Three tactics for a literal line of host operations, and one for membership in a concatenation of lines.

  A window of the reference's @main is a literal list of operations, each made by one of five builders
  (no operand, one operand, a change of shape, two operands, a tuple of operands).  Three facts about
  such a list have one component per operation, and each component is an instance of a lemma about the
  builder that made the operation:
    * every buffer the operation touches is a TensorCore reference (the builders' `*_bufs_sub`);
    * the operation leaves no written buffer undetermined (its `fresh` field is the default, the empty set);
    * the operation sits in single-assignment position (the builders' `*_at`: its operands' indices are
      smaller than its position and its result's index is its position -- comparisons of numerals).
  The tactics take the list apart one operation at a time and close each component with the lemma of its
  builder.  Which lemma applies is read off the operation's head symbol without unfolding anything, so an
  operation costs the same whatever the length of the line.
-/
import Mathlib.Data.List.Basic
import Idealize.ShloMosaic.Lib.StableHlo.Run
import proofs.«146075_j27728308863612_2_alg».proof.Proof.Ssa

namespace Cert.Ssa

open Idealize.ShloMosaic Idealize.ShloMosaic.TcCoe Idealize.ShloMosaic.StableHlo

variable {τ : Topo} {sig : RefSig} {Val : EltTy → Type}

/-- A property of every member of the empty list. -/
theorem forall_nil {α : Type*} {p : α → Prop} : List.Forall p [] := trivial

/-- A property of every member of a list, from its head and its tail. -/
theorem forall_cons {α : Type*} {p : α → Prop} {a : α} {l : List α} (h : p a) (hl : List.Forall p l) :
    List.Forall p (a :: l) := (List.forall_cons p a l).2 ⟨h, hl⟩

theorem Ordered.nil {k : ℕ} : Ordered k ([] : List (HloOp τ sig Val)) := trivial

theorem Ordered.cons {k : ℕ} {op : HloOp τ sig Val} {ops : List (HloOp τ sig Val)}
    (h : At k op) (hs : Ordered (k + 1) ops) : Ordered k (op :: ops) := ⟨h, hs⟩

end Cert.Ssa

/-- Every operation of a literal line touches TensorCore references only: the list taken apart, each
    operation by the `*_bufs_sub` lemma of its builder. -/
macro "line_sub" : tactic => `(tactic|
  repeat' first
    | with_reducible exact Idealize.ShloMosaic.StableHlo.unary_bufs_sub ..
    | with_reducible exact Idealize.ShloMosaic.StableHlo.binary_bufs_sub ..
    | with_reducible exact Idealize.ShloMosaic.StableHlo.reshape_bufs_sub ..
    | with_reducible exact Idealize.ShloMosaic.StableHlo.nullary_bufs_sub ..
    | with_reducible exact Idealize.ShloMosaic.StableHlo.nary_bufs_sub ..
    | with_reducible refine Cert.Ssa.forall_cons ?_ ?_
    | with_reducible exact Cert.Ssa.forall_nil)

/-- No operation of a literal line leaves a buffer undetermined: membership in the list becomes a property of
    every member, the list is taken apart, and each operation's `fresh` is the empty set by definition. -/
macro "line_fresh" : tactic => `(tactic|
  (refine List.forall_iff_forall_mem.1 ?_
   repeat' first
    | with_reducible refine Cert.Ssa.forall_cons ?_ ?_
    | with_reducible exact Cert.Ssa.forall_nil
    | exact rfl))

/-- A literal line is in single-assignment order: the list taken apart, each operation by the `*_at` lemma
    of its builder, whose side conditions compare numerals. -/
macro "line_ordered" : tactic => `(tactic|
  repeat' first
    | with_reducible exact Cert.Ssa.unary_at _ _ _ (by decide) (by decide)
    | with_reducible exact Cert.Ssa.binary_at _ _ _ _ (by decide) (by decide) (by decide)
    | with_reducible exact Cert.Ssa.reshape_at _ _ _ _ (by decide) (by decide)
    | with_reducible exact Cert.Ssa.nullary_at _ _ (by decide)
    | with_reducible exact Cert.Ssa.nary_at _ _ _ _ (by decide) (by decide)
    | with_reducible refine Cert.Ssa.Ordered.cons ?_ ?_
    | with_reducible exact Cert.Ssa.Ordered.nil)

/-- `line_mem K`: an operation of the K-th of a right-nested concatenation `l₀ ++ (l₁ ++ (… ++ lₙ))` of lines
    is an operation of the concatenation -- pass over K lines on the left, then enter the one that is left
    (or, after the last `++`, the hypothesis itself). -/
syntax "line_mem " num : tactic
macro_rules
  | `(tactic| line_mem $n) =>
    match n.getNat with
    | 0 => `(tactic| first | exact List.mem_append_left _ (by assumption) | assumption)
    | k + 1 => `(tactic| (refine List.mem_append_right _ ?_; line_mem $(Lean.Syntax.mkNumLit (toString k))))
-- ==== Proof.RefOps0.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

/-- Window 0 of @main: its operations, positions 1 to 60, in order. -/
abbrev ops0 : List (HloOp τ sig (Elt F)) :=
  [ StableHlo.unary main_arg0 main_v0 ((extractStridedSlice S16384x1 ![0, 0] · slices_S16384x64_S16384x1_0_0) : (⟨S16384x64, .f32⟩ : BufTy).Contents (Elt F) → (⟨S16384x1, .f32⟩ : BufTy).Contents (Elt F)),
    StableHlo.reshape main_v0 main_v1 rfl shapeCasts_S16384x1_S16384,
    StableHlo.unary main_arg0 main_v2 ((extractStridedSlice S16384x1 ![0, 1] · slices_S16384x64_S16384x1_0_1) : (⟨S16384x64, .f32⟩ : BufTy).Contents (Elt F) → (⟨S16384x1, .f32⟩ : BufTy).Contents (Elt F)),
    StableHlo.reshape main_v2 main_v3 rfl shapeCasts_S16384x1_S16384,
    StableHlo.unary main_arg0 main_v4 ((extractStridedSlice S16384x1 ![0, 2] · slices_S16384x64_S16384x1_0_2) : (⟨S16384x64, .f32⟩ : BufTy).Contents (Elt F) → (⟨S16384x1, .f32⟩ : BufTy).Contents (Elt F)),
    StableHlo.reshape main_v4 main_v5 rfl shapeCasts_S16384x1_S16384,
    StableHlo.unary main_arg0 main_v6 ((extractStridedSlice S16384x1 ![0, 3] · slices_S16384x64_S16384x1_0_3) : (⟨S16384x64, .f32⟩ : BufTy).Contents (Elt F) → (⟨S16384x1, .f32⟩ : BufTy).Contents (Elt F)),
    StableHlo.reshape main_v6 main_v7 rfl shapeCasts_S16384x1_S16384,
    StableHlo.unary main_arg0 main_v8 ((extractStridedSlice S16384x1 ![0, 4] · slices_S16384x64_S16384x1_0_4) : (⟨S16384x64, .f32⟩ : BufTy).Contents (Elt F) → (⟨S16384x1, .f32⟩ : BufTy).Contents (Elt F)),
    StableHlo.reshape main_v8 main_v9 rfl shapeCasts_S16384x1_S16384,
    StableHlo.unary main_arg0 main_v10 ((extractStridedSlice S16384x1 ![0, 5] · slices_S16384x64_S16384x1_0_5) : (⟨S16384x64, .f32⟩ : BufTy).Contents (Elt F) → (⟨S16384x1, .f32⟩ : BufTy).Contents (Elt F)),
    StableHlo.reshape main_v10 main_v11 rfl shapeCasts_S16384x1_S16384,
    StableHlo.unary main_arg0 main_v12 ((extractStridedSlice S16384x1 ![0, 6] · slices_S16384x64_S16384x1_0_6) : (⟨S16384x64, .f32⟩ : BufTy).Contents (Elt F) → (⟨S16384x1, .f32⟩ : BufTy).Contents (Elt F)),
    StableHlo.reshape main_v12 main_v13 rfl shapeCasts_S16384x1_S16384,
    StableHlo.unary main_arg0 main_v14 ((extractStridedSlice S16384x1 ![0, 7] · slices_S16384x64_S16384x1_0_7) : (⟨S16384x64, .f32⟩ : BufTy).Contents (Elt F) → (⟨S16384x1, .f32⟩ : BufTy).Contents (Elt F)),
    StableHlo.reshape main_v14 main_v15 rfl shapeCasts_S16384x1_S16384,
    StableHlo.unary main_arg0 main_v16 ((extractStridedSlice S16384x1 ![0, 8] · slices_S16384x64_S16384x1_0_8) : (⟨S16384x64, .f32⟩ : BufTy).Contents (Elt F) → (⟨S16384x1, .f32⟩ : BufTy).Contents (Elt F)),
    StableHlo.reshape main_v16 main_v17 rfl shapeCasts_S16384x1_S16384,
    StableHlo.unary main_arg0 main_v18 ((extractStridedSlice S16384x1 ![0, 9] · slices_S16384x64_S16384x1_0_9) : (⟨S16384x64, .f32⟩ : BufTy).Contents (Elt F) → (⟨S16384x1, .f32⟩ : BufTy).Contents (Elt F)),
    StableHlo.reshape main_v18 main_v19 rfl shapeCasts_S16384x1_S16384,
    StableHlo.unary main_arg0 main_v20 ((extractStridedSlice S16384x1 ![0, 10] · slices_S16384x64_S16384x1_0_10) : (⟨S16384x64, .f32⟩ : BufTy).Contents (Elt F) → (⟨S16384x1, .f32⟩ : BufTy).Contents (Elt F)),
    StableHlo.reshape main_v20 main_v21 rfl shapeCasts_S16384x1_S16384,
    StableHlo.unary main_arg0 main_v22 ((extractStridedSlice S16384x1 ![0, 11] · slices_S16384x64_S16384x1_0_11) : (⟨S16384x64, .f32⟩ : BufTy).Contents (Elt F) → (⟨S16384x1, .f32⟩ : BufTy).Contents (Elt F)),
    StableHlo.reshape main_v22 main_v23 rfl shapeCasts_S16384x1_S16384,
    StableHlo.unary main_arg0 main_v24 ((extractStridedSlice S16384x1 ![0, 12] · slices_S16384x64_S16384x1_0_12) : (⟨S16384x64, .f32⟩ : BufTy).Contents (Elt F) → (⟨S16384x1, .f32⟩ : BufTy).Contents (Elt F)),
    StableHlo.reshape main_v24 main_v25 rfl shapeCasts_S16384x1_S16384,
    StableHlo.unary main_arg0 main_v26 ((extractStridedSlice S16384x1 ![0, 13] · slices_S16384x64_S16384x1_0_13) : (⟨S16384x64, .f32⟩ : BufTy).Contents (Elt F) → (⟨S16384x1, .f32⟩ : BufTy).Contents (Elt F)),
    StableHlo.reshape main_v26 main_v27 rfl shapeCasts_S16384x1_S16384,
    StableHlo.unary main_arg0 main_v28 ((extractStridedSlice S16384x1 ![0, 14] · slices_S16384x64_S16384x1_0_14) : (⟨S16384x64, .f32⟩ : BufTy).Contents (Elt F) → (⟨S16384x1, .f32⟩ : BufTy).Contents (Elt F)),
    StableHlo.reshape main_v28 main_v29 rfl shapeCasts_S16384x1_S16384,
    StableHlo.unary main_arg0 main_v30 ((extractStridedSlice S16384x1 ![0, 15] · slices_S16384x64_S16384x1_0_15) : (⟨S16384x64, .f32⟩ : BufTy).Contents (Elt F) → (⟨S16384x1, .f32⟩ : BufTy).Contents (Elt F)),
    StableHlo.reshape main_v30 main_v31 rfl shapeCasts_S16384x1_S16384,
    StableHlo.unary main_arg0 main_v32 ((extractStridedSlice S16384x1 ![0, 16] · slices_S16384x64_S16384x1_0_16) : (⟨S16384x64, .f32⟩ : BufTy).Contents (Elt F) → (⟨S16384x1, .f32⟩ : BufTy).Contents (Elt F)),
    StableHlo.reshape main_v32 main_v33 rfl shapeCasts_S16384x1_S16384,
    StableHlo.unary main_arg0 main_v34 ((extractStridedSlice S16384x1 ![0, 17] · slices_S16384x64_S16384x1_0_17) : (⟨S16384x64, .f32⟩ : BufTy).Contents (Elt F) → (⟨S16384x1, .f32⟩ : BufTy).Contents (Elt F)),
    StableHlo.reshape main_v34 main_v35 rfl shapeCasts_S16384x1_S16384,
    StableHlo.unary main_arg0 main_v36 ((extractStridedSlice S16384x1 ![0, 18] · slices_S16384x64_S16384x1_0_18) : (⟨S16384x64, .f32⟩ : BufTy).Contents (Elt F) → (⟨S16384x1, .f32⟩ : BufTy).Contents (Elt F)),
    StableHlo.reshape main_v36 main_v37 rfl shapeCasts_S16384x1_S16384,
    StableHlo.unary main_arg0 main_v38 ((extractStridedSlice S16384x1 ![0, 19] · slices_S16384x64_S16384x1_0_19) : (⟨S16384x64, .f32⟩ : BufTy).Contents (Elt F) → (⟨S16384x1, .f32⟩ : BufTy).Contents (Elt F)),
    StableHlo.reshape main_v38 main_v39 rfl shapeCasts_S16384x1_S16384,
    StableHlo.unary main_arg0 main_v40 ((extractStridedSlice S16384x1 ![0, 20] · slices_S16384x64_S16384x1_0_20) : (⟨S16384x64, .f32⟩ : BufTy).Contents (Elt F) → (⟨S16384x1, .f32⟩ : BufTy).Contents (Elt F)),
    StableHlo.reshape main_v40 main_v41 rfl shapeCasts_S16384x1_S16384,
    StableHlo.unary main_arg0 main_v42 ((extractStridedSlice S16384x1 ![0, 21] · slices_S16384x64_S16384x1_0_21) : (⟨S16384x64, .f32⟩ : BufTy).Contents (Elt F) → (⟨S16384x1, .f32⟩ : BufTy).Contents (Elt F)),
    StableHlo.reshape main_v42 main_v43 rfl shapeCasts_S16384x1_S16384,
    StableHlo.unary main_arg0 main_v44 ((extractStridedSlice S16384x1 ![0, 22] · slices_S16384x64_S16384x1_0_22) : (⟨S16384x64, .f32⟩ : BufTy).Contents (Elt F) → (⟨S16384x1, .f32⟩ : BufTy).Contents (Elt F)),
    StableHlo.reshape main_v44 main_v45 rfl shapeCasts_S16384x1_S16384,
    StableHlo.unary main_arg0 main_v46 ((extractStridedSlice S16384x1 ![0, 23] · slices_S16384x64_S16384x1_0_23) : (⟨S16384x64, .f32⟩ : BufTy).Contents (Elt F) → (⟨S16384x1, .f32⟩ : BufTy).Contents (Elt F)),
    StableHlo.reshape main_v46 main_v47 rfl shapeCasts_S16384x1_S16384,
    StableHlo.unary main_arg0 main_v48 ((extractStridedSlice S16384x1 ![0, 24] · slices_S16384x64_S16384x1_0_24) : (⟨S16384x64, .f32⟩ : BufTy).Contents (Elt F) → (⟨S16384x1, .f32⟩ : BufTy).Contents (Elt F)),
    StableHlo.reshape main_v48 main_v49 rfl shapeCasts_S16384x1_S16384,
    StableHlo.unary main_arg0 main_v50 ((extractStridedSlice S16384x1 ![0, 25] · slices_S16384x64_S16384x1_0_25) : (⟨S16384x64, .f32⟩ : BufTy).Contents (Elt F) → (⟨S16384x1, .f32⟩ : BufTy).Contents (Elt F)),
    StableHlo.reshape main_v50 main_v51 rfl shapeCasts_S16384x1_S16384,
    StableHlo.unary main_arg0 main_v52 ((extractStridedSlice S16384x1 ![0, 26] · slices_S16384x64_S16384x1_0_26) : (⟨S16384x64, .f32⟩ : BufTy).Contents (Elt F) → (⟨S16384x1, .f32⟩ : BufTy).Contents (Elt F)),
    StableHlo.reshape main_v52 main_v53 rfl shapeCasts_S16384x1_S16384,
    StableHlo.unary main_arg0 main_v54 ((extractStridedSlice S16384x1 ![0, 27] · slices_S16384x64_S16384x1_0_27) : (⟨S16384x64, .f32⟩ : BufTy).Contents (Elt F) → (⟨S16384x1, .f32⟩ : BufTy).Contents (Elt F)),
    StableHlo.reshape main_v54 main_v55 rfl shapeCasts_S16384x1_S16384,
    StableHlo.unary main_arg0 main_v56 ((extractStridedSlice S16384x1 ![0, 28] · slices_S16384x64_S16384x1_0_28) : (⟨S16384x64, .f32⟩ : BufTy).Contents (Elt F) → (⟨S16384x1, .f32⟩ : BufTy).Contents (Elt F)),
    StableHlo.reshape main_v56 main_v57 rfl shapeCasts_S16384x1_S16384,
    StableHlo.unary main_arg0 main_v58 ((extractStridedSlice S16384x1 ![0, 29] · slices_S16384x64_S16384x1_0_29) : (⟨S16384x64, .f32⟩ : BufTy).Contents (Elt F) → (⟨S16384x1, .f32⟩ : BufTy).Contents (Elt F)),
    StableHlo.reshape main_v58 main_v59 rfl shapeCasts_S16384x1_S16384 ]

theorem part0_eq (d : Dev nD) : main_part0 (F := F) d = seq ops0 := rfl
theorem ops0_sub : (ops0 (F := F)).Forall fun op => op.bufs ⊆ tcRefs τ sig := by line_sub
theorem ops0_fresh : ∀ op ∈ (ops0 (F := F)), op.fresh = ∅ := by line_fresh
theorem ops0_ordered : Cert.Ssa.Ordered 1 (ops0 (F := F)) := by line_ordered

/-- Window 1 of @main: its operations, positions 61 to 120, in order. -/
abbrev ops1 : List (HloOp τ sig (Elt F)) :=
  [ StableHlo.unary main_arg0 main_v60 ((extractStridedSlice S16384x1 ![0, 30] · slices_S16384x64_S16384x1_0_30) : (⟨S16384x64, .f32⟩ : BufTy).Contents (Elt F) → (⟨S16384x1, .f32⟩ : BufTy).Contents (Elt F)),
    StableHlo.reshape main_v60 main_v61 rfl shapeCasts_S16384x1_S16384,
    StableHlo.unary main_arg0 main_v62 ((extractStridedSlice S16384x1 ![0, 31] · slices_S16384x64_S16384x1_0_31) : (⟨S16384x64, .f32⟩ : BufTy).Contents (Elt F) → (⟨S16384x1, .f32⟩ : BufTy).Contents (Elt F)),
    StableHlo.reshape main_v62 main_v63 rfl shapeCasts_S16384x1_S16384,
    StableHlo.unary main_arg0 main_v64 ((extractStridedSlice S16384x1 ![0, 32] · slices_S16384x64_S16384x1_0_32) : (⟨S16384x64, .f32⟩ : BufTy).Contents (Elt F) → (⟨S16384x1, .f32⟩ : BufTy).Contents (Elt F)),
    StableHlo.reshape main_v64 main_v65 rfl shapeCasts_S16384x1_S16384,
    StableHlo.unary main_arg0 main_v66 ((extractStridedSlice S16384x1 ![0, 33] · slices_S16384x64_S16384x1_0_33) : (⟨S16384x64, .f32⟩ : BufTy).Contents (Elt F) → (⟨S16384x1, .f32⟩ : BufTy).Contents (Elt F)),
    StableHlo.reshape main_v66 main_v67 rfl shapeCasts_S16384x1_S16384,
    StableHlo.unary main_arg0 main_v68 ((extractStridedSlice S16384x1 ![0, 34] · slices_S16384x64_S16384x1_0_34) : (⟨S16384x64, .f32⟩ : BufTy).Contents (Elt F) → (⟨S16384x1, .f32⟩ : BufTy).Contents (Elt F)),
    StableHlo.reshape main_v68 main_v69 rfl shapeCasts_S16384x1_S16384,
    StableHlo.unary main_arg0 main_v70 ((extractStridedSlice S16384x1 ![0, 35] · slices_S16384x64_S16384x1_0_35) : (⟨S16384x64, .f32⟩ : BufTy).Contents (Elt F) → (⟨S16384x1, .f32⟩ : BufTy).Contents (Elt F)),
    StableHlo.reshape main_v70 main_v71 rfl shapeCasts_S16384x1_S16384,
    StableHlo.unary main_arg0 main_v72 ((extractStridedSlice S16384x1 ![0, 36] · slices_S16384x64_S16384x1_0_36) : (⟨S16384x64, .f32⟩ : BufTy).Contents (Elt F) → (⟨S16384x1, .f32⟩ : BufTy).Contents (Elt F)),
    StableHlo.reshape main_v72 main_v73 rfl shapeCasts_S16384x1_S16384,
    StableHlo.unary main_arg0 main_v74 ((extractStridedSlice S16384x1 ![0, 37] · slices_S16384x64_S16384x1_0_37) : (⟨S16384x64, .f32⟩ : BufTy).Contents (Elt F) → (⟨S16384x1, .f32⟩ : BufTy).Contents (Elt F)),
    StableHlo.reshape main_v74 main_v75 rfl shapeCasts_S16384x1_S16384,
    StableHlo.unary main_arg0 main_v76 ((extractStridedSlice S16384x1 ![0, 38] · slices_S16384x64_S16384x1_0_38) : (⟨S16384x64, .f32⟩ : BufTy).Contents (Elt F) → (⟨S16384x1, .f32⟩ : BufTy).Contents (Elt F)),
    StableHlo.reshape main_v76 main_v77 rfl shapeCasts_S16384x1_S16384,
    StableHlo.unary main_arg0 main_v78 ((extractStridedSlice S16384x1 ![0, 39] · slices_S16384x64_S16384x1_0_39) : (⟨S16384x64, .f32⟩ : BufTy).Contents (Elt F) → (⟨S16384x1, .f32⟩ : BufTy).Contents (Elt F)),
    StableHlo.reshape main_v78 main_v79 rfl shapeCasts_S16384x1_S16384,
    StableHlo.unary main_arg0 main_v80 ((extractStridedSlice S16384x1 ![0, 40] · slices_S16384x64_S16384x1_0_40) : (⟨S16384x64, .f32⟩ : BufTy).Contents (Elt F) → (⟨S16384x1, .f32⟩ : BufTy).Contents (Elt F)),
    StableHlo.reshape main_v80 main_v81 rfl shapeCasts_S16384x1_S16384,
    StableHlo.unary main_arg0 main_v82 ((extractStridedSlice S16384x1 ![0, 41] · slices_S16384x64_S16384x1_0_41) : (⟨S16384x64, .f32⟩ : BufTy).Contents (Elt F) → (⟨S16384x1, .f32⟩ : BufTy).Contents (Elt F)),
    StableHlo.reshape main_v82 main_v83 rfl shapeCasts_S16384x1_S16384,
    StableHlo.unary main_arg0 main_v84 ((extractStridedSlice S16384x1 ![0, 42] · slices_S16384x64_S16384x1_0_42) : (⟨S16384x64, .f32⟩ : BufTy).Contents (Elt F) → (⟨S16384x1, .f32⟩ : BufTy).Contents (Elt F)),
    StableHlo.reshape main_v84 main_v85 rfl shapeCasts_S16384x1_S16384,
    StableHlo.unary main_arg0 main_v86 ((extractStridedSlice S16384x1 ![0, 43] · slices_S16384x64_S16384x1_0_43) : (⟨S16384x64, .f32⟩ : BufTy).Contents (Elt F) → (⟨S16384x1, .f32⟩ : BufTy).Contents (Elt F)),
    StableHlo.reshape main_v86 main_v87 rfl shapeCasts_S16384x1_S16384,
    StableHlo.unary main_arg0 main_v88 ((extractStridedSlice S16384x1 ![0, 44] · slices_S16384x64_S16384x1_0_44) : (⟨S16384x64, .f32⟩ : BufTy).Contents (Elt F) → (⟨S16384x1, .f32⟩ : BufTy).Contents (Elt F)),
    StableHlo.reshape main_v88 main_v89 rfl shapeCasts_S16384x1_S16384,
    StableHlo.unary main_arg0 main_v90 ((extractStridedSlice S16384x1 ![0, 45] · slices_S16384x64_S16384x1_0_45) : (⟨S16384x64, .f32⟩ : BufTy).Contents (Elt F) → (⟨S16384x1, .f32⟩ : BufTy).Contents (Elt F)),
    StableHlo.reshape main_v90 main_v91 rfl shapeCasts_S16384x1_S16384,
    StableHlo.unary main_arg0 main_v92 ((extractStridedSlice S16384x1 ![0, 46] · slices_S16384x64_S16384x1_0_46) : (⟨S16384x64, .f32⟩ : BufTy).Contents (Elt F) → (⟨S16384x1, .f32⟩ : BufTy).Contents (Elt F)),
    StableHlo.reshape main_v92 main_v93 rfl shapeCasts_S16384x1_S16384,
    StableHlo.unary main_arg0 main_v94 ((extractStridedSlice S16384x1 ![0, 47] · slices_S16384x64_S16384x1_0_47) : (⟨S16384x64, .f32⟩ : BufTy).Contents (Elt F) → (⟨S16384x1, .f32⟩ : BufTy).Contents (Elt F)),
    StableHlo.reshape main_v94 main_v95 rfl shapeCasts_S16384x1_S16384,
    StableHlo.unary main_arg0 main_v96 ((extractStridedSlice S16384x1 ![0, 48] · slices_S16384x64_S16384x1_0_48) : (⟨S16384x64, .f32⟩ : BufTy).Contents (Elt F) → (⟨S16384x1, .f32⟩ : BufTy).Contents (Elt F)),
    StableHlo.reshape main_v96 main_v97 rfl shapeCasts_S16384x1_S16384,
    StableHlo.unary main_arg0 main_v98 ((extractStridedSlice S16384x1 ![0, 49] · slices_S16384x64_S16384x1_0_49) : (⟨S16384x64, .f32⟩ : BufTy).Contents (Elt F) → (⟨S16384x1, .f32⟩ : BufTy).Contents (Elt F)),
    StableHlo.reshape main_v98 main_v99 rfl shapeCasts_S16384x1_S16384,
    StableHlo.unary main_arg0 main_v100 ((extractStridedSlice S16384x1 ![0, 50] · slices_S16384x64_S16384x1_0_50) : (⟨S16384x64, .f32⟩ : BufTy).Contents (Elt F) → (⟨S16384x1, .f32⟩ : BufTy).Contents (Elt F)),
    StableHlo.reshape main_v100 main_v101 rfl shapeCasts_S16384x1_S16384,
    StableHlo.unary main_arg0 main_v102 ((extractStridedSlice S16384x1 ![0, 51] · slices_S16384x64_S16384x1_0_51) : (⟨S16384x64, .f32⟩ : BufTy).Contents (Elt F) → (⟨S16384x1, .f32⟩ : BufTy).Contents (Elt F)),
    StableHlo.reshape main_v102 main_v103 rfl shapeCasts_S16384x1_S16384,
    StableHlo.unary main_arg0 main_v104 ((extractStridedSlice S16384x1 ![0, 52] · slices_S16384x64_S16384x1_0_52) : (⟨S16384x64, .f32⟩ : BufTy).Contents (Elt F) → (⟨S16384x1, .f32⟩ : BufTy).Contents (Elt F)),
    StableHlo.reshape main_v104 main_v105 rfl shapeCasts_S16384x1_S16384,
    StableHlo.unary main_arg0 main_v106 ((extractStridedSlice S16384x1 ![0, 53] · slices_S16384x64_S16384x1_0_53) : (⟨S16384x64, .f32⟩ : BufTy).Contents (Elt F) → (⟨S16384x1, .f32⟩ : BufTy).Contents (Elt F)),
    StableHlo.reshape main_v106 main_v107 rfl shapeCasts_S16384x1_S16384,
    StableHlo.unary main_arg0 main_v108 ((extractStridedSlice S16384x1 ![0, 54] · slices_S16384x64_S16384x1_0_54) : (⟨S16384x64, .f32⟩ : BufTy).Contents (Elt F) → (⟨S16384x1, .f32⟩ : BufTy).Contents (Elt F)),
    StableHlo.reshape main_v108 main_v109 rfl shapeCasts_S16384x1_S16384,
    StableHlo.unary main_arg0 main_v110 ((extractStridedSlice S16384x1 ![0, 55] · slices_S16384x64_S16384x1_0_55) : (⟨S16384x64, .f32⟩ : BufTy).Contents (Elt F) → (⟨S16384x1, .f32⟩ : BufTy).Contents (Elt F)),
    StableHlo.reshape main_v110 main_v111 rfl shapeCasts_S16384x1_S16384,
    StableHlo.unary main_arg0 main_v112 ((extractStridedSlice S16384x1 ![0, 56] · slices_S16384x64_S16384x1_0_56) : (⟨S16384x64, .f32⟩ : BufTy).Contents (Elt F) → (⟨S16384x1, .f32⟩ : BufTy).Contents (Elt F)),
    StableHlo.reshape main_v112 main_v113 rfl shapeCasts_S16384x1_S16384,
    StableHlo.unary main_arg0 main_v114 ((extractStridedSlice S16384x1 ![0, 57] · slices_S16384x64_S16384x1_0_57) : (⟨S16384x64, .f32⟩ : BufTy).Contents (Elt F) → (⟨S16384x1, .f32⟩ : BufTy).Contents (Elt F)),
    StableHlo.reshape main_v114 main_v115 rfl shapeCasts_S16384x1_S16384,
    StableHlo.unary main_arg0 main_v116 ((extractStridedSlice S16384x1 ![0, 58] · slices_S16384x64_S16384x1_0_58) : (⟨S16384x64, .f32⟩ : BufTy).Contents (Elt F) → (⟨S16384x1, .f32⟩ : BufTy).Contents (Elt F)),
    StableHlo.reshape main_v116 main_v117 rfl shapeCasts_S16384x1_S16384,
    StableHlo.unary main_arg0 main_v118 ((extractStridedSlice S16384x1 ![0, 59] · slices_S16384x64_S16384x1_0_59) : (⟨S16384x64, .f32⟩ : BufTy).Contents (Elt F) → (⟨S16384x1, .f32⟩ : BufTy).Contents (Elt F)),
    StableHlo.reshape main_v118 main_v119 rfl shapeCasts_S16384x1_S16384 ]

theorem part1_eq (d : Dev nD) : main_part1 (F := F) d = seq ops1 := rfl
theorem ops1_sub : (ops1 (F := F)).Forall fun op => op.bufs ⊆ tcRefs τ sig := by line_sub
theorem ops1_fresh : ∀ op ∈ (ops1 (F := F)), op.fresh = ∅ := by line_fresh
theorem ops1_ordered : Cert.Ssa.Ordered 61 (ops1 (F := F)) := by line_ordered

/-- Window 2 of @main: its operations, positions 121 to 180, in order. -/
abbrev ops2 : List (HloOp τ sig (Elt F)) :=
  [ StableHlo.unary main_arg0 main_v120 ((extractStridedSlice S16384x1 ![0, 60] · slices_S16384x64_S16384x1_0_60) : (⟨S16384x64, .f32⟩ : BufTy).Contents (Elt F) → (⟨S16384x1, .f32⟩ : BufTy).Contents (Elt F)),
    StableHlo.reshape main_v120 main_v121 rfl shapeCasts_S16384x1_S16384,
    StableHlo.unary main_arg0 main_v122 ((extractStridedSlice S16384x1 ![0, 61] · slices_S16384x64_S16384x1_0_61) : (⟨S16384x64, .f32⟩ : BufTy).Contents (Elt F) → (⟨S16384x1, .f32⟩ : BufTy).Contents (Elt F)),
    StableHlo.reshape main_v122 main_v123 rfl shapeCasts_S16384x1_S16384,
    StableHlo.unary main_arg0 main_v124 ((extractStridedSlice S16384x1 ![0, 62] · slices_S16384x64_S16384x1_0_62) : (⟨S16384x64, .f32⟩ : BufTy).Contents (Elt F) → (⟨S16384x1, .f32⟩ : BufTy).Contents (Elt F)),
    StableHlo.reshape main_v124 main_v125 rfl shapeCasts_S16384x1_S16384,
    StableHlo.unary main_arg0 main_v126 ((extractStridedSlice S16384x1 ![0, 63] · slices_S16384x64_S16384x1_0_63) : (⟨S16384x64, .f32⟩ : BufTy).Contents (Elt F) → (⟨S16384x1, .f32⟩ : BufTy).Contents (Elt F)),
    StableHlo.reshape main_v126 main_v127 rfl shapeCasts_S16384x1_S16384,
    StableHlo.nullary main_cst (constant S_ .f32 0xBE07467F#32),
    StableHlo.unary main_cst main_v128 (broadcastInDim S16384 ![] bcast_S_S16384 : (⟨S_, .f32⟩ : BufTy).Contents (Elt F) → (⟨S16384, .f32⟩ : BufTy).Contents (Elt F)),
    StableHlo.nullary main_cst_0 (constant S_ .f32 0x3F23F2BD#32),
    StableHlo.unary main_cst_0 main_v129 (broadcastInDim S16384 ![] bcast_S_S16384 : (⟨S_, .f32⟩ : BufTy).Contents (Elt F) → (⟨S16384, .f32⟩ : BufTy).Contents (Elt F)),
    StableHlo.nullary main_cst_1 (constant S_ .f32 0xBF0921A1#32),
    StableHlo.unary main_cst_1 main_v130 (broadcastInDim S16384 ![] bcast_S_S16384 : (⟨S_, .f32⟩ : BufTy).Contents (Elt F) → (⟨S16384, .f32⟩ : BufTy).Contents (Elt F)),
    StableHlo.nullary main_cst_2 (constant S_ .f32 0x3EB922FD#32),
    StableHlo.unary main_cst_2 main_v131 (broadcastInDim S16384 ![] bcast_S_S16384 : (⟨S_, .f32⟩ : BufTy).Contents (Elt F) → (⟨S16384, .f32⟩ : BufTy).Contents (Elt F)),
    StableHlo.nullary main_cst_3 (constant S_ .f32 0x3F7273E6#32),
    StableHlo.unary main_cst_3 main_v132 (broadcastInDim S16384 ![] bcast_S_S16384 : (⟨S_, .f32⟩ : BufTy).Contents (Elt F) → (⟨S16384, .f32⟩ : BufTy).Contents (Elt F)),
    StableHlo.nullary main_cst_4 (constant S_ .f32 0xBF3427FE#32),
    StableHlo.unary main_cst_4 main_v133 (broadcastInDim S16384 ![] bcast_S_S16384 : (⟨S_, .f32⟩ : BufTy).Contents (Elt F) → (⟨S16384, .f32⟩ : BufTy).Contents (Elt F)),
    StableHlo.nullary main_cst_5 (constant S_ .f32 0xBF1F8EEA#32),
    StableHlo.unary main_cst_5 main_v134 (broadcastInDim S16384 ![] bcast_S_S16384 : (⟨S_, .f32⟩ : BufTy).Contents (Elt F) → (⟨S16384, .f32⟩ : BufTy).Contents (Elt F)),
    StableHlo.nullary main_cst_6 (constant S_ .f32 0x3D29456E#32),
    StableHlo.unary main_cst_6 main_v135 (broadcastInDim S16384 ![] bcast_S_S16384 : (⟨S_, .f32⟩ : BufTy).Contents (Elt F) → (⟨S16384, .f32⟩ : BufTy).Contents (Elt F)),
    StableHlo.nullary main_cst_7 (constant S_ .f32 0xBE600AEC#32),
    StableHlo.unary main_cst_7 main_v136 (broadcastInDim S16384 ![] bcast_S_S16384 : (⟨S_, .f32⟩ : BufTy).Contents (Elt F) → (⟨S16384, .f32⟩ : BufTy).Contents (Elt F)),
    StableHlo.nullary main_cst_8 (constant S_ .f32 0xBF9F7A03#32),
    StableHlo.unary main_cst_8 main_v137 (broadcastInDim S16384 ![] bcast_S_S16384 : (⟨S_, .f32⟩ : BufTy).Contents (Elt F) → (⟨S16384, .f32⟩ : BufTy).Contents (Elt F)),
    StableHlo.nullary main_cst_9 (constant S_ .f32 0xBF0B548F#32),
    StableHlo.unary main_cst_9 main_v138 (broadcastInDim S16384 ![] bcast_S_S16384 : (⟨S_, .f32⟩ : BufTy).Contents (Elt F) → (⟨S16384, .f32⟩ : BufTy).Contents (Elt F)),
    StableHlo.nullary main_cst_10 (constant S_ .f32 0xBEA1F218#32),
    StableHlo.unary main_cst_10 main_v139 (broadcastInDim S16384 ![] bcast_S_S16384 : (⟨S_, .f32⟩ : BufTy).Contents (Elt F) → (⟨S16384, .f32⟩ : BufTy).Contents (Elt F)),
    StableHlo.nullary main_cst_11 (constant S_ .f32 0x3F857114#32),
    StableHlo.unary main_cst_11 main_v140 (broadcastInDim S16384 ![] bcast_S_S16384 : (⟨S_, .f32⟩ : BufTy).Contents (Elt F) → (⟨S16384, .f32⟩ : BufTy).Contents (Elt F)),
    StableHlo.nullary main_cst_12 (constant S_ .f32 0xBE039E97#32),
    StableHlo.unary main_cst_12 main_v141 (broadcastInDim S16384 ![] bcast_S_S16384 : (⟨S_, .f32⟩ : BufTy).Contents (Elt F) → (⟨S16384, .f32⟩ : BufTy).Contents (Elt F)),
    StableHlo.nullary main_cst_13 (constant S_ .f32 0xBF2A4A33#32),
    StableHlo.unary main_cst_13 main_v142 (broadcastInDim S16384 ![] bcast_S_S16384 : (⟨S_, .f32⟩ : BufTy).Contents (Elt F) → (⟨S16384, .f32⟩ : BufTy).Contents (Elt F)),
    StableHlo.nullary main_cst_14 (constant S_ .f32 0x3EB3F921#32),
    StableHlo.unary main_cst_14 main_v143 (broadcastInDim S16384 ![] bcast_S_S16384 : (⟨S_, .f32⟩ : BufTy).Contents (Elt F) → (⟨S16384, .f32⟩ : BufTy).Contents (Elt F)),
    StableHlo.binary main_v57 main_v69 main_v144 (addf : (⟨S16384, .f32⟩ : BufTy).Contents (Elt F) → (⟨S16384, .f32⟩ : BufTy).Contents (Elt F) → (⟨S16384, .f32⟩ : BufTy).Contents (Elt F)),
    StableHlo.binary main_v57 main_v57 main_v145 (mulf : (⟨S16384, .f32⟩ : BufTy).Contents (Elt F) → (⟨S16384, .f32⟩ : BufTy).Contents (Elt F) → (⟨S16384, .f32⟩ : BufTy).Contents (Elt F)),
    StableHlo.binary main_v105 main_v107 main_v146 (subf : (⟨S16384, .f32⟩ : BufTy).Contents (Elt F) → (⟨S16384, .f32⟩ : BufTy).Contents (Elt F) → (⟨S16384, .f32⟩ : BufTy).Contents (Elt F)),
    StableHlo.unary main_v139 main_v147 (Host.sin : (⟨S16384, .f32⟩ : BufTy).Contents (Elt F) → (⟨S16384, .f32⟩ : BufTy).Contents (Elt F)),
    StableHlo.binary main_v49 main_v65 main_v148 (addf : (⟨S16384, .f32⟩ : BufTy).Contents (Elt F) → (⟨S16384, .f32⟩ : BufTy).Contents (Elt F) → (⟨S16384, .f32⟩ : BufTy).Contents (Elt F)),
    StableHlo.binary main_v11 main_v141 main_v149 (mulf : (⟨S16384, .f32⟩ : BufTy).Contents (Elt F) → (⟨S16384, .f32⟩ : BufTy).Contents (Elt F) → (⟨S16384, .f32⟩ : BufTy).Contents (Elt F)),
    StableHlo.unary main_v91 main_v150 (Host.cos : (⟨S16384, .f32⟩ : BufTy).Contents (Elt F) → (⟨S16384, .f32⟩ : BufTy).Contents (Elt F)),
    StableHlo.binary main_v81 main_v55 main_v151 (addf : (⟨S16384, .f32⟩ : BufTy).Contents (Elt F) → (⟨S16384, .f32⟩ : BufTy).Contents (Elt F) → (⟨S16384, .f32⟩ : BufTy).Contents (Elt F)),
    StableHlo.unary main_v141 main_v152 (Host.cos : (⟨S16384, .f32⟩ : BufTy).Contents (Elt F) → (⟨S16384, .f32⟩ : BufTy).Contents (Elt F)),
    StableHlo.binary main_v131 main_v13 main_v153 (addf : (⟨S16384, .f32⟩ : BufTy).Contents (Elt F) → (⟨S16384, .f32⟩ : BufTy).Contents (Elt F) → (⟨S16384, .f32⟩ : BufTy).Contents (Elt F)),
    StableHlo.binary main_v129 main_v53 main_v154 (mulf : (⟨S16384, .f32⟩ : BufTy).Contents (Elt F) → (⟨S16384, .f32⟩ : BufTy).Contents (Elt F) → (⟨S16384, .f32⟩ : BufTy).Contents (Elt F)),
    StableHlo.binary main_v13 main_v131 main_v155 (mulf : (⟨S16384, .f32⟩ : BufTy).Contents (Elt F) → (⟨S16384, .f32⟩ : BufTy).Contents (Elt F) → (⟨S16384, .f32⟩ : BufTy).Contents (Elt F)),
    StableHlo.unary main_v25 main_v156 (Host.cos : (⟨S16384, .f32⟩ : BufTy).Contents (Elt F) → (⟨S16384, .f32⟩ : BufTy).Contents (Elt F)),
    StableHlo.binary main_v119 main_v130 main_v157 (subf : (⟨S16384, .f32⟩ : BufTy).Contents (Elt F) → (⟨S16384, .f32⟩ : BufTy).Contents (Elt F) → (⟨S16384, .f32⟩ : BufTy).Contents (Elt F)),
    StableHlo.unary main_v69 main_v158 (Host.sin : (⟨S16384, .f32⟩ : BufTy).Contents (Elt F) → (⟨S16384, .f32⟩ : BufTy).Contents (Elt F)),
    StableHlo.unary main_v109 main_v159 (Host.sin : (⟨S16384, .f32⟩ : BufTy).Contents (Elt F) → (⟨S16384, .f32⟩ : BufTy).Contents (Elt F)),
    StableHlo.unary main_v153 main_v160 (Host.cos : (⟨S16384, .f32⟩ : BufTy).Contents (Elt F) → (⟨S16384, .f32⟩ : BufTy).Contents (Elt F)),
    StableHlo.unary main_v131 main_v161 (Host.negf : (⟨S16384, .f32⟩ : BufTy).Contents (Elt F) → (⟨S16384, .f32⟩ : BufTy).Contents (Elt F)),
    StableHlo.unary main_v111 main_v162 (Host.sin : (⟨S16384, .f32⟩ : BufTy).Contents (Elt F) → (⟨S16384, .f32⟩ : BufTy).Contents (Elt F)),
    StableHlo.unary main_v85 main_v163 (Host.cos : (⟨S16384, .f32⟩ : BufTy).Contents (Elt F) → (⟨S16384, .f32⟩ : BufTy).Contents (Elt F)) ]

theorem part2_eq (d : Dev nD) : main_part2 (F := F) d = seq ops2 := rfl
theorem ops2_sub : (ops2 (F := F)).Forall fun op => op.bufs ⊆ tcRefs τ sig := by line_sub
theorem ops2_fresh : ∀ op ∈ (ops2 (F := F)), op.fresh = ∅ := by line_fresh
theorem ops2_ordered : Cert.Ssa.Ordered 121 (ops2 (F := F)) := by line_ordered

/-- Window 3 of @main: its operations, positions 181 to 240, in order. -/
abbrev ops3 : List (HloOp τ sig (Elt F)) :=
  [ StableHlo.unary main_v77 main_v164 (Host.cos : (⟨S16384, .f32⟩ : BufTy).Contents (Elt F) → (⟨S16384, .f32⟩ : BufTy).Contents (Elt F)),
    StableHlo.binary main_v109 main_v109 main_v165 (mulf : (⟨S16384, .f32⟩ : BufTy).Contents (Elt F) → (⟨S16384, .f32⟩ : BufTy).Contents (Elt F) → (⟨S16384, .f32⟩ : BufTy).Contents (Elt F)),
    StableHlo.unary main_v134 main_v166 (Host.cos : (⟨S16384, .f32⟩ : BufTy).Contents (Elt F) → (⟨S16384, .f32⟩ : BufTy).Contents (Elt F)),
    StableHlo.binary main_v43 main_v138 main_v167 (addf : (⟨S16384, .f32⟩ : BufTy).Contents (Elt F) → (⟨S16384, .f32⟩ : BufTy).Contents (Elt F) → (⟨S16384, .f32⟩ : BufTy).Contents (Elt F)),
    StableHlo.unary main_v134 main_v168 (Host.cos : (⟨S16384, .f32⟩ : BufTy).Contents (Elt F) → (⟨S16384, .f32⟩ : BufTy).Contents (Elt F)),
    StableHlo.unary main_v35 main_v169 (Host.negf : (⟨S16384, .f32⟩ : BufTy).Contents (Elt F) → (⟨S16384, .f32⟩ : BufTy).Contents (Elt F)),
    StableHlo.binary main_v162 main_v127 main_v170 (subf : (⟨S16384, .f32⟩ : BufTy).Contents (Elt F) → (⟨S16384, .f32⟩ : BufTy).Contents (Elt F) → (⟨S16384, .f32⟩ : BufTy).Contents (Elt F)),
    StableHlo.unary main_v23 main_v171 (Host.sin : (⟨S16384, .f32⟩ : BufTy).Contents (Elt F) → (⟨S16384, .f32⟩ : BufTy).Contents (Elt F)),
    StableHlo.binary main_v167 main_v167 main_v172 (mulf : (⟨S16384, .f32⟩ : BufTy).Contents (Elt F) → (⟨S16384, .f32⟩ : BufTy).Contents (Elt F) → (⟨S16384, .f32⟩ : BufTy).Contents (Elt F)),
    StableHlo.binary main_v71 main_v71 main_v173 (mulf : (⟨S16384, .f32⟩ : BufTy).Contents (Elt F) → (⟨S16384, .f32⟩ : BufTy).Contents (Elt F) → (⟨S16384, .f32⟩ : BufTy).Contents (Elt F)),
    StableHlo.binary main_v95 main_v65 main_v174 (mulf : (⟨S16384, .f32⟩ : BufTy).Contents (Elt F) → (⟨S16384, .f32⟩ : BufTy).Contents (Elt F) → (⟨S16384, .f32⟩ : BufTy).Contents (Elt F)),
    StableHlo.binary main_v27 main_v165 main_v175 (mulf : (⟨S16384, .f32⟩ : BufTy).Contents (Elt F) → (⟨S16384, .f32⟩ : BufTy).Contents (Elt F) → (⟨S16384, .f32⟩ : BufTy).Contents (Elt F)),
    StableHlo.unary main_v105 main_v176 (Host.cos : (⟨S16384, .f32⟩ : BufTy).Contents (Elt F) → (⟨S16384, .f32⟩ : BufTy).Contents (Elt F)),
    StableHlo.unary main_v134 main_v177 (Host.negf : (⟨S16384, .f32⟩ : BufTy).Contents (Elt F) → (⟨S16384, .f32⟩ : BufTy).Contents (Elt F)),
    StableHlo.binary main_v155 main_v159 main_v178 (subf : (⟨S16384, .f32⟩ : BufTy).Contents (Elt F) → (⟨S16384, .f32⟩ : BufTy).Contents (Elt F) → (⟨S16384, .f32⟩ : BufTy).Contents (Elt F)),
    StableHlo.binary main_v143 main_v142 main_v179 (subf : (⟨S16384, .f32⟩ : BufTy).Contents (Elt F) → (⟨S16384, .f32⟩ : BufTy).Contents (Elt F) → (⟨S16384, .f32⟩ : BufTy).Contents (Elt F)),
    StableHlo.binary main_v161 main_v163 main_v180 (subf : (⟨S16384, .f32⟩ : BufTy).Contents (Elt F) → (⟨S16384, .f32⟩ : BufTy).Contents (Elt F) → (⟨S16384, .f32⟩ : BufTy).Contents (Elt F)),
    StableHlo.unary main_v99 main_v181 (Host.sin : (⟨S16384, .f32⟩ : BufTy).Contents (Elt F) → (⟨S16384, .f32⟩ : BufTy).Contents (Elt F)),
    StableHlo.unary main_v69 main_v182 (Host.sin : (⟨S16384, .f32⟩ : BufTy).Contents (Elt F) → (⟨S16384, .f32⟩ : BufTy).Contents (Elt F)),
    StableHlo.binary main_v29 main_v29 main_v183 (mulf : (⟨S16384, .f32⟩ : BufTy).Contents (Elt F) → (⟨S16384, .f32⟩ : BufTy).Contents (Elt F) → (⟨S16384, .f32⟩ : BufTy).Contents (Elt F)),
    StableHlo.unary main_v49 main_v184 (Host.cos : (⟨S16384, .f32⟩ : BufTy).Contents (Elt F) → (⟨S16384, .f32⟩ : BufTy).Contents (Elt F)),
    StableHlo.unary main_v164 main_v185 (Host.sin : (⟨S16384, .f32⟩ : BufTy).Contents (Elt F) → (⟨S16384, .f32⟩ : BufTy).Contents (Elt F)),
    StableHlo.unary main_v121 main_v186 (Host.cos : (⟨S16384, .f32⟩ : BufTy).Contents (Elt F) → (⟨S16384, .f32⟩ : BufTy).Contents (Elt F)),
    StableHlo.binary main_v13 main_v174 main_v187 (mulf : (⟨S16384, .f32⟩ : BufTy).Contents (Elt F) → (⟨S16384, .f32⟩ : BufTy).Contents (Elt F) → (⟨S16384, .f32⟩ : BufTy).Contents (Elt F)),
    StableHlo.unary main_v87 main_v188 (Host.cos : (⟨S16384, .f32⟩ : BufTy).Contents (Elt F) → (⟨S16384, .f32⟩ : BufTy).Contents (Elt F)),
    StableHlo.binary main_v145 main_v183 main_v189 (addf : (⟨S16384, .f32⟩ : BufTy).Contents (Elt F) → (⟨S16384, .f32⟩ : BufTy).Contents (Elt F) → (⟨S16384, .f32⟩ : BufTy).Contents (Elt F)),
    StableHlo.unary main_v175 main_v190 (Host.cos : (⟨S16384, .f32⟩ : BufTy).Contents (Elt F) → (⟨S16384, .f32⟩ : BufTy).Contents (Elt F)),
    StableHlo.binary main_v183 main_v31 main_v191 (mulf : (⟨S16384, .f32⟩ : BufTy).Contents (Elt F) → (⟨S16384, .f32⟩ : BufTy).Contents (Elt F) → (⟨S16384, .f32⟩ : BufTy).Contents (Elt F)),
    StableHlo.unary main_v176 main_v192 (Host.cos : (⟨S16384, .f32⟩ : BufTy).Contents (Elt F) → (⟨S16384, .f32⟩ : BufTy).Contents (Elt F)),
    StableHlo.binary main_v188 main_v139 main_v193 (mulf : (⟨S16384, .f32⟩ : BufTy).Contents (Elt F) → (⟨S16384, .f32⟩ : BufTy).Contents (Elt F) → (⟨S16384, .f32⟩ : BufTy).Contents (Elt F)),
    StableHlo.binary main_v142 main_v193 main_v194 (mulf : (⟨S16384, .f32⟩ : BufTy).Contents (Elt F) → (⟨S16384, .f32⟩ : BufTy).Contents (Elt F) → (⟨S16384, .f32⟩ : BufTy).Contents (Elt F)),
    StableHlo.unary main_v55 main_v195 (Host.sin : (⟨S16384, .f32⟩ : BufTy).Contents (Elt F) → (⟨S16384, .f32⟩ : BufTy).Contents (Elt F)),
    StableHlo.unary main_v146 main_v196 (Host.cos : (⟨S16384, .f32⟩ : BufTy).Contents (Elt F) → (⟨S16384, .f32⟩ : BufTy).Contents (Elt F)),
    StableHlo.unary main_v131 main_v197 (Host.sin : (⟨S16384, .f32⟩ : BufTy).Contents (Elt F) → (⟨S16384, .f32⟩ : BufTy).Contents (Elt F)),
    StableHlo.unary main_v85 main_v198 (Host.sin : (⟨S16384, .f32⟩ : BufTy).Contents (Elt F) → (⟨S16384, .f32⟩ : BufTy).Contents (Elt F)),
    StableHlo.unary main_v111 main_v199 (Host.cos : (⟨S16384, .f32⟩ : BufTy).Contents (Elt F) → (⟨S16384, .f32⟩ : BufTy).Contents (Elt F)),
    StableHlo.binary main_v69 main_v197 main_v200 (subf : (⟨S16384, .f32⟩ : BufTy).Contents (Elt F) → (⟨S16384, .f32⟩ : BufTy).Contents (Elt F) → (⟨S16384, .f32⟩ : BufTy).Contents (Elt F)),
    StableHlo.binary main_v137 main_v176 main_v201 (mulf : (⟨S16384, .f32⟩ : BufTy).Contents (Elt F) → (⟨S16384, .f32⟩ : BufTy).Contents (Elt F) → (⟨S16384, .f32⟩ : BufTy).Contents (Elt F)),
    StableHlo.binary main_v180 main_v128 main_v202 (addf : (⟨S16384, .f32⟩ : BufTy).Contents (Elt F) → (⟨S16384, .f32⟩ : BufTy).Contents (Elt F) → (⟨S16384, .f32⟩ : BufTy).Contents (Elt F)),
    StableHlo.unary main_v179 main_v203 (Host.cos : (⟨S16384, .f32⟩ : BufTy).Contents (Elt F) → (⟨S16384, .f32⟩ : BufTy).Contents (Elt F)),
    StableHlo.binary main_v167 main_v143 main_v204 (mulf : (⟨S16384, .f32⟩ : BufTy).Contents (Elt F) → (⟨S16384, .f32⟩ : BufTy).Contents (Elt F) → (⟨S16384, .f32⟩ : BufTy).Contents (Elt F)),
    StableHlo.binary main_v128 main_v128 main_v205 (mulf : (⟨S16384, .f32⟩ : BufTy).Contents (Elt F) → (⟨S16384, .f32⟩ : BufTy).Contents (Elt F) → (⟨S16384, .f32⟩ : BufTy).Contents (Elt F)),
    StableHlo.binary main_v176 main_v205 main_v206 (subf : (⟨S16384, .f32⟩ : BufTy).Contents (Elt F) → (⟨S16384, .f32⟩ : BufTy).Contents (Elt F) → (⟨S16384, .f32⟩ : BufTy).Contents (Elt F)),
    StableHlo.unary main_v164 main_v207 (Host.sin : (⟨S16384, .f32⟩ : BufTy).Contents (Elt F) → (⟨S16384, .f32⟩ : BufTy).Contents (Elt F)),
    StableHlo.binary main_v130 main_v148 main_v208 (subf : (⟨S16384, .f32⟩ : BufTy).Contents (Elt F) → (⟨S16384, .f32⟩ : BufTy).Contents (Elt F) → (⟨S16384, .f32⟩ : BufTy).Contents (Elt F)),
    StableHlo.unary main_v133 main_v209 (Host.negf : (⟨S16384, .f32⟩ : BufTy).Contents (Elt F) → (⟨S16384, .f32⟩ : BufTy).Contents (Elt F)),
    StableHlo.binary main_v45 main_v167 main_v210 (addf : (⟨S16384, .f32⟩ : BufTy).Contents (Elt F) → (⟨S16384, .f32⟩ : BufTy).Contents (Elt F) → (⟨S16384, .f32⟩ : BufTy).Contents (Elt F)),
    StableHlo.binary main_v73 main_v192 main_v211 (addf : (⟨S16384, .f32⟩ : BufTy).Contents (Elt F) → (⟨S16384, .f32⟩ : BufTy).Contents (Elt F) → (⟨S16384, .f32⟩ : BufTy).Contents (Elt F)),
    StableHlo.binary main_v134 main_v134 main_v212 (mulf : (⟨S16384, .f32⟩ : BufTy).Contents (Elt F) → (⟨S16384, .f32⟩ : BufTy).Contents (Elt F) → (⟨S16384, .f32⟩ : BufTy).Contents (Elt F)),
    StableHlo.binary main_v162 main_v209 main_v213 (subf : (⟨S16384, .f32⟩ : BufTy).Contents (Elt F) → (⟨S16384, .f32⟩ : BufTy).Contents (Elt F) → (⟨S16384, .f32⟩ : BufTy).Contents (Elt F)),
    StableHlo.binary main_v180 main_v170 main_v214 (addf : (⟨S16384, .f32⟩ : BufTy).Contents (Elt F) → (⟨S16384, .f32⟩ : BufTy).Contents (Elt F) → (⟨S16384, .f32⟩ : BufTy).Contents (Elt F)),
    StableHlo.binary main_v135 main_v47 main_v215 (subf : (⟨S16384, .f32⟩ : BufTy).Contents (Elt F) → (⟨S16384, .f32⟩ : BufTy).Contents (Elt F) → (⟨S16384, .f32⟩ : BufTy).Contents (Elt F)),
    StableHlo.binary main_v138 main_v189 main_v216 (addf : (⟨S16384, .f32⟩ : BufTy).Contents (Elt F) → (⟨S16384, .f32⟩ : BufTy).Contents (Elt F) → (⟨S16384, .f32⟩ : BufTy).Contents (Elt F)),
    StableHlo.unary main_v121 main_v217 (Host.sin : (⟨S16384, .f32⟩ : BufTy).Contents (Elt F) → (⟨S16384, .f32⟩ : BufTy).Contents (Elt F)),
    StableHlo.binary main_v190 main_v152 main_v218 (subf : (⟨S16384, .f32⟩ : BufTy).Contents (Elt F) → (⟨S16384, .f32⟩ : BufTy).Contents (Elt F) → (⟨S16384, .f32⟩ : BufTy).Contents (Elt F)),
    StableHlo.unary main_v160 main_v219 (Host.sin : (⟨S16384, .f32⟩ : BufTy).Contents (Elt F) → (⟨S16384, .f32⟩ : BufTy).Contents (Elt F)),
    StableHlo.unary main_v215 main_v220 (Host.sin : (⟨S16384, .f32⟩ : BufTy).Contents (Elt F) → (⟨S16384, .f32⟩ : BufTy).Contents (Elt F)),
    StableHlo.unary main_v144 main_v221 (Host.cos : (⟨S16384, .f32⟩ : BufTy).Contents (Elt F) → (⟨S16384, .f32⟩ : BufTy).Contents (Elt F)),
    StableHlo.binary main_v205 main_v69 main_v222 (subf : (⟨S16384, .f32⟩ : BufTy).Contents (Elt F) → (⟨S16384, .f32⟩ : BufTy).Contents (Elt F) → (⟨S16384, .f32⟩ : BufTy).Contents (Elt F)),
    StableHlo.unary main_v33 main_v223 (Host.sin : (⟨S16384, .f32⟩ : BufTy).Contents (Elt F) → (⟨S16384, .f32⟩ : BufTy).Contents (Elt F)) ]

theorem part3_eq (d : Dev nD) : main_part3 (F := F) d = seq ops3 := rfl
theorem ops3_sub : (ops3 (F := F)).Forall fun op => op.bufs ⊆ tcRefs τ sig := by line_sub
theorem ops3_fresh : ∀ op ∈ (ops3 (F := F)), op.fresh = ∅ := by line_fresh
theorem ops3_ordered : Cert.Ssa.Ordered 181 (ops3 (F := F)) := by line_ordered

/-- Window 4 of @main: its operations, positions 241 to 300, in order. -/
abbrev ops4 : List (HloOp τ sig (Elt F)) :=
  [ StableHlo.binary main_v149 main_v221 main_v224 (mulf : (⟨S16384, .f32⟩ : BufTy).Contents (Elt F) → (⟨S16384, .f32⟩ : BufTy).Contents (Elt F) → (⟨S16384, .f32⟩ : BufTy).Contents (Elt F)),
    StableHlo.unary main_v223 main_v225 (Host.sin : (⟨S16384, .f32⟩ : BufTy).Contents (Elt F) → (⟨S16384, .f32⟩ : BufTy).Contents (Elt F)),
    StableHlo.unary main_v181 main_v226 (Host.cos : (⟨S16384, .f32⟩ : BufTy).Contents (Elt F) → (⟨S16384, .f32⟩ : BufTy).Contents (Elt F)),
    StableHlo.binary main_v158 main_v177 main_v227 (addf : (⟨S16384, .f32⟩ : BufTy).Contents (Elt F) → (⟨S16384, .f32⟩ : BufTy).Contents (Elt F) → (⟨S16384, .f32⟩ : BufTy).Contents (Elt F)),
    StableHlo.unary main_v141 main_v228 (Host.sin : (⟨S16384, .f32⟩ : BufTy).Contents (Elt F) → (⟨S16384, .f32⟩ : BufTy).Contents (Elt F)),
    StableHlo.binary main_v217 main_v125 main_v229 (mulf : (⟨S16384, .f32⟩ : BufTy).Contents (Elt F) → (⟨S16384, .f32⟩ : BufTy).Contents (Elt F) → (⟨S16384, .f32⟩ : BufTy).Contents (Elt F)),
    StableHlo.binary main_v47 main_v47 main_v230 (mulf : (⟨S16384, .f32⟩ : BufTy).Contents (Elt F) → (⟨S16384, .f32⟩ : BufTy).Contents (Elt F) → (⟨S16384, .f32⟩ : BufTy).Contents (Elt F)),
    StableHlo.binary main_v152 main_v155 main_v231 (mulf : (⟨S16384, .f32⟩ : BufTy).Contents (Elt F) → (⟨S16384, .f32⟩ : BufTy).Contents (Elt F) → (⟨S16384, .f32⟩ : BufTy).Contents (Elt F)),
    StableHlo.binary main_v146 main_v214 main_v232 (mulf : (⟨S16384, .f32⟩ : BufTy).Contents (Elt F) → (⟨S16384, .f32⟩ : BufTy).Contents (Elt F) → (⟨S16384, .f32⟩ : BufTy).Contents (Elt F)),
    StableHlo.unary main_v202 main_v233 (Host.negf : (⟨S16384, .f32⟩ : BufTy).Contents (Elt F) → (⟨S16384, .f32⟩ : BufTy).Contents (Elt F)),
    StableHlo.binary main_v99 main_v129 main_v234 (mulf : (⟨S16384, .f32⟩ : BufTy).Contents (Elt F) → (⟨S16384, .f32⟩ : BufTy).Contents (Elt F) → (⟨S16384, .f32⟩ : BufTy).Contents (Elt F)),
    StableHlo.binary main_v178 main_v178 main_v235 (mulf : (⟨S16384, .f32⟩ : BufTy).Contents (Elt F) → (⟨S16384, .f32⟩ : BufTy).Contents (Elt F) → (⟨S16384, .f32⟩ : BufTy).Contents (Elt F)),
    StableHlo.unary main_v109 main_v236 (Host.cos : (⟨S16384, .f32⟩ : BufTy).Contents (Elt F) → (⟨S16384, .f32⟩ : BufTy).Contents (Elt F)),
    StableHlo.unary main_v189 main_v237 (Host.sin : (⟨S16384, .f32⟩ : BufTy).Contents (Elt F) → (⟨S16384, .f32⟩ : BufTy).Contents (Elt F)),
    StableHlo.binary main_v186 main_v165 main_v238 (subf : (⟨S16384, .f32⟩ : BufTy).Contents (Elt F) → (⟨S16384, .f32⟩ : BufTy).Contents (Elt F) → (⟨S16384, .f32⟩ : BufTy).Contents (Elt F)),
    StableHlo.binary main_v168 main_v194 main_v239 (subf : (⟨S16384, .f32⟩ : BufTy).Contents (Elt F) → (⟨S16384, .f32⟩ : BufTy).Contents (Elt F) → (⟨S16384, .f32⟩ : BufTy).Contents (Elt F)),
    StableHlo.unary main_v109 main_v240 (Host.cos : (⟨S16384, .f32⟩ : BufTy).Contents (Elt F) → (⟨S16384, .f32⟩ : BufTy).Contents (Elt F)),
    StableHlo.unary main_v218 main_v241 (Host.sin : (⟨S16384, .f32⟩ : BufTy).Contents (Elt F) → (⟨S16384, .f32⟩ : BufTy).Contents (Elt F)),
    StableHlo.unary main_v177 main_v242 (Host.sin : (⟨S16384, .f32⟩ : BufTy).Contents (Elt F) → (⟨S16384, .f32⟩ : BufTy).Contents (Elt F)),
    StableHlo.unary main_v105 main_v243 (Host.sin : (⟨S16384, .f32⟩ : BufTy).Contents (Elt F) → (⟨S16384, .f32⟩ : BufTy).Contents (Elt F)),
    StableHlo.binary main_v241 main_v13 main_v244 (mulf : (⟨S16384, .f32⟩ : BufTy).Contents (Elt F) → (⟨S16384, .f32⟩ : BufTy).Contents (Elt F) → (⟨S16384, .f32⟩ : BufTy).Contents (Elt F)),
    StableHlo.unary main_v83 main_v245 (Host.cos : (⟨S16384, .f32⟩ : BufTy).Contents (Elt F) → (⟨S16384, .f32⟩ : BufTy).Contents (Elt F)),
    StableHlo.binary main_v133 main_v133 main_v246 (mulf : (⟨S16384, .f32⟩ : BufTy).Contents (Elt F) → (⟨S16384, .f32⟩ : BufTy).Contents (Elt F) → (⟨S16384, .f32⟩ : BufTy).Contents (Elt F)),
    StableHlo.unary main_v53 main_v247 (Host.negf : (⟨S16384, .f32⟩ : BufTy).Contents (Elt F) → (⟨S16384, .f32⟩ : BufTy).Contents (Elt F)),
    StableHlo.binary main_v214 main_v221 main_v248 (mulf : (⟨S16384, .f32⟩ : BufTy).Contents (Elt F) → (⟨S16384, .f32⟩ : BufTy).Contents (Elt F) → (⟨S16384, .f32⟩ : BufTy).Contents (Elt F)),
    StableHlo.binary main_v239 main_v148 main_v249 (subf : (⟨S16384, .f32⟩ : BufTy).Contents (Elt F) → (⟨S16384, .f32⟩ : BufTy).Contents (Elt F) → (⟨S16384, .f32⟩ : BufTy).Contents (Elt F)),
    StableHlo.unary main_v109 main_v250 (Host.sin : (⟨S16384, .f32⟩ : BufTy).Contents (Elt F) → (⟨S16384, .f32⟩ : BufTy).Contents (Elt F)),
    StableHlo.unary main_v200 main_v251 (Host.cos : (⟨S16384, .f32⟩ : BufTy).Contents (Elt F) → (⟨S16384, .f32⟩ : BufTy).Contents (Elt F)),
    StableHlo.unary main_v224 main_v252 (Host.cos : (⟨S16384, .f32⟩ : BufTy).Contents (Elt F) → (⟨S16384, .f32⟩ : BufTy).Contents (Elt F)),
    StableHlo.unary main_v83 main_v253 (Host.negf : (⟨S16384, .f32⟩ : BufTy).Contents (Elt F) → (⟨S16384, .f32⟩ : BufTy).Contents (Elt F)),
    StableHlo.binary main_v221 main_v162 main_v254 (mulf : (⟨S16384, .f32⟩ : BufTy).Contents (Elt F) → (⟨S16384, .f32⟩ : BufTy).Contents (Elt F) → (⟨S16384, .f32⟩ : BufTy).Contents (Elt F)),
    StableHlo.unary main_v33 main_v255 (Host.sin : (⟨S16384, .f32⟩ : BufTy).Contents (Elt F) → (⟨S16384, .f32⟩ : BufTy).Contents (Elt F)),
    StableHlo.binary main_v206 main_v198 main_v256 (addf : (⟨S16384, .f32⟩ : BufTy).Contents (Elt F) → (⟨S16384, .f32⟩ : BufTy).Contents (Elt F) → (⟨S16384, .f32⟩ : BufTy).Contents (Elt F)),
    StableHlo.binary main_v141 main_v255 main_v257 (mulf : (⟨S16384, .f32⟩ : BufTy).Contents (Elt F) → (⟨S16384, .f32⟩ : BufTy).Contents (Elt F) → (⟨S16384, .f32⟩ : BufTy).Contents (Elt F)),
    StableHlo.unary main_v49 main_v258 (Host.cos : (⟨S16384, .f32⟩ : BufTy).Contents (Elt F) → (⟨S16384, .f32⟩ : BufTy).Contents (Elt F)),
    StableHlo.binary main_v198 main_v155 main_v259 (subf : (⟨S16384, .f32⟩ : BufTy).Contents (Elt F) → (⟨S16384, .f32⟩ : BufTy).Contents (Elt F) → (⟨S16384, .f32⟩ : BufTy).Contents (Elt F)),
    StableHlo.binary main_v35 main_v139 main_v260 (addf : (⟨S16384, .f32⟩ : BufTy).Contents (Elt F) → (⟨S16384, .f32⟩ : BufTy).Contents (Elt F) → (⟨S16384, .f32⟩ : BufTy).Contents (Elt F)),
    StableHlo.unary main_v252 main_v261 (Host.cos : (⟨S16384, .f32⟩ : BufTy).Contents (Elt F) → (⟨S16384, .f32⟩ : BufTy).Contents (Elt F)),
    StableHlo.binary main_v224 main_v178 main_v262 (mulf : (⟨S16384, .f32⟩ : BufTy).Contents (Elt F) → (⟨S16384, .f32⟩ : BufTy).Contents (Elt F) → (⟨S16384, .f32⟩ : BufTy).Contents (Elt F)),
    StableHlo.binary main_v242 main_v164 main_v263 (mulf : (⟨S16384, .f32⟩ : BufTy).Contents (Elt F) → (⟨S16384, .f32⟩ : BufTy).Contents (Elt F) → (⟨S16384, .f32⟩ : BufTy).Contents (Elt F)),
    StableHlo.binary main_v178 main_v154 main_v264 (subf : (⟨S16384, .f32⟩ : BufTy).Contents (Elt F) → (⟨S16384, .f32⟩ : BufTy).Contents (Elt F) → (⟨S16384, .f32⟩ : BufTy).Contents (Elt F)),
    StableHlo.binary main_v223 main_v161 main_v265 (subf : (⟨S16384, .f32⟩ : BufTy).Contents (Elt F) → (⟨S16384, .f32⟩ : BufTy).Contents (Elt F) → (⟨S16384, .f32⟩ : BufTy).Contents (Elt F)),
    StableHlo.unary main_v243 main_v266 (Host.cos : (⟨S16384, .f32⟩ : BufTy).Contents (Elt F) → (⟨S16384, .f32⟩ : BufTy).Contents (Elt F)),
    StableHlo.binary main_v224 main_v7 main_v267 (addf : (⟨S16384, .f32⟩ : BufTy).Contents (Elt F) → (⟨S16384, .f32⟩ : BufTy).Contents (Elt F) → (⟨S16384, .f32⟩ : BufTy).Contents (Elt F)),
    StableHlo.unary main_v232 main_v268 (Host.sin : (⟨S16384, .f32⟩ : BufTy).Contents (Elt F) → (⟨S16384, .f32⟩ : BufTy).Contents (Elt F)),
    StableHlo.binary main_v214 main_v223 main_v269 (addf : (⟨S16384, .f32⟩ : BufTy).Contents (Elt F) → (⟨S16384, .f32⟩ : BufTy).Contents (Elt F) → (⟨S16384, .f32⟩ : BufTy).Contents (Elt F)),
    StableHlo.binary main_v236 main_v130 main_v270 (addf : (⟨S16384, .f32⟩ : BufTy).Contents (Elt F) → (⟨S16384, .f32⟩ : BufTy).Contents (Elt F) → (⟨S16384, .f32⟩ : BufTy).Contents (Elt F)),
    StableHlo.binary main_v260 main_v169 main_v271 (subf : (⟨S16384, .f32⟩ : BufTy).Contents (Elt F) → (⟨S16384, .f32⟩ : BufTy).Contents (Elt F) → (⟨S16384, .f32⟩ : BufTy).Contents (Elt F)),
    StableHlo.binary main_v192 main_v165 main_v272 (addf : (⟨S16384, .f32⟩ : BufTy).Contents (Elt F) → (⟨S16384, .f32⟩ : BufTy).Contents (Elt F) → (⟨S16384, .f32⟩ : BufTy).Contents (Elt F)),
    StableHlo.binary main_v181 main_v115 main_v273 (addf : (⟨S16384, .f32⟩ : BufTy).Contents (Elt F) → (⟨S16384, .f32⟩ : BufTy).Contents (Elt F) → (⟨S16384, .f32⟩ : BufTy).Contents (Elt F)),
    StableHlo.binary main_v246 main_v246 main_v274 (mulf : (⟨S16384, .f32⟩ : BufTy).Contents (Elt F) → (⟨S16384, .f32⟩ : BufTy).Contents (Elt F) → (⟨S16384, .f32⟩ : BufTy).Contents (Elt F)),
    StableHlo.binary main_v250 main_v185 main_v275 (addf : (⟨S16384, .f32⟩ : BufTy).Contents (Elt F) → (⟨S16384, .f32⟩ : BufTy).Contents (Elt F) → (⟨S16384, .f32⟩ : BufTy).Contents (Elt F)),
    StableHlo.unary main_v178 main_v276 (Host.sin : (⟨S16384, .f32⟩ : BufTy).Contents (Elt F) → (⟨S16384, .f32⟩ : BufTy).Contents (Elt F)),
    StableHlo.unary main_v83 main_v277 (Host.negf : (⟨S16384, .f32⟩ : BufTy).Contents (Elt F) → (⟨S16384, .f32⟩ : BufTy).Contents (Elt F)),
    StableHlo.unary main_v218 main_v278 (Host.sin : (⟨S16384, .f32⟩ : BufTy).Contents (Elt F) → (⟨S16384, .f32⟩ : BufTy).Contents (Elt F)),
    StableHlo.unary main_v243 main_v279 (Host.cos : (⟨S16384, .f32⟩ : BufTy).Contents (Elt F) → (⟨S16384, .f32⟩ : BufTy).Contents (Elt F)),
    StableHlo.unary main_v200 main_v280 (Host.sin : (⟨S16384, .f32⟩ : BufTy).Contents (Elt F) → (⟨S16384, .f32⟩ : BufTy).Contents (Elt F)),
    StableHlo.unary main_v278 main_v281 (Host.sin : (⟨S16384, .f32⟩ : BufTy).Contents (Elt F) → (⟨S16384, .f32⟩ : BufTy).Contents (Elt F)),
    StableHlo.unary main_v133 main_v282 (Host.sin : (⟨S16384, .f32⟩ : BufTy).Contents (Elt F) → (⟨S16384, .f32⟩ : BufTy).Contents (Elt F)),
    StableHlo.unary main_v160 main_v283 (Host.sin : (⟨S16384, .f32⟩ : BufTy).Contents (Elt F) → (⟨S16384, .f32⟩ : BufTy).Contents (Elt F)) ]

theorem part4_eq (d : Dev nD) : main_part4 (F := F) d = seq ops4 := rfl
theorem ops4_sub : (ops4 (F := F)).Forall fun op => op.bufs ⊆ tcRefs τ sig := by line_sub
theorem ops4_fresh : ∀ op ∈ (ops4 (F := F)), op.fresh = ∅ := by line_fresh
theorem ops4_ordered : Cert.Ssa.Ordered 241 (ops4 (F := F)) := by line_ordered

/-- Window 5 of @main: its operations, positions 301 to 360, in order. -/
abbrev ops5 : List (HloOp τ sig (Elt F)) :=
  [ StableHlo.binary main_v195 main_v91 main_v284 (addf : (⟨S16384, .f32⟩ : BufTy).Contents (Elt F) → (⟨S16384, .f32⟩ : BufTy).Contents (Elt F) → (⟨S16384, .f32⟩ : BufTy).Contents (Elt F)),
    StableHlo.unary main_v214 main_v285 (Host.cos : (⟨S16384, .f32⟩ : BufTy).Contents (Elt F) → (⟨S16384, .f32⟩ : BufTy).Contents (Elt F)),
    StableHlo.unary main_v13 main_v286 (Host.cos : (⟨S16384, .f32⟩ : BufTy).Contents (Elt F) → (⟨S16384, .f32⟩ : BufTy).Contents (Elt F)),
    StableHlo.unary main_v140 main_v287 (Host.negf : (⟨S16384, .f32⟩ : BufTy).Contents (Elt F) → (⟨S16384, .f32⟩ : BufTy).Contents (Elt F)),
    StableHlo.binary main_v221 main_v283 main_v288 (mulf : (⟨S16384, .f32⟩ : BufTy).Contents (Elt F) → (⟨S16384, .f32⟩ : BufTy).Contents (Elt F) → (⟨S16384, .f32⟩ : BufTy).Contents (Elt F)),
    StableHlo.unary main_v187 main_v289 (Host.cos : (⟨S16384, .f32⟩ : BufTy).Contents (Elt F) → (⟨S16384, .f32⟩ : BufTy).Contents (Elt F)),
    StableHlo.binary main_v227 main_v191 main_v290 (subf : (⟨S16384, .f32⟩ : BufTy).Contents (Elt F) → (⟨S16384, .f32⟩ : BufTy).Contents (Elt F) → (⟨S16384, .f32⟩ : BufTy).Contents (Elt F)),
    StableHlo.binary main_v175 main_v252 main_v291 (subf : (⟨S16384, .f32⟩ : BufTy).Contents (Elt F) → (⟨S16384, .f32⟩ : BufTy).Contents (Elt F) → (⟨S16384, .f32⟩ : BufTy).Contents (Elt F)),
    StableHlo.binary main_v55 main_v154 main_v292 (mulf : (⟨S16384, .f32⟩ : BufTy).Contents (Elt F) → (⟨S16384, .f32⟩ : BufTy).Contents (Elt F) → (⟨S16384, .f32⟩ : BufTy).Contents (Elt F)),
    StableHlo.unary main_v240 main_v293 (Host.sin : (⟨S16384, .f32⟩ : BufTy).Contents (Elt F) → (⟨S16384, .f32⟩ : BufTy).Contents (Elt F)),
    StableHlo.unary main_v253 main_v294 (Host.cos : (⟨S16384, .f32⟩ : BufTy).Contents (Elt F) → (⟨S16384, .f32⟩ : BufTy).Contents (Elt F)),
    StableHlo.unary main_v45 main_v295 (Host.sin : (⟨S16384, .f32⟩ : BufTy).Contents (Elt F) → (⟨S16384, .f32⟩ : BufTy).Contents (Elt F)),
    StableHlo.unary main_v293 main_v296 (Host.cos : (⟨S16384, .f32⟩ : BufTy).Contents (Elt F) → (⟨S16384, .f32⟩ : BufTy).Contents (Elt F)),
    StableHlo.binary main_v219 main_v55 main_v297 (mulf : (⟨S16384, .f32⟩ : BufTy).Contents (Elt F) → (⟨S16384, .f32⟩ : BufTy).Contents (Elt F) → (⟨S16384, .f32⟩ : BufTy).Contents (Elt F)),
    StableHlo.binary main_v286 main_v170 main_v298 (addf : (⟨S16384, .f32⟩ : BufTy).Contents (Elt F) → (⟨S16384, .f32⟩ : BufTy).Contents (Elt F) → (⟨S16384, .f32⟩ : BufTy).Contents (Elt F)),
    StableHlo.binary main_v156 main_v156 main_v299 (mulf : (⟨S16384, .f32⟩ : BufTy).Contents (Elt F) → (⟨S16384, .f32⟩ : BufTy).Contents (Elt F) → (⟨S16384, .f32⟩ : BufTy).Contents (Elt F)),
    StableHlo.binary main_v241 main_v241 main_v300 (mulf : (⟨S16384, .f32⟩ : BufTy).Contents (Elt F) → (⟨S16384, .f32⟩ : BufTy).Contents (Elt F) → (⟨S16384, .f32⟩ : BufTy).Contents (Elt F)),
    StableHlo.binary main_v107 main_v177 main_v301 (mulf : (⟨S16384, .f32⟩ : BufTy).Contents (Elt F) → (⟨S16384, .f32⟩ : BufTy).Contents (Elt F) → (⟨S16384, .f32⟩ : BufTy).Contents (Elt F)),
    StableHlo.unary main_v154 main_v302 (Host.cos : (⟨S16384, .f32⟩ : BufTy).Contents (Elt F) → (⟨S16384, .f32⟩ : BufTy).Contents (Elt F)),
    StableHlo.binary main_v256 main_v55 main_v303 (subf : (⟨S16384, .f32⟩ : BufTy).Contents (Elt F) → (⟨S16384, .f32⟩ : BufTy).Contents (Elt F) → (⟨S16384, .f32⟩ : BufTy).Contents (Elt F)),
    StableHlo.binary main_v300 main_v131 main_v304 (addf : (⟨S16384, .f32⟩ : BufTy).Contents (Elt F) → (⟨S16384, .f32⟩ : BufTy).Contents (Elt F) → (⟨S16384, .f32⟩ : BufTy).Contents (Elt F)),
    StableHlo.binary main_v241 main_v35 main_v305 (subf : (⟨S16384, .f32⟩ : BufTy).Contents (Elt F) → (⟨S16384, .f32⟩ : BufTy).Contents (Elt F) → (⟨S16384, .f32⟩ : BufTy).Contents (Elt F)),
    StableHlo.binary main_v129 main_v111 main_v306 (addf : (⟨S16384, .f32⟩ : BufTy).Contents (Elt F) → (⟨S16384, .f32⟩ : BufTy).Contents (Elt F) → (⟨S16384, .f32⟩ : BufTy).Contents (Elt F)),
    StableHlo.binary main_v229 main_v168 main_v307 (subf : (⟨S16384, .f32⟩ : BufTy).Contents (Elt F) → (⟨S16384, .f32⟩ : BufTy).Contents (Elt F) → (⟨S16384, .f32⟩ : BufTy).Contents (Elt F)),
    StableHlo.binary main_v154 main_v168 main_v308 (subf : (⟨S16384, .f32⟩ : BufTy).Contents (Elt F) → (⟨S16384, .f32⟩ : BufTy).Contents (Elt F) → (⟨S16384, .f32⟩ : BufTy).Contents (Elt F)),
    StableHlo.unary main_v144 main_v309 (Host.cos : (⟨S16384, .f32⟩ : BufTy).Contents (Elt F) → (⟨S16384, .f32⟩ : BufTy).Contents (Elt F)),
    StableHlo.binary main_v202 main_v226 main_v310 (subf : (⟨S16384, .f32⟩ : BufTy).Contents (Elt F) → (⟨S16384, .f32⟩ : BufTy).Contents (Elt F) → (⟨S16384, .f32⟩ : BufTy).Contents (Elt F)),
    StableHlo.binary main_v131 main_v131 main_v311 (mulf : (⟨S16384, .f32⟩ : BufTy).Contents (Elt F) → (⟨S16384, .f32⟩ : BufTy).Contents (Elt F) → (⟨S16384, .f32⟩ : BufTy).Contents (Elt F)),
    StableHlo.binary main_v282 main_v260 main_v312 (addf : (⟨S16384, .f32⟩ : BufTy).Contents (Elt F) → (⟨S16384, .f32⟩ : BufTy).Contents (Elt F) → (⟨S16384, .f32⟩ : BufTy).Contents (Elt F)),
    StableHlo.unary main_v283 main_v313 (Host.cos : (⟨S16384, .f32⟩ : BufTy).Contents (Elt F) → (⟨S16384, .f32⟩ : BufTy).Contents (Elt F)),
    StableHlo.unary main_v206 main_v314 (Host.sin : (⟨S16384, .f32⟩ : BufTy).Contents (Elt F) → (⟨S16384, .f32⟩ : BufTy).Contents (Elt F)),
    StableHlo.binary main_v306 main_v121 main_v315 (subf : (⟨S16384, .f32⟩ : BufTy).Contents (Elt F) → (⟨S16384, .f32⟩ : BufTy).Contents (Elt F) → (⟨S16384, .f32⟩ : BufTy).Contents (Elt F)),
    StableHlo.binary main_v166 main_v192 main_v316 (addf : (⟨S16384, .f32⟩ : BufTy).Contents (Elt F) → (⟨S16384, .f32⟩ : BufTy).Contents (Elt F) → (⟨S16384, .f32⟩ : BufTy).Contents (Elt F)),
    StableHlo.unary main_v168 main_v317 (Host.cos : (⟨S16384, .f32⟩ : BufTy).Contents (Elt F) → (⟨S16384, .f32⟩ : BufTy).Contents (Elt F)),
    StableHlo.binary main_v270 main_v212 main_v318 (mulf : (⟨S16384, .f32⟩ : BufTy).Contents (Elt F) → (⟨S16384, .f32⟩ : BufTy).Contents (Elt F) → (⟨S16384, .f32⟩ : BufTy).Contents (Elt F)),
    StableHlo.unary main_v253 main_v319 (Host.sin : (⟨S16384, .f32⟩ : BufTy).Contents (Elt F) → (⟨S16384, .f32⟩ : BufTy).Contents (Elt F)),
    StableHlo.binary main_v177 main_v185 main_v320 (subf : (⟨S16384, .f32⟩ : BufTy).Contents (Elt F) → (⟨S16384, .f32⟩ : BufTy).Contents (Elt F) → (⟨S16384, .f32⟩ : BufTy).Contents (Elt F)),
    StableHlo.unary main_v310 main_v321 (Host.sin : (⟨S16384, .f32⟩ : BufTy).Contents (Elt F) → (⟨S16384, .f32⟩ : BufTy).Contents (Elt F)),
    StableHlo.binary main_v248 main_v111 main_v322 (mulf : (⟨S16384, .f32⟩ : BufTy).Contents (Elt F) → (⟨S16384, .f32⟩ : BufTy).Contents (Elt F) → (⟨S16384, .f32⟩ : BufTy).Contents (Elt F)),
    StableHlo.binary main_v17 main_v253 main_v323 (addf : (⟨S16384, .f32⟩ : BufTy).Contents (Elt F) → (⟨S16384, .f32⟩ : BufTy).Contents (Elt F) → (⟨S16384, .f32⟩ : BufTy).Contents (Elt F)),
    StableHlo.unary main_v232 main_v324 (Host.sin : (⟨S16384, .f32⟩ : BufTy).Contents (Elt F) → (⟨S16384, .f32⟩ : BufTy).Contents (Elt F)),
    StableHlo.unary main_v144 main_v325 (Host.cos : (⟨S16384, .f32⟩ : BufTy).Contents (Elt F) → (⟨S16384, .f32⟩ : BufTy).Contents (Elt F)),
    StableHlo.unary main_v175 main_v326 (Host.cos : (⟨S16384, .f32⟩ : BufTy).Contents (Elt F) → (⟨S16384, .f32⟩ : BufTy).Contents (Elt F)),
    StableHlo.binary main_v240 main_v174 main_v327 (addf : (⟨S16384, .f32⟩ : BufTy).Contents (Elt F) → (⟨S16384, .f32⟩ : BufTy).Contents (Elt F) → (⟨S16384, .f32⟩ : BufTy).Contents (Elt F)),
    StableHlo.binary main_v202 main_v177 main_v328 (addf : (⟨S16384, .f32⟩ : BufTy).Contents (Elt F) → (⟨S16384, .f32⟩ : BufTy).Contents (Elt F) → (⟨S16384, .f32⟩ : BufTy).Contents (Elt F)),
    StableHlo.unary main_v264 main_v329 (Host.cos : (⟨S16384, .f32⟩ : BufTy).Contents (Elt F) → (⟨S16384, .f32⟩ : BufTy).Contents (Elt F)),
    StableHlo.binary main_v113 main_v156 main_v330 (addf : (⟨S16384, .f32⟩ : BufTy).Contents (Elt F) → (⟨S16384, .f32⟩ : BufTy).Contents (Elt F) → (⟨S16384, .f32⟩ : BufTy).Contents (Elt F)),
    StableHlo.binary main_v327 main_v250 main_v331 (addf : (⟨S16384, .f32⟩ : BufTy).Contents (Elt F) → (⟨S16384, .f32⟩ : BufTy).Contents (Elt F) → (⟨S16384, .f32⟩ : BufTy).Contents (Elt F)),
    StableHlo.binary main_v128 main_v137 main_v332 (addf : (⟨S16384, .f32⟩ : BufTy).Contents (Elt F) → (⟨S16384, .f32⟩ : BufTy).Contents (Elt F) → (⟨S16384, .f32⟩ : BufTy).Contents (Elt F)),
    StableHlo.binary main_v284 main_v284 main_v333 (mulf : (⟨S16384, .f32⟩ : BufTy).Contents (Elt F) → (⟨S16384, .f32⟩ : BufTy).Contents (Elt F) → (⟨S16384, .f32⟩ : BufTy).Contents (Elt F)),
    StableHlo.binary main_v27 main_v253 main_v334 (mulf : (⟨S16384, .f32⟩ : BufTy).Contents (Elt F) → (⟨S16384, .f32⟩ : BufTy).Contents (Elt F) → (⟨S16384, .f32⟩ : BufTy).Contents (Elt F)),
    StableHlo.unary main_v31 main_v335 (Host.negf : (⟨S16384, .f32⟩ : BufTy).Contents (Elt F) → (⟨S16384, .f32⟩ : BufTy).Contents (Elt F)),
    StableHlo.unary main_v152 main_v336 (Host.sin : (⟨S16384, .f32⟩ : BufTy).Contents (Elt F) → (⟨S16384, .f32⟩ : BufTy).Contents (Elt F)),
    StableHlo.binary main_v300 main_v300 main_v337 (mulf : (⟨S16384, .f32⟩ : BufTy).Contents (Elt F) → (⟨S16384, .f32⟩ : BufTy).Contents (Elt F) → (⟨S16384, .f32⟩ : BufTy).Contents (Elt F)),
    StableHlo.binary main_v250 main_v250 main_v338 (mulf : (⟨S16384, .f32⟩ : BufTy).Contents (Elt F) → (⟨S16384, .f32⟩ : BufTy).Contents (Elt F) → (⟨S16384, .f32⟩ : BufTy).Contents (Elt F)),
    StableHlo.binary main_v73 main_v197 main_v339 (mulf : (⟨S16384, .f32⟩ : BufTy).Contents (Elt F) → (⟨S16384, .f32⟩ : BufTy).Contents (Elt F) → (⟨S16384, .f32⟩ : BufTy).Contents (Elt F)),
    StableHlo.unary main_v307 main_v340 (Host.sin : (⟨S16384, .f32⟩ : BufTy).Contents (Elt F) → (⟨S16384, .f32⟩ : BufTy).Contents (Elt F)),
    StableHlo.binary main_v182 main_v300 main_v341 (subf : (⟨S16384, .f32⟩ : BufTy).Contents (Elt F) → (⟨S16384, .f32⟩ : BufTy).Contents (Elt F) → (⟨S16384, .f32⟩ : BufTy).Contents (Elt F)),
    StableHlo.unary main_v311 main_v342 (Host.sin : (⟨S16384, .f32⟩ : BufTy).Contents (Elt F) → (⟨S16384, .f32⟩ : BufTy).Contents (Elt F)),
    StableHlo.unary main_v239 main_v343 (Host.sin : (⟨S16384, .f32⟩ : BufTy).Contents (Elt F) → (⟨S16384, .f32⟩ : BufTy).Contents (Elt F)) ]

theorem part5_eq (d : Dev nD) : main_part5 (F := F) d = seq ops5 := rfl
theorem ops5_sub : (ops5 (F := F)).Forall fun op => op.bufs ⊆ tcRefs τ sig := by line_sub
theorem ops5_fresh : ∀ op ∈ (ops5 (F := F)), op.fresh = ∅ := by line_fresh
theorem ops5_ordered : Cert.Ssa.Ordered 301 (ops5 (F := F)) := by line_ordered

/-- Window 6 of @main: its operations, positions 361 to 420, in order. -/
abbrev ops6 : List (HloOp τ sig (Elt F)) :=
  [ StableHlo.unary main_v240 main_v344 (Host.cos : (⟨S16384, .f32⟩ : BufTy).Contents (Elt F) → (⟨S16384, .f32⟩ : BufTy).Contents (Elt F)),
    StableHlo.unary main_v191 main_v345 (Host.cos : (⟨S16384, .f32⟩ : BufTy).Contents (Elt F) → (⟨S16384, .f32⟩ : BufTy).Contents (Elt F)),
    StableHlo.unary main_v342 main_v346 (Host.cos : (⟨S16384, .f32⟩ : BufTy).Contents (Elt F) → (⟨S16384, .f32⟩ : BufTy).Contents (Elt F)),
    StableHlo.binary main_v182 main_v306 main_v347 (mulf : (⟨S16384, .f32⟩ : BufTy).Contents (Elt F) → (⟨S16384, .f32⟩ : BufTy).Contents (Elt F) → (⟨S16384, .f32⟩ : BufTy).Contents (Elt F)),
    StableHlo.unary main_v69 main_v348 (Host.sin : (⟨S16384, .f32⟩ : BufTy).Contents (Elt F) → (⟨S16384, .f32⟩ : BufTy).Contents (Elt F)),
    StableHlo.binary main_v236 main_v67 main_v349 (addf : (⟨S16384, .f32⟩ : BufTy).Contents (Elt F) → (⟨S16384, .f32⟩ : BufTy).Contents (Elt F) → (⟨S16384, .f32⟩ : BufTy).Contents (Elt F)),
    StableHlo.binary main_v286 main_v73 main_v350 (subf : (⟨S16384, .f32⟩ : BufTy).Contents (Elt F) → (⟨S16384, .f32⟩ : BufTy).Contents (Elt F) → (⟨S16384, .f32⟩ : BufTy).Contents (Elt F)),
    StableHlo.binary main_v273 main_v250 main_v351 (addf : (⟨S16384, .f32⟩ : BufTy).Contents (Elt F) → (⟨S16384, .f32⟩ : BufTy).Contents (Elt F) → (⟨S16384, .f32⟩ : BufTy).Contents (Elt F)),
    StableHlo.binary main_v51 main_v140 main_v352 (subf : (⟨S16384, .f32⟩ : BufTy).Contents (Elt F) → (⟨S16384, .f32⟩ : BufTy).Contents (Elt F) → (⟨S16384, .f32⟩ : BufTy).Contents (Elt F)),
    StableHlo.binary main_v227 main_v340 main_v353 (subf : (⟨S16384, .f32⟩ : BufTy).Contents (Elt F) → (⟨S16384, .f32⟩ : BufTy).Contents (Elt F) → (⟨S16384, .f32⟩ : BufTy).Contents (Elt F)),
    StableHlo.binary main_v148 main_v214 main_v354 (mulf : (⟨S16384, .f32⟩ : BufTy).Contents (Elt F) → (⟨S16384, .f32⟩ : BufTy).Contents (Elt F) → (⟨S16384, .f32⟩ : BufTy).Contents (Elt F)),
    StableHlo.unary main_v335 main_v355 (Host.cos : (⟨S16384, .f32⟩ : BufTy).Contents (Elt F) → (⟨S16384, .f32⟩ : BufTy).Contents (Elt F)),
    StableHlo.binary main_v337 main_v107 main_v356 (subf : (⟨S16384, .f32⟩ : BufTy).Contents (Elt F) → (⟨S16384, .f32⟩ : BufTy).Contents (Elt F) → (⟨S16384, .f32⟩ : BufTy).Contents (Elt F)),
    StableHlo.unary main_v177 main_v357 (Host.cos : (⟨S16384, .f32⟩ : BufTy).Contents (Elt F) → (⟨S16384, .f32⟩ : BufTy).Contents (Elt F)),
    StableHlo.binary main_v202 main_v202 main_v358 (addf : (⟨S16384, .f32⟩ : BufTy).Contents (Elt F) → (⟨S16384, .f32⟩ : BufTy).Contents (Elt F) → (⟨S16384, .f32⟩ : BufTy).Contents (Elt F)),
    StableHlo.unary main_v352 main_v359 (Host.sin : (⟨S16384, .f32⟩ : BufTy).Contents (Elt F) → (⟨S16384, .f32⟩ : BufTy).Contents (Elt F)),
    StableHlo.unary main_v27 main_v360 (Host.sin : (⟨S16384, .f32⟩ : BufTy).Contents (Elt F) → (⟨S16384, .f32⟩ : BufTy).Contents (Elt F)),
    StableHlo.unary main_v47 main_v361 (Host.sin : (⟨S16384, .f32⟩ : BufTy).Contents (Elt F) → (⟨S16384, .f32⟩ : BufTy).Contents (Elt F)),
    StableHlo.unary main_v133 main_v362 (Host.sin : (⟨S16384, .f32⟩ : BufTy).Contents (Elt F) → (⟨S16384, .f32⟩ : BufTy).Contents (Elt F)),
    StableHlo.unary main_v215 main_v363 (Host.sin : (⟨S16384, .f32⟩ : BufTy).Contents (Elt F) → (⟨S16384, .f32⟩ : BufTy).Contents (Elt F)),
    StableHlo.unary main_v267 main_v364 (Host.sin : (⟨S16384, .f32⟩ : BufTy).Contents (Elt F) → (⟨S16384, .f32⟩ : BufTy).Contents (Elt F)),
    StableHlo.unary main_v336 main_v365 (Host.cos : (⟨S16384, .f32⟩ : BufTy).Contents (Elt F) → (⟨S16384, .f32⟩ : BufTy).Contents (Elt F)),
    StableHlo.binary main_v294 main_v358 main_v366 (addf : (⟨S16384, .f32⟩ : BufTy).Contents (Elt F) → (⟨S16384, .f32⟩ : BufTy).Contents (Elt F) → (⟨S16384, .f32⟩ : BufTy).Contents (Elt F)),
    StableHlo.unary main_v144 main_v367 (Host.sin : (⟨S16384, .f32⟩ : BufTy).Contents (Elt F) → (⟨S16384, .f32⟩ : BufTy).Contents (Elt F)),
    StableHlo.binary main_v280 main_v211 main_v368 (subf : (⟨S16384, .f32⟩ : BufTy).Contents (Elt F) → (⟨S16384, .f32⟩ : BufTy).Contents (Elt F) → (⟨S16384, .f32⟩ : BufTy).Contents (Elt F)),
    StableHlo.unary main_v365 main_v369 (Host.sin : (⟨S16384, .f32⟩ : BufTy).Contents (Elt F) → (⟨S16384, .f32⟩ : BufTy).Contents (Elt F)),
    StableHlo.unary main_v332 main_v370 (Host.cos : (⟨S16384, .f32⟩ : BufTy).Contents (Elt F) → (⟨S16384, .f32⟩ : BufTy).Contents (Elt F)),
    StableHlo.binary main_v140 main_v154 main_v371 (mulf : (⟨S16384, .f32⟩ : BufTy).Contents (Elt F) → (⟨S16384, .f32⟩ : BufTy).Contents (Elt F) → (⟨S16384, .f32⟩ : BufTy).Contents (Elt F)),
    StableHlo.binary main_v162 main_v152 main_v372 (subf : (⟨S16384, .f32⟩ : BufTy).Contents (Elt F) → (⟨S16384, .f32⟩ : BufTy).Contents (Elt F) → (⟨S16384, .f32⟩ : BufTy).Contents (Elt F)),
    StableHlo.unary main_v284 main_v373 (Host.cos : (⟨S16384, .f32⟩ : BufTy).Contents (Elt F) → (⟨S16384, .f32⟩ : BufTy).Contents (Elt F)),
    StableHlo.unary main_v236 main_v374 (Host.cos : (⟨S16384, .f32⟩ : BufTy).Contents (Elt F) → (⟨S16384, .f32⟩ : BufTy).Contents (Elt F)),
    StableHlo.binary main_v47 main_v238 main_v375 (subf : (⟨S16384, .f32⟩ : BufTy).Contents (Elt F) → (⟨S16384, .f32⟩ : BufTy).Contents (Elt F) → (⟨S16384, .f32⟩ : BufTy).Contents (Elt F)),
    StableHlo.binary main_v196 main_v315 main_v376 (subf : (⟨S16384, .f32⟩ : BufTy).Contents (Elt F) → (⟨S16384, .f32⟩ : BufTy).Contents (Elt F) → (⟨S16384, .f32⟩ : BufTy).Contents (Elt F)),
    StableHlo.binary main_v297 main_v236 main_v377 (subf : (⟨S16384, .f32⟩ : BufTy).Contents (Elt F) → (⟨S16384, .f32⟩ : BufTy).Contents (Elt F) → (⟨S16384, .f32⟩ : BufTy).Contents (Elt F)),
    StableHlo.unary main_v148 main_v378 (Host.sin : (⟨S16384, .f32⟩ : BufTy).Contents (Elt F) → (⟨S16384, .f32⟩ : BufTy).Contents (Elt F)),
    StableHlo.unary main_v302 main_v379 (Host.sin : (⟨S16384, .f32⟩ : BufTy).Contents (Elt F) → (⟨S16384, .f32⟩ : BufTy).Contents (Elt F)),
    StableHlo.binary main_v336 main_v356 main_v380 (addf : (⟨S16384, .f32⟩ : BufTy).Contents (Elt F) → (⟨S16384, .f32⟩ : BufTy).Contents (Elt F) → (⟨S16384, .f32⟩ : BufTy).Contents (Elt F)),
    StableHlo.unary main_v279 main_v381 (Host.sin : (⟨S16384, .f32⟩ : BufTy).Contents (Elt F) → (⟨S16384, .f32⟩ : BufTy).Contents (Elt F)),
    StableHlo.binary main_v222 main_v334 main_v382 (subf : (⟨S16384, .f32⟩ : BufTy).Contents (Elt F) → (⟨S16384, .f32⟩ : BufTy).Contents (Elt F) → (⟨S16384, .f32⟩ : BufTy).Contents (Elt F)),
    StableHlo.unary main_v303 main_v383 (Host.sin : (⟨S16384, .f32⟩ : BufTy).Contents (Elt F) → (⟨S16384, .f32⟩ : BufTy).Contents (Elt F)),
    StableHlo.binary main_v284 main_v376 main_v384 (subf : (⟨S16384, .f32⟩ : BufTy).Contents (Elt F) → (⟨S16384, .f32⟩ : BufTy).Contents (Elt F) → (⟨S16384, .f32⟩ : BufTy).Contents (Elt F)),
    StableHlo.unary main_v346 main_v385 (Host.cos : (⟨S16384, .f32⟩ : BufTy).Contents (Elt F) → (⟨S16384, .f32⟩ : BufTy).Contents (Elt F)),
    StableHlo.binary main_v264 main_v294 main_v386 (subf : (⟨S16384, .f32⟩ : BufTy).Contents (Elt F) → (⟨S16384, .f32⟩ : BufTy).Contents (Elt F) → (⟨S16384, .f32⟩ : BufTy).Contents (Elt F)),
    StableHlo.unary main_v242 main_v387 (Host.sin : (⟨S16384, .f32⟩ : BufTy).Contents (Elt F) → (⟨S16384, .f32⟩ : BufTy).Contents (Elt F)),
    StableHlo.unary main_v279 main_v388 (Host.sin : (⟨S16384, .f32⟩ : BufTy).Contents (Elt F) → (⟨S16384, .f32⟩ : BufTy).Contents (Elt F)),
    StableHlo.unary main_v113 main_v389 (Host.cos : (⟨S16384, .f32⟩ : BufTy).Contents (Elt F) → (⟨S16384, .f32⟩ : BufTy).Contents (Elt F)),
    StableHlo.binary main_v312 main_v202 main_v390 (subf : (⟨S16384, .f32⟩ : BufTy).Contents (Elt F) → (⟨S16384, .f32⟩ : BufTy).Contents (Elt F) → (⟨S16384, .f32⟩ : BufTy).Contents (Elt F)),
    StableHlo.binary main_v347 main_v158 main_v391 (mulf : (⟨S16384, .f32⟩ : BufTy).Contents (Elt F) → (⟨S16384, .f32⟩ : BufTy).Contents (Elt F) → (⟨S16384, .f32⟩ : BufTy).Contents (Elt F)),
    StableHlo.binary main_v205 main_v313 main_v392 (mulf : (⟨S16384, .f32⟩ : BufTy).Contents (Elt F) → (⟨S16384, .f32⟩ : BufTy).Contents (Elt F) → (⟨S16384, .f32⟩ : BufTy).Contents (Elt F)),
    StableHlo.unary main_v367 main_v393 (Host.sin : (⟨S16384, .f32⟩ : BufTy).Contents (Elt F) → (⟨S16384, .f32⟩ : BufTy).Contents (Elt F)),
    StableHlo.unary main_v271 main_v394 (Host.cos : (⟨S16384, .f32⟩ : BufTy).Contents (Elt F) → (⟨S16384, .f32⟩ : BufTy).Contents (Elt F)),
    StableHlo.binary main_v250 main_v67 main_v395 (mulf : (⟨S16384, .f32⟩ : BufTy).Contents (Elt F) → (⟨S16384, .f32⟩ : BufTy).Contents (Elt F) → (⟨S16384, .f32⟩ : BufTy).Contents (Elt F)),
    StableHlo.binary main_v333 main_v372 main_v396 (mulf : (⟨S16384, .f32⟩ : BufTy).Contents (Elt F) → (⟨S16384, .f32⟩ : BufTy).Contents (Elt F) → (⟨S16384, .f32⟩ : BufTy).Contents (Elt F)),
    StableHlo.unary main_v386 main_v397 (Host.sin : (⟨S16384, .f32⟩ : BufTy).Contents (Elt F) → (⟨S16384, .f32⟩ : BufTy).Contents (Elt F)),
    StableHlo.unary main_v378 main_v398 (Host.cos : (⟨S16384, .f32⟩ : BufTy).Contents (Elt F) → (⟨S16384, .f32⟩ : BufTy).Contents (Elt F)),
    StableHlo.binary main_v317 main_v166 main_v399 (subf : (⟨S16384, .f32⟩ : BufTy).Contents (Elt F) → (⟨S16384, .f32⟩ : BufTy).Contents (Elt F) → (⟨S16384, .f32⟩ : BufTy).Contents (Elt F)),
    StableHlo.unary main_v336 main_v400 (Host.sin : (⟨S16384, .f32⟩ : BufTy).Contents (Elt F) → (⟨S16384, .f32⟩ : BufTy).Contents (Elt F)),
    StableHlo.unary main_v242 main_v401 (Host.sin : (⟨S16384, .f32⟩ : BufTy).Contents (Elt F) → (⟨S16384, .f32⟩ : BufTy).Contents (Elt F)),
    StableHlo.unary main_v375 main_v402 (Host.cos : (⟨S16384, .f32⟩ : BufTy).Contents (Elt F) → (⟨S16384, .f32⟩ : BufTy).Contents (Elt F)),
    StableHlo.binary main_v363 main_v363 main_v403 (mulf : (⟨S16384, .f32⟩ : BufTy).Contents (Elt F) → (⟨S16384, .f32⟩ : BufTy).Contents (Elt F) → (⟨S16384, .f32⟩ : BufTy).Contents (Elt F)) ]

theorem part6_eq (d : Dev nD) : main_part6 (F := F) d = seq ops6 := rfl
theorem ops6_sub : (ops6 (F := F)).Forall fun op => op.bufs ⊆ tcRefs τ sig := by line_sub
theorem ops6_fresh : ∀ op ∈ (ops6 (F := F)), op.fresh = ∅ := by line_fresh
theorem ops6_ordered : Cert.Ssa.Ordered 361 (ops6 (F := F)) := by line_ordered

/-- Window 7 of @main: its operations, positions 421 to 480, in order. -/
abbrev ops7 : List (HloOp τ sig (Elt F)) :=
  [ StableHlo.unary main_v244 main_v404 (Host.sin : (⟨S16384, .f32⟩ : BufTy).Contents (Elt F) → (⟨S16384, .f32⟩ : BufTy).Contents (Elt F)),
    StableHlo.unary main_v313 main_v405 (Host.sin : (⟨S16384, .f32⟩ : BufTy).Contents (Elt F) → (⟨S16384, .f32⟩ : BufTy).Contents (Elt F)),
    StableHlo.binary main_v128 main_v189 main_v406 (subf : (⟨S16384, .f32⟩ : BufTy).Contents (Elt F) → (⟨S16384, .f32⟩ : BufTy).Contents (Elt F) → (⟨S16384, .f32⟩ : BufTy).Contents (Elt F)),
    StableHlo.binary main_v365 main_v330 main_v407 (subf : (⟨S16384, .f32⟩ : BufTy).Contents (Elt F) → (⟨S16384, .f32⟩ : BufTy).Contents (Elt F) → (⟨S16384, .f32⟩ : BufTy).Contents (Elt F)),
    StableHlo.unary main_v33 main_v408 (Host.sin : (⟨S16384, .f32⟩ : BufTy).Contents (Elt F) → (⟨S16384, .f32⟩ : BufTy).Contents (Elt F)),
    StableHlo.binary main_v309 main_v352 main_v409 (mulf : (⟨S16384, .f32⟩ : BufTy).Contents (Elt F) → (⟨S16384, .f32⟩ : BufTy).Contents (Elt F) → (⟨S16384, .f32⟩ : BufTy).Contents (Elt F)),
    StableHlo.binary main_v284 main_v369 main_v410 (addf : (⟨S16384, .f32⟩ : BufTy).Contents (Elt F) → (⟨S16384, .f32⟩ : BufTy).Contents (Elt F) → (⟨S16384, .f32⟩ : BufTy).Contents (Elt F)),
    StableHlo.unary main_v172 main_v411 (Host.cos : (⟨S16384, .f32⟩ : BufTy).Contents (Elt F) → (⟨S16384, .f32⟩ : BufTy).Contents (Elt F)),
    StableHlo.binary main_v109 main_v107 main_v412 (subf : (⟨S16384, .f32⟩ : BufTy).Contents (Elt F) → (⟨S16384, .f32⟩ : BufTy).Contents (Elt F) → (⟨S16384, .f32⟩ : BufTy).Contents (Elt F)),
    StableHlo.unary main_v174 main_v413 (Host.cos : (⟨S16384, .f32⟩ : BufTy).Contents (Elt F) → (⟨S16384, .f32⟩ : BufTy).Contents (Elt F)),
    StableHlo.unary main_v324 main_v414 (Host.cos : (⟨S16384, .f32⟩ : BufTy).Contents (Elt F) → (⟨S16384, .f32⟩ : BufTy).Contents (Elt F)),
    StableHlo.binary main_v367 main_v379 main_v415 (subf : (⟨S16384, .f32⟩ : BufTy).Contents (Elt F) → (⟨S16384, .f32⟩ : BufTy).Contents (Elt F) → (⟨S16384, .f32⟩ : BufTy).Contents (Elt F)),
    StableHlo.unary main_v262 main_v416 (Host.cos : (⟨S16384, .f32⟩ : BufTy).Contents (Elt F) → (⟨S16384, .f32⟩ : BufTy).Contents (Elt F)),
    StableHlo.unary main_v342 main_v417 (Host.sin : (⟨S16384, .f32⟩ : BufTy).Contents (Elt F) → (⟨S16384, .f32⟩ : BufTy).Contents (Elt F)),
    StableHlo.binary main_v333 main_v35 main_v418 (addf : (⟨S16384, .f32⟩ : BufTy).Contents (Elt F) → (⟨S16384, .f32⟩ : BufTy).Contents (Elt F) → (⟨S16384, .f32⟩ : BufTy).Contents (Elt F)),
    StableHlo.binary main_v343 main_v185 main_v419 (mulf : (⟨S16384, .f32⟩ : BufTy).Contents (Elt F) → (⟨S16384, .f32⟩ : BufTy).Contents (Elt F) → (⟨S16384, .f32⟩ : BufTy).Contents (Elt F)),
    StableHlo.binary main_v370 main_v370 main_v420 (mulf : (⟨S16384, .f32⟩ : BufTy).Contents (Elt F) → (⟨S16384, .f32⟩ : BufTy).Contents (Elt F) → (⟨S16384, .f32⟩ : BufTy).Contents (Elt F)),
    StableHlo.unary main_v280 main_v421 (Host.negf : (⟨S16384, .f32⟩ : BufTy).Contents (Elt F) → (⟨S16384, .f32⟩ : BufTy).Contents (Elt F)),
    StableHlo.unary main_v302 main_v422 (Host.sin : (⟨S16384, .f32⟩ : BufTy).Contents (Elt F) → (⟨S16384, .f32⟩ : BufTy).Contents (Elt F)),
    StableHlo.unary main_v364 main_v423 (Host.cos : (⟨S16384, .f32⟩ : BufTy).Contents (Elt F) → (⟨S16384, .f32⟩ : BufTy).Contents (Elt F)),
    StableHlo.unary main_v286 main_v424 (Host.sin : (⟨S16384, .f32⟩ : BufTy).Contents (Elt F) → (⟨S16384, .f32⟩ : BufTy).Contents (Elt F)),
    StableHlo.unary main_v343 main_v425 (Host.sin : (⟨S16384, .f32⟩ : BufTy).Contents (Elt F) → (⟨S16384, .f32⟩ : BufTy).Contents (Elt F)),
    StableHlo.unary main_v347 main_v426 (Host.cos : (⟨S16384, .f32⟩ : BufTy).Contents (Elt F) → (⟨S16384, .f32⟩ : BufTy).Contents (Elt F)),
    StableHlo.binary main_v212 main_v202 main_v427 (subf : (⟨S16384, .f32⟩ : BufTy).Contents (Elt F) → (⟨S16384, .f32⟩ : BufTy).Contents (Elt F) → (⟨S16384, .f32⟩ : BufTy).Contents (Elt F)),
    StableHlo.binary main_v154 main_v154 main_v428 (mulf : (⟨S16384, .f32⟩ : BufTy).Contents (Elt F) → (⟨S16384, .f32⟩ : BufTy).Contents (Elt F) → (⟨S16384, .f32⟩ : BufTy).Contents (Elt F)),
    StableHlo.unary main_v393 main_v429 (Host.cos : (⟨S16384, .f32⟩ : BufTy).Contents (Elt F) → (⟨S16384, .f32⟩ : BufTy).Contents (Elt F)),
    StableHlo.binary main_v109 main_v404 main_v430 (subf : (⟨S16384, .f32⟩ : BufTy).Contents (Elt F) → (⟨S16384, .f32⟩ : BufTy).Contents (Elt F) → (⟨S16384, .f32⟩ : BufTy).Contents (Elt F)),
    StableHlo.binary main_v364 main_v81 main_v431 (addf : (⟨S16384, .f32⟩ : BufTy).Contents (Elt F) → (⟨S16384, .f32⟩ : BufTy).Contents (Elt F) → (⟨S16384, .f32⟩ : BufTy).Contents (Elt F)),
    StableHlo.unary main_v424 main_v432 (Host.sin : (⟨S16384, .f32⟩ : BufTy).Contents (Elt F) → (⟨S16384, .f32⟩ : BufTy).Contents (Elt F)),
    StableHlo.unary main_v219 main_v433 (Host.sin : (⟨S16384, .f32⟩ : BufTy).Contents (Elt F) → (⟨S16384, .f32⟩ : BufTy).Contents (Elt F)),
    StableHlo.unary main_v321 main_v434 (Host.cos : (⟨S16384, .f32⟩ : BufTy).Contents (Elt F) → (⟨S16384, .f32⟩ : BufTy).Contents (Elt F)),
    StableHlo.binary main_v434 main_v339 main_v435 (subf : (⟨S16384, .f32⟩ : BufTy).Contents (Elt F) → (⟨S16384, .f32⟩ : BufTy).Contents (Elt F) → (⟨S16384, .f32⟩ : BufTy).Contents (Elt F)),
    StableHlo.unary main_v329 main_v436 (Host.sin : (⟨S16384, .f32⟩ : BufTy).Contents (Elt F) → (⟨S16384, .f32⟩ : BufTy).Contents (Elt F)),
    StableHlo.unary main_v160 main_v437 (Host.cos : (⟨S16384, .f32⟩ : BufTy).Contents (Elt F) → (⟨S16384, .f32⟩ : BufTy).Contents (Elt F)),
    StableHlo.binary main_v366 main_v367 main_v438 (mulf : (⟨S16384, .f32⟩ : BufTy).Contents (Elt F) → (⟨S16384, .f32⟩ : BufTy).Contents (Elt F) → (⟨S16384, .f32⟩ : BufTy).Contents (Elt F)),
    StableHlo.binary main_v389 main_v389 main_v439 (mulf : (⟨S16384, .f32⟩ : BufTy).Contents (Elt F) → (⟨S16384, .f32⟩ : BufTy).Contents (Elt F) → (⟨S16384, .f32⟩ : BufTy).Contents (Elt F)),
    StableHlo.unary main_v343 main_v440 (Host.cos : (⟨S16384, .f32⟩ : BufTy).Contents (Elt F) → (⟨S16384, .f32⟩ : BufTy).Contents (Elt F)),
    StableHlo.unary main_v215 main_v441 (Host.negf : (⟨S16384, .f32⟩ : BufTy).Contents (Elt F) → (⟨S16384, .f32⟩ : BufTy).Contents (Elt F)),
    StableHlo.unary main_v121 main_v442 (Host.sin : (⟨S16384, .f32⟩ : BufTy).Contents (Elt F) → (⟨S16384, .f32⟩ : BufTy).Contents (Elt F)),
    StableHlo.unary main_v374 main_v443 (Host.cos : (⟨S16384, .f32⟩ : BufTy).Contents (Elt F) → (⟨S16384, .f32⟩ : BufTy).Contents (Elt F)),
    StableHlo.binary main_v85 main_v385 main_v444 (addf : (⟨S16384, .f32⟩ : BufTy).Contents (Elt F) → (⟨S16384, .f32⟩ : BufTy).Contents (Elt F) → (⟨S16384, .f32⟩ : BufTy).Contents (Elt F)),
    StableHlo.unary main_v51 main_v445 (Host.sin : (⟨S16384, .f32⟩ : BufTy).Contents (Elt F) → (⟨S16384, .f32⟩ : BufTy).Contents (Elt F)),
    StableHlo.unary main_v315 main_v446 (Host.sin : (⟨S16384, .f32⟩ : BufTy).Contents (Elt F) → (⟨S16384, .f32⟩ : BufTy).Contents (Elt F)),
    StableHlo.unary main_v360 main_v447 (Host.negf : (⟨S16384, .f32⟩ : BufTy).Contents (Elt F) → (⟨S16384, .f32⟩ : BufTy).Contents (Elt F)),
    StableHlo.unary main_v219 main_v448 (Host.cos : (⟨S16384, .f32⟩ : BufTy).Contents (Elt F) → (⟨S16384, .f32⟩ : BufTy).Contents (Elt F)),
    StableHlo.unary main_v235 main_v449 (Host.cos : (⟨S16384, .f32⟩ : BufTy).Contents (Elt F) → (⟨S16384, .f32⟩ : BufTy).Contents (Elt F)),
    StableHlo.unary main_v434 main_v450 (Host.cos : (⟨S16384, .f32⟩ : BufTy).Contents (Elt F) → (⟨S16384, .f32⟩ : BufTy).Contents (Elt F)),
    StableHlo.unary main_v368 main_v451 (Host.sin : (⟨S16384, .f32⟩ : BufTy).Contents (Elt F) → (⟨S16384, .f32⟩ : BufTy).Contents (Elt F)),
    StableHlo.binary main_v278 main_v433 main_v452 (subf : (⟨S16384, .f32⟩ : BufTy).Contents (Elt F) → (⟨S16384, .f32⟩ : BufTy).Contents (Elt F) → (⟨S16384, .f32⟩ : BufTy).Contents (Elt F)),
    StableHlo.unary main_v356 main_v453 (Host.cos : (⟨S16384, .f32⟩ : BufTy).Contents (Elt F) → (⟨S16384, .f32⟩ : BufTy).Contents (Elt F)),
    StableHlo.binary main_v398 main_v398 main_v454 (mulf : (⟨S16384, .f32⟩ : BufTy).Contents (Elt F) → (⟨S16384, .f32⟩ : BufTy).Contents (Elt F) → (⟨S16384, .f32⟩ : BufTy).Contents (Elt F)),
    StableHlo.unary main_v328 main_v455 (Host.sin : (⟨S16384, .f32⟩ : BufTy).Contents (Elt F) → (⟨S16384, .f32⟩ : BufTy).Contents (Elt F)),
    StableHlo.binary main_v31 main_v364 main_v456 (subf : (⟨S16384, .f32⟩ : BufTy).Contents (Elt F) → (⟨S16384, .f32⟩ : BufTy).Contents (Elt F) → (⟨S16384, .f32⟩ : BufTy).Contents (Elt F)),
    StableHlo.unary main_v95 main_v457 (Host.cos : (⟨S16384, .f32⟩ : BufTy).Contents (Elt F) → (⟨S16384, .f32⟩ : BufTy).Contents (Elt F)),
    StableHlo.binary main_v452 main_v145 main_v458 (subf : (⟨S16384, .f32⟩ : BufTy).Contents (Elt F) → (⟨S16384, .f32⟩ : BufTy).Contents (Elt F) → (⟨S16384, .f32⟩ : BufTy).Contents (Elt F)),
    StableHlo.binary main_v179 main_v179 main_v459 (mulf : (⟨S16384, .f32⟩ : BufTy).Contents (Elt F) → (⟨S16384, .f32⟩ : BufTy).Contents (Elt F) → (⟨S16384, .f32⟩ : BufTy).Contents (Elt F)),
    StableHlo.unary main_v134 main_v460 (Host.cos : (⟨S16384, .f32⟩ : BufTy).Contents (Elt F) → (⟨S16384, .f32⟩ : BufTy).Contents (Elt F)),
    StableHlo.binary main_v69 main_v455 main_v461 (mulf : (⟨S16384, .f32⟩ : BufTy).Contents (Elt F) → (⟨S16384, .f32⟩ : BufTy).Contents (Elt F) → (⟨S16384, .f32⟩ : BufTy).Contents (Elt F)),
    StableHlo.binary main_v389 main_v212 main_v462 (mulf : (⟨S16384, .f32⟩ : BufTy).Contents (Elt F) → (⟨S16384, .f32⟩ : BufTy).Contents (Elt F) → (⟨S16384, .f32⟩ : BufTy).Contents (Elt F)),
    StableHlo.unary main_v226 main_v463 (Host.cos : (⟨S16384, .f32⟩ : BufTy).Contents (Elt F) → (⟨S16384, .f32⟩ : BufTy).Contents (Elt F)) ]

theorem part7_eq (d : Dev nD) : main_part7 (F := F) d = seq ops7 := rfl
theorem ops7_sub : (ops7 (F := F)).Forall fun op => op.bufs ⊆ tcRefs τ sig := by line_sub
theorem ops7_fresh : ∀ op ∈ (ops7 (F := F)), op.fresh = ∅ := by line_fresh
theorem ops7_ordered : Cert.Ssa.Ordered 421 (ops7 (F := F)) := by line_ordered

/-- Window 8 of @main: its operations, positions 481 to 540, in order. -/
abbrev ops8 : List (HloOp τ sig (Elt F)) :=
  [ StableHlo.binary main_v306 main_v283 main_v464 (addf : (⟨S16384, .f32⟩ : BufTy).Contents (Elt F) → (⟨S16384, .f32⟩ : BufTy).Contents (Elt F) → (⟨S16384, .f32⟩ : BufTy).Contents (Elt F)),
    StableHlo.unary main_v284 main_v465 (Host.sin : (⟨S16384, .f32⟩ : BufTy).Contents (Elt F) → (⟨S16384, .f32⟩ : BufTy).Contents (Elt F)),
    StableHlo.unary main_v339 main_v466 (Host.cos : (⟨S16384, .f32⟩ : BufTy).Contents (Elt F) → (⟨S16384, .f32⟩ : BufTy).Contents (Elt F)),
    StableHlo.unary main_v416 main_v467 (Host.sin : (⟨S16384, .f32⟩ : BufTy).Contents (Elt F) → (⟨S16384, .f32⟩ : BufTy).Contents (Elt F)),
    StableHlo.unary main_v310 main_v468 (Host.sin : (⟨S16384, .f32⟩ : BufTy).Contents (Elt F) → (⟨S16384, .f32⟩ : BufTy).Contents (Elt F)),
    StableHlo.binary main_v288 main_v439 main_v469 (addf : (⟨S16384, .f32⟩ : BufTy).Contents (Elt F) → (⟨S16384, .f32⟩ : BufTy).Contents (Elt F) → (⟨S16384, .f32⟩ : BufTy).Contents (Elt F)),
    StableHlo.binary main_v177 main_v337 main_v470 (subf : (⟨S16384, .f32⟩ : BufTy).Contents (Elt F) → (⟨S16384, .f32⟩ : BufTy).Contents (Elt F) → (⟨S16384, .f32⟩ : BufTy).Contents (Elt F)),
    StableHlo.unary main_v166 main_v471 (Host.cos : (⟨S16384, .f32⟩ : BufTy).Contents (Elt F) → (⟨S16384, .f32⟩ : BufTy).Contents (Elt F)),
    StableHlo.unary main_v431 main_v472 (Host.sin : (⟨S16384, .f32⟩ : BufTy).Contents (Elt F) → (⟨S16384, .f32⟩ : BufTy).Contents (Elt F)),
    StableHlo.binary main_v420 main_v185 main_v473 (subf : (⟨S16384, .f32⟩ : BufTy).Contents (Elt F) → (⟨S16384, .f32⟩ : BufTy).Contents (Elt F) → (⟨S16384, .f32⟩ : BufTy).Contents (Elt F)),
    StableHlo.binary main_v1 main_v406 main_v474 (mulf : (⟨S16384, .f32⟩ : BufTy).Contents (Elt F) → (⟨S16384, .f32⟩ : BufTy).Contents (Elt F) → (⟨S16384, .f32⟩ : BufTy).Contents (Elt F)),
    StableHlo.binary main_v362 main_v134 main_v475 (subf : (⟨S16384, .f32⟩ : BufTy).Contents (Elt F) → (⟨S16384, .f32⟩ : BufTy).Contents (Elt F) → (⟨S16384, .f32⟩ : BufTy).Contents (Elt F)),
    StableHlo.binary main_v1 main_v113 main_v476 (mulf : (⟨S16384, .f32⟩ : BufTy).Contents (Elt F) → (⟨S16384, .f32⟩ : BufTy).Contents (Elt F) → (⟨S16384, .f32⟩ : BufTy).Contents (Elt F)),
    StableHlo.unary main_v476 main_v477 (Host.cos : (⟨S16384, .f32⟩ : BufTy).Contents (Elt F) → (⟨S16384, .f32⟩ : BufTy).Contents (Elt F)),
    StableHlo.unary main_v306 main_v478 (Host.cos : (⟨S16384, .f32⟩ : BufTy).Contents (Elt F) → (⟨S16384, .f32⟩ : BufTy).Contents (Elt F)),
    StableHlo.unary main_v214 main_v479 (Host.cos : (⟨S16384, .f32⟩ : BufTy).Contents (Elt F) → (⟨S16384, .f32⟩ : BufTy).Contents (Elt F)),
    StableHlo.binary main_v375 main_v451 main_v480 (mulf : (⟨S16384, .f32⟩ : BufTy).Contents (Elt F) → (⟨S16384, .f32⟩ : BufTy).Contents (Elt F) → (⟨S16384, .f32⟩ : BufTy).Contents (Elt F)),
    StableHlo.binary main_v476 main_v271 main_v481 (subf : (⟨S16384, .f32⟩ : BufTy).Contents (Elt F) → (⟨S16384, .f32⟩ : BufTy).Contents (Elt F) → (⟨S16384, .f32⟩ : BufTy).Contents (Elt F)),
    StableHlo.binary main_v360 main_v315 main_v482 (mulf : (⟨S16384, .f32⟩ : BufTy).Contents (Elt F) → (⟨S16384, .f32⟩ : BufTy).Contents (Elt F) → (⟨S16384, .f32⟩ : BufTy).Contents (Elt F)),
    StableHlo.unary main_v374 main_v483 (Host.sin : (⟨S16384, .f32⟩ : BufTy).Contents (Elt F) → (⟨S16384, .f32⟩ : BufTy).Contents (Elt F)),
    StableHlo.binary main_v158 main_v363 main_v484 (subf : (⟨S16384, .f32⟩ : BufTy).Contents (Elt F) → (⟨S16384, .f32⟩ : BufTy).Contents (Elt F) → (⟨S16384, .f32⟩ : BufTy).Contents (Elt F)),
    StableHlo.binary main_v375 main_v472 main_v485 (mulf : (⟨S16384, .f32⟩ : BufTy).Contents (Elt F) → (⟨S16384, .f32⟩ : BufTy).Contents (Elt F) → (⟨S16384, .f32⟩ : BufTy).Contents (Elt F)),
    StableHlo.unary main_v329 main_v486 (Host.cos : (⟨S16384, .f32⟩ : BufTy).Contents (Elt F) → (⟨S16384, .f32⟩ : BufTy).Contents (Elt F)),
    StableHlo.binary main_v310 main_v357 main_v487 (subf : (⟨S16384, .f32⟩ : BufTy).Contents (Elt F) → (⟨S16384, .f32⟩ : BufTy).Contents (Elt F) → (⟨S16384, .f32⟩ : BufTy).Contents (Elt F)),
    StableHlo.binary main_v196 main_v473 main_v488 (addf : (⟨S16384, .f32⟩ : BufTy).Contents (Elt F) → (⟨S16384, .f32⟩ : BufTy).Contents (Elt F) → (⟨S16384, .f32⟩ : BufTy).Contents (Elt F)),
    StableHlo.binary main_v357 main_v219 main_v489 (mulf : (⟨S16384, .f32⟩ : BufTy).Contents (Elt F) → (⟨S16384, .f32⟩ : BufTy).Contents (Elt F) → (⟨S16384, .f32⟩ : BufTy).Contents (Elt F)),
    StableHlo.binary main_v443 main_v466 main_v490 (mulf : (⟨S16384, .f32⟩ : BufTy).Contents (Elt F) → (⟨S16384, .f32⟩ : BufTy).Contents (Elt F) → (⟨S16384, .f32⟩ : BufTy).Contents (Elt F)),
    StableHlo.unary main_v341 main_v491 (Host.cos : (⟨S16384, .f32⟩ : BufTy).Contents (Elt F) → (⟨S16384, .f32⟩ : BufTy).Contents (Elt F)),
    StableHlo.binary main_v363 main_v334 main_v492 (addf : (⟨S16384, .f32⟩ : BufTy).Contents (Elt F) → (⟨S16384, .f32⟩ : BufTy).Contents (Elt F) → (⟨S16384, .f32⟩ : BufTy).Contents (Elt F)),
    StableHlo.unary main_v192 main_v493 (Host.cos : (⟨S16384, .f32⟩ : BufTy).Contents (Elt F) → (⟨S16384, .f32⟩ : BufTy).Contents (Elt F)),
    StableHlo.binary main_v489 main_v353 main_v494 (subf : (⟨S16384, .f32⟩ : BufTy).Contents (Elt F) → (⟨S16384, .f32⟩ : BufTy).Contents (Elt F) → (⟨S16384, .f32⟩ : BufTy).Contents (Elt F)),
    StableHlo.unary main_v394 main_v495 (Host.negf : (⟨S16384, .f32⟩ : BufTy).Contents (Elt F) → (⟨S16384, .f32⟩ : BufTy).Contents (Elt F)),
    StableHlo.binary main_v309 main_v239 main_v496 (subf : (⟨S16384, .f32⟩ : BufTy).Contents (Elt F) → (⟨S16384, .f32⟩ : BufTy).Contents (Elt F) → (⟨S16384, .f32⟩ : BufTy).Contents (Elt F)),
    StableHlo.unary main_v330 main_v497 (Host.sin : (⟨S16384, .f32⟩ : BufTy).Contents (Elt F) → (⟨S16384, .f32⟩ : BufTy).Contents (Elt F)),
    StableHlo.unary main_v445 main_v498 (Host.cos : (⟨S16384, .f32⟩ : BufTy).Contents (Elt F) → (⟨S16384, .f32⟩ : BufTy).Contents (Elt F)),
    StableHlo.unary main_v446 main_v499 (Host.negf : (⟨S16384, .f32⟩ : BufTy).Contents (Elt F) → (⟨S16384, .f32⟩ : BufTy).Contents (Elt F)),
    StableHlo.unary main_v294 main_v500 (Host.cos : (⟨S16384, .f32⟩ : BufTy).Contents (Elt F) → (⟨S16384, .f32⟩ : BufTy).Contents (Elt F)),
    StableHlo.unary main_v430 main_v501 (Host.cos : (⟨S16384, .f32⟩ : BufTy).Contents (Elt F) → (⟨S16384, .f32⟩ : BufTy).Contents (Elt F)),
    StableHlo.unary main_v315 main_v502 (Host.sin : (⟨S16384, .f32⟩ : BufTy).Contents (Elt F) → (⟨S16384, .f32⟩ : BufTy).Contents (Elt F)),
    StableHlo.unary main_v177 main_v503 (Host.cos : (⟨S16384, .f32⟩ : BufTy).Contents (Elt F) → (⟨S16384, .f32⟩ : BufTy).Contents (Elt F)),
    StableHlo.unary main_v267 main_v504 (Host.sin : (⟨S16384, .f32⟩ : BufTy).Contents (Elt F) → (⟨S16384, .f32⟩ : BufTy).Contents (Elt F)),
    StableHlo.binary main_v435 main_v152 main_v505 (mulf : (⟨S16384, .f32⟩ : BufTy).Contents (Elt F) → (⟨S16384, .f32⟩ : BufTy).Contents (Elt F) → (⟨S16384, .f32⟩ : BufTy).Contents (Elt F)),
    StableHlo.binary main_v494 main_v488 main_v506 (mulf : (⟨S16384, .f32⟩ : BufTy).Contents (Elt F) → (⟨S16384, .f32⟩ : BufTy).Contents (Elt F) → (⟨S16384, .f32⟩ : BufTy).Contents (Elt F)),
    StableHlo.binary main_v476 main_v271 main_v507 (addf : (⟨S16384, .f32⟩ : BufTy).Contents (Elt F) → (⟨S16384, .f32⟩ : BufTy).Contents (Elt F) → (⟨S16384, .f32⟩ : BufTy).Contents (Elt F)),
    StableHlo.binary main_v288 main_v476 main_v508 (subf : (⟨S16384, .f32⟩ : BufTy).Contents (Elt F) → (⟨S16384, .f32⟩ : BufTy).Contents (Elt F) → (⟨S16384, .f32⟩ : BufTy).Contents (Elt F)),
    StableHlo.unary main_v480 main_v509 (Host.cos : (⟨S16384, .f32⟩ : BufTy).Contents (Elt F) → (⟨S16384, .f32⟩ : BufTy).Contents (Elt F)),
    StableHlo.binary main_v274 main_v325 main_v510 (subf : (⟨S16384, .f32⟩ : BufTy).Contents (Elt F) → (⟨S16384, .f32⟩ : BufTy).Contents (Elt F) → (⟨S16384, .f32⟩ : BufTy).Contents (Elt F)),
    StableHlo.unary main_v435 main_v511 (Host.sin : (⟨S16384, .f32⟩ : BufTy).Contents (Elt F) → (⟨S16384, .f32⟩ : BufTy).Contents (Elt F)),
    StableHlo.binary main_v219 main_v241 main_v512 (mulf : (⟨S16384, .f32⟩ : BufTy).Contents (Elt F) → (⟨S16384, .f32⟩ : BufTy).Contents (Elt F) → (⟨S16384, .f32⟩ : BufTy).Contents (Elt F)),
    StableHlo.binary main_v406 main_v246 main_v513 (addf : (⟨S16384, .f32⟩ : BufTy).Contents (Elt F) → (⟨S16384, .f32⟩ : BufTy).Contents (Elt F) → (⟨S16384, .f32⟩ : BufTy).Contents (Elt F)),
    StableHlo.unary main_v331 main_v514 (Host.sin : (⟨S16384, .f32⟩ : BufTy).Contents (Elt F) → (⟨S16384, .f32⟩ : BufTy).Contents (Elt F)),
    StableHlo.binary main_v85 main_v160 main_v515 (subf : (⟨S16384, .f32⟩ : BufTy).Contents (Elt F) → (⟨S16384, .f32⟩ : BufTy).Contents (Elt F) → (⟨S16384, .f32⟩ : BufTy).Contents (Elt F)),
    StableHlo.unary main_v393 main_v516 (Host.cos : (⟨S16384, .f32⟩ : BufTy).Contents (Elt F) → (⟨S16384, .f32⟩ : BufTy).Contents (Elt F)),
    StableHlo.unary main_v31 main_v517 (Host.sin : (⟨S16384, .f32⟩ : BufTy).Contents (Elt F) → (⟨S16384, .f32⟩ : BufTy).Contents (Elt F)),
    StableHlo.binary main_v309 main_v152 main_v518 (addf : (⟨S16384, .f32⟩ : BufTy).Contents (Elt F) → (⟨S16384, .f32⟩ : BufTy).Contents (Elt F) → (⟨S16384, .f32⟩ : BufTy).Contents (Elt F)),
    StableHlo.binary main_v501 main_v468 main_v519 (mulf : (⟨S16384, .f32⟩ : BufTy).Contents (Elt F) → (⟨S16384, .f32⟩ : BufTy).Contents (Elt F) → (⟨S16384, .f32⟩ : BufTy).Contents (Elt F)),
    StableHlo.unary main_v519 main_v520 (Host.sin : (⟨S16384, .f32⟩ : BufTy).Contents (Elt F) → (⟨S16384, .f32⟩ : BufTy).Contents (Elt F)),
    StableHlo.binary main_v235 main_v348 main_v521 (mulf : (⟨S16384, .f32⟩ : BufTy).Contents (Elt F) → (⟨S16384, .f32⟩ : BufTy).Contents (Elt F) → (⟨S16384, .f32⟩ : BufTy).Contents (Elt F)),
    StableHlo.unary main_v249 main_v522 (Host.negf : (⟨S16384, .f32⟩ : BufTy).Contents (Elt F) → (⟨S16384, .f32⟩ : BufTy).Contents (Elt F)),
    StableHlo.binary main_v196 main_v431 main_v523 (addf : (⟨S16384, .f32⟩ : BufTy).Contents (Elt F) → (⟨S16384, .f32⟩ : BufTy).Contents (Elt F) → (⟨S16384, .f32⟩ : BufTy).Contents (Elt F)) ]

theorem part8_eq (d : Dev nD) : main_part8 (F := F) d = seq ops8 := rfl
theorem ops8_sub : (ops8 (F := F)).Forall fun op => op.bufs ⊆ tcRefs τ sig := by line_sub
theorem ops8_fresh : ∀ op ∈ (ops8 (F := F)), op.fresh = ∅ := by line_fresh
theorem ops8_ordered : Cert.Ssa.Ordered 481 (ops8 (F := F)) := by line_ordered

/-- Window 9 of @main: its operations, positions 541 to 600, in order. -/
abbrev ops9 : List (HloOp τ sig (Elt F)) :=
  [ StableHlo.binary main_v483 main_v264 main_v524 (subf : (⟨S16384, .f32⟩ : BufTy).Contents (Elt F) → (⟨S16384, .f32⟩ : BufTy).Contents (Elt F) → (⟨S16384, .f32⟩ : BufTy).Contents (Elt F)),
    StableHlo.unary main_v399 main_v525 (Host.negf : (⟨S16384, .f32⟩ : BufTy).Contents (Elt F) → (⟨S16384, .f32⟩ : BufTy).Contents (Elt F)),
    StableHlo.unary main_v489 main_v526 (Host.cos : (⟨S16384, .f32⟩ : BufTy).Contents (Elt F) → (⟨S16384, .f32⟩ : BufTy).Contents (Elt F)),
    StableHlo.binary main_v343 main_v47 main_v527 (mulf : (⟨S16384, .f32⟩ : BufTy).Contents (Elt F) → (⟨S16384, .f32⟩ : BufTy).Contents (Elt F) → (⟨S16384, .f32⟩ : BufTy).Contents (Elt F)),
    StableHlo.unary main_v352 main_v528 (Host.cos : (⟨S16384, .f32⟩ : BufTy).Contents (Elt F) → (⟨S16384, .f32⟩ : BufTy).Contents (Elt F)),
    StableHlo.unary main_v484 main_v529 (Host.sin : (⟨S16384, .f32⟩ : BufTy).Contents (Elt F) → (⟨S16384, .f32⟩ : BufTy).Contents (Elt F)),
    StableHlo.binary main_v519 main_v509 main_v530 (subf : (⟨S16384, .f32⟩ : BufTy).Contents (Elt F) → (⟨S16384, .f32⟩ : BufTy).Contents (Elt F) → (⟨S16384, .f32⟩ : BufTy).Contents (Elt F)),
    StableHlo.binary main_v418 main_v131 main_v531 (addf : (⟨S16384, .f32⟩ : BufTy).Contents (Elt F) → (⟨S16384, .f32⟩ : BufTy).Contents (Elt F) → (⟨S16384, .f32⟩ : BufTy).Contents (Elt F)),
    StableHlo.binary main_v512 main_v309 main_v532 (addf : (⟨S16384, .f32⟩ : BufTy).Contents (Elt F) → (⟨S16384, .f32⟩ : BufTy).Contents (Elt F) → (⟨S16384, .f32⟩ : BufTy).Contents (Elt F)),
    StableHlo.unary main_v33 main_v533 (Host.cos : (⟨S16384, .f32⟩ : BufTy).Contents (Elt F) → (⟨S16384, .f32⟩ : BufTy).Contents (Elt F)),
    StableHlo.unary main_v288 main_v534 (Host.cos : (⟨S16384, .f32⟩ : BufTy).Contents (Elt F) → (⟨S16384, .f32⟩ : BufTy).Contents (Elt F)),
    StableHlo.unary main_v137 main_v535 (Host.cos : (⟨S16384, .f32⟩ : BufTy).Contents (Elt F) → (⟨S16384, .f32⟩ : BufTy).Contents (Elt F)),
    StableHlo.binary main_v380 main_v310 main_v536 (addf : (⟨S16384, .f32⟩ : BufTy).Contents (Elt F) → (⟨S16384, .f32⟩ : BufTy).Contents (Elt F) → (⟨S16384, .f32⟩ : BufTy).Contents (Elt F)),
    StableHlo.unary main_v250 main_v537 (Host.cos : (⟨S16384, .f32⟩ : BufTy).Contents (Elt F) → (⟨S16384, .f32⟩ : BufTy).Contents (Elt F)),
    StableHlo.unary main_v228 main_v538 (Host.cos : (⟨S16384, .f32⟩ : BufTy).Contents (Elt F) → (⟨S16384, .f32⟩ : BufTy).Contents (Elt F)),
    StableHlo.binary main_v523 main_v81 main_v539 (addf : (⟨S16384, .f32⟩ : BufTy).Contents (Elt F) → (⟨S16384, .f32⟩ : BufTy).Contents (Elt F) → (⟨S16384, .f32⟩ : BufTy).Contents (Elt F)),
    StableHlo.unary main_v438 main_v540 (Host.sin : (⟨S16384, .f32⟩ : BufTy).Contents (Elt F) → (⟨S16384, .f32⟩ : BufTy).Contents (Elt F)),
    StableHlo.unary main_v490 main_v541 (Host.sin : (⟨S16384, .f32⟩ : BufTy).Contents (Elt F) → (⟨S16384, .f32⟩ : BufTy).Contents (Elt F)),
    StableHlo.binary main_v310 main_v492 main_v542 (subf : (⟨S16384, .f32⟩ : BufTy).Contents (Elt F) → (⟨S16384, .f32⟩ : BufTy).Contents (Elt F) → (⟨S16384, .f32⟩ : BufTy).Contents (Elt F)),
    StableHlo.unary main_v363 main_v543 (Host.sin : (⟨S16384, .f32⟩ : BufTy).Contents (Elt F) → (⟨S16384, .f32⟩ : BufTy).Contents (Elt F)),
    StableHlo.unary main_v513 main_v544 (Host.cos : (⟨S16384, .f32⟩ : BufTy).Contents (Elt F) → (⟨S16384, .f32⟩ : BufTy).Contents (Elt F)),
    StableHlo.unary main_v336 main_v545 (Host.sin : (⟨S16384, .f32⟩ : BufTy).Contents (Elt F) → (⟨S16384, .f32⟩ : BufTy).Contents (Elt F)),
    StableHlo.binary main_v486 main_v81 main_v546 (addf : (⟨S16384, .f32⟩ : BufTy).Contents (Elt F) → (⟨S16384, .f32⟩ : BufTy).Contents (Elt F) → (⟨S16384, .f32⟩ : BufTy).Contents (Elt F)),
    StableHlo.binary main_v479 main_v198 main_v547 (mulf : (⟨S16384, .f32⟩ : BufTy).Contents (Elt F) → (⟨S16384, .f32⟩ : BufTy).Contents (Elt F) → (⟨S16384, .f32⟩ : BufTy).Contents (Elt F)),
    StableHlo.unary main_v113 main_v548 (Host.cos : (⟨S16384, .f32⟩ : BufTy).Contents (Elt F) → (⟨S16384, .f32⟩ : BufTy).Contents (Elt F)),
    StableHlo.binary main_v177 main_v360 main_v549 (addf : (⟨S16384, .f32⟩ : BufTy).Contents (Elt F) → (⟨S16384, .f32⟩ : BufTy).Contents (Elt F) → (⟨S16384, .f32⟩ : BufTy).Contents (Elt F)),
    StableHlo.unary main_v212 main_v550 (Host.cos : (⟨S16384, .f32⟩ : BufTy).Contents (Elt F) → (⟨S16384, .f32⟩ : BufTy).Contents (Elt F)),
    StableHlo.unary main_v240 main_v551 (Host.sin : (⟨S16384, .f32⟩ : BufTy).Contents (Elt F) → (⟨S16384, .f32⟩ : BufTy).Contents (Elt F)),
    StableHlo.binary main_v335 main_v522 main_v552 (subf : (⟨S16384, .f32⟩ : BufTy).Contents (Elt F) → (⟨S16384, .f32⟩ : BufTy).Contents (Elt F) → (⟨S16384, .f32⟩ : BufTy).Contents (Elt F)),
    StableHlo.unary main_v495 main_v553 (Host.cos : (⟨S16384, .f32⟩ : BufTy).Contents (Elt F) → (⟨S16384, .f32⟩ : BufTy).Contents (Elt F)),
    StableHlo.unary main_v472 main_v554 (Host.cos : (⟨S16384, .f32⟩ : BufTy).Contents (Elt F) → (⟨S16384, .f32⟩ : BufTy).Contents (Elt F)),
    StableHlo.unary main_v270 main_v555 (Host.sin : (⟨S16384, .f32⟩ : BufTy).Contents (Elt F) → (⟨S16384, .f32⟩ : BufTy).Contents (Elt F)),
    StableHlo.unary main_v473 main_v556 (Host.cos : (⟨S16384, .f32⟩ : BufTy).Contents (Elt F) → (⟨S16384, .f32⟩ : BufTy).Contents (Elt F)),
    StableHlo.unary main_v425 main_v557 (Host.negf : (⟨S16384, .f32⟩ : BufTy).Contents (Elt F) → (⟨S16384, .f32⟩ : BufTy).Contents (Elt F)),
    StableHlo.binary main_v131 main_v344 main_v558 (subf : (⟨S16384, .f32⟩ : BufTy).Contents (Elt F) → (⟨S16384, .f32⟩ : BufTy).Contents (Elt F) → (⟨S16384, .f32⟩ : BufTy).Contents (Elt F)),
    StableHlo.binary main_v379 main_v219 main_v559 (mulf : (⟨S16384, .f32⟩ : BufTy).Contents (Elt F) → (⟨S16384, .f32⟩ : BufTy).Contents (Elt F) → (⟨S16384, .f32⟩ : BufTy).Contents (Elt F)),
    StableHlo.unary main_v446 main_v560 (Host.negf : (⟨S16384, .f32⟩ : BufTy).Contents (Elt F) → (⟨S16384, .f32⟩ : BufTy).Contents (Elt F)),
    StableHlo.unary main_v544 main_v561 (Host.cos : (⟨S16384, .f32⟩ : BufTy).Contents (Elt F) → (⟨S16384, .f32⟩ : BufTy).Contents (Elt F)),
    StableHlo.unary main_v226 main_v562 (Host.cos : (⟨S16384, .f32⟩ : BufTy).Contents (Elt F) → (⟨S16384, .f32⟩ : BufTy).Contents (Elt F)),
    StableHlo.binary main_v337 main_v284 main_v563 (mulf : (⟨S16384, .f32⟩ : BufTy).Contents (Elt F) → (⟨S16384, .f32⟩ : BufTy).Contents (Elt F) → (⟨S16384, .f32⟩ : BufTy).Contents (Elt F)),
    StableHlo.binary main_v479 main_v558 main_v564 (mulf : (⟨S16384, .f32⟩ : BufTy).Contents (Elt F) → (⟨S16384, .f32⟩ : BufTy).Contents (Elt F) → (⟨S16384, .f32⟩ : BufTy).Contents (Elt F)),
    StableHlo.unary main_v414 main_v565 (Host.cos : (⟨S16384, .f32⟩ : BufTy).Contents (Elt F) → (⟨S16384, .f32⟩ : BufTy).Contents (Elt F)),
    StableHlo.binary main_v466 main_v311 main_v566 (mulf : (⟨S16384, .f32⟩ : BufTy).Contents (Elt F) → (⟨S16384, .f32⟩ : BufTy).Contents (Elt F) → (⟨S16384, .f32⟩ : BufTy).Contents (Elt F)),
    StableHlo.unary main_v379 main_v567 (Host.cos : (⟨S16384, .f32⟩ : BufTy).Contents (Elt F) → (⟨S16384, .f32⟩ : BufTy).Contents (Elt F)),
    StableHlo.unary main_v483 main_v568 (Host.cos : (⟨S16384, .f32⟩ : BufTy).Contents (Elt F) → (⟨S16384, .f32⟩ : BufTy).Contents (Elt F)),
    StableHlo.binary main_v427 main_v432 main_v569 (mulf : (⟨S16384, .f32⟩ : BufTy).Contents (Elt F) → (⟨S16384, .f32⟩ : BufTy).Contents (Elt F) → (⟨S16384, .f32⟩ : BufTy).Contents (Elt F)),
    StableHlo.unary main_v420 main_v570 (Host.negf : (⟨S16384, .f32⟩ : BufTy).Contents (Elt F) → (⟨S16384, .f32⟩ : BufTy).Contents (Elt F)),
    StableHlo.unary main_v533 main_v571 (Host.cos : (⟨S16384, .f32⟩ : BufTy).Contents (Elt F) → (⟨S16384, .f32⟩ : BufTy).Contents (Elt F)),
    StableHlo.unary main_v226 main_v572 (Host.sin : (⟨S16384, .f32⟩ : BufTy).Contents (Elt F) → (⟨S16384, .f32⟩ : BufTy).Contents (Elt F)),
    StableHlo.binary main_v520 main_v137 main_v573 (mulf : (⟨S16384, .f32⟩ : BufTy).Contents (Elt F) → (⟨S16384, .f32⟩ : BufTy).Contents (Elt F) → (⟨S16384, .f32⟩ : BufTy).Contents (Elt F)),
    StableHlo.unary main_v47 main_v574 (Host.cos : (⟨S16384, .f32⟩ : BufTy).Contents (Elt F) → (⟨S16384, .f32⟩ : BufTy).Contents (Elt F)),
    StableHlo.unary main_v531 main_v575 (Host.sin : (⟨S16384, .f32⟩ : BufTy).Contents (Elt F) → (⟨S16384, .f32⟩ : BufTy).Contents (Elt F)),
    StableHlo.binary main_v453 main_v554 main_v576 (mulf : (⟨S16384, .f32⟩ : BufTy).Contents (Elt F) → (⟨S16384, .f32⟩ : BufTy).Contents (Elt F) → (⟨S16384, .f32⟩ : BufTy).Contents (Elt F)),
    StableHlo.binary main_v507 main_v388 main_v577 (addf : (⟨S16384, .f32⟩ : BufTy).Contents (Elt F) → (⟨S16384, .f32⟩ : BufTy).Contents (Elt F) → (⟨S16384, .f32⟩ : BufTy).Contents (Elt F)),
    StableHlo.unary main_v487 main_v578 (Host.sin : (⟨S16384, .f32⟩ : BufTy).Contents (Elt F) → (⟨S16384, .f32⟩ : BufTy).Contents (Elt F)),
    StableHlo.binary main_v496 main_v532 main_v579 (mulf : (⟨S16384, .f32⟩ : BufTy).Contents (Elt F) → (⟨S16384, .f32⟩ : BufTy).Contents (Elt F) → (⟨S16384, .f32⟩ : BufTy).Contents (Elt F)),
    StableHlo.unary main_v399 main_v580 (Host.sin : (⟨S16384, .f32⟩ : BufTy).Contents (Elt F) → (⟨S16384, .f32⟩ : BufTy).Contents (Elt F)),
    StableHlo.unary main_v418 main_v581 (Host.cos : (⟨S16384, .f32⟩ : BufTy).Contents (Elt F) → (⟨S16384, .f32⟩ : BufTy).Contents (Elt F)),
    StableHlo.binary main_v505 main_v462 main_v582 (mulf : (⟨S16384, .f32⟩ : BufTy).Contents (Elt F) → (⟨S16384, .f32⟩ : BufTy).Contents (Elt F) → (⟨S16384, .f32⟩ : BufTy).Contents (Elt F)),
    StableHlo.unary main_v469 main_v583 (Host.cos : (⟨S16384, .f32⟩ : BufTy).Contents (Elt F) → (⟨S16384, .f32⟩ : BufTy).Contents (Elt F)) ]

theorem part9_eq (d : Dev nD) : main_part9 (F := F) d = seq ops9 := rfl
theorem ops9_sub : (ops9 (F := F)).Forall fun op => op.bufs ⊆ tcRefs τ sig := by line_sub
theorem ops9_fresh : ∀ op ∈ (ops9 (F := F)), op.fresh = ∅ := by line_fresh
theorem ops9_ordered : Cert.Ssa.Ordered 541 (ops9 (F := F)) := by line_ordered

end Cert.ReferenceIdeal.Line

end
-- ==== Proof.RefOps1.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

/-- Window 10 of @main: its operations, positions 601 to 660, in order. -/
abbrev ops10 : List (HloOp τ sig (Elt F)) :=
  [ StableHlo.binary main_v571 main_v507 main_v584 (subf : (⟨S16384, .f32⟩ : BufTy).Contents (Elt F) → (⟨S16384, .f32⟩ : BufTy).Contents (Elt F) → (⟨S16384, .f32⟩ : BufTy).Contents (Elt F)),
    StableHlo.unary main_v294 main_v585 (Host.cos : (⟨S16384, .f32⟩ : BufTy).Contents (Elt F) → (⟨S16384, .f32⟩ : BufTy).Contents (Elt F)),
    StableHlo.binary main_v278 main_v468 main_v586 (mulf : (⟨S16384, .f32⟩ : BufTy).Contents (Elt F) → (⟨S16384, .f32⟩ : BufTy).Contents (Elt F) → (⟨S16384, .f32⟩ : BufTy).Contents (Elt F)),
    StableHlo.binary main_v336 main_v336 main_v587 (mulf : (⟨S16384, .f32⟩ : BufTy).Contents (Elt F) → (⟨S16384, .f32⟩ : BufTy).Contents (Elt F) → (⟨S16384, .f32⟩ : BufTy).Contents (Elt F)),
    StableHlo.unary main_v288 main_v588 (Host.negf : (⟨S16384, .f32⟩ : BufTy).Contents (Elt F) → (⟨S16384, .f32⟩ : BufTy).Contents (Elt F)),
    StableHlo.unary main_v561 main_v589 (Host.sin : (⟨S16384, .f32⟩ : BufTy).Contents (Elt F) → (⟨S16384, .f32⟩ : BufTy).Contents (Elt F)),
    StableHlo.binary main_v179 main_v179 main_v590 (mulf : (⟨S16384, .f32⟩ : BufTy).Contents (Elt F) → (⟨S16384, .f32⟩ : BufTy).Contents (Elt F) → (⟨S16384, .f32⟩ : BufTy).Contents (Elt F)),
    StableHlo.binary main_v537 main_v293 main_v591 (mulf : (⟨S16384, .f32⟩ : BufTy).Contents (Elt F) → (⟨S16384, .f32⟩ : BufTy).Contents (Elt F) → (⟨S16384, .f32⟩ : BufTy).Contents (Elt F)),
    StableHlo.binary main_v332 main_v332 main_v592 (mulf : (⟨S16384, .f32⟩ : BufTy).Contents (Elt F) → (⟨S16384, .f32⟩ : BufTy).Contents (Elt F) → (⟨S16384, .f32⟩ : BufTy).Contents (Elt F)),
    StableHlo.binary main_v107 main_v288 main_v593 (addf : (⟨S16384, .f32⟩ : BufTy).Contents (Elt F) → (⟨S16384, .f32⟩ : BufTy).Contents (Elt F) → (⟨S16384, .f32⟩ : BufTy).Contents (Elt F)),
    StableHlo.binary main_v412 main_v463 main_v594 (subf : (⟨S16384, .f32⟩ : BufTy).Contents (Elt F) → (⟨S16384, .f32⟩ : BufTy).Contents (Elt F) → (⟨S16384, .f32⟩ : BufTy).Contents (Elt F)),
    StableHlo.binary main_v479 main_v152 main_v595 (addf : (⟨S16384, .f32⟩ : BufTy).Contents (Elt F) → (⟨S16384, .f32⟩ : BufTy).Contents (Elt F) → (⟨S16384, .f32⟩ : BufTy).Contents (Elt F)),
    StableHlo.binary main_v592 main_v473 main_v596 (addf : (⟨S16384, .f32⟩ : BufTy).Contents (Elt F) → (⟨S16384, .f32⟩ : BufTy).Contents (Elt F) → (⟨S16384, .f32⟩ : BufTy).Contents (Elt F)),
    StableHlo.binary main_v559 main_v282 main_v597 (addf : (⟨S16384, .f32⟩ : BufTy).Contents (Elt F) → (⟨S16384, .f32⟩ : BufTy).Contents (Elt F) → (⟨S16384, .f32⟩ : BufTy).Contents (Elt F)),
    StableHlo.unary main_v585 main_v598 (Host.sin : (⟨S16384, .f32⟩ : BufTy).Contents (Elt F) → (⟨S16384, .f32⟩ : BufTy).Contents (Elt F)),
    StableHlo.unary main_v270 main_v599 (Host.cos : (⟨S16384, .f32⟩ : BufTy).Contents (Elt F) → (⟨S16384, .f32⟩ : BufTy).Contents (Elt F)),
    StableHlo.unary main_v557 main_v600 (Host.negf : (⟨S16384, .f32⟩ : BufTy).Contents (Elt F) → (⟨S16384, .f32⟩ : BufTy).Contents (Elt F)),
    StableHlo.binary main_v241 main_v241 main_v601 (mulf : (⟨S16384, .f32⟩ : BufTy).Contents (Elt F) → (⟨S16384, .f32⟩ : BufTy).Contents (Elt F) → (⟨S16384, .f32⟩ : BufTy).Contents (Elt F)),
    StableHlo.binary main_v432 main_v47 main_v602 (mulf : (⟨S16384, .f32⟩ : BufTy).Contents (Elt F) → (⟨S16384, .f32⟩ : BufTy).Contents (Elt F) → (⟨S16384, .f32⟩ : BufTy).Contents (Elt F)),
    StableHlo.unary main_v451 main_v603 (Host.negf : (⟨S16384, .f32⟩ : BufTy).Contents (Elt F) → (⟨S16384, .f32⟩ : BufTy).Contents (Elt F)),
    StableHlo.binary main_v315 main_v267 main_v604 (mulf : (⟨S16384, .f32⟩ : BufTy).Contents (Elt F) → (⟨S16384, .f32⟩ : BufTy).Contents (Elt F) → (⟨S16384, .f32⟩ : BufTy).Contents (Elt F)),
    StableHlo.unary main_v439 main_v605 (Host.sin : (⟨S16384, .f32⟩ : BufTy).Contents (Elt F) → (⟨S16384, .f32⟩ : BufTy).Contents (Elt F)),
    StableHlo.binary main_v328 main_v226 main_v606 (addf : (⟨S16384, .f32⟩ : BufTy).Contents (Elt F) → (⟨S16384, .f32⟩ : BufTy).Contents (Elt F) → (⟨S16384, .f32⟩ : BufTy).Contents (Elt F)),
    StableHlo.unary main_v467 main_v607 (Host.cos : (⟨S16384, .f32⟩ : BufTy).Contents (Elt F) → (⟨S16384, .f32⟩ : BufTy).Contents (Elt F)),
    StableHlo.binary main_v546 main_v366 main_v608 (mulf : (⟨S16384, .f32⟩ : BufTy).Contents (Elt F) → (⟨S16384, .f32⟩ : BufTy).Contents (Elt F) → (⟨S16384, .f32⟩ : BufTy).Contents (Elt F)),
    StableHlo.unary main_v556 main_v609 (Host.cos : (⟨S16384, .f32⟩ : BufTy).Contents (Elt F) → (⟨S16384, .f32⟩ : BufTy).Contents (Elt F)),
    StableHlo.unary main_v27 main_v610 (Host.negf : (⟨S16384, .f32⟩ : BufTy).Contents (Elt F) → (⟨S16384, .f32⟩ : BufTy).Contents (Elt F)),
    StableHlo.unary main_v595 main_v611 (Host.sin : (⟨S16384, .f32⟩ : BufTy).Contents (Elt F) → (⟨S16384, .f32⟩ : BufTy).Contents (Elt F)),
    StableHlo.binary main_v568 main_v249 main_v612 (mulf : (⟨S16384, .f32⟩ : BufTy).Contents (Elt F) → (⟨S16384, .f32⟩ : BufTy).Contents (Elt F) → (⟨S16384, .f32⟩ : BufTy).Contents (Elt F)),
    StableHlo.unary main_v352 main_v613 (Host.sin : (⟨S16384, .f32⟩ : BufTy).Contents (Elt F) → (⟨S16384, .f32⟩ : BufTy).Contents (Elt F)),
    StableHlo.unary main_v598 main_v614 (Host.sin : (⟨S16384, .f32⟩ : BufTy).Contents (Elt F) → (⟨S16384, .f32⟩ : BufTy).Contents (Elt F)),
    StableHlo.binary main_v301 main_v137 main_v615 (subf : (⟨S16384, .f32⟩ : BufTy).Contents (Elt F) → (⟨S16384, .f32⟩ : BufTy).Contents (Elt F) → (⟨S16384, .f32⟩ : BufTy).Contents (Elt F)),
    StableHlo.binary main_v274 main_v590 main_v616 (addf : (⟨S16384, .f32⟩ : BufTy).Contents (Elt F) → (⟨S16384, .f32⟩ : BufTy).Contents (Elt F) → (⟨S16384, .f32⟩ : BufTy).Contents (Elt F)),
    StableHlo.unary main_v461 main_v617 (Host.cos : (⟨S16384, .f32⟩ : BufTy).Contents (Elt F) → (⟨S16384, .f32⟩ : BufTy).Contents (Elt F)),
    StableHlo.unary main_v468 main_v618 (Host.sin : (⟨S16384, .f32⟩ : BufTy).Contents (Elt F) → (⟨S16384, .f32⟩ : BufTy).Contents (Elt F)),
    StableHlo.binary main_v325 main_v612 main_v619 (subf : (⟨S16384, .f32⟩ : BufTy).Contents (Elt F) → (⟨S16384, .f32⟩ : BufTy).Contents (Elt F) → (⟨S16384, .f32⟩ : BufTy).Contents (Elt F)),
    StableHlo.unary main_v472 main_v620 (Host.sin : (⟨S16384, .f32⟩ : BufTy).Contents (Elt F) → (⟨S16384, .f32⟩ : BufTy).Contents (Elt F)),
    StableHlo.unary main_v282 main_v621 (Host.cos : (⟨S16384, .f32⟩ : BufTy).Contents (Elt F) → (⟨S16384, .f32⟩ : BufTy).Contents (Elt F)),
    StableHlo.unary main_v533 main_v622 (Host.sin : (⟨S16384, .f32⟩ : BufTy).Contents (Elt F) → (⟨S16384, .f32⟩ : BufTy).Contents (Elt F)),
    StableHlo.binary main_v621 main_v559 main_v623 (addf : (⟨S16384, .f32⟩ : BufTy).Contents (Elt F) → (⟨S16384, .f32⟩ : BufTy).Contents (Elt F) → (⟨S16384, .f32⟩ : BufTy).Contents (Elt F)),
    StableHlo.binary main_v347 main_v610 main_v624 (subf : (⟨S16384, .f32⟩ : BufTy).Contents (Elt F) → (⟨S16384, .f32⟩ : BufTy).Contents (Elt F) → (⟨S16384, .f32⟩ : BufTy).Contents (Elt F)),
    StableHlo.binary main_v160 main_v272 main_v625 (mulf : (⟨S16384, .f32⟩ : BufTy).Contents (Elt F) → (⟨S16384, .f32⟩ : BufTy).Contents (Elt F) → (⟨S16384, .f32⟩ : BufTy).Contents (Elt F)),
    StableHlo.binary main_v351 main_v597 main_v626 (addf : (⟨S16384, .f32⟩ : BufTy).Contents (Elt F) → (⟨S16384, .f32⟩ : BufTy).Contents (Elt F) → (⟨S16384, .f32⟩ : BufTy).Contents (Elt F)),
    StableHlo.unary main_v484 main_v627 (Host.cos : (⟨S16384, .f32⟩ : BufTy).Contents (Elt F) → (⟨S16384, .f32⟩ : BufTy).Contents (Elt F)),
    StableHlo.binary main_v600 main_v600 main_v628 (mulf : (⟨S16384, .f32⟩ : BufTy).Contents (Elt F) → (⟨S16384, .f32⟩ : BufTy).Contents (Elt F) → (⟨S16384, .f32⟩ : BufTy).Contents (Elt F)),
    StableHlo.unary main_v494 main_v629 (Host.sin : (⟨S16384, .f32⟩ : BufTy).Contents (Elt F) → (⟨S16384, .f32⟩ : BufTy).Contents (Elt F)),
    StableHlo.unary main_v241 main_v630 (Host.sin : (⟨S16384, .f32⟩ : BufTy).Contents (Elt F) → (⟨S16384, .f32⟩ : BufTy).Contents (Elt F)),
    StableHlo.binary main_v613 main_v294 main_v631 (subf : (⟨S16384, .f32⟩ : BufTy).Contents (Elt F) → (⟨S16384, .f32⟩ : BufTy).Contents (Elt F) → (⟨S16384, .f32⟩ : BufTy).Contents (Elt F)),
    StableHlo.unary main_v313 main_v632 (Host.cos : (⟨S16384, .f32⟩ : BufTy).Contents (Elt F) → (⟨S16384, .f32⟩ : BufTy).Contents (Elt F)),
    StableHlo.binary main_v363 main_v363 main_v633 (mulf : (⟨S16384, .f32⟩ : BufTy).Contents (Elt F) → (⟨S16384, .f32⟩ : BufTy).Contents (Elt F) → (⟨S16384, .f32⟩ : BufTy).Contents (Elt F)),
    StableHlo.unary main_v551 main_v634 (Host.sin : (⟨S16384, .f32⟩ : BufTy).Contents (Elt F) → (⟨S16384, .f32⟩ : BufTy).Contents (Elt F)),
    StableHlo.binary main_v573 main_v591 main_v635 (subf : (⟨S16384, .f32⟩ : BufTy).Contents (Elt F) → (⟨S16384, .f32⟩ : BufTy).Contents (Elt F) → (⟨S16384, .f32⟩ : BufTy).Contents (Elt F)),
    StableHlo.unary main_v592 main_v636 (Host.cos : (⟨S16384, .f32⟩ : BufTy).Contents (Elt F) → (⟨S16384, .f32⟩ : BufTy).Contents (Elt F)),
    StableHlo.unary main_v577 main_v637 (Host.cos : (⟨S16384, .f32⟩ : BufTy).Contents (Elt F) → (⟨S16384, .f32⟩ : BufTy).Contents (Elt F)),
    StableHlo.binary main_v532 main_v532 main_v638 (mulf : (⟨S16384, .f32⟩ : BufTy).Contents (Elt F) → (⟨S16384, .f32⟩ : BufTy).Contents (Elt F) → (⟨S16384, .f32⟩ : BufTy).Contents (Elt F)),
    StableHlo.unary main_v311 main_v639 (Host.cos : (⟨S16384, .f32⟩ : BufTy).Contents (Elt F) → (⟨S16384, .f32⟩ : BufTy).Contents (Elt F)),
    StableHlo.binary main_v512 main_v331 main_v640 (subf : (⟨S16384, .f32⟩ : BufTy).Contents (Elt F) → (⟨S16384, .f32⟩ : BufTy).Contents (Elt F) → (⟨S16384, .f32⟩ : BufTy).Contents (Elt F)),
    StableHlo.binary main_v599 main_v621 main_v641 (subf : (⟨S16384, .f32⟩ : BufTy).Contents (Elt F) → (⟨S16384, .f32⟩ : BufTy).Contents (Elt F) → (⟨S16384, .f32⟩ : BufTy).Contents (Elt F)),
    StableHlo.unary main_v301 main_v642 (Host.sin : (⟨S16384, .f32⟩ : BufTy).Contents (Elt F) → (⟨S16384, .f32⟩ : BufTy).Contents (Elt F)),
    StableHlo.binary main_v636 main_v516 main_v643 (subf : (⟨S16384, .f32⟩ : BufTy).Contents (Elt F) → (⟨S16384, .f32⟩ : BufTy).Contents (Elt F) → (⟨S16384, .f32⟩ : BufTy).Contents (Elt F)) ]

theorem part10_eq (d : Dev nD) : main_part10 (F := F) d = seq ops10 := rfl
theorem ops10_sub : (ops10 (F := F)).Forall fun op => op.bufs ⊆ tcRefs τ sig := by line_sub
theorem ops10_fresh : ∀ op ∈ (ops10 (F := F)), op.fresh = ∅ := by line_fresh
theorem ops10_ordered : Cert.Ssa.Ordered 601 (ops10 (F := F)) := by line_ordered

/-- Window 11 of @main: its operations, positions 661 to 720, in order. -/
abbrev ops11 : List (HloOp τ sig (Elt F)) :=
  [ StableHlo.binary main_v282 main_v348 main_v644 (addf : (⟨S16384, .f32⟩ : BufTy).Contents (Elt F) → (⟨S16384, .f32⟩ : BufTy).Contents (Elt F) → (⟨S16384, .f32⟩ : BufTy).Contents (Elt F)),
    StableHlo.binary main_v444 main_v353 main_v645 (addf : (⟨S16384, .f32⟩ : BufTy).Contents (Elt F) → (⟨S16384, .f32⟩ : BufTy).Contents (Elt F) → (⟨S16384, .f32⟩ : BufTy).Contents (Elt F)),
    StableHlo.binary main_v449 main_v449 main_v646 (addf : (⟨S16384, .f32⟩ : BufTy).Contents (Elt F) → (⟨S16384, .f32⟩ : BufTy).Contents (Elt F) → (⟨S16384, .f32⟩ : BufTy).Contents (Elt F)),
    StableHlo.unary main_v615 main_v647 (Host.sin : (⟨S16384, .f32⟩ : BufTy).Contents (Elt F) → (⟨S16384, .f32⟩ : BufTy).Contents (Elt F)),
    StableHlo.unary main_v563 main_v648 (Host.cos : (⟨S16384, .f32⟩ : BufTy).Contents (Elt F) → (⟨S16384, .f32⟩ : BufTy).Contents (Elt F)),
    StableHlo.binary main_v572 main_v572 main_v649 (mulf : (⟨S16384, .f32⟩ : BufTy).Contents (Elt F) → (⟨S16384, .f32⟩ : BufTy).Contents (Elt F) → (⟨S16384, .f32⟩ : BufTy).Contents (Elt F)),
    StableHlo.unary main_v619 main_v650 (Host.cos : (⟨S16384, .f32⟩ : BufTy).Contents (Elt F) → (⟨S16384, .f32⟩ : BufTy).Contents (Elt F)),
    StableHlo.unary main_v454 main_v651 (Host.sin : (⟨S16384, .f32⟩ : BufTy).Contents (Elt F) → (⟨S16384, .f32⟩ : BufTy).Contents (Elt F)),
    StableHlo.unary main_v388 main_v652 (Host.sin : (⟨S16384, .f32⟩ : BufTy).Contents (Elt F) → (⟨S16384, .f32⟩ : BufTy).Contents (Elt F)),
    StableHlo.binary main_v27 main_v410 main_v653 (subf : (⟨S16384, .f32⟩ : BufTy).Contents (Elt F) → (⟨S16384, .f32⟩ : BufTy).Contents (Elt F) → (⟨S16384, .f32⟩ : BufTy).Contents (Elt F)),
    StableHlo.binary main_v353 main_v107 main_v654 (mulf : (⟨S16384, .f32⟩ : BufTy).Contents (Elt F) → (⟨S16384, .f32⟩ : BufTy).Contents (Elt F) → (⟨S16384, .f32⟩ : BufTy).Contents (Elt F)),
    StableHlo.binary main_v483 main_v380 main_v655 (addf : (⟨S16384, .f32⟩ : BufTy).Contents (Elt F) → (⟨S16384, .f32⟩ : BufTy).Contents (Elt F) → (⟨S16384, .f32⟩ : BufTy).Contents (Elt F)),
    StableHlo.unary main_v627 main_v656 (Host.sin : (⟨S16384, .f32⟩ : BufTy).Contents (Elt F) → (⟨S16384, .f32⟩ : BufTy).Contents (Elt F)),
    StableHlo.unary main_v483 main_v657 (Host.cos : (⟨S16384, .f32⟩ : BufTy).Contents (Elt F) → (⟨S16384, .f32⟩ : BufTy).Contents (Elt F)),
    StableHlo.binary main_v634 main_v485 main_v658 (addf : (⟨S16384, .f32⟩ : BufTy).Contents (Elt F) → (⟨S16384, .f32⟩ : BufTy).Contents (Elt F) → (⟨S16384, .f32⟩ : BufTy).Contents (Elt F)),
    StableHlo.unary main_v140 main_v659 (Host.cos : (⟨S16384, .f32⟩ : BufTy).Contents (Elt F) → (⟨S16384, .f32⟩ : BufTy).Contents (Elt F)),
    StableHlo.binary main_v598 main_v619 main_v660 (addf : (⟨S16384, .f32⟩ : BufTy).Contents (Elt F) → (⟨S16384, .f32⟩ : BufTy).Contents (Elt F) → (⟨S16384, .f32⟩ : BufTy).Contents (Elt F)),
    StableHlo.unary main_v548 main_v661 (Host.cos : (⟨S16384, .f32⟩ : BufTy).Contents (Elt F) → (⟨S16384, .f32⟩ : BufTy).Contents (Elt F)),
    StableHlo.unary main_v636 main_v662 (Host.sin : (⟨S16384, .f32⟩ : BufTy).Contents (Elt F) → (⟨S16384, .f32⟩ : BufTy).Contents (Elt F)),
    StableHlo.unary main_v537 main_v663 (Host.sin : (⟨S16384, .f32⟩ : BufTy).Contents (Elt F) → (⟨S16384, .f32⟩ : BufTy).Contents (Elt F)),
    StableHlo.unary main_v634 main_v664 (Host.sin : (⟨S16384, .f32⟩ : BufTy).Contents (Elt F) → (⟨S16384, .f32⟩ : BufTy).Contents (Elt F)),
    StableHlo.unary main_v113 main_v665 (Host.sin : (⟨S16384, .f32⟩ : BufTy).Contents (Elt F) → (⟨S16384, .f32⟩ : BufTy).Contents (Elt F)),
    StableHlo.binary main_v113 main_v113 main_v666 (mulf : (⟨S16384, .f32⟩ : BufTy).Contents (Elt F) → (⟨S16384, .f32⟩ : BufTy).Contents (Elt F) → (⟨S16384, .f32⟩ : BufTy).Contents (Elt F)),
    StableHlo.binary main_v500 main_v625 main_v667 (addf : (⟨S16384, .f32⟩ : BufTy).Contents (Elt F) → (⟨S16384, .f32⟩ : BufTy).Contents (Elt F) → (⟨S16384, .f32⟩ : BufTy).Contents (Elt F)),
    StableHlo.unary main_v543 main_v668 (Host.cos : (⟨S16384, .f32⟩ : BufTy).Contents (Elt F) → (⟨S16384, .f32⟩ : BufTy).Contents (Elt F)),
    StableHlo.unary main_v639 main_v669 (Host.cos : (⟨S16384, .f32⟩ : BufTy).Contents (Elt F) → (⟨S16384, .f32⟩ : BufTy).Contents (Elt F)),
    StableHlo.binary main_v453 main_v214 main_v670 (addf : (⟨S16384, .f32⟩ : BufTy).Contents (Elt F) → (⟨S16384, .f32⟩ : BufTy).Contents (Elt F) → (⟨S16384, .f32⟩ : BufTy).Contents (Elt F)),
    StableHlo.unary main_v657 main_v671 (Host.cos : (⟨S16384, .f32⟩ : BufTy).Contents (Elt F) → (⟨S16384, .f32⟩ : BufTy).Contents (Elt F)),
    StableHlo.unary main_v515 main_v672 (Host.sin : (⟨S16384, .f32⟩ : BufTy).Contents (Elt F) → (⟨S16384, .f32⟩ : BufTy).Contents (Elt F)),
    StableHlo.unary main_v589 main_v673 (Host.cos : (⟨S16384, .f32⟩ : BufTy).Contents (Elt F) → (⟨S16384, .f32⟩ : BufTy).Contents (Elt F)),
    StableHlo.unary main_v625 main_v674 (Host.sin : (⟨S16384, .f32⟩ : BufTy).Contents (Elt F) → (⟨S16384, .f32⟩ : BufTy).Contents (Elt F)),
    StableHlo.unary main_v530 main_v675 (Host.sin : (⟨S16384, .f32⟩ : BufTy).Contents (Elt F) → (⟨S16384, .f32⟩ : BufTy).Contents (Elt F)),
    StableHlo.binary main_v226 main_v649 main_v676 (addf : (⟨S16384, .f32⟩ : BufTy).Contents (Elt F) → (⟨S16384, .f32⟩ : BufTy).Contents (Elt F) → (⟨S16384, .f32⟩ : BufTy).Contents (Elt F)),
    StableHlo.binary main_v274 main_v530 main_v677 (subf : (⟨S16384, .f32⟩ : BufTy).Contents (Elt F) → (⟨S16384, .f32⟩ : BufTy).Contents (Elt F) → (⟨S16384, .f32⟩ : BufTy).Contents (Elt F)),
    StableHlo.unary main_v486 main_v678 (Host.cos : (⟨S16384, .f32⟩ : BufTy).Contents (Elt F) → (⟨S16384, .f32⟩ : BufTy).Contents (Elt F)),
    StableHlo.unary main_v446 main_v679 (Host.cos : (⟨S16384, .f32⟩ : BufTy).Contents (Elt F) → (⟨S16384, .f32⟩ : BufTy).Contents (Elt F)),
    StableHlo.binary main_v556 main_v556 main_v680 (mulf : (⟨S16384, .f32⟩ : BufTy).Contents (Elt F) → (⟨S16384, .f32⟩ : BufTy).Contents (Elt F) → (⟨S16384, .f32⟩ : BufTy).Contents (Elt F)),
    StableHlo.unary main_v326 main_v681 (Host.cos : (⟨S16384, .f32⟩ : BufTy).Contents (Elt F) → (⟨S16384, .f32⟩ : BufTy).Contents (Elt F)),
    StableHlo.binary main_v454 main_v676 main_v682 (subf : (⟨S16384, .f32⟩ : BufTy).Contents (Elt F) → (⟨S16384, .f32⟩ : BufTy).Contents (Elt F) → (⟨S16384, .f32⟩ : BufTy).Contents (Elt F)),
    StableHlo.unary main_v671 main_v683 (Host.sin : (⟨S16384, .f32⟩ : BufTy).Contents (Elt F) → (⟨S16384, .f32⟩ : BufTy).Contents (Elt F)),
    StableHlo.unary main_v650 main_v684 (Host.cos : (⟨S16384, .f32⟩ : BufTy).Contents (Elt F) → (⟨S16384, .f32⟩ : BufTy).Contents (Elt F)),
    StableHlo.unary main_v651 main_v685 (Host.cos : (⟨S16384, .f32⟩ : BufTy).Contents (Elt F) → (⟨S16384, .f32⟩ : BufTy).Contents (Elt F)),
    StableHlo.unary main_v649 main_v686 (Host.sin : (⟨S16384, .f32⟩ : BufTy).Contents (Elt F) → (⟨S16384, .f32⟩ : BufTy).Contents (Elt F)),
    StableHlo.binary main_v618 main_v507 main_v687 (subf : (⟨S16384, .f32⟩ : BufTy).Contents (Elt F) → (⟨S16384, .f32⟩ : BufTy).Contents (Elt F) → (⟨S16384, .f32⟩ : BufTy).Contents (Elt F)),
    StableHlo.binary main_v615 main_v515 main_v688 (mulf : (⟨S16384, .f32⟩ : BufTy).Contents (Elt F) → (⟨S16384, .f32⟩ : BufTy).Contents (Elt F) → (⟨S16384, .f32⟩ : BufTy).Contents (Elt F)),
    StableHlo.unary main_v651 main_v689 (Host.cos : (⟨S16384, .f32⟩ : BufTy).Contents (Elt F) → (⟨S16384, .f32⟩ : BufTy).Contents (Elt F)),
    StableHlo.binary main_v474 main_v388 main_v690 (subf : (⟨S16384, .f32⟩ : BufTy).Contents (Elt F) → (⟨S16384, .f32⟩ : BufTy).Contents (Elt F) → (⟨S16384, .f32⟩ : BufTy).Contents (Elt F)),
    StableHlo.unary main_v641 main_v691 (Host.negf : (⟨S16384, .f32⟩ : BufTy).Contents (Elt F) → (⟨S16384, .f32⟩ : BufTy).Contents (Elt F)),
    StableHlo.binary main_v691 main_v331 main_v692 (subf : (⟨S16384, .f32⟩ : BufTy).Contents (Elt F) → (⟨S16384, .f32⟩ : BufTy).Contents (Elt F) → (⟨S16384, .f32⟩ : BufTy).Contents (Elt F)),
    StableHlo.binary main_v589 main_v474 main_v693 (subf : (⟨S16384, .f32⟩ : BufTy).Contents (Elt F) → (⟨S16384, .f32⟩ : BufTy).Contents (Elt F) → (⟨S16384, .f32⟩ : BufTy).Contents (Elt F)),
    StableHlo.binary main_v438 main_v375 main_v694 (mulf : (⟨S16384, .f32⟩ : BufTy).Contents (Elt F) → (⟨S16384, .f32⟩ : BufTy).Contents (Elt F) → (⟨S16384, .f32⟩ : BufTy).Contents (Elt F)),
    StableHlo.unary main_v128 main_v695 (Host.cos : (⟨S16384, .f32⟩ : BufTy).Contents (Elt F) → (⟨S16384, .f32⟩ : BufTy).Contents (Elt F)),
    StableHlo.binary main_v678 main_v678 main_v696 (mulf : (⟨S16384, .f32⟩ : BufTy).Contents (Elt F) → (⟨S16384, .f32⟩ : BufTy).Contents (Elt F) → (⟨S16384, .f32⟩ : BufTy).Contents (Elt F)),
    StableHlo.binary main_v398 main_v635 main_v697 (subf : (⟨S16384, .f32⟩ : BufTy).Contents (Elt F) → (⟨S16384, .f32⟩ : BufTy).Contents (Elt F) → (⟨S16384, .f32⟩ : BufTy).Contents (Elt F)),
    StableHlo.binary main_v579 main_v672 main_v698 (mulf : (⟨S16384, .f32⟩ : BufTy).Contents (Elt F) → (⟨S16384, .f32⟩ : BufTy).Contents (Elt F) → (⟨S16384, .f32⟩ : BufTy).Contents (Elt F)),
    StableHlo.binary main_v649 main_v531 main_v699 (mulf : (⟨S16384, .f32⟩ : BufTy).Contents (Elt F) → (⟨S16384, .f32⟩ : BufTy).Contents (Elt F) → (⟨S16384, .f32⟩ : BufTy).Contents (Elt F)),
    StableHlo.unary main_v462 main_v700 (Host.sin : (⟨S16384, .f32⟩ : BufTy).Contents (Elt F) → (⟨S16384, .f32⟩ : BufTy).Contents (Elt F)),
    StableHlo.unary main_v331 main_v701 (Host.negf : (⟨S16384, .f32⟩ : BufTy).Contents (Elt F) → (⟨S16384, .f32⟩ : BufTy).Contents (Elt F)),
    StableHlo.unary main_v668 main_v702 (Host.cos : (⟨S16384, .f32⟩ : BufTy).Contents (Elt F) → (⟨S16384, .f32⟩ : BufTy).Contents (Elt F)),
    StableHlo.binary main_v628 main_v628 main_v703 (mulf : (⟨S16384, .f32⟩ : BufTy).Contents (Elt F) → (⟨S16384, .f32⟩ : BufTy).Contents (Elt F) → (⟨S16384, .f32⟩ : BufTy).Contents (Elt F)) ]

theorem part11_eq (d : Dev nD) : main_part11 (F := F) d = seq ops11 := rfl
theorem ops11_sub : (ops11 (F := F)).Forall fun op => op.bufs ⊆ tcRefs τ sig := by line_sub
theorem ops11_fresh : ∀ op ∈ (ops11 (F := F)), op.fresh = ∅ := by line_fresh
theorem ops11_ordered : Cert.Ssa.Ordered 661 (ops11 (F := F)) := by line_ordered

/-- Window 12 of @main: its operations, positions 721 to 780, in order. -/
abbrev ops12 : List (HloOp τ sig (Elt F)) :=
  [ StableHlo.unary main_v584 main_v704 (Host.cos : (⟨S16384, .f32⟩ : BufTy).Contents (Elt F) → (⟨S16384, .f32⟩ : BufTy).Contents (Elt F)),
    StableHlo.unary main_v239 main_v705 (Host.cos : (⟨S16384, .f32⟩ : BufTy).Contents (Elt F) → (⟨S16384, .f32⟩ : BufTy).Contents (Elt F)),
    StableHlo.unary main_v483 main_v706 (Host.cos : (⟨S16384, .f32⟩ : BufTy).Contents (Elt F) → (⟨S16384, .f32⟩ : BufTy).Contents (Elt F)),
    StableHlo.binary main_v538 main_v602 main_v707 (subf : (⟨S16384, .f32⟩ : BufTy).Contents (Elt F) → (⟨S16384, .f32⟩ : BufTy).Contents (Elt F) → (⟨S16384, .f32⟩ : BufTy).Contents (Elt F)),
    StableHlo.unary main_v571 main_v708 (Host.sin : (⟨S16384, .f32⟩ : BufTy).Contents (Elt F) → (⟨S16384, .f32⟩ : BufTy).Contents (Elt F)),
    StableHlo.unary main_v410 main_v709 (Host.sin : (⟨S16384, .f32⟩ : BufTy).Contents (Elt F) → (⟨S16384, .f32⟩ : BufTy).Contents (Elt F)),
    StableHlo.unary main_v586 main_v710 (Host.sin : (⟨S16384, .f32⟩ : BufTy).Contents (Elt F) → (⟨S16384, .f32⟩ : BufTy).Contents (Elt F)),
    StableHlo.unary main_v704 main_v711 (Host.sin : (⟨S16384, .f32⟩ : BufTy).Contents (Elt F) → (⟨S16384, .f32⟩ : BufTy).Contents (Elt F)),
    StableHlo.binary main_v284 main_v293 main_v712 (addf : (⟨S16384, .f32⟩ : BufTy).Contents (Elt F) → (⟨S16384, .f32⟩ : BufTy).Contents (Elt F) → (⟨S16384, .f32⟩ : BufTy).Contents (Elt F)),
    StableHlo.unary main_v656 main_v713 (Host.cos : (⟨S16384, .f32⟩ : BufTy).Contents (Elt F) → (⟨S16384, .f32⟩ : BufTy).Contents (Elt F)),
    StableHlo.binary main_v628 main_v478 main_v714 (addf : (⟨S16384, .f32⟩ : BufTy).Contents (Elt F) → (⟨S16384, .f32⟩ : BufTy).Contents (Elt F) → (⟨S16384, .f32⟩ : BufTy).Contents (Elt F)),
    StableHlo.unary main_v627 main_v715 (Host.cos : (⟨S16384, .f32⟩ : BufTy).Contents (Elt F) → (⟨S16384, .f32⟩ : BufTy).Contents (Elt F)),
    StableHlo.binary main_v712 main_v712 main_v716 (mulf : (⟨S16384, .f32⟩ : BufTy).Contents (Elt F) → (⟨S16384, .f32⟩ : BufTy).Contents (Elt F) → (⟨S16384, .f32⟩ : BufTy).Contents (Elt F)),
    StableHlo.unary main_v710 main_v717 (Host.cos : (⟨S16384, .f32⟩ : BufTy).Contents (Elt F) → (⟨S16384, .f32⟩ : BufTy).Contents (Elt F)),
    StableHlo.unary main_v711 main_v718 (Host.sin : (⟨S16384, .f32⟩ : BufTy).Contents (Elt F) → (⟨S16384, .f32⟩ : BufTy).Contents (Elt F)),
    StableHlo.binary main_v649 main_v649 main_v719 (mulf : (⟨S16384, .f32⟩ : BufTy).Contents (Elt F) → (⟨S16384, .f32⟩ : BufTy).Contents (Elt F) → (⟨S16384, .f32⟩ : BufTy).Contents (Elt F)),
    StableHlo.unary main_v473 main_v720 (Host.sin : (⟨S16384, .f32⟩ : BufTy).Contents (Elt F) → (⟨S16384, .f32⟩ : BufTy).Contents (Elt F)),
    StableHlo.unary main_v615 main_v721 (Host.negf : (⟨S16384, .f32⟩ : BufTy).Contents (Elt F) → (⟨S16384, .f32⟩ : BufTy).Contents (Elt F)),
    StableHlo.unary main_v464 main_v722 (Host.cos : (⟨S16384, .f32⟩ : BufTy).Contents (Elt F) → (⟨S16384, .f32⟩ : BufTy).Contents (Elt F)),
    StableHlo.unary main_v709 main_v723 (Host.sin : (⟨S16384, .f32⟩ : BufTy).Contents (Elt F) → (⟨S16384, .f32⟩ : BufTy).Contents (Elt F)),
    StableHlo.binary main_v538 main_v560 main_v724 (subf : (⟨S16384, .f32⟩ : BufTy).Contents (Elt F) → (⟨S16384, .f32⟩ : BufTy).Contents (Elt F) → (⟨S16384, .f32⟩ : BufTy).Contents (Elt F)),
    StableHlo.unary main_v639 main_v725 (Host.sin : (⟨S16384, .f32⟩ : BufTy).Contents (Elt F) → (⟨S16384, .f32⟩ : BufTy).Contents (Elt F)),
    StableHlo.binary main_v536 main_v724 main_v726 (subf : (⟨S16384, .f32⟩ : BufTy).Contents (Elt F) → (⟨S16384, .f32⟩ : BufTy).Contents (Elt F) → (⟨S16384, .f32⟩ : BufTy).Contents (Elt F)),
    StableHlo.unary main_v128 main_v727 (Host.cos : (⟨S16384, .f32⟩ : BufTy).Contents (Elt F) → (⟨S16384, .f32⟩ : BufTy).Contents (Elt F)),
    StableHlo.unary main_v538 main_v728 (Host.cos : (⟨S16384, .f32⟩ : BufTy).Contents (Elt F) → (⟨S16384, .f32⟩ : BufTy).Contents (Elt F)),
    StableHlo.unary main_v646 main_v729 (Host.sin : (⟨S16384, .f32⟩ : BufTy).Contents (Elt F) → (⟨S16384, .f32⟩ : BufTy).Contents (Elt F)),
    StableHlo.binary main_v719 main_v699 main_v730 (addf : (⟨S16384, .f32⟩ : BufTy).Contents (Elt F) → (⟨S16384, .f32⟩ : BufTy).Contents (Elt F) → (⟨S16384, .f32⟩ : BufTy).Contents (Elt F)),
    StableHlo.unary main_v590 main_v731 (Host.sin : (⟨S16384, .f32⟩ : BufTy).Contents (Elt F) → (⟨S16384, .f32⟩ : BufTy).Contents (Elt F)),
    StableHlo.unary main_v543 main_v732 (Host.cos : (⟨S16384, .f32⟩ : BufTy).Contents (Elt F) → (⟨S16384, .f32⟩ : BufTy).Contents (Elt F)),
    StableHlo.unary main_v722 main_v733 (Host.negf : (⟨S16384, .f32⟩ : BufTy).Contents (Elt F) → (⟨S16384, .f32⟩ : BufTy).Contents (Elt F)),
    StableHlo.unary main_v338 main_v734 (Host.cos : (⟨S16384, .f32⟩ : BufTy).Contents (Elt F) → (⟨S16384, .f32⟩ : BufTy).Contents (Elt F)),
    StableHlo.unary main_v669 main_v735 (Host.sin : (⟨S16384, .f32⟩ : BufTy).Contents (Elt F) → (⟨S16384, .f32⟩ : BufTy).Contents (Elt F)),
    StableHlo.unary main_v710 main_v736 (Host.sin : (⟨S16384, .f32⟩ : BufTy).Contents (Elt F) → (⟨S16384, .f32⟩ : BufTy).Contents (Elt F)),
    StableHlo.unary main_v309 main_v737 (Host.sin : (⟨S16384, .f32⟩ : BufTy).Contents (Elt F) → (⟨S16384, .f32⟩ : BufTy).Contents (Elt F)),
    StableHlo.unary main_v569 main_v738 (Host.cos : (⟨S16384, .f32⟩ : BufTy).Contents (Elt F) → (⟨S16384, .f32⟩ : BufTy).Contents (Elt F)),
    StableHlo.unary main_v486 main_v739 (Host.cos : (⟨S16384, .f32⟩ : BufTy).Contents (Elt F) → (⟨S16384, .f32⟩ : BufTy).Contents (Elt F)),
    StableHlo.binary main_v628 main_v616 main_v740 (subf : (⟨S16384, .f32⟩ : BufTy).Contents (Elt F) → (⟨S16384, .f32⟩ : BufTy).Contents (Elt F) → (⟨S16384, .f32⟩ : BufTy).Contents (Elt F)),
    StableHlo.binary main_v626 main_v536 main_v741 (addf : (⟨S16384, .f32⟩ : BufTy).Contents (Elt F) → (⟨S16384, .f32⟩ : BufTy).Contents (Elt F) → (⟨S16384, .f32⟩ : BufTy).Contents (Elt F)),
    StableHlo.binary main_v466 main_v466 main_v742 (mulf : (⟨S16384, .f32⟩ : BufTy).Contents (Elt F) → (⟨S16384, .f32⟩ : BufTy).Contents (Elt F) → (⟨S16384, .f32⟩ : BufTy).Contents (Elt F)),
    StableHlo.unary main_v556 main_v743 (Host.sin : (⟨S16384, .f32⟩ : BufTy).Contents (Elt F) → (⟨S16384, .f32⟩ : BufTy).Contents (Elt F)),
    StableHlo.binary main_v615 main_v615 main_v744 (mulf : (⟨S16384, .f32⟩ : BufTy).Contents (Elt F) → (⟨S16384, .f32⟩ : BufTy).Contents (Elt F) → (⟨S16384, .f32⟩ : BufTy).Contents (Elt F)),
    StableHlo.unary main_v703 main_v745 (Host.sin : (⟨S16384, .f32⟩ : BufTy).Contents (Elt F) → (⟨S16384, .f32⟩ : BufTy).Contents (Elt F)),
    StableHlo.unary main_v694 main_v746 (Host.sin : (⟨S16384, .f32⟩ : BufTy).Contents (Elt F) → (⟨S16384, .f32⟩ : BufTy).Contents (Elt F)),
    StableHlo.unary main_v389 main_v747 (Host.cos : (⟨S16384, .f32⟩ : BufTy).Contents (Elt F) → (⟨S16384, .f32⟩ : BufTy).Contents (Elt F)),
    StableHlo.unary main_v697 main_v748 (Host.sin : (⟨S16384, .f32⟩ : BufTy).Contents (Elt F) → (⟨S16384, .f32⟩ : BufTy).Contents (Elt F)),
    StableHlo.unary main_v711 main_v749 (Host.negf : (⟨S16384, .f32⟩ : BufTy).Contents (Elt F) → (⟨S16384, .f32⟩ : BufTy).Contents (Elt F)),
    StableHlo.binary main_v728 main_v426 main_v750 (mulf : (⟨S16384, .f32⟩ : BufTy).Contents (Elt F) → (⟨S16384, .f32⟩ : BufTy).Contents (Elt F) → (⟨S16384, .f32⟩ : BufTy).Contents (Elt F)),
    StableHlo.binary main_v406 main_v406 main_v751 (mulf : (⟨S16384, .f32⟩ : BufTy).Contents (Elt F) → (⟨S16384, .f32⟩ : BufTy).Contents (Elt F) → (⟨S16384, .f32⟩ : BufTy).Contents (Elt F)),
    StableHlo.binary main_v541 main_v641 main_v752 (mulf : (⟨S16384, .f32⟩ : BufTy).Contents (Elt F) → (⟨S16384, .f32⟩ : BufTy).Contents (Elt F) → (⟨S16384, .f32⟩ : BufTy).Contents (Elt F)),
    StableHlo.binary main_v451 main_v451 main_v753 (mulf : (⟨S16384, .f32⟩ : BufTy).Contents (Elt F) → (⟨S16384, .f32⟩ : BufTy).Contents (Elt F) → (⟨S16384, .f32⟩ : BufTy).Contents (Elt F)),
    StableHlo.unary main_v565 main_v754 (Host.cos : (⟨S16384, .f32⟩ : BufTy).Contents (Elt F) → (⟨S16384, .f32⟩ : BufTy).Contents (Elt F)),
    StableHlo.unary main_v272 main_v755 (Host.cos : (⟨S16384, .f32⟩ : BufTy).Contents (Elt F) → (⟨S16384, .f32⟩ : BufTy).Contents (Elt F)),
    StableHlo.unary main_v738 main_v756 (Host.negf : (⟨S16384, .f32⟩ : BufTy).Contents (Elt F) → (⟨S16384, .f32⟩ : BufTy).Contents (Elt F)),
    StableHlo.unary main_v679 main_v757 (Host.sin : (⟨S16384, .f32⟩ : BufTy).Contents (Elt F) → (⟨S16384, .f32⟩ : BufTy).Contents (Elt F)),
    StableHlo.binary main_v398 main_v739 main_v758 (subf : (⟨S16384, .f32⟩ : BufTy).Contents (Elt F) → (⟨S16384, .f32⟩ : BufTy).Contents (Elt F) → (⟨S16384, .f32⟩ : BufTy).Contents (Elt F)),
    StableHlo.unary main_v687 main_v759 (Host.sin : (⟨S16384, .f32⟩ : BufTy).Contents (Elt F) → (⟨S16384, .f32⟩ : BufTy).Contents (Elt F)),
    StableHlo.unary main_v729 main_v760 (Host.sin : (⟨S16384, .f32⟩ : BufTy).Contents (Elt F) → (⟨S16384, .f32⟩ : BufTy).Contents (Elt F)),
    StableHlo.binary main_v446 main_v739 main_v761 (subf : (⟨S16384, .f32⟩ : BufTy).Contents (Elt F) → (⟨S16384, .f32⟩ : BufTy).Contents (Elt F) → (⟨S16384, .f32⟩ : BufTy).Contents (Elt F)),
    StableHlo.unary main_v517 main_v762 (Host.cos : (⟨S16384, .f32⟩ : BufTy).Contents (Elt F) → (⟨S16384, .f32⟩ : BufTy).Contents (Elt F)),
    StableHlo.binary main_v313 main_v727 main_v763 (addf : (⟨S16384, .f32⟩ : BufTy).Contents (Elt F) → (⟨S16384, .f32⟩ : BufTy).Contents (Elt F) → (⟨S16384, .f32⟩ : BufTy).Contents (Elt F)) ]

theorem part12_eq (d : Dev nD) : main_part12 (F := F) d = seq ops12 := rfl
theorem ops12_sub : (ops12 (F := F)).Forall fun op => op.bufs ⊆ tcRefs τ sig := by line_sub
theorem ops12_fresh : ∀ op ∈ (ops12 (F := F)), op.fresh = ∅ := by line_fresh
theorem ops12_ordered : Cert.Ssa.Ordered 721 (ops12 (F := F)) := by line_ordered

/-- Window 13 of @main: its operations, positions 781 to 840, in order. -/
abbrev ops13 : List (HloOp τ sig (Elt F)) :=
  [ StableHlo.unary main_v599 main_v764 (Host.cos : (⟨S16384, .f32⟩ : BufTy).Contents (Elt F) → (⟨S16384, .f32⟩ : BufTy).Contents (Elt F)),
    StableHlo.unary main_v581 main_v765 (Host.cos : (⟨S16384, .f32⟩ : BufTy).Contents (Elt F) → (⟨S16384, .f32⟩ : BufTy).Contents (Elt F)),
    StableHlo.unary main_v426 main_v766 (Host.cos : (⟨S16384, .f32⟩ : BufTy).Contents (Elt F) → (⟨S16384, .f32⟩ : BufTy).Contents (Elt F)),
    StableHlo.binary main_v761 main_v313 main_v767 (addf : (⟨S16384, .f32⟩ : BufTy).Contents (Elt F) → (⟨S16384, .f32⟩ : BufTy).Contents (Elt F) → (⟨S16384, .f32⟩ : BufTy).Contents (Elt F)),
    StableHlo.binary main_v486 main_v584 main_v768 (mulf : (⟨S16384, .f32⟩ : BufTy).Contents (Elt F) → (⟨S16384, .f32⟩ : BufTy).Contents (Elt F) → (⟨S16384, .f32⟩ : BufTy).Contents (Elt F)),
    StableHlo.unary main_v704 main_v769 (Host.sin : (⟨S16384, .f32⟩ : BufTy).Contents (Elt F) → (⟨S16384, .f32⟩ : BufTy).Contents (Elt F)),
    StableHlo.unary main_v550 main_v770 (Host.sin : (⟨S16384, .f32⟩ : BufTy).Contents (Elt F) → (⟨S16384, .f32⟩ : BufTy).Contents (Elt F)),
    StableHlo.unary main_v670 main_v771 (Host.cos : (⟨S16384, .f32⟩ : BufTy).Contents (Elt F) → (⟨S16384, .f32⟩ : BufTy).Contents (Elt F)),
    StableHlo.binary main_v769 main_v640 main_v772 (mulf : (⟨S16384, .f32⟩ : BufTy).Contents (Elt F) → (⟨S16384, .f32⟩ : BufTy).Contents (Elt F) → (⟨S16384, .f32⟩ : BufTy).Contents (Elt F)),
    StableHlo.binary main_v752 main_v752 main_v773 (mulf : (⟨S16384, .f32⟩ : BufTy).Contents (Elt F) → (⟨S16384, .f32⟩ : BufTy).Contents (Elt F) → (⟨S16384, .f32⟩ : BufTy).Contents (Elt F)),
    StableHlo.unary main_v585 main_v774 (Host.sin : (⟨S16384, .f32⟩ : BufTy).Contents (Elt F) → (⟨S16384, .f32⟩ : BufTy).Contents (Elt F)),
    StableHlo.binary main_v198 main_v498 main_v775 (addf : (⟨S16384, .f32⟩ : BufTy).Contents (Elt F) → (⟨S16384, .f32⟩ : BufTy).Contents (Elt F) → (⟨S16384, .f32⟩ : BufTy).Contents (Elt F)),
    StableHlo.binary main_v626 main_v239 main_v776 (subf : (⟨S16384, .f32⟩ : BufTy).Contents (Elt F) → (⟨S16384, .f32⟩ : BufTy).Contents (Elt F) → (⟨S16384, .f32⟩ : BufTy).Contents (Elt F)),
    StableHlo.unary main_v590 main_v777 (Host.sin : (⟨S16384, .f32⟩ : BufTy).Contents (Elt F) → (⟨S16384, .f32⟩ : BufTy).Contents (Elt F)),
    StableHlo.binary main_v753 main_v753 main_v778 (mulf : (⟨S16384, .f32⟩ : BufTy).Contents (Elt F) → (⟨S16384, .f32⟩ : BufTy).Contents (Elt F) → (⟨S16384, .f32⟩ : BufTy).Contents (Elt F)),
    StableHlo.unary main_v731 main_v779 (Host.cos : (⟨S16384, .f32⟩ : BufTy).Contents (Elt F) → (⟨S16384, .f32⟩ : BufTy).Contents (Elt F)),
    StableHlo.unary main_v649 main_v780 (Host.cos : (⟨S16384, .f32⟩ : BufTy).Contents (Elt F) → (⟨S16384, .f32⟩ : BufTy).Contents (Elt F)),
    StableHlo.unary main_v454 main_v781 (Host.cos : (⟨S16384, .f32⟩ : BufTy).Contents (Elt F) → (⟨S16384, .f32⟩ : BufTy).Contents (Elt F)),
    StableHlo.unary main_v649 main_v782 (Host.cos : (⟨S16384, .f32⟩ : BufTy).Contents (Elt F) → (⟨S16384, .f32⟩ : BufTy).Contents (Elt F)),
    StableHlo.binary main_v699 main_v594 main_v783 (addf : (⟨S16384, .f32⟩ : BufTy).Contents (Elt F) → (⟨S16384, .f32⟩ : BufTy).Contents (Elt F) → (⟨S16384, .f32⟩ : BufTy).Contents (Elt F)),
    StableHlo.binary main_v669 main_v751 main_v784 (addf : (⟨S16384, .f32⟩ : BufTy).Contents (Elt F) → (⟨S16384, .f32⟩ : BufTy).Contents (Elt F) → (⟨S16384, .f32⟩ : BufTy).Contents (Elt F)),
    StableHlo.unary main_v407 main_v785 (Host.sin : (⟨S16384, .f32⟩ : BufTy).Contents (Elt F) → (⟨S16384, .f32⟩ : BufTy).Contents (Elt F)),
    StableHlo.binary main_v606 main_v366 main_v786 (addf : (⟨S16384, .f32⟩ : BufTy).Contents (Elt F) → (⟨S16384, .f32⟩ : BufTy).Contents (Elt F) → (⟨S16384, .f32⟩ : BufTy).Contents (Elt F)),
    StableHlo.binary main_v444 main_v543 main_v787 (mulf : (⟨S16384, .f32⟩ : BufTy).Contents (Elt F) → (⟨S16384, .f32⟩ : BufTy).Contents (Elt F) → (⟨S16384, .f32⟩ : BufTy).Contents (Elt F)),
    StableHlo.unary main_v787 main_v788 (Host.sin : (⟨S16384, .f32⟩ : BufTy).Contents (Elt F) → (⟨S16384, .f32⟩ : BufTy).Contents (Elt F)),
    StableHlo.unary main_v540 main_v789 (Host.cos : (⟨S16384, .f32⟩ : BufTy).Contents (Elt F) → (⟨S16384, .f32⟩ : BufTy).Contents (Elt F)),
    StableHlo.unary main_v418 main_v790 (Host.sin : (⟨S16384, .f32⟩ : BufTy).Contents (Elt F) → (⟨S16384, .f32⟩ : BufTy).Contents (Elt F)),
    StableHlo.unary main_v619 main_v791 (Host.sin : (⟨S16384, .f32⟩ : BufTy).Contents (Elt F) → (⟨S16384, .f32⟩ : BufTy).Contents (Elt F)),
    StableHlo.unary main_v601 main_v792 (Host.sin : (⟨S16384, .f32⟩ : BufTy).Contents (Elt F) → (⟨S16384, .f32⟩ : BufTy).Contents (Elt F)),
    StableHlo.binary main_v656 main_v779 main_v793 (subf : (⟨S16384, .f32⟩ : BufTy).Contents (Elt F) → (⟨S16384, .f32⟩ : BufTy).Contents (Elt F) → (⟨S16384, .f32⟩ : BufTy).Contents (Elt F)),
    StableHlo.binary main_v726 main_v726 main_v794 (mulf : (⟨S16384, .f32⟩ : BufTy).Contents (Elt F) → (⟨S16384, .f32⟩ : BufTy).Contents (Elt F) → (⟨S16384, .f32⟩ : BufTy).Contents (Elt F)),
    StableHlo.unary main_v446 main_v795 (Host.sin : (⟨S16384, .f32⟩ : BufTy).Contents (Elt F) → (⟨S16384, .f32⟩ : BufTy).Contents (Elt F)),
    StableHlo.unary main_v759 main_v796 (Host.sin : (⟨S16384, .f32⟩ : BufTy).Contents (Elt F) → (⟨S16384, .f32⟩ : BufTy).Contents (Elt F)),
    StableHlo.binary main_v720 main_v739 main_v797 (mulf : (⟨S16384, .f32⟩ : BufTy).Contents (Elt F) → (⟨S16384, .f32⟩ : BufTy).Contents (Elt F) → (⟨S16384, .f32⟩ : BufTy).Contents (Elt F)),
    StableHlo.binary main_v773 main_v735 main_v798 (subf : (⟨S16384, .f32⟩ : BufTy).Contents (Elt F) → (⟨S16384, .f32⟩ : BufTy).Contents (Elt F) → (⟨S16384, .f32⟩ : BufTy).Contents (Elt F)),
    StableHlo.unary main_v656 main_v799 (Host.sin : (⟨S16384, .f32⟩ : BufTy).Contents (Elt F) → (⟨S16384, .f32⟩ : BufTy).Contents (Elt F)),
    StableHlo.binary main_v798 main_v455 main_v800 (addf : (⟨S16384, .f32⟩ : BufTy).Contents (Elt F) → (⟨S16384, .f32⟩ : BufTy).Contents (Elt F) → (⟨S16384, .f32⟩ : BufTy).Contents (Elt F)),
    StableHlo.unary main_v681 main_v801 (Host.cos : (⟨S16384, .f32⟩ : BufTy).Contents (Elt F) → (⟨S16384, .f32⟩ : BufTy).Contents (Elt F)),
    StableHlo.binary main_v666 main_v666 main_v802 (mulf : (⟨S16384, .f32⟩ : BufTy).Contents (Elt F) → (⟨S16384, .f32⟩ : BufTy).Contents (Elt F) → (⟨S16384, .f32⟩ : BufTy).Contents (Elt F)),
    StableHlo.unary main_v764 main_v803 (Host.cos : (⟨S16384, .f32⟩ : BufTy).Contents (Elt F) → (⟨S16384, .f32⟩ : BufTy).Contents (Elt F)),
    StableHlo.binary main_v466 main_v762 main_v804 (subf : (⟨S16384, .f32⟩ : BufTy).Contents (Elt F) → (⟨S16384, .f32⟩ : BufTy).Contents (Elt F) → (⟨S16384, .f32⟩ : BufTy).Contents (Elt F)),
    StableHlo.unary main_v537 main_v805 (Host.cos : (⟨S16384, .f32⟩ : BufTy).Contents (Elt F) → (⟨S16384, .f32⟩ : BufTy).Contents (Elt F)),
    StableHlo.unary main_v198 main_v806 (Host.cos : (⟨S16384, .f32⟩ : BufTy).Contents (Elt F) → (⟨S16384, .f32⟩ : BufTy).Contents (Elt F)),
    StableHlo.binary main_v551 main_v792 main_v807 (addf : (⟨S16384, .f32⟩ : BufTy).Contents (Elt F) → (⟨S16384, .f32⟩ : BufTy).Contents (Elt F) → (⟨S16384, .f32⟩ : BufTy).Contents (Elt F)),
    StableHlo.unary main_v696 main_v808 (Host.negf : (⟨S16384, .f32⟩ : BufTy).Contents (Elt F) → (⟨S16384, .f32⟩ : BufTy).Contents (Elt F)),
    StableHlo.binary main_v468 main_v740 main_v809 (addf : (⟨S16384, .f32⟩ : BufTy).Contents (Elt F) → (⟨S16384, .f32⟩ : BufTy).Contents (Elt F) → (⟨S16384, .f32⟩ : BufTy).Contents (Elt F)),
    StableHlo.unary main_v517 main_v810 (Host.cos : (⟨S16384, .f32⟩ : BufTy).Contents (Elt F) → (⟨S16384, .f32⟩ : BufTy).Contents (Elt F)),
    StableHlo.unary main_v679 main_v811 (Host.sin : (⟨S16384, .f32⟩ : BufTy).Contents (Elt F) → (⟨S16384, .f32⟩ : BufTy).Contents (Elt F)),
    StableHlo.unary main_v466 main_v812 (Host.cos : (⟨S16384, .f32⟩ : BufTy).Contents (Elt F) → (⟨S16384, .f32⟩ : BufTy).Contents (Elt F)),
    StableHlo.unary main_v808 main_v813 (Host.cos : (⟨S16384, .f32⟩ : BufTy).Contents (Elt F) → (⟨S16384, .f32⟩ : BufTy).Contents (Elt F)),
    StableHlo.unary main_v638 main_v814 (Host.sin : (⟨S16384, .f32⟩ : BufTy).Contents (Elt F) → (⟨S16384, .f32⟩ : BufTy).Contents (Elt F)),
    StableHlo.unary main_v566 main_v815 (Host.sin : (⟨S16384, .f32⟩ : BufTy).Contents (Elt F) → (⟨S16384, .f32⟩ : BufTy).Contents (Elt F)),
    StableHlo.binary main_v455 main_v519 main_v816 (addf : (⟨S16384, .f32⟩ : BufTy).Contents (Elt F) → (⟨S16384, .f32⟩ : BufTy).Contents (Elt F) → (⟨S16384, .f32⟩ : BufTy).Contents (Elt F)),
    StableHlo.unary main_v645 main_v817 (Host.cos : (⟨S16384, .f32⟩ : BufTy).Contents (Elt F) → (⟨S16384, .f32⟩ : BufTy).Contents (Elt F)),
    StableHlo.binary main_v751 main_v751 main_v818 (mulf : (⟨S16384, .f32⟩ : BufTy).Contents (Elt F) → (⟨S16384, .f32⟩ : BufTy).Contents (Elt F) → (⟨S16384, .f32⟩ : BufTy).Contents (Elt F)),
    StableHlo.binary main_v799 main_v809 main_v819 (subf : (⟨S16384, .f32⟩ : BufTy).Contents (Elt F) → (⟨S16384, .f32⟩ : BufTy).Contents (Elt F) → (⟨S16384, .f32⟩ : BufTy).Contents (Elt F)),
    StableHlo.unary main_v687 main_v820 (Host.cos : (⟨S16384, .f32⟩ : BufTy).Contents (Elt F) → (⟨S16384, .f32⟩ : BufTy).Contents (Elt F)),
    StableHlo.unary main_v666 main_v821 (Host.sin : (⟨S16384, .f32⟩ : BufTy).Contents (Elt F) → (⟨S16384, .f32⟩ : BufTy).Contents (Elt F)),
    StableHlo.binary main_v765 main_v512 main_v822 (subf : (⟨S16384, .f32⟩ : BufTy).Contents (Elt F) → (⟨S16384, .f32⟩ : BufTy).Contents (Elt F) → (⟨S16384, .f32⟩ : BufTy).Contents (Elt F)),
    StableHlo.binary main_v418 main_v566 main_v823 (mulf : (⟨S16384, .f32⟩ : BufTy).Contents (Elt F) → (⟨S16384, .f32⟩ : BufTy).Contents (Elt F) → (⟨S16384, .f32⟩ : BufTy).Contents (Elt F)) ]

theorem part13_eq (d : Dev nD) : main_part13 (F := F) d = seq ops13 := rfl
theorem ops13_sub : (ops13 (F := F)).Forall fun op => op.bufs ⊆ tcRefs τ sig := by line_sub
theorem ops13_fresh : ∀ op ∈ (ops13 (F := F)), op.fresh = ∅ := by line_fresh
theorem ops13_ordered : Cert.Ssa.Ordered 781 (ops13 (F := F)) := by line_ordered

/-- Window 14 of @main: its operations, positions 841 to 900, in order. -/
abbrev ops14 : List (HloOp τ sig (Elt F)) :=
  [ StableHlo.unary main_v584 main_v824 (Host.cos : (⟨S16384, .f32⟩ : BufTy).Contents (Elt F) → (⟨S16384, .f32⟩ : BufTy).Contents (Elt F)),
    StableHlo.binary main_v746 main_v746 main_v825 (mulf : (⟨S16384, .f32⟩ : BufTy).Contents (Elt F) → (⟨S16384, .f32⟩ : BufTy).Contents (Elt F) → (⟨S16384, .f32⟩ : BufTy).Contents (Elt F)),
    StableHlo.unary main_v746 main_v826 (Host.cos : (⟨S16384, .f32⟩ : BufTy).Contents (Elt F) → (⟨S16384, .f32⟩ : BufTy).Contents (Elt F)),
    StableHlo.unary main_v228 main_v827 (Host.cos : (⟨S16384, .f32⟩ : BufTy).Contents (Elt F) → (⟨S16384, .f32⟩ : BufTy).Contents (Elt F)),
    StableHlo.unary main_v813 main_v828 (Host.cos : (⟨S16384, .f32⟩ : BufTy).Contents (Elt F) → (⟨S16384, .f32⟩ : BufTy).Contents (Elt F)),
    StableHlo.binary main_v703 main_v154 main_v829 (addf : (⟨S16384, .f32⟩ : BufTy).Contents (Elt F) → (⟨S16384, .f32⟩ : BufTy).Contents (Elt F) → (⟨S16384, .f32⟩ : BufTy).Contents (Elt F)),
    StableHlo.unary main_v464 main_v830 (Host.sin : (⟨S16384, .f32⟩ : BufTy).Contents (Elt F) → (⟨S16384, .f32⟩ : BufTy).Contents (Elt F)),
    StableHlo.unary main_v389 main_v831 (Host.cos : (⟨S16384, .f32⟩ : BufTy).Contents (Elt F) → (⟨S16384, .f32⟩ : BufTy).Contents (Elt F)),
    StableHlo.binary main_v517 main_v722 main_v832 (mulf : (⟨S16384, .f32⟩ : BufTy).Contents (Elt F) → (⟨S16384, .f32⟩ : BufTy).Contents (Elt F) → (⟨S16384, .f32⟩ : BufTy).Contents (Elt F)),
    StableHlo.unary main_v673 main_v833 (Host.sin : (⟨S16384, .f32⟩ : BufTy).Contents (Elt F) → (⟨S16384, .f32⟩ : BufTy).Contents (Elt F)),
    StableHlo.binary main_v455 main_v558 main_v834 (subf : (⟨S16384, .f32⟩ : BufTy).Contents (Elt F) → (⟨S16384, .f32⟩ : BufTy).Contents (Elt F) → (⟨S16384, .f32⟩ : BufTy).Contents (Elt F)),
    StableHlo.unary main_v131 main_v835 (Host.cos : (⟨S16384, .f32⟩ : BufTy).Contents (Elt F) → (⟨S16384, .f32⟩ : BufTy).Contents (Elt F)),
    StableHlo.binary main_v464 main_v778 main_v836 (subf : (⟨S16384, .f32⟩ : BufTy).Contents (Elt F) → (⟨S16384, .f32⟩ : BufTy).Contents (Elt F) → (⟨S16384, .f32⟩ : BufTy).Contents (Elt F)),
    StableHlo.binary main_v740 main_v494 main_v837 (mulf : (⟨S16384, .f32⟩ : BufTy).Contents (Elt F) → (⟨S16384, .f32⟩ : BufTy).Contents (Elt F) → (⟨S16384, .f32⟩ : BufTy).Contents (Elt F)),
    StableHlo.unary main_v785 main_v838 (Host.cos : (⟨S16384, .f32⟩ : BufTy).Contents (Elt F) → (⟨S16384, .f32⟩ : BufTy).Contents (Elt F)),
    StableHlo.unary main_v824 main_v839 (Host.negf : (⟨S16384, .f32⟩ : BufTy).Contents (Elt F) → (⟨S16384, .f32⟩ : BufTy).Contents (Elt F)),
    StableHlo.binary main_v615 main_v656 main_v840 (addf : (⟨S16384, .f32⟩ : BufTy).Contents (Elt F) → (⟨S16384, .f32⟩ : BufTy).Contents (Elt F) → (⟨S16384, .f32⟩ : BufTy).Contents (Elt F)),
    StableHlo.binary main_v699 main_v703 main_v841 (subf : (⟨S16384, .f32⟩ : BufTy).Contents (Elt F) → (⟨S16384, .f32⟩ : BufTy).Contents (Elt F) → (⟨S16384, .f32⟩ : BufTy).Contents (Elt F)),
    StableHlo.binary main_v379 main_v352 main_v842 (mulf : (⟨S16384, .f32⟩ : BufTy).Contents (Elt F) → (⟨S16384, .f32⟩ : BufTy).Contents (Elt F) → (⟨S16384, .f32⟩ : BufTy).Contents (Elt F)),
    StableHlo.unary main_v818 main_v843 (Host.sin : (⟨S16384, .f32⟩ : BufTy).Contents (Elt F) → (⟨S16384, .f32⟩ : BufTy).Contents (Elt F)),
    StableHlo.binary main_v836 main_v811 main_v844 (mulf : (⟨S16384, .f32⟩ : BufTy).Contents (Elt F) → (⟨S16384, .f32⟩ : BufTy).Contents (Elt F) → (⟨S16384, .f32⟩ : BufTy).Contents (Elt F)),
    StableHlo.binary main_v468 main_v819 main_v845 (subf : (⟨S16384, .f32⟩ : BufTy).Contents (Elt F) → (⟨S16384, .f32⟩ : BufTy).Contents (Elt F) → (⟨S16384, .f32⟩ : BufTy).Contents (Elt F)),
    StableHlo.unary main_v831 main_v846 (Host.negf : (⟨S16384, .f32⟩ : BufTy).Contents (Elt F) → (⟨S16384, .f32⟩ : BufTy).Contents (Elt F)),
    StableHlo.unary main_v305 main_v847 (Host.sin : (⟨S16384, .f32⟩ : BufTy).Contents (Elt F) → (⟨S16384, .f32⟩ : BufTy).Contents (Elt F)),
    StableHlo.unary main_v656 main_v848 (Host.cos : (⟨S16384, .f32⟩ : BufTy).Contents (Elt F) → (⟨S16384, .f32⟩ : BufTy).Contents (Elt F)),
    StableHlo.unary main_v824 main_v849 (Host.cos : (⟨S16384, .f32⟩ : BufTy).Contents (Elt F) → (⟨S16384, .f32⟩ : BufTy).Contents (Elt F)),
    StableHlo.binary main_v616 main_v337 main_v850 (subf : (⟨S16384, .f32⟩ : BufTy).Contents (Elt F) → (⟨S16384, .f32⟩ : BufTy).Contents (Elt F) → (⟨S16384, .f32⟩ : BufTy).Contents (Elt F)),
    StableHlo.unary main_v634 main_v851 (Host.cos : (⟨S16384, .f32⟩ : BufTy).Contents (Elt F) → (⟨S16384, .f32⟩ : BufTy).Contents (Elt F)),
    StableHlo.unary main_v226 main_v852 (Host.sin : (⟨S16384, .f32⟩ : BufTy).Contents (Elt F) → (⟨S16384, .f32⟩ : BufTy).Contents (Elt F)),
    StableHlo.unary main_v619 main_v853 (Host.sin : (⟨S16384, .f32⟩ : BufTy).Contents (Elt F) → (⟨S16384, .f32⟩ : BufTy).Contents (Elt F)),
    StableHlo.binary main_v228 main_v723 main_v854 (addf : (⟨S16384, .f32⟩ : BufTy).Contents (Elt F) → (⟨S16384, .f32⟩ : BufTy).Contents (Elt F) → (⟨S16384, .f32⟩ : BufTy).Contents (Elt F)),
    StableHlo.unary main_v639 main_v855 (Host.sin : (⟨S16384, .f32⟩ : BufTy).Contents (Elt F) → (⟨S16384, .f32⟩ : BufTy).Contents (Elt F)),
    StableHlo.unary main_v812 main_v856 (Host.cos : (⟨S16384, .f32⟩ : BufTy).Contents (Elt F) → (⟨S16384, .f32⟩ : BufTy).Contents (Elt F)),
    StableHlo.binary main_v634 main_v750 main_v857 (addf : (⟨S16384, .f32⟩ : BufTy).Contents (Elt F) → (⟨S16384, .f32⟩ : BufTy).Contents (Elt F) → (⟨S16384, .f32⟩ : BufTy).Contents (Elt F)),
    StableHlo.binary main_v162 main_v602 main_v858 (subf : (⟨S16384, .f32⟩ : BufTy).Contents (Elt F) → (⟨S16384, .f32⟩ : BufTy).Contents (Elt F) → (⟨S16384, .f32⟩ : BufTy).Contents (Elt F)),
    StableHlo.binary main_v584 main_v584 main_v859 (mulf : (⟨S16384, .f32⟩ : BufTy).Contents (Elt F) → (⟨S16384, .f32⟩ : BufTy).Contents (Elt F) → (⟨S16384, .f32⟩ : BufTy).Contents (Elt F)),
    StableHlo.binary main_v131 main_v778 main_v860 (addf : (⟨S16384, .f32⟩ : BufTy).Contents (Elt F) → (⟨S16384, .f32⟩ : BufTy).Contents (Elt F) → (⟨S16384, .f32⟩ : BufTy).Contents (Elt F)),
    StableHlo.unary main_v406 main_v861 (Host.cos : (⟨S16384, .f32⟩ : BufTy).Contents (Elt F) → (⟨S16384, .f32⟩ : BufTy).Contents (Elt F)),
    StableHlo.binary main_v829 main_v806 main_v862 (subf : (⟨S16384, .f32⟩ : BufTy).Contents (Elt F) → (⟨S16384, .f32⟩ : BufTy).Contents (Elt F) → (⟨S16384, .f32⟩ : BufTy).Contents (Elt F)),
    StableHlo.binary main_v669 main_v669 main_v863 (mulf : (⟨S16384, .f32⟩ : BufTy).Contents (Elt F) → (⟨S16384, .f32⟩ : BufTy).Contents (Elt F) → (⟨S16384, .f32⟩ : BufTy).Contents (Elt F)),
    StableHlo.unary main_v792 main_v864 (Host.cos : (⟨S16384, .f32⟩ : BufTy).Contents (Elt F) → (⟨S16384, .f32⟩ : BufTy).Contents (Elt F)),
    StableHlo.unary main_v589 main_v865 (Host.cos : (⟨S16384, .f32⟩ : BufTy).Contents (Elt F) → (⟨S16384, .f32⟩ : BufTy).Contents (Elt F)),
    StableHlo.binary main_v833 main_v606 main_v866 (subf : (⟨S16384, .f32⟩ : BufTy).Contents (Elt F) → (⟨S16384, .f32⟩ : BufTy).Contents (Elt F) → (⟨S16384, .f32⟩ : BufTy).Contents (Elt F)),
    StableHlo.unary main_v723 main_v867 (Host.sin : (⟨S16384, .f32⟩ : BufTy).Contents (Elt F) → (⟨S16384, .f32⟩ : BufTy).Contents (Elt F)),
    StableHlo.unary main_v597 main_v868 (Host.sin : (⟨S16384, .f32⟩ : BufTy).Contents (Elt F) → (⟨S16384, .f32⟩ : BufTy).Contents (Elt F)),
    StableHlo.unary main_v641 main_v869 (Host.sin : (⟨S16384, .f32⟩ : BufTy).Contents (Elt F) → (⟨S16384, .f32⟩ : BufTy).Contents (Elt F)),
    StableHlo.unary main_v531 main_v870 (Host.sin : (⟨S16384, .f32⟩ : BufTy).Contents (Elt F) → (⟨S16384, .f32⟩ : BufTy).Contents (Elt F)),
    StableHlo.unary main_v47 main_v871 (Host.sin : (⟨S16384, .f32⟩ : BufTy).Contents (Elt F) → (⟨S16384, .f32⟩ : BufTy).Contents (Elt F)),
    StableHlo.unary main_v770 main_v872 (Host.cos : (⟨S16384, .f32⟩ : BufTy).Contents (Elt F) → (⟨S16384, .f32⟩ : BufTy).Contents (Elt F)),
    StableHlo.unary main_v412 main_v873 (Host.sin : (⟨S16384, .f32⟩ : BufTy).Contents (Elt F) → (⟨S16384, .f32⟩ : BufTy).Contents (Elt F)),
    StableHlo.unary main_v723 main_v874 (Host.sin : (⟨S16384, .f32⟩ : BufTy).Contents (Elt F) → (⟨S16384, .f32⟩ : BufTy).Contents (Elt F)),
    StableHlo.unary main_v689 main_v875 (Host.cos : (⟨S16384, .f32⟩ : BufTy).Contents (Elt F) → (⟨S16384, .f32⟩ : BufTy).Contents (Elt F)),
    StableHlo.binary main_v689 main_v857 main_v876 (addf : (⟨S16384, .f32⟩ : BufTy).Contents (Elt F) → (⟨S16384, .f32⟩ : BufTy).Contents (Elt F) → (⟨S16384, .f32⟩ : BufTy).Contents (Elt F)),
    StableHlo.binary main_v859 main_v467 main_v877 (mulf : (⟨S16384, .f32⟩ : BufTy).Contents (Elt F) → (⟨S16384, .f32⟩ : BufTy).Contents (Elt F) → (⟨S16384, .f32⟩ : BufTy).Contents (Elt F)),
    StableHlo.unary main_v315 main_v878 (Host.cos : (⟨S16384, .f32⟩ : BufTy).Contents (Elt F) → (⟨S16384, .f32⟩ : BufTy).Contents (Elt F)),
    StableHlo.unary main_v772 main_v879 (Host.cos : (⟨S16384, .f32⟩ : BufTy).Contents (Elt F) → (⟨S16384, .f32⟩ : BufTy).Contents (Elt F)),
    StableHlo.unary main_v769 main_v880 (Host.sin : (⟨S16384, .f32⟩ : BufTy).Contents (Elt F) → (⟨S16384, .f32⟩ : BufTy).Contents (Elt F)),
    StableHlo.unary main_v566 main_v881 (Host.negf : (⟨S16384, .f32⟩ : BufTy).Contents (Elt F) → (⟨S16384, .f32⟩ : BufTy).Contents (Elt F)),
    StableHlo.binary main_v47 main_v804 main_v882 (mulf : (⟨S16384, .f32⟩ : BufTy).Contents (Elt F) → (⟨S16384, .f32⟩ : BufTy).Contents (Elt F) → (⟨S16384, .f32⟩ : BufTy).Contents (Elt F)),
    StableHlo.binary main_v455 main_v727 main_v883 (mulf : (⟨S16384, .f32⟩ : BufTy).Contents (Elt F) → (⟨S16384, .f32⟩ : BufTy).Contents (Elt F) → (⟨S16384, .f32⟩ : BufTy).Contents (Elt F)) ]

theorem part14_eq (d : Dev nD) : main_part14 (F := F) d = seq ops14 := rfl
theorem ops14_sub : (ops14 (F := F)).Forall fun op => op.bufs ⊆ tcRefs τ sig := by line_sub
theorem ops14_fresh : ∀ op ∈ (ops14 (F := F)), op.fresh = ∅ := by line_fresh
theorem ops14_ordered : Cert.Ssa.Ordered 841 (ops14 (F := F)) := by line_ordered

/-- Window 15 of @main: its operations, positions 901 to 960, in order. -/
abbrev ops15 : List (HloOp τ sig (Elt F)) :=
  [ StableHlo.binary main_v366 main_v783 main_v884 (addf : (⟨S16384, .f32⟩ : BufTy).Contents (Elt F) → (⟨S16384, .f32⟩ : BufTy).Contents (Elt F) → (⟨S16384, .f32⟩ : BufTy).Contents (Elt F)),
    StableHlo.unary main_v137 main_v885 (Host.sin : (⟨S16384, .f32⟩ : BufTy).Contents (Elt F) → (⟨S16384, .f32⟩ : BufTy).Contents (Elt F)),
    StableHlo.binary main_v47 main_v805 main_v886 (addf : (⟨S16384, .f32⟩ : BufTy).Contents (Elt F) → (⟨S16384, .f32⟩ : BufTy).Contents (Elt F) → (⟨S16384, .f32⟩ : BufTy).Contents (Elt F)),
    StableHlo.unary main_v543 main_v887 (Host.cos : (⟨S16384, .f32⟩ : BufTy).Contents (Elt F) → (⟨S16384, .f32⟩ : BufTy).Contents (Elt F)),
    StableHlo.unary main_v394 main_v888 (Host.sin : (⟨S16384, .f32⟩ : BufTy).Contents (Elt F) → (⟨S16384, .f32⟩ : BufTy).Contents (Elt F)),
    StableHlo.unary main_v525 main_v889 (Host.cos : (⟨S16384, .f32⟩ : BufTy).Contents (Elt F) → (⟨S16384, .f32⟩ : BufTy).Contents (Elt F)),
    StableHlo.unary main_v272 main_v890 (Host.cos : (⟨S16384, .f32⟩ : BufTy).Contents (Elt F) → (⟨S16384, .f32⟩ : BufTy).Contents (Elt F)),
    StableHlo.unary main_v246 main_v891 (Host.cos : (⟨S16384, .f32⟩ : BufTy).Contents (Elt F) → (⟨S16384, .f32⟩ : BufTy).Contents (Elt F)),
    StableHlo.unary main_v792 main_v892 (Host.cos : (⟨S16384, .f32⟩ : BufTy).Contents (Elt F) → (⟨S16384, .f32⟩ : BufTy).Contents (Elt F)),
    StableHlo.binary main_v584 main_v366 main_v893 (addf : (⟨S16384, .f32⟩ : BufTy).Contents (Elt F) → (⟨S16384, .f32⟩ : BufTy).Contents (Elt F) → (⟨S16384, .f32⟩ : BufTy).Contents (Elt F)),
    StableHlo.unary main_v407 main_v894 (Host.cos : (⟨S16384, .f32⟩ : BufTy).Contents (Elt F) → (⟨S16384, .f32⟩ : BufTy).Contents (Elt F)),
    StableHlo.unary main_v739 main_v895 (Host.sin : (⟨S16384, .f32⟩ : BufTy).Contents (Elt F) → (⟨S16384, .f32⟩ : BufTy).Contents (Elt F)),
    StableHlo.binary main_v747 main_v886 main_v896 (mulf : (⟨S16384, .f32⟩ : BufTy).Contents (Elt F) → (⟨S16384, .f32⟩ : BufTy).Contents (Elt F) → (⟨S16384, .f32⟩ : BufTy).Contents (Elt F)),
    StableHlo.binary main_v540 main_v828 main_v897 (subf : (⟨S16384, .f32⟩ : BufTy).Contents (Elt F) → (⟨S16384, .f32⟩ : BufTy).Contents (Elt F) → (⟨S16384, .f32⟩ : BufTy).Contents (Elt F)),
    StableHlo.binary main_v226 main_v855 main_v898 (subf : (⟨S16384, .f32⟩ : BufTy).Contents (Elt F) → (⟨S16384, .f32⟩ : BufTy).Contents (Elt F) → (⟨S16384, .f32⟩ : BufTy).Contents (Elt F)),
    StableHlo.binary main_v363 main_v772 main_v899 (mulf : (⟨S16384, .f32⟩ : BufTy).Contents (Elt F) → (⟨S16384, .f32⟩ : BufTy).Contents (Elt F) → (⟨S16384, .f32⟩ : BufTy).Contents (Elt F)),
    StableHlo.unary main_v792 main_v900 (Host.cos : (⟨S16384, .f32⟩ : BufTy).Contents (Elt F) → (⟨S16384, .f32⟩ : BufTy).Contents (Elt F)),
    StableHlo.binary main_v767 main_v814 main_v901 (subf : (⟨S16384, .f32⟩ : BufTy).Contents (Elt F) → (⟨S16384, .f32⟩ : BufTy).Contents (Elt F) → (⟨S16384, .f32⟩ : BufTy).Contents (Elt F)),
    StableHlo.binary main_v560 main_v560 main_v902 (mulf : (⟨S16384, .f32⟩ : BufTy).Contents (Elt F) → (⟨S16384, .f32⟩ : BufTy).Contents (Elt F) → (⟨S16384, .f32⟩ : BufTy).Contents (Elt F)),
    StableHlo.unary main_v791 main_v903 (Host.cos : (⟨S16384, .f32⟩ : BufTy).Contents (Elt F) → (⟨S16384, .f32⟩ : BufTy).Contents (Elt F)),
    StableHlo.binary main_v884 main_v665 main_v904 (addf : (⟨S16384, .f32⟩ : BufTy).Contents (Elt F) → (⟨S16384, .f32⟩ : BufTy).Contents (Elt F) → (⟨S16384, .f32⟩ : BufTy).Contents (Elt F)),
    StableHlo.unary main_v579 main_v905 (Host.sin : (⟨S16384, .f32⟩ : BufTy).Contents (Elt F) → (⟨S16384, .f32⟩ : BufTy).Contents (Elt F)),
    StableHlo.binary main_v791 main_v791 main_v906 (mulf : (⟨S16384, .f32⟩ : BufTy).Contents (Elt F) → (⟨S16384, .f32⟩ : BufTy).Contents (Elt F) → (⟨S16384, .f32⟩ : BufTy).Contents (Elt F)),
    StableHlo.binary main_v862 main_v454 main_v907 (subf : (⟨S16384, .f32⟩ : BufTy).Contents (Elt F) → (⟨S16384, .f32⟩ : BufTy).Contents (Elt F) → (⟨S16384, .f32⟩ : BufTy).Contents (Elt F)),
    StableHlo.unary main_v228 main_v908 (Host.cos : (⟨S16384, .f32⟩ : BufTy).Contents (Elt F) → (⟨S16384, .f32⟩ : BufTy).Contents (Elt F)),
    StableHlo.binary main_v351 main_v351 main_v909 (mulf : (⟨S16384, .f32⟩ : BufTy).Contents (Elt F) → (⟨S16384, .f32⟩ : BufTy).Contents (Elt F) → (⟨S16384, .f32⟩ : BufTy).Contents (Elt F)),
    StableHlo.unary main_v619 main_v910 (Host.sin : (⟨S16384, .f32⟩ : BufTy).Contents (Elt F) → (⟨S16384, .f32⟩ : BufTy).Contents (Elt F)),
    StableHlo.binary main_v712 main_v652 main_v911 (subf : (⟨S16384, .f32⟩ : BufTy).Contents (Elt F) → (⟨S16384, .f32⟩ : BufTy).Contents (Elt F) → (⟨S16384, .f32⟩ : BufTy).Contents (Elt F)),
    StableHlo.unary main_v888 main_v912 (Host.cos : (⟨S16384, .f32⟩ : BufTy).Contents (Elt F) → (⟨S16384, .f32⟩ : BufTy).Contents (Elt F)),
    StableHlo.binary main_v589 main_v543 main_v913 (subf : (⟨S16384, .f32⟩ : BufTy).Contents (Elt F) → (⟨S16384, .f32⟩ : BufTy).Contents (Elt F) → (⟨S16384, .f32⟩ : BufTy).Contents (Elt F)),
    StableHlo.binary main_v901 main_v584 main_v914 (addf : (⟨S16384, .f32⟩ : BufTy).Contents (Elt F) → (⟨S16384, .f32⟩ : BufTy).Contents (Elt F) → (⟨S16384, .f32⟩ : BufTy).Contents (Elt F)),
    StableHlo.unary main_v727 main_v915 (Host.sin : (⟨S16384, .f32⟩ : BufTy).Contents (Elt F) → (⟨S16384, .f32⟩ : BufTy).Contents (Elt F)),
    StableHlo.binary main_v822 main_v388 main_v916 (addf : (⟨S16384, .f32⟩ : BufTy).Contents (Elt F) → (⟨S16384, .f32⟩ : BufTy).Contents (Elt F) → (⟨S16384, .f32⟩ : BufTy).Contents (Elt F)),
    StableHlo.binary main_v855 main_v789 main_v917 (subf : (⟨S16384, .f32⟩ : BufTy).Contents (Elt F) → (⟨S16384, .f32⟩ : BufTy).Contents (Elt F) → (⟨S16384, .f32⟩ : BufTy).Contents (Elt F)),
    StableHlo.unary main_v694 main_v918 (Host.sin : (⟨S16384, .f32⟩ : BufTy).Contents (Elt F) → (⟨S16384, .f32⟩ : BufTy).Contents (Elt F)),
    StableHlo.unary main_v865 main_v919 (Host.sin : (⟨S16384, .f32⟩ : BufTy).Contents (Elt F) → (⟨S16384, .f32⟩ : BufTy).Contents (Elt F)),
    StableHlo.unary main_v831 main_v920 (Host.sin : (⟨S16384, .f32⟩ : BufTy).Contents (Elt F) → (⟨S16384, .f32⟩ : BufTy).Contents (Elt F)),
    StableHlo.unary main_v494 main_v921 (Host.cos : (⟨S16384, .f32⟩ : BufTy).Contents (Elt F) → (⟨S16384, .f32⟩ : BufTy).Contents (Elt F)),
    StableHlo.unary main_v589 main_v922 (Host.cos : (⟨S16384, .f32⟩ : BufTy).Contents (Elt F) → (⟨S16384, .f32⟩ : BufTy).Contents (Elt F)),
    StableHlo.unary main_v585 main_v923 (Host.cos : (⟨S16384, .f32⟩ : BufTy).Contents (Elt F) → (⟨S16384, .f32⟩ : BufTy).Contents (Elt F)),
    StableHlo.binary main_v916 main_v616 main_v924 (subf : (⟨S16384, .f32⟩ : BufTy).Contents (Elt F) → (⟨S16384, .f32⟩ : BufTy).Contents (Elt F) → (⟨S16384, .f32⟩ : BufTy).Contents (Elt F)),
    StableHlo.unary main_v889 main_v925 (Host.sin : (⟨S16384, .f32⟩ : BufTy).Contents (Elt F) → (⟨S16384, .f32⟩ : BufTy).Contents (Elt F)),
    StableHlo.unary main_v924 main_v926 (Host.cos : (⟨S16384, .f32⟩ : BufTy).Contents (Elt F) → (⟨S16384, .f32⟩ : BufTy).Contents (Elt F)),
    StableHlo.binary main_v479 main_v864 main_v927 (addf : (⟨S16384, .f32⟩ : BufTy).Contents (Elt F) → (⟨S16384, .f32⟩ : BufTy).Contents (Elt F) → (⟨S16384, .f32⟩ : BufTy).Contents (Elt F)),
    StableHlo.binary main_v566 main_v771 main_v928 (addf : (⟨S16384, .f32⟩ : BufTy).Contents (Elt F) → (⟨S16384, .f32⟩ : BufTy).Contents (Elt F) → (⟨S16384, .f32⟩ : BufTy).Contents (Elt F)),
    StableHlo.binary main_v337 main_v444 main_v929 (addf : (⟨S16384, .f32⟩ : BufTy).Contents (Elt F) → (⟨S16384, .f32⟩ : BufTy).Contents (Elt F) → (⟨S16384, .f32⟩ : BufTy).Contents (Elt F)),
    StableHlo.binary main_v735 main_v723 main_v930 (subf : (⟨S16384, .f32⟩ : BufTy).Contents (Elt F) → (⟨S16384, .f32⟩ : BufTy).Contents (Elt F) → (⟨S16384, .f32⟩ : BufTy).Contents (Elt F)),
    StableHlo.binary main_v621 main_v453 main_v931 (subf : (⟨S16384, .f32⟩ : BufTy).Contents (Elt F) → (⟨S16384, .f32⟩ : BufTy).Contents (Elt F) → (⟨S16384, .f32⟩ : BufTy).Contents (Elt F)),
    StableHlo.unary main_v783 main_v932 (Host.cos : (⟨S16384, .f32⟩ : BufTy).Contents (Elt F) → (⟨S16384, .f32⟩ : BufTy).Contents (Elt F)),
    StableHlo.binary main_v498 main_v863 main_v933 (addf : (⟨S16384, .f32⟩ : BufTy).Contents (Elt F) → (⟨S16384, .f32⟩ : BufTy).Contents (Elt F) → (⟨S16384, .f32⟩ : BufTy).Contents (Elt F)),
    StableHlo.unary main_v842 main_v934 (Host.cos : (⟨S16384, .f32⟩ : BufTy).Contents (Elt F) → (⟨S16384, .f32⟩ : BufTy).Contents (Elt F)),
    StableHlo.unary main_v833 main_v935 (Host.negf : (⟨S16384, .f32⟩ : BufTy).Contents (Elt F) → (⟨S16384, .f32⟩ : BufTy).Contents (Elt F)),
    StableHlo.unary main_v293 main_v936 (Host.sin : (⟨S16384, .f32⟩ : BufTy).Contents (Elt F) → (⟨S16384, .f32⟩ : BufTy).Contents (Elt F)),
    StableHlo.unary main_v571 main_v937 (Host.cos : (⟨S16384, .f32⟩ : BufTy).Contents (Elt F) → (⟨S16384, .f32⟩ : BufTy).Contents (Elt F)),
    StableHlo.unary main_v871 main_v938 (Host.cos : (⟨S16384, .f32⟩ : BufTy).Contents (Elt F) → (⟨S16384, .f32⟩ : BufTy).Contents (Elt F)),
    StableHlo.binary main_v584 main_v936 main_v939 (addf : (⟨S16384, .f32⟩ : BufTy).Contents (Elt F) → (⟨S16384, .f32⟩ : BufTy).Contents (Elt F) → (⟨S16384, .f32⟩ : BufTy).Contents (Elt F)),
    StableHlo.unary main_v600 main_v940 (Host.sin : (⟨S16384, .f32⟩ : BufTy).Contents (Elt F) → (⟨S16384, .f32⟩ : BufTy).Contents (Elt F)),
    StableHlo.binary main_v134 main_v540 main_v941 (mulf : (⟨S16384, .f32⟩ : BufTy).Contents (Elt F) → (⟨S16384, .f32⟩ : BufTy).Contents (Elt F) → (⟨S16384, .f32⟩ : BufTy).Contents (Elt F)),
    StableHlo.unary main_v869 main_v942 (Host.negf : (⟨S16384, .f32⟩ : BufTy).Contents (Elt F) → (⟨S16384, .f32⟩ : BufTy).Contents (Elt F)),
    StableHlo.unary main_v134 main_v943 (Host.sin : (⟨S16384, .f32⟩ : BufTy).Contents (Elt F) → (⟨S16384, .f32⟩ : BufTy).Contents (Elt F)) ]

theorem part15_eq (d : Dev nD) : main_part15 (F := F) d = seq ops15 := rfl
theorem ops15_sub : (ops15 (F := F)).Forall fun op => op.bufs ⊆ tcRefs τ sig := by line_sub
theorem ops15_fresh : ∀ op ∈ (ops15 (F := F)), op.fresh = ∅ := by line_fresh
theorem ops15_ordered : Cert.Ssa.Ordered 901 (ops15 (F := F)) := by line_ordered

/-- Window 16 of @main: its operations, positions 961 to 1020, in order. -/
abbrev ops16 : List (HloOp τ sig (Elt F)) :=
  [ StableHlo.unary main_v920 main_v944 (Host.sin : (⟨S16384, .f32⟩ : BufTy).Contents (Elt F) → (⟨S16384, .f32⟩ : BufTy).Contents (Elt F)),
    StableHlo.binary main_v566 main_v665 main_v945 (subf : (⟨S16384, .f32⟩ : BufTy).Contents (Elt F) → (⟨S16384, .f32⟩ : BufTy).Contents (Elt F) → (⟨S16384, .f32⟩ : BufTy).Contents (Elt F)),
    StableHlo.binary main_v914 main_v895 main_v946 (subf : (⟨S16384, .f32⟩ : BufTy).Contents (Elt F) → (⟨S16384, .f32⟩ : BufTy).Contents (Elt F) → (⟨S16384, .f32⟩ : BufTy).Contents (Elt F)),
    StableHlo.unary main_v892 main_v947 (Host.sin : (⟨S16384, .f32⟩ : BufTy).Contents (Elt F) → (⟨S16384, .f32⟩ : BufTy).Contents (Elt F)),
    StableHlo.binary main_v723 main_v679 main_v948 (mulf : (⟨S16384, .f32⟩ : BufTy).Contents (Elt F) → (⟨S16384, .f32⟩ : BufTy).Contents (Elt F) → (⟨S16384, .f32⟩ : BufTy).Contents (Elt F)),
    StableHlo.binary main_v627 main_v866 main_v949 (addf : (⟨S16384, .f32⟩ : BufTy).Contents (Elt F) → (⟨S16384, .f32⟩ : BufTy).Contents (Elt F) → (⟨S16384, .f32⟩ : BufTy).Contents (Elt F)),
    StableHlo.unary main_v882 main_v950 (Host.cos : (⟨S16384, .f32⟩ : BufTy).Contents (Elt F) → (⟨S16384, .f32⟩ : BufTy).Contents (Elt F)),
    StableHlo.unary main_v696 main_v951 (Host.sin : (⟨S16384, .f32⟩ : BufTy).Contents (Elt F) → (⟨S16384, .f32⟩ : BufTy).Contents (Elt F)),
    StableHlo.unary main_v824 main_v952 (Host.cos : (⟨S16384, .f32⟩ : BufTy).Contents (Elt F) → (⟨S16384, .f32⟩ : BufTy).Contents (Elt F)),
    StableHlo.unary main_v389 main_v953 (Host.cos : (⟨S16384, .f32⟩ : BufTy).Contents (Elt F) → (⟨S16384, .f32⟩ : BufTy).Contents (Elt F)),
    StableHlo.binary main_v228 main_v388 main_v954 (mulf : (⟨S16384, .f32⟩ : BufTy).Contents (Elt F) → (⟨S16384, .f32⟩ : BufTy).Contents (Elt F) → (⟨S16384, .f32⟩ : BufTy).Contents (Elt F)),
    StableHlo.binary main_v795 main_v687 main_v955 (mulf : (⟨S16384, .f32⟩ : BufTy).Contents (Elt F) → (⟨S16384, .f32⟩ : BufTy).Contents (Elt F) → (⟨S16384, .f32⟩ : BufTy).Contents (Elt F)),
    StableHlo.unary main_v785 main_v956 (Host.cos : (⟨S16384, .f32⟩ : BufTy).Contents (Elt F) → (⟨S16384, .f32⟩ : BufTy).Contents (Elt F)),
    StableHlo.unary main_v272 main_v957 (Host.cos : (⟨S16384, .f32⟩ : BufTy).Contents (Elt F) → (⟨S16384, .f32⟩ : BufTy).Contents (Elt F)),
    StableHlo.unary main_v811 main_v958 (Host.cos : (⟨S16384, .f32⟩ : BufTy).Contents (Elt F) → (⟨S16384, .f32⟩ : BufTy).Contents (Elt F)),
    StableHlo.unary main_v945 main_v959 (Host.sin : (⟨S16384, .f32⟩ : BufTy).Contents (Elt F) → (⟨S16384, .f32⟩ : BufTy).Contents (Elt F)),
    StableHlo.unary main_v943 main_v960 (Host.cos : (⟨S16384, .f32⟩ : BufTy).Contents (Elt F) → (⟨S16384, .f32⟩ : BufTy).Contents (Elt F)),
    StableHlo.binary main_v584 main_v708 main_v961 (addf : (⟨S16384, .f32⟩ : BufTy).Contents (Elt F) → (⟨S16384, .f32⟩ : BufTy).Contents (Elt F) → (⟨S16384, .f32⟩ : BufTy).Contents (Elt F)),
    StableHlo.unary main_v920 main_v962 (Host.cos : (⟨S16384, .f32⟩ : BufTy).Contents (Elt F) → (⟨S16384, .f32⟩ : BufTy).Contents (Elt F)),
    StableHlo.unary main_v872 main_v963 (Host.cos : (⟨S16384, .f32⟩ : BufTy).Contents (Elt F) → (⟨S16384, .f32⟩ : BufTy).Contents (Elt F)),
    StableHlo.binary main_v945 main_v700 main_v964 (mulf : (⟨S16384, .f32⟩ : BufTy).Contents (Elt F) → (⟨S16384, .f32⟩ : BufTy).Contents (Elt F) → (⟨S16384, .f32⟩ : BufTy).Contents (Elt F)),
    StableHlo.unary main_v944 main_v965 (Host.cos : (⟨S16384, .f32⟩ : BufTy).Contents (Elt F) → (⟨S16384, .f32⟩ : BufTy).Contents (Elt F)),
    StableHlo.binary main_v801 main_v859 main_v966 (subf : (⟨S16384, .f32⟩ : BufTy).Contents (Elt F) → (⟨S16384, .f32⟩ : BufTy).Contents (Elt F) → (⟨S16384, .f32⟩ : BufTy).Contents (Elt F)),
    StableHlo.unary main_v904 main_v967 (Host.sin : (⟨S16384, .f32⟩ : BufTy).Contents (Elt F) → (⟨S16384, .f32⟩ : BufTy).Contents (Elt F)),
    StableHlo.unary main_v619 main_v968 (Host.sin : (⟨S16384, .f32⟩ : BufTy).Contents (Elt F) → (⟨S16384, .f32⟩ : BufTy).Contents (Elt F)),
    StableHlo.unary main_v808 main_v969 (Host.cos : (⟨S16384, .f32⟩ : BufTy).Contents (Elt F) → (⟨S16384, .f32⟩ : BufTy).Contents (Elt F)),
    StableHlo.unary main_v279 main_v970 (Host.cos : (⟨S16384, .f32⟩ : BufTy).Contents (Elt F) → (⟨S16384, .f32⟩ : BufTy).Contents (Elt F)),
    StableHlo.unary main_v759 main_v971 (Host.sin : (⟨S16384, .f32⟩ : BufTy).Contents (Elt F) → (⟨S16384, .f32⟩ : BufTy).Contents (Elt F)),
    StableHlo.unary main_v971 main_v972 (Host.sin : (⟨S16384, .f32⟩ : BufTy).Contents (Elt F) → (⟨S16384, .f32⟩ : BufTy).Contents (Elt F)),
    StableHlo.unary main_v814 main_v973 (Host.sin : (⟨S16384, .f32⟩ : BufTy).Contents (Elt F) → (⟨S16384, .f32⟩ : BufTy).Contents (Elt F)),
    StableHlo.unary main_v792 main_v974 (Host.sin : (⟨S16384, .f32⟩ : BufTy).Contents (Elt F) → (⟨S16384, .f32⟩ : BufTy).Contents (Elt F)),
    StableHlo.binary main_v803 main_v971 main_v975 (mulf : (⟨S16384, .f32⟩ : BufTy).Contents (Elt F) → (⟨S16384, .f32⟩ : BufTy).Contents (Elt F) → (⟨S16384, .f32⟩ : BufTy).Contents (Elt F)),
    StableHlo.unary main_v389 main_v976 (Host.sin : (⟨S16384, .f32⟩ : BufTy).Contents (Elt F) → (⟨S16384, .f32⟩ : BufTy).Contents (Elt F)),
    StableHlo.unary main_v952 main_v977 (Host.cos : (⟨S16384, .f32⟩ : BufTy).Contents (Elt F) → (⟨S16384, .f32⟩ : BufTy).Contents (Elt F)),
    StableHlo.binary main_v941 main_v737 main_v978 (subf : (⟨S16384, .f32⟩ : BufTy).Contents (Elt F) → (⟨S16384, .f32⟩ : BufTy).Contents (Elt F) → (⟨S16384, .f32⟩ : BufTy).Contents (Elt F)),
    StableHlo.unary main_v896 main_v979 (Host.negf : (⟨S16384, .f32⟩ : BufTy).Contents (Elt F) → (⟨S16384, .f32⟩ : BufTy).Contents (Elt F)),
    StableHlo.unary main_v973 main_v980 (Host.sin : (⟨S16384, .f32⟩ : BufTy).Contents (Elt F) → (⟨S16384, .f32⟩ : BufTy).Contents (Elt F)),
    StableHlo.binary main_v958 main_v815 main_v981 (addf : (⟨S16384, .f32⟩ : BufTy).Contents (Elt F) → (⟨S16384, .f32⟩ : BufTy).Contents (Elt F) → (⟨S16384, .f32⟩ : BufTy).Contents (Elt F)),
    StableHlo.binary main_v453 main_v550 main_v982 (addf : (⟨S16384, .f32⟩ : BufTy).Contents (Elt F) → (⟨S16384, .f32⟩ : BufTy).Contents (Elt F) → (⟨S16384, .f32⟩ : BufTy).Contents (Elt F)),
    StableHlo.unary main_v656 main_v983 (Host.cos : (⟨S16384, .f32⟩ : BufTy).Contents (Elt F) → (⟨S16384, .f32⟩ : BufTy).Contents (Elt F)),
    StableHlo.unary main_v279 main_v984 (Host.sin : (⟨S16384, .f32⟩ : BufTy).Contents (Elt F) → (⟨S16384, .f32⟩ : BufTy).Contents (Elt F)),
    StableHlo.unary main_v641 main_v985 (Host.cos : (⟨S16384, .f32⟩ : BufTy).Contents (Elt F) → (⟨S16384, .f32⟩ : BufTy).Contents (Elt F)),
    StableHlo.binary main_v912 main_v547 main_v986 (addf : (⟨S16384, .f32⟩ : BufTy).Contents (Elt F) → (⟨S16384, .f32⟩ : BufTy).Contents (Elt F) → (⟨S16384, .f32⟩ : BufTy).Contents (Elt F)),
    StableHlo.unary main_v668 main_v987 (Host.cos : (⟨S16384, .f32⟩ : BufTy).Contents (Elt F) → (⟨S16384, .f32⟩ : BufTy).Contents (Elt F)),
    StableHlo.unary main_v498 main_v988 (Host.cos : (⟨S16384, .f32⟩ : BufTy).Contents (Elt F) → (⟨S16384, .f32⟩ : BufTy).Contents (Elt F)),
    StableHlo.unary main_v941 main_v989 (Host.cos : (⟨S16384, .f32⟩ : BufTy).Contents (Elt F) → (⟨S16384, .f32⟩ : BufTy).Contents (Elt F)),
    StableHlo.binary main_v934 main_v943 main_v990 (subf : (⟨S16384, .f32⟩ : BufTy).Contents (Elt F) → (⟨S16384, .f32⟩ : BufTy).Contents (Elt F) → (⟨S16384, .f32⟩ : BufTy).Contents (Elt F)),
    StableHlo.unary main_v928 main_v991 (Host.cos : (⟨S16384, .f32⟩ : BufTy).Contents (Elt F) → (⟨S16384, .f32⟩ : BufTy).Contents (Elt F)),
    StableHlo.unary main_v944 main_v992 (Host.negf : (⟨S16384, .f32⟩ : BufTy).Contents (Elt F) → (⟨S16384, .f32⟩ : BufTy).Contents (Elt F)),
    StableHlo.binary main_v631 main_v631 main_v993 (mulf : (⟨S16384, .f32⟩ : BufTy).Contents (Elt F) → (⟨S16384, .f32⟩ : BufTy).Contents (Elt F) → (⟨S16384, .f32⟩ : BufTy).Contents (Elt F)),
    StableHlo.unary main_v848 main_v994 (Host.sin : (⟨S16384, .f32⟩ : BufTy).Contents (Elt F) → (⟨S16384, .f32⟩ : BufTy).Contents (Elt F)),
    StableHlo.unary main_v406 main_v995 (Host.sin : (⟨S16384, .f32⟩ : BufTy).Contents (Elt F) → (⟨S16384, .f32⟩ : BufTy).Contents (Elt F)),
    StableHlo.binary main_v550 main_v406 main_v996 (subf : (⟨S16384, .f32⟩ : BufTy).Contents (Elt F) → (⟨S16384, .f32⟩ : BufTy).Contents (Elt F) → (⟨S16384, .f32⟩ : BufTy).Contents (Elt F)),
    StableHlo.unary main_v412 main_v997 (Host.cos : (⟨S16384, .f32⟩ : BufTy).Contents (Elt F) → (⟨S16384, .f32⟩ : BufTy).Contents (Elt F)),
    StableHlo.unary main_v328 main_v998 (Host.sin : (⟨S16384, .f32⟩ : BufTy).Contents (Elt F) → (⟨S16384, .f32⟩ : BufTy).Contents (Elt F)),
    StableHlo.binary main_v972 main_v638 main_v999 (subf : (⟨S16384, .f32⟩ : BufTy).Contents (Elt F) → (⟨S16384, .f32⟩ : BufTy).Contents (Elt F) → (⟨S16384, .f32⟩ : BufTy).Contents (Elt F)),
    StableHlo.unary main_v964 main_v1000 (Host.sin : (⟨S16384, .f32⟩ : BufTy).Contents (Elt F) → (⟨S16384, .f32⟩ : BufTy).Contents (Elt F)),
    StableHlo.unary main_v911 main_v1001 (Host.sin : (⟨S16384, .f32⟩ : BufTy).Contents (Elt F) → (⟨S16384, .f32⟩ : BufTy).Contents (Elt F)),
    StableHlo.unary main_v740 main_v1002 (Host.cos : (⟨S16384, .f32⟩ : BufTy).Contents (Elt F) → (⟨S16384, .f32⟩ : BufTy).Contents (Elt F)),
    StableHlo.unary main_v418 main_v1003 (Host.sin : (⟨S16384, .f32⟩ : BufTy).Contents (Elt F) → (⟨S16384, .f32⟩ : BufTy).Contents (Elt F)) ]

theorem part16_eq (d : Dev nD) : main_part16 (F := F) d = seq ops16 := rfl
theorem ops16_sub : (ops16 (F := F)).Forall fun op => op.bufs ⊆ tcRefs τ sig := by line_sub
theorem ops16_fresh : ∀ op ∈ (ops16 (F := F)), op.fresh = ∅ := by line_fresh
theorem ops16_ordered : Cert.Ssa.Ordered 961 (ops16 (F := F)) := by line_ordered

/-- Window 17 of @main: its operations, positions 1021 to 1080, in order. -/
abbrev ops17 : List (HloOp τ sig (Elt F)) :=
  [ StableHlo.binary main_v978 main_v984 main_v1004 (subf : (⟨S16384, .f32⟩ : BufTy).Contents (Elt F) → (⟨S16384, .f32⟩ : BufTy).Contents (Elt F) → (⟨S16384, .f32⟩ : BufTy).Contents (Elt F)),
    StableHlo.unary main_v728 main_v1005 (Host.cos : (⟨S16384, .f32⟩ : BufTy).Contents (Elt F) → (⟨S16384, .f32⟩ : BufTy).Contents (Elt F)),
    StableHlo.unary main_v964 main_v1006 (Host.negf : (⟨S16384, .f32⟩ : BufTy).Contents (Elt F) → (⟨S16384, .f32⟩ : BufTy).Contents (Elt F)),
    StableHlo.unary main_v917 main_v1007 (Host.cos : (⟨S16384, .f32⟩ : BufTy).Contents (Elt F) → (⟨S16384, .f32⟩ : BufTy).Contents (Elt F)),
    StableHlo.unary main_v872 main_v1008 (Host.sin : (⟨S16384, .f32⟩ : BufTy).Contents (Elt F) → (⟨S16384, .f32⟩ : BufTy).Contents (Elt F)),
    StableHlo.binary main_v641 main_v875 main_v1009 (subf : (⟨S16384, .f32⟩ : BufTy).Contents (Elt F) → (⟨S16384, .f32⟩ : BufTy).Contents (Elt F) → (⟨S16384, .f32⟩ : BufTy).Contents (Elt F)),
    StableHlo.unary main_v816 main_v1010 (Host.cos : (⟨S16384, .f32⟩ : BufTy).Contents (Elt F) → (⟨S16384, .f32⟩ : BufTy).Contents (Elt F)),
    StableHlo.binary main_v947 main_v668 main_v1011 (mulf : (⟨S16384, .f32⟩ : BufTy).Contents (Elt F) → (⟨S16384, .f32⟩ : BufTy).Contents (Elt F) → (⟨S16384, .f32⟩ : BufTy).Contents (Elt F)),
    StableHlo.unary main_v517 main_v1012 (Host.sin : (⟨S16384, .f32⟩ : BufTy).Contents (Elt F) → (⟨S16384, .f32⟩ : BufTy).Contents (Elt F)),
    StableHlo.unary main_v723 main_v1013 (Host.sin : (⟨S16384, .f32⟩ : BufTy).Contents (Elt F) → (⟨S16384, .f32⟩ : BufTy).Contents (Elt F)),
    StableHlo.binary main_v137 main_v972 main_v1014 (mulf : (⟨S16384, .f32⟩ : BufTy).Contents (Elt F) → (⟨S16384, .f32⟩ : BufTy).Contents (Elt F) → (⟨S16384, .f32⟩ : BufTy).Contents (Elt F)),
    StableHlo.binary main_v921 main_v921 main_v1015 (mulf : (⟨S16384, .f32⟩ : BufTy).Contents (Elt F) → (⟨S16384, .f32⟩ : BufTy).Contents (Elt F) → (⟨S16384, .f32⟩ : BufTy).Contents (Elt F)),
    StableHlo.unary main_v668 main_v1016 (Host.cos : (⟨S16384, .f32⟩ : BufTy).Contents (Elt F) → (⟨S16384, .f32⟩ : BufTy).Contents (Elt F)),
    StableHlo.binary main_v811 main_v783 main_v1017 (addf : (⟨S16384, .f32⟩ : BufTy).Contents (Elt F) → (⟨S16384, .f32⟩ : BufTy).Contents (Elt F) → (⟨S16384, .f32⟩ : BufTy).Contents (Elt F)),
    StableHlo.unary main_v406 main_v1018 (Host.negf : (⟨S16384, .f32⟩ : BufTy).Contents (Elt F) → (⟨S16384, .f32⟩ : BufTy).Contents (Elt F)),
    StableHlo.binary main_v995 main_v952 main_v1019 (addf : (⟨S16384, .f32⟩ : BufTy).Contents (Elt F) → (⟨S16384, .f32⟩ : BufTy).Contents (Elt F) → (⟨S16384, .f32⟩ : BufTy).Contents (Elt F)),
    StableHlo.binary main_v904 main_v904 main_v1020 (mulf : (⟨S16384, .f32⟩ : BufTy).Contents (Elt F) → (⟨S16384, .f32⟩ : BufTy).Contents (Elt F) → (⟨S16384, .f32⟩ : BufTy).Contents (Elt F)),
    StableHlo.unary main_v656 main_v1021 (Host.cos : (⟨S16384, .f32⟩ : BufTy).Contents (Elt F) → (⟨S16384, .f32⟩ : BufTy).Contents (Elt F)),
    StableHlo.unary main_v722 main_v1022 (Host.sin : (⟨S16384, .f32⟩ : BufTy).Contents (Elt F) → (⟨S16384, .f32⟩ : BufTy).Contents (Elt F)),
    StableHlo.unary main_v1022 main_v1023 (Host.cos : (⟨S16384, .f32⟩ : BufTy).Contents (Elt F) → (⟨S16384, .f32⟩ : BufTy).Contents (Elt F)),
    StableHlo.binary main_v994 main_v912 main_v1024 (addf : (⟨S16384, .f32⟩ : BufTy).Contents (Elt F) → (⟨S16384, .f32⟩ : BufTy).Contents (Elt F) → (⟨S16384, .f32⟩ : BufTy).Contents (Elt F)),
    StableHlo.unary main_v700 main_v1025 (Host.cos : (⟨S16384, .f32⟩ : BufTy).Contents (Elt F) → (⟨S16384, .f32⟩ : BufTy).Contents (Elt F)),
    StableHlo.binary main_v723 main_v33 main_v1026 (addf : (⟨S16384, .f32⟩ : BufTy).Contents (Elt F) → (⟨S16384, .f32⟩ : BufTy).Contents (Elt F) → (⟨S16384, .f32⟩ : BufTy).Contents (Elt F)),
    StableHlo.unary main_v293 main_v1027 (Host.cos : (⟨S16384, .f32⟩ : BufTy).Contents (Elt F) → (⟨S16384, .f32⟩ : BufTy).Contents (Elt F)),
    StableHlo.unary main_v866 main_v1028 (Host.cos : (⟨S16384, .f32⟩ : BufTy).Contents (Elt F) → (⟨S16384, .f32⟩ : BufTy).Contents (Elt F)),
    StableHlo.binary main_v1009 main_v1020 main_v1029 (addf : (⟨S16384, .f32⟩ : BufTy).Contents (Elt F) → (⟨S16384, .f32⟩ : BufTy).Contents (Elt F) → (⟨S16384, .f32⟩ : BufTy).Contents (Elt F)),
    StableHlo.unary main_v917 main_v1030 (Host.cos : (⟨S16384, .f32⟩ : BufTy).Contents (Elt F) → (⟨S16384, .f32⟩ : BufTy).Contents (Elt F)),
    StableHlo.binary main_v1010 main_v925 main_v1031 (mulf : (⟨S16384, .f32⟩ : BufTy).Contents (Elt F) → (⟨S16384, .f32⟩ : BufTy).Contents (Elt F) → (⟨S16384, .f32⟩ : BufTy).Contents (Elt F)),
    StableHlo.unary main_v826 main_v1032 (Host.sin : (⟨S16384, .f32⟩ : BufTy).Contents (Elt F) → (⟨S16384, .f32⟩ : BufTy).Contents (Elt F)),
    StableHlo.unary main_v1019 main_v1033 (Host.cos : (⟨S16384, .f32⟩ : BufTy).Contents (Elt F) → (⟨S16384, .f32⟩ : BufTy).Contents (Elt F)),
    StableHlo.binary main_v1006 main_v842 main_v1034 (subf : (⟨S16384, .f32⟩ : BufTy).Contents (Elt F) → (⟨S16384, .f32⟩ : BufTy).Contents (Elt F) → (⟨S16384, .f32⟩ : BufTy).Contents (Elt F)),
    StableHlo.binary main_v933 main_v708 main_v1035 (addf : (⟨S16384, .f32⟩ : BufTy).Contents (Elt F) → (⟨S16384, .f32⟩ : BufTy).Contents (Elt F) → (⟨S16384, .f32⟩ : BufTy).Contents (Elt F)),
    StableHlo.unary main_v881 main_v1036 (Host.cos : (⟨S16384, .f32⟩ : BufTy).Contents (Elt F) → (⟨S16384, .f32⟩ : BufTy).Contents (Elt F)),
    StableHlo.binary main_v850 main_v969 main_v1037 (mulf : (⟨S16384, .f32⟩ : BufTy).Contents (Elt F) → (⟨S16384, .f32⟩ : BufTy).Contents (Elt F) → (⟨S16384, .f32⟩ : BufTy).Contents (Elt F)),
    StableHlo.unary main_v934 main_v1038 (Host.sin : (⟨S16384, .f32⟩ : BufTy).Contents (Elt F) → (⟨S16384, .f32⟩ : BufTy).Contents (Elt F)),
    StableHlo.unary main_v840 main_v1039 (Host.sin : (⟨S16384, .f32⟩ : BufTy).Contents (Elt F) → (⟨S16384, .f32⟩ : BufTy).Contents (Elt F)),
    StableHlo.unary main_v916 main_v1040 (Host.cos : (⟨S16384, .f32⟩ : BufTy).Contents (Elt F) → (⟨S16384, .f32⟩ : BufTy).Contents (Elt F)),
    StableHlo.unary main_v748 main_v1041 (Host.sin : (⟨S16384, .f32⟩ : BufTy).Contents (Elt F) → (⟨S16384, .f32⟩ : BufTy).Contents (Elt F)),
    StableHlo.binary main_v870 main_v996 main_v1042 (subf : (⟨S16384, .f32⟩ : BufTy).Contents (Elt F) → (⟨S16384, .f32⟩ : BufTy).Contents (Elt F) → (⟨S16384, .f32⟩ : BufTy).Contents (Elt F)),
    StableHlo.unary main_v953 main_v1043 (Host.sin : (⟨S16384, .f32⟩ : BufTy).Contents (Elt F) → (⟨S16384, .f32⟩ : BufTy).Contents (Elt F)),
    StableHlo.unary main_v871 main_v1044 (Host.sin : (⟨S16384, .f32⟩ : BufTy).Contents (Elt F) → (⟨S16384, .f32⟩ : BufTy).Contents (Elt F)),
    StableHlo.unary main_v293 main_v1045 (Host.sin : (⟨S16384, .f32⟩ : BufTy).Contents (Elt F) → (⟨S16384, .f32⟩ : BufTy).Contents (Elt F)),
    StableHlo.unary main_v326 main_v1046 (Host.sin : (⟨S16384, .f32⟩ : BufTy).Contents (Elt F) → (⟨S16384, .f32⟩ : BufTy).Contents (Elt F)),
    StableHlo.binary main_v1032 main_v1018 main_v1047 (addf : (⟨S16384, .f32⟩ : BufTy).Contents (Elt F) → (⟨S16384, .f32⟩ : BufTy).Contents (Elt F) → (⟨S16384, .f32⟩ : BufTy).Contents (Elt F)),
    StableHlo.binary main_v723 main_v1042 main_v1048 (addf : (⟨S16384, .f32⟩ : BufTy).Contents (Elt F) → (⟨S16384, .f32⟩ : BufTy).Contents (Elt F) → (⟨S16384, .f32⟩ : BufTy).Contents (Elt F)),
    StableHlo.binary main_v992 main_v937 main_v1049 (addf : (⟨S16384, .f32⟩ : BufTy).Contents (Elt F) → (⟨S16384, .f32⟩ : BufTy).Contents (Elt F) → (⟨S16384, .f32⟩ : BufTy).Contents (Elt F)),
    StableHlo.unary main_v828 main_v1050 (Host.cos : (⟨S16384, .f32⟩ : BufTy).Contents (Elt F) → (⟨S16384, .f32⟩ : BufTy).Contents (Elt F)),
    StableHlo.binary main_v226 main_v315 main_v1051 (addf : (⟨S16384, .f32⟩ : BufTy).Contents (Elt F) → (⟨S16384, .f32⟩ : BufTy).Contents (Elt F) → (⟨S16384, .f32⟩ : BufTy).Contents (Elt F)),
    StableHlo.binary main_v1012 main_v1012 main_v1052 (mulf : (⟨S16384, .f32⟩ : BufTy).Contents (Elt F) → (⟨S16384, .f32⟩ : BufTy).Contents (Elt F) → (⟨S16384, .f32⟩ : BufTy).Contents (Elt F)),
    StableHlo.unary main_v971 main_v1053 (Host.cos : (⟨S16384, .f32⟩ : BufTy).Contents (Elt F) → (⟨S16384, .f32⟩ : BufTy).Contents (Elt F)),
    StableHlo.unary main_v600 main_v1054 (Host.cos : (⟨S16384, .f32⟩ : BufTy).Contents (Elt F) → (⟨S16384, .f32⟩ : BufTy).Contents (Elt F)),
    StableHlo.unary main_v631 main_v1055 (Host.sin : (⟨S16384, .f32⟩ : BufTy).Contents (Elt F) → (⟨S16384, .f32⟩ : BufTy).Contents (Elt F)),
    StableHlo.unary main_v1041 main_v1056 (Host.cos : (⟨S16384, .f32⟩ : BufTy).Contents (Elt F) → (⟨S16384, .f32⟩ : BufTy).Contents (Elt F)),
    StableHlo.binary main_v1011 main_v843 main_v1057 (addf : (⟨S16384, .f32⟩ : BufTy).Contents (Elt F) → (⟨S16384, .f32⟩ : BufTy).Contents (Elt F) → (⟨S16384, .f32⟩ : BufTy).Contents (Elt F)),
    StableHlo.binary main_v33 main_v332 main_v1058 (subf : (⟨S16384, .f32⟩ : BufTy).Contents (Elt F) → (⟨S16384, .f32⟩ : BufTy).Contents (Elt F) → (⟨S16384, .f32⟩ : BufTy).Contents (Elt F)),
    StableHlo.binary main_v828 main_v455 main_v1059 (mulf : (⟨S16384, .f32⟩ : BufTy).Contents (Elt F) → (⟨S16384, .f32⟩ : BufTy).Contents (Elt F) → (⟨S16384, .f32⟩ : BufTy).Contents (Elt F)),
    StableHlo.unary main_v640 main_v1060 (Host.cos : (⟨S16384, .f32⟩ : BufTy).Contents (Elt F) → (⟨S16384, .f32⟩ : BufTy).Contents (Elt F)),
    StableHlo.binary main_v696 main_v930 main_v1061 (subf : (⟨S16384, .f32⟩ : BufTy).Contents (Elt F) → (⟨S16384, .f32⟩ : BufTy).Contents (Elt F) → (⟨S16384, .f32⟩ : BufTy).Contents (Elt F)),
    StableHlo.unary main_v619 main_v1062 (Host.sin : (⟨S16384, .f32⟩ : BufTy).Contents (Elt F) → (⟨S16384, .f32⟩ : BufTy).Contents (Elt F)),
    StableHlo.unary main_v955 main_v1063 (Host.sin : (⟨S16384, .f32⟩ : BufTy).Contents (Elt F) → (⟨S16384, .f32⟩ : BufTy).Contents (Elt F)) ]

theorem part17_eq (d : Dev nD) : main_part17 (F := F) d = seq ops17 := rfl
theorem ops17_sub : (ops17 (F := F)).Forall fun op => op.bufs ⊆ tcRefs τ sig := by line_sub
theorem ops17_fresh : ∀ op ∈ (ops17 (F := F)), op.fresh = ∅ := by line_fresh
theorem ops17_ordered : Cert.Ssa.Ordered 1021 (ops17 (F := F)) := by line_ordered

/-- Window 18 of @main: its operations, positions 1081 to 1140, in order. -/
abbrev ops18 : List (HloOp τ sig (Elt F)) :=
  [ StableHlo.binary main_v1017 main_v1034 main_v1064 (addf : (⟨S16384, .f32⟩ : BufTy).Contents (Elt F) → (⟨S16384, .f32⟩ : BufTy).Contents (Elt F) → (⟨S16384, .f32⟩ : BufTy).Contents (Elt F)),
    StableHlo.binary main_v938 main_v1045 main_v1065 (mulf : (⟨S16384, .f32⟩ : BufTy).Contents (Elt F) → (⟨S16384, .f32⟩ : BufTy).Contents (Elt F) → (⟨S16384, .f32⟩ : BufTy).Contents (Elt F)),
    StableHlo.binary main_v956 main_v238 main_v1066 (addf : (⟨S16384, .f32⟩ : BufTy).Contents (Elt F) → (⟨S16384, .f32⟩ : BufTy).Contents (Elt F) → (⟨S16384, .f32⟩ : BufTy).Contents (Elt F)),
    StableHlo.unary main_v740 main_v1067 (Host.sin : (⟨S16384, .f32⟩ : BufTy).Contents (Elt F) → (⟨S16384, .f32⟩ : BufTy).Contents (Elt F)),
    StableHlo.unary main_v639 main_v1068 (Host.sin : (⟨S16384, .f32⟩ : BufTy).Contents (Elt F) → (⟨S16384, .f32⟩ : BufTy).Contents (Elt F)),
    StableHlo.unary main_v615 main_v1069 (Host.cos : (⟨S16384, .f32⟩ : BufTy).Contents (Elt F) → (⟨S16384, .f32⟩ : BufTy).Contents (Elt F)),
    StableHlo.binary main_v535 main_v789 main_v1070 (addf : (⟨S16384, .f32⟩ : BufTy).Contents (Elt F) → (⟨S16384, .f32⟩ : BufTy).Contents (Elt F) → (⟨S16384, .f32⟩ : BufTy).Contents (Elt F)),
    StableHlo.unary main_v936 main_v1071 (Host.sin : (⟨S16384, .f32⟩ : BufTy).Contents (Elt F) → (⟨S16384, .f32⟩ : BufTy).Contents (Elt F)),
    StableHlo.unary main_v1068 main_v1072 (Host.sin : (⟨S16384, .f32⟩ : BufTy).Contents (Elt F) → (⟨S16384, .f32⟩ : BufTy).Contents (Elt F)),
    StableHlo.binary main_v723 main_v363 main_v1073 (subf : (⟨S16384, .f32⟩ : BufTy).Contents (Elt F) → (⟨S16384, .f32⟩ : BufTy).Contents (Elt F) → (⟨S16384, .f32⟩ : BufTy).Contents (Elt F)),
    StableHlo.binary main_v1072 main_v1072 main_v1074 (mulf : (⟨S16384, .f32⟩ : BufTy).Contents (Elt F) → (⟨S16384, .f32⟩ : BufTy).Contents (Elt F) → (⟨S16384, .f32⟩ : BufTy).Contents (Elt F)),
    StableHlo.unary main_v991 main_v1075 (Host.sin : (⟨S16384, .f32⟩ : BufTy).Contents (Elt F) → (⟨S16384, .f32⟩ : BufTy).Contents (Elt F)),
    StableHlo.unary main_v773 main_v1076 (Host.cos : (⟨S16384, .f32⟩ : BufTy).Contents (Elt F) → (⟨S16384, .f32⟩ : BufTy).Contents (Elt F)),
    StableHlo.binary main_v1020 main_v535 main_v1077 (addf : (⟨S16384, .f32⟩ : BufTy).Contents (Elt F) → (⟨S16384, .f32⟩ : BufTy).Contents (Elt F) → (⟨S16384, .f32⟩ : BufTy).Contents (Elt F)),
    StableHlo.unary main_v1053 main_v1078 (Host.cos : (⟨S16384, .f32⟩ : BufTy).Contents (Elt F) → (⟨S16384, .f32⟩ : BufTy).Contents (Elt F)),
    StableHlo.binary main_v1024 main_v332 main_v1079 (mulf : (⟨S16384, .f32⟩ : BufTy).Contents (Elt F) → (⟨S16384, .f32⟩ : BufTy).Contents (Elt F) → (⟨S16384, .f32⟩ : BufTy).Contents (Elt F)),
    StableHlo.unary main_v772 main_v1080 (Host.sin : (⟨S16384, .f32⟩ : BufTy).Contents (Elt F) → (⟨S16384, .f32⟩ : BufTy).Contents (Elt F)),
    StableHlo.unary main_v891 main_v1081 (Host.sin : (⟨S16384, .f32⟩ : BufTy).Contents (Elt F) → (⟨S16384, .f32⟩ : BufTy).Contents (Elt F)),
    StableHlo.unary main_v981 main_v1082 (Host.negf : (⟨S16384, .f32⟩ : BufTy).Contents (Elt F) → (⟨S16384, .f32⟩ : BufTy).Contents (Elt F)),
    StableHlo.unary main_v981 main_v1083 (Host.cos : (⟨S16384, .f32⟩ : BufTy).Contents (Elt F) → (⟨S16384, .f32⟩ : BufTy).Contents (Elt F)),
    StableHlo.unary main_v531 main_v1084 (Host.sin : (⟨S16384, .f32⟩ : BufTy).Contents (Elt F) → (⟨S16384, .f32⟩ : BufTy).Contents (Elt F)),
    StableHlo.binary main_v744 main_v679 main_v1085 (addf : (⟨S16384, .f32⟩ : BufTy).Contents (Elt F) → (⟨S16384, .f32⟩ : BufTy).Contents (Elt F) → (⟨S16384, .f32⟩ : BufTy).Contents (Elt F)),
    StableHlo.unary main_v1041 main_v1086 (Host.cos : (⟨S16384, .f32⟩ : BufTy).Contents (Elt F) → (⟨S16384, .f32⟩ : BufTy).Contents (Elt F)),
    StableHlo.binary main_v635 main_v962 main_v1087 (subf : (⟨S16384, .f32⟩ : BufTy).Contents (Elt F) → (⟨S16384, .f32⟩ : BufTy).Contents (Elt F) → (⟨S16384, .f32⟩ : BufTy).Contents (Elt F)),
    StableHlo.unary main_v631 main_v1088 (Host.negf : (⟨S16384, .f32⟩ : BufTy).Contents (Elt F) → (⟨S16384, .f32⟩ : BufTy).Contents (Elt F)),
    StableHlo.unary main_v997 main_v1089 (Host.cos : (⟨S16384, .f32⟩ : BufTy).Contents (Elt F) → (⟨S16384, .f32⟩ : BufTy).Contents (Elt F)),
    StableHlo.unary main_v1058 main_v1090 (Host.cos : (⟨S16384, .f32⟩ : BufTy).Contents (Elt F) → (⟨S16384, .f32⟩ : BufTy).Contents (Elt F)),
    StableHlo.binary main_v916 main_v589 main_v1091 (subf : (⟨S16384, .f32⟩ : BufTy).Contents (Elt F) → (⟨S16384, .f32⟩ : BufTy).Contents (Elt F) → (⟨S16384, .f32⟩ : BufTy).Contents (Elt F)),
    StableHlo.unary main_v952 main_v1092 (Host.cos : (⟨S16384, .f32⟩ : BufTy).Contents (Elt F) → (⟨S16384, .f32⟩ : BufTy).Contents (Elt F)),
    StableHlo.unary main_v980 main_v1093 (Host.sin : (⟨S16384, .f32⟩ : BufTy).Contents (Elt F) → (⟨S16384, .f32⟩ : BufTy).Contents (Elt F)),
    StableHlo.binary main_v972 main_v737 main_v1094 (addf : (⟨S16384, .f32⟩ : BufTy).Contents (Elt F) → (⟨S16384, .f32⟩ : BufTy).Contents (Elt F) → (⟨S16384, .f32⟩ : BufTy).Contents (Elt F)),
    StableHlo.binary main_v911 main_v970 main_v1095 (addf : (⟨S16384, .f32⟩ : BufTy).Contents (Elt F) → (⟨S16384, .f32⟩ : BufTy).Contents (Elt F) → (⟨S16384, .f32⟩ : BufTy).Contents (Elt F)),
    StableHlo.unary main_v996 main_v1096 (Host.sin : (⟨S16384, .f32⟩ : BufTy).Contents (Elt F) → (⟨S16384, .f32⟩ : BufTy).Contents (Elt F)),
    StableHlo.binary main_v864 main_v983 main_v1097 (subf : (⟨S16384, .f32⟩ : BufTy).Contents (Elt F) → (⟨S16384, .f32⟩ : BufTy).Contents (Elt F) → (⟨S16384, .f32⟩ : BufTy).Contents (Elt F)),
    StableHlo.unary main_v812 main_v1098 (Host.sin : (⟨S16384, .f32⟩ : BufTy).Contents (Elt F) → (⟨S16384, .f32⟩ : BufTy).Contents (Elt F)),
    StableHlo.unary main_v668 main_v1099 (Host.sin : (⟨S16384, .f32⟩ : BufTy).Contents (Elt F) → (⟨S16384, .f32⟩ : BufTy).Contents (Elt F)),
    StableHlo.unary main_v937 main_v1100 (Host.cos : (⟨S16384, .f32⟩ : BufTy).Contents (Elt F) → (⟨S16384, .f32⟩ : BufTy).Contents (Elt F)),
    StableHlo.unary main_v864 main_v1101 (Host.cos : (⟨S16384, .f32⟩ : BufTy).Contents (Elt F) → (⟨S16384, .f32⟩ : BufTy).Contents (Elt F)),
    StableHlo.binary main_v871 main_v412 main_v1102 (subf : (⟨S16384, .f32⟩ : BufTy).Contents (Elt F) → (⟨S16384, .f32⟩ : BufTy).Contents (Elt F) → (⟨S16384, .f32⟩ : BufTy).Contents (Elt F)),
    StableHlo.binary main_v770 main_v737 main_v1103 (subf : (⟨S16384, .f32⟩ : BufTy).Contents (Elt F) → (⟨S16384, .f32⟩ : BufTy).Contents (Elt F) → (⟨S16384, .f32⟩ : BufTy).Contents (Elt F)),
    StableHlo.unary main_v547 main_v1104 (Host.sin : (⟨S16384, .f32⟩ : BufTy).Contents (Elt F) → (⟨S16384, .f32⟩ : BufTy).Contents (Elt F)),
    StableHlo.binary main_v1022 main_v837 main_v1105 (addf : (⟨S16384, .f32⟩ : BufTy).Contents (Elt F) → (⟨S16384, .f32⟩ : BufTy).Contents (Elt F) → (⟨S16384, .f32⟩ : BufTy).Contents (Elt F)),
    StableHlo.unary main_v418 main_v1106 (Host.sin : (⟨S16384, .f32⟩ : BufTy).Contents (Elt F) → (⟨S16384, .f32⟩ : BufTy).Contents (Elt F)),
    StableHlo.binary main_v958 main_v881 main_v1107 (mulf : (⟨S16384, .f32⟩ : BufTy).Contents (Elt F) → (⟨S16384, .f32⟩ : BufTy).Contents (Elt F) → (⟨S16384, .f32⟩ : BufTy).Contents (Elt F)),
    StableHlo.binary main_v1010 main_v983 main_v1108 (addf : (⟨S16384, .f32⟩ : BufTy).Contents (Elt F) → (⟨S16384, .f32⟩ : BufTy).Contents (Elt F) → (⟨S16384, .f32⟩ : BufTy).Contents (Elt F)),
    StableHlo.binary main_v1057 main_v1079 main_v1109 (mulf : (⟨S16384, .f32⟩ : BufTy).Contents (Elt F) → (⟨S16384, .f32⟩ : BufTy).Contents (Elt F) → (⟨S16384, .f32⟩ : BufTy).Contents (Elt F)),
    StableHlo.unary main_v981 main_v1110 (Host.cos : (⟨S16384, .f32⟩ : BufTy).Contents (Elt F) → (⟨S16384, .f32⟩ : BufTy).Contents (Elt F)),
    StableHlo.binary main_v996 main_v1042 main_v1111 (mulf : (⟨S16384, .f32⟩ : BufTy).Contents (Elt F) → (⟨S16384, .f32⟩ : BufTy).Contents (Elt F) → (⟨S16384, .f32⟩ : BufTy).Contents (Elt F)),
    StableHlo.binary main_v631 main_v954 main_v1112 (addf : (⟨S16384, .f32⟩ : BufTy).Contents (Elt F) → (⟨S16384, .f32⟩ : BufTy).Contents (Elt F) → (⟨S16384, .f32⟩ : BufTy).Contents (Elt F)),
    StableHlo.binary main_v789 main_v1093 main_v1113 (subf : (⟨S16384, .f32⟩ : BufTy).Contents (Elt F) → (⟨S16384, .f32⟩ : BufTy).Contents (Elt F) → (⟨S16384, .f32⟩ : BufTy).Contents (Elt F)),
    StableHlo.binary main_v1078 main_v566 main_v1114 (mulf : (⟨S16384, .f32⟩ : BufTy).Contents (Elt F) → (⟨S16384, .f32⟩ : BufTy).Contents (Elt F) → (⟨S16384, .f32⟩ : BufTy).Contents (Elt F)),
    StableHlo.unary main_v238 main_v1115 (Host.cos : (⟨S16384, .f32⟩ : BufTy).Contents (Elt F) → (⟨S16384, .f32⟩ : BufTy).Contents (Elt F)),
    StableHlo.unary main_v903 main_v1116 (Host.sin : (⟨S16384, .f32⟩ : BufTy).Contents (Elt F) → (⟨S16384, .f32⟩ : BufTy).Contents (Elt F)),
    StableHlo.unary main_v1048 main_v1117 (Host.cos : (⟨S16384, .f32⟩ : BufTy).Contents (Elt F) → (⟨S16384, .f32⟩ : BufTy).Contents (Elt F)),
    StableHlo.binary main_v1107 main_v547 main_v1118 (mulf : (⟨S16384, .f32⟩ : BufTy).Contents (Elt F) → (⟨S16384, .f32⟩ : BufTy).Contents (Elt F) → (⟨S16384, .f32⟩ : BufTy).Contents (Elt F)),
    StableHlo.binary main_v953 main_v293 main_v1119 (subf : (⟨S16384, .f32⟩ : BufTy).Contents (Elt F) → (⟨S16384, .f32⟩ : BufTy).Contents (Elt F) → (⟨S16384, .f32⟩ : BufTy).Contents (Elt F)),
    StableHlo.binary main_v728 main_v728 main_v1120 (mulf : (⟨S16384, .f32⟩ : BufTy).Contents (Elt F) → (⟨S16384, .f32⟩ : BufTy).Contents (Elt F) → (⟨S16384, .f32⟩ : BufTy).Contents (Elt F)),
    StableHlo.unary main_v996 main_v1121 (Host.cos : (⟨S16384, .f32⟩ : BufTy).Contents (Elt F) → (⟨S16384, .f32⟩ : BufTy).Contents (Elt F)),
    StableHlo.unary main_v872 main_v1122 (Host.sin : (⟨S16384, .f32⟩ : BufTy).Contents (Elt F) → (⟨S16384, .f32⟩ : BufTy).Contents (Elt F)),
    StableHlo.binary main_v1055 main_v933 main_v1123 (mulf : (⟨S16384, .f32⟩ : BufTy).Contents (Elt F) → (⟨S16384, .f32⟩ : BufTy).Contents (Elt F) → (⟨S16384, .f32⟩ : BufTy).Contents (Elt F)) ]

theorem part18_eq (d : Dev nD) : main_part18 (F := F) d = seq ops18 := rfl
theorem ops18_sub : (ops18 (F := F)).Forall fun op => op.bufs ⊆ tcRefs τ sig := by line_sub
theorem ops18_fresh : ∀ op ∈ (ops18 (F := F)), op.fresh = ∅ := by line_fresh
theorem ops18_ordered : Cert.Ssa.Ordered 1081 (ops18 (F := F)) := by line_ordered

/-- Window 19 of @main: its operations, positions 1141 to 1200, in order. -/
abbrev ops19 : List (HloOp τ sig (Elt F)) :=
  [ StableHlo.binary main_v1091 main_v955 main_v1124 (mulf : (⟨S16384, .f32⟩ : BufTy).Contents (Elt F) → (⟨S16384, .f32⟩ : BufTy).Contents (Elt F) → (⟨S16384, .f32⟩ : BufTy).Contents (Elt F)),
    StableHlo.unary main_v932 main_v1125 (Host.cos : (⟨S16384, .f32⟩ : BufTy).Contents (Elt F) → (⟨S16384, .f32⟩ : BufTy).Contents (Elt F)),
    StableHlo.binary main_v839 main_v1117 main_v1126 (addf : (⟨S16384, .f32⟩ : BufTy).Contents (Elt F) → (⟨S16384, .f32⟩ : BufTy).Contents (Elt F) → (⟨S16384, .f32⟩ : BufTy).Contents (Elt F)),
    StableHlo.unary main_v589 main_v1127 (Host.sin : (⟨S16384, .f32⟩ : BufTy).Contents (Elt F) → (⟨S16384, .f32⟩ : BufTy).Contents (Elt F)),
    StableHlo.unary main_v1012 main_v1128 (Host.sin : (⟨S16384, .f32⟩ : BufTy).Contents (Elt F) → (⟨S16384, .f32⟩ : BufTy).Contents (Elt F)),
    StableHlo.unary main_v971 main_v1129 (Host.negf : (⟨S16384, .f32⟩ : BufTy).Contents (Elt F) → (⟨S16384, .f32⟩ : BufTy).Contents (Elt F)),
    StableHlo.unary main_v272 main_v1130 (Host.negf : (⟨S16384, .f32⟩ : BufTy).Contents (Elt F) → (⟨S16384, .f32⟩ : BufTy).Contents (Elt F)),
    StableHlo.unary main_v925 main_v1131 (Host.cos : (⟨S16384, .f32⟩ : BufTy).Contents (Elt F) → (⟨S16384, .f32⟩ : BufTy).Contents (Elt F)),
    StableHlo.unary main_v639 main_v1132 (Host.sin : (⟨S16384, .f32⟩ : BufTy).Contents (Elt F) → (⟨S16384, .f32⟩ : BufTy).Contents (Elt F)),
    StableHlo.binary main_v837 main_v832 main_v1133 (subf : (⟨S16384, .f32⟩ : BufTy).Contents (Elt F) → (⟨S16384, .f32⟩ : BufTy).Contents (Elt F) → (⟨S16384, .f32⟩ : BufTy).Contents (Elt F)),
    StableHlo.unary main_v1084 main_v1134 (Host.sin : (⟨S16384, .f32⟩ : BufTy).Contents (Elt F) → (⟨S16384, .f32⟩ : BufTy).Contents (Elt F)),
    StableHlo.unary main_v635 main_v1135 (Host.negf : (⟨S16384, .f32⟩ : BufTy).Contents (Elt F) → (⟨S16384, .f32⟩ : BufTy).Contents (Elt F)),
    StableHlo.binary main_v711 main_v412 main_v1136 (addf : (⟨S16384, .f32⟩ : BufTy).Contents (Elt F) → (⟨S16384, .f32⟩ : BufTy).Contents (Elt F) → (⟨S16384, .f32⟩ : BufTy).Contents (Elt F)),
    StableHlo.binary main_v615 main_v1048 main_v1137 (mulf : (⟨S16384, .f32⟩ : BufTy).Contents (Elt F) → (⟨S16384, .f32⟩ : BufTy).Contents (Elt F) → (⟨S16384, .f32⟩ : BufTy).Contents (Elt F)),
    StableHlo.unary main_v857 main_v1138 (Host.sin : (⟨S16384, .f32⟩ : BufTy).Contents (Elt F) → (⟨S16384, .f32⟩ : BufTy).Contents (Elt F)),
    StableHlo.binary main_v602 main_v328 main_v1139 (subf : (⟨S16384, .f32⟩ : BufTy).Contents (Elt F) → (⟨S16384, .f32⟩ : BufTy).Contents (Elt F) → (⟨S16384, .f32⟩ : BufTy).Contents (Elt F)),
    StableHlo.binary main_v950 main_v679 main_v1140 (subf : (⟨S16384, .f32⟩ : BufTy).Contents (Elt F) → (⟨S16384, .f32⟩ : BufTy).Contents (Elt F) → (⟨S16384, .f32⟩ : BufTy).Contents (Elt F)),
    StableHlo.unary main_v1114 main_v1141 (Host.sin : (⟨S16384, .f32⟩ : BufTy).Contents (Elt F) → (⟨S16384, .f32⟩ : BufTy).Contents (Elt F)),
    StableHlo.binary main_v1078 main_v1124 main_v1142 (addf : (⟨S16384, .f32⟩ : BufTy).Contents (Elt F) → (⟨S16384, .f32⟩ : BufTy).Contents (Elt F) → (⟨S16384, .f32⟩ : BufTy).Contents (Elt F)),
    StableHlo.unary main_v1010 main_v1143 (Host.negf : (⟨S16384, .f32⟩ : BufTy).Contents (Elt F) → (⟨S16384, .f32⟩ : BufTy).Contents (Elt F)),
    StableHlo.unary main_v1142 main_v1144 (Host.cos : (⟨S16384, .f32⟩ : BufTy).Contents (Elt F) → (⟨S16384, .f32⟩ : BufTy).Contents (Elt F)),
    StableHlo.unary main_v1067 main_v1145 (Host.sin : (⟨S16384, .f32⟩ : BufTy).Contents (Elt F) → (⟨S16384, .f32⟩ : BufTy).Contents (Elt F)),
    StableHlo.unary main_v162 main_v1146 (Host.sin : (⟨S16384, .f32⟩ : BufTy).Contents (Elt F) → (⟨S16384, .f32⟩ : BufTy).Contents (Elt F)),
    StableHlo.unary main_v550 main_v1147 (Host.cos : (⟨S16384, .f32⟩ : BufTy).Contents (Elt F) → (⟨S16384, .f32⟩ : BufTy).Contents (Elt F)),
    StableHlo.unary main_v812 main_v1148 (Host.sin : (⟨S16384, .f32⟩ : BufTy).Contents (Elt F) → (⟨S16384, .f32⟩ : BufTy).Contents (Elt F)),
    StableHlo.binary main_v935 main_v963 main_v1149 (addf : (⟨S16384, .f32⟩ : BufTy).Contents (Elt F) → (⟨S16384, .f32⟩ : BufTy).Contents (Elt F) → (⟨S16384, .f32⟩ : BufTy).Contents (Elt F)),
    StableHlo.binary main_v1131 main_v1082 main_v1150 (addf : (⟨S16384, .f32⟩ : BufTy).Contents (Elt F) → (⟨S16384, .f32⟩ : BufTy).Contents (Elt F) → (⟨S16384, .f32⟩ : BufTy).Contents (Elt F)),
    StableHlo.unary main_v1090 main_v1151 (Host.sin : (⟨S16384, .f32⟩ : BufTy).Contents (Elt F) → (⟨S16384, .f32⟩ : BufTy).Contents (Elt F)),
    StableHlo.unary main_v812 main_v1152 (Host.cos : (⟨S16384, .f32⟩ : BufTy).Contents (Elt F) → (⟨S16384, .f32⟩ : BufTy).Contents (Elt F)),
    StableHlo.binary main_v859 main_v949 main_v1153 (addf : (⟨S16384, .f32⟩ : BufTy).Contents (Elt F) → (⟨S16384, .f32⟩ : BufTy).Contents (Elt F) → (⟨S16384, .f32⟩ : BufTy).Contents (Elt F)),
    StableHlo.unary main_v1087 main_v1154 (Host.sin : (⟨S16384, .f32⟩ : BufTy).Contents (Elt F) → (⟨S16384, .f32⟩ : BufTy).Contents (Elt F)),
    StableHlo.unary main_v1033 main_v1155 (Host.cos : (⟨S16384, .f32⟩ : BufTy).Contents (Elt F) → (⟨S16384, .f32⟩ : BufTy).Contents (Elt F)),
    StableHlo.unary main_v550 main_v1156 (Host.cos : (⟨S16384, .f32⟩ : BufTy).Contents (Elt F) → (⟨S16384, .f32⟩ : BufTy).Contents (Elt F)),
    StableHlo.unary main_v1141 main_v1157 (Host.cos : (⟨S16384, .f32⟩ : BufTy).Contents (Elt F) → (⟨S16384, .f32⟩ : BufTy).Contents (Elt F)),
    StableHlo.binary main_v1042 main_v619 main_v1158 (addf : (⟨S16384, .f32⟩ : BufTy).Contents (Elt F) → (⟨S16384, .f32⟩ : BufTy).Contents (Elt F) → (⟨S16384, .f32⟩ : BufTy).Contents (Elt F)),
    StableHlo.unary main_v1080 main_v1159 (Host.sin : (⟨S16384, .f32⟩ : BufTy).Contents (Elt F) → (⟨S16384, .f32⟩ : BufTy).Contents (Elt F)),
    StableHlo.unary main_v911 main_v1160 (Host.cos : (⟨S16384, .f32⟩ : BufTy).Contents (Elt F) → (⟨S16384, .f32⟩ : BufTy).Contents (Elt F)),
    StableHlo.unary main_v1102 main_v1161 (Host.sin : (⟨S16384, .f32⟩ : BufTy).Contents (Elt F) → (⟨S16384, .f32⟩ : BufTy).Contents (Elt F)),
    StableHlo.binary main_v991 main_v332 main_v1162 (subf : (⟨S16384, .f32⟩ : BufTy).Contents (Elt F) → (⟨S16384, .f32⟩ : BufTy).Contents (Elt F) → (⟨S16384, .f32⟩ : BufTy).Contents (Elt F)),
    StableHlo.unary main_v759 main_v1163 (Host.cos : (⟨S16384, .f32⟩ : BufTy).Contents (Elt F) → (⟨S16384, .f32⟩ : BufTy).Contents (Elt F)),
    StableHlo.binary main_v412 main_v1071 main_v1164 (subf : (⟨S16384, .f32⟩ : BufTy).Contents (Elt F) → (⟨S16384, .f32⟩ : BufTy).Contents (Elt F) → (⟨S16384, .f32⟩ : BufTy).Contents (Elt F)),
    StableHlo.unary main_v1122 main_v1165 (Host.cos : (⟨S16384, .f32⟩ : BufTy).Contents (Elt F) → (⟨S16384, .f32⟩ : BufTy).Contents (Elt F)),
    StableHlo.unary main_v1045 main_v1166 (Host.cos : (⟨S16384, .f32⟩ : BufTy).Contents (Elt F) → (⟨S16384, .f32⟩ : BufTy).Contents (Elt F)),
    StableHlo.unary main_v246 main_v1167 (Host.cos : (⟨S16384, .f32⟩ : BufTy).Contents (Elt F) → (⟨S16384, .f32⟩ : BufTy).Contents (Elt F)),
    StableHlo.unary main_v412 main_v1168 (Host.sin : (⟨S16384, .f32⟩ : BufTy).Contents (Elt F) → (⟨S16384, .f32⟩ : BufTy).Contents (Elt F)),
    StableHlo.unary main_v968 main_v1169 (Host.cos : (⟨S16384, .f32⟩ : BufTy).Contents (Elt F) → (⟨S16384, .f32⟩ : BufTy).Contents (Elt F)),
    StableHlo.binary main_v1058 main_v1076 main_v1170 (subf : (⟨S16384, .f32⟩ : BufTy).Contents (Elt F) → (⟨S16384, .f32⟩ : BufTy).Contents (Elt F) → (⟨S16384, .f32⟩ : BufTy).Contents (Elt F)),
    StableHlo.unary main_v1103 main_v1171 (Host.cos : (⟨S16384, .f32⟩ : BufTy).Contents (Elt F) → (⟨S16384, .f32⟩ : BufTy).Contents (Elt F)),
    StableHlo.binary main_v531 main_v548 main_v1172 (addf : (⟨S16384, .f32⟩ : BufTy).Contents (Elt F) → (⟨S16384, .f32⟩ : BufTy).Contents (Elt F) → (⟨S16384, .f32⟩ : BufTy).Contents (Elt F)),
    StableHlo.unary main_v272 main_v1173 (Host.cos : (⟨S16384, .f32⟩ : BufTy).Contents (Elt F) → (⟨S16384, .f32⟩ : BufTy).Contents (Elt F)),
    StableHlo.binary main_v1098 main_v1092 main_v1174 (mulf : (⟨S16384, .f32⟩ : BufTy).Contents (Elt F) → (⟨S16384, .f32⟩ : BufTy).Contents (Elt F) → (⟨S16384, .f32⟩ : BufTy).Contents (Elt F)),
    StableHlo.unary main_v933 main_v1175 (Host.sin : (⟨S16384, .f32⟩ : BufTy).Contents (Elt F) → (⟨S16384, .f32⟩ : BufTy).Contents (Elt F)),
    StableHlo.binary main_v1109 main_v1168 main_v1176 (mulf : (⟨S16384, .f32⟩ : BufTy).Contents (Elt F) → (⟨S16384, .f32⟩ : BufTy).Contents (Elt F) → (⟨S16384, .f32⟩ : BufTy).Contents (Elt F)),
    StableHlo.binary main_v635 main_v859 main_v1177 (addf : (⟨S16384, .f32⟩ : BufTy).Contents (Elt F) → (⟨S16384, .f32⟩ : BufTy).Contents (Elt F) → (⟨S16384, .f32⟩ : BufTy).Contents (Elt F)),
    StableHlo.binary main_v722 main_v770 main_v1178 (mulf : (⟨S16384, .f32⟩ : BufTy).Contents (Elt F) → (⟨S16384, .f32⟩ : BufTy).Contents (Elt F) → (⟨S16384, .f32⟩ : BufTy).Contents (Elt F)),
    StableHlo.binary main_v1171 main_v1156 main_v1179 (subf : (⟨S16384, .f32⟩ : BufTy).Contents (Elt F) → (⟨S16384, .f32⟩ : BufTy).Contents (Elt F) → (⟨S16384, .f32⟩ : BufTy).Contents (Elt F)),
    StableHlo.unary main_v235 main_v1180 (Host.cos : (⟨S16384, .f32⟩ : BufTy).Contents (Elt F) → (⟨S16384, .f32⟩ : BufTy).Contents (Elt F)),
    StableHlo.unary main_v737 main_v1181 (Host.sin : (⟨S16384, .f32⟩ : BufTy).Contents (Elt F) → (⟨S16384, .f32⟩ : BufTy).Contents (Elt F)),
    StableHlo.unary main_v1159 main_v1182 (Host.cos : (⟨S16384, .f32⟩ : BufTy).Contents (Elt F) → (⟨S16384, .f32⟩ : BufTy).Contents (Elt F)),
    StableHlo.binary main_v773 main_v332 main_v1183 (subf : (⟨S16384, .f32⟩ : BufTy).Contents (Elt F) → (⟨S16384, .f32⟩ : BufTy).Contents (Elt F) → (⟨S16384, .f32⟩ : BufTy).Contents (Elt F)) ]

theorem part19_eq (d : Dev nD) : main_part19 (F := F) d = seq ops19 := rfl
theorem ops19_sub : (ops19 (F := F)).Forall fun op => op.bufs ⊆ tcRefs τ sig := by line_sub
theorem ops19_fresh : ∀ op ∈ (ops19 (F := F)), op.fresh = ∅ := by line_fresh
theorem ops19_ordered : Cert.Ssa.Ordered 1141 (ops19 (F := F)) := by line_ordered

end Cert.ReferenceIdeal.Line

end
-- ==== Proof.RefOps2.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

/-- Window 20 of @main: its operations, positions 1201 to 1260, in order. -/
abbrev ops20 : List (HloOp τ sig (Elt F)) :=
  [ StableHlo.unary main_v960 main_v1184 (Host.negf : (⟨S16384, .f32⟩ : BufTy).Contents (Elt F) → (⟨S16384, .f32⟩ : BufTy).Contents (Elt F)),
    StableHlo.unary main_v1154 main_v1185 (Host.sin : (⟨S16384, .f32⟩ : BufTy).Contents (Elt F) → (⟨S16384, .f32⟩ : BufTy).Contents (Elt F)),
    StableHlo.unary main_v968 main_v1186 (Host.sin : (⟨S16384, .f32⟩ : BufTy).Contents (Elt F) → (⟨S16384, .f32⟩ : BufTy).Contents (Elt F)),
    StableHlo.unary main_v619 main_v1187 (Host.sin : (⟨S16384, .f32⟩ : BufTy).Contents (Elt F) → (⟨S16384, .f32⟩ : BufTy).Contents (Elt F)),
    StableHlo.unary main_v970 main_v1188 (Host.cos : (⟨S16384, .f32⟩ : BufTy).Contents (Elt F) → (⟨S16384, .f32⟩ : BufTy).Contents (Elt F)),
    StableHlo.unary main_v1165 main_v1189 (Host.cos : (⟨S16384, .f32⟩ : BufTy).Contents (Elt F) → (⟨S16384, .f32⟩ : BufTy).Contents (Elt F)),
    StableHlo.binary main_v1187 main_v777 main_v1190 (mulf : (⟨S16384, .f32⟩ : BufTy).Contents (Elt F) → (⟨S16384, .f32⟩ : BufTy).Contents (Elt F) → (⟨S16384, .f32⟩ : BufTy).Contents (Elt F)),
    StableHlo.binary main_v1052 main_v1080 main_v1191 (subf : (⟨S16384, .f32⟩ : BufTy).Contents (Elt F) → (⟨S16384, .f32⟩ : BufTy).Contents (Elt F) → (⟨S16384, .f32⟩ : BufTy).Contents (Elt F)),
    StableHlo.unary main_v1159 main_v1192 (Host.sin : (⟨S16384, .f32⟩ : BufTy).Contents (Elt F) → (⟨S16384, .f32⟩ : BufTy).Contents (Elt F)),
    StableHlo.binary main_v1191 main_v1049 main_v1193 (subf : (⟨S16384, .f32⟩ : BufTy).Contents (Elt F) → (⟨S16384, .f32⟩ : BufTy).Contents (Elt F) → (⟨S16384, .f32⟩ : BufTy).Contents (Elt F)),
    StableHlo.unary main_v571 main_v1194 (Host.sin : (⟨S16384, .f32⟩ : BufTy).Contents (Elt F) → (⟨S16384, .f32⟩ : BufTy).Contents (Elt F)),
    StableHlo.binary main_v1065 main_v938 main_v1195 (addf : (⟨S16384, .f32⟩ : BufTy).Contents (Elt F) → (⟨S16384, .f32⟩ : BufTy).Contents (Elt F) → (⟨S16384, .f32⟩ : BufTy).Contents (Elt F)),
    StableHlo.binary main_v1036 main_v1193 main_v1196 (subf : (⟨S16384, .f32⟩ : BufTy).Contents (Elt F) → (⟨S16384, .f32⟩ : BufTy).Contents (Elt F) → (⟨S16384, .f32⟩ : BufTy).Contents (Elt F)),
    StableHlo.unary main_v1150 main_v1197 (Host.cos : (⟨S16384, .f32⟩ : BufTy).Contents (Elt F) → (⟨S16384, .f32⟩ : BufTy).Contents (Elt F)),
    StableHlo.unary main_v1170 main_v1198 (Host.cos : (⟨S16384, .f32⟩ : BufTy).Contents (Elt F) → (⟨S16384, .f32⟩ : BufTy).Contents (Elt F)),
    StableHlo.unary main_v874 main_v1199 (Host.sin : (⟨S16384, .f32⟩ : BufTy).Contents (Elt F) → (⟨S16384, .f32⟩ : BufTy).Contents (Elt F)),
    StableHlo.binary main_v955 main_v531 main_v1200 (addf : (⟨S16384, .f32⟩ : BufTy).Contents (Elt F) → (⟨S16384, .f32⟩ : BufTy).Contents (Elt F) → (⟨S16384, .f32⟩ : BufTy).Contents (Elt F)),
    StableHlo.binary main_v989 main_v1066 main_v1201 (addf : (⟨S16384, .f32⟩ : BufTy).Contents (Elt F) → (⟨S16384, .f32⟩ : BufTy).Contents (Elt F) → (⟨S16384, .f32⟩ : BufTy).Contents (Elt F)),
    StableHlo.binary main_v1052 main_v1166 main_v1202 (addf : (⟨S16384, .f32⟩ : BufTy).Contents (Elt F) → (⟨S16384, .f32⟩ : BufTy).Contents (Elt F) → (⟨S16384, .f32⟩ : BufTy).Contents (Elt F)),
    StableHlo.binary main_v1196 main_v1128 main_v1203 (subf : (⟨S16384, .f32⟩ : BufTy).Contents (Elt F) → (⟨S16384, .f32⟩ : BufTy).Contents (Elt F) → (⟨S16384, .f32⟩ : BufTy).Contents (Elt F)),
    StableHlo.binary main_v832 main_v1051 main_v1204 (subf : (⟨S16384, .f32⟩ : BufTy).Contents (Elt F) → (⟨S16384, .f32⟩ : BufTy).Contents (Elt F) → (⟨S16384, .f32⟩ : BufTy).Contents (Elt F)),
    StableHlo.unary main_v862 main_v1205 (Host.cos : (⟨S16384, .f32⟩ : BufTy).Contents (Elt F) → (⟨S16384, .f32⟩ : BufTy).Contents (Elt F)),
    StableHlo.unary main_v1052 main_v1206 (Host.sin : (⟨S16384, .f32⟩ : BufTy).Contents (Elt F) → (⟨S16384, .f32⟩ : BufTy).Contents (Elt F)),
    StableHlo.binary main_v968 main_v1191 main_v1207 (addf : (⟨S16384, .f32⟩ : BufTy).Contents (Elt F) → (⟨S16384, .f32⟩ : BufTy).Contents (Elt F) → (⟨S16384, .f32⟩ : BufTy).Contents (Elt F)),
    StableHlo.unary main_v1203 main_v1208 (Host.cos : (⟨S16384, .f32⟩ : BufTy).Contents (Elt F) → (⟨S16384, .f32⟩ : BufTy).Contents (Elt F)),
    StableHlo.unary main_v975 main_v1209 (Host.sin : (⟨S16384, .f32⟩ : BufTy).Contents (Elt F) → (⟨S16384, .f32⟩ : BufTy).Contents (Elt F)),
    StableHlo.unary main_v1120 main_v1210 (Host.cos : (⟨S16384, .f32⟩ : BufTy).Contents (Elt F) → (⟨S16384, .f32⟩ : BufTy).Contents (Elt F)),
    StableHlo.unary main_v246 main_v1211 (Host.cos : (⟨S16384, .f32⟩ : BufTy).Contents (Elt F) → (⟨S16384, .f32⟩ : BufTy).Contents (Elt F)),
    StableHlo.unary main_v870 main_v1212 (Host.cos : (⟨S16384, .f32⟩ : BufTy).Contents (Elt F) → (⟨S16384, .f32⟩ : BufTy).Contents (Elt F)),
    StableHlo.unary main_v1189 main_v1213 (Host.sin : (⟨S16384, .f32⟩ : BufTy).Contents (Elt F) → (⟨S16384, .f32⟩ : BufTy).Contents (Elt F)),
    StableHlo.binary main_v1141 main_v972 main_v1214 (addf : (⟨S16384, .f32⟩ : BufTy).Contents (Elt F) → (⟨S16384, .f32⟩ : BufTy).Contents (Elt F) → (⟨S16384, .f32⟩ : BufTy).Contents (Elt F)),
    StableHlo.unary main_v848 main_v1215 (Host.cos : (⟨S16384, .f32⟩ : BufTy).Contents (Elt F) → (⟨S16384, .f32⟩ : BufTy).Contents (Elt F)),
    StableHlo.binary main_v871 main_v874 main_v1216 (addf : (⟨S16384, .f32⟩ : BufTy).Contents (Elt F) → (⟨S16384, .f32⟩ : BufTy).Contents (Elt F) → (⟨S16384, .f32⟩ : BufTy).Contents (Elt F)),
    StableHlo.binary main_v566 main_v1115 main_v1217 (mulf : (⟨S16384, .f32⟩ : BufTy).Contents (Elt F) → (⟨S16384, .f32⟩ : BufTy).Contents (Elt F) → (⟨S16384, .f32⟩ : BufTy).Contents (Elt F)),
    StableHlo.binary main_v1131 main_v1170 main_v1218 (addf : (⟨S16384, .f32⟩ : BufTy).Contents (Elt F) → (⟨S16384, .f32⟩ : BufTy).Contents (Elt F) → (⟨S16384, .f32⟩ : BufTy).Contents (Elt F)),
    StableHlo.binary main_v1162 main_v1012 main_v1219 (subf : (⟨S16384, .f32⟩ : BufTy).Contents (Elt F) → (⟨S16384, .f32⟩ : BufTy).Contents (Elt F) → (⟨S16384, .f32⟩ : BufTy).Contents (Elt F)),
    StableHlo.binary main_v1161 main_v1184 main_v1220 (addf : (⟨S16384, .f32⟩ : BufTy).Contents (Elt F) → (⟨S16384, .f32⟩ : BufTy).Contents (Elt F) → (⟨S16384, .f32⟩ : BufTy).Contents (Elt F)),
    StableHlo.binary main_v1170 main_v1069 main_v1221 (mulf : (⟨S16384, .f32⟩ : BufTy).Contents (Elt F) → (⟨S16384, .f32⟩ : BufTy).Contents (Elt F) → (⟨S16384, .f32⟩ : BufTy).Contents (Elt F)),
    StableHlo.unary main_v991 main_v1222 (Host.negf : (⟨S16384, .f32⟩ : BufTy).Contents (Elt F) → (⟨S16384, .f32⟩ : BufTy).Contents (Elt F)),
    StableHlo.unary main_v1068 main_v1223 (Host.cos : (⟨S16384, .f32⟩ : BufTy).Contents (Elt F) → (⟨S16384, .f32⟩ : BufTy).Contents (Elt F)),
    StableHlo.binary main_v418 main_v881 main_v1224 (mulf : (⟨S16384, .f32⟩ : BufTy).Contents (Elt F) → (⟨S16384, .f32⟩ : BufTy).Contents (Elt F) → (⟨S16384, .f32⟩ : BufTy).Contents (Elt F)),
    StableHlo.unary main_v1213 main_v1225 (Host.sin : (⟨S16384, .f32⟩ : BufTy).Contents (Elt F) → (⟨S16384, .f32⟩ : BufTy).Contents (Elt F)),
    StableHlo.binary main_v1111 main_v1111 main_v1226 (mulf : (⟨S16384, .f32⟩ : BufTy).Contents (Elt F) → (⟨S16384, .f32⟩ : BufTy).Contents (Elt F) → (⟨S16384, .f32⟩ : BufTy).Contents (Elt F)),
    StableHlo.unary main_v1038 main_v1227 (Host.cos : (⟨S16384, .f32⟩ : BufTy).Contents (Elt F) → (⟨S16384, .f32⟩ : BufTy).Contents (Elt F)),
    StableHlo.unary main_v811 main_v1228 (Host.cos : (⟨S16384, .f32⟩ : BufTy).Contents (Elt F) → (⟨S16384, .f32⟩ : BufTy).Contents (Elt F)),
    StableHlo.binary main_v1138 main_v1118 main_v1229 (mulf : (⟨S16384, .f32⟩ : BufTy).Contents (Elt F) → (⟨S16384, .f32⟩ : BufTy).Contents (Elt F) → (⟨S16384, .f32⟩ : BufTy).Contents (Elt F)),
    StableHlo.binary main_v600 main_v890 main_v1230 (addf : (⟨S16384, .f32⟩ : BufTy).Contents (Elt F) → (⟨S16384, .f32⟩ : BufTy).Contents (Elt F) → (⟨S16384, .f32⟩ : BufTy).Contents (Elt F)),
    StableHlo.binary main_v925 main_v1038 main_v1231 (mulf : (⟨S16384, .f32⟩ : BufTy).Contents (Elt F) → (⟨S16384, .f32⟩ : BufTy).Contents (Elt F) → (⟨S16384, .f32⟩ : BufTy).Contents (Elt F)),
    StableHlo.binary main_v875 main_v1161 main_v1232 (subf : (⟨S16384, .f32⟩ : BufTy).Contents (Elt F) → (⟨S16384, .f32⟩ : BufTy).Contents (Elt F) → (⟨S16384, .f32⟩ : BufTy).Contents (Elt F)),
    StableHlo.binary main_v894 main_v1119 main_v1233 (addf : (⟨S16384, .f32⟩ : BufTy).Contents (Elt F) → (⟨S16384, .f32⟩ : BufTy).Contents (Elt F) → (⟨S16384, .f32⟩ : BufTy).Contents (Elt F)),
    StableHlo.binary main_v1104 main_v970 main_v1234 (addf : (⟨S16384, .f32⟩ : BufTy).Contents (Elt F) → (⟨S16384, .f32⟩ : BufTy).Contents (Elt F) → (⟨S16384, .f32⟩ : BufTy).Contents (Elt F)),
    StableHlo.unary main_v1041 main_v1235 (Host.cos : (⟨S16384, .f32⟩ : BufTy).Contents (Elt F) → (⟨S16384, .f32⟩ : BufTy).Contents (Elt F)),
    StableHlo.unary main_v666 main_v1236 (Host.sin : (⟨S16384, .f32⟩ : BufTy).Contents (Elt F) → (⟨S16384, .f32⟩ : BufTy).Contents (Elt F)),
    StableHlo.unary main_v1204 main_v1237 (Host.sin : (⟨S16384, .f32⟩ : BufTy).Contents (Elt F) → (⟨S16384, .f32⟩ : BufTy).Contents (Elt F)),
    StableHlo.unary main_v1132 main_v1238 (Host.sin : (⟨S16384, .f32⟩ : BufTy).Contents (Elt F) → (⟨S16384, .f32⟩ : BufTy).Contents (Elt F)),
    StableHlo.unary main_v1118 main_v1239 (Host.cos : (⟨S16384, .f32⟩ : BufTy).Contents (Elt F) → (⟨S16384, .f32⟩ : BufTy).Contents (Elt F)),
    StableHlo.unary main_v795 main_v1240 (Host.sin : (⟨S16384, .f32⟩ : BufTy).Contents (Elt F) → (⟨S16384, .f32⟩ : BufTy).Contents (Elt F)),
    StableHlo.unary main_v1182 main_v1241 (Host.cos : (⟨S16384, .f32⟩ : BufTy).Contents (Elt F) → (⟨S16384, .f32⟩ : BufTy).Contents (Elt F)),
    StableHlo.unary main_v1063 main_v1242 (Host.negf : (⟨S16384, .f32⟩ : BufTy).Contents (Elt F) → (⟨S16384, .f32⟩ : BufTy).Contents (Elt F)),
    StableHlo.binary main_v1009 main_v1015 main_v1243 (addf : (⟨S16384, .f32⟩ : BufTy).Contents (Elt F) → (⟨S16384, .f32⟩ : BufTy).Contents (Elt F) → (⟨S16384, .f32⟩ : BufTy).Contents (Elt F)) ]

theorem part20_eq (d : Dev nD) : main_part20 (F := F) d = seq ops20 := rfl
theorem ops20_sub : (ops20 (F := F)).Forall fun op => op.bufs ⊆ tcRefs τ sig := by line_sub
theorem ops20_fresh : ∀ op ∈ (ops20 (F := F)), op.fresh = ∅ := by line_fresh
theorem ops20_ordered : Cert.Ssa.Ordered 1201 (ops20 (F := F)) := by line_ordered

/-- Window 21 of @main: its operations, positions 1261 to 1320, in order. -/
abbrev ops21 : List (HloOp τ sig (Elt F)) :=
  [ StableHlo.binary main_v968 main_v134 main_v1244 (subf : (⟨S16384, .f32⟩ : BufTy).Contents (Elt F) → (⟨S16384, .f32⟩ : BufTy).Contents (Elt F) → (⟨S16384, .f32⟩ : BufTy).Contents (Elt F)),
    StableHlo.unary main_v1207 main_v1245 (Host.sin : (⟨S16384, .f32⟩ : BufTy).Contents (Elt F) → (⟨S16384, .f32⟩ : BufTy).Contents (Elt F)),
    StableHlo.unary main_v1132 main_v1246 (Host.cos : (⟨S16384, .f32⟩ : BufTy).Contents (Elt F) → (⟨S16384, .f32⟩ : BufTy).Contents (Elt F)),
    StableHlo.unary main_v759 main_v1247 (Host.sin : (⟨S16384, .f32⟩ : BufTy).Contents (Elt F) → (⟨S16384, .f32⟩ : BufTy).Contents (Elt F)),
    StableHlo.binary main_v1105 main_v934 main_v1248 (subf : (⟨S16384, .f32⟩ : BufTy).Contents (Elt F) → (⟨S16384, .f32⟩ : BufTy).Contents (Elt F) → (⟨S16384, .f32⟩ : BufTy).Contents (Elt F)),
    StableHlo.binary main_v936 main_v1052 main_v1249 (addf : (⟨S16384, .f32⟩ : BufTy).Contents (Elt F) → (⟨S16384, .f32⟩ : BufTy).Contents (Elt F) → (⟨S16384, .f32⟩ : BufTy).Contents (Elt F)),
    StableHlo.binary main_v631 main_v903 main_v1250 (subf : (⟨S16384, .f32⟩ : BufTy).Contents (Elt F) → (⟨S16384, .f32⟩ : BufTy).Contents (Elt F) → (⟨S16384, .f32⟩ : BufTy).Contents (Elt F)),
    StableHlo.unary main_v1131 main_v1251 (Host.sin : (⟨S16384, .f32⟩ : BufTy).Contents (Elt F) → (⟨S16384, .f32⟩ : BufTy).Contents (Elt F)),
    StableHlo.unary main_v1088 main_v1252 (Host.cos : (⟨S16384, .f32⟩ : BufTy).Contents (Elt F) → (⟨S16384, .f32⟩ : BufTy).Contents (Elt F)),
    StableHlo.binary main_v874 main_v1034 main_v1253 (mulf : (⟨S16384, .f32⟩ : BufTy).Contents (Elt F) → (⟨S16384, .f32⟩ : BufTy).Contents (Elt F) → (⟨S16384, .f32⟩ : BufTy).Contents (Elt F)),
    StableHlo.unary main_v1125 main_v1254 (Host.cos : (⟨S16384, .f32⟩ : BufTy).Contents (Elt F) → (⟨S16384, .f32⟩ : BufTy).Contents (Elt F)),
    StableHlo.unary main_v1225 main_v1255 (Host.cos : (⟨S16384, .f32⟩ : BufTy).Contents (Elt F) → (⟨S16384, .f32⟩ : BufTy).Contents (Elt F)),
    StableHlo.binary main_v812 main_v812 main_v1256 (mulf : (⟨S16384, .f32⟩ : BufTy).Contents (Elt F) → (⟨S16384, .f32⟩ : BufTy).Contents (Elt F) → (⟨S16384, .f32⟩ : BufTy).Contents (Elt F)),
    StableHlo.unary main_v1123 main_v1257 (Host.negf : (⟨S16384, .f32⟩ : BufTy).Contents (Elt F) → (⟨S16384, .f32⟩ : BufTy).Contents (Elt F)),
    StableHlo.unary main_v1107 main_v1258 (Host.cos : (⟨S16384, .f32⟩ : BufTy).Contents (Elt F) → (⟨S16384, .f32⟩ : BufTy).Contents (Elt F)),
    StableHlo.binary main_v991 main_v970 main_v1259 (subf : (⟨S16384, .f32⟩ : BufTy).Contents (Elt F) → (⟨S16384, .f32⟩ : BufTy).Contents (Elt F) → (⟨S16384, .f32⟩ : BufTy).Contents (Elt F)),
    StableHlo.binary main_v871 main_v1075 main_v1260 (addf : (⟨S16384, .f32⟩ : BufTy).Contents (Elt F) → (⟨S16384, .f32⟩ : BufTy).Contents (Elt F) → (⟨S16384, .f32⟩ : BufTy).Contents (Elt F)),
    StableHlo.unary main_v1173 main_v1261 (Host.negf : (⟨S16384, .f32⟩ : BufTy).Contents (Elt F) → (⟨S16384, .f32⟩ : BufTy).Contents (Elt F)),
    StableHlo.binary main_v940 main_v770 main_v1262 (subf : (⟨S16384, .f32⟩ : BufTy).Contents (Elt F) → (⟨S16384, .f32⟩ : BufTy).Contents (Elt F) → (⟨S16384, .f32⟩ : BufTy).Contents (Elt F)),
    StableHlo.unary main_v1207 main_v1263 (Host.cos : (⟨S16384, .f32⟩ : BufTy).Contents (Elt F) → (⟨S16384, .f32⟩ : BufTy).Contents (Elt F)),
    StableHlo.unary main_v1176 main_v1264 (Host.negf : (⟨S16384, .f32⟩ : BufTy).Contents (Elt F) → (⟨S16384, .f32⟩ : BufTy).Contents (Elt F)),
    StableHlo.binary main_v1051 main_v615 main_v1265 (subf : (⟨S16384, .f32⟩ : BufTy).Contents (Elt F) → (⟨S16384, .f32⟩ : BufTy).Contents (Elt F) → (⟨S16384, .f32⟩ : BufTy).Contents (Elt F)),
    StableHlo.unary main_v1259 main_v1266 (Host.sin : (⟨S16384, .f32⟩ : BufTy).Contents (Elt F) → (⟨S16384, .f32⟩ : BufTy).Contents (Elt F)),
    StableHlo.unary main_v1260 main_v1267 (Host.cos : (⟨S16384, .f32⟩ : BufTy).Contents (Elt F) → (⟨S16384, .f32⟩ : BufTy).Contents (Elt F)),
    StableHlo.unary main_v1200 main_v1268 (Host.cos : (⟨S16384, .f32⟩ : BufTy).Contents (Elt F) → (⟨S16384, .f32⟩ : BufTy).Contents (Elt F)),
    StableHlo.binary main_v1245 main_v1245 main_v1269 (mulf : (⟨S16384, .f32⟩ : BufTy).Contents (Elt F) → (⟨S16384, .f32⟩ : BufTy).Contents (Elt F) → (⟨S16384, .f32⟩ : BufTy).Contents (Elt F)),
    StableHlo.unary main_v1232 main_v1270 (Host.cos : (⟨S16384, .f32⟩ : BufTy).Contents (Elt F) → (⟨S16384, .f32⟩ : BufTy).Contents (Elt F)),
    StableHlo.unary main_v894 main_v1271 (Host.cos : (⟨S16384, .f32⟩ : BufTy).Contents (Elt F) → (⟨S16384, .f32⟩ : BufTy).Contents (Elt F)),
    StableHlo.binary main_v1199 main_v1194 main_v1272 (subf : (⟨S16384, .f32⟩ : BufTy).Contents (Elt F) → (⟨S16384, .f32⟩ : BufTy).Contents (Elt F) → (⟨S16384, .f32⟩ : BufTy).Contents (Elt F)),
    StableHlo.binary main_v1239 main_v1162 main_v1273 (subf : (⟨S16384, .f32⟩ : BufTy).Contents (Elt F) → (⟨S16384, .f32⟩ : BufTy).Contents (Elt F) → (⟨S16384, .f32⟩ : BufTy).Contents (Elt F)),
    StableHlo.binary main_v668 main_v1047 main_v1274 (subf : (⟨S16384, .f32⟩ : BufTy).Contents (Elt F) → (⟨S16384, .f32⟩ : BufTy).Contents (Elt F) → (⟨S16384, .f32⟩ : BufTy).Contents (Elt F)),
    StableHlo.unary main_v989 main_v1275 (Host.cos : (⟨S16384, .f32⟩ : BufTy).Contents (Elt F) → (⟨S16384, .f32⟩ : BufTy).Contents (Elt F)),
    StableHlo.binary main_v1048 main_v936 main_v1276 (mulf : (⟨S16384, .f32⟩ : BufTy).Contents (Elt F) → (⟨S16384, .f32⟩ : BufTy).Contents (Elt F) → (⟨S16384, .f32⟩ : BufTy).Contents (Elt F)),
    StableHlo.binary main_v1111 main_v934 main_v1277 (subf : (⟨S16384, .f32⟩ : BufTy).Contents (Elt F) → (⟨S16384, .f32⟩ : BufTy).Contents (Elt F) → (⟨S16384, .f32⟩ : BufTy).Contents (Elt F)),
    StableHlo.unary main_v1182 main_v1278 (Host.cos : (⟨S16384, .f32⟩ : BufTy).Contents (Elt F) → (⟨S16384, .f32⟩ : BufTy).Contents (Elt F)),
    StableHlo.unary main_v955 main_v1279 (Host.sin : (⟨S16384, .f32⟩ : BufTy).Contents (Elt F) → (⟨S16384, .f32⟩ : BufTy).Contents (Elt F)),
    StableHlo.binary main_v652 main_v293 main_v1280 (mulf : (⟨S16384, .f32⟩ : BufTy).Contents (Elt F) → (⟨S16384, .f32⟩ : BufTy).Contents (Elt F) → (⟨S16384, .f32⟩ : BufTy).Contents (Elt F)),
    StableHlo.binary main_v1248 main_v1248 main_v1281 (mulf : (⟨S16384, .f32⟩ : BufTy).Contents (Elt F) → (⟨S16384, .f32⟩ : BufTy).Contents (Elt F) → (⟨S16384, .f32⟩ : BufTy).Contents (Elt F)),
    StableHlo.unary main_v1087 main_v1282 (Host.cos : (⟨S16384, .f32⟩ : BufTy).Contents (Elt F) → (⟨S16384, .f32⟩ : BufTy).Contents (Elt F)),
    StableHlo.binary main_v970 main_v1201 main_v1283 (subf : (⟨S16384, .f32⟩ : BufTy).Contents (Elt F) → (⟨S16384, .f32⟩ : BufTy).Contents (Elt F) → (⟨S16384, .f32⟩ : BufTy).Contents (Elt F)),
    StableHlo.unary main_v1262 main_v1284 (Host.cos : (⟨S16384, .f32⟩ : BufTy).Contents (Elt F) → (⟨S16384, .f32⟩ : BufTy).Contents (Elt F)),
    StableHlo.unary main_v1009 main_v1285 (Host.sin : (⟨S16384, .f32⟩ : BufTy).Contents (Elt F) → (⟨S16384, .f32⟩ : BufTy).Contents (Elt F)),
    StableHlo.binary main_v777 main_v777 main_v1286 (mulf : (⟨S16384, .f32⟩ : BufTy).Contents (Elt F) → (⟨S16384, .f32⟩ : BufTy).Contents (Elt F) → (⟨S16384, .f32⟩ : BufTy).Contents (Elt F)),
    StableHlo.binary main_v881 main_v881 main_v1287 (mulf : (⟨S16384, .f32⟩ : BufTy).Contents (Elt F) → (⟨S16384, .f32⟩ : BufTy).Contents (Elt F) → (⟨S16384, .f32⟩ : BufTy).Contents (Elt F)),
    StableHlo.unary main_v679 main_v1288 (Host.cos : (⟨S16384, .f32⟩ : BufTy).Contents (Elt F) → (⟨S16384, .f32⟩ : BufTy).Contents (Elt F)),
    StableHlo.unary main_v1242 main_v1289 (Host.cos : (⟨S16384, .f32⟩ : BufTy).Contents (Elt F) → (⟨S16384, .f32⟩ : BufTy).Contents (Elt F)),
    StableHlo.unary main_v1252 main_v1290 (Host.sin : (⟨S16384, .f32⟩ : BufTy).Contents (Elt F) → (⟨S16384, .f32⟩ : BufTy).Contents (Elt F)),
    StableHlo.unary main_v1081 main_v1291 (Host.cos : (⟨S16384, .f32⟩ : BufTy).Contents (Elt F) → (⟨S16384, .f32⟩ : BufTy).Contents (Elt F)),
    StableHlo.binary main_v1069 main_v1005 main_v1292 (subf : (⟨S16384, .f32⟩ : BufTy).Contents (Elt F) → (⟨S16384, .f32⟩ : BufTy).Contents (Elt F) → (⟨S16384, .f32⟩ : BufTy).Contents (Elt F)),
    StableHlo.unary main_v1234 main_v1293 (Host.sin : (⟨S16384, .f32⟩ : BufTy).Contents (Elt F) → (⟨S16384, .f32⟩ : BufTy).Contents (Elt F)),
    StableHlo.binary main_v1128 main_v1229 main_v1294 (subf : (⟨S16384, .f32⟩ : BufTy).Contents (Elt F) → (⟨S16384, .f32⟩ : BufTy).Contents (Elt F) → (⟨S16384, .f32⟩ : BufTy).Contents (Elt F)),
    StableHlo.binary main_v1085 main_v723 main_v1295 (subf : (⟨S16384, .f32⟩ : BufTy).Contents (Elt F) → (⟨S16384, .f32⟩ : BufTy).Contents (Elt F) → (⟨S16384, .f32⟩ : BufTy).Contents (Elt F)),
    StableHlo.unary main_v1005 main_v1296 (Host.cos : (⟨S16384, .f32⟩ : BufTy).Contents (Elt F) → (⟨S16384, .f32⟩ : BufTy).Contents (Elt F)),
    StableHlo.unary main_v744 main_v1297 (Host.cos : (⟨S16384, .f32⟩ : BufTy).Contents (Elt F) → (⟨S16384, .f32⟩ : BufTy).Contents (Elt F)),
    StableHlo.binary main_v1203 main_v737 main_v1298 (mulf : (⟨S16384, .f32⟩ : BufTy).Contents (Elt F) → (⟨S16384, .f32⟩ : BufTy).Contents (Elt F) → (⟨S16384, .f32⟩ : BufTy).Contents (Elt F)),
    StableHlo.binary main_v272 main_v1279 main_v1299 (mulf : (⟨S16384, .f32⟩ : BufTy).Contents (Elt F) → (⟨S16384, .f32⟩ : BufTy).Contents (Elt F) → (⟨S16384, .f32⟩ : BufTy).Contents (Elt F)),
    StableHlo.unary main_v1023 main_v1300 (Host.cos : (⟨S16384, .f32⟩ : BufTy).Contents (Elt F) → (⟨S16384, .f32⟩ : BufTy).Contents (Elt F)),
    StableHlo.binary main_v1299 main_v936 main_v1301 (mulf : (⟨S16384, .f32⟩ : BufTy).Contents (Elt F) → (⟨S16384, .f32⟩ : BufTy).Contents (Elt F) → (⟨S16384, .f32⟩ : BufTy).Contents (Elt F)),
    StableHlo.binary main_v293 main_v972 main_v1302 (mulf : (⟨S16384, .f32⟩ : BufTy).Contents (Elt F) → (⟨S16384, .f32⟩ : BufTy).Contents (Elt F) → (⟨S16384, .f32⟩ : BufTy).Contents (Elt F)),
    StableHlo.unary main_v1207 main_v1303 (Host.cos : (⟨S16384, .f32⟩ : BufTy).Contents (Elt F) → (⟨S16384, .f32⟩ : BufTy).Contents (Elt F)) ]

theorem part21_eq (d : Dev nD) : main_part21 (F := F) d = seq ops21 := rfl
theorem ops21_sub : (ops21 (F := F)).Forall fun op => op.bufs ⊆ tcRefs τ sig := by line_sub
theorem ops21_fresh : ∀ op ∈ (ops21 (F := F)), op.fresh = ∅ := by line_fresh
theorem ops21_ordered : Cert.Ssa.Ordered 1261 (ops21 (F := F)) := by line_ordered

/-- Window 22 of @main: its operations, positions 1321 to 1380, in order. -/
abbrev ops22 : List (HloOp τ sig (Elt F)) :=
  [ StableHlo.binary main_v1199 main_v1245 main_v1304 (mulf : (⟨S16384, .f32⟩ : BufTy).Contents (Elt F) → (⟨S16384, .f32⟩ : BufTy).Contents (Elt F) → (⟨S16384, .f32⟩ : BufTy).Contents (Elt F)),
    StableHlo.unary main_v1121 main_v1305 (Host.sin : (⟨S16384, .f32⟩ : BufTy).Contents (Elt F) → (⟨S16384, .f32⟩ : BufTy).Contents (Elt F)),
    StableHlo.unary main_v1237 main_v1306 (Host.sin : (⟨S16384, .f32⟩ : BufTy).Contents (Elt F) → (⟨S16384, .f32⟩ : BufTy).Contents (Elt F)),
    StableHlo.unary main_v759 main_v1307 (Host.cos : (⟨S16384, .f32⟩ : BufTy).Contents (Elt F) → (⟨S16384, .f32⟩ : BufTy).Contents (Elt F)),
    StableHlo.unary main_v406 main_v1308 (Host.sin : (⟨S16384, .f32⟩ : BufTy).Contents (Elt F) → (⟨S16384, .f32⟩ : BufTy).Contents (Elt F)),
    StableHlo.binary main_v1271 main_v1271 main_v1309 (mulf : (⟨S16384, .f32⟩ : BufTy).Contents (Elt F) → (⟨S16384, .f32⟩ : BufTy).Contents (Elt F) → (⟨S16384, .f32⟩ : BufTy).Contents (Elt F)),
    StableHlo.binary main_v917 main_v1308 main_v1310 (addf : (⟨S16384, .f32⟩ : BufTy).Contents (Elt F) → (⟨S16384, .f32⟩ : BufTy).Contents (Elt F) → (⟨S16384, .f32⟩ : BufTy).Contents (Elt F)),
    StableHlo.unary main_v928 main_v1311 (Host.cos : (⟨S16384, .f32⟩ : BufTy).Contents (Elt F) → (⟨S16384, .f32⟩ : BufTy).Contents (Elt F)),
    StableHlo.binary main_v975 main_v1283 main_v1312 (subf : (⟨S16384, .f32⟩ : BufTy).Contents (Elt F) → (⟨S16384, .f32⟩ : BufTy).Contents (Elt F) → (⟨S16384, .f32⟩ : BufTy).Contents (Elt F)),
    StableHlo.unary main_v1066 main_v1313 (Host.sin : (⟨S16384, .f32⟩ : BufTy).Contents (Elt F) → (⟨S16384, .f32⟩ : BufTy).Contents (Elt F)),
    StableHlo.unary main_v748 main_v1314 (Host.sin : (⟨S16384, .f32⟩ : BufTy).Contents (Elt F) → (⟨S16384, .f32⟩ : BufTy).Contents (Elt F)),
    StableHlo.unary main_v1309 main_v1315 (Host.sin : (⟨S16384, .f32⟩ : BufTy).Contents (Elt F) → (⟨S16384, .f32⟩ : BufTy).Contents (Elt F)),
    StableHlo.binary main_v1231 main_v1010 main_v1316 (addf : (⟨S16384, .f32⟩ : BufTy).Contents (Elt F) → (⟨S16384, .f32⟩ : BufTy).Contents (Elt F) → (⟨S16384, .f32⟩ : BufTy).Contents (Elt F)),
    StableHlo.unary main_v812 main_v1317 (Host.negf : (⟨S16384, .f32⟩ : BufTy).Contents (Elt F) → (⟨S16384, .f32⟩ : BufTy).Contents (Elt F)),
    StableHlo.binary main_v737 main_v1238 main_v1318 (addf : (⟨S16384, .f32⟩ : BufTy).Contents (Elt F) → (⟨S16384, .f32⟩ : BufTy).Contents (Elt F) → (⟨S16384, .f32⟩ : BufTy).Contents (Elt F)),
    StableHlo.binary main_v968 main_v814 main_v1319 (addf : (⟨S16384, .f32⟩ : BufTy).Contents (Elt F) → (⟨S16384, .f32⟩ : BufTy).Contents (Elt F) → (⟨S16384, .f32⟩ : BufTy).Contents (Elt F)),
    StableHlo.binary main_v950 main_v1219 main_v1320 (addf : (⟨S16384, .f32⟩ : BufTy).Contents (Elt F) → (⟨S16384, .f32⟩ : BufTy).Contents (Elt F) → (⟨S16384, .f32⟩ : BufTy).Contents (Elt F)),
    StableHlo.unary main_v1296 main_v1321 (Host.negf : (⟨S16384, .f32⟩ : BufTy).Contents (Elt F) → (⟨S16384, .f32⟩ : BufTy).Contents (Elt F)),
    StableHlo.binary main_v1229 main_v1237 main_v1322 (subf : (⟨S16384, .f32⟩ : BufTy).Contents (Elt F) → (⟨S16384, .f32⟩ : BufTy).Contents (Elt F) → (⟨S16384, .f32⟩ : BufTy).Contents (Elt F)),
    StableHlo.binary main_v1300 main_v1319 main_v1323 (mulf : (⟨S16384, .f32⟩ : BufTy).Contents (Elt F) → (⟨S16384, .f32⟩ : BufTy).Contents (Elt F) → (⟨S16384, .f32⟩ : BufTy).Contents (Elt F)),
    StableHlo.binary main_v1038 main_v1272 main_v1324 (addf : (⟨S16384, .f32⟩ : BufTy).Contents (Elt F) → (⟨S16384, .f32⟩ : BufTy).Contents (Elt F) → (⟨S16384, .f32⟩ : BufTy).Contents (Elt F)),
    StableHlo.unary main_v641 main_v1325 (Host.sin : (⟨S16384, .f32⟩ : BufTy).Contents (Elt F) → (⟨S16384, .f32⟩ : BufTy).Contents (Elt F)),
    StableHlo.unary main_v1209 main_v1326 (Host.cos : (⟨S16384, .f32⟩ : BufTy).Contents (Elt F) → (⟨S16384, .f32⟩ : BufTy).Contents (Elt F)),
    StableHlo.unary main_v1274 main_v1327 (Host.cos : (⟨S16384, .f32⟩ : BufTy).Contents (Elt F) → (⟨S16384, .f32⟩ : BufTy).Contents (Elt F)),
    StableHlo.unary main_v934 main_v1328 (Host.sin : (⟨S16384, .f32⟩ : BufTy).Contents (Elt F) → (⟨S16384, .f32⟩ : BufTy).Contents (Elt F)),
    StableHlo.unary main_v639 main_v1329 (Host.sin : (⟨S16384, .f32⟩ : BufTy).Contents (Elt F) → (⟨S16384, .f32⟩ : BufTy).Contents (Elt F)),
    StableHlo.binary main_v1180 main_v1180 main_v1330 (mulf : (⟨S16384, .f32⟩ : BufTy).Contents (Elt F) → (⟨S16384, .f32⟩ : BufTy).Contents (Elt F) → (⟨S16384, .f32⟩ : BufTy).Contents (Elt F)),
    StableHlo.binary main_v977 main_v1201 main_v1331 (addf : (⟨S16384, .f32⟩ : BufTy).Contents (Elt F) → (⟨S16384, .f32⟩ : BufTy).Contents (Elt F) → (⟨S16384, .f32⟩ : BufTy).Contents (Elt F)),
    StableHlo.binary main_v1135 main_v1135 main_v1332 (mulf : (⟨S16384, .f32⟩ : BufTy).Contents (Elt F) → (⟨S16384, .f32⟩ : BufTy).Contents (Elt F) → (⟨S16384, .f32⟩ : BufTy).Contents (Elt F)),
    StableHlo.unary main_v1246 main_v1333 (Host.sin : (⟨S16384, .f32⟩ : BufTy).Contents (Elt F) → (⟨S16384, .f32⟩ : BufTy).Contents (Elt F)),
    StableHlo.unary main_v1242 main_v1334 (Host.cos : (⟨S16384, .f32⟩ : BufTy).Contents (Elt F) → (⟨S16384, .f32⟩ : BufTy).Contents (Elt F)),
    StableHlo.unary main_v1319 main_v1335 (Host.sin : (⟨S16384, .f32⟩ : BufTy).Contents (Elt F) → (⟨S16384, .f32⟩ : BufTy).Contents (Elt F)),
    StableHlo.unary main_v1231 main_v1336 (Host.sin : (⟨S16384, .f32⟩ : BufTy).Contents (Elt F) → (⟨S16384, .f32⟩ : BufTy).Contents (Elt F)),
    StableHlo.unary main_v842 main_v1337 (Host.sin : (⟨S16384, .f32⟩ : BufTy).Contents (Elt F) → (⟨S16384, .f32⟩ : BufTy).Contents (Elt F)),
    StableHlo.binary main_v1031 main_v1074 main_v1338 (addf : (⟨S16384, .f32⟩ : BufTy).Contents (Elt F) → (⟨S16384, .f32⟩ : BufTy).Contents (Elt F) → (⟨S16384, .f32⟩ : BufTy).Contents (Elt F)),
    StableHlo.binary main_v1171 main_v641 main_v1339 (addf : (⟨S16384, .f32⟩ : BufTy).Contents (Elt F) → (⟨S16384, .f32⟩ : BufTy).Contents (Elt F) → (⟨S16384, .f32⟩ : BufTy).Contents (Elt F)),
    StableHlo.unary main_v917 main_v1340 (Host.cos : (⟨S16384, .f32⟩ : BufTy).Contents (Elt F) → (⟨S16384, .f32⟩ : BufTy).Contents (Elt F)),
    StableHlo.binary main_v1125 main_v1318 main_v1341 (addf : (⟨S16384, .f32⟩ : BufTy).Contents (Elt F) → (⟨S16384, .f32⟩ : BufTy).Contents (Elt F) → (⟨S16384, .f32⟩ : BufTy).Contents (Elt F)),
    StableHlo.binary main_v1323 main_v968 main_v1342 (subf : (⟨S16384, .f32⟩ : BufTy).Contents (Elt F) → (⟨S16384, .f32⟩ : BufTy).Contents (Elt F) → (⟨S16384, .f32⟩ : BufTy).Contents (Elt F)),
    StableHlo.unary main_v652 main_v1343 (Host.cos : (⟨S16384, .f32⟩ : BufTy).Contents (Elt F) → (⟨S16384, .f32⟩ : BufTy).Contents (Elt F)),
    StableHlo.unary main_v1204 main_v1344 (Host.sin : (⟨S16384, .f32⟩ : BufTy).Contents (Elt F) → (⟨S16384, .f32⟩ : BufTy).Contents (Elt F)),
    StableHlo.unary main_v1104 main_v1345 (Host.sin : (⟨S16384, .f32⟩ : BufTy).Contents (Elt F) → (⟨S16384, .f32⟩ : BufTy).Contents (Elt F)),
    StableHlo.binary main_v1341 main_v1341 main_v1346 (mulf : (⟨S16384, .f32⟩ : BufTy).Contents (Elt F) → (⟨S16384, .f32⟩ : BufTy).Contents (Elt F) → (⟨S16384, .f32⟩ : BufTy).Contents (Elt F)),
    StableHlo.binary main_v892 main_v272 main_v1347 (mulf : (⟨S16384, .f32⟩ : BufTy).Contents (Elt F) → (⟨S16384, .f32⟩ : BufTy).Contents (Elt F) → (⟨S16384, .f32⟩ : BufTy).Contents (Elt F)),
    StableHlo.unary main_v1269 main_v1348 (Host.sin : (⟨S16384, .f32⟩ : BufTy).Contents (Elt F) → (⟨S16384, .f32⟩ : BufTy).Contents (Elt F)),
    StableHlo.binary main_v1345 main_v1004 main_v1349 (mulf : (⟨S16384, .f32⟩ : BufTy).Contents (Elt F) → (⟨S16384, .f32⟩ : BufTy).Contents (Elt F) → (⟨S16384, .f32⟩ : BufTy).Contents (Elt F)),
    StableHlo.unary main_v1340 main_v1350 (Host.cos : (⟨S16384, .f32⟩ : BufTy).Contents (Elt F) → (⟨S16384, .f32⟩ : BufTy).Contents (Elt F)),
    StableHlo.unary main_v1042 main_v1351 (Host.sin : (⟨S16384, .f32⟩ : BufTy).Contents (Elt F) → (⟨S16384, .f32⟩ : BufTy).Contents (Elt F)),
    StableHlo.unary main_v934 main_v1352 (Host.cos : (⟨S16384, .f32⟩ : BufTy).Contents (Elt F) → (⟨S16384, .f32⟩ : BufTy).Contents (Elt F)),
    StableHlo.binary main_v1340 main_v968 main_v1353 (addf : (⟨S16384, .f32⟩ : BufTy).Contents (Elt F) → (⟨S16384, .f32⟩ : BufTy).Contents (Elt F) → (⟨S16384, .f32⟩ : BufTy).Contents (Elt F)),
    StableHlo.binary main_v531 main_v839 main_v1354 (subf : (⟨S16384, .f32⟩ : BufTy).Contents (Elt F) → (⟨S16384, .f32⟩ : BufTy).Contents (Elt F) → (⟨S16384, .f32⟩ : BufTy).Contents (Elt F)),
    StableHlo.unary main_v1109 main_v1355 (Host.cos : (⟨S16384, .f32⟩ : BufTy).Contents (Elt F) → (⟨S16384, .f32⟩ : BufTy).Contents (Elt F)),
    StableHlo.unary main_v1098 main_v1356 (Host.sin : (⟨S16384, .f32⟩ : BufTy).Contents (Elt F) → (⟨S16384, .f32⟩ : BufTy).Contents (Elt F)),
    StableHlo.binary main_v1265 main_v531 main_v1357 (addf : (⟨S16384, .f32⟩ : BufTy).Contents (Elt F) → (⟨S16384, .f32⟩ : BufTy).Contents (Elt F) → (⟨S16384, .f32⟩ : BufTy).Contents (Elt F)),
    StableHlo.binary main_v1034 main_v1235 main_v1358 (subf : (⟨S16384, .f32⟩ : BufTy).Contents (Elt F) → (⟨S16384, .f32⟩ : BufTy).Contents (Elt F) → (⟨S16384, .f32⟩ : BufTy).Contents (Elt F)),
    StableHlo.unary main_v1345 main_v1359 (Host.cos : (⟨S16384, .f32⟩ : BufTy).Contents (Elt F) → (⟨S16384, .f32⟩ : BufTy).Contents (Elt F)),
    StableHlo.unary main_v1353 main_v1360 (Host.cos : (⟨S16384, .f32⟩ : BufTy).Contents (Elt F) → (⟨S16384, .f32⟩ : BufTy).Contents (Elt F)),
    StableHlo.binary main_v1087 main_v1062 main_v1361 (subf : (⟨S16384, .f32⟩ : BufTy).Contents (Elt F) → (⟨S16384, .f32⟩ : BufTy).Contents (Elt F) → (⟨S16384, .f32⟩ : BufTy).Contents (Elt F)),
    StableHlo.unary main_v1359 main_v1362 (Host.sin : (⟨S16384, .f32⟩ : BufTy).Contents (Elt F) → (⟨S16384, .f32⟩ : BufTy).Contents (Elt F)),
    StableHlo.binary main_v1034 main_v1304 main_v1363 (addf : (⟨S16384, .f32⟩ : BufTy).Contents (Elt F) → (⟨S16384, .f32⟩ : BufTy).Contents (Elt F) → (⟨S16384, .f32⟩ : BufTy).Contents (Elt F)) ]

theorem part22_eq (d : Dev nD) : main_part22 (F := F) d = seq ops22 := rfl
theorem ops22_sub : (ops22 (F := F)).Forall fun op => op.bufs ⊆ tcRefs τ sig := by line_sub
theorem ops22_fresh : ∀ op ∈ (ops22 (F := F)), op.fresh = ∅ := by line_fresh
theorem ops22_ordered : Cert.Ssa.Ordered 1321 (ops22 (F := F)) := by line_ordered

/-- Window 23 of @main: its operations, positions 1381 to 1440, in order. -/
abbrev ops23 : List (HloOp τ sig (Elt F)) :=
  [ StableHlo.unary main_v1343 main_v1364 (Host.cos : (⟨S16384, .f32⟩ : BufTy).Contents (Elt F) → (⟨S16384, .f32⟩ : BufTy).Contents (Elt F)),
    StableHlo.binary main_v1302 main_v1234 main_v1365 (subf : (⟨S16384, .f32⟩ : BufTy).Contents (Elt F) → (⟨S16384, .f32⟩ : BufTy).Contents (Elt F) → (⟨S16384, .f32⟩ : BufTy).Contents (Elt F)),
    StableHlo.unary main_v1034 main_v1366 (Host.sin : (⟨S16384, .f32⟩ : BufTy).Contents (Elt F) → (⟨S16384, .f32⟩ : BufTy).Contents (Elt F)),
    StableHlo.binary main_v1180 main_v1310 main_v1367 (mulf : (⟨S16384, .f32⟩ : BufTy).Contents (Elt F) → (⟨S16384, .f32⟩ : BufTy).Contents (Elt F) → (⟨S16384, .f32⟩ : BufTy).Contents (Elt F)),
    StableHlo.binary main_v1304 main_v479 main_v1368 (addf : (⟨S16384, .f32⟩ : BufTy).Contents (Elt F) → (⟨S16384, .f32⟩ : BufTy).Contents (Elt F) → (⟨S16384, .f32⟩ : BufTy).Contents (Elt F)),
    StableHlo.unary main_v1352 main_v1369 (Host.cos : (⟨S16384, .f32⟩ : BufTy).Contents (Elt F) → (⟨S16384, .f32⟩ : BufTy).Contents (Elt F)),
    StableHlo.unary main_v1105 main_v1370 (Host.cos : (⟨S16384, .f32⟩ : BufTy).Contents (Elt F) → (⟨S16384, .f32⟩ : BufTy).Contents (Elt F)),
    StableHlo.binary main_v1091 main_v1293 main_v1371 (subf : (⟨S16384, .f32⟩ : BufTy).Contents (Elt F) → (⟨S16384, .f32⟩ : BufTy).Contents (Elt F) → (⟨S16384, .f32⟩ : BufTy).Contents (Elt F)),
    StableHlo.unary main_v1325 main_v1372 (Host.cos : (⟨S16384, .f32⟩ : BufTy).Contents (Elt F) → (⟨S16384, .f32⟩ : BufTy).Contents (Elt F)),
    StableHlo.unary main_v1066 main_v1373 (Host.cos : (⟨S16384, .f32⟩ : BufTy).Contents (Elt F) → (⟨S16384, .f32⟩ : BufTy).Contents (Elt F)),
    StableHlo.binary main_v1166 main_v1278 main_v1374 (subf : (⟨S16384, .f32⟩ : BufTy).Contents (Elt F) → (⟨S16384, .f32⟩ : BufTy).Contents (Elt F) → (⟨S16384, .f32⟩ : BufTy).Contents (Elt F)),
    StableHlo.binary main_v1364 main_v272 main_v1375 (addf : (⟨S16384, .f32⟩ : BufTy).Contents (Elt F) → (⟨S16384, .f32⟩ : BufTy).Contents (Elt F) → (⟨S16384, .f32⟩ : BufTy).Contents (Elt F)),
    StableHlo.unary main_v1034 main_v1376 (Host.cos : (⟨S16384, .f32⟩ : BufTy).Contents (Elt F) → (⟨S16384, .f32⟩ : BufTy).Contents (Elt F)),
    StableHlo.binary main_v1203 main_v1239 main_v1377 (addf : (⟨S16384, .f32⟩ : BufTy).Contents (Elt F) → (⟨S16384, .f32⟩ : BufTy).Contents (Elt F) → (⟨S16384, .f32⟩ : BufTy).Contents (Elt F)),
    StableHlo.binary main_v1328 main_v1194 main_v1378 (addf : (⟨S16384, .f32⟩ : BufTy).Contents (Elt F) → (⟨S16384, .f32⟩ : BufTy).Contents (Elt F) → (⟨S16384, .f32⟩ : BufTy).Contents (Elt F)),
    StableHlo.unary main_v1279 main_v1379 (Host.sin : (⟨S16384, .f32⟩ : BufTy).Contents (Elt F) → (⟨S16384, .f32⟩ : BufTy).Contents (Elt F)),
    StableHlo.binary main_v1337 main_v1177 main_v1380 (subf : (⟨S16384, .f32⟩ : BufTy).Contents (Elt F) → (⟨S16384, .f32⟩ : BufTy).Contents (Elt F) → (⟨S16384, .f32⟩ : BufTy).Contents (Elt F)),
    StableHlo.unary main_v1332 main_v1381 (Host.cos : (⟨S16384, .f32⟩ : BufTy).Contents (Elt F) → (⟨S16384, .f32⟩ : BufTy).Contents (Elt F)),
    StableHlo.binary main_v1381 main_v1291 main_v1382 (addf : (⟨S16384, .f32⟩ : BufTy).Contents (Elt F) → (⟨S16384, .f32⟩ : BufTy).Contents (Elt F) → (⟨S16384, .f32⟩ : BufTy).Contents (Elt F)),
    StableHlo.unary main_v1041 main_v1383 (Host.sin : (⟨S16384, .f32⟩ : BufTy).Contents (Elt F) → (⟨S16384, .f32⟩ : BufTy).Contents (Elt F)),
    StableHlo.binary main_v1088 main_v870 main_v1384 (mulf : (⟨S16384, .f32⟩ : BufTy).Contents (Elt F) → (⟨S16384, .f32⟩ : BufTy).Contents (Elt F) → (⟨S16384, .f32⟩ : BufTy).Contents (Elt F)),
    StableHlo.unary main_v1324 main_v1385 (Host.sin : (⟨S16384, .f32⟩ : BufTy).Contents (Elt F) → (⟨S16384, .f32⟩ : BufTy).Contents (Elt F)),
    StableHlo.unary main_v1181 main_v1386 (Host.sin : (⟨S16384, .f32⟩ : BufTy).Contents (Elt F) → (⟨S16384, .f32⟩ : BufTy).Contents (Elt F)),
    StableHlo.binary main_v1343 main_v1293 main_v1387 (mulf : (⟨S16384, .f32⟩ : BufTy).Contents (Elt F) → (⟨S16384, .f32⟩ : BufTy).Contents (Elt F) → (⟨S16384, .f32⟩ : BufTy).Contents (Elt F)),
    StableHlo.binary main_v1258 main_v917 main_v1388 (mulf : (⟨S16384, .f32⟩ : BufTy).Contents (Elt F) → (⟨S16384, .f32⟩ : BufTy).Contents (Elt F) → (⟨S16384, .f32⟩ : BufTy).Contents (Elt F)),
    StableHlo.unary main_v1115 main_v1389 (Host.cos : (⟨S16384, .f32⟩ : BufTy).Contents (Elt F) → (⟨S16384, .f32⟩ : BufTy).Contents (Elt F)),
    StableHlo.unary main_v1012 main_v1390 (Host.cos : (⟨S16384, .f32⟩ : BufTy).Contents (Elt F) → (⟨S16384, .f32⟩ : BufTy).Contents (Elt F)),
    StableHlo.unary main_v1164 main_v1391 (Host.sin : (⟨S16384, .f32⟩ : BufTy).Contents (Elt F) → (⟨S16384, .f32⟩ : BufTy).Contents (Elt F)),
    StableHlo.unary main_v1179 main_v1392 (Host.cos : (⟨S16384, .f32⟩ : BufTy).Contents (Elt F) → (⟨S16384, .f32⟩ : BufTy).Contents (Elt F)),
    StableHlo.binary main_v1271 main_v1371 main_v1393 (addf : (⟨S16384, .f32⟩ : BufTy).Contents (Elt F) → (⟨S16384, .f32⟩ : BufTy).Contents (Elt F) → (⟨S16384, .f32⟩ : BufTy).Contents (Elt F)),
    StableHlo.unary main_v1180 main_v1394 (Host.cos : (⟨S16384, .f32⟩ : BufTy).Contents (Elt F) → (⟨S16384, .f32⟩ : BufTy).Contents (Elt F)),
    StableHlo.binary main_v1089 main_v1380 main_v1395 (addf : (⟨S16384, .f32⟩ : BufTy).Contents (Elt F) → (⟨S16384, .f32⟩ : BufTy).Contents (Elt F) → (⟨S16384, .f32⟩ : BufTy).Contents (Elt F)),
    StableHlo.unary main_v1166 main_v1396 (Host.sin : (⟨S16384, .f32⟩ : BufTy).Contents (Elt F) → (⟨S16384, .f32⟩ : BufTy).Contents (Elt F)),
    StableHlo.binary main_v1218 main_v1371 main_v1397 (mulf : (⟨S16384, .f32⟩ : BufTy).Contents (Elt F) → (⟨S16384, .f32⟩ : BufTy).Contents (Elt F) → (⟨S16384, .f32⟩ : BufTy).Contents (Elt F)),
    StableHlo.binary main_v1247 main_v874 main_v1398 (addf : (⟨S16384, .f32⟩ : BufTy).Contents (Elt F) → (⟨S16384, .f32⟩ : BufTy).Contents (Elt F) → (⟨S16384, .f32⟩ : BufTy).Contents (Elt F)),
    StableHlo.unary main_v1380 main_v1399 (Host.negf : (⟨S16384, .f32⟩ : BufTy).Contents (Elt F) → (⟨S16384, .f32⟩ : BufTy).Contents (Elt F)),
    StableHlo.binary main_v1390 main_v872 main_v1400 (mulf : (⟨S16384, .f32⟩ : BufTy).Contents (Elt F) → (⟨S16384, .f32⟩ : BufTy).Contents (Elt F) → (⟨S16384, .f32⟩ : BufTy).Contents (Elt F)),
    StableHlo.unary main_v235 main_v1401 (Host.cos : (⟨S16384, .f32⟩ : BufTy).Contents (Elt F) → (⟨S16384, .f32⟩ : BufTy).Contents (Elt F)),
    StableHlo.binary main_v1365 main_v872 main_v1402 (addf : (⟨S16384, .f32⟩ : BufTy).Contents (Elt F) → (⟨S16384, .f32⟩ : BufTy).Contents (Elt F) → (⟨S16384, .f32⟩ : BufTy).Contents (Elt F)),
    StableHlo.unary main_v1259 main_v1403 (Host.sin : (⟨S16384, .f32⟩ : BufTy).Contents (Elt F) → (⟨S16384, .f32⟩ : BufTy).Contents (Elt F)),
    StableHlo.unary main_v1087 main_v1404 (Host.sin : (⟨S16384, .f32⟩ : BufTy).Contents (Elt F) → (⟨S16384, .f32⟩ : BufTy).Contents (Elt F)),
    StableHlo.unary main_v1176 main_v1405 (Host.sin : (⟨S16384, .f32⟩ : BufTy).Contents (Elt F) → (⟨S16384, .f32⟩ : BufTy).Contents (Elt F)),
    StableHlo.binary main_v1263 main_v1263 main_v1406 (mulf : (⟨S16384, .f32⟩ : BufTy).Contents (Elt F) → (⟨S16384, .f32⟩ : BufTy).Contents (Elt F) → (⟨S16384, .f32⟩ : BufTy).Contents (Elt F)),
    StableHlo.binary main_v1075 main_v652 main_v1407 (mulf : (⟨S16384, .f32⟩ : BufTy).Contents (Elt F) → (⟨S16384, .f32⟩ : BufTy).Contents (Elt F) → (⟨S16384, .f32⟩ : BufTy).Contents (Elt F)),
    StableHlo.unary main_v832 main_v1408 (Host.cos : (⟨S16384, .f32⟩ : BufTy).Contents (Elt F) → (⟨S16384, .f32⟩ : BufTy).Contents (Elt F)),
    StableHlo.binary main_v1325 main_v1087 main_v1409 (subf : (⟨S16384, .f32⟩ : BufTy).Contents (Elt F) → (⟨S16384, .f32⟩ : BufTy).Contents (Elt F) → (⟨S16384, .f32⟩ : BufTy).Contents (Elt F)),
    StableHlo.binary main_v1295 main_v1395 main_v1410 (mulf : (⟨S16384, .f32⟩ : BufTy).Contents (Elt F) → (⟨S16384, .f32⟩ : BufTy).Contents (Elt F) → (⟨S16384, .f32⟩ : BufTy).Contents (Elt F)),
    StableHlo.unary main_v1369 main_v1411 (Host.cos : (⟨S16384, .f32⟩ : BufTy).Contents (Elt F) → (⟨S16384, .f32⟩ : BufTy).Contents (Elt F)),
    StableHlo.binary main_v1096 main_v874 main_v1412 (addf : (⟨S16384, .f32⟩ : BufTy).Contents (Elt F) → (⟨S16384, .f32⟩ : BufTy).Contents (Elt F) → (⟨S16384, .f32⟩ : BufTy).Contents (Elt F)),
    StableHlo.unary main_v1301 main_v1413 (Host.sin : (⟨S16384, .f32⟩ : BufTy).Contents (Elt F) → (⟨S16384, .f32⟩ : BufTy).Contents (Elt F)),
    StableHlo.unary main_v1245 main_v1414 (Host.cos : (⟨S16384, .f32⟩ : BufTy).Contents (Elt F) → (⟨S16384, .f32⟩ : BufTy).Contents (Elt F)),
    StableHlo.binary main_v1388 main_v1373 main_v1415 (addf : (⟨S16384, .f32⟩ : BufTy).Contents (Elt F) → (⟨S16384, .f32⟩ : BufTy).Contents (Elt F) → (⟨S16384, .f32⟩ : BufTy).Contents (Elt F)),
    StableHlo.unary main_v235 main_v1416 (Host.cos : (⟨S16384, .f32⟩ : BufTy).Contents (Elt F) → (⟨S16384, .f32⟩ : BufTy).Contents (Elt F)),
    StableHlo.binary main_v1314 main_v1134 main_v1417 (mulf : (⟨S16384, .f32⟩ : BufTy).Contents (Elt F) → (⟨S16384, .f32⟩ : BufTy).Contents (Elt F) → (⟨S16384, .f32⟩ : BufTy).Contents (Elt F)),
    StableHlo.unary main_v1363 main_v1418 (Host.cos : (⟨S16384, .f32⟩ : BufTy).Contents (Elt F) → (⟨S16384, .f32⟩ : BufTy).Contents (Elt F)),
    StableHlo.unary main_v1330 main_v1419 (Host.sin : (⟨S16384, .f32⟩ : BufTy).Contents (Elt F) → (⟨S16384, .f32⟩ : BufTy).Contents (Elt F)),
    StableHlo.binary main_v1036 main_v315 main_v1420 (addf : (⟨S16384, .f32⟩ : BufTy).Contents (Elt F) → (⟨S16384, .f32⟩ : BufTy).Contents (Elt F) → (⟨S16384, .f32⟩ : BufTy).Contents (Elt F)),
    StableHlo.binary main_v1347 main_v1347 main_v1421 (mulf : (⟨S16384, .f32⟩ : BufTy).Contents (Elt F) → (⟨S16384, .f32⟩ : BufTy).Contents (Elt F) → (⟨S16384, .f32⟩ : BufTy).Contents (Elt F)),
    StableHlo.unary main_v1246 main_v1422 (Host.cos : (⟨S16384, .f32⟩ : BufTy).Contents (Elt F) → (⟨S16384, .f32⟩ : BufTy).Contents (Elt F)),
    StableHlo.binary main_v1204 main_v1337 main_v1423 (addf : (⟨S16384, .f32⟩ : BufTy).Contents (Elt F) → (⟨S16384, .f32⟩ : BufTy).Contents (Elt F) → (⟨S16384, .f32⟩ : BufTy).Contents (Elt F)) ]

theorem part23_eq (d : Dev nD) : main_part23 (F := F) d = seq ops23 := rfl
theorem ops23_sub : (ops23 (F := F)).Forall fun op => op.bufs ⊆ tcRefs τ sig := by line_sub
theorem ops23_fresh : ∀ op ∈ (ops23 (F := F)), op.fresh = ∅ := by line_fresh
theorem ops23_ordered : Cert.Ssa.Ordered 1381 (ops23 (F := F)) := by line_ordered

/-- Window 24 of @main: its operations, positions 1441 to 1500, in order. -/
abbrev ops24 : List (HloOp τ sig (Elt F)) :=
  [ StableHlo.binary main_v1349 main_v1302 main_v1424 (subf : (⟨S16384, .f32⟩ : BufTy).Contents (Elt F) → (⟨S16384, .f32⟩ : BufTy).Contents (Elt F) → (⟨S16384, .f32⟩ : BufTy).Contents (Elt F)),
    StableHlo.unary main_v1398 main_v1425 (Host.cos : (⟨S16384, .f32⟩ : BufTy).Contents (Elt F) → (⟨S16384, .f32⟩ : BufTy).Contents (Elt F)),
    StableHlo.binary main_v1216 main_v1218 main_v1426 (addf : (⟨S16384, .f32⟩ : BufTy).Contents (Elt F) → (⟨S16384, .f32⟩ : BufTy).Contents (Elt F) → (⟨S16384, .f32⟩ : BufTy).Contents (Elt F)),
    StableHlo.binary main_v1324 main_v1212 main_v1427 (mulf : (⟨S16384, .f32⟩ : BufTy).Contents (Elt F) → (⟨S16384, .f32⟩ : BufTy).Contents (Elt F) → (⟨S16384, .f32⟩ : BufTy).Contents (Elt F)),
    StableHlo.binary main_v874 main_v1133 main_v1428 (subf : (⟨S16384, .f32⟩ : BufTy).Contents (Elt F) → (⟨S16384, .f32⟩ : BufTy).Contents (Elt F) → (⟨S16384, .f32⟩ : BufTy).Contents (Elt F)),
    StableHlo.binary main_v1100 main_v1100 main_v1429 (mulf : (⟨S16384, .f32⟩ : BufTy).Contents (Elt F) → (⟨S16384, .f32⟩ : BufTy).Contents (Elt F) → (⟨S16384, .f32⟩ : BufTy).Contents (Elt F)),
    StableHlo.binary main_v987 main_v1048 main_v1430 (subf : (⟨S16384, .f32⟩ : BufTy).Contents (Elt F) → (⟨S16384, .f32⟩ : BufTy).Contents (Elt F) → (⟨S16384, .f32⟩ : BufTy).Contents (Elt F)),
    StableHlo.unary main_v1212 main_v1431 (Host.sin : (⟨S16384, .f32⟩ : BufTy).Contents (Elt F) → (⟨S16384, .f32⟩ : BufTy).Contents (Elt F)),
    StableHlo.binary main_v1218 main_v1427 main_v1432 (subf : (⟨S16384, .f32⟩ : BufTy).Contents (Elt F) → (⟨S16384, .f32⟩ : BufTy).Contents (Elt F) → (⟨S16384, .f32⟩ : BufTy).Contents (Elt F)),
    StableHlo.unary main_v1125 main_v1433 (Host.cos : (⟨S16384, .f32⟩ : BufTy).Contents (Elt F) → (⟨S16384, .f32⟩ : BufTy).Contents (Elt F)),
    StableHlo.binary main_v1022 main_v1277 main_v1434 (addf : (⟨S16384, .f32⟩ : BufTy).Contents (Elt F) → (⟨S16384, .f32⟩ : BufTy).Contents (Elt F) → (⟨S16384, .f32⟩ : BufTy).Contents (Elt F)),
    StableHlo.unary main_v1109 main_v1435 (Host.negf : (⟨S16384, .f32⟩ : BufTy).Contents (Elt F) → (⟨S16384, .f32⟩ : BufTy).Contents (Elt F)),
    StableHlo.binary main_v1400 main_v1400 main_v1436 (mulf : (⟨S16384, .f32⟩ : BufTy).Contents (Elt F) → (⟨S16384, .f32⟩ : BufTy).Contents (Elt F) → (⟨S16384, .f32⟩ : BufTy).Contents (Elt F)),
    StableHlo.binary main_v940 main_v547 main_v1437 (subf : (⟨S16384, .f32⟩ : BufTy).Contents (Elt F) → (⟨S16384, .f32⟩ : BufTy).Contents (Elt F) → (⟨S16384, .f32⟩ : BufTy).Contents (Elt F)),
    StableHlo.binary main_v1036 main_v1139 main_v1438 (subf : (⟨S16384, .f32⟩ : BufTy).Contents (Elt F) → (⟨S16384, .f32⟩ : BufTy).Contents (Elt F) → (⟨S16384, .f32⟩ : BufTy).Contents (Elt F)),
    StableHlo.unary main_v1296 main_v1439 (Host.cos : (⟨S16384, .f32⟩ : BufTy).Contents (Elt F) → (⟨S16384, .f32⟩ : BufTy).Contents (Elt F)),
    StableHlo.binary main_v1398 main_v1358 main_v1440 (subf : (⟨S16384, .f32⟩ : BufTy).Contents (Elt F) → (⟨S16384, .f32⟩ : BufTy).Contents (Elt F) → (⟨S16384, .f32⟩ : BufTy).Contents (Elt F)),
    StableHlo.unary main_v1260 main_v1441 (Host.cos : (⟨S16384, .f32⟩ : BufTy).Contents (Elt F) → (⟨S16384, .f32⟩ : BufTy).Contents (Elt F)),
    StableHlo.binary main_v1416 main_v975 main_v1442 (addf : (⟨S16384, .f32⟩ : BufTy).Contents (Elt F) → (⟨S16384, .f32⟩ : BufTy).Contents (Elt F) → (⟨S16384, .f32⟩ : BufTy).Contents (Elt F)),
    StableHlo.binary main_v1149 main_v1277 main_v1443 (addf : (⟨S16384, .f32⟩ : BufTy).Contents (Elt F) → (⟨S16384, .f32⟩ : BufTy).Contents (Elt F) → (⟨S16384, .f32⟩ : BufTy).Contents (Elt F)),
    StableHlo.unary main_v1000 main_v1444 (Host.sin : (⟨S16384, .f32⟩ : BufTy).Contents (Elt F) → (⟨S16384, .f32⟩ : BufTy).Contents (Elt F)),
    StableHlo.unary main_v759 main_v1445 (Host.sin : (⟨S16384, .f32⟩ : BufTy).Contents (Elt F) → (⟨S16384, .f32⟩ : BufTy).Contents (Elt F)),
    StableHlo.binary main_v1282 main_v639 main_v1446 (addf : (⟨S16384, .f32⟩ : BufTy).Contents (Elt F) → (⟨S16384, .f32⟩ : BufTy).Contents (Elt F) → (⟨S16384, .f32⟩ : BufTy).Contents (Elt F)),
    StableHlo.unary main_v1010 main_v1447 (Host.sin : (⟨S16384, .f32⟩ : BufTy).Contents (Elt F) → (⟨S16384, .f32⟩ : BufTy).Contents (Elt F)),
    StableHlo.binary main_v1404 main_v1265 main_v1448 (addf : (⟨S16384, .f32⟩ : BufTy).Contents (Elt F) → (⟨S16384, .f32⟩ : BufTy).Contents (Elt F) → (⟨S16384, .f32⟩ : BufTy).Contents (Elt F)),
    StableHlo.binary main_v1087 main_v1411 main_v1449 (subf : (⟨S16384, .f32⟩ : BufTy).Contents (Elt F) → (⟨S16384, .f32⟩ : BufTy).Contents (Elt F) → (⟨S16384, .f32⟩ : BufTy).Contents (Elt F)),
    StableHlo.unary main_v1125 main_v1450 (Host.cos : (⟨S16384, .f32⟩ : BufTy).Contents (Elt F) → (⟨S16384, .f32⟩ : BufTy).Contents (Elt F)),
    StableHlo.unary main_v811 main_v1451 (Host.cos : (⟨S16384, .f32⟩ : BufTy).Contents (Elt F) → (⟨S16384, .f32⟩ : BufTy).Contents (Elt F)),
    StableHlo.binary main_v1237 main_v1217 main_v1452 (addf : (⟨S16384, .f32⟩ : BufTy).Contents (Elt F) → (⟨S16384, .f32⟩ : BufTy).Contents (Elt F) → (⟨S16384, .f32⟩ : BufTy).Contents (Elt F)),
    StableHlo.unary main_v1370 main_v1453 (Host.cos : (⟨S16384, .f32⟩ : BufTy).Contents (Elt F) → (⟨S16384, .f32⟩ : BufTy).Contents (Elt F)),
    StableHlo.binary main_v1428 main_v1385 main_v1454 (mulf : (⟨S16384, .f32⟩ : BufTy).Contents (Elt F) → (⟨S16384, .f32⟩ : BufTy).Contents (Elt F) → (⟨S16384, .f32⟩ : BufTy).Contents (Elt F)),
    StableHlo.unary main_v708 main_v1455 (Host.sin : (⟨S16384, .f32⟩ : BufTy).Contents (Elt F) → (⟨S16384, .f32⟩ : BufTy).Contents (Elt F)),
    StableHlo.unary main_v1411 main_v1456 (Host.sin : (⟨S16384, .f32⟩ : BufTy).Contents (Elt F) → (⟨S16384, .f32⟩ : BufTy).Contents (Elt F)),
    StableHlo.unary main_v1446 main_v1457 (Host.cos : (⟨S16384, .f32⟩ : BufTy).Contents (Elt F) → (⟨S16384, .f32⟩ : BufTy).Contents (Elt F)),
    StableHlo.unary main_v1094 main_v1458 (Host.sin : (⟨S16384, .f32⟩ : BufTy).Contents (Elt F) → (⟨S16384, .f32⟩ : BufTy).Contents (Elt F)),
    StableHlo.unary main_v1308 main_v1459 (Host.cos : (⟨S16384, .f32⟩ : BufTy).Contents (Elt F) → (⟨S16384, .f32⟩ : BufTy).Contents (Elt F)),
    StableHlo.binary main_v759 main_v1246 main_v1460 (addf : (⟨S16384, .f32⟩ : BufTy).Contents (Elt F) → (⟨S16384, .f32⟩ : BufTy).Contents (Elt F) → (⟨S16384, .f32⟩ : BufTy).Contents (Elt F)),
    StableHlo.binary main_v1166 main_v940 main_v1461 (addf : (⟨S16384, .f32⟩ : BufTy).Contents (Elt F) → (⟨S16384, .f32⟩ : BufTy).Contents (Elt F) → (⟨S16384, .f32⟩ : BufTy).Contents (Elt F)),
    StableHlo.unary main_v1222 main_v1462 (Host.sin : (⟨S16384, .f32⟩ : BufTy).Contents (Elt F) → (⟨S16384, .f32⟩ : BufTy).Contents (Elt F)),
    StableHlo.unary main_v1377 main_v1463 (Host.sin : (⟨S16384, .f32⟩ : BufTy).Contents (Elt F) → (⟨S16384, .f32⟩ : BufTy).Contents (Elt F)),
    StableHlo.unary main_v1382 main_v1464 (Host.sin : (⟨S16384, .f32⟩ : BufTy).Contents (Elt F) → (⟨S16384, .f32⟩ : BufTy).Contents (Elt F)),
    StableHlo.unary main_v293 main_v1465 (Host.sin : (⟨S16384, .f32⟩ : BufTy).Contents (Elt F) → (⟨S16384, .f32⟩ : BufTy).Contents (Elt F)),
    StableHlo.unary main_v1328 main_v1466 (Host.cos : (⟨S16384, .f32⟩ : BufTy).Contents (Elt F) → (⟨S16384, .f32⟩ : BufTy).Contents (Elt F)),
    StableHlo.unary main_v1392 main_v1467 (Host.sin : (⟨S16384, .f32⟩ : BufTy).Contents (Elt F) → (⟨S16384, .f32⟩ : BufTy).Contents (Elt F)),
    StableHlo.unary main_v1383 main_v1468 (Host.cos : (⟨S16384, .f32⟩ : BufTy).Contents (Elt F) → (⟨S16384, .f32⟩ : BufTy).Contents (Elt F)),
    StableHlo.binary main_v1161 main_v1385 main_v1469 (addf : (⟨S16384, .f32⟩ : BufTy).Contents (Elt F) → (⟨S16384, .f32⟩ : BufTy).Contents (Elt F) → (⟨S16384, .f32⟩ : BufTy).Contents (Elt F)),
    StableHlo.unary main_v940 main_v1470 (Host.cos : (⟨S16384, .f32⟩ : BufTy).Contents (Elt F) → (⟨S16384, .f32⟩ : BufTy).Contents (Elt F)),
    StableHlo.binary main_v1366 main_v1366 main_v1471 (mulf : (⟨S16384, .f32⟩ : BufTy).Contents (Elt F) → (⟨S16384, .f32⟩ : BufTy).Contents (Elt F) → (⟨S16384, .f32⟩ : BufTy).Contents (Elt F)),
    StableHlo.binary main_v1423 main_v1423 main_v1472 (mulf : (⟨S16384, .f32⟩ : BufTy).Contents (Elt F) → (⟨S16384, .f32⟩ : BufTy).Contents (Elt F) → (⟨S16384, .f32⟩ : BufTy).Contents (Elt F)),
    StableHlo.binary main_v272 main_v1451 main_v1473 (addf : (⟨S16384, .f32⟩ : BufTy).Contents (Elt F) → (⟨S16384, .f32⟩ : BufTy).Contents (Elt F) → (⟨S16384, .f32⟩ : BufTy).Contents (Elt F)),
    StableHlo.unary main_v1416 main_v1474 (Host.sin : (⟨S16384, .f32⟩ : BufTy).Contents (Elt F) → (⟨S16384, .f32⟩ : BufTy).Contents (Elt F)),
    StableHlo.binary main_v1323 main_v1366 main_v1475 (subf : (⟨S16384, .f32⟩ : BufTy).Contents (Elt F) → (⟨S16384, .f32⟩ : BufTy).Contents (Elt F) → (⟨S16384, .f32⟩ : BufTy).Contents (Elt F)),
    StableHlo.unary main_v1022 main_v1476 (Host.sin : (⟨S16384, .f32⟩ : BufTy).Contents (Elt F) → (⟨S16384, .f32⟩ : BufTy).Contents (Elt F)),
    StableHlo.unary main_v1476 main_v1477 (Host.cos : (⟨S16384, .f32⟩ : BufTy).Contents (Elt F) → (⟨S16384, .f32⟩ : BufTy).Contents (Elt F)),
    StableHlo.unary main_v1217 main_v1478 (Host.cos : (⟨S16384, .f32⟩ : BufTy).Contents (Elt F) → (⟨S16384, .f32⟩ : BufTy).Contents (Elt F)),
    StableHlo.binary main_v1451 main_v1274 main_v1479 (mulf : (⟨S16384, .f32⟩ : BufTy).Contents (Elt F) → (⟨S16384, .f32⟩ : BufTy).Contents (Elt F) → (⟨S16384, .f32⟩ : BufTy).Contents (Elt F)),
    StableHlo.unary main_v1341 main_v1480 (Host.cos : (⟨S16384, .f32⟩ : BufTy).Contents (Elt F) → (⟨S16384, .f32⟩ : BufTy).Contents (Elt F)),
    StableHlo.binary main_v1149 main_v406 main_v1481 (subf : (⟨S16384, .f32⟩ : BufTy).Contents (Elt F) → (⟨S16384, .f32⟩ : BufTy).Contents (Elt F) → (⟨S16384, .f32⟩ : BufTy).Contents (Elt F)),
    StableHlo.binary main_v1337 main_v1338 main_v1482 (mulf : (⟨S16384, .f32⟩ : BufTy).Contents (Elt F) → (⟨S16384, .f32⟩ : BufTy).Contents (Elt F) → (⟨S16384, .f32⟩ : BufTy).Contents (Elt F)),
    StableHlo.unary main_v1387 main_v1483 (Host.sin : (⟨S16384, .f32⟩ : BufTy).Contents (Elt F) → (⟨S16384, .f32⟩ : BufTy).Contents (Elt F)) ]

theorem part24_eq (d : Dev nD) : main_part24 (F := F) d = seq ops24 := rfl
theorem ops24_sub : (ops24 (F := F)).Forall fun op => op.bufs ⊆ tcRefs τ sig := by line_sub
theorem ops24_fresh : ∀ op ∈ (ops24 (F := F)), op.fresh = ∅ := by line_fresh
theorem ops24_ordered : Cert.Ssa.Ordered 1441 (ops24 (F := F)) := by line_ordered

/-- Window 25 of @main: its operations, positions 1501 to 1560, in order. -/
abbrev ops25 : List (HloOp τ sig (Elt F)) :=
  [ StableHlo.unary main_v842 main_v1484 (Host.negf : (⟨S16384, .f32⟩ : BufTy).Contents (Elt F) → (⟨S16384, .f32⟩ : BufTy).Contents (Elt F)),
    StableHlo.unary main_v1209 main_v1485 (Host.sin : (⟨S16384, .f32⟩ : BufTy).Contents (Elt F) → (⟨S16384, .f32⟩ : BufTy).Contents (Elt F)),
    StableHlo.unary main_v566 main_v1486 (Host.cos : (⟨S16384, .f32⟩ : BufTy).Contents (Elt F) → (⟨S16384, .f32⟩ : BufTy).Contents (Elt F)),
    StableHlo.unary main_v1385 main_v1487 (Host.sin : (⟨S16384, .f32⟩ : BufTy).Contents (Elt F) → (⟨S16384, .f32⟩ : BufTy).Contents (Elt F)),
    StableHlo.unary main_v1361 main_v1488 (Host.negf : (⟨S16384, .f32⟩ : BufTy).Contents (Elt F) → (⟨S16384, .f32⟩ : BufTy).Contents (Elt F)),
    StableHlo.binary main_v1277 main_v1139 main_v1489 (subf : (⟨S16384, .f32⟩ : BufTy).Contents (Elt F) → (⟨S16384, .f32⟩ : BufTy).Contents (Elt F) → (⟨S16384, .f32⟩ : BufTy).Contents (Elt F)),
    StableHlo.unary main_v1394 main_v1490 (Host.cos : (⟨S16384, .f32⟩ : BufTy).Contents (Elt F) → (⟨S16384, .f32⟩ : BufTy).Contents (Elt F)),
    StableHlo.unary main_v531 main_v1491 (Host.sin : (⟨S16384, .f32⟩ : BufTy).Contents (Elt F) → (⟨S16384, .f32⟩ : BufTy).Contents (Elt F)),
    StableHlo.unary main_v1288 main_v1492 (Host.cos : (⟨S16384, .f32⟩ : BufTy).Contents (Elt F) → (⟨S16384, .f32⟩ : BufTy).Contents (Elt F)),
    StableHlo.unary main_v770 main_v1493 (Host.sin : (⟨S16384, .f32⟩ : BufTy).Contents (Elt F) → (⟨S16384, .f32⟩ : BufTy).Contents (Elt F)),
    StableHlo.binary main_v1333 main_v1139 main_v1494 (mulf : (⟨S16384, .f32⟩ : BufTy).Contents (Elt F) → (⟨S16384, .f32⟩ : BufTy).Contents (Elt F) → (⟨S16384, .f32⟩ : BufTy).Contents (Elt F)),
    StableHlo.binary main_v1437 main_v1031 main_v1495 (addf : (⟨S16384, .f32⟩ : BufTy).Contents (Elt F) → (⟨S16384, .f32⟩ : BufTy).Contents (Elt F) → (⟨S16384, .f32⟩ : BufTy).Contents (Elt F)),
    StableHlo.unary main_v1311 main_v1496 (Host.negf : (⟨S16384, .f32⟩ : BufTy).Contents (Elt F) → (⟨S16384, .f32⟩ : BufTy).Contents (Elt F)),
    StableHlo.unary main_v1454 main_v1497 (Host.cos : (⟨S16384, .f32⟩ : BufTy).Contents (Elt F) → (⟨S16384, .f32⟩ : BufTy).Contents (Elt F)),
    StableHlo.unary main_v406 main_v1498 (Host.sin : (⟨S16384, .f32⟩ : BufTy).Contents (Elt F) → (⟨S16384, .f32⟩ : BufTy).Contents (Elt F)),
    StableHlo.unary main_v1048 main_v1499 (Host.sin : (⟨S16384, .f32⟩ : BufTy).Contents (Elt F) → (⟨S16384, .f32⟩ : BufTy).Contents (Elt F)),
    StableHlo.unary main_v1402 main_v1500 (Host.cos : (⟨S16384, .f32⟩ : BufTy).Contents (Elt F) → (⟨S16384, .f32⟩ : BufTy).Contents (Elt F)),
    StableHlo.unary main_v1213 main_v1501 (Host.sin : (⟨S16384, .f32⟩ : BufTy).Contents (Elt F) → (⟨S16384, .f32⟩ : BufTy).Contents (Elt F)),
    StableHlo.unary main_v679 main_v1502 (Host.cos : (⟨S16384, .f32⟩ : BufTy).Contents (Elt F) → (⟨S16384, .f32⟩ : BufTy).Contents (Elt F)),
    StableHlo.unary main_v1080 main_v1503 (Host.sin : (⟨S16384, .f32⟩ : BufTy).Contents (Elt F) → (⟨S16384, .f32⟩ : BufTy).Contents (Elt F)),
    StableHlo.binary main_v1240 main_v1240 main_v1504 (mulf : (⟨S16384, .f32⟩ : BufTy).Contents (Elt F) → (⟨S16384, .f32⟩ : BufTy).Contents (Elt F) → (⟨S16384, .f32⟩ : BufTy).Contents (Elt F)),
    StableHlo.unary main_v235 main_v1505 (Host.sin : (⟨S16384, .f32⟩ : BufTy).Contents (Elt F) → (⟨S16384, .f32⟩ : BufTy).Contents (Elt F)),
    StableHlo.binary main_v1367 main_v1314 main_v1506 (mulf : (⟨S16384, .f32⟩ : BufTy).Contents (Elt F) → (⟨S16384, .f32⟩ : BufTy).Contents (Elt F) → (⟨S16384, .f32⟩ : BufTy).Contents (Elt F)),
    StableHlo.binary main_v1191 main_v1191 main_v1507 (mulf : (⟨S16384, .f32⟩ : BufTy).Contents (Elt F) → (⟨S16384, .f32⟩ : BufTy).Contents (Elt F) → (⟨S16384, .f32⟩ : BufTy).Contents (Elt F)),
    StableHlo.unary main_v1359 main_v1508 (Host.cos : (⟨S16384, .f32⟩ : BufTy).Contents (Elt F) → (⟨S16384, .f32⟩ : BufTy).Contents (Elt F)),
    StableHlo.unary main_v1333 main_v1509 (Host.sin : (⟨S16384, .f32⟩ : BufTy).Contents (Elt F) → (⟨S16384, .f32⟩ : BufTy).Contents (Elt F)),
    StableHlo.binary main_v870 main_v1278 main_v1510 (subf : (⟨S16384, .f32⟩ : BufTy).Contents (Elt F) → (⟨S16384, .f32⟩ : BufTy).Contents (Elt F) → (⟨S16384, .f32⟩ : BufTy).Contents (Elt F)),
    StableHlo.binary main_v1166 main_v1370 main_v1511 (subf : (⟨S16384, .f32⟩ : BufTy).Contents (Elt F) → (⟨S16384, .f32⟩ : BufTy).Contents (Elt F) → (⟨S16384, .f32⟩ : BufTy).Contents (Elt F)),
    StableHlo.binary main_v1399 main_v1349 main_v1512 (addf : (⟨S16384, .f32⟩ : BufTy).Contents (Elt F) → (⟨S16384, .f32⟩ : BufTy).Contents (Elt F) → (⟨S16384, .f32⟩ : BufTy).Contents (Elt F)),
    StableHlo.binary main_v1177 main_v1098 main_v1513 (addf : (⟨S16384, .f32⟩ : BufTy).Contents (Elt F) → (⟨S16384, .f32⟩ : BufTy).Contents (Elt F) → (⟨S16384, .f32⟩ : BufTy).Contents (Elt F)),
    StableHlo.unary main_v1468 main_v1514 (Host.cos : (⟨S16384, .f32⟩ : BufTy).Contents (Elt F) → (⟨S16384, .f32⟩ : BufTy).Contents (Elt F)),
    StableHlo.unary main_v872 main_v1515 (Host.cos : (⟨S16384, .f32⟩ : BufTy).Contents (Elt F) → (⟨S16384, .f32⟩ : BufTy).Contents (Elt F)),
    StableHlo.unary main_v1383 main_v1516 (Host.negf : (⟨S16384, .f32⟩ : BufTy).Contents (Elt F) → (⟨S16384, .f32⟩ : BufTy).Contents (Elt F)),
    StableHlo.unary main_v1385 main_v1517 (Host.sin : (⟨S16384, .f32⟩ : BufTy).Contents (Elt F) → (⟨S16384, .f32⟩ : BufTy).Contents (Elt F)),
    StableHlo.binary main_v744 main_v1487 main_v1518 (addf : (⟨S16384, .f32⟩ : BufTy).Contents (Elt F) → (⟨S16384, .f32⟩ : BufTy).Contents (Elt F) → (⟨S16384, .f32⟩ : BufTy).Contents (Elt F)),
    StableHlo.unary main_v1420 main_v1519 (Host.cos : (⟨S16384, .f32⟩ : BufTy).Contents (Elt F) → (⟨S16384, .f32⟩ : BufTy).Contents (Elt F)),
    StableHlo.unary main_v1470 main_v1520 (Host.sin : (⟨S16384, .f32⟩ : BufTy).Contents (Elt F) → (⟨S16384, .f32⟩ : BufTy).Contents (Elt F)),
    StableHlo.binary main_v668 main_v744 main_v1521 (mulf : (⟨S16384, .f32⟩ : BufTy).Contents (Elt F) → (⟨S16384, .f32⟩ : BufTy).Contents (Elt F) → (⟨S16384, .f32⟩ : BufTy).Contents (Elt F)),
    StableHlo.binary main_v1331 main_v1323 main_v1522 (mulf : (⟨S16384, .f32⟩ : BufTy).Contents (Elt F) → (⟨S16384, .f32⟩ : BufTy).Contents (Elt F) → (⟨S16384, .f32⟩ : BufTy).Contents (Elt F)),
    StableHlo.binary main_v1431 main_v1462 main_v1523 (addf : (⟨S16384, .f32⟩ : BufTy).Contents (Elt F) → (⟨S16384, .f32⟩ : BufTy).Contents (Elt F) → (⟨S16384, .f32⟩ : BufTy).Contents (Elt F)),
    StableHlo.binary main_v881 main_v1218 main_v1524 (addf : (⟨S16384, .f32⟩ : BufTy).Contents (Elt F) → (⟨S16384, .f32⟩ : BufTy).Contents (Elt F) → (⟨S16384, .f32⟩ : BufTy).Contents (Elt F)),
    StableHlo.unary main_v1155 main_v1525 (Host.sin : (⟨S16384, .f32⟩ : BufTy).Contents (Elt F) → (⟨S16384, .f32⟩ : BufTy).Contents (Elt F)),
    StableHlo.binary main_v1496 main_v1496 main_v1526 (mulf : (⟨S16384, .f32⟩ : BufTy).Contents (Elt F) → (⟨S16384, .f32⟩ : BufTy).Contents (Elt F) → (⟨S16384, .f32⟩ : BufTy).Contents (Elt F)),
    StableHlo.binary main_v811 main_v811 main_v1527 (mulf : (⟨S16384, .f32⟩ : BufTy).Contents (Elt F) → (⟨S16384, .f32⟩ : BufTy).Contents (Elt F) → (⟨S16384, .f32⟩ : BufTy).Contents (Elt F)),
    StableHlo.binary main_v1511 main_v1165 main_v1528 (subf : (⟨S16384, .f32⟩ : BufTy).Contents (Elt F) → (⟨S16384, .f32⟩ : BufTy).Contents (Elt F) → (⟨S16384, .f32⟩ : BufTy).Contents (Elt F)),
    StableHlo.binary main_v1022 main_v1507 main_v1529 (mulf : (⟨S16384, .f32⟩ : BufTy).Contents (Elt F) → (⟨S16384, .f32⟩ : BufTy).Contents (Elt F) → (⟨S16384, .f32⟩ : BufTy).Contents (Elt F)),
    StableHlo.binary main_v770 main_v1051 main_v1530 (subf : (⟨S16384, .f32⟩ : BufTy).Contents (Elt F) → (⟨S16384, .f32⟩ : BufTy).Contents (Elt F) → (⟨S16384, .f32⟩ : BufTy).Contents (Elt F)),
    StableHlo.unary main_v1119 main_v1531 (Host.cos : (⟨S16384, .f32⟩ : BufTy).Contents (Elt F) → (⟨S16384, .f32⟩ : BufTy).Contents (Elt F)),
    StableHlo.binary main_v1479 main_v1359 main_v1532 (subf : (⟨S16384, .f32⟩ : BufTy).Contents (Elt F) → (⟨S16384, .f32⟩ : BufTy).Contents (Elt F) → (⟨S16384, .f32⟩ : BufTy).Contents (Elt F)),
    StableHlo.binary main_v1421 main_v668 main_v1533 (subf : (⟨S16384, .f32⟩ : BufTy).Contents (Elt F) → (⟨S16384, .f32⟩ : BufTy).Contents (Elt F) → (⟨S16384, .f32⟩ : BufTy).Contents (Elt F)),
    StableHlo.unary main_v1022 main_v1534 (Host.sin : (⟨S16384, .f32⟩ : BufTy).Contents (Elt F) → (⟨S16384, .f32⟩ : BufTy).Contents (Elt F)),
    StableHlo.unary main_v1519 main_v1535 (Host.sin : (⟨S16384, .f32⟩ : BufTy).Contents (Elt F) → (⟨S16384, .f32⟩ : BufTy).Contents (Elt F)),
    StableHlo.unary main_v1034 main_v1536 (Host.sin : (⟨S16384, .f32⟩ : BufTy).Contents (Elt F) → (⟨S16384, .f32⟩ : BufTy).Contents (Elt F)),
    StableHlo.unary main_v631 main_v1537 (Host.cos : (⟨S16384, .f32⟩ : BufTy).Contents (Elt F) → (⟨S16384, .f32⟩ : BufTy).Contents (Elt F)),
    StableHlo.unary main_v639 main_v1538 (Host.cos : (⟨S16384, .f32⟩ : BufTy).Contents (Elt F) → (⟨S16384, .f32⟩ : BufTy).Contents (Elt F)),
    StableHlo.binary main_v1022 main_v1392 main_v1539 (mulf : (⟨S16384, .f32⟩ : BufTy).Contents (Elt F) → (⟨S16384, .f32⟩ : BufTy).Contents (Elt F) → (⟨S16384, .f32⟩ : BufTy).Contents (Elt F)),
    StableHlo.unary main_v1404 main_v1540 (Host.sin : (⟨S16384, .f32⟩ : BufTy).Contents (Elt F) → (⟨S16384, .f32⟩ : BufTy).Contents (Elt F)),
    StableHlo.unary main_v1204 main_v1541 (Host.cos : (⟨S16384, .f32⟩ : BufTy).Contents (Elt F) → (⟨S16384, .f32⟩ : BufTy).Contents (Elt F)),
    StableHlo.binary main_v1437 main_v1450 main_v1542 (subf : (⟨S16384, .f32⟩ : BufTy).Contents (Elt F) → (⟨S16384, .f32⟩ : BufTy).Contents (Elt F) → (⟨S16384, .f32⟩ : BufTy).Contents (Elt F)),
    StableHlo.unary main_v1283 main_v1543 (Host.cos : (⟨S16384, .f32⟩ : BufTy).Contents (Elt F) → (⟨S16384, .f32⟩ : BufTy).Contents (Elt F)) ]

theorem part25_eq (d : Dev nD) : main_part25 (F := F) d = seq ops25 := rfl
theorem ops25_sub : (ops25 (F := F)).Forall fun op => op.bufs ⊆ tcRefs τ sig := by line_sub
theorem ops25_fresh : ∀ op ∈ (ops25 (F := F)), op.fresh = ∅ := by line_fresh
theorem ops25_ordered : Cert.Ssa.Ordered 1501 (ops25 (F := F)) := by line_ordered

/-- Window 26 of @main: its operations, positions 1561 to 1620, in order. -/
abbrev ops26 : List (HloOp τ sig (Elt F)) :=
  [ StableHlo.binary main_v1421 main_v1166 main_v1544 (subf : (⟨S16384, .f32⟩ : BufTy).Contents (Elt F) → (⟨S16384, .f32⟩ : BufTy).Contents (Elt F) → (⟨S16384, .f32⟩ : BufTy).Contents (Elt F)),
    StableHlo.binary main_v1453 main_v1462 main_v1545 (subf : (⟨S16384, .f32⟩ : BufTy).Contents (Elt F) → (⟨S16384, .f32⟩ : BufTy).Contents (Elt F) → (⟨S16384, .f32⟩ : BufTy).Contents (Elt F)),
    StableHlo.unary main_v1529 main_v1546 (Host.cos : (⟨S16384, .f32⟩ : BufTy).Contents (Elt F) → (⟨S16384, .f32⟩ : BufTy).Contents (Elt F)),
    StableHlo.binary main_v1382 main_v566 main_v1547 (mulf : (⟨S16384, .f32⟩ : BufTy).Contents (Elt F) → (⟨S16384, .f32⟩ : BufTy).Contents (Elt F) → (⟨S16384, .f32⟩ : BufTy).Contents (Elt F)),
    StableHlo.unary main_v1506 main_v1548 (Host.cos : (⟨S16384, .f32⟩ : BufTy).Contents (Elt F) → (⟨S16384, .f32⟩ : BufTy).Contents (Elt F)),
    StableHlo.binary main_v1484 main_v1489 main_v1549 (addf : (⟨S16384, .f32⟩ : BufTy).Contents (Elt F) → (⟨S16384, .f32⟩ : BufTy).Contents (Elt F) → (⟨S16384, .f32⟩ : BufTy).Contents (Elt F)),
    StableHlo.binary main_v1316 main_v1316 main_v1550 (mulf : (⟨S16384, .f32⟩ : BufTy).Contents (Elt F) → (⟨S16384, .f32⟩ : BufTy).Contents (Elt F) → (⟨S16384, .f32⟩ : BufTy).Contents (Elt F)),
    StableHlo.unary main_v1244 main_v1551 (Host.sin : (⟨S16384, .f32⟩ : BufTy).Contents (Elt F) → (⟨S16384, .f32⟩ : BufTy).Contents (Elt F)),
    StableHlo.unary main_v1382 main_v1552 (Host.cos : (⟨S16384, .f32⟩ : BufTy).Contents (Elt F) → (⟨S16384, .f32⟩ : BufTy).Contents (Elt F)),
    StableHlo.unary main_v1462 main_v1553 (Host.cos : (⟨S16384, .f32⟩ : BufTy).Contents (Elt F) → (⟨S16384, .f32⟩ : BufTy).Contents (Elt F)),
    StableHlo.binary main_v1212 main_v1212 main_v1554 (mulf : (⟨S16384, .f32⟩ : BufTy).Contents (Elt F) → (⟨S16384, .f32⟩ : BufTy).Contents (Elt F) → (⟨S16384, .f32⟩ : BufTy).Contents (Elt F)),
    StableHlo.binary main_v1520 main_v1080 main_v1555 (subf : (⟨S16384, .f32⟩ : BufTy).Contents (Elt F) → (⟨S16384, .f32⟩ : BufTy).Contents (Elt F) → (⟨S16384, .f32⟩ : BufTy).Contents (Elt F)),
    StableHlo.unary main_v1395 main_v1556 (Host.negf : (⟨S16384, .f32⟩ : BufTy).Contents (Elt F) → (⟨S16384, .f32⟩ : BufTy).Contents (Elt F)),
    StableHlo.binary main_v1489 main_v1109 main_v1557 (subf : (⟨S16384, .f32⟩ : BufTy).Contents (Elt F) → (⟨S16384, .f32⟩ : BufTy).Contents (Elt F) → (⟨S16384, .f32⟩ : BufTy).Contents (Elt F)),
    StableHlo.binary main_v1510 main_v1012 main_v1558 (subf : (⟨S16384, .f32⟩ : BufTy).Contents (Elt F) → (⟨S16384, .f32⟩ : BufTy).Contents (Elt F) → (⟨S16384, .f32⟩ : BufTy).Contents (Elt F)),
    StableHlo.unary main_v1351 main_v1559 (Host.cos : (⟨S16384, .f32⟩ : BufTy).Contents (Elt F) → (⟨S16384, .f32⟩ : BufTy).Contents (Elt F)),
    StableHlo.binary main_v1119 main_v1236 main_v1560 (subf : (⟨S16384, .f32⟩ : BufTy).Contents (Elt F) → (⟨S16384, .f32⟩ : BufTy).Contents (Elt F) → (⟨S16384, .f32⟩ : BufTy).Contents (Elt F)),
    StableHlo.unary main_v1475 main_v1561 (Host.sin : (⟨S16384, .f32⟩ : BufTy).Contents (Elt F) → (⟨S16384, .f32⟩ : BufTy).Contents (Elt F)),
    StableHlo.binary main_v1087 main_v777 main_v1562 (mulf : (⟨S16384, .f32⟩ : BufTy).Contents (Elt F) → (⟨S16384, .f32⟩ : BufTy).Contents (Elt F) → (⟨S16384, .f32⟩ : BufTy).Contents (Elt F)),
    StableHlo.unary main_v1430 main_v1563 (Host.sin : (⟨S16384, .f32⟩ : BufTy).Contents (Elt F) → (⟨S16384, .f32⟩ : BufTy).Contents (Elt F)),
    StableHlo.binary main_v668 main_v1504 main_v1564 (addf : (⟨S16384, .f32⟩ : BufTy).Contents (Elt F) → (⟨S16384, .f32⟩ : BufTy).Contents (Elt F) → (⟨S16384, .f32⟩ : BufTy).Contents (Elt F)),
    StableHlo.unary main_v1177 main_v1565 (Host.sin : (⟨S16384, .f32⟩ : BufTy).Contents (Elt F) → (⟨S16384, .f32⟩ : BufTy).Contents (Elt F)),
    StableHlo.unary main_v1315 main_v1566 (Host.cos : (⟨S16384, .f32⟩ : BufTy).Contents (Elt F) → (⟨S16384, .f32⟩ : BufTy).Contents (Elt F)),
    StableHlo.binary main_v1482 main_v1337 main_v1567 (mulf : (⟨S16384, .f32⟩ : BufTy).Contents (Elt F) → (⟨S16384, .f32⟩ : BufTy).Contents (Elt F) → (⟨S16384, .f32⟩ : BufTy).Contents (Elt F)),
    StableHlo.binary main_v1556 main_v1292 main_v1568 (addf : (⟨S16384, .f32⟩ : BufTy).Contents (Elt F) → (⟨S16384, .f32⟩ : BufTy).Contents (Elt F) → (⟨S16384, .f32⟩ : BufTy).Contents (Elt F)),
    StableHlo.binary main_v1311 main_v1311 main_v1569 (mulf : (⟨S16384, .f32⟩ : BufTy).Contents (Elt F) → (⟨S16384, .f32⟩ : BufTy).Contents (Elt F) → (⟨S16384, .f32⟩ : BufTy).Contents (Elt F)),
    StableHlo.unary main_v1005 main_v1570 (Host.sin : (⟨S16384, .f32⟩ : BufTy).Contents (Elt F) → (⟨S16384, .f32⟩ : BufTy).Contents (Elt F)),
    StableHlo.unary main_v1519 main_v1571 (Host.sin : (⟨S16384, .f32⟩ : BufTy).Contents (Elt F) → (⟨S16384, .f32⟩ : BufTy).Contents (Elt F)),
    StableHlo.binary main_v1456 main_v1456 main_v1572 (mulf : (⟨S16384, .f32⟩ : BufTy).Contents (Elt F) → (⟨S16384, .f32⟩ : BufTy).Contents (Elt F) → (⟨S16384, .f32⟩ : BufTy).Contents (Elt F)),
    StableHlo.binary main_v1494 main_v759 main_v1573 (subf : (⟨S16384, .f32⟩ : BufTy).Contents (Elt F) → (⟨S16384, .f32⟩ : BufTy).Contents (Elt F) → (⟨S16384, .f32⟩ : BufTy).Contents (Elt F)),
    StableHlo.unary main_v1549 main_v1574 (Host.sin : (⟨S16384, .f32⟩ : BufTy).Contents (Elt F) → (⟨S16384, .f32⟩ : BufTy).Contents (Elt F)),
    StableHlo.unary main_v1094 main_v1575 (Host.cos : (⟨S16384, .f32⟩ : BufTy).Contents (Elt F) → (⟨S16384, .f32⟩ : BufTy).Contents (Elt F)),
    StableHlo.unary main_v1543 main_v1576 (Host.sin : (⟨S16384, .f32⟩ : BufTy).Contents (Elt F) → (⟨S16384, .f32⟩ : BufTy).Contents (Elt F)),
    StableHlo.unary main_v975 main_v1577 (Host.sin : (⟨S16384, .f32⟩ : BufTy).Contents (Elt F) → (⟨S16384, .f32⟩ : BufTy).Contents (Elt F)),
    StableHlo.unary main_v811 main_v1578 (Host.sin : (⟨S16384, .f32⟩ : BufTy).Contents (Elt F) → (⟨S16384, .f32⟩ : BufTy).Contents (Elt F)),
    StableHlo.unary main_v1397 main_v1579 (Host.cos : (⟨S16384, .f32⟩ : BufTy).Contents (Elt F) → (⟨S16384, .f32⟩ : BufTy).Contents (Elt F)),
    StableHlo.unary main_v1526 main_v1580 (Host.cos : (⟨S16384, .f32⟩ : BufTy).Contents (Elt F) → (⟨S16384, .f32⟩ : BufTy).Contents (Elt F)),
    StableHlo.unary main_v1367 main_v1581 (Host.cos : (⟨S16384, .f32⟩ : BufTy).Contents (Elt F) → (⟨S16384, .f32⟩ : BufTy).Contents (Elt F)),
    StableHlo.binary main_v1351 main_v1351 main_v1582 (mulf : (⟨S16384, .f32⟩ : BufTy).Contents (Elt F) → (⟨S16384, .f32⟩ : BufTy).Contents (Elt F) → (⟨S16384, .f32⟩ : BufTy).Contents (Elt F)),
    StableHlo.binary main_v1581 main_v1487 main_v1583 (subf : (⟨S16384, .f32⟩ : BufTy).Contents (Elt F) → (⟨S16384, .f32⟩ : BufTy).Contents (Elt F) → (⟨S16384, .f32⟩ : BufTy).Contents (Elt F)),
    StableHlo.binary main_v1273 main_v1473 main_v1584 (addf : (⟨S16384, .f32⟩ : BufTy).Contents (Elt F) → (⟨S16384, .f32⟩ : BufTy).Contents (Elt F) → (⟨S16384, .f32⟩ : BufTy).Contents (Elt F)),
    StableHlo.binary main_v1545 main_v1506 main_v1585 (addf : (⟨S16384, .f32⟩ : BufTy).Contents (Elt F) → (⟨S16384, .f32⟩ : BufTy).Contents (Elt F) → (⟨S16384, .f32⟩ : BufTy).Contents (Elt F)),
    StableHlo.binary main_v1580 main_v1075 main_v1586 (mulf : (⟨S16384, .f32⟩ : BufTy).Contents (Elt F) → (⟨S16384, .f32⟩ : BufTy).Contents (Elt F) → (⟨S16384, .f32⟩ : BufTy).Contents (Elt F)),
    StableHlo.unary main_v1311 main_v1587 (Host.cos : (⟨S16384, .f32⟩ : BufTy).Contents (Elt F) → (⟨S16384, .f32⟩ : BufTy).Contents (Elt F)),
    StableHlo.unary main_v1442 main_v1588 (Host.cos : (⟨S16384, .f32⟩ : BufTy).Contents (Elt F) → (⟨S16384, .f32⟩ : BufTy).Contents (Elt F)),
    StableHlo.binary main_v1461 main_v708 main_v1589 (subf : (⟨S16384, .f32⟩ : BufTy).Contents (Elt F) → (⟨S16384, .f32⟩ : BufTy).Contents (Elt F) → (⟨S16384, .f32⟩ : BufTy).Contents (Elt F)),
    StableHlo.unary main_v1373 main_v1590 (Host.sin : (⟨S16384, .f32⟩ : BufTy).Contents (Elt F) → (⟨S16384, .f32⟩ : BufTy).Contents (Elt F)),
    StableHlo.binary main_v1005 main_v1005 main_v1591 (mulf : (⟨S16384, .f32⟩ : BufTy).Contents (Elt F) → (⟨S16384, .f32⟩ : BufTy).Contents (Elt F) → (⟨S16384, .f32⟩ : BufTy).Contents (Elt F)),
    StableHlo.unary main_v1338 main_v1592 (Host.cos : (⟨S16384, .f32⟩ : BufTy).Contents (Elt F) → (⟨S16384, .f32⟩ : BufTy).Contents (Elt F)),
    StableHlo.unary main_v1550 main_v1593 (Host.sin : (⟨S16384, .f32⟩ : BufTy).Contents (Elt F) → (⟨S16384, .f32⟩ : BufTy).Contents (Elt F)),
    StableHlo.unary main_v1536 main_v1594 (Host.sin : (⟨S16384, .f32⟩ : BufTy).Contents (Elt F) → (⟨S16384, .f32⟩ : BufTy).Contents (Elt F)),
    StableHlo.binary main_v1395 main_v631 main_v1595 (subf : (⟨S16384, .f32⟩ : BufTy).Contents (Elt F) → (⟨S16384, .f32⟩ : BufTy).Contents (Elt F) → (⟨S16384, .f32⟩ : BufTy).Contents (Elt F)),
    StableHlo.unary main_v1450 main_v1596 (Host.cos : (⟨S16384, .f32⟩ : BufTy).Contents (Elt F) → (⟨S16384, .f32⟩ : BufTy).Contents (Elt F)),
    StableHlo.binary main_v1584 main_v1588 main_v1597 (subf : (⟨S16384, .f32⟩ : BufTy).Contents (Elt F) → (⟨S16384, .f32⟩ : BufTy).Contents (Elt F) → (⟨S16384, .f32⟩ : BufTy).Contents (Elt F)),
    StableHlo.binary main_v1514 main_v1507 main_v1598 (addf : (⟨S16384, .f32⟩ : BufTy).Contents (Elt F) → (⟨S16384, .f32⟩ : BufTy).Contents (Elt F) → (⟨S16384, .f32⟩ : BufTy).Contents (Elt F)),
    StableHlo.binary main_v1087 main_v1236 main_v1599 (subf : (⟨S16384, .f32⟩ : BufTy).Contents (Elt F) → (⟨S16384, .f32⟩ : BufTy).Contents (Elt F) → (⟨S16384, .f32⟩ : BufTy).Contents (Elt F)),
    StableHlo.unary main_v1119 main_v1600 (Host.cos : (⟨S16384, .f32⟩ : BufTy).Contents (Elt F) → (⟨S16384, .f32⟩ : BufTy).Contents (Elt F)),
    StableHlo.unary main_v1580 main_v1601 (Host.sin : (⟨S16384, .f32⟩ : BufTy).Contents (Elt F) → (⟨S16384, .f32⟩ : BufTy).Contents (Elt F)),
    StableHlo.unary main_v1391 main_v1602 (Host.sin : (⟨S16384, .f32⟩ : BufTy).Contents (Elt F) → (⟨S16384, .f32⟩ : BufTy).Contents (Elt F)),
    StableHlo.unary main_v615 main_v1603 (Host.cos : (⟨S16384, .f32⟩ : BufTy).Contents (Elt F) → (⟨S16384, .f32⟩ : BufTy).Contents (Elt F)) ]

theorem part26_eq (d : Dev nD) : main_part26 (F := F) d = seq ops26 := rfl
theorem ops26_sub : (ops26 (F := F)).Forall fun op => op.bufs ⊆ tcRefs τ sig := by line_sub
theorem ops26_fresh : ∀ op ∈ (ops26 (F := F)), op.fresh = ∅ := by line_fresh
theorem ops26_ordered : Cert.Ssa.Ordered 1561 (ops26 (F := F)) := by line_ordered

/-- Window 27 of @main: its operations, positions 1621 to 1680, in order. -/
abbrev ops27 : List (HloOp τ sig (Elt F)) :=
  [ StableHlo.unary main_v566 main_v1604 (Host.sin : (⟨S16384, .f32⟩ : BufTy).Contents (Elt F) → (⟨S16384, .f32⟩ : BufTy).Contents (Elt F)),
    StableHlo.unary main_v1263 main_v1605 (Host.sin : (⟨S16384, .f32⟩ : BufTy).Contents (Elt F) → (⟨S16384, .f32⟩ : BufTy).Contents (Elt F)),
    StableHlo.unary main_v708 main_v1606 (Host.cos : (⟨S16384, .f32⟩ : BufTy).Contents (Elt F) → (⟨S16384, .f32⟩ : BufTy).Contents (Elt F)),
    StableHlo.unary main_v1496 main_v1607 (Host.sin : (⟨S16384, .f32⟩ : BufTy).Contents (Elt F) → (⟨S16384, .f32⟩ : BufTy).Contents (Elt F)),
    StableHlo.unary main_v668 main_v1608 (Host.cos : (⟨S16384, .f32⟩ : BufTy).Contents (Elt F) → (⟨S16384, .f32⟩ : BufTy).Contents (Elt F)),
    StableHlo.binary main_v1222 main_v1164 main_v1609 (mulf : (⟨S16384, .f32⟩ : BufTy).Contents (Elt F) → (⟨S16384, .f32⟩ : BufTy).Contents (Elt F) → (⟨S16384, .f32⟩ : BufTy).Contents (Elt F)),
    StableHlo.binary main_v1561 main_v1263 main_v1610 (addf : (⟨S16384, .f32⟩ : BufTy).Contents (Elt F) → (⟨S16384, .f32⟩ : BufTy).Contents (Elt F) → (⟨S16384, .f32⟩ : BufTy).Contents (Elt F)),
    StableHlo.unary main_v1552 main_v1611 (Host.cos : (⟨S16384, .f32⟩ : BufTy).Contents (Elt F) → (⟨S16384, .f32⟩ : BufTy).Contents (Elt F)),
    StableHlo.binary main_v1031 main_v1560 main_v1612 (subf : (⟨S16384, .f32⟩ : BufTy).Contents (Elt F) → (⟨S16384, .f32⟩ : BufTy).Contents (Elt F) → (⟨S16384, .f32⟩ : BufTy).Contents (Elt F)),
    StableHlo.unary main_v975 main_v1613 (Host.sin : (⟨S16384, .f32⟩ : BufTy).Contents (Elt F) → (⟨S16384, .f32⟩ : BufTy).Contents (Elt F)),
    StableHlo.unary main_v1348 main_v1614 (Host.cos : (⟨S16384, .f32⟩ : BufTy).Contents (Elt F) → (⟨S16384, .f32⟩ : BufTy).Contents (Elt F)),
    StableHlo.binary main_v1444 main_v1425 main_v1615 (mulf : (⟨S16384, .f32⟩ : BufTy).Contents (Elt F) → (⟨S16384, .f32⟩ : BufTy).Contents (Elt F) → (⟨S16384, .f32⟩ : BufTy).Contents (Elt F)),
    StableHlo.binary main_v1587 main_v1298 main_v1616 (subf : (⟨S16384, .f32⟩ : BufTy).Contents (Elt F) → (⟨S16384, .f32⟩ : BufTy).Contents (Elt F) → (⟨S16384, .f32⟩ : BufTy).Contents (Elt F)),
    StableHlo.unary main_v1471 main_v1617 (Host.cos : (⟨S16384, .f32⟩ : BufTy).Contents (Elt F) → (⟨S16384, .f32⟩ : BufTy).Contents (Elt F)),
    StableHlo.unary main_v1094 main_v1618 (Host.sin : (⟨S16384, .f32⟩ : BufTy).Contents (Elt F) → (⟨S16384, .f32⟩ : BufTy).Contents (Elt F)),
    StableHlo.binary main_v1094 main_v1042 main_v1619 (subf : (⟨S16384, .f32⟩ : BufTy).Contents (Elt F) → (⟨S16384, .f32⟩ : BufTy).Contents (Elt F) → (⟨S16384, .f32⟩ : BufTy).Contents (Elt F)),
    StableHlo.unary main_v1134 main_v1620 (Host.sin : (⟨S16384, .f32⟩ : BufTy).Contents (Elt F) → (⟨S16384, .f32⟩ : BufTy).Contents (Elt F)),
    StableHlo.binary main_v1218 main_v1218 main_v1621 (mulf : (⟨S16384, .f32⟩ : BufTy).Contents (Elt F) → (⟨S16384, .f32⟩ : BufTy).Contents (Elt F) → (⟨S16384, .f32⟩ : BufTy).Contents (Elt F)),
    StableHlo.unary main_v1087 main_v1622 (Host.sin : (⟨S16384, .f32⟩ : BufTy).Contents (Elt F) → (⟨S16384, .f32⟩ : BufTy).Contents (Elt F)),
    StableHlo.binary main_v1525 main_v1487 main_v1623 (addf : (⟨S16384, .f32⟩ : BufTy).Contents (Elt F) → (⟨S16384, .f32⟩ : BufTy).Contents (Elt F) → (⟨S16384, .f32⟩ : BufTy).Contents (Elt F)),
    StableHlo.unary main_v777 main_v1624 (Host.sin : (⟨S16384, .f32⟩ : BufTy).Contents (Elt F) → (⟨S16384, .f32⟩ : BufTy).Contents (Elt F)),
    StableHlo.unary main_v1292 main_v1625 (Host.sin : (⟨S16384, .f32⟩ : BufTy).Contents (Elt F) → (⟨S16384, .f32⟩ : BufTy).Contents (Elt F)),
    StableHlo.binary main_v615 main_v1543 main_v1626 (addf : (⟨S16384, .f32⟩ : BufTy).Contents (Elt F) → (⟨S16384, .f32⟩ : BufTy).Contents (Elt F) → (⟨S16384, .f32⟩ : BufTy).Contents (Elt F)),
    StableHlo.binary main_v1348 main_v1597 main_v1627 (mulf : (⟨S16384, .f32⟩ : BufTy).Contents (Elt F) → (⟨S16384, .f32⟩ : BufTy).Contents (Elt F) → (⟨S16384, .f32⟩ : BufTy).Contents (Elt F)),
    StableHlo.unary main_v1268 main_v1628 (Host.sin : (⟨S16384, .f32⟩ : BufTy).Contents (Elt F) → (⟨S16384, .f32⟩ : BufTy).Contents (Elt F)),
    StableHlo.unary main_v1609 main_v1629 (Host.cos : (⟨S16384, .f32⟩ : BufTy).Contents (Elt F) → (⟨S16384, .f32⟩ : BufTy).Contents (Elt F)),
    StableHlo.unary main_v1581 main_v1630 (Host.cos : (⟨S16384, .f32⟩ : BufTy).Contents (Elt F) → (⟨S16384, .f32⟩ : BufTy).Contents (Elt F)),
    StableHlo.unary main_v1085 main_v1631 (Host.sin : (⟨S16384, .f32⟩ : BufTy).Contents (Elt F) → (⟨S16384, .f32⟩ : BufTy).Contents (Elt F)),
    StableHlo.unary main_v1532 main_v1632 (Host.sin : (⟨S16384, .f32⟩ : BufTy).Contents (Elt F) → (⟨S16384, .f32⟩ : BufTy).Contents (Elt F)),
    StableHlo.unary main_v1610 main_v1633 (Host.cos : (⟨S16384, .f32⟩ : BufTy).Contents (Elt F) → (⟨S16384, .f32⟩ : BufTy).Contents (Elt F)),
    StableHlo.binary main_v668 main_v1590 main_v1634 (subf : (⟨S16384, .f32⟩ : BufTy).Contents (Elt F) → (⟨S16384, .f32⟩ : BufTy).Contents (Elt F) → (⟨S16384, .f32⟩ : BufTy).Contents (Elt F)),
    StableHlo.binary main_v531 main_v1012 main_v1635 (mulf : (⟨S16384, .f32⟩ : BufTy).Contents (Elt F) → (⟨S16384, .f32⟩ : BufTy).Contents (Elt F) → (⟨S16384, .f32⟩ : BufTy).Contents (Elt F)),
    StableHlo.unary main_v1042 main_v1636 (Host.sin : (⟨S16384, .f32⟩ : BufTy).Contents (Elt F) → (⟨S16384, .f32⟩ : BufTy).Contents (Elt F)),
    StableHlo.binary main_v1263 main_v1545 main_v1637 (addf : (⟨S16384, .f32⟩ : BufTy).Contents (Elt F) → (⟨S16384, .f32⟩ : BufTy).Contents (Elt F) → (⟨S16384, .f32⟩ : BufTy).Contents (Elt F)),
    StableHlo.unary main_v1000 main_v1638 (Host.cos : (⟨S16384, .f32⟩ : BufTy).Contents (Elt F) → (⟨S16384, .f32⟩ : BufTy).Contents (Elt F)),
    StableHlo.unary main_v1303 main_v1639 (Host.cos : (⟨S16384, .f32⟩ : BufTy).Contents (Elt F) → (⟨S16384, .f32⟩ : BufTy).Contents (Elt F)),
    StableHlo.unary main_v1133 main_v1640 (Host.sin : (⟨S16384, .f32⟩ : BufTy).Contents (Elt F) → (⟨S16384, .f32⟩ : BufTy).Contents (Elt F)),
    StableHlo.binary main_v1504 main_v1534 main_v1641 (subf : (⟨S16384, .f32⟩ : BufTy).Contents (Elt F) → (⟨S16384, .f32⟩ : BufTy).Contents (Elt F) → (⟨S16384, .f32⟩ : BufTy).Contents (Elt F)),
    StableHlo.binary main_v1260 main_v1348 main_v1642 (subf : (⟨S16384, .f32⟩ : BufTy).Contents (Elt F) → (⟨S16384, .f32⟩ : BufTy).Contents (Elt F) → (⟨S16384, .f32⟩ : BufTy).Contents (Elt F)),
    StableHlo.binary main_v1133 main_v1012 main_v1643 (subf : (⟨S16384, .f32⟩ : BufTy).Contents (Elt F) → (⟨S16384, .f32⟩ : BufTy).Contents (Elt F) → (⟨S16384, .f32⟩ : BufTy).Contents (Elt F)),
    StableHlo.binary main_v1412 main_v1415 main_v1644 (addf : (⟨S16384, .f32⟩ : BufTy).Contents (Elt F) → (⟨S16384, .f32⟩ : BufTy).Contents (Elt F) → (⟨S16384, .f32⟩ : BufTy).Contents (Elt F)),
    StableHlo.binary main_v1503 main_v1554 main_v1645 (subf : (⟨S16384, .f32⟩ : BufTy).Contents (Elt F) → (⟨S16384, .f32⟩ : BufTy).Contents (Elt F) → (⟨S16384, .f32⟩ : BufTy).Contents (Elt F)),
    StableHlo.binary main_v737 main_v1548 main_v1646 (addf : (⟨S16384, .f32⟩ : BufTy).Contents (Elt F) → (⟨S16384, .f32⟩ : BufTy).Contents (Elt F) → (⟨S16384, .f32⟩ : BufTy).Contents (Elt F)),
    StableHlo.unary main_v272 main_v1647 (Host.sin : (⟨S16384, .f32⟩ : BufTy).Contents (Elt F) → (⟨S16384, .f32⟩ : BufTy).Contents (Elt F)),
    StableHlo.binary main_v1174 main_v1382 main_v1648 (mulf : (⟨S16384, .f32⟩ : BufTy).Contents (Elt F) → (⟨S16384, .f32⟩ : BufTy).Contents (Elt F) → (⟨S16384, .f32⟩ : BufTy).Contents (Elt F)),
    StableHlo.unary main_v1630 main_v1649 (Host.sin : (⟨S16384, .f32⟩ : BufTy).Contents (Elt F) → (⟨S16384, .f32⟩ : BufTy).Contents (Elt F)),
    StableHlo.binary main_v1644 main_v600 main_v1650 (mulf : (⟨S16384, .f32⟩ : BufTy).Contents (Elt F) → (⟨S16384, .f32⟩ : BufTy).Contents (Elt F) → (⟨S16384, .f32⟩ : BufTy).Contents (Elt F)),
    StableHlo.unary main_v1548 main_v1651 (Host.cos : (⟨S16384, .f32⟩ : BufTy).Contents (Elt F) → (⟨S16384, .f32⟩ : BufTy).Contents (Elt F)),
    StableHlo.binary main_v1366 main_v1618 main_v1652 (subf : (⟨S16384, .f32⟩ : BufTy).Contents (Elt F) → (⟨S16384, .f32⟩ : BufTy).Contents (Elt F) → (⟨S16384, .f32⟩ : BufTy).Contents (Elt F)),
    StableHlo.unary main_v1164 main_v1653 (Host.sin : (⟨S16384, .f32⟩ : BufTy).Contents (Elt F) → (⟨S16384, .f32⟩ : BufTy).Contents (Elt F)),
    StableHlo.unary main_v631 main_v1654 (Host.cos : (⟨S16384, .f32⟩ : BufTy).Contents (Elt F) → (⟨S16384, .f32⟩ : BufTy).Contents (Elt F)),
    StableHlo.binary main_v1580 main_v1456 main_v1655 (mulf : (⟨S16384, .f32⟩ : BufTy).Contents (Elt F) → (⟨S16384, .f32⟩ : BufTy).Contents (Elt F) → (⟨S16384, .f32⟩ : BufTy).Contents (Elt F)),
    StableHlo.unary main_v1389 main_v1656 (Host.negf : (⟨S16384, .f32⟩ : BufTy).Contents (Elt F) → (⟨S16384, .f32⟩ : BufTy).Contents (Elt F)),
    StableHlo.binary main_v1476 main_v1586 main_v1657 (mulf : (⟨S16384, .f32⟩ : BufTy).Contents (Elt F) → (⟨S16384, .f32⟩ : BufTy).Contents (Elt F) → (⟨S16384, .f32⟩ : BufTy).Contents (Elt F)),
    StableHlo.binary main_v1619 main_v811 main_v1658 (addf : (⟨S16384, .f32⟩ : BufTy).Contents (Elt F) → (⟨S16384, .f32⟩ : BufTy).Contents (Elt F) → (⟨S16384, .f32⟩ : BufTy).Contents (Elt F)),
    StableHlo.unary main_v1503 main_v1659 (Host.sin : (⟨S16384, .f32⟩ : BufTy).Contents (Elt F) → (⟨S16384, .f32⟩ : BufTy).Contents (Elt F)),
    StableHlo.unary main_v550 main_v1660 (Host.sin : (⟨S16384, .f32⟩ : BufTy).Contents (Elt F) → (⟨S16384, .f32⟩ : BufTy).Contents (Elt F)),
    StableHlo.binary main_v1586 main_v406 main_v1661 (subf : (⟨S16384, .f32⟩ : BufTy).Contents (Elt F) → (⟨S16384, .f32⟩ : BufTy).Contents (Elt F) → (⟨S16384, .f32⟩ : BufTy).Contents (Elt F)),
    StableHlo.binary main_v1166 main_v1604 main_v1662 (mulf : (⟨S16384, .f32⟩ : BufTy).Contents (Elt F) → (⟨S16384, .f32⟩ : BufTy).Contents (Elt F) → (⟨S16384, .f32⟩ : BufTy).Contents (Elt F)),
    StableHlo.unary main_v1423 main_v1663 (Host.cos : (⟨S16384, .f32⟩ : BufTy).Contents (Elt F) → (⟨S16384, .f32⟩ : BufTy).Contents (Elt F)) ]

theorem part27_eq (d : Dev nD) : main_part27 (F := F) d = seq ops27 := rfl
theorem ops27_sub : (ops27 (F := F)).Forall fun op => op.bufs ⊆ tcRefs τ sig := by line_sub
theorem ops27_fresh : ∀ op ∈ (ops27 (F := F)), op.fresh = ∅ := by line_fresh
theorem ops27_ordered : Cert.Ssa.Ordered 1621 (ops27 (F := F)) := by line_ordered

/-- Window 28 of @main: its operations, positions 1681 to 1740, in order. -/
abbrev ops28 : List (HloOp τ sig (Elt F)) :=
  [ StableHlo.unary main_v1571 main_v1664 (Host.cos : (⟨S16384, .f32⟩ : BufTy).Contents (Elt F) → (⟨S16384, .f32⟩ : BufTy).Contents (Elt F)),
    StableHlo.binary main_v1545 main_v1475 main_v1665 (subf : (⟨S16384, .f32⟩ : BufTy).Contents (Elt F) → (⟨S16384, .f32⟩ : BufTy).Contents (Elt F) → (⟨S16384, .f32⟩ : BufTy).Contents (Elt F)),
    StableHlo.binary main_v1311 main_v1581 main_v1666 (mulf : (⟨S16384, .f32⟩ : BufTy).Contents (Elt F) → (⟨S16384, .f32⟩ : BufTy).Contents (Elt F) → (⟨S16384, .f32⟩ : BufTy).Contents (Elt F)),
    StableHlo.binary main_v1412 main_v1507 main_v1667 (addf : (⟨S16384, .f32⟩ : BufTy).Contents (Elt F) → (⟨S16384, .f32⟩ : BufTy).Contents (Elt F) → (⟨S16384, .f32⟩ : BufTy).Contents (Elt F)),
    StableHlo.binary main_v1336 main_v1336 main_v1668 (mulf : (⟨S16384, .f32⟩ : BufTy).Contents (Elt F) → (⟨S16384, .f32⟩ : BufTy).Contents (Elt F) → (⟨S16384, .f32⟩ : BufTy).Contents (Elt F)),
    StableHlo.unary main_v1506 main_v1669 (Host.cos : (⟨S16384, .f32⟩ : BufTy).Contents (Elt F) → (⟨S16384, .f32⟩ : BufTy).Contents (Elt F)),
    StableHlo.unary main_v1547 main_v1670 (Host.sin : (⟨S16384, .f32⟩ : BufTy).Contents (Elt F) → (⟨S16384, .f32⟩ : BufTy).Contents (Elt F)),
    StableHlo.binary main_v1332 main_v1042 main_v1671 (subf : (⟨S16384, .f32⟩ : BufTy).Contents (Elt F) → (⟨S16384, .f32⟩ : BufTy).Contents (Elt F) → (⟨S16384, .f32⟩ : BufTy).Contents (Elt F)),
    StableHlo.unary main_v1595 main_v1672 (Host.sin : (⟨S16384, .f32⟩ : BufTy).Contents (Elt F) → (⟨S16384, .f32⟩ : BufTy).Contents (Elt F)),
    StableHlo.unary main_v937 main_v1673 (Host.sin : (⟨S16384, .f32⟩ : BufTy).Contents (Elt F) → (⟨S16384, .f32⟩ : BufTy).Contents (Elt F)),
    StableHlo.binary main_v1525 main_v1602 main_v1674 (addf : (⟨S16384, .f32⟩ : BufTy).Contents (Elt F) → (⟨S16384, .f32⟩ : BufTy).Contents (Elt F) → (⟨S16384, .f32⟩ : BufTy).Contents (Elt F)),
    StableHlo.binary main_v1351 main_v1596 main_v1675 (subf : (⟨S16384, .f32⟩ : BufTy).Contents (Elt F) → (⟨S16384, .f32⟩ : BufTy).Contents (Elt F) → (⟨S16384, .f32⟩ : BufTy).Contents (Elt F)),
    StableHlo.binary main_v1048 main_v1525 main_v1676 (mulf : (⟨S16384, .f32⟩ : BufTy).Contents (Elt F) → (⟨S16384, .f32⟩ : BufTy).Contents (Elt F) → (⟨S16384, .f32⟩ : BufTy).Contents (Elt F)),
    StableHlo.binary main_v1624 main_v1601 main_v1677 (addf : (⟨S16384, .f32⟩ : BufTy).Contents (Elt F) → (⟨S16384, .f32⟩ : BufTy).Contents (Elt F) → (⟨S16384, .f32⟩ : BufTy).Contents (Elt F)),
    StableHlo.unary main_v1084 main_v1678 (Host.sin : (⟨S16384, .f32⟩ : BufTy).Contents (Elt F) → (⟨S16384, .f32⟩ : BufTy).Contents (Elt F)),
    StableHlo.binary main_v1000 main_v571 main_v1679 (subf : (⟨S16384, .f32⟩ : BufTy).Contents (Elt F) → (⟨S16384, .f32⟩ : BufTy).Contents (Elt F) → (⟨S16384, .f32⟩ : BufTy).Contents (Elt F)),
    StableHlo.unary main_v1614 main_v1680 (Host.cos : (⟨S16384, .f32⟩ : BufTy).Contents (Elt F) → (⟨S16384, .f32⟩ : BufTy).Contents (Elt F)),
    StableHlo.unary main_v1315 main_v1681 (Host.cos : (⟨S16384, .f32⟩ : BufTy).Contents (Elt F) → (⟨S16384, .f32⟩ : BufTy).Contents (Elt F)),
    StableHlo.binary main_v1410 main_v1340 main_v1682 (addf : (⟨S16384, .f32⟩ : BufTy).Contents (Elt F) → (⟨S16384, .f32⟩ : BufTy).Contents (Elt F) → (⟨S16384, .f32⟩ : BufTy).Contents (Elt F)),
    StableHlo.binary main_v1425 main_v1174 main_v1683 (addf : (⟨S16384, .f32⟩ : BufTy).Contents (Elt F) → (⟨S16384, .f32⟩ : BufTy).Contents (Elt F) → (⟨S16384, .f32⟩ : BufTy).Contents (Elt F)),
    StableHlo.unary main_v1450 main_v1684 (Host.sin : (⟨S16384, .f32⟩ : BufTy).Contents (Elt F) → (⟨S16384, .f32⟩ : BufTy).Contents (Elt F)),
    StableHlo.binary main_v811 main_v1570 main_v1685 (mulf : (⟨S16384, .f32⟩ : BufTy).Contents (Elt F) → (⟨S16384, .f32⟩ : BufTy).Contents (Elt F) → (⟨S16384, .f32⟩ : BufTy).Contents (Elt F)),
    StableHlo.binary main_v1560 main_v1622 main_v1686 (subf : (⟨S16384, .f32⟩ : BufTy).Contents (Elt F) → (⟨S16384, .f32⟩ : BufTy).Contents (Elt F) → (⟨S16384, .f32⟩ : BufTy).Contents (Elt F)),
    StableHlo.unary main_v1302 main_v1687 (Host.sin : (⟨S16384, .f32⟩ : BufTy).Contents (Elt F) → (⟨S16384, .f32⟩ : BufTy).Contents (Elt F)),
    StableHlo.binary main_v1679 main_v1664 main_v1688 (subf : (⟨S16384, .f32⟩ : BufTy).Contents (Elt F) → (⟨S16384, .f32⟩ : BufTy).Contents (Elt F) → (⟨S16384, .f32⟩ : BufTy).Contents (Elt F)),
    StableHlo.unary main_v1094 main_v1689 (Host.sin : (⟨S16384, .f32⟩ : BufTy).Contents (Elt F) → (⟨S16384, .f32⟩ : BufTy).Contents (Elt F)),
    StableHlo.binary main_v1642 main_v1642 main_v1690 (mulf : (⟨S16384, .f32⟩ : BufTy).Contents (Elt F) → (⟨S16384, .f32⟩ : BufTy).Contents (Elt F) → (⟨S16384, .f32⟩ : BufTy).Contents (Elt F)),
    StableHlo.unary main_v1022 main_v1691 (Host.sin : (⟨S16384, .f32⟩ : BufTy).Contents (Elt F) → (⟨S16384, .f32⟩ : BufTy).Contents (Elt F)),
    StableHlo.unary main_v1454 main_v1692 (Host.negf : (⟨S16384, .f32⟩ : BufTy).Contents (Elt F) → (⟨S16384, .f32⟩ : BufTy).Contents (Elt F)),
    StableHlo.binary main_v1075 main_v1692 main_v1693 (subf : (⟨S16384, .f32⟩ : BufTy).Contents (Elt F) → (⟨S16384, .f32⟩ : BufTy).Contents (Elt F) → (⟨S16384, .f32⟩ : BufTy).Contents (Elt F)),
    StableHlo.unary main_v1543 main_v1694 (Host.sin : (⟨S16384, .f32⟩ : BufTy).Contents (Elt F) → (⟨S16384, .f32⟩ : BufTy).Contents (Elt F)),
    StableHlo.unary main_v1421 main_v1695 (Host.cos : (⟨S16384, .f32⟩ : BufTy).Contents (Elt F) → (⟨S16384, .f32⟩ : BufTy).Contents (Elt F)),
    StableHlo.binary main_v406 main_v1134 main_v1696 (mulf : (⟨S16384, .f32⟩ : BufTy).Contents (Elt F) → (⟨S16384, .f32⟩ : BufTy).Contents (Elt F) → (⟨S16384, .f32⟩ : BufTy).Contents (Elt F)),
    StableHlo.binary main_v1686 main_v1441 main_v1697 (subf : (⟨S16384, .f32⟩ : BufTy).Contents (Elt F) → (⟨S16384, .f32⟩ : BufTy).Contents (Elt F) → (⟨S16384, .f32⟩ : BufTy).Contents (Elt F)),
    StableHlo.unary main_v1385 main_v1698 (Host.cos : (⟨S16384, .f32⟩ : BufTy).Contents (Elt F) → (⟨S16384, .f32⟩ : BufTy).Contents (Elt F)),
    StableHlo.binary main_v1600 main_v1598 main_v1699 (subf : (⟨S16384, .f32⟩ : BufTy).Contents (Elt F) → (⟨S16384, .f32⟩ : BufTy).Contents (Elt F) → (⟨S16384, .f32⟩ : BufTy).Contents (Elt F)),
    StableHlo.unary main_v1539 main_v1700 (Host.cos : (⟨S16384, .f32⟩ : BufTy).Contents (Elt F) → (⟨S16384, .f32⟩ : BufTy).Contents (Elt F)),
    StableHlo.unary main_v1615 main_v1701 (Host.sin : (⟨S16384, .f32⟩ : BufTy).Contents (Elt F) → (⟨S16384, .f32⟩ : BufTy).Contents (Elt F)),
    StableHlo.unary main_v1325 main_v1702 (Host.sin : (⟨S16384, .f32⟩ : BufTy).Contents (Elt F) → (⟨S16384, .f32⟩ : BufTy).Contents (Elt F)),
    StableHlo.unary main_v1560 main_v1703 (Host.sin : (⟨S16384, .f32⟩ : BufTy).Contents (Elt F) → (⟨S16384, .f32⟩ : BufTy).Contents (Elt F)),
    StableHlo.binary main_v1551 main_v881 main_v1704 (addf : (⟨S16384, .f32⟩ : BufTy).Contents (Elt F) → (⟨S16384, .f32⟩ : BufTy).Contents (Elt F) → (⟨S16384, .f32⟩ : BufTy).Contents (Elt F)),
    StableHlo.binary main_v1626 main_v1598 main_v1705 (subf : (⟨S16384, .f32⟩ : BufTy).Contents (Elt F) → (⟨S16384, .f32⟩ : BufTy).Contents (Elt F) → (⟨S16384, .f32⟩ : BufTy).Contents (Elt F)),
    StableHlo.unary main_v1395 main_v1706 (Host.cos : (⟨S16384, .f32⟩ : BufTy).Contents (Elt F) → (⟨S16384, .f32⟩ : BufTy).Contents (Elt F)),
    StableHlo.unary main_v1177 main_v1707 (Host.cos : (⟨S16384, .f32⟩ : BufTy).Contents (Elt F) → (⟨S16384, .f32⟩ : BufTy).Contents (Elt F)),
    StableHlo.binary main_v1510 main_v1548 main_v1708 (addf : (⟨S16384, .f32⟩ : BufTy).Contents (Elt F) → (⟨S16384, .f32⟩ : BufTy).Contents (Elt F) → (⟨S16384, .f32⟩ : BufTy).Contents (Elt F)),
    StableHlo.binary main_v1657 main_v1122 main_v1709 (addf : (⟨S16384, .f32⟩ : BufTy).Contents (Elt F) → (⟨S16384, .f32⟩ : BufTy).Contents (Elt F) → (⟨S16384, .f32⟩ : BufTy).Contents (Elt F)),
    StableHlo.binary main_v770 main_v1602 main_v1710 (mulf : (⟨S16384, .f32⟩ : BufTy).Contents (Elt F) → (⟨S16384, .f32⟩ : BufTy).Contents (Elt F) → (⟨S16384, .f32⟩ : BufTy).Contents (Elt F)),
    StableHlo.binary main_v1333 main_v1573 main_v1711 (subf : (⟨S16384, .f32⟩ : BufTy).Contents (Elt F) → (⟨S16384, .f32⟩ : BufTy).Contents (Elt F) → (⟨S16384, .f32⟩ : BufTy).Contents (Elt F)),
    StableHlo.unary main_v1658 main_v1712 (Host.cos : (⟨S16384, .f32⟩ : BufTy).Contents (Elt F) → (⟨S16384, .f32⟩ : BufTy).Contents (Elt F)),
    StableHlo.unary main_v1347 main_v1713 (Host.cos : (⟨S16384, .f32⟩ : BufTy).Contents (Elt F) → (⟨S16384, .f32⟩ : BufTy).Contents (Elt F)),
    StableHlo.binary main_v1582 main_v1668 main_v1714 (mulf : (⟨S16384, .f32⟩ : BufTy).Contents (Elt F) → (⟨S16384, .f32⟩ : BufTy).Contents (Elt F) → (⟨S16384, .f32⟩ : BufTy).Contents (Elt F)),
    StableHlo.unary main_v1415 main_v1715 (Host.cos : (⟨S16384, .f32⟩ : BufTy).Contents (Elt F) → (⟨S16384, .f32⟩ : BufTy).Contents (Elt F)),
    StableHlo.unary main_v1682 main_v1716 (Host.cos : (⟨S16384, .f32⟩ : BufTy).Contents (Elt F) → (⟨S16384, .f32⟩ : BufTy).Contents (Elt F)),
    StableHlo.binary main_v1000 main_v1000 main_v1717 (mulf : (⟨S16384, .f32⟩ : BufTy).Contents (Elt F) → (⟨S16384, .f32⟩ : BufTy).Contents (Elt F) → (⟨S16384, .f32⟩ : BufTy).Contents (Elt F)),
    StableHlo.binary main_v1581 main_v1622 main_v1718 (addf : (⟨S16384, .f32⟩ : BufTy).Contents (Elt F) → (⟨S16384, .f32⟩ : BufTy).Contents (Elt F) → (⟨S16384, .f32⟩ : BufTy).Contents (Elt F)),
    StableHlo.binary main_v1629 main_v1677 main_v1719 (subf : (⟨S16384, .f32⟩ : BufTy).Contents (Elt F) → (⟨S16384, .f32⟩ : BufTy).Contents (Elt F) → (⟨S16384, .f32⟩ : BufTy).Contents (Elt F)),
    StableHlo.binary main_v1695 main_v1263 main_v1720 (addf : (⟨S16384, .f32⟩ : BufTy).Contents (Elt F) → (⟨S16384, .f32⟩ : BufTy).Contents (Elt F) → (⟨S16384, .f32⟩ : BufTy).Contents (Elt F)),
    StableHlo.binary main_v1713 main_v1651 main_v1721 (mulf : (⟨S16384, .f32⟩ : BufTy).Contents (Elt F) → (⟨S16384, .f32⟩ : BufTy).Contents (Elt F) → (⟨S16384, .f32⟩ : BufTy).Contents (Elt F)),
    StableHlo.unary main_v1699 main_v1722 (Host.negf : (⟨S16384, .f32⟩ : BufTy).Contents (Elt F) → (⟨S16384, .f32⟩ : BufTy).Contents (Elt F)),
    StableHlo.binary main_v1427 main_v1100 main_v1723 (addf : (⟨S16384, .f32⟩ : BufTy).Contents (Elt F) → (⟨S16384, .f32⟩ : BufTy).Contents (Elt F) → (⟨S16384, .f32⟩ : BufTy).Contents (Elt F)) ]

theorem part28_eq (d : Dev nD) : main_part28 (F := F) d = seq ops28 := rfl
theorem ops28_sub : (ops28 (F := F)).Forall fun op => op.bufs ⊆ tcRefs τ sig := by line_sub
theorem ops28_fresh : ∀ op ∈ (ops28 (F := F)), op.fresh = ∅ := by line_fresh
theorem ops28_ordered : Cert.Ssa.Ordered 1681 (ops28 (F := F)) := by line_ordered

/-- Window 29 of @main: its operations, positions 1741 to 1800, in order. -/
abbrev ops29 : List (HloOp τ sig (Elt F)) :=
  [ StableHlo.binary main_v1348 main_v1641 main_v1724 (subf : (⟨S16384, .f32⟩ : BufTy).Contents (Elt F) → (⟨S16384, .f32⟩ : BufTy).Contents (Elt F) → (⟨S16384, .f32⟩ : BufTy).Contents (Elt F)),
    StableHlo.unary main_v1640 main_v1725 (Host.cos : (⟨S16384, .f32⟩ : BufTy).Contents (Elt F) → (⟨S16384, .f32⟩ : BufTy).Contents (Elt F)),
    StableHlo.unary main_v1685 main_v1726 (Host.negf : (⟨S16384, .f32⟩ : BufTy).Contents (Elt F) → (⟨S16384, .f32⟩ : BufTy).Contents (Elt F)),
    StableHlo.unary main_v1650 main_v1727 (Host.sin : (⟨S16384, .f32⟩ : BufTy).Contents (Elt F) → (⟨S16384, .f32⟩ : BufTy).Contents (Elt F)),
    StableHlo.binary main_v1614 main_v1617 main_v1728 (mulf : (⟨S16384, .f32⟩ : BufTy).Contents (Elt F) → (⟨S16384, .f32⟩ : BufTy).Contents (Elt F) → (⟨S16384, .f32⟩ : BufTy).Contents (Elt F)),
    StableHlo.binary main_v1547 main_v1506 main_v1729 (addf : (⟨S16384, .f32⟩ : BufTy).Contents (Elt F) → (⟨S16384, .f32⟩ : BufTy).Contents (Elt F) → (⟨S16384, .f32⟩ : BufTy).Contents (Elt F)),
    StableHlo.binary main_v1495 main_v1625 main_v1730 (mulf : (⟨S16384, .f32⟩ : BufTy).Contents (Elt F) → (⟨S16384, .f32⟩ : BufTy).Contents (Elt F) → (⟨S16384, .f32⟩ : BufTy).Contents (Elt F)),
    StableHlo.unary main_v293 main_v1731 (Host.sin : (⟨S16384, .f32⟩ : BufTy).Contents (Elt F) → (⟨S16384, .f32⟩ : BufTy).Contents (Elt F)),
    StableHlo.unary main_v1718 main_v1732 (Host.cos : (⟨S16384, .f32⟩ : BufTy).Contents (Elt F) → (⟨S16384, .f32⟩ : BufTy).Contents (Elt F)),
    StableHlo.binary main_v1700 main_v1700 main_v1733 (mulf : (⟨S16384, .f32⟩ : BufTy).Contents (Elt F) → (⟨S16384, .f32⟩ : BufTy).Contents (Elt F) → (⟨S16384, .f32⟩ : BufTy).Contents (Elt F)),
    StableHlo.unary main_v293 main_v1734 (Host.sin : (⟨S16384, .f32⟩ : BufTy).Contents (Elt F) → (⟨S16384, .f32⟩ : BufTy).Contents (Elt F)),
    StableHlo.unary main_v1702 main_v1735 (Host.cos : (⟨S16384, .f32⟩ : BufTy).Contents (Elt F) → (⟨S16384, .f32⟩ : BufTy).Contents (Elt F)),
    StableHlo.binary main_v1584 main_v1735 main_v1736 (mulf : (⟨S16384, .f32⟩ : BufTy).Contents (Elt F) → (⟨S16384, .f32⟩ : BufTy).Contents (Elt F) → (⟨S16384, .f32⟩ : BufTy).Contents (Elt F)),
    StableHlo.unary main_v1274 main_v1737 (Host.sin : (⟨S16384, .f32⟩ : BufTy).Contents (Elt F) → (⟨S16384, .f32⟩ : BufTy).Contents (Elt F)),
    StableHlo.binary main_v1397 main_v1651 main_v1738 (subf : (⟨S16384, .f32⟩ : BufTy).Contents (Elt F) → (⟨S16384, .f32⟩ : BufTy).Contents (Elt F) → (⟨S16384, .f32⟩ : BufTy).Contents (Elt F)),
    StableHlo.unary main_v1450 main_v1739 (Host.sin : (⟨S16384, .f32⟩ : BufTy).Contents (Elt F) → (⟨S16384, .f32⟩ : BufTy).Contents (Elt F)),
    StableHlo.unary main_v1579 main_v1740 (Host.sin : (⟨S16384, .f32⟩ : BufTy).Contents (Elt F) → (⟨S16384, .f32⟩ : BufTy).Contents (Elt F)),
    StableHlo.binary main_v1560 main_v1560 main_v1741 (mulf : (⟨S16384, .f32⟩ : BufTy).Contents (Elt F) → (⟨S16384, .f32⟩ : BufTy).Contents (Elt F) → (⟨S16384, .f32⟩ : BufTy).Contents (Elt F)),
    StableHlo.binary main_v1075 main_v1412 main_v1742 (subf : (⟨S16384, .f32⟩ : BufTy).Contents (Elt F) → (⟨S16384, .f32⟩ : BufTy).Contents (Elt F) → (⟨S16384, .f32⟩ : BufTy).Contents (Elt F)),
    StableHlo.binary main_v1481 main_v1625 main_v1743 (addf : (⟨S16384, .f32⟩ : BufTy).Contents (Elt F) → (⟨S16384, .f32⟩ : BufTy).Contents (Elt F) → (⟨S16384, .f32⟩ : BufTy).Contents (Elt F)),
    StableHlo.unary main_v1666 main_v1744 (Host.sin : (⟨S16384, .f32⟩ : BufTy).Contents (Elt F) → (⟨S16384, .f32⟩ : BufTy).Contents (Elt F)),
    StableHlo.binary main_v550 main_v1584 main_v1745 (addf : (⟨S16384, .f32⟩ : BufTy).Contents (Elt F) → (⟨S16384, .f32⟩ : BufTy).Contents (Elt F) → (⟨S16384, .f32⟩ : BufTy).Contents (Elt F)),
    StableHlo.unary main_v872 main_v1746 (Host.cos : (⟨S16384, .f32⟩ : BufTy).Contents (Elt F) → (⟨S16384, .f32⟩ : BufTy).Contents (Elt F)),
    StableHlo.unary main_v1727 main_v1747 (Host.sin : (⟨S16384, .f32⟩ : BufTy).Contents (Elt F) → (⟨S16384, .f32⟩ : BufTy).Contents (Elt F)),
    StableHlo.unary main_v1601 main_v1748 (Host.cos : (⟨S16384, .f32⟩ : BufTy).Contents (Elt F) → (⟨S16384, .f32⟩ : BufTy).Contents (Elt F)),
    StableHlo.unary main_v1384 main_v1749 (Host.negf : (⟨S16384, .f32⟩ : BufTy).Contents (Elt F) → (⟨S16384, .f32⟩ : BufTy).Contents (Elt F)),
    StableHlo.binary main_v1644 main_v1438 main_v1750 (mulf : (⟨S16384, .f32⟩ : BufTy).Contents (Elt F) → (⟨S16384, .f32⟩ : BufTy).Contents (Elt F) → (⟨S16384, .f32⟩ : BufTy).Contents (Elt F)),
    StableHlo.unary main_v1688 main_v1751 (Host.sin : (⟨S16384, .f32⟩ : BufTy).Contents (Elt F) → (⟨S16384, .f32⟩ : BufTy).Contents (Elt F)),
    StableHlo.unary main_v1244 main_v1752 (Host.cos : (⟨S16384, .f32⟩ : BufTy).Contents (Elt F) → (⟨S16384, .f32⟩ : BufTy).Contents (Elt F)),
    StableHlo.binary main_v1719 main_v1741 main_v1753 (mulf : (⟨S16384, .f32⟩ : BufTy).Contents (Elt F) → (⟨S16384, .f32⟩ : BufTy).Contents (Elt F) → (⟨S16384, .f32⟩ : BufTy).Contents (Elt F)),
    StableHlo.binary main_v1595 main_v1718 main_v1754 (addf : (⟨S16384, .f32⟩ : BufTy).Contents (Elt F) → (⟨S16384, .f32⟩ : BufTy).Contents (Elt F) → (⟨S16384, .f32⟩ : BufTy).Contents (Elt F)),
    StableHlo.unary main_v1702 main_v1755 (Host.sin : (⟨S16384, .f32⟩ : BufTy).Contents (Elt F) → (⟨S16384, .f32⟩ : BufTy).Contents (Elt F)),
    StableHlo.binary main_v1718 main_v1751 main_v1756 (addf : (⟨S16384, .f32⟩ : BufTy).Contents (Elt F) → (⟨S16384, .f32⟩ : BufTy).Contents (Elt F) → (⟨S16384, .f32⟩ : BufTy).Contents (Elt F)),
    StableHlo.unary main_v1302 main_v1757 (Host.sin : (⟨S16384, .f32⟩ : BufTy).Contents (Elt F) → (⟨S16384, .f32⟩ : BufTy).Contents (Elt F)),
    StableHlo.binary main_v406 main_v1706 main_v1758 (subf : (⟨S16384, .f32⟩ : BufTy).Contents (Elt F) → (⟨S16384, .f32⟩ : BufTy).Contents (Elt F) → (⟨S16384, .f32⟩ : BufTy).Contents (Elt F)),
    StableHlo.unary main_v1619 main_v1759 (Host.sin : (⟨S16384, .f32⟩ : BufTy).Contents (Elt F) → (⟨S16384, .f32⟩ : BufTy).Contents (Elt F)),
    StableHlo.binary main_v1034 main_v1551 main_v1760 (addf : (⟨S16384, .f32⟩ : BufTy).Contents (Elt F) → (⟨S16384, .f32⟩ : BufTy).Contents (Elt F) → (⟨S16384, .f32⟩ : BufTy).Contents (Elt F)),
    StableHlo.unary main_v1450 main_v1761 (Host.cos : (⟨S16384, .f32⟩ : BufTy).Contents (Elt F) → (⟨S16384, .f32⟩ : BufTy).Contents (Elt F)),
    StableHlo.unary main_v1662 main_v1762 (Host.negf : (⟨S16384, .f32⟩ : BufTy).Contents (Elt F) → (⟨S16384, .f32⟩ : BufTy).Contents (Elt F)),
    StableHlo.binary main_v1622 main_v1699 main_v1763 (addf : (⟨S16384, .f32⟩ : BufTy).Contents (Elt F) → (⟨S16384, .f32⟩ : BufTy).Contents (Elt F) → (⟨S16384, .f32⟩ : BufTy).Contents (Elt F)),
    StableHlo.unary main_v1719 main_v1764 (Host.cos : (⟨S16384, .f32⟩ : BufTy).Contents (Elt F) → (⟨S16384, .f32⟩ : BufTy).Contents (Elt F)),
    StableHlo.unary main_v1710 main_v1765 (Host.sin : (⟨S16384, .f32⟩ : BufTy).Contents (Elt F) → (⟨S16384, .f32⟩ : BufTy).Contents (Elt F)),
    StableHlo.binary main_v1669 main_v1669 main_v1766 (mulf : (⟨S16384, .f32⟩ : BufTy).Contents (Elt F) → (⟨S16384, .f32⟩ : BufTy).Contents (Elt F) → (⟨S16384, .f32⟩ : BufTy).Contents (Elt F)),
    StableHlo.binary main_v1100 main_v770 main_v1767 (mulf : (⟨S16384, .f32⟩ : BufTy).Contents (Elt F) → (⟨S16384, .f32⟩ : BufTy).Contents (Elt F) → (⟨S16384, .f32⟩ : BufTy).Contents (Elt F)),
    StableHlo.unary main_v1595 main_v1768 (Host.cos : (⟨S16384, .f32⟩ : BufTy).Contents (Elt F) → (⟨S16384, .f32⟩ : BufTy).Contents (Elt F)),
    StableHlo.binary main_v1735 main_v1724 main_v1769 (mulf : (⟨S16384, .f32⟩ : BufTy).Contents (Elt F) → (⟨S16384, .f32⟩ : BufTy).Contents (Elt F) → (⟨S16384, .f32⟩ : BufTy).Contents (Elt F)),
    StableHlo.binary main_v1622 main_v1764 main_v1770 (addf : (⟨S16384, .f32⟩ : BufTy).Contents (Elt F) → (⟨S16384, .f32⟩ : BufTy).Contents (Elt F) → (⟨S16384, .f32⟩ : BufTy).Contents (Elt F)),
    StableHlo.binary main_v1742 main_v1687 main_v1771 (mulf : (⟨S16384, .f32⟩ : BufTy).Contents (Elt F) → (⟨S16384, .f32⟩ : BufTy).Contents (Elt F) → (⟨S16384, .f32⟩ : BufTy).Contents (Elt F)),
    StableHlo.binary main_v1609 main_v1615 main_v1772 (addf : (⟨S16384, .f32⟩ : BufTy).Contents (Elt F) → (⟨S16384, .f32⟩ : BufTy).Contents (Elt F) → (⟨S16384, .f32⟩ : BufTy).Contents (Elt F)),
    StableHlo.binary main_v1180 main_v1639 main_v1773 (addf : (⟨S16384, .f32⟩ : BufTy).Contents (Elt F) → (⟨S16384, .f32⟩ : BufTy).Contents (Elt F) → (⟨S16384, .f32⟩ : BufTy).Contents (Elt F)),
    StableHlo.binary main_v550 main_v1731 main_v1774 (subf : (⟨S16384, .f32⟩ : BufTy).Contents (Elt F) → (⟨S16384, .f32⟩ : BufTy).Contents (Elt F) → (⟨S16384, .f32⟩ : BufTy).Contents (Elt F)),
    StableHlo.unary main_v1548 main_v1775 (Host.sin : (⟨S16384, .f32⟩ : BufTy).Contents (Elt F) → (⟨S16384, .f32⟩ : BufTy).Contents (Elt F)),
    StableHlo.unary main_v1585 main_v1776 (Host.sin : (⟨S16384, .f32⟩ : BufTy).Contents (Elt F) → (⟨S16384, .f32⟩ : BufTy).Contents (Elt F)),
    StableHlo.unary main_v1683 main_v1777 (Host.cos : (⟨S16384, .f32⟩ : BufTy).Contents (Elt F) → (⟨S16384, .f32⟩ : BufTy).Contents (Elt F)),
    StableHlo.unary main_v1595 main_v1778 (Host.cos : (⟨S16384, .f32⟩ : BufTy).Contents (Elt F) → (⟨S16384, .f32⟩ : BufTy).Contents (Elt F)),
    StableHlo.binary main_v1596 main_v1699 main_v1779 (addf : (⟨S16384, .f32⟩ : BufTy).Contents (Elt F) → (⟨S16384, .f32⟩ : BufTy).Contents (Elt F) → (⟨S16384, .f32⟩ : BufTy).Contents (Elt F)),
    StableHlo.unary main_v1741 main_v1780 (Host.sin : (⟨S16384, .f32⟩ : BufTy).Contents (Elt F) → (⟨S16384, .f32⟩ : BufTy).Contents (Elt F)),
    StableHlo.binary main_v615 main_v1769 main_v1781 (addf : (⟨S16384, .f32⟩ : BufTy).Contents (Elt F) → (⟨S16384, .f32⟩ : BufTy).Contents (Elt F) → (⟨S16384, .f32⟩ : BufTy).Contents (Elt F)),
    StableHlo.binary main_v1428 main_v1622 main_v1782 (mulf : (⟨S16384, .f32⟩ : BufTy).Contents (Elt F) → (⟨S16384, .f32⟩ : BufTy).Contents (Elt F) → (⟨S16384, .f32⟩ : BufTy).Contents (Elt F)),
    StableHlo.binary main_v1530 main_v1386 main_v1783 (subf : (⟨S16384, .f32⟩ : BufTy).Contents (Elt F) → (⟨S16384, .f32⟩ : BufTy).Contents (Elt F) → (⟨S16384, .f32⟩ : BufTy).Contents (Elt F)) ]

theorem part29_eq (d : Dev nD) : main_part29 (F := F) d = seq ops29 := rfl
theorem ops29_sub : (ops29 (F := F)).Forall fun op => op.bufs ⊆ tcRefs τ sig := by line_sub
theorem ops29_fresh : ∀ op ∈ (ops29 (F := F)), op.fresh = ∅ := by line_fresh
theorem ops29_ordered : Cert.Ssa.Ordered 1741 (ops29 (F := F)) := by line_ordered

end Cert.ReferenceIdeal.Line

end
-- ==== Proof.RefOps3.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

/-- Window 30 of @main: its operations, positions 1801 to 1860, in order. -/
abbrev ops30 : List (HloOp τ sig (Elt F)) :=
  [ StableHlo.binary main_v1648 main_v1767 main_v1784 (addf : (⟨S16384, .f32⟩ : BufTy).Contents (Elt F) → (⟨S16384, .f32⟩ : BufTy).Contents (Elt F) → (⟨S16384, .f32⟩ : BufTy).Contents (Elt F)),
    StableHlo.binary main_v1588 main_v1718 main_v1785 (mulf : (⟨S16384, .f32⟩ : BufTy).Contents (Elt F) → (⟨S16384, .f32⟩ : BufTy).Contents (Elt F) → (⟨S16384, .f32⟩ : BufTy).Contents (Elt F)),
    StableHlo.binary main_v1672 main_v1785 main_v1786 (mulf : (⟨S16384, .f32⟩ : BufTy).Contents (Elt F) → (⟨S16384, .f32⟩ : BufTy).Contents (Elt F) → (⟨S16384, .f32⟩ : BufTy).Contents (Elt F)),
    StableHlo.unary main_v1774 main_v1787 (Host.cos : (⟨S16384, .f32⟩ : BufTy).Contents (Elt F) → (⟨S16384, .f32⟩ : BufTy).Contents (Elt F)),
    StableHlo.unary main_v1428 main_v1788 (Host.sin : (⟨S16384, .f32⟩ : BufTy).Contents (Elt F) → (⟨S16384, .f32⟩ : BufTy).Contents (Elt F)),
    StableHlo.unary main_v1316 main_v1789 (Host.sin : (⟨S16384, .f32⟩ : BufTy).Contents (Elt F) → (⟨S16384, .f32⟩ : BufTy).Contents (Elt F)),
    StableHlo.unary main_v1229 main_v1790 (Host.sin : (⟨S16384, .f32⟩ : BufTy).Contents (Elt F) → (⟨S16384, .f32⟩ : BufTy).Contents (Elt F)),
    StableHlo.unary main_v1770 main_v1791 (Host.negf : (⟨S16384, .f32⟩ : BufTy).Contents (Elt F) → (⟨S16384, .f32⟩ : BufTy).Contents (Elt F)),
    StableHlo.binary main_v1650 main_v1560 main_v1792 (subf : (⟨S16384, .f32⟩ : BufTy).Contents (Elt F) → (⟨S16384, .f32⟩ : BufTy).Contents (Elt F) → (⟨S16384, .f32⟩ : BufTy).Contents (Elt F)),
    StableHlo.binary main_v1468 main_v1347 main_v1793 (subf : (⟨S16384, .f32⟩ : BufTy).Contents (Elt F) → (⟨S16384, .f32⟩ : BufTy).Contents (Elt F) → (⟨S16384, .f32⟩ : BufTy).Contents (Elt F)),
    StableHlo.unary main_v1791 main_v1794 (Host.sin : (⟨S16384, .f32⟩ : BufTy).Contents (Elt F) → (⟨S16384, .f32⟩ : BufTy).Contents (Elt F)),
    StableHlo.binary main_v1685 main_v1631 main_v1795 (mulf : (⟨S16384, .f32⟩ : BufTy).Contents (Elt F) → (⟨S16384, .f32⟩ : BufTy).Contents (Elt F) → (⟨S16384, .f32⟩ : BufTy).Contents (Elt F)),
    StableHlo.binary main_v1661 main_v1755 main_v1796 (subf : (⟨S16384, .f32⟩ : BufTy).Contents (Elt F) → (⟨S16384, .f32⟩ : BufTy).Contents (Elt F) → (⟨S16384, .f32⟩ : BufTy).Contents (Elt F)),
    StableHlo.binary main_v1772 main_v1682 main_v1797 (addf : (⟨S16384, .f32⟩ : BufTy).Contents (Elt F) → (⟨S16384, .f32⟩ : BufTy).Contents (Elt F) → (⟨S16384, .f32⟩ : BufTy).Contents (Elt F)),
    StableHlo.binary main_v1166 main_v1166 main_v1798 (mulf : (⟨S16384, .f32⟩ : BufTy).Contents (Elt F) → (⟨S16384, .f32⟩ : BufTy).Contents (Elt F) → (⟨S16384, .f32⟩ : BufTy).Contents (Elt F)),
    StableHlo.binary main_v1771 main_v1791 main_v1799 (subf : (⟨S16384, .f32⟩ : BufTy).Contents (Elt F) → (⟨S16384, .f32⟩ : BufTy).Contents (Elt F) → (⟨S16384, .f32⟩ : BufTy).Contents (Elt F)),
    StableHlo.unary main_v1428 main_v1800 (Host.sin : (⟨S16384, .f32⟩ : BufTy).Contents (Elt F) → (⟨S16384, .f32⟩ : BufTy).Contents (Elt F)),
    StableHlo.unary main_v1691 main_v1801 (Host.cos : (⟨S16384, .f32⟩ : BufTy).Contents (Elt F) → (⟨S16384, .f32⟩ : BufTy).Contents (Elt F)),
    StableHlo.unary main_v600 main_v1802 (Host.negf : (⟨S16384, .f32⟩ : BufTy).Contents (Elt F) → (⟨S16384, .f32⟩ : BufTy).Contents (Elt F)),
    StableHlo.unary main_v811 main_v1803 (Host.negf : (⟨S16384, .f32⟩ : BufTy).Contents (Elt F) → (⟨S16384, .f32⟩ : BufTy).Contents (Elt F)),
    StableHlo.unary main_v872 main_v1804 (Host.sin : (⟨S16384, .f32⟩ : BufTy).Contents (Elt F) → (⟨S16384, .f32⟩ : BufTy).Contents (Elt F)),
    StableHlo.unary main_v1770 main_v1805 (Host.cos : (⟨S16384, .f32⟩ : BufTy).Contents (Elt F) → (⟨S16384, .f32⟩ : BufTy).Contents (Elt F)),
    StableHlo.unary main_v1726 main_v1806 (Host.cos : (⟨S16384, .f32⟩ : BufTy).Contents (Elt F) → (⟨S16384, .f32⟩ : BufTy).Contents (Elt F)),
    StableHlo.unary main_v1686 main_v1807 (Host.sin : (⟨S16384, .f32⟩ : BufTy).Contents (Elt F) → (⟨S16384, .f32⟩ : BufTy).Contents (Elt F)),
    StableHlo.binary main_v1639 main_v1365 main_v1808 (mulf : (⟨S16384, .f32⟩ : BufTy).Contents (Elt F) → (⟨S16384, .f32⟩ : BufTy).Contents (Elt F) → (⟨S16384, .f32⟩ : BufTy).Contents (Elt F)),
    StableHlo.binary main_v1742 main_v1776 main_v1809 (subf : (⟨S16384, .f32⟩ : BufTy).Contents (Elt F) → (⟨S16384, .f32⟩ : BufTy).Contents (Elt F) → (⟨S16384, .f32⟩ : BufTy).Contents (Elt F)),
    StableHlo.binary main_v1441 main_v1509 main_v1810 (addf : (⟨S16384, .f32⟩ : BufTy).Contents (Elt F) → (⟨S16384, .f32⟩ : BufTy).Contents (Elt F) → (⟨S16384, .f32⟩ : BufTy).Contents (Elt F)),
    StableHlo.binary main_v1450 main_v1302 main_v1811 (subf : (⟨S16384, .f32⟩ : BufTy).Contents (Elt F) → (⟨S16384, .f32⟩ : BufTy).Contents (Elt F) → (⟨S16384, .f32⟩ : BufTy).Contents (Elt F)),
    StableHlo.binary main_v1596 main_v1715 main_v1812 (subf : (⟨S16384, .f32⟩ : BufTy).Contents (Elt F) → (⟨S16384, .f32⟩ : BufTy).Contents (Elt F) → (⟨S16384, .f32⟩ : BufTy).Contents (Elt F)),
    StableHlo.binary main_v1637 main_v744 main_v1813 (subf : (⟨S16384, .f32⟩ : BufTy).Contents (Elt F) → (⟨S16384, .f32⟩ : BufTy).Contents (Elt F) → (⟨S16384, .f32⟩ : BufTy).Contents (Elt F)),
    StableHlo.binary main_v1597 main_v1805 main_v1814 (mulf : (⟨S16384, .f32⟩ : BufTy).Contents (Elt F) → (⟨S16384, .f32⟩ : BufTy).Contents (Elt F) → (⟨S16384, .f32⟩ : BufTy).Contents (Elt F)),
    StableHlo.unary main_v1814 main_v1815 (Host.cos : (⟨S16384, .f32⟩ : BufTy).Contents (Elt F) → (⟨S16384, .f32⟩ : BufTy).Contents (Elt F)),
    StableHlo.unary main_v1762 main_v1816 (Host.cos : (⟨S16384, .f32⟩ : BufTy).Contents (Elt F) → (⟨S16384, .f32⟩ : BufTy).Contents (Elt F)),
    StableHlo.unary main_v1755 main_v1817 (Host.sin : (⟨S16384, .f32⟩ : BufTy).Contents (Elt F) → (⟨S16384, .f32⟩ : BufTy).Contents (Elt F)),
    StableHlo.unary main_v1674 main_v1818 (Host.sin : (⟨S16384, .f32⟩ : BufTy).Contents (Elt F) → (⟨S16384, .f32⟩ : BufTy).Contents (Elt F)),
    StableHlo.unary main_v1718 main_v1819 (Host.sin : (⟨S16384, .f32⟩ : BufTy).Contents (Elt F) → (⟨S16384, .f32⟩ : BufTy).Contents (Elt F)),
    StableHlo.binary main_v1765 main_v1292 main_v1820 (mulf : (⟨S16384, .f32⟩ : BufTy).Contents (Elt F) → (⟨S16384, .f32⟩ : BufTy).Contents (Elt F) → (⟨S16384, .f32⟩ : BufTy).Contents (Elt F)),
    StableHlo.binary main_v1384 main_v1699 main_v1821 (subf : (⟨S16384, .f32⟩ : BufTy).Contents (Elt F) → (⟨S16384, .f32⟩ : BufTy).Contents (Elt F) → (⟨S16384, .f32⟩ : BufTy).Contents (Elt F)),
    StableHlo.binary main_v1410 main_v1798 main_v1822 (subf : (⟨S16384, .f32⟩ : BufTy).Contents (Elt F) → (⟨S16384, .f32⟩ : BufTy).Contents (Elt F) → (⟨S16384, .f32⟩ : BufTy).Contents (Elt F)),
    StableHlo.binary main_v1468 main_v1468 main_v1823 (mulf : (⟨S16384, .f32⟩ : BufTy).Contents (Elt F) → (⟨S16384, .f32⟩ : BufTy).Contents (Elt F) → (⟨S16384, .f32⟩ : BufTy).Contents (Elt F)),
    StableHlo.unary main_v571 main_v1824 (Host.sin : (⟨S16384, .f32⟩ : BufTy).Contents (Elt F) → (⟨S16384, .f32⟩ : BufTy).Contents (Elt F)),
    StableHlo.unary main_v1423 main_v1825 (Host.sin : (⟨S16384, .f32⟩ : BufTy).Contents (Elt F) → (⟨S16384, .f32⟩ : BufTy).Contents (Elt F)),
    StableHlo.binary main_v1808 main_v1821 main_v1826 (addf : (⟨S16384, .f32⟩ : BufTy).Contents (Elt F) → (⟨S16384, .f32⟩ : BufTy).Contents (Elt F) → (⟨S16384, .f32⟩ : BufTy).Contents (Elt F)),
    StableHlo.unary main_v1662 main_v1827 (Host.sin : (⟨S16384, .f32⟩ : BufTy).Contents (Elt F) → (⟨S16384, .f32⟩ : BufTy).Contents (Elt F)),
    StableHlo.unary main_v1795 main_v1828 (Host.negf : (⟨S16384, .f32⟩ : BufTy).Contents (Elt F) → (⟨S16384, .f32⟩ : BufTy).Contents (Elt F)),
    StableHlo.unary main_v1690 main_v1829 (Host.sin : (⟨S16384, .f32⟩ : BufTy).Contents (Elt F) → (⟨S16384, .f32⟩ : BufTy).Contents (Elt F)),
    StableHlo.binary main_v1725 main_v1742 main_v1830 (subf : (⟨S16384, .f32⟩ : BufTy).Contents (Elt F) → (⟨S16384, .f32⟩ : BufTy).Contents (Elt F) → (⟨S16384, .f32⟩ : BufTy).Contents (Elt F)),
    StableHlo.unary main_v1680 main_v1831 (Host.sin : (⟨S16384, .f32⟩ : BufTy).Contents (Elt F) → (⟨S16384, .f32⟩ : BufTy).Contents (Elt F)),
    StableHlo.binary main_v1631 main_v1476 main_v1832 (mulf : (⟨S16384, .f32⟩ : BufTy).Contents (Elt F) → (⟨S16384, .f32⟩ : BufTy).Contents (Elt F) → (⟨S16384, .f32⟩ : BufTy).Contents (Elt F)),
    StableHlo.unary main_v1796 main_v1833 (Host.sin : (⟨S16384, .f32⟩ : BufTy).Contents (Elt F) → (⟨S16384, .f32⟩ : BufTy).Contents (Elt F)),
    StableHlo.unary main_v1347 main_v1834 (Host.sin : (⟨S16384, .f32⟩ : BufTy).Contents (Elt F) → (⟨S16384, .f32⟩ : BufTy).Contents (Elt F)),
    StableHlo.binary main_v1617 main_v770 main_v1835 (subf : (⟨S16384, .f32⟩ : BufTy).Contents (Elt F) → (⟨S16384, .f32⟩ : BufTy).Contents (Elt F) → (⟨S16384, .f32⟩ : BufTy).Contents (Elt F)),
    StableHlo.binary main_v1262 main_v1486 main_v1836 (mulf : (⟨S16384, .f32⟩ : BufTy).Contents (Elt F) → (⟨S16384, .f32⟩ : BufTy).Contents (Elt F) → (⟨S16384, .f32⟩ : BufTy).Contents (Elt F)),
    StableHlo.binary main_v1675 main_v1742 main_v1837 (mulf : (⟨S16384, .f32⟩ : BufTy).Contents (Elt F) → (⟨S16384, .f32⟩ : BufTy).Contents (Elt F) → (⟨S16384, .f32⟩ : BufTy).Contents (Elt F)),
    StableHlo.unary main_v1509 main_v1838 (Host.cos : (⟨S16384, .f32⟩ : BufTy).Contents (Elt F) → (⟨S16384, .f32⟩ : BufTy).Contents (Elt F)),
    StableHlo.binary main_v1631 main_v1690 main_v1839 (mulf : (⟨S16384, .f32⟩ : BufTy).Contents (Elt F) → (⟨S16384, .f32⟩ : BufTy).Contents (Elt F) → (⟨S16384, .f32⟩ : BufTy).Contents (Elt F)),
    StableHlo.unary main_v1762 main_v1840 (Host.sin : (⟨S16384, .f32⟩ : BufTy).Contents (Elt F) → (⟨S16384, .f32⟩ : BufTy).Contents (Elt F)),
    StableHlo.binary main_v1789 main_v1789 main_v1841 (mulf : (⟨S16384, .f32⟩ : BufTy).Contents (Elt F) → (⟨S16384, .f32⟩ : BufTy).Contents (Elt F) → (⟨S16384, .f32⟩ : BufTy).Contents (Elt F)),
    StableHlo.binary main_v1639 main_v1639 main_v1842 (mulf : (⟨S16384, .f32⟩ : BufTy).Contents (Elt F) → (⟨S16384, .f32⟩ : BufTy).Contents (Elt F) → (⟨S16384, .f32⟩ : BufTy).Contents (Elt F)),
    StableHlo.unary main_v1539 main_v1843 (Host.sin : (⟨S16384, .f32⟩ : BufTy).Contents (Elt F) → (⟨S16384, .f32⟩ : BufTy).Contents (Elt F)) ]

theorem part30_eq (d : Dev nD) : main_part30 (F := F) d = seq ops30 := rfl
theorem ops30_sub : (ops30 (F := F)).Forall fun op => op.bufs ⊆ tcRefs τ sig := by line_sub
theorem ops30_fresh : ∀ op ∈ (ops30 (F := F)), op.fresh = ∅ := by line_fresh
theorem ops30_ordered : Cert.Ssa.Ordered 1801 (ops30 (F := F)) := by line_ordered

/-- Window 31 of @main: its operations, positions 1861 to 1920, in order. -/
abbrev ops31 : List (HloOp τ sig (Elt F)) :=
  [ StableHlo.binary main_v1598 main_v1690 main_v1844 (addf : (⟨S16384, .f32⟩ : BufTy).Contents (Elt F) → (⟨S16384, .f32⟩ : BufTy).Contents (Elt F) → (⟨S16384, .f32⟩ : BufTy).Contents (Elt F)),
    StableHlo.binary main_v1774 main_v1774 main_v1845 (mulf : (⟨S16384, .f32⟩ : BufTy).Contents (Elt F) → (⟨S16384, .f32⟩ : BufTy).Contents (Elt F) → (⟨S16384, .f32⟩ : BufTy).Contents (Elt F)),
    StableHlo.binary main_v1543 main_v1606 main_v1846 (mulf : (⟨S16384, .f32⟩ : BufTy).Contents (Elt F) → (⟨S16384, .f32⟩ : BufTy).Contents (Elt F) → (⟨S16384, .f32⟩ : BufTy).Contents (Elt F)),
    StableHlo.binary main_v1788 main_v1821 main_v1847 (subf : (⟨S16384, .f32⟩ : BufTy).Contents (Elt F) → (⟨S16384, .f32⟩ : BufTy).Contents (Elt F) → (⟨S16384, .f32⟩ : BufTy).Contents (Elt F)),
    StableHlo.binary main_v1812 main_v1509 main_v1848 (addf : (⟨S16384, .f32⟩ : BufTy).Contents (Elt F) → (⟨S16384, .f32⟩ : BufTy).Contents (Elt F) → (⟨S16384, .f32⟩ : BufTy).Contents (Elt F)),
    StableHlo.binary main_v550 main_v1781 main_v1849 (subf : (⟨S16384, .f32⟩ : BufTy).Contents (Elt F) → (⟨S16384, .f32⟩ : BufTy).Contents (Elt F) → (⟨S16384, .f32⟩ : BufTy).Contents (Elt F)),
    StableHlo.unary main_v1755 main_v1850 (Host.sin : (⟨S16384, .f32⟩ : BufTy).Contents (Elt F) → (⟨S16384, .f32⟩ : BufTy).Contents (Elt F)),
    StableHlo.unary main_v1262 main_v1851 (Host.sin : (⟨S16384, .f32⟩ : BufTy).Contents (Elt F) → (⟨S16384, .f32⟩ : BufTy).Contents (Elt F)),
    StableHlo.binary main_v1560 main_v1682 main_v1852 (addf : (⟨S16384, .f32⟩ : BufTy).Contents (Elt F) → (⟨S16384, .f32⟩ : BufTy).Contents (Elt F) → (⟨S16384, .f32⟩ : BufTy).Contents (Elt F)),
    StableHlo.unary main_v1767 main_v1853 (Host.sin : (⟨S16384, .f32⟩ : BufTy).Contents (Elt F) → (⟨S16384, .f32⟩ : BufTy).Contents (Elt F)),
    StableHlo.binary main_v1316 main_v1514 main_v1854 (subf : (⟨S16384, .f32⟩ : BufTy).Contents (Elt F) → (⟨S16384, .f32⟩ : BufTy).Contents (Elt F) → (⟨S16384, .f32⟩ : BufTy).Contents (Elt F)),
    StableHlo.binary main_v1400 main_v1481 main_v1855 (mulf : (⟨S16384, .f32⟩ : BufTy).Contents (Elt F) → (⟨S16384, .f32⟩ : BufTy).Contents (Elt F) → (⟨S16384, .f32⟩ : BufTy).Contents (Elt F)),
    StableHlo.binary main_v1585 main_v770 main_v1856 (addf : (⟨S16384, .f32⟩ : BufTy).Contents (Elt F) → (⟨S16384, .f32⟩ : BufTy).Contents (Elt F) → (⟨S16384, .f32⟩ : BufTy).Contents (Elt F)),
    StableHlo.binary main_v571 main_v1830 main_v1857 (addf : (⟨S16384, .f32⟩ : BufTy).Contents (Elt F) → (⟨S16384, .f32⟩ : BufTy).Contents (Elt F) → (⟨S16384, .f32⟩ : BufTy).Contents (Elt F)),
    StableHlo.binary main_v1386 main_v1386 main_v1858 (mulf : (⟨S16384, .f32⟩ : BufTy).Contents (Elt F) → (⟨S16384, .f32⟩ : BufTy).Contents (Elt F) → (⟨S16384, .f32⟩ : BufTy).Contents (Elt F)),
    StableHlo.unary main_v1600 main_v1859 (Host.sin : (⟨S16384, .f32⟩ : BufTy).Contents (Elt F) → (⟨S16384, .f32⟩ : BufTy).Contents (Elt F)),
    StableHlo.binary main_v1771 main_v1675 main_v1860 (subf : (⟨S16384, .f32⟩ : BufTy).Contents (Elt F) → (⟨S16384, .f32⟩ : BufTy).Contents (Elt F) → (⟨S16384, .f32⟩ : BufTy).Contents (Elt F)),
    StableHlo.binary main_v1470 main_v1714 main_v1861 (addf : (⟨S16384, .f32⟩ : BufTy).Contents (Elt F) → (⟨S16384, .f32⟩ : BufTy).Contents (Elt F) → (⟨S16384, .f32⟩ : BufTy).Contents (Elt F)),
    StableHlo.unary main_v1799 main_v1862 (Host.cos : (⟨S16384, .f32⟩ : BufTy).Contents (Elt F) → (⟨S16384, .f32⟩ : BufTy).Contents (Elt F)),
    StableHlo.unary main_v1824 main_v1863 (Host.sin : (⟨S16384, .f32⟩ : BufTy).Contents (Elt F) → (⟨S16384, .f32⟩ : BufTy).Contents (Elt F)),
    StableHlo.unary main_v1841 main_v1864 (Host.cos : (⟨S16384, .f32⟩ : BufTy).Contents (Elt F) → (⟨S16384, .f32⟩ : BufTy).Contents (Elt F)),
    StableHlo.unary main_v1813 main_v1865 (Host.negf : (⟨S16384, .f32⟩ : BufTy).Contents (Elt F) → (⟨S16384, .f32⟩ : BufTy).Contents (Elt F)),
    StableHlo.unary main_v1774 main_v1866 (Host.sin : (⟨S16384, .f32⟩ : BufTy).Contents (Elt F) → (⟨S16384, .f32⟩ : BufTy).Contents (Elt F)),
    StableHlo.unary main_v1620 main_v1867 (Host.cos : (⟨S16384, .f32⟩ : BufTy).Contents (Elt F) → (⟨S16384, .f32⟩ : BufTy).Contents (Elt F)),
    StableHlo.binary main_v1444 main_v1444 main_v1868 (mulf : (⟨S16384, .f32⟩ : BufTy).Contents (Elt F) → (⟨S16384, .f32⟩ : BufTy).Contents (Elt F) → (⟨S16384, .f32⟩ : BufTy).Contents (Elt F)),
    StableHlo.binary main_v1366 main_v1258 main_v1869 (subf : (⟨S16384, .f32⟩ : BufTy).Contents (Elt F) → (⟨S16384, .f32⟩ : BufTy).Contents (Elt F) → (⟨S16384, .f32⟩ : BufTy).Contents (Elt F)),
    StableHlo.unary main_v1606 main_v1870 (Host.sin : (⟨S16384, .f32⟩ : BufTy).Contents (Elt F) → (⟨S16384, .f32⟩ : BufTy).Contents (Elt F)),
    StableHlo.unary main_v1075 main_v1871 (Host.sin : (⟨S16384, .f32⟩ : BufTy).Contents (Elt F) → (⟨S16384, .f32⟩ : BufTy).Contents (Elt F)),
    StableHlo.binary main_v1861 main_v1779 main_v1872 (mulf : (⟨S16384, .f32⟩ : BufTy).Contents (Elt F) → (⟨S16384, .f32⟩ : BufTy).Contents (Elt F) → (⟨S16384, .f32⟩ : BufTy).Contents (Elt F)),
    StableHlo.unary main_v1720 main_v1873 (Host.cos : (⟨S16384, .f32⟩ : BufTy).Contents (Elt F) → (⟨S16384, .f32⟩ : BufTy).Contents (Elt F)),
    StableHlo.unary main_v1838 main_v1874 (Host.cos : (⟨S16384, .f32⟩ : BufTy).Contents (Elt F) → (⟨S16384, .f32⟩ : BufTy).Contents (Elt F)),
    StableHlo.binary main_v1758 main_v1755 main_v1875 (addf : (⟨S16384, .f32⟩ : BufTy).Contents (Elt F) → (⟨S16384, .f32⟩ : BufTy).Contents (Elt F) → (⟨S16384, .f32⟩ : BufTy).Contents (Elt F)),
    StableHlo.binary main_v1516 main_v1359 main_v1876 (addf : (⟨S16384, .f32⟩ : BufTy).Contents (Elt F) → (⟨S16384, .f32⟩ : BufTy).Contents (Elt F) → (⟨S16384, .f32⟩ : BufTy).Contents (Elt F)),
    StableHlo.unary main_v1682 main_v1877 (Host.sin : (⟨S16384, .f32⟩ : BufTy).Contents (Elt F) → (⟨S16384, .f32⟩ : BufTy).Contents (Elt F)),
    StableHlo.binary main_v1292 main_v1454 main_v1878 (addf : (⟨S16384, .f32⟩ : BufTy).Contents (Elt F) → (⟨S16384, .f32⟩ : BufTy).Contents (Elt F) → (⟨S16384, .f32⟩ : BufTy).Contents (Elt F)),
    StableHlo.unary main_v1867 main_v1879 (Host.negf : (⟨S16384, .f32⟩ : BufTy).Contents (Elt F) → (⟨S16384, .f32⟩ : BufTy).Contents (Elt F)),
    StableHlo.unary main_v1867 main_v1880 (Host.cos : (⟨S16384, .f32⟩ : BufTy).Contents (Elt F) → (⟨S16384, .f32⟩ : BufTy).Contents (Elt F)),
    StableHlo.binary main_v1683 main_v1683 main_v1881 (mulf : (⟨S16384, .f32⟩ : BufTy).Contents (Elt F) → (⟨S16384, .f32⟩ : BufTy).Contents (Elt F) → (⟨S16384, .f32⟩ : BufTy).Contents (Elt F)),
    StableHlo.binary main_v1202 main_v1529 main_v1882 (mulf : (⟨S16384, .f32⟩ : BufTy).Contents (Elt F) → (⟨S16384, .f32⟩ : BufTy).Contents (Elt F) → (⟨S16384, .f32⟩ : BufTy).Contents (Elt F)),
    StableHlo.unary main_v1740 main_v1883 (Host.cos : (⟨S16384, .f32⟩ : BufTy).Contents (Elt F) → (⟨S16384, .f32⟩ : BufTy).Contents (Elt F)),
    StableHlo.binary main_v1837 main_v1336 main_v1884 (mulf : (⟨S16384, .f32⟩ : BufTy).Contents (Elt F) → (⟨S16384, .f32⟩ : BufTy).Contents (Elt F) → (⟨S16384, .f32⟩ : BufTy).Contents (Elt F)),
    StableHlo.unary main_v1881 main_v1885 (Host.cos : (⟨S16384, .f32⟩ : BufTy).Contents (Elt F) → (⟨S16384, .f32⟩ : BufTy).Contents (Elt F)),
    StableHlo.unary main_v1814 main_v1886 (Host.cos : (⟨S16384, .f32⟩ : BufTy).Contents (Elt F) → (⟨S16384, .f32⟩ : BufTy).Contents (Elt F)),
    StableHlo.unary main_v1800 main_v1887 (Host.sin : (⟨S16384, .f32⟩ : BufTy).Contents (Elt F) → (⟨S16384, .f32⟩ : BufTy).Contents (Elt F)),
    StableHlo.binary main_v1725 main_v1869 main_v1888 (subf : (⟨S16384, .f32⟩ : BufTy).Contents (Elt F) → (⟨S16384, .f32⟩ : BufTy).Contents (Elt F) → (⟨S16384, .f32⟩ : BufTy).Contents (Elt F)),
    StableHlo.unary main_v1677 main_v1889 (Host.negf : (⟨S16384, .f32⟩ : BufTy).Contents (Elt F) → (⟨S16384, .f32⟩ : BufTy).Contents (Elt F)),
    StableHlo.binary main_v1665 main_v1715 main_v1890 (subf : (⟨S16384, .f32⟩ : BufTy).Contents (Elt F) → (⟨S16384, .f32⟩ : BufTy).Contents (Elt F) → (⟨S16384, .f32⟩ : BufTy).Contents (Elt F)),
    StableHlo.binary main_v1727 main_v1727 main_v1891 (mulf : (⟨S16384, .f32⟩ : BufTy).Contents (Elt F) → (⟨S16384, .f32⟩ : BufTy).Contents (Elt F) → (⟨S16384, .f32⟩ : BufTy).Contents (Elt F)),
    StableHlo.unary main_v1820 main_v1892 (Host.sin : (⟨S16384, .f32⟩ : BufTy).Contents (Elt F) → (⟨S16384, .f32⟩ : BufTy).Contents (Elt F)),
    StableHlo.binary main_v1450 main_v1450 main_v1893 (mulf : (⟨S16384, .f32⟩ : BufTy).Contents (Elt F) → (⟨S16384, .f32⟩ : BufTy).Contents (Elt F) → (⟨S16384, .f32⟩ : BufTy).Contents (Elt F)),
    StableHlo.unary main_v1486 main_v1894 (Host.sin : (⟨S16384, .f32⟩ : BufTy).Contents (Elt F) → (⟨S16384, .f32⟩ : BufTy).Contents (Elt F)),
    StableHlo.unary main_v1854 main_v1895 (Host.cos : (⟨S16384, .f32⟩ : BufTy).Contents (Elt F) → (⟨S16384, .f32⟩ : BufTy).Contents (Elt F)),
    StableHlo.unary main_v1787 main_v1896 (Host.sin : (⟨S16384, .f32⟩ : BufTy).Contents (Elt F) → (⟨S16384, .f32⟩ : BufTy).Contents (Elt F)),
    StableHlo.binary main_v1631 main_v1889 main_v1897 (addf : (⟨S16384, .f32⟩ : BufTy).Contents (Elt F) → (⟨S16384, .f32⟩ : BufTy).Contents (Elt F) → (⟨S16384, .f32⟩ : BufTy).Contents (Elt F)),
    StableHlo.binary main_v1571 main_v1749 main_v1898 (mulf : (⟨S16384, .f32⟩ : BufTy).Contents (Elt F) → (⟨S16384, .f32⟩ : BufTy).Contents (Elt F) → (⟨S16384, .f32⟩ : BufTy).Contents (Elt F)),
    StableHlo.binary main_v1836 main_v1662 main_v1899 (subf : (⟨S16384, .f32⟩ : BufTy).Contents (Elt F) → (⟨S16384, .f32⟩ : BufTy).Contents (Elt F) → (⟨S16384, .f32⟩ : BufTy).Contents (Elt F)),
    StableHlo.binary main_v1783 main_v1704 main_v1900 (addf : (⟨S16384, .f32⟩ : BufTy).Contents (Elt F) → (⟨S16384, .f32⟩ : BufTy).Contents (Elt F) → (⟨S16384, .f32⟩ : BufTy).Contents (Elt F)),
    StableHlo.unary main_v1806 main_v1901 (Host.sin : (⟨S16384, .f32⟩ : BufTy).Contents (Elt F) → (⟨S16384, .f32⟩ : BufTy).Contents (Elt F)),
    StableHlo.unary main_v1661 main_v1902 (Host.sin : (⟨S16384, .f32⟩ : BufTy).Contents (Elt F) → (⟨S16384, .f32⟩ : BufTy).Contents (Elt F)),
    StableHlo.binary main_v1862 main_v1764 main_v1903 (subf : (⟨S16384, .f32⟩ : BufTy).Contents (Elt F) → (⟨S16384, .f32⟩ : BufTy).Contents (Elt F) → (⟨S16384, .f32⟩ : BufTy).Contents (Elt F)) ]

theorem part31_eq (d : Dev nD) : main_part31 (F := F) d = seq ops31 := rfl
theorem ops31_sub : (ops31 (F := F)).Forall fun op => op.bufs ⊆ tcRefs τ sig := by line_sub
theorem ops31_fresh : ∀ op ∈ (ops31 (F := F)), op.fresh = ∅ := by line_fresh
theorem ops31_ordered : Cert.Ssa.Ordered 1861 (ops31 (F := F)) := by line_ordered

/-- Window 32 of @main: its operations, positions 1921 to 1980, in order. -/
abbrev ops32 : List (HloOp τ sig (Elt F)) :=
  [ StableHlo.unary main_v1302 main_v1904 (Host.sin : (⟨S16384, .f32⟩ : BufTy).Contents (Elt F) → (⟨S16384, .f32⟩ : BufTy).Contents (Elt F)),
    StableHlo.binary main_v1675 main_v1861 main_v1905 (subf : (⟨S16384, .f32⟩ : BufTy).Contents (Elt F) → (⟨S16384, .f32⟩ : BufTy).Contents (Elt F) → (⟨S16384, .f32⟩ : BufTy).Contents (Elt F)),
    StableHlo.binary main_v1347 main_v1854 main_v1906 (mulf : (⟨S16384, .f32⟩ : BufTy).Contents (Elt F) → (⟨S16384, .f32⟩ : BufTy).Contents (Elt F) → (⟨S16384, .f32⟩ : BufTy).Contents (Elt F)),
    StableHlo.unary main_v1576 main_v1907 (Host.sin : (⟨S16384, .f32⟩ : BufTy).Contents (Elt F) → (⟨S16384, .f32⟩ : BufTy).Contents (Elt F)),
    StableHlo.binary main_v1034 main_v1333 main_v1908 (mulf : (⟨S16384, .f32⟩ : BufTy).Contents (Elt F) → (⟨S16384, .f32⟩ : BufTy).Contents (Elt F) → (⟨S16384, .f32⟩ : BufTy).Contents (Elt F)),
    StableHlo.binary main_v1486 main_v1875 main_v1909 (addf : (⟨S16384, .f32⟩ : BufTy).Contents (Elt F) → (⟨S16384, .f32⟩ : BufTy).Contents (Elt F) → (⟨S16384, .f32⟩ : BufTy).Contents (Elt F)),
    StableHlo.unary main_v1637 main_v1910 (Host.sin : (⟨S16384, .f32⟩ : BufTy).Contents (Elt F) → (⟨S16384, .f32⟩ : BufTy).Contents (Elt F)),
    StableHlo.binary main_v1202 main_v1607 main_v1911 (addf : (⟨S16384, .f32⟩ : BufTy).Contents (Elt F) → (⟨S16384, .f32⟩ : BufTy).Contents (Elt F) → (⟨S16384, .f32⟩ : BufTy).Contents (Elt F)),
    StableHlo.unary main_v1587 main_v1912 (Host.cos : (⟨S16384, .f32⟩ : BufTy).Contents (Elt F) → (⟨S16384, .f32⟩ : BufTy).Contents (Elt F)),
    StableHlo.binary main_v1473 main_v1584 main_v1913 (addf : (⟨S16384, .f32⟩ : BufTy).Contents (Elt F) → (⟨S16384, .f32⟩ : BufTy).Contents (Elt F) → (⟨S16384, .f32⟩ : BufTy).Contents (Elt F)),
    StableHlo.binary main_v1910 main_v1268 main_v1914 (mulf : (⟨S16384, .f32⟩ : BufTy).Contents (Elt F) → (⟨S16384, .f32⟩ : BufTy).Contents (Elt F) → (⟨S16384, .f32⟩ : BufTy).Contents (Elt F)),
    StableHlo.unary main_v1631 main_v1915 (Host.cos : (⟨S16384, .f32⟩ : BufTy).Contents (Elt F) → (⟨S16384, .f32⟩ : BufTy).Contents (Elt F)),
    StableHlo.binary main_v1818 main_v1444 main_v1916 (addf : (⟨S16384, .f32⟩ : BufTy).Contents (Elt F) → (⟨S16384, .f32⟩ : BufTy).Contents (Elt F) → (⟨S16384, .f32⟩ : BufTy).Contents (Elt F)),
    StableHlo.unary main_v1774 main_v1917 (Host.negf : (⟨S16384, .f32⟩ : BufTy).Contents (Elt F) → (⟨S16384, .f32⟩ : BufTy).Contents (Elt F)),
    StableHlo.binary main_v1742 main_v1742 main_v1918 (mulf : (⟨S16384, .f32⟩ : BufTy).Contents (Elt F) → (⟨S16384, .f32⟩ : BufTy).Contents (Elt F) → (⟨S16384, .f32⟩ : BufTy).Contents (Elt F)),
    StableHlo.binary main_v1916 main_v1614 main_v1919 (addf : (⟨S16384, .f32⟩ : BufTy).Contents (Elt F) → (⟨S16384, .f32⟩ : BufTy).Contents (Elt F) → (⟨S16384, .f32⟩ : BufTy).Contents (Elt F)),
    StableHlo.unary main_v1876 main_v1920 (Host.sin : (⟨S16384, .f32⟩ : BufTy).Contents (Elt F) → (⟨S16384, .f32⟩ : BufTy).Contents (Elt F)),
    StableHlo.binary main_v1845 main_v1737 main_v1921 (addf : (⟨S16384, .f32⟩ : BufTy).Contents (Elt F) → (⟨S16384, .f32⟩ : BufTy).Contents (Elt F) → (⟨S16384, .f32⟩ : BufTy).Contents (Elt F)),
    StableHlo.unary main_v1815 main_v1922 (Host.cos : (⟨S16384, .f32⟩ : BufTy).Contents (Elt F) → (⟨S16384, .f32⟩ : BufTy).Contents (Elt F)),
    StableHlo.binary main_v1587 main_v1752 main_v1923 (mulf : (⟨S16384, .f32⟩ : BufTy).Contents (Elt F) → (⟨S16384, .f32⟩ : BufTy).Contents (Elt F) → (⟨S16384, .f32⟩ : BufTy).Contents (Elt F)),
    StableHlo.unary main_v1801 main_v1924 (Host.sin : (⟨S16384, .f32⟩ : BufTy).Contents (Elt F) → (⟨S16384, .f32⟩ : BufTy).Contents (Elt F)),
    StableHlo.binary main_v1875 main_v1793 main_v1925 (mulf : (⟨S16384, .f32⟩ : BufTy).Contents (Elt F) → (⟨S16384, .f32⟩ : BufTy).Contents (Elt F) → (⟨S16384, .f32⟩ : BufTy).Contents (Elt F)),
    StableHlo.unary main_v1802 main_v1926 (Host.cos : (⟨S16384, .f32⟩ : BufTy).Contents (Elt F) → (⟨S16384, .f32⟩ : BufTy).Contents (Elt F)),
    StableHlo.binary main_v1580 main_v1822 main_v1927 (addf : (⟨S16384, .f32⟩ : BufTy).Contents (Elt F) → (⟨S16384, .f32⟩ : BufTy).Contents (Elt F) → (⟨S16384, .f32⟩ : BufTy).Contents (Elt F)),
    StableHlo.unary main_v1745 main_v1928 (Host.cos : (⟨S16384, .f32⟩ : BufTy).Contents (Elt F) → (⟨S16384, .f32⟩ : BufTy).Contents (Elt F)),
    StableHlo.binary main_v1869 main_v1825 main_v1929 (addf : (⟨S16384, .f32⟩ : BufTy).Contents (Elt F) → (⟨S16384, .f32⟩ : BufTy).Contents (Elt F) → (⟨S16384, .f32⟩ : BufTy).Contents (Elt F)),
    StableHlo.binary main_v1871 main_v1842 main_v1930 (addf : (⟨S16384, .f32⟩ : BufTy).Contents (Elt F) → (⟨S16384, .f32⟩ : BufTy).Contents (Elt F) → (⟨S16384, .f32⟩ : BufTy).Contents (Elt F)),
    StableHlo.binary main_v1682 main_v1202 main_v1931 (addf : (⟨S16384, .f32⟩ : BufTy).Contents (Elt F) → (⟨S16384, .f32⟩ : BufTy).Contents (Elt F) → (⟨S16384, .f32⟩ : BufTy).Contents (Elt F)),
    StableHlo.unary main_v1845 main_v1932 (Host.sin : (⟨S16384, .f32⟩ : BufTy).Contents (Elt F) → (⟨S16384, .f32⟩ : BufTy).Contents (Elt F)),
    StableHlo.unary main_v1478 main_v1933 (Host.cos : (⟨S16384, .f32⟩ : BufTy).Contents (Elt F) → (⟨S16384, .f32⟩ : BufTy).Contents (Elt F)),
    StableHlo.binary main_v1881 main_v1923 main_v1934 (subf : (⟨S16384, .f32⟩ : BufTy).Contents (Elt F) → (⟨S16384, .f32⟩ : BufTy).Contents (Elt F) → (⟨S16384, .f32⟩ : BufTy).Contents (Elt F)),
    StableHlo.binary main_v1910 main_v1910 main_v1935 (mulf : (⟨S16384, .f32⟩ : BufTy).Contents (Elt F) → (⟨S16384, .f32⟩ : BufTy).Contents (Elt F) → (⟨S16384, .f32⟩ : BufTy).Contents (Elt F)),
    StableHlo.binary main_v1866 main_v1880 main_v1936 (addf : (⟨S16384, .f32⟩ : BufTy).Contents (Elt F) → (⟨S16384, .f32⟩ : BufTy).Contents (Elt F) → (⟨S16384, .f32⟩ : BufTy).Contents (Elt F)),
    StableHlo.binary main_v1918 main_v1936 main_v1937 (subf : (⟨S16384, .f32⟩ : BufTy).Contents (Elt F) → (⟨S16384, .f32⟩ : BufTy).Contents (Elt F) → (⟨S16384, .f32⟩ : BufTy).Contents (Elt F)),
    StableHlo.binary main_v1166 main_v1278 main_v1938 (subf : (⟨S16384, .f32⟩ : BufTy).Contents (Elt F) → (⟨S16384, .f32⟩ : BufTy).Contents (Elt F) → (⟨S16384, .f32⟩ : BufTy).Contents (Elt F)),
    StableHlo.binary main_v1535 main_v1486 main_v1939 (addf : (⟨S16384, .f32⟩ : BufTy).Contents (Elt F) → (⟨S16384, .f32⟩ : BufTy).Contents (Elt F) → (⟨S16384, .f32⟩ : BufTy).Contents (Elt F)),
    StableHlo.binary main_v1606 main_v1555 main_v1940 (subf : (⟨S16384, .f32⟩ : BufTy).Contents (Elt F) → (⟨S16384, .f32⟩ : BufTy).Contents (Elt F) → (⟨S16384, .f32⟩ : BufTy).Contents (Elt F)),
    StableHlo.binary main_v1858 main_v1164 main_v1941 (addf : (⟨S16384, .f32⟩ : BufTy).Contents (Elt F) → (⟨S16384, .f32⟩ : BufTy).Contents (Elt F) → (⟨S16384, .f32⟩ : BufTy).Contents (Elt F)),
    StableHlo.binary main_v1911 main_v1651 main_v1942 (addf : (⟨S16384, .f32⟩ : BufTy).Contents (Elt F) → (⟨S16384, .f32⟩ : BufTy).Contents (Elt F) → (⟨S16384, .f32⟩ : BufTy).Contents (Elt F)),
    StableHlo.binary main_v1795 main_v1752 main_v1943 (mulf : (⟨S16384, .f32⟩ : BufTy).Contents (Elt F) → (⟨S16384, .f32⟩ : BufTy).Contents (Elt F) → (⟨S16384, .f32⟩ : BufTy).Contents (Elt F)),
    StableHlo.unary main_v1829 main_v1944 (Host.cos : (⟨S16384, .f32⟩ : BufTy).Contents (Elt F) → (⟨S16384, .f32⟩ : BufTy).Contents (Elt F)),
    StableHlo.binary main_v1826 main_v1336 main_v1945 (subf : (⟨S16384, .f32⟩ : BufTy).Contents (Elt F) → (⟨S16384, .f32⟩ : BufTy).Contents (Elt F) → (⟨S16384, .f32⟩ : BufTy).Contents (Elt F)),
    StableHlo.unary main_v1866 main_v1946 (Host.sin : (⟨S16384, .f32⟩ : BufTy).Contents (Elt F) → (⟨S16384, .f32⟩ : BufTy).Contents (Elt F)),
    StableHlo.binary main_v1302 main_v1680 main_v1947 (subf : (⟨S16384, .f32⟩ : BufTy).Contents (Elt F) → (⟨S16384, .f32⟩ : BufTy).Contents (Elt F) → (⟨S16384, .f32⟩ : BufTy).Contents (Elt F)),
    StableHlo.binary main_v1872 main_v1861 main_v1948 (mulf : (⟨S16384, .f32⟩ : BufTy).Contents (Elt F) → (⟨S16384, .f32⟩ : BufTy).Contents (Elt F) → (⟨S16384, .f32⟩ : BufTy).Contents (Elt F)),
    StableHlo.binary main_v1576 main_v1882 main_v1949 (subf : (⟨S16384, .f32⟩ : BufTy).Contents (Elt F) → (⟨S16384, .f32⟩ : BufTy).Contents (Elt F) → (⟨S16384, .f32⟩ : BufTy).Contents (Elt F)),
    StableHlo.unary main_v1740 main_v1950 (Host.sin : (⟨S16384, .f32⟩ : BufTy).Contents (Elt F) → (⟨S16384, .f32⟩ : BufTy).Contents (Elt F)),
    StableHlo.binary main_v1366 main_v1600 main_v1951 (subf : (⟨S16384, .f32⟩ : BufTy).Contents (Elt F) → (⟨S16384, .f32⟩ : BufTy).Contents (Elt F) → (⟨S16384, .f32⟩ : BufTy).Contents (Elt F)),
    StableHlo.binary main_v1415 main_v1524 main_v1952 (subf : (⟨S16384, .f32⟩ : BufTy).Contents (Elt F) → (⟨S16384, .f32⟩ : BufTy).Contents (Elt F) → (⟨S16384, .f32⟩ : BufTy).Contents (Elt F)),
    StableHlo.binary main_v1258 main_v1898 main_v1953 (subf : (⟨S16384, .f32⟩ : BufTy).Contents (Elt F) → (⟨S16384, .f32⟩ : BufTy).Contents (Elt F) → (⟨S16384, .f32⟩ : BufTy).Contents (Elt F)),
    StableHlo.unary main_v1609 main_v1954 (Host.sin : (⟨S16384, .f32⟩ : BufTy).Contents (Elt F) → (⟨S16384, .f32⟩ : BufTy).Contents (Elt F)),
    StableHlo.unary main_v1742 main_v1955 (Host.cos : (⟨S16384, .f32⟩ : BufTy).Contents (Elt F) → (⟨S16384, .f32⟩ : BufTy).Contents (Elt F)),
    StableHlo.unary main_v1803 main_v1956 (Host.cos : (⟨S16384, .f32⟩ : BufTy).Contents (Elt F) → (⟨S16384, .f32⟩ : BufTy).Contents (Elt F)),
    StableHlo.binary main_v1687 main_v1798 main_v1957 (mulf : (⟨S16384, .f32⟩ : BufTy).Contents (Elt F) → (⟨S16384, .f32⟩ : BufTy).Contents (Elt F) → (⟨S16384, .f32⟩ : BufTy).Contents (Elt F)),
    StableHlo.binary main_v1907 main_v1592 main_v1958 (subf : (⟨S16384, .f32⟩ : BufTy).Contents (Elt F) → (⟨S16384, .f32⟩ : BufTy).Contents (Elt F) → (⟨S16384, .f32⟩ : BufTy).Contents (Elt F)),
    StableHlo.binary main_v1900 main_v1900 main_v1959 (mulf : (⟨S16384, .f32⟩ : BufTy).Contents (Elt F) → (⟨S16384, .f32⟩ : BufTy).Contents (Elt F) → (⟨S16384, .f32⟩ : BufTy).Contents (Elt F)),
    StableHlo.binary main_v1470 main_v1470 main_v1960 (mulf : (⟨S16384, .f32⟩ : BufTy).Contents (Elt F) → (⟨S16384, .f32⟩ : BufTy).Contents (Elt F) → (⟨S16384, .f32⟩ : BufTy).Contents (Elt F)),
    StableHlo.unary main_v1789 main_v1961 (Host.negf : (⟨S16384, .f32⟩ : BufTy).Contents (Elt F) → (⟨S16384, .f32⟩ : BufTy).Contents (Elt F)),
    StableHlo.binary main_v1802 main_v1907 main_v1962 (addf : (⟨S16384, .f32⟩ : BufTy).Contents (Elt F) → (⟨S16384, .f32⟩ : BufTy).Contents (Elt F) → (⟨S16384, .f32⟩ : BufTy).Contents (Elt F)),
    StableHlo.binary main_v1905 main_v1798 main_v1963 (mulf : (⟨S16384, .f32⟩ : BufTy).Contents (Elt F) → (⟨S16384, .f32⟩ : BufTy).Contents (Elt F) → (⟨S16384, .f32⟩ : BufTy).Contents (Elt F)) ]

theorem part32_eq (d : Dev nD) : main_part32 (F := F) d = seq ops32 := rfl
theorem ops32_sub : (ops32 (F := F)).Forall fun op => op.bufs ⊆ tcRefs τ sig := by line_sub
theorem ops32_fresh : ∀ op ∈ (ops32 (F := F)), op.fresh = ∅ := by line_fresh
theorem ops32_ordered : Cert.Ssa.Ordered 1921 (ops32 (F := F)) := by line_ordered

/-- Window 33 of @main: its operations, positions 1981 to 2040, in order. -/
abbrev ops33 : List (HloOp τ sig (Elt F)) :=
  [ StableHlo.unary main_v1904 main_v1964 (Host.negf : (⟨S16384, .f32⟩ : BufTy).Contents (Elt F) → (⟨S16384, .f32⟩ : BufTy).Contents (Elt F)),
    StableHlo.unary main_v1555 main_v1965 (Host.sin : (⟨S16384, .f32⟩ : BufTy).Contents (Elt F) → (⟨S16384, .f32⟩ : BufTy).Contents (Elt F)),
    StableHlo.unary main_v1881 main_v1966 (Host.sin : (⟨S16384, .f32⟩ : BufTy).Contents (Elt F) → (⟨S16384, .f32⟩ : BufTy).Contents (Elt F)),
    StableHlo.unary main_v1942 main_v1967 (Host.sin : (⟨S16384, .f32⟩ : BufTy).Contents (Elt F) → (⟨S16384, .f32⟩ : BufTy).Contents (Elt F)),
    StableHlo.unary main_v1651 main_v1968 (Host.sin : (⟨S16384, .f32⟩ : BufTy).Contents (Elt F) → (⟨S16384, .f32⟩ : BufTy).Contents (Elt F)),
    StableHlo.unary main_v1863 main_v1969 (Host.negf : (⟨S16384, .f32⟩ : BufTy).Contents (Elt F) → (⟨S16384, .f32⟩ : BufTy).Contents (Elt F)),
    StableHlo.binary main_v1798 main_v1714 main_v1970 (subf : (⟨S16384, .f32⟩ : BufTy).Contents (Elt F) → (⟨S16384, .f32⟩ : BufTy).Contents (Elt F) → (⟨S16384, .f32⟩ : BufTy).Contents (Elt F)),
    StableHlo.binary main_v1366 main_v1820 main_v1971 (addf : (⟨S16384, .f32⟩ : BufTy).Contents (Elt F) → (⟨S16384, .f32⟩ : BufTy).Contents (Elt F) → (⟨S16384, .f32⟩ : BufTy).Contents (Elt F)),
    StableHlo.binary main_v1651 main_v1896 main_v1972 (mulf : (⟨S16384, .f32⟩ : BufTy).Contents (Elt F) → (⟨S16384, .f32⟩ : BufTy).Contents (Elt F) → (⟨S16384, .f32⟩ : BufTy).Contents (Elt F)),
    StableHlo.binary main_v1675 main_v1725 main_v1973 (mulf : (⟨S16384, .f32⟩ : BufTy).Contents (Elt F) → (⟨S16384, .f32⟩ : BufTy).Contents (Elt F) → (⟨S16384, .f32⟩ : BufTy).Contents (Elt F)),
    StableHlo.unary main_v1100 main_v1974 (Host.sin : (⟨S16384, .f32⟩ : BufTy).Contents (Elt F) → (⟨S16384, .f32⟩ : BufTy).Contents (Elt F)),
    StableHlo.unary main_v1657 main_v1975 (Host.sin : (⟨S16384, .f32⟩ : BufTy).Contents (Elt F) → (⟨S16384, .f32⟩ : BufTy).Contents (Elt F)),
    StableHlo.binary main_v1931 main_v1879 main_v1976 (addf : (⟨S16384, .f32⟩ : BufTy).Contents (Elt F) → (⟨S16384, .f32⟩ : BufTy).Contents (Elt F) → (⟨S16384, .f32⟩ : BufTy).Contents (Elt F)),
    StableHlo.binary main_v1963 main_v1742 main_v1977 (addf : (⟨S16384, .f32⟩ : BufTy).Contents (Elt F) → (⟨S16384, .f32⟩ : BufTy).Contents (Elt F) → (⟨S16384, .f32⟩ : BufTy).Contents (Elt F)),
    StableHlo.unary main_v1918 main_v1978 (Host.cos : (⟨S16384, .f32⟩ : BufTy).Contents (Elt F) → (⟨S16384, .f32⟩ : BufTy).Contents (Elt F)),
    StableHlo.binary main_v1960 main_v1976 main_v1979 (addf : (⟨S16384, .f32⟩ : BufTy).Contents (Elt F) → (⟨S16384, .f32⟩ : BufTy).Contents (Elt F) → (⟨S16384, .f32⟩ : BufTy).Contents (Elt F)),
    StableHlo.unary main_v1806 main_v1980 (Host.sin : (⟨S16384, .f32⟩ : BufTy).Contents (Elt F) → (⟨S16384, .f32⟩ : BufTy).Contents (Elt F)),
    StableHlo.unary main_v1600 main_v1981 (Host.sin : (⟨S16384, .f32⟩ : BufTy).Contents (Elt F) → (⟨S16384, .f32⟩ : BufTy).Contents (Elt F)),
    StableHlo.unary main_v1893 main_v1982 (Host.cos : (⟨S16384, .f32⟩ : BufTy).Contents (Elt F) → (⟨S16384, .f32⟩ : BufTy).Contents (Elt F)),
    StableHlo.unary main_v1906 main_v1983 (Host.sin : (⟨S16384, .f32⟩ : BufTy).Contents (Elt F) → (⟨S16384, .f32⟩ : BufTy).Contents (Elt F)),
    StableHlo.binary main_v1870 main_v1870 main_v1984 (mulf : (⟨S16384, .f32⟩ : BufTy).Contents (Elt F) → (⟨S16384, .f32⟩ : BufTy).Contents (Elt F) → (⟨S16384, .f32⟩ : BufTy).Contents (Elt F)),
    StableHlo.unary main_v1708 main_v1985 (Host.cos : (⟨S16384, .f32⟩ : BufTy).Contents (Elt F) → (⟨S16384, .f32⟩ : BufTy).Contents (Elt F)),
    StableHlo.binary main_v1973 main_v1856 main_v1986 (subf : (⟨S16384, .f32⟩ : BufTy).Contents (Elt F) → (⟨S16384, .f32⟩ : BufTy).Contents (Elt F) → (⟨S16384, .f32⟩ : BufTy).Contents (Elt F)),
    StableHlo.unary main_v1866 main_v1987 (Host.sin : (⟨S16384, .f32⟩ : BufTy).Contents (Elt F) → (⟨S16384, .f32⟩ : BufTy).Contents (Elt F)),
    StableHlo.binary main_v1906 main_v1818 main_v1988 (mulf : (⟨S16384, .f32⟩ : BufTy).Contents (Elt F) → (⟨S16384, .f32⟩ : BufTy).Contents (Elt F) → (⟨S16384, .f32⟩ : BufTy).Contents (Elt F)),
    StableHlo.binary main_v1648 main_v1962 main_v1989 (subf : (⟨S16384, .f32⟩ : BufTy).Contents (Elt F) → (⟨S16384, .f32⟩ : BufTy).Contents (Elt F) → (⟨S16384, .f32⟩ : BufTy).Contents (Elt F)),
    StableHlo.unary main_v1754 main_v1990 (Host.cos : (⟨S16384, .f32⟩ : BufTy).Contents (Elt F) → (⟨S16384, .f32⟩ : BufTy).Contents (Elt F)),
    StableHlo.binary main_v1976 main_v1580 main_v1991 (addf : (⟨S16384, .f32⟩ : BufTy).Contents (Elt F) → (⟨S16384, .f32⟩ : BufTy).Contents (Elt F) → (⟨S16384, .f32⟩ : BufTy).Contents (Elt F)),
    StableHlo.binary main_v1509 main_v1509 main_v1992 (subf : (⟨S16384, .f32⟩ : BufTy).Contents (Elt F) → (⟨S16384, .f32⟩ : BufTy).Contents (Elt F) → (⟨S16384, .f32⟩ : BufTy).Contents (Elt F)),
    StableHlo.binary main_v1952 main_v1532 main_v1993 (addf : (⟨S16384, .f32⟩ : BufTy).Contents (Elt F) → (⟨S16384, .f32⟩ : BufTy).Contents (Elt F) → (⟨S16384, .f32⟩ : BufTy).Contents (Elt F)),
    StableHlo.unary main_v1876 main_v1994 (Host.cos : (⟨S16384, .f32⟩ : BufTy).Contents (Elt F) → (⟨S16384, .f32⟩ : BufTy).Contents (Elt F)),
    StableHlo.binary main_v1992 main_v1884 main_v1995 (addf : (⟨S16384, .f32⟩ : BufTy).Contents (Elt F) → (⟨S16384, .f32⟩ : BufTy).Contents (Elt F) → (⟨S16384, .f32⟩ : BufTy).Contents (Elt F)),
    StableHlo.unary main_v1450 main_v1996 (Host.sin : (⟨S16384, .f32⟩ : BufTy).Contents (Elt F) → (⟨S16384, .f32⟩ : BufTy).Contents (Elt F)),
    StableHlo.unary main_v1760 main_v1997 (Host.cos : (⟨S16384, .f32⟩ : BufTy).Contents (Elt F) → (⟨S16384, .f32⟩ : BufTy).Contents (Elt F)),
    StableHlo.unary main_v1478 main_v1998 (Host.sin : (⟨S16384, .f32⟩ : BufTy).Contents (Elt F) → (⟨S16384, .f32⟩ : BufTy).Contents (Elt F)),
    StableHlo.unary main_v1333 main_v1999 (Host.sin : (⟨S16384, .f32⟩ : BufTy).Contents (Elt F) → (⟨S16384, .f32⟩ : BufTy).Contents (Elt F)),
    StableHlo.binary main_v1631 main_v1968 main_v2000 (addf : (⟨S16384, .f32⟩ : BufTy).Contents (Elt F) → (⟨S16384, .f32⟩ : BufTy).Contents (Elt F) → (⟨S16384, .f32⟩ : BufTy).Contents (Elt F)),
    StableHlo.unary main_v1704 main_v2001 (Host.sin : (⟨S16384, .f32⟩ : BufTy).Contents (Elt F) → (⟨S16384, .f32⟩ : BufTy).Contents (Elt F)),
    StableHlo.unary main_v1651 main_v2002 (Host.cos : (⟨S16384, .f32⟩ : BufTy).Contents (Elt F) → (⟨S16384, .f32⟩ : BufTy).Contents (Elt F)),
    StableHlo.binary main_v1366 main_v1798 main_v2003 (addf : (⟨S16384, .f32⟩ : BufTy).Contents (Elt F) → (⟨S16384, .f32⟩ : BufTy).Contents (Elt F) → (⟨S16384, .f32⟩ : BufTy).Contents (Elt F)),
    StableHlo.unary main_v1888 main_v2004 (Host.negf : (⟨S16384, .f32⟩ : BufTy).Contents (Elt F) → (⟨S16384, .f32⟩ : BufTy).Contents (Elt F)),
    StableHlo.unary main_v1365 main_v2005 (Host.cos : (⟨S16384, .f32⟩ : BufTy).Contents (Elt F) → (⟨S16384, .f32⟩ : BufTy).Contents (Elt F)),
    StableHlo.binary main_v1845 main_v1918 main_v2006 (subf : (⟨S16384, .f32⟩ : BufTy).Contents (Elt F) → (⟨S16384, .f32⟩ : BufTy).Contents (Elt F) → (⟨S16384, .f32⟩ : BufTy).Contents (Elt F)),
    StableHlo.unary main_v2006 main_v2007 (Host.sin : (⟨S16384, .f32⟩ : BufTy).Contents (Elt F) → (⟨S16384, .f32⟩ : BufTy).Contents (Elt F)),
    StableHlo.unary main_v1890 main_v2008 (Host.sin : (⟨S16384, .f32⟩ : BufTy).Contents (Elt F) → (⟨S16384, .f32⟩ : BufTy).Contents (Elt F)),
    StableHlo.binary main_v1595 main_v1725 main_v2009 (addf : (⟨S16384, .f32⟩ : BufTy).Contents (Elt F) → (⟨S16384, .f32⟩ : BufTy).Contents (Elt F) → (⟨S16384, .f32⟩ : BufTy).Contents (Elt F)),
    StableHlo.unary main_v1174 main_v2010 (Host.sin : (⟨S16384, .f32⟩ : BufTy).Contents (Elt F) → (⟨S16384, .f32⟩ : BufTy).Contents (Elt F)),
    StableHlo.binary main_v1993 main_v1813 main_v2011 (mulf : (⟨S16384, .f32⟩ : BufTy).Contents (Elt F) → (⟨S16384, .f32⟩ : BufTy).Contents (Elt F) → (⟨S16384, .f32⟩ : BufTy).Contents (Elt F)),
    StableHlo.unary main_v1719 main_v2012 (Host.sin : (⟨S16384, .f32⟩ : BufTy).Contents (Elt F) → (⟨S16384, .f32⟩ : BufTy).Contents (Elt F)),
    StableHlo.binary main_v1988 main_v1990 main_v2013 (mulf : (⟨S16384, .f32⟩ : BufTy).Contents (Elt F) → (⟨S16384, .f32⟩ : BufTy).Contents (Elt F) → (⟨S16384, .f32⟩ : BufTy).Contents (Elt F)),
    StableHlo.unary main_v1876 main_v2014 (Host.sin : (⟨S16384, .f32⟩ : BufTy).Contents (Elt F) → (⟨S16384, .f32⟩ : BufTy).Contents (Elt F)),
    StableHlo.unary main_v1974 main_v2015 (Host.cos : (⟨S16384, .f32⟩ : BufTy).Contents (Elt F) → (⟨S16384, .f32⟩ : BufTy).Contents (Elt F)),
    StableHlo.unary main_v2002 main_v2016 (Host.negf : (⟨S16384, .f32⟩ : BufTy).Contents (Elt F) → (⟨S16384, .f32⟩ : BufTy).Contents (Elt F)),
    StableHlo.binary main_v1836 main_v1777 main_v2017 (addf : (⟨S16384, .f32⟩ : BufTy).Contents (Elt F) → (⟨S16384, .f32⟩ : BufTy).Contents (Elt F) → (⟨S16384, .f32⟩ : BufTy).Contents (Elt F)),
    StableHlo.unary main_v1843 main_v2018 (Host.cos : (⟨S16384, .f32⟩ : BufTy).Contents (Elt F) → (⟨S16384, .f32⟩ : BufTy).Contents (Elt F)),
    StableHlo.unary main_v1944 main_v2019 (Host.sin : (⟨S16384, .f32⟩ : BufTy).Contents (Elt F) → (⟨S16384, .f32⟩ : BufTy).Contents (Elt F)),
    StableHlo.unary main_v1365 main_v2020 (Host.cos : (⟨S16384, .f32⟩ : BufTy).Contents (Elt F) → (⟨S16384, .f32⟩ : BufTy).Contents (Elt F)),
    StableHlo.binary main_v1687 main_v1615 main_v2021 (mulf : (⟨S16384, .f32⟩ : BufTy).Contents (Elt F) → (⟨S16384, .f32⟩ : BufTy).Contents (Elt F) → (⟨S16384, .f32⟩ : BufTy).Contents (Elt F)),
    StableHlo.binary main_v1971 main_v1657 main_v2022 (mulf : (⟨S16384, .f32⟩ : BufTy).Contents (Elt F) → (⟨S16384, .f32⟩ : BufTy).Contents (Elt F) → (⟨S16384, .f32⟩ : BufTy).Contents (Elt F)),
    StableHlo.binary main_v1678 main_v1678 main_v2023 (mulf : (⟨S16384, .f32⟩ : BufTy).Contents (Elt F) → (⟨S16384, .f32⟩ : BufTy).Contents (Elt F) → (⟨S16384, .f32⟩ : BufTy).Contents (Elt F)) ]

theorem part33_eq (d : Dev nD) : main_part33 (F := F) d = seq ops33 := rfl
theorem ops33_sub : (ops33 (F := F)).Forall fun op => op.bufs ⊆ tcRefs τ sig := by line_sub
theorem ops33_fresh : ∀ op ∈ (ops33 (F := F)), op.fresh = ∅ := by line_fresh
theorem ops33_ordered : Cert.Ssa.Ordered 1981 (ops33 (F := F)) := by line_ordered

/-- Window 34 of @main: its operations, positions 2041 to 2100, in order. -/
abbrev ops34 : List (HloOp τ sig (Elt F)) :=
  [ StableHlo.binary main_v1814 main_v1637 main_v2024 (addf : (⟨S16384, .f32⟩ : BufTy).Contents (Elt F) → (⟨S16384, .f32⟩ : BufTy).Contents (Elt F) → (⟨S16384, .f32⟩ : BufTy).Contents (Elt F)),
    StableHlo.unary main_v2005 main_v2025 (Host.cos : (⟨S16384, .f32⟩ : BufTy).Contents (Elt F) → (⟨S16384, .f32⟩ : BufTy).Contents (Elt F)),
    StableHlo.unary main_v1895 main_v2026 (Host.cos : (⟨S16384, .f32⟩ : BufTy).Contents (Elt F) → (⟨S16384, .f32⟩ : BufTy).Contents (Elt F)),
    StableHlo.binary main_v1687 main_v1958 main_v2027 (subf : (⟨S16384, .f32⟩ : BufTy).Contents (Elt F) → (⟨S16384, .f32⟩ : BufTy).Contents (Elt F) → (⟨S16384, .f32⟩ : BufTy).Contents (Elt F)),
    StableHlo.binary main_v1548 main_v2006 main_v2028 (addf : (⟨S16384, .f32⟩ : BufTy).Contents (Elt F) → (⟨S16384, .f32⟩ : BufTy).Contents (Elt F) → (⟨S16384, .f32⟩ : BufTy).Contents (Elt F)),
    StableHlo.binary main_v1595 main_v1524 main_v2029 (subf : (⟨S16384, .f32⟩ : BufTy).Contents (Elt F) → (⟨S16384, .f32⟩ : BufTy).Contents (Elt F) → (⟨S16384, .f32⟩ : BufTy).Contents (Elt F)),
    StableHlo.unary main_v1708 main_v2030 (Host.sin : (⟨S16384, .f32⟩ : BufTy).Contents (Elt F) → (⟨S16384, .f32⟩ : BufTy).Contents (Elt F)),
    StableHlo.binary main_v1678 main_v1947 main_v2031 (addf : (⟨S16384, .f32⟩ : BufTy).Contents (Elt F) → (⟨S16384, .f32⟩ : BufTy).Contents (Elt F) → (⟨S16384, .f32⟩ : BufTy).Contents (Elt F)),
    StableHlo.binary main_v1986 main_v1715 main_v2032 (addf : (⟨S16384, .f32⟩ : BufTy).Contents (Elt F) → (⟨S16384, .f32⟩ : BufTy).Contents (Elt F) → (⟨S16384, .f32⟩ : BufTy).Contents (Elt F)),
    StableHlo.binary main_v1949 main_v1945 main_v2033 (subf : (⟨S16384, .f32⟩ : BufTy).Contents (Elt F) → (⟨S16384, .f32⟩ : BufTy).Contents (Elt F) → (⟨S16384, .f32⟩ : BufTy).Contents (Elt F)),
    StableHlo.unary main_v1775 main_v2034 (Host.cos : (⟨S16384, .f32⟩ : BufTy).Contents (Elt F) → (⟨S16384, .f32⟩ : BufTy).Contents (Elt F)),
    StableHlo.unary main_v1665 main_v2035 (Host.sin : (⟨S16384, .f32⟩ : BufTy).Contents (Elt F) → (⟨S16384, .f32⟩ : BufTy).Contents (Elt F)),
    StableHlo.binary main_v1890 main_v2004 main_v2036 (mulf : (⟨S16384, .f32⟩ : BufTy).Contents (Elt F) → (⟨S16384, .f32⟩ : BufTy).Contents (Elt F) → (⟨S16384, .f32⟩ : BufTy).Contents (Elt F)),
    StableHlo.unary main_v1412 main_v2037 (Host.negf : (⟨S16384, .f32⟩ : BufTy).Contents (Elt F) → (⟨S16384, .f32⟩ : BufTy).Contents (Elt F)),
    StableHlo.unary main_v1819 main_v2038 (Host.sin : (⟨S16384, .f32⟩ : BufTy).Contents (Elt F) → (⟨S16384, .f32⟩ : BufTy).Contents (Elt F)),
    StableHlo.unary main_v1960 main_v2039 (Host.sin : (⟨S16384, .f32⟩ : BufTy).Contents (Elt F) → (⟨S16384, .f32⟩ : BufTy).Contents (Elt F)),
    StableHlo.binary main_v1801 main_v1869 main_v2040 (subf : (⟨S16384, .f32⟩ : BufTy).Contents (Elt F) → (⟨S16384, .f32⟩ : BufTy).Contents (Elt F) → (⟨S16384, .f32⟩ : BufTy).Contents (Elt F)),
    StableHlo.binary main_v1971 main_v2030 main_v2041 (addf : (⟨S16384, .f32⟩ : BufTy).Contents (Elt F) → (⟨S16384, .f32⟩ : BufTy).Contents (Elt F) → (⟨S16384, .f32⟩ : BufTy).Contents (Elt F)),
    StableHlo.unary main_v1899 main_v2042 (Host.sin : (⟨S16384, .f32⟩ : BufTy).Contents (Elt F) → (⟨S16384, .f32⟩ : BufTy).Contents (Elt F)),
    StableHlo.unary main_v1535 main_v2043 (Host.sin : (⟨S16384, .f32⟩ : BufTy).Contents (Elt F) → (⟨S16384, .f32⟩ : BufTy).Contents (Elt F)),
    StableHlo.binary main_v1813 main_v1786 main_v2044 (subf : (⟨S16384, .f32⟩ : BufTy).Contents (Elt F) → (⟨S16384, .f32⟩ : BufTy).Contents (Elt F) → (⟨S16384, .f32⟩ : BufTy).Contents (Elt F)),
    StableHlo.binary main_v1920 main_v1920 main_v2045 (mulf : (⟨S16384, .f32⟩ : BufTy).Contents (Elt F) → (⟨S16384, .f32⟩ : BufTy).Contents (Elt F) → (⟨S16384, .f32⟩ : BufTy).Contents (Elt F)),
    StableHlo.binary main_v1762 main_v2032 main_v2046 (addf : (⟨S16384, .f32⟩ : BufTy).Contents (Elt F) → (⟨S16384, .f32⟩ : BufTy).Contents (Elt F) → (⟨S16384, .f32⟩ : BufTy).Contents (Elt F)),
    StableHlo.unary main_v1988 main_v2047 (Host.negf : (⟨S16384, .f32⟩ : BufTy).Contents (Elt F) → (⟨S16384, .f32⟩ : BufTy).Contents (Elt F)),
    StableHlo.binary main_v1988 main_v1957 main_v2048 (mulf : (⟨S16384, .f32⟩ : BufTy).Contents (Elt F) → (⟨S16384, .f32⟩ : BufTy).Contents (Elt F) → (⟨S16384, .f32⟩ : BufTy).Contents (Elt F)),
    StableHlo.unary main_v1555 main_v2049 (Host.sin : (⟨S16384, .f32⟩ : BufTy).Contents (Elt F) → (⟨S16384, .f32⟩ : BufTy).Contents (Elt F)),
    StableHlo.unary main_v1893 main_v2050 (Host.sin : (⟨S16384, .f32⟩ : BufTy).Contents (Elt F) → (⟨S16384, .f32⟩ : BufTy).Contents (Elt F)),
    StableHlo.unary main_v1787 main_v2051 (Host.negf : (⟨S16384, .f32⟩ : BufTy).Contents (Elt F) → (⟨S16384, .f32⟩ : BufTy).Contents (Elt F)),
    StableHlo.unary main_v1900 main_v2052 (Host.sin : (⟨S16384, .f32⟩ : BufTy).Contents (Elt F) → (⟨S16384, .f32⟩ : BufTy).Contents (Elt F)),
    StableHlo.binary main_v1787 main_v1762 main_v2053 (subf : (⟨S16384, .f32⟩ : BufTy).Contents (Elt F) → (⟨S16384, .f32⟩ : BufTy).Contents (Elt F) → (⟨S16384, .f32⟩ : BufTy).Contents (Elt F)),
    StableHlo.binary main_v1444 main_v1806 main_v2054 (mulf : (⟨S16384, .f32⟩ : BufTy).Contents (Elt F) → (⟨S16384, .f32⟩ : BufTy).Contents (Elt F) → (⟨S16384, .f32⟩ : BufTy).Contents (Elt F)),
    StableHlo.unary main_v1917 main_v2055 (Host.negf : (⟨S16384, .f32⟩ : BufTy).Contents (Elt F) → (⟨S16384, .f32⟩ : BufTy).Contents (Elt F)),
    StableHlo.binary main_v2045 main_v2047 main_v2056 (subf : (⟨S16384, .f32⟩ : BufTy).Contents (Elt F) → (⟨S16384, .f32⟩ : BufTy).Contents (Elt F) → (⟨S16384, .f32⟩ : BufTy).Contents (Elt F)),
    StableHlo.unary main_v2042 main_v2057 (Host.sin : (⟨S16384, .f32⟩ : BufTy).Contents (Elt F) → (⟨S16384, .f32⟩ : BufTy).Contents (Elt F)),
    StableHlo.unary main_v2014 main_v2058 (Host.sin : (⟨S16384, .f32⟩ : BufTy).Contents (Elt F) → (⟨S16384, .f32⟩ : BufTy).Contents (Elt F)),
    StableHlo.binary main_v1886 main_v1838 main_v2059 (subf : (⟨S16384, .f32⟩ : BufTy).Contents (Elt F) → (⟨S16384, .f32⟩ : BufTy).Contents (Elt F) → (⟨S16384, .f32⟩ : BufTy).Contents (Elt F)),
    StableHlo.unary main_v1953 main_v2060 (Host.cos : (⟨S16384, .f32⟩ : BufTy).Contents (Elt F) → (⟨S16384, .f32⟩ : BufTy).Contents (Elt F)),
    StableHlo.unary main_v1890 main_v2061 (Host.sin : (⟨S16384, .f32⟩ : BufTy).Contents (Elt F) → (⟨S16384, .f32⟩ : BufTy).Contents (Elt F)),
    StableHlo.binary main_v1292 main_v2047 main_v2062 (addf : (⟨S16384, .f32⟩ : BufTy).Contents (Elt F) → (⟨S16384, .f32⟩ : BufTy).Contents (Elt F) → (⟨S16384, .f32⟩ : BufTy).Contents (Elt F)),
    StableHlo.unary main_v1945 main_v2063 (Host.sin : (⟨S16384, .f32⟩ : BufTy).Contents (Elt F) → (⟨S16384, .f32⟩ : BufTy).Contents (Elt F)),
    StableHlo.binary main_v2046 main_v2015 main_v2064 (mulf : (⟨S16384, .f32⟩ : BufTy).Contents (Elt F) → (⟨S16384, .f32⟩ : BufTy).Contents (Elt F) → (⟨S16384, .f32⟩ : BufTy).Contents (Elt F)),
    StableHlo.unary main_v2040 main_v2065 (Host.cos : (⟨S16384, .f32⟩ : BufTy).Contents (Elt F) → (⟨S16384, .f32⟩ : BufTy).Contents (Elt F)),
    StableHlo.binary main_v1839 main_v1975 main_v2066 (subf : (⟨S16384, .f32⟩ : BufTy).Contents (Elt F) → (⟨S16384, .f32⟩ : BufTy).Contents (Elt F) → (⟨S16384, .f32⟩ : BufTy).Contents (Elt F)),
    StableHlo.binary main_v1960 main_v1751 main_v2067 (subf : (⟨S16384, .f32⟩ : BufTy).Contents (Elt F) → (⟨S16384, .f32⟩ : BufTy).Contents (Elt F) → (⟨S16384, .f32⟩ : BufTy).Contents (Elt F)),
    StableHlo.unary main_v1772 main_v2068 (Host.sin : (⟨S16384, .f32⟩ : BufTy).Contents (Elt F) → (⟨S16384, .f32⟩ : BufTy).Contents (Elt F)),
    StableHlo.binary main_v1988 main_v2058 main_v2069 (subf : (⟨S16384, .f32⟩ : BufTy).Contents (Elt F) → (⟨S16384, .f32⟩ : BufTy).Contents (Elt F) → (⟨S16384, .f32⟩ : BufTy).Contents (Elt F)),
    StableHlo.binary main_v1704 main_v2014 main_v2070 (mulf : (⟨S16384, .f32⟩ : BufTy).Contents (Elt F) → (⟨S16384, .f32⟩ : BufTy).Contents (Elt F) → (⟨S16384, .f32⟩ : BufTy).Contents (Elt F)),
    StableHlo.unary main_v1985 main_v2071 (Host.sin : (⟨S16384, .f32⟩ : BufTy).Contents (Elt F) → (⟨S16384, .f32⟩ : BufTy).Contents (Elt F)),
    StableHlo.unary main_v1365 main_v2072 (Host.sin : (⟨S16384, .f32⟩ : BufTy).Contents (Elt F) → (⟨S16384, .f32⟩ : BufTy).Contents (Elt F)),
    StableHlo.unary main_v406 main_v2073 (Host.cos : (⟨S16384, .f32⟩ : BufTy).Contents (Elt F) → (⟨S16384, .f32⟩ : BufTy).Contents (Elt F)),
    StableHlo.binary main_v1867 main_v1807 main_v2074 (addf : (⟨S16384, .f32⟩ : BufTy).Contents (Elt F) → (⟨S16384, .f32⟩ : BufTy).Contents (Elt F) → (⟨S16384, .f32⟩ : BufTy).Contents (Elt F)),
    StableHlo.unary main_v1884 main_v2075 (Host.cos : (⟨S16384, .f32⟩ : BufTy).Contents (Elt F) → (⟨S16384, .f32⟩ : BufTy).Contents (Elt F)),
    StableHlo.unary main_v2061 main_v2076 (Host.negf : (⟨S16384, .f32⟩ : BufTy).Contents (Elt F) → (⟨S16384, .f32⟩ : BufTy).Contents (Elt F)),
    StableHlo.binary main_v2045 main_v1981 main_v2077 (subf : (⟨S16384, .f32⟩ : BufTy).Contents (Elt F) → (⟨S16384, .f32⟩ : BufTy).Contents (Elt F) → (⟨S16384, .f32⟩ : BufTy).Contents (Elt F)),
    StableHlo.binary main_v2034 main_v1754 main_v2078 (addf : (⟨S16384, .f32⟩ : BufTy).Contents (Elt F) → (⟨S16384, .f32⟩ : BufTy).Contents (Elt F) → (⟨S16384, .f32⟩ : BufTy).Contents (Elt F)),
    StableHlo.unary main_v1802 main_v2079 (Host.cos : (⟨S16384, .f32⟩ : BufTy).Contents (Elt F) → (⟨S16384, .f32⟩ : BufTy).Contents (Elt F)),
    StableHlo.binary main_v1870 main_v1863 main_v2080 (addf : (⟨S16384, .f32⟩ : BufTy).Contents (Elt F) → (⟨S16384, .f32⟩ : BufTy).Contents (Elt F) → (⟨S16384, .f32⟩ : BufTy).Contents (Elt F)),
    StableHlo.binary main_v1979 main_v1800 main_v2081 (mulf : (⟨S16384, .f32⟩ : BufTy).Contents (Elt F) → (⟨S16384, .f32⟩ : BufTy).Contents (Elt F) → (⟨S16384, .f32⟩ : BufTy).Contents (Elt F)),
    StableHlo.binary main_v2047 main_v1699 main_v2082 (mulf : (⟨S16384, .f32⟩ : BufTy).Contents (Elt F) → (⟨S16384, .f32⟩ : BufTy).Contents (Elt F) → (⟨S16384, .f32⟩ : BufTy).Contents (Elt F)),
    StableHlo.unary main_v2019 main_v2083 (Host.sin : (⟨S16384, .f32⟩ : BufTy).Contents (Elt F) → (⟨S16384, .f32⟩ : BufTy).Contents (Elt F)) ]

theorem part34_eq (d : Dev nD) : main_part34 (F := F) d = seq ops34 := rfl
theorem ops34_sub : (ops34 (F := F)).Forall fun op => op.bufs ⊆ tcRefs τ sig := by line_sub
theorem ops34_fresh : ∀ op ∈ (ops34 (F := F)), op.fresh = ∅ := by line_fresh
theorem ops34_ordered : Cert.Ssa.Ordered 2041 (ops34 (F := F)) := by line_ordered

/-- Window 35 of @main: its operations, positions 2101 to 2160, in order. -/
abbrev ops35 : List (HloOp τ sig (Elt F)) :=
  [ StableHlo.binary main_v2034 main_v2032 main_v2084 (addf : (⟨S16384, .f32⟩ : BufTy).Contents (Elt F) → (⟨S16384, .f32⟩ : BufTy).Contents (Elt F) → (⟨S16384, .f32⟩ : BufTy).Contents (Elt F)),
    StableHlo.unary main_v1935 main_v2085 (Host.sin : (⟨S16384, .f32⟩ : BufTy).Contents (Elt F) → (⟨S16384, .f32⟩ : BufTy).Contents (Elt F)),
    StableHlo.unary main_v1845 main_v2086 (Host.cos : (⟨S16384, .f32⟩ : BufTy).Contents (Elt F) → (⟨S16384, .f32⟩ : BufTy).Contents (Elt F)),
    StableHlo.binary main_v2040 main_v1898 main_v2087 (addf : (⟨S16384, .f32⟩ : BufTy).Contents (Elt F) → (⟨S16384, .f32⟩ : BufTy).Contents (Elt F) → (⟨S16384, .f32⟩ : BufTy).Contents (Elt F)),
    StableHlo.unary main_v1781 main_v2088 (Host.cos : (⟨S16384, .f32⟩ : BufTy).Contents (Elt F) → (⟨S16384, .f32⟩ : BufTy).Contents (Elt F)),
    StableHlo.binary main_v811 main_v2084 main_v2089 (addf : (⟨S16384, .f32⟩ : BufTy).Contents (Elt F) → (⟨S16384, .f32⟩ : BufTy).Contents (Elt F) → (⟨S16384, .f32⟩ : BufTy).Contents (Elt F)),
    StableHlo.unary main_v2002 main_v2090 (Host.sin : (⟨S16384, .f32⟩ : BufTy).Contents (Elt F) → (⟨S16384, .f32⟩ : BufTy).Contents (Elt F)),
    StableHlo.binary main_v1805 main_v1805 main_v2091 (mulf : (⟨S16384, .f32⟩ : BufTy).Contents (Elt F) → (⟨S16384, .f32⟩ : BufTy).Contents (Elt F) → (⟨S16384, .f32⟩ : BufTy).Contents (Elt F)),
    StableHlo.unary main_v1836 main_v2092 (Host.cos : (⟨S16384, .f32⟩ : BufTy).Contents (Elt F) → (⟨S16384, .f32⟩ : BufTy).Contents (Elt F)),
    StableHlo.unary main_v2003 main_v2093 (Host.cos : (⟨S16384, .f32⟩ : BufTy).Contents (Elt F) → (⟨S16384, .f32⟩ : BufTy).Contents (Elt F)),
    StableHlo.binary main_v1915 main_v1931 main_v2094 (subf : (⟨S16384, .f32⟩ : BufTy).Contents (Elt F) → (⟨S16384, .f32⟩ : BufTy).Contents (Elt F) → (⟨S16384, .f32⟩ : BufTy).Contents (Elt F)),
    StableHlo.binary main_v1592 main_v1995 main_v2095 (subf : (⟨S16384, .f32⟩ : BufTy).Contents (Elt F) → (⟨S16384, .f32⟩ : BufTy).Contents (Elt F) → (⟨S16384, .f32⟩ : BufTy).Contents (Elt F)),
    StableHlo.binary main_v1675 main_v1978 main_v2096 (addf : (⟨S16384, .f32⟩ : BufTy).Contents (Elt F) → (⟨S16384, .f32⟩ : BufTy).Contents (Elt F) → (⟨S16384, .f32⟩ : BufTy).Contents (Elt F)),
    StableHlo.binary main_v1625 main_v1969 main_v2097 (addf : (⟨S16384, .f32⟩ : BufTy).Contents (Elt F) → (⟨S16384, .f32⟩ : BufTy).Contents (Elt F) → (⟨S16384, .f32⟩ : BufTy).Contents (Elt F)),
    StableHlo.binary main_v2064 main_v2038 main_v2098 (mulf : (⟨S16384, .f32⟩ : BufTy).Contents (Elt F) → (⟨S16384, .f32⟩ : BufTy).Contents (Elt F) → (⟨S16384, .f32⟩ : BufTy).Contents (Elt F)),
    StableHlo.binary main_v1884 main_v1884 main_v2099 (mulf : (⟨S16384, .f32⟩ : BufTy).Contents (Elt F) → (⟨S16384, .f32⟩ : BufTy).Contents (Elt F) → (⟨S16384, .f32⟩ : BufTy).Contents (Elt F)),
    StableHlo.binary main_v1699 main_v1699 main_v2100 (mulf : (⟨S16384, .f32⟩ : BufTy).Contents (Elt F) → (⟨S16384, .f32⟩ : BufTy).Contents (Elt F) → (⟨S16384, .f32⟩ : BufTy).Contents (Elt F)),
    StableHlo.unary main_v1700 main_v2101 (Host.sin : (⟨S16384, .f32⟩ : BufTy).Contents (Elt F) → (⟨S16384, .f32⟩ : BufTy).Contents (Elt F)),
    StableHlo.unary main_v1751 main_v2102 (Host.sin : (⟨S16384, .f32⟩ : BufTy).Contents (Elt F) → (⟨S16384, .f32⟩ : BufTy).Contents (Elt F)),
    StableHlo.unary main_v1917 main_v2103 (Host.cos : (⟨S16384, .f32⟩ : BufTy).Contents (Elt F) → (⟨S16384, .f32⟩ : BufTy).Contents (Elt F)),
    StableHlo.unary main_v2090 main_v2104 (Host.sin : (⟨S16384, .f32⟩ : BufTy).Contents (Elt F) → (⟨S16384, .f32⟩ : BufTy).Contents (Elt F)),
    StableHlo.binary main_v2028 main_v1814 main_v2105 (subf : (⟨S16384, .f32⟩ : BufTy).Contents (Elt F) → (⟨S16384, .f32⟩ : BufTy).Contents (Elt F) → (⟨S16384, .f32⟩ : BufTy).Contents (Elt F)),
    StableHlo.unary main_v2104 main_v2106 (Host.cos : (⟨S16384, .f32⟩ : BufTy).Contents (Elt F) → (⟨S16384, .f32⟩ : BufTy).Contents (Elt F)),
    StableHlo.unary main_v2098 main_v2107 (Host.cos : (⟨S16384, .f32⟩ : BufTy).Contents (Elt F) → (⟨S16384, .f32⟩ : BufTy).Contents (Elt F)),
    StableHlo.unary main_v1509 main_v2108 (Host.sin : (⟨S16384, .f32⟩ : BufTy).Contents (Elt F) → (⟨S16384, .f32⟩ : BufTy).Contents (Elt F)),
    StableHlo.binary main_v2022 main_v1908 main_v2109 (mulf : (⟨S16384, .f32⟩ : BufTy).Contents (Elt F) → (⟨S16384, .f32⟩ : BufTy).Contents (Elt F) → (⟨S16384, .f32⟩ : BufTy).Contents (Elt F)),
    StableHlo.unary main_v2015 main_v2110 (Host.cos : (⟨S16384, .f32⟩ : BufTy).Contents (Elt F) → (⟨S16384, .f32⟩ : BufTy).Contents (Elt F)),
    StableHlo.binary main_v1924 main_v2026 main_v2111 (addf : (⟨S16384, .f32⟩ : BufTy).Contents (Elt F) → (⟨S16384, .f32⟩ : BufTy).Contents (Elt F) → (⟨S16384, .f32⟩ : BufTy).Contents (Elt F)),
    StableHlo.unary main_v1852 main_v2112 (Host.sin : (⟨S16384, .f32⟩ : BufTy).Contents (Elt F) → (⟨S16384, .f32⟩ : BufTy).Contents (Elt F)),
    StableHlo.unary main_v2025 main_v2113 (Host.sin : (⟨S16384, .f32⟩ : BufTy).Contents (Elt F) → (⟨S16384, .f32⟩ : BufTy).Contents (Elt F)),
    StableHlo.unary main_v1866 main_v2114 (Host.negf : (⟨S16384, .f32⟩ : BufTy).Contents (Elt F) → (⟨S16384, .f32⟩ : BufTy).Contents (Elt F)),
    StableHlo.unary main_v1924 main_v2115 (Host.sin : (⟨S16384, .f32⟩ : BufTy).Contents (Elt F) → (⟨S16384, .f32⟩ : BufTy).Contents (Elt F)),
    StableHlo.unary main_v1333 main_v2116 (Host.sin : (⟨S16384, .f32⟩ : BufTy).Contents (Elt F) → (⟨S16384, .f32⟩ : BufTy).Contents (Elt F)),
    StableHlo.unary main_v2081 main_v2117 (Host.cos : (⟨S16384, .f32⟩ : BufTy).Contents (Elt F) → (⟨S16384, .f32⟩ : BufTy).Contents (Elt F)),
    StableHlo.unary main_v406 main_v2118 (Host.cos : (⟨S16384, .f32⟩ : BufTy).Contents (Elt F) → (⟨S16384, .f32⟩ : BufTy).Contents (Elt F)),
    StableHlo.unary main_v571 main_v2119 (Host.sin : (⟨S16384, .f32⟩ : BufTy).Contents (Elt F) → (⟨S16384, .f32⟩ : BufTy).Contents (Elt F)),
    StableHlo.binary main_v1861 main_v1861 main_v2120 (mulf : (⟨S16384, .f32⟩ : BufTy).Contents (Elt F) → (⟨S16384, .f32⟩ : BufTy).Contents (Elt F) → (⟨S16384, .f32⟩ : BufTy).Contents (Elt F)),
    StableHlo.binary main_v1717 main_v1717 main_v2121 (mulf : (⟨S16384, .f32⟩ : BufTy).Contents (Elt F) → (⟨S16384, .f32⟩ : BufTy).Contents (Elt F) → (⟨S16384, .f32⟩ : BufTy).Contents (Elt F)),
    StableHlo.binary main_v1675 main_v1675 main_v2122 (mulf : (⟨S16384, .f32⟩ : BufTy).Contents (Elt F) → (⟨S16384, .f32⟩ : BufTy).Contents (Elt F) → (⟨S16384, .f32⟩ : BufTy).Contents (Elt F)),
    StableHlo.unary main_v2027 main_v2123 (Host.cos : (⟨S16384, .f32⟩ : BufTy).Contents (Elt F) → (⟨S16384, .f32⟩ : BufTy).Contents (Elt F)),
    StableHlo.unary main_v2010 main_v2124 (Host.cos : (⟨S16384, .f32⟩ : BufTy).Contents (Elt F) → (⟨S16384, .f32⟩ : BufTy).Contents (Elt F)),
    StableHlo.unary main_v1737 main_v2125 (Host.sin : (⟨S16384, .f32⟩ : BufTy).Contents (Elt F) → (⟨S16384, .f32⟩ : BufTy).Contents (Elt F)),
    StableHlo.unary main_v2074 main_v2126 (Host.sin : (⟨S16384, .f32⟩ : BufTy).Contents (Elt F) → (⟨S16384, .f32⟩ : BufTy).Contents (Elt F)),
    StableHlo.unary main_v1881 main_v2127 (Host.cos : (⟨S16384, .f32⟩ : BufTy).Contents (Elt F) → (⟨S16384, .f32⟩ : BufTy).Contents (Elt F)),
    StableHlo.unary main_v1929 main_v2128 (Host.sin : (⟨S16384, .f32⟩ : BufTy).Contents (Elt F) → (⟨S16384, .f32⟩ : BufTy).Contents (Elt F)),
    StableHlo.unary main_v2038 main_v2129 (Host.cos : (⟨S16384, .f32⟩ : BufTy).Contents (Elt F) → (⟨S16384, .f32⟩ : BufTy).Contents (Elt F)),
    StableHlo.binary main_v1890 main_v1814 main_v2130 (subf : (⟨S16384, .f32⟩ : BufTy).Contents (Elt F) → (⟨S16384, .f32⟩ : BufTy).Contents (Elt F) → (⟨S16384, .f32⟩ : BufTy).Contents (Elt F)),
    StableHlo.unary main_v2125 main_v2131 (Host.cos : (⟨S16384, .f32⟩ : BufTy).Contents (Elt F) → (⟨S16384, .f32⟩ : BufTy).Contents (Elt F)),
    StableHlo.unary main_v2009 main_v2132 (Host.cos : (⟨S16384, .f32⟩ : BufTy).Contents (Elt F) → (⟨S16384, .f32⟩ : BufTy).Contents (Elt F)),
    StableHlo.binary main_v2024 main_v1869 main_v2133 (mulf : (⟨S16384, .f32⟩ : BufTy).Contents (Elt F) → (⟨S16384, .f32⟩ : BufTy).Contents (Elt F) → (⟨S16384, .f32⟩ : BufTy).Contents (Elt F)),
    StableHlo.unary main_v2110 main_v2134 (Host.negf : (⟨S16384, .f32⟩ : BufTy).Contents (Elt F) → (⟨S16384, .f32⟩ : BufTy).Contents (Elt F)),
    StableHlo.unary main_v1585 main_v2135 (Host.cos : (⟨S16384, .f32⟩ : BufTy).Contents (Elt F) → (⟨S16384, .f32⟩ : BufTy).Contents (Elt F)),
    StableHlo.binary main_v1827 main_v2083 main_v2136 (mulf : (⟨S16384, .f32⟩ : BufTy).Contents (Elt F) → (⟨S16384, .f32⟩ : BufTy).Contents (Elt F) → (⟨S16384, .f32⟩ : BufTy).Contents (Elt F)),
    StableHlo.binary main_v1535 main_v1971 main_v2137 (addf : (⟨S16384, .f32⟩ : BufTy).Contents (Elt F) → (⟨S16384, .f32⟩ : BufTy).Contents (Elt F) → (⟨S16384, .f32⟩ : BufTy).Contents (Elt F)),
    StableHlo.unary main_v1412 main_v2138 (Host.cos : (⟨S16384, .f32⟩ : BufTy).Contents (Elt F) → (⟨S16384, .f32⟩ : BufTy).Contents (Elt F)),
    StableHlo.binary main_v1994 main_v1802 main_v2139 (addf : (⟨S16384, .f32⟩ : BufTy).Contents (Elt F) → (⟨S16384, .f32⟩ : BufTy).Contents (Elt F) → (⟨S16384, .f32⟩ : BufTy).Contents (Elt F)),
    StableHlo.unary main_v811 main_v2140 (Host.sin : (⟨S16384, .f32⟩ : BufTy).Contents (Elt F) → (⟨S16384, .f32⟩ : BufTy).Contents (Elt F)),
    StableHlo.unary main_v1964 main_v2141 (Host.sin : (⟨S16384, .f32⟩ : BufTy).Contents (Elt F) → (⟨S16384, .f32⟩ : BufTy).Contents (Elt F)),
    StableHlo.binary main_v2024 main_v1960 main_v2142 (addf : (⟨S16384, .f32⟩ : BufTy).Contents (Elt F) → (⟨S16384, .f32⟩ : BufTy).Contents (Elt F) → (⟨S16384, .f32⟩ : BufTy).Contents (Elt F)),
    StableHlo.binary main_v1974 main_v1997 main_v2143 (addf : (⟨S16384, .f32⟩ : BufTy).Contents (Elt F) → (⟨S16384, .f32⟩ : BufTy).Contents (Elt F) → (⟨S16384, .f32⟩ : BufTy).Contents (Elt F)) ]

theorem part35_eq (d : Dev nD) : main_part35 (F := F) d = seq ops35 := rfl
theorem ops35_sub : (ops35 (F := F)).Forall fun op => op.bufs ⊆ tcRefs τ sig := by line_sub
theorem ops35_fresh : ∀ op ∈ (ops35 (F := F)), op.fresh = ∅ := by line_fresh
theorem ops35_ordered : Cert.Ssa.Ordered 2101 (ops35 (F := F)) := by line_ordered

/-- Window 36 of @main: its operations, positions 2161 to 2220, in order. -/
abbrev ops36 : List (HloOp τ sig (Elt F)) :=
  [ StableHlo.unary main_v2031 main_v2144 (Host.sin : (⟨S16384, .f32⟩ : BufTy).Contents (Elt F) → (⟨S16384, .f32⟩ : BufTy).Contents (Elt F)),
    StableHlo.binary main_v2082 main_v1908 main_v2145 (mulf : (⟨S16384, .f32⟩ : BufTy).Contents (Elt F) → (⟨S16384, .f32⟩ : BufTy).Contents (Elt F) → (⟨S16384, .f32⟩ : BufTy).Contents (Elt F)),
    StableHlo.binary main_v1737 main_v2137 main_v2146 (mulf : (⟨S16384, .f32⟩ : BufTy).Contents (Elt F) → (⟨S16384, .f32⟩ : BufTy).Contents (Elt F) → (⟨S16384, .f32⟩ : BufTy).Contents (Elt F)),
    StableHlo.unary main_v2003 main_v2147 (Host.sin : (⟨S16384, .f32⟩ : BufTy).Contents (Elt F) → (⟨S16384, .f32⟩ : BufTy).Contents (Elt F)),
    StableHlo.binary main_v2062 main_v1931 main_v2148 (subf : (⟨S16384, .f32⟩ : BufTy).Contents (Elt F) → (⟨S16384, .f32⟩ : BufTy).Contents (Elt F) → (⟨S16384, .f32⟩ : BufTy).Contents (Elt F)),
    StableHlo.binary main_v2003 main_v1929 main_v2149 (addf : (⟨S16384, .f32⟩ : BufTy).Contents (Elt F) → (⟨S16384, .f32⟩ : BufTy).Contents (Elt F) → (⟨S16384, .f32⟩ : BufTy).Contents (Elt F)),
    StableHlo.binary main_v2034 main_v1795 main_v2150 (subf : (⟨S16384, .f32⟩ : BufTy).Contents (Elt F) → (⟨S16384, .f32⟩ : BufTy).Contents (Elt F) → (⟨S16384, .f32⟩ : BufTy).Contents (Elt F)),
    StableHlo.binary main_v1965 main_v1666 main_v2151 (addf : (⟨S16384, .f32⟩ : BufTy).Contents (Elt F) → (⟨S16384, .f32⟩ : BufTy).Contents (Elt F) → (⟨S16384, .f32⟩ : BufTy).Contents (Elt F)),
    StableHlo.unary main_v1651 main_v2152 (Host.cos : (⟨S16384, .f32⟩ : BufTy).Contents (Elt F) → (⟨S16384, .f32⟩ : BufTy).Contents (Elt F)),
    StableHlo.binary main_v2052 main_v2114 main_v2153 (addf : (⟨S16384, .f32⟩ : BufTy).Contents (Elt F) → (⟨S16384, .f32⟩ : BufTy).Contents (Elt F) → (⟨S16384, .f32⟩ : BufTy).Contents (Elt F)),
    StableHlo.unary main_v2050 main_v2154 (Host.sin : (⟨S16384, .f32⟩ : BufTy).Contents (Elt F) → (⟨S16384, .f32⟩ : BufTy).Contents (Elt F)),
    StableHlo.unary main_v2042 main_v2155 (Host.cos : (⟨S16384, .f32⟩ : BufTy).Contents (Elt F) → (⟨S16384, .f32⟩ : BufTy).Contents (Elt F)),
    StableHlo.unary main_v1680 main_v2156 (Host.sin : (⟨S16384, .f32⟩ : BufTy).Contents (Elt F) → (⟨S16384, .f32⟩ : BufTy).Contents (Elt F)),
    StableHlo.unary main_v1384 main_v2157 (Host.sin : (⟨S16384, .f32⟩ : BufTy).Contents (Elt F) → (⟨S16384, .f32⟩ : BufTy).Contents (Elt F)),
    StableHlo.binary main_v2066 main_v1953 main_v2158 (addf : (⟨S16384, .f32⟩ : BufTy).Contents (Elt F) → (⟨S16384, .f32⟩ : BufTy).Contents (Elt F) → (⟨S16384, .f32⟩ : BufTy).Contents (Elt F)),
    StableHlo.binary main_v1843 main_v1931 main_v2159 (subf : (⟨S16384, .f32⟩ : BufTy).Contents (Elt F) → (⟨S16384, .f32⟩ : BufTy).Contents (Elt F) → (⟨S16384, .f32⟩ : BufTy).Contents (Elt F)),
    StableHlo.unary main_v2027 main_v2160 (Host.cos : (⟨S16384, .f32⟩ : BufTy).Contents (Elt F) → (⟨S16384, .f32⟩ : BufTy).Contents (Elt F)),
    StableHlo.unary main_v1680 main_v2161 (Host.sin : (⟨S16384, .f32⟩ : BufTy).Contents (Elt F) → (⟨S16384, .f32⟩ : BufTy).Contents (Elt F)),
    StableHlo.unary main_v2110 main_v2162 (Host.sin : (⟨S16384, .f32⟩ : BufTy).Contents (Elt F) → (⟨S16384, .f32⟩ : BufTy).Contents (Elt F)),
    StableHlo.unary main_v2137 main_v2163 (Host.sin : (⟨S16384, .f32⟩ : BufTy).Contents (Elt F) → (⟨S16384, .f32⟩ : BufTy).Contents (Elt F)),
    StableHlo.binary main_v2078 main_v1900 main_v2164 (mulf : (⟨S16384, .f32⟩ : BufTy).Contents (Elt F) → (⟨S16384, .f32⟩ : BufTy).Contents (Elt F) → (⟨S16384, .f32⟩ : BufTy).Contents (Elt F)),
    StableHlo.unary main_v406 main_v2165 (Host.cos : (⟨S16384, .f32⟩ : BufTy).Contents (Elt F) → (⟨S16384, .f32⟩ : BufTy).Contents (Elt F)),
    StableHlo.binary main_v1687 main_v1917 main_v2166 (subf : (⟨S16384, .f32⟩ : BufTy).Contents (Elt F) → (⟨S16384, .f32⟩ : BufTy).Contents (Elt F) → (⟨S16384, .f32⟩ : BufTy).Contents (Elt F)),
    StableHlo.unary main_v2147 main_v2167 (Host.cos : (⟨S16384, .f32⟩ : BufTy).Contents (Elt F) → (⟨S16384, .f32⟩ : BufTy).Contents (Elt F)),
    StableHlo.unary main_v2164 main_v2168 (Host.cos : (⟨S16384, .f32⟩ : BufTy).Contents (Elt F) → (⟨S16384, .f32⟩ : BufTy).Contents (Elt F)),
    StableHlo.unary main_v1995 main_v2169 (Host.cos : (⟨S16384, .f32⟩ : BufTy).Contents (Elt F) → (⟨S16384, .f32⟩ : BufTy).Contents (Elt F)),
    StableHlo.binary main_v1979 main_v1924 main_v2170 (mulf : (⟨S16384, .f32⟩ : BufTy).Contents (Elt F) → (⟨S16384, .f32⟩ : BufTy).Contents (Elt F) → (⟨S16384, .f32⟩ : BufTy).Contents (Elt F)),
    StableHlo.unary main_v2114 main_v2171 (Host.sin : (⟨S16384, .f32⟩ : BufTy).Contents (Elt F) → (⟨S16384, .f32⟩ : BufTy).Contents (Elt F)),
    StableHlo.unary main_v1719 main_v2172 (Host.cos : (⟨S16384, .f32⟩ : BufTy).Contents (Elt F) → (⟨S16384, .f32⟩ : BufTy).Contents (Elt F)),
    StableHlo.unary main_v1742 main_v2173 (Host.sin : (⟨S16384, .f32⟩ : BufTy).Contents (Elt F) → (⟨S16384, .f32⟩ : BufTy).Contents (Elt F)),
    StableHlo.binary main_v2144 main_v2162 main_v2174 (subf : (⟨S16384, .f32⟩ : BufTy).Contents (Elt F) → (⟨S16384, .f32⟩ : BufTy).Contents (Elt F) → (⟨S16384, .f32⟩ : BufTy).Contents (Elt F)),
    StableHlo.unary main_v2153 main_v2175 (Host.negf : (⟨S16384, .f32⟩ : BufTy).Contents (Elt F) → (⟨S16384, .f32⟩ : BufTy).Contents (Elt F)),
    StableHlo.binary main_v1740 main_v1872 main_v2176 (mulf : (⟨S16384, .f32⟩ : BufTy).Contents (Elt F) → (⟨S16384, .f32⟩ : BufTy).Contents (Elt F) → (⟨S16384, .f32⟩ : BufTy).Contents (Elt F)),
    StableHlo.unary main_v1412 main_v2177 (Host.cos : (⟨S16384, .f32⟩ : BufTy).Contents (Elt F) → (⟨S16384, .f32⟩ : BufTy).Contents (Elt F)),
    StableHlo.unary main_v2143 main_v2178 (Host.cos : (⟨S16384, .f32⟩ : BufTy).Contents (Elt F) → (⟨S16384, .f32⟩ : BufTy).Contents (Elt F)),
    StableHlo.unary main_v1720 main_v2179 (Host.cos : (⟨S16384, .f32⟩ : BufTy).Contents (Elt F) → (⟨S16384, .f32⟩ : BufTy).Contents (Elt F)),
    StableHlo.unary main_v2121 main_v2180 (Host.sin : (⟨S16384, .f32⟩ : BufTy).Contents (Elt F) → (⟨S16384, .f32⟩ : BufTy).Contents (Elt F)),
    StableHlo.unary main_v2145 main_v2181 (Host.sin : (⟨S16384, .f32⟩ : BufTy).Contents (Elt F) → (⟨S16384, .f32⟩ : BufTy).Contents (Elt F)),
    StableHlo.binary main_v1614 main_v2007 main_v2182 (mulf : (⟨S16384, .f32⟩ : BufTy).Contents (Elt F) → (⟨S16384, .f32⟩ : BufTy).Contents (Elt F) → (⟨S16384, .f32⟩ : BufTy).Contents (Elt F)),
    StableHlo.unary main_v2156 main_v2183 (Host.cos : (⟨S16384, .f32⟩ : BufTy).Contents (Elt F) → (⟨S16384, .f32⟩ : BufTy).Contents (Elt F)),
    StableHlo.unary main_v2050 main_v2184 (Host.sin : (⟨S16384, .f32⟩ : BufTy).Contents (Elt F) → (⟨S16384, .f32⟩ : BufTy).Contents (Elt F)),
    StableHlo.unary main_v1819 main_v2185 (Host.sin : (⟨S16384, .f32⟩ : BufTy).Contents (Elt F) → (⟨S16384, .f32⟩ : BufTy).Contents (Elt F)),
    StableHlo.unary main_v2158 main_v2186 (Host.sin : (⟨S16384, .f32⟩ : BufTy).Contents (Elt F) → (⟨S16384, .f32⟩ : BufTy).Contents (Elt F)),
    StableHlo.unary main_v1810 main_v2187 (Host.negf : (⟨S16384, .f32⟩ : BufTy).Contents (Elt F) → (⟨S16384, .f32⟩ : BufTy).Contents (Elt F)),
    StableHlo.unary main_v1688 main_v2188 (Host.cos : (⟨S16384, .f32⟩ : BufTy).Contents (Elt F) → (⟨S16384, .f32⟩ : BufTy).Contents (Elt F)),
    StableHlo.binary main_v1901 main_v2156 main_v2189 (addf : (⟨S16384, .f32⟩ : BufTy).Contents (Elt F) → (⟨S16384, .f32⟩ : BufTy).Contents (Elt F) → (⟨S16384, .f32⟩ : BufTy).Contents (Elt F)),
    StableHlo.unary main_v2056 main_v2190 (Host.cos : (⟨S16384, .f32⟩ : BufTy).Contents (Elt F) → (⟨S16384, .f32⟩ : BufTy).Contents (Elt F)),
    StableHlo.binary main_v1977 main_v1965 main_v2191 (mulf : (⟨S16384, .f32⟩ : BufTy).Contents (Elt F) → (⟨S16384, .f32⟩ : BufTy).Contents (Elt F) → (⟨S16384, .f32⟩ : BufTy).Contents (Elt F)),
    StableHlo.unary main_v1953 main_v2192 (Host.sin : (⟨S16384, .f32⟩ : BufTy).Contents (Elt F) → (⟨S16384, .f32⟩ : BufTy).Contents (Elt F)),
    StableHlo.binary main_v2186 main_v2171 main_v2193 (subf : (⟨S16384, .f32⟩ : BufTy).Contents (Elt F) → (⟨S16384, .f32⟩ : BufTy).Contents (Elt F) → (⟨S16384, .f32⟩ : BufTy).Contents (Elt F)),
    StableHlo.unary main_v1884 main_v2194 (Host.sin : (⟨S16384, .f32⟩ : BufTy).Contents (Elt F) → (⟨S16384, .f32⟩ : BufTy).Contents (Elt F)),
    StableHlo.unary main_v2082 main_v2195 (Host.cos : (⟨S16384, .f32⟩ : BufTy).Contents (Elt F) → (⟨S16384, .f32⟩ : BufTy).Contents (Elt F)),
    StableHlo.binary main_v2173 main_v2095 main_v2196 (subf : (⟨S16384, .f32⟩ : BufTy).Contents (Elt F) → (⟨S16384, .f32⟩ : BufTy).Contents (Elt F) → (⟨S16384, .f32⟩ : BufTy).Contents (Elt F)),
    StableHlo.binary main_v2194 main_v406 main_v2197 (addf : (⟨S16384, .f32⟩ : BufTy).Contents (Elt F) → (⟨S16384, .f32⟩ : BufTy).Contents (Elt F) → (⟨S16384, .f32⟩ : BufTy).Contents (Elt F)),
    StableHlo.unary main_v2165 main_v2198 (Host.cos : (⟨S16384, .f32⟩ : BufTy).Contents (Elt F) → (⟨S16384, .f32⟩ : BufTy).Contents (Elt F)),
    StableHlo.unary main_v1955 main_v2199 (Host.sin : (⟨S16384, .f32⟩ : BufTy).Contents (Elt F) → (⟨S16384, .f32⟩ : BufTy).Contents (Elt F)),
    StableHlo.unary main_v2057 main_v2200 (Host.cos : (⟨S16384, .f32⟩ : BufTy).Contents (Elt F) → (⟨S16384, .f32⟩ : BufTy).Contents (Elt F)),
    StableHlo.binary main_v2131 main_v2176 main_v2201 (subf : (⟨S16384, .f32⟩ : BufTy).Contents (Elt F) → (⟨S16384, .f32⟩ : BufTy).Contents (Elt F) → (⟨S16384, .f32⟩ : BufTy).Contents (Elt F)),
    StableHlo.unary main_v2100 main_v2202 (Host.cos : (⟨S16384, .f32⟩ : BufTy).Contents (Elt F) → (⟨S16384, .f32⟩ : BufTy).Contents (Elt F)),
    StableHlo.unary main_v1833 main_v2203 (Host.sin : (⟨S16384, .f32⟩ : BufTy).Contents (Elt F) → (⟨S16384, .f32⟩ : BufTy).Contents (Elt F)) ]

theorem part36_eq (d : Dev nD) : main_part36 (F := F) d = seq ops36 := rfl
theorem ops36_sub : (ops36 (F := F)).Forall fun op => op.bufs ⊆ tcRefs τ sig := by line_sub
theorem ops36_fresh : ∀ op ∈ (ops36 (F := F)), op.fresh = ∅ := by line_fresh
theorem ops36_ordered : Cert.Ssa.Ordered 2161 (ops36 (F := F)) := by line_ordered

/-- Window 37 of @main: its operations, positions 2221 to 2280, in order. -/
abbrev ops37 : List (HloOp τ sig (Elt F)) :=
  [ StableHlo.unary main_v1740 main_v2204 (Host.negf : (⟨S16384, .f32⟩ : BufTy).Contents (Elt F) → (⟨S16384, .f32⟩ : BufTy).Contents (Elt F)),
    StableHlo.binary main_v2062 main_v2101 main_v2205 (addf : (⟨S16384, .f32⟩ : BufTy).Contents (Elt F) → (⟨S16384, .f32⟩ : BufTy).Contents (Elt F) → (⟨S16384, .f32⟩ : BufTy).Contents (Elt F)),
    StableHlo.unary main_v2121 main_v2206 (Host.cos : (⟨S16384, .f32⟩ : BufTy).Contents (Elt F) → (⟨S16384, .f32⟩ : BufTy).Contents (Elt F)),
    StableHlo.binary main_v1981 main_v2183 main_v2207 (subf : (⟨S16384, .f32⟩ : BufTy).Contents (Elt F) → (⟨S16384, .f32⟩ : BufTy).Contents (Elt F) → (⟨S16384, .f32⟩ : BufTy).Contents (Elt F)),
    StableHlo.binary main_v2056 main_v2135 main_v2208 (mulf : (⟨S16384, .f32⟩ : BufTy).Contents (Elt F) → (⟨S16384, .f32⟩ : BufTy).Contents (Elt F) → (⟨S16384, .f32⟩ : BufTy).Contents (Elt F)),
    StableHlo.unary main_v2165 main_v2209 (Host.cos : (⟨S16384, .f32⟩ : BufTy).Contents (Elt F) → (⟨S16384, .f32⟩ : BufTy).Contents (Elt F)),
    StableHlo.unary main_v1991 main_v2210 (Host.cos : (⟨S16384, .f32⟩ : BufTy).Contents (Elt F) → (⟨S16384, .f32⟩ : BufTy).Contents (Elt F)),
    StableHlo.unary main_v1957 main_v2211 (Host.sin : (⟨S16384, .f32⟩ : BufTy).Contents (Elt F) → (⟨S16384, .f32⟩ : BufTy).Contents (Elt F)),
    StableHlo.unary main_v2015 main_v2212 (Host.cos : (⟨S16384, .f32⟩ : BufTy).Contents (Elt F) → (⟨S16384, .f32⟩ : BufTy).Contents (Elt F)),
    StableHlo.binary main_v2212 main_v1988 main_v2213 (subf : (⟨S16384, .f32⟩ : BufTy).Contents (Elt F) → (⟨S16384, .f32⟩ : BufTy).Contents (Elt F) → (⟨S16384, .f32⟩ : BufTy).Contents (Elt F)),
    StableHlo.unary main_v1995 main_v2214 (Host.sin : (⟨S16384, .f32⟩ : BufTy).Contents (Elt F) → (⟨S16384, .f32⟩ : BufTy).Contents (Elt F)),
    StableHlo.unary main_v1758 main_v2215 (Host.sin : (⟨S16384, .f32⟩ : BufTy).Contents (Elt F) → (⟨S16384, .f32⟩ : BufTy).Contents (Elt F)),
    StableHlo.binary main_v2196 main_v2180 main_v2216 (subf : (⟨S16384, .f32⟩ : BufTy).Contents (Elt F) → (⟨S16384, .f32⟩ : BufTy).Contents (Elt F) → (⟨S16384, .f32⟩ : BufTy).Contents (Elt F)),
    StableHlo.binary main_v2138 main_v1941 main_v2217 (mulf : (⟨S16384, .f32⟩ : BufTy).Contents (Elt F) → (⟨S16384, .f32⟩ : BufTy).Contents (Elt F) → (⟨S16384, .f32⟩ : BufTy).Contents (Elt F)),
    StableHlo.binary main_v1796 main_v1763 main_v2218 (mulf : (⟨S16384, .f32⟩ : BufTy).Contents (Elt F) → (⟨S16384, .f32⟩ : BufTy).Contents (Elt F) → (⟨S16384, .f32⟩ : BufTy).Contents (Elt F)),
    StableHlo.unary main_v1901 main_v2219 (Host.sin : (⟨S16384, .f32⟩ : BufTy).Contents (Elt F) → (⟨S16384, .f32⟩ : BufTy).Contents (Elt F)),
    StableHlo.binary main_v1805 main_v2149 main_v2220 (mulf : (⟨S16384, .f32⟩ : BufTy).Contents (Elt F) → (⟨S16384, .f32⟩ : BufTy).Contents (Elt F) → (⟨S16384, .f32⟩ : BufTy).Contents (Elt F)),
    StableHlo.unary main_v1091 main_v2221 (Host.cos : (⟨S16384, .f32⟩ : BufTy).Contents (Elt F) → (⟨S16384, .f32⟩ : BufTy).Contents (Elt F)),
    StableHlo.unary main_v2106 main_v2222 (Host.cos : (⟨S16384, .f32⟩ : BufTy).Contents (Elt F) → (⟨S16384, .f32⟩ : BufTy).Contents (Elt F)),
    StableHlo.unary main_v2150 main_v2223 (Host.cos : (⟨S16384, .f32⟩ : BufTy).Contents (Elt F) → (⟨S16384, .f32⟩ : BufTy).Contents (Elt F)),
    StableHlo.unary main_v2110 main_v2224 (Host.sin : (⟨S16384, .f32⟩ : BufTy).Contents (Elt F) → (⟨S16384, .f32⟩ : BufTy).Contents (Elt F)),
    StableHlo.binary main_v1964 main_v2136 main_v2225 (mulf : (⟨S16384, .f32⟩ : BufTy).Contents (Elt F) → (⟨S16384, .f32⟩ : BufTy).Contents (Elt F) → (⟨S16384, .f32⟩ : BufTy).Contents (Elt F)),
    StableHlo.binary main_v1748 main_v2197 main_v2226 (addf : (⟨S16384, .f32⟩ : BufTy).Contents (Elt F) → (⟨S16384, .f32⟩ : BufTy).Contents (Elt F) → (⟨S16384, .f32⟩ : BufTy).Contents (Elt F)),
    StableHlo.unary main_v2028 main_v2227 (Host.sin : (⟨S16384, .f32⟩ : BufTy).Contents (Elt F) → (⟨S16384, .f32⟩ : BufTy).Contents (Elt F)),
    StableHlo.binary main_v2178 main_v2178 main_v2228 (mulf : (⟨S16384, .f32⟩ : BufTy).Contents (Elt F) → (⟨S16384, .f32⟩ : BufTy).Contents (Elt F) → (⟨S16384, .f32⟩ : BufTy).Contents (Elt F)),
    StableHlo.binary main_v2213 main_v1758 main_v2229 (subf : (⟨S16384, .f32⟩ : BufTy).Contents (Elt F) → (⟨S16384, .f32⟩ : BufTy).Contents (Elt F) → (⟨S16384, .f32⟩ : BufTy).Contents (Elt F)),
    StableHlo.unary main_v2083 main_v2230 (Host.cos : (⟨S16384, .f32⟩ : BufTy).Contents (Elt F) → (⟨S16384, .f32⟩ : BufTy).Contents (Elt F)),
    StableHlo.binary main_v2163 main_v2212 main_v2231 (mulf : (⟨S16384, .f32⟩ : BufTy).Contents (Elt F) → (⟨S16384, .f32⟩ : BufTy).Contents (Elt F) → (⟨S16384, .f32⟩ : BufTy).Contents (Elt F)),
    StableHlo.binary main_v1935 main_v2197 main_v2232 (subf : (⟨S16384, .f32⟩ : BufTy).Contents (Elt F) → (⟨S16384, .f32⟩ : BufTy).Contents (Elt F) → (⟨S16384, .f32⟩ : BufTy).Contents (Elt F)),
    StableHlo.binary main_v2062 main_v2003 main_v2233 (addf : (⟨S16384, .f32⟩ : BufTy).Contents (Elt F) → (⟨S16384, .f32⟩ : BufTy).Contents (Elt F) → (⟨S16384, .f32⟩ : BufTy).Contents (Elt F)),
    StableHlo.binary main_v2156 main_v2145 main_v2234 (mulf : (⟨S16384, .f32⟩ : BufTy).Contents (Elt F) → (⟨S16384, .f32⟩ : BufTy).Contents (Elt F) → (⟨S16384, .f32⟩ : BufTy).Contents (Elt F)),
    StableHlo.unary main_v1678 main_v2235 (Host.cos : (⟨S16384, .f32⟩ : BufTy).Contents (Elt F) → (⟨S16384, .f32⟩ : BufTy).Contents (Elt F)),
    StableHlo.unary main_v2150 main_v2236 (Host.cos : (⟨S16384, .f32⟩ : BufTy).Contents (Elt F) → (⟨S16384, .f32⟩ : BufTy).Contents (Elt F)),
    StableHlo.unary main_v2010 main_v2237 (Host.sin : (⟨S16384, .f32⟩ : BufTy).Contents (Elt F) → (⟨S16384, .f32⟩ : BufTy).Contents (Elt F)),
    StableHlo.unary main_v2028 main_v2238 (Host.cos : (⟨S16384, .f32⟩ : BufTy).Contents (Elt F) → (⟨S16384, .f32⟩ : BufTy).Contents (Elt F)),
    StableHlo.binary main_v1969 main_v2056 main_v2239 (mulf : (⟨S16384, .f32⟩ : BufTy).Contents (Elt F) → (⟨S16384, .f32⟩ : BufTy).Contents (Elt F) → (⟨S16384, .f32⟩ : BufTy).Contents (Elt F)),
    StableHlo.binary main_v2132 main_v2062 main_v2240 (addf : (⟨S16384, .f32⟩ : BufTy).Contents (Elt F) → (⟨S16384, .f32⟩ : BufTy).Contents (Elt F) → (⟨S16384, .f32⟩ : BufTy).Contents (Elt F)),
    StableHlo.unary main_v2189 main_v2241 (Host.cos : (⟨S16384, .f32⟩ : BufTy).Contents (Elt F) → (⟨S16384, .f32⟩ : BufTy).Contents (Elt F)),
    StableHlo.binary main_v2160 main_v2160 main_v2242 (mulf : (⟨S16384, .f32⟩ : BufTy).Contents (Elt F) → (⟨S16384, .f32⟩ : BufTy).Contents (Elt F) → (⟨S16384, .f32⟩ : BufTy).Contents (Elt F)),
    StableHlo.binary main_v2215 main_v1935 main_v2243 (mulf : (⟨S16384, .f32⟩ : BufTy).Contents (Elt F) → (⟨S16384, .f32⟩ : BufTy).Contents (Elt F) → (⟨S16384, .f32⟩ : BufTy).Contents (Elt F)),
    StableHlo.binary main_v2171 main_v1450 main_v2244 (subf : (⟨S16384, .f32⟩ : BufTy).Contents (Elt F) → (⟨S16384, .f32⟩ : BufTy).Contents (Elt F) → (⟨S16384, .f32⟩ : BufTy).Contents (Elt F)),
    StableHlo.unary main_v2074 main_v2245 (Host.sin : (⟨S16384, .f32⟩ : BufTy).Contents (Elt F) → (⟨S16384, .f32⟩ : BufTy).Contents (Elt F)),
    StableHlo.unary main_v1292 main_v2246 (Host.cos : (⟨S16384, .f32⟩ : BufTy).Contents (Elt F) → (⟨S16384, .f32⟩ : BufTy).Contents (Elt F)),
    StableHlo.binary main_v2243 main_v1091 main_v2247 (mulf : (⟨S16384, .f32⟩ : BufTy).Contents (Elt F) → (⟨S16384, .f32⟩ : BufTy).Contents (Elt F) → (⟨S16384, .f32⟩ : BufTy).Contents (Elt F)),
    StableHlo.binary main_v1875 main_v2155 main_v2248 (subf : (⟨S16384, .f32⟩ : BufTy).Contents (Elt F) → (⟨S16384, .f32⟩ : BufTy).Contents (Elt F) → (⟨S16384, .f32⟩ : BufTy).Contents (Elt F)),
    StableHlo.binary main_v2153 main_v2078 main_v2249 (mulf : (⟨S16384, .f32⟩ : BufTy).Contents (Elt F) → (⟨S16384, .f32⟩ : BufTy).Contents (Elt F) → (⟨S16384, .f32⟩ : BufTy).Contents (Elt F)),
    StableHlo.unary main_v2204 main_v2250 (Host.sin : (⟨S16384, .f32⟩ : BufTy).Contents (Elt F) → (⟨S16384, .f32⟩ : BufTy).Contents (Elt F)),
    StableHlo.binary main_v2076 main_v2076 main_v2251 (mulf : (⟨S16384, .f32⟩ : BufTy).Contents (Elt F) → (⟨S16384, .f32⟩ : BufTy).Contents (Elt F) → (⟨S16384, .f32⟩ : BufTy).Contents (Elt F)),
    StableHlo.unary main_v1994 main_v2252 (Host.cos : (⟨S16384, .f32⟩ : BufTy).Contents (Elt F) → (⟨S16384, .f32⟩ : BufTy).Contents (Elt F)),
    StableHlo.binary main_v1977 main_v1844 main_v2253 (addf : (⟨S16384, .f32⟩ : BufTy).Contents (Elt F) → (⟨S16384, .f32⟩ : BufTy).Contents (Elt F) → (⟨S16384, .f32⟩ : BufTy).Contents (Elt F)),
    StableHlo.unary main_v2192 main_v2254 (Host.sin : (⟨S16384, .f32⟩ : BufTy).Contents (Elt F) → (⟨S16384, .f32⟩ : BufTy).Contents (Elt F)),
    StableHlo.unary main_v1964 main_v2255 (Host.negf : (⟨S16384, .f32⟩ : BufTy).Contents (Elt F) → (⟨S16384, .f32⟩ : BufTy).Contents (Elt F)),
    StableHlo.binary main_v1908 main_v2241 main_v2256 (addf : (⟨S16384, .f32⟩ : BufTy).Contents (Elt F) → (⟨S16384, .f32⟩ : BufTy).Contents (Elt F) → (⟨S16384, .f32⟩ : BufTy).Contents (Elt F)),
    StableHlo.unary main_v1796 main_v2257 (Host.sin : (⟨S16384, .f32⟩ : BufTy).Contents (Elt F) → (⟨S16384, .f32⟩ : BufTy).Contents (Elt F)),
    StableHlo.binary main_v2158 main_v2186 main_v2258 (subf : (⟨S16384, .f32⟩ : BufTy).Contents (Elt F) → (⟨S16384, .f32⟩ : BufTy).Contents (Elt F) → (⟨S16384, .f32⟩ : BufTy).Contents (Elt F)),
    StableHlo.binary main_v2182 main_v2024 main_v2259 (addf : (⟨S16384, .f32⟩ : BufTy).Contents (Elt F) → (⟨S16384, .f32⟩ : BufTy).Contents (Elt F) → (⟨S16384, .f32⟩ : BufTy).Contents (Elt F)),
    StableHlo.binary main_v1555 main_v1771 main_v2260 (subf : (⟨S16384, .f32⟩ : BufTy).Contents (Elt F) → (⟨S16384, .f32⟩ : BufTy).Contents (Elt F) → (⟨S16384, .f32⟩ : BufTy).Contents (Elt F)),
    StableHlo.binary main_v1929 main_v1875 main_v2261 (subf : (⟨S16384, .f32⟩ : BufTy).Contents (Elt F) → (⟨S16384, .f32⟩ : BufTy).Contents (Elt F) → (⟨S16384, .f32⟩ : BufTy).Contents (Elt F)),
    StableHlo.unary main_v2007 main_v2262 (Host.cos : (⟨S16384, .f32⟩ : BufTy).Contents (Elt F) → (⟨S16384, .f32⟩ : BufTy).Contents (Elt F)),
    StableHlo.unary main_v1682 main_v2263 (Host.cos : (⟨S16384, .f32⟩ : BufTy).Contents (Elt F) → (⟨S16384, .f32⟩ : BufTy).Contents (Elt F)) ]

theorem part37_eq (d : Dev nD) : main_part37 (F := F) d = seq ops37 := rfl
theorem ops37_sub : (ops37 (F := F)).Forall fun op => op.bufs ⊆ tcRefs τ sig := by line_sub
theorem ops37_fresh : ∀ op ∈ (ops37 (F := F)), op.fresh = ∅ := by line_fresh
theorem ops37_ordered : Cert.Ssa.Ordered 2221 (ops37 (F := F)) := by line_ordered

/-- Window 38 of @main: its operations, positions 2281 to 2340, in order. -/
abbrev ops38 : List (HloOp τ sig (Elt F)) :=
  [ StableHlo.binary main_v2262 main_v2219 main_v2264 (addf : (⟨S16384, .f32⟩ : BufTy).Contents (Elt F) → (⟨S16384, .f32⟩ : BufTy).Contents (Elt F) → (⟨S16384, .f32⟩ : BufTy).Contents (Elt F)),
    StableHlo.binary main_v2210 main_v2112 main_v2265 (addf : (⟨S16384, .f32⟩ : BufTy).Contents (Elt F) → (⟨S16384, .f32⟩ : BufTy).Contents (Elt F) → (⟨S16384, .f32⟩ : BufTy).Contents (Elt F)),
    StableHlo.unary main_v1979 main_v2266 (Host.sin : (⟨S16384, .f32⟩ : BufTy).Contents (Elt F) → (⟨S16384, .f32⟩ : BufTy).Contents (Elt F)),
    StableHlo.binary main_v1688 main_v2235 main_v2267 (addf : (⟨S16384, .f32⟩ : BufTy).Contents (Elt F) → (⟨S16384, .f32⟩ : BufTy).Contents (Elt F) → (⟨S16384, .f32⟩ : BufTy).Contents (Elt F)),
    StableHlo.binary main_v2050 main_v2003 main_v2268 (mulf : (⟨S16384, .f32⟩ : BufTy).Contents (Elt F) → (⟨S16384, .f32⟩ : BufTy).Contents (Elt F) → (⟨S16384, .f32⟩ : BufTy).Contents (Elt F)),
    StableHlo.unary main_v2159 main_v2269 (Host.cos : (⟨S16384, .f32⟩ : BufTy).Contents (Elt F) → (⟨S16384, .f32⟩ : BufTy).Contents (Elt F)),
    StableHlo.binary main_v2034 main_v1958 main_v2270 (addf : (⟨S16384, .f32⟩ : BufTy).Contents (Elt F) → (⟨S16384, .f32⟩ : BufTy).Contents (Elt F) → (⟨S16384, .f32⟩ : BufTy).Contents (Elt F)),
    StableHlo.binary main_v1900 main_v2211 main_v2271 (subf : (⟨S16384, .f32⟩ : BufTy).Contents (Elt F) → (⟨S16384, .f32⟩ : BufTy).Contents (Elt F) → (⟨S16384, .f32⟩ : BufTy).Contents (Elt F)),
    StableHlo.binary main_v2112 main_v2112 main_v2272 (mulf : (⟨S16384, .f32⟩ : BufTy).Contents (Elt F) → (⟨S16384, .f32⟩ : BufTy).Contents (Elt F) → (⟨S16384, .f32⟩ : BufTy).Contents (Elt F)),
    StableHlo.unary main_v2222 main_v2273 (Host.sin : (⟨S16384, .f32⟩ : BufTy).Contents (Elt F) → (⟨S16384, .f32⟩ : BufTy).Contents (Elt F)),
    StableHlo.unary main_v1726 main_v2274 (Host.negf : (⟨S16384, .f32⟩ : BufTy).Contents (Elt F) → (⟨S16384, .f32⟩ : BufTy).Contents (Elt F)),
    StableHlo.unary main_v2007 main_v2275 (Host.sin : (⟨S16384, .f32⟩ : BufTy).Contents (Elt F) → (⟨S16384, .f32⟩ : BufTy).Contents (Elt F)),
    StableHlo.binary main_v2231 main_v2214 main_v2276 (subf : (⟨S16384, .f32⟩ : BufTy).Contents (Elt F) → (⟨S16384, .f32⟩ : BufTy).Contents (Elt F) → (⟨S16384, .f32⟩ : BufTy).Contents (Elt F)),
    StableHlo.binary main_v1957 main_v2186 main_v2277 (addf : (⟨S16384, .f32⟩ : BufTy).Contents (Elt F) → (⟨S16384, .f32⟩ : BufTy).Contents (Elt F) → (⟨S16384, .f32⟩ : BufTy).Contents (Elt F)),
    StableHlo.binary main_v1596 main_v1794 main_v2278 (mulf : (⟨S16384, .f32⟩ : BufTy).Contents (Elt F) → (⟨S16384, .f32⟩ : BufTy).Contents (Elt F) → (⟨S16384, .f32⟩ : BufTy).Contents (Elt F)),
    StableHlo.unary main_v1794 main_v2279 (Host.sin : (⟨S16384, .f32⟩ : BufTy).Contents (Elt F) → (⟨S16384, .f32⟩ : BufTy).Contents (Elt F)),
    StableHlo.binary main_v2210 main_v2072 main_v2280 (addf : (⟨S16384, .f32⟩ : BufTy).Contents (Elt F) → (⟨S16384, .f32⟩ : BufTy).Contents (Elt F) → (⟨S16384, .f32⟩ : BufTy).Contents (Elt F)),
    StableHlo.unary main_v1754 main_v2281 (Host.sin : (⟨S16384, .f32⟩ : BufTy).Contents (Elt F) → (⟨S16384, .f32⟩ : BufTy).Contents (Elt F)),
    StableHlo.unary main_v2127 main_v2282 (Host.sin : (⟨S16384, .f32⟩ : BufTy).Contents (Elt F) → (⟨S16384, .f32⟩ : BufTy).Contents (Elt F)),
    StableHlo.unary main_v1991 main_v2283 (Host.sin : (⟨S16384, .f32⟩ : BufTy).Contents (Elt F) → (⟨S16384, .f32⟩ : BufTy).Contents (Elt F)),
    StableHlo.unary main_v1850 main_v2284 (Host.cos : (⟨S16384, .f32⟩ : BufTy).Contents (Elt F) → (⟨S16384, .f32⟩ : BufTy).Contents (Elt F)),
    StableHlo.unary main_v1971 main_v2285 (Host.cos : (⟨S16384, .f32⟩ : BufTy).Contents (Elt F) → (⟨S16384, .f32⟩ : BufTy).Contents (Elt F)),
    StableHlo.binary main_v1450 main_v1595 main_v2286 (subf : (⟨S16384, .f32⟩ : BufTy).Contents (Elt F) → (⟨S16384, .f32⟩ : BufTy).Contents (Elt F) → (⟨S16384, .f32⟩ : BufTy).Contents (Elt F)),
    StableHlo.unary main_v1850 main_v2287 (Host.cos : (⟨S16384, .f32⟩ : BufTy).Contents (Elt F) → (⟨S16384, .f32⟩ : BufTy).Contents (Elt F)),
    StableHlo.binary main_v2208 main_v2226 main_v2288 (addf : (⟨S16384, .f32⟩ : BufTy).Contents (Elt F) → (⟨S16384, .f32⟩ : BufTy).Contents (Elt F) → (⟨S16384, .f32⟩ : BufTy).Contents (Elt F)),
    StableHlo.binary main_v2275 main_v2132 main_v2289 (addf : (⟨S16384, .f32⟩ : BufTy).Contents (Elt F) → (⟨S16384, .f32⟩ : BufTy).Contents (Elt F) → (⟨S16384, .f32⟩ : BufTy).Contents (Elt F)),
    StableHlo.binary main_v2177 main_v2136 main_v2290 (addf : (⟨S16384, .f32⟩ : BufTy).Contents (Elt F) → (⟨S16384, .f32⟩ : BufTy).Contents (Elt F) → (⟨S16384, .f32⟩ : BufTy).Contents (Elt F)),
    StableHlo.unary main_v1900 main_v2291 (Host.cos : (⟨S16384, .f32⟩ : BufTy).Contents (Elt F) → (⟨S16384, .f32⟩ : BufTy).Contents (Elt F)),
    StableHlo.unary main_v2075 main_v2292 (Host.negf : (⟨S16384, .f32⟩ : BufTy).Contents (Elt F) → (⟨S16384, .f32⟩ : BufTy).Contents (Elt F)),
    StableHlo.unary main_v2163 main_v2293 (Host.sin : (⟨S16384, .f32⟩ : BufTy).Contents (Elt F) → (⟨S16384, .f32⟩ : BufTy).Contents (Elt F)),
    StableHlo.binary main_v1965 main_v2274 main_v2294 (subf : (⟨S16384, .f32⟩ : BufTy).Contents (Elt F) → (⟨S16384, .f32⟩ : BufTy).Contents (Elt F) → (⟨S16384, .f32⟩ : BufTy).Contents (Elt F)),
    StableHlo.unary main_v2293 main_v2295 (Host.negf : (⟨S16384, .f32⟩ : BufTy).Contents (Elt F) → (⟨S16384, .f32⟩ : BufTy).Contents (Elt F)),
    StableHlo.unary main_v2216 main_v2296 (Host.cos : (⟨S16384, .f32⟩ : BufTy).Contents (Elt F) → (⟨S16384, .f32⟩ : BufTy).Contents (Elt F)),
    StableHlo.binary main_v2283 main_v2122 main_v2297 (subf : (⟨S16384, .f32⟩ : BufTy).Contents (Elt F) → (⟨S16384, .f32⟩ : BufTy).Contents (Elt F) → (⟨S16384, .f32⟩ : BufTy).Contents (Elt F)),
    StableHlo.unary main_v2141 main_v2298 (Host.cos : (⟨S16384, .f32⟩ : BufTy).Contents (Elt F) → (⟨S16384, .f32⟩ : BufTy).Contents (Elt F)),
    StableHlo.binary main_v2297 main_v2146 main_v2299 (mulf : (⟨S16384, .f32⟩ : BufTy).Contents (Elt F) → (⟨S16384, .f32⟩ : BufTy).Contents (Elt F) → (⟨S16384, .f32⟩ : BufTy).Contents (Elt F)),
    StableHlo.unary main_v1292 main_v2300 (Host.sin : (⟨S16384, .f32⟩ : BufTy).Contents (Elt F) → (⟨S16384, .f32⟩ : BufTy).Contents (Elt F)),
    StableHlo.binary main_v2287 main_v2268 main_v2301 (subf : (⟨S16384, .f32⟩ : BufTy).Contents (Elt F) → (⟨S16384, .f32⟩ : BufTy).Contents (Elt F) → (⟨S16384, .f32⟩ : BufTy).Contents (Elt F)),
    StableHlo.unary main_v1509 main_v2302 (Host.sin : (⟨S16384, .f32⟩ : BufTy).Contents (Elt F) → (⟨S16384, .f32⟩ : BufTy).Contents (Elt F)),
    StableHlo.binary main_v2232 main_v1726 main_v2303 (subf : (⟨S16384, .f32⟩ : BufTy).Contents (Elt F) → (⟨S16384, .f32⟩ : BufTy).Contents (Elt F) → (⟨S16384, .f32⟩ : BufTy).Contents (Elt F)),
    StableHlo.unary main_v2228 main_v2304 (Host.cos : (⟨S16384, .f32⟩ : BufTy).Contents (Elt F) → (⟨S16384, .f32⟩ : BufTy).Contents (Elt F)),
    StableHlo.unary main_v2187 main_v2305 (Host.cos : (⟨S16384, .f32⟩ : BufTy).Contents (Elt F) → (⟨S16384, .f32⟩ : BufTy).Contents (Elt F)),
    StableHlo.unary main_v2131 main_v2306 (Host.sin : (⟨S16384, .f32⟩ : BufTy).Contents (Elt F) → (⟨S16384, .f32⟩ : BufTy).Contents (Elt F)),
    StableHlo.binary main_v2132 main_v2246 main_v2307 (subf : (⟨S16384, .f32⟩ : BufTy).Contents (Elt F) → (⟨S16384, .f32⟩ : BufTy).Contents (Elt F) → (⟨S16384, .f32⟩ : BufTy).Contents (Elt F)),
    StableHlo.unary main_v2009 main_v2308 (Host.sin : (⟨S16384, .f32⟩ : BufTy).Contents (Elt F) → (⟨S16384, .f32⟩ : BufTy).Contents (Elt F)),
    StableHlo.unary main_v2136 main_v2309 (Host.negf : (⟨S16384, .f32⟩ : BufTy).Contents (Elt F) → (⟨S16384, .f32⟩ : BufTy).Contents (Elt F)),
    StableHlo.binary main_v2022 main_v2190 main_v2310 (subf : (⟨S16384, .f32⟩ : BufTy).Contents (Elt F) → (⟨S16384, .f32⟩ : BufTy).Contents (Elt F) → (⟨S16384, .f32⟩ : BufTy).Contents (Elt F)),
    StableHlo.unary main_v1688 main_v2311 (Host.sin : (⟨S16384, .f32⟩ : BufTy).Contents (Elt F) → (⟨S16384, .f32⟩ : BufTy).Contents (Elt F)),
    StableHlo.binary main_v2191 main_v1872 main_v2312 (subf : (⟨S16384, .f32⟩ : BufTy).Contents (Elt F) → (⟨S16384, .f32⟩ : BufTy).Contents (Elt F) → (⟨S16384, .f32⟩ : BufTy).Contents (Elt F)),
    StableHlo.binary main_v2234 main_v2234 main_v2313 (mulf : (⟨S16384, .f32⟩ : BufTy).Contents (Elt F) → (⟨S16384, .f32⟩ : BufTy).Contents (Elt F) → (⟨S16384, .f32⟩ : BufTy).Contents (Elt F)),
    StableHlo.unary main_v1555 main_v2314 (Host.sin : (⟨S16384, .f32⟩ : BufTy).Contents (Elt F) → (⟨S16384, .f32⟩ : BufTy).Contents (Elt F)),
    StableHlo.unary main_v1720 main_v2315 (Host.cos : (⟨S16384, .f32⟩ : BufTy).Contents (Elt F) → (⟨S16384, .f32⟩ : BufTy).Contents (Elt F)),
    StableHlo.unary main_v1680 main_v2316 (Host.sin : (⟨S16384, .f32⟩ : BufTy).Contents (Elt F) → (⟨S16384, .f32⟩ : BufTy).Contents (Elt F)),
    StableHlo.binary main_v2208 main_v2189 main_v2317 (subf : (⟨S16384, .f32⟩ : BufTy).Contents (Elt F) → (⟨S16384, .f32⟩ : BufTy).Contents (Elt F) → (⟨S16384, .f32⟩ : BufTy).Contents (Elt F)),
    StableHlo.binary main_v1450 main_v2266 main_v2318 (addf : (⟨S16384, .f32⟩ : BufTy).Contents (Elt F) → (⟨S16384, .f32⟩ : BufTy).Contents (Elt F) → (⟨S16384, .f32⟩ : BufTy).Contents (Elt F)),
    StableHlo.unary main_v2318 main_v2319 (Host.cos : (⟨S16384, .f32⟩ : BufTy).Contents (Elt F) → (⟨S16384, .f32⟩ : BufTy).Contents (Elt F)),
    StableHlo.binary main_v2252 main_v2174 main_v2320 (addf : (⟨S16384, .f32⟩ : BufTy).Contents (Elt F) → (⟨S16384, .f32⟩ : BufTy).Contents (Elt F) → (⟨S16384, .f32⟩ : BufTy).Contents (Elt F)),
    StableHlo.binary main_v2291 main_v2291 main_v2321 (mulf : (⟨S16384, .f32⟩ : BufTy).Contents (Elt F) → (⟨S16384, .f32⟩ : BufTy).Contents (Elt F) → (⟨S16384, .f32⟩ : BufTy).Contents (Elt F)),
    StableHlo.unary main_v1820 main_v2322 (Host.cos : (⟨S16384, .f32⟩ : BufTy).Contents (Elt F) → (⟨S16384, .f32⟩ : BufTy).Contents (Elt F)),
    StableHlo.binary main_v2226 main_v2305 main_v2323 (addf : (⟨S16384, .f32⟩ : BufTy).Contents (Elt F) → (⟨S16384, .f32⟩ : BufTy).Contents (Elt F) → (⟨S16384, .f32⟩ : BufTy).Contents (Elt F)) ]

theorem part38_eq (d : Dev nD) : main_part38 (F := F) d = seq ops38 := rfl
theorem ops38_sub : (ops38 (F := F)).Forall fun op => op.bufs ⊆ tcRefs τ sig := by line_sub
theorem ops38_fresh : ∀ op ∈ (ops38 (F := F)), op.fresh = ∅ := by line_fresh
theorem ops38_ordered : Cert.Ssa.Ordered 2281 (ops38 (F := F)) := by line_ordered

/-- Window 39 of @main: its operations, positions 2341 to 2400, in order. -/
abbrev ops39 : List (HloOp τ sig (Elt F)) :=
  [ StableHlo.binary main_v2112 main_v1995 main_v2324 (addf : (⟨S16384, .f32⟩ : BufTy).Contents (Elt F) → (⟨S16384, .f32⟩ : BufTy).Contents (Elt F) → (⟨S16384, .f32⟩ : BufTy).Contents (Elt F)),
    StableHlo.binary main_v2324 main_v1682 main_v2325 (addf : (⟨S16384, .f32⟩ : BufTy).Contents (Elt F) → (⟨S16384, .f32⟩ : BufTy).Contents (Elt F) → (⟨S16384, .f32⟩ : BufTy).Contents (Elt F)),
    StableHlo.binary main_v2230 main_v2128 main_v2326 (addf : (⟨S16384, .f32⟩ : BufTy).Contents (Elt F) → (⟨S16384, .f32⟩ : BufTy).Contents (Elt F) → (⟨S16384, .f32⟩ : BufTy).Contents (Elt F)),
    StableHlo.unary main_v2258 main_v2327 (Host.sin : (⟨S16384, .f32⟩ : BufTy).Contents (Elt F) → (⟨S16384, .f32⟩ : BufTy).Contents (Elt F)),
    StableHlo.unary main_v1509 main_v2328 (Host.cos : (⟨S16384, .f32⟩ : BufTy).Contents (Elt F) → (⟨S16384, .f32⟩ : BufTy).Contents (Elt F)),
    StableHlo.unary main_v2248 main_v2329 (Host.sin : (⟨S16384, .f32⟩ : BufTy).Contents (Elt F) → (⟨S16384, .f32⟩ : BufTy).Contents (Elt F)),
    StableHlo.binary main_v1920 main_v2161 main_v2330 (addf : (⟨S16384, .f32⟩ : BufTy).Contents (Elt F) → (⟨S16384, .f32⟩ : BufTy).Contents (Elt F) → (⟨S16384, .f32⟩ : BufTy).Contents (Elt F)),
    StableHlo.binary main_v1975 main_v2308 main_v2331 (addf : (⟨S16384, .f32⟩ : BufTy).Contents (Elt F) → (⟨S16384, .f32⟩ : BufTy).Contents (Elt F) → (⟨S16384, .f32⟩ : BufTy).Contents (Elt F)),
    StableHlo.unary main_v1336 main_v2332 (Host.cos : (⟨S16384, .f32⟩ : BufTy).Contents (Elt F) → (⟨S16384, .f32⟩ : BufTy).Contents (Elt F)),
    StableHlo.unary main_v2072 main_v2333 (Host.cos : (⟨S16384, .f32⟩ : BufTy).Contents (Elt F) → (⟨S16384, .f32⟩ : BufTy).Contents (Elt F)),
    StableHlo.binary main_v2297 main_v2328 main_v2334 (addf : (⟨S16384, .f32⟩ : BufTy).Contents (Elt F) → (⟨S16384, .f32⟩ : BufTy).Contents (Elt F) → (⟨S16384, .f32⟩ : BufTy).Contents (Elt F)),
    StableHlo.binary main_v2131 main_v2124 main_v2335 (addf : (⟨S16384, .f32⟩ : BufTy).Contents (Elt F) → (⟨S16384, .f32⟩ : BufTy).Contents (Elt F) → (⟨S16384, .f32⟩ : BufTy).Contents (Elt F)),
    StableHlo.unary main_v2313 main_v2336 (Host.sin : (⟨S16384, .f32⟩ : BufTy).Contents (Elt F) → (⟨S16384, .f32⟩ : BufTy).Contents (Elt F)),
    StableHlo.unary main_v2230 main_v2337 (Host.cos : (⟨S16384, .f32⟩ : BufTy).Contents (Elt F) → (⟨S16384, .f32⟩ : BufTy).Contents (Elt F)),
    StableHlo.unary main_v1789 main_v2338 (Host.cos : (⟨S16384, .f32⟩ : BufTy).Contents (Elt F) → (⟨S16384, .f32⟩ : BufTy).Contents (Elt F)),
    StableHlo.unary main_v1955 main_v2339 (Host.sin : (⟨S16384, .f32⟩ : BufTy).Contents (Elt F) → (⟨S16384, .f32⟩ : BufTy).Contents (Elt F)),
    StableHlo.binary main_v2334 main_v2305 main_v2340 (mulf : (⟨S16384, .f32⟩ : BufTy).Contents (Elt F) → (⟨S16384, .f32⟩ : BufTy).Contents (Elt F) → (⟨S16384, .f32⟩ : BufTy).Contents (Elt F)),
    StableHlo.binary main_v2335 main_v1931 main_v2341 (mulf : (⟨S16384, .f32⟩ : BufTy).Contents (Elt F) → (⟨S16384, .f32⟩ : BufTy).Contents (Elt F) → (⟨S16384, .f32⟩ : BufTy).Contents (Elt F)),
    StableHlo.binary main_v2110 main_v1366 main_v2342 (subf : (⟨S16384, .f32⟩ : BufTy).Contents (Elt F) → (⟨S16384, .f32⟩ : BufTy).Contents (Elt F) → (⟨S16384, .f32⟩ : BufTy).Contents (Elt F)),
    StableHlo.unary main_v2262 main_v2343 (Host.cos : (⟨S16384, .f32⟩ : BufTy).Contents (Elt F) → (⟨S16384, .f32⟩ : BufTy).Contents (Elt F)),
    StableHlo.binary main_v2292 main_v2292 main_v2344 (mulf : (⟨S16384, .f32⟩ : BufTy).Contents (Elt F) → (⟨S16384, .f32⟩ : BufTy).Contents (Elt F) → (⟨S16384, .f32⟩ : BufTy).Contents (Elt F)),
    StableHlo.unary main_v2311 main_v2345 (Host.sin : (⟨S16384, .f32⟩ : BufTy).Contents (Elt F) → (⟨S16384, .f32⟩ : BufTy).Contents (Elt F)),
    StableHlo.unary main_v2324 main_v2346 (Host.sin : (⟨S16384, .f32⟩ : BufTy).Contents (Elt F) → (⟨S16384, .f32⟩ : BufTy).Contents (Elt F)),
    StableHlo.binary main_v1880 main_v2330 main_v2347 (subf : (⟨S16384, .f32⟩ : BufTy).Contents (Elt F) → (⟨S16384, .f32⟩ : BufTy).Contents (Elt F) → (⟨S16384, .f32⟩ : BufTy).Contents (Elt F)),
    StableHlo.binary main_v2132 main_v2132 main_v2348 (mulf : (⟨S16384, .f32⟩ : BufTy).Contents (Elt F) → (⟨S16384, .f32⟩ : BufTy).Contents (Elt F) → (⟨S16384, .f32⟩ : BufTy).Contents (Elt F)),
    StableHlo.binary main_v2308 main_v2210 main_v2349 (subf : (⟨S16384, .f32⟩ : BufTy).Contents (Elt F) → (⟨S16384, .f32⟩ : BufTy).Contents (Elt F) → (⟨S16384, .f32⟩ : BufTy).Contents (Elt F)),
    StableHlo.unary main_v2248 main_v2350 (Host.cos : (⟨S16384, .f32⟩ : BufTy).Contents (Elt F) → (⟨S16384, .f32⟩ : BufTy).Contents (Elt F)),
    StableHlo.binary main_v2112 main_v2108 main_v2351 (subf : (⟨S16384, .f32⟩ : BufTy).Contents (Elt F) → (⟨S16384, .f32⟩ : BufTy).Contents (Elt F) → (⟨S16384, .f32⟩ : BufTy).Contents (Elt F)),
    StableHlo.unary main_v1880 main_v2352 (Host.sin : (⟨S16384, .f32⟩ : BufTy).Contents (Elt F) → (⟨S16384, .f32⟩ : BufTy).Contents (Elt F)),
    StableHlo.binary main_v1969 main_v2163 main_v2353 (mulf : (⟨S16384, .f32⟩ : BufTy).Contents (Elt F) → (⟨S16384, .f32⟩ : BufTy).Contents (Elt F) → (⟨S16384, .f32⟩ : BufTy).Contents (Elt F)),
    StableHlo.unary main_v2351 main_v2354 (Host.cos : (⟨S16384, .f32⟩ : BufTy).Contents (Elt F) → (⟨S16384, .f32⟩ : BufTy).Contents (Elt F)),
    StableHlo.unary main_v1688 main_v2355 (Host.sin : (⟨S16384, .f32⟩ : BufTy).Contents (Elt F) → (⟨S16384, .f32⟩ : BufTy).Contents (Elt F)),
    StableHlo.unary main_v1535 main_v2356 (Host.sin : (⟨S16384, .f32⟩ : BufTy).Contents (Elt F) → (⟨S16384, .f32⟩ : BufTy).Contents (Elt F)),
    StableHlo.unary main_v2294 main_v2357 (Host.sin : (⟨S16384, .f32⟩ : BufTy).Contents (Elt F) → (⟨S16384, .f32⟩ : BufTy).Contents (Elt F)),
    StableHlo.unary main_v2349 main_v2358 (Host.cos : (⟨S16384, .f32⟩ : BufTy).Contents (Elt F) → (⟨S16384, .f32⟩ : BufTy).Contents (Elt F)),
    StableHlo.binary main_v1450 main_v2258 main_v2359 (addf : (⟨S16384, .f32⟩ : BufTy).Contents (Elt F) → (⟨S16384, .f32⟩ : BufTy).Contents (Elt F) → (⟨S16384, .f32⟩ : BufTy).Contents (Elt F)),
    StableHlo.unary main_v2351 main_v2360 (Host.sin : (⟨S16384, .f32⟩ : BufTy).Contents (Elt F) → (⟨S16384, .f32⟩ : BufTy).Contents (Elt F)),
    StableHlo.unary main_v1833 main_v2361 (Host.sin : (⟨S16384, .f32⟩ : BufTy).Contents (Elt F) → (⟨S16384, .f32⟩ : BufTy).Contents (Elt F)),
    StableHlo.binary main_v2104 main_v2104 main_v2362 (mulf : (⟨S16384, .f32⟩ : BufTy).Contents (Elt F) → (⟨S16384, .f32⟩ : BufTy).Contents (Elt F) → (⟨S16384, .f32⟩ : BufTy).Contents (Elt F)),
    StableHlo.unary main_v2333 main_v2363 (Host.cos : (⟨S16384, .f32⟩ : BufTy).Contents (Elt F) → (⟨S16384, .f32⟩ : BufTy).Contents (Elt F)),
    StableHlo.unary main_v2246 main_v2364 (Host.cos : (⟨S16384, .f32⟩ : BufTy).Contents (Elt F) → (⟨S16384, .f32⟩ : BufTy).Contents (Elt F)),
    StableHlo.binary main_v1924 main_v2201 main_v2365 (subf : (⟨S16384, .f32⟩ : BufTy).Contents (Elt F) → (⟨S16384, .f32⟩ : BufTy).Contents (Elt F) → (⟨S16384, .f32⟩ : BufTy).Contents (Elt F)),
    StableHlo.unary main_v2264 main_v2366 (Host.sin : (⟨S16384, .f32⟩ : BufTy).Contents (Elt F) → (⟨S16384, .f32⟩ : BufTy).Contents (Elt F)),
    StableHlo.unary main_v1174 main_v2367 (Host.sin : (⟨S16384, .f32⟩ : BufTy).Contents (Elt F) → (⟨S16384, .f32⟩ : BufTy).Contents (Elt F)),
    StableHlo.binary main_v2070 main_v2354 main_v2368 (subf : (⟨S16384, .f32⟩ : BufTy).Contents (Elt F) → (⟨S16384, .f32⟩ : BufTy).Contents (Elt F) → (⟨S16384, .f32⟩ : BufTy).Contents (Elt F)),
    StableHlo.binary main_v2283 main_v1726 main_v2369 (addf : (⟨S16384, .f32⟩ : BufTy).Contents (Elt F) → (⟨S16384, .f32⟩ : BufTy).Contents (Elt F) → (⟨S16384, .f32⟩ : BufTy).Contents (Elt F)),
    StableHlo.unary main_v2128 main_v2370 (Host.cos : (⟨S16384, .f32⟩ : BufTy).Contents (Elt F) → (⟨S16384, .f32⟩ : BufTy).Contents (Elt F)),
    StableHlo.binary main_v2232 main_v1931 main_v2371 (addf : (⟨S16384, .f32⟩ : BufTy).Contents (Elt F) → (⟨S16384, .f32⟩ : BufTy).Contents (Elt F) → (⟨S16384, .f32⟩ : BufTy).Contents (Elt F)),
    StableHlo.unary main_v2010 main_v2372 (Host.sin : (⟨S16384, .f32⟩ : BufTy).Contents (Elt F) → (⟨S16384, .f32⟩ : BufTy).Contents (Elt F)),
    StableHlo.binary main_v1754 main_v2274 main_v2373 (subf : (⟨S16384, .f32⟩ : BufTy).Contents (Elt F) → (⟨S16384, .f32⟩ : BufTy).Contents (Elt F) → (⟨S16384, .f32⟩ : BufTy).Contents (Elt F)),
    StableHlo.unary main_v2257 main_v2374 (Host.cos : (⟨S16384, .f32⟩ : BufTy).Contents (Elt F) → (⟨S16384, .f32⟩ : BufTy).Contents (Elt F)),
    StableHlo.binary main_v2204 main_v2107 main_v2375 (addf : (⟨S16384, .f32⟩ : BufTy).Contents (Elt F) → (⟨S16384, .f32⟩ : BufTy).Contents (Elt F) → (⟨S16384, .f32⟩ : BufTy).Contents (Elt F)),
    StableHlo.binary main_v1798 main_v1798 main_v2376 (mulf : (⟨S16384, .f32⟩ : BufTy).Contents (Elt F) → (⟨S16384, .f32⟩ : BufTy).Contents (Elt F) → (⟨S16384, .f32⟩ : BufTy).Contents (Elt F)),
    StableHlo.unary main_v1820 main_v2377 (Host.cos : (⟨S16384, .f32⟩ : BufTy).Contents (Elt F) → (⟨S16384, .f32⟩ : BufTy).Contents (Elt F)),
    StableHlo.binary main_v2268 main_v2289 main_v2378 (mulf : (⟨S16384, .f32⟩ : BufTy).Contents (Elt F) → (⟨S16384, .f32⟩ : BufTy).Contents (Elt F) → (⟨S16384, .f32⟩ : BufTy).Contents (Elt F)),
    StableHlo.binary main_v1688 main_v2367 main_v2379 (addf : (⟨S16384, .f32⟩ : BufTy).Contents (Elt F) → (⟨S16384, .f32⟩ : BufTy).Contents (Elt F) → (⟨S16384, .f32⟩ : BufTy).Contents (Elt F)),
    StableHlo.binary main_v2112 main_v2327 main_v2380 (mulf : (⟨S16384, .f32⟩ : BufTy).Contents (Elt F) → (⟨S16384, .f32⟩ : BufTy).Contents (Elt F) → (⟨S16384, .f32⟩ : BufTy).Contents (Elt F)),
    StableHlo.binary main_v2329 main_v2370 main_v2381 (addf : (⟨S16384, .f32⟩ : BufTy).Contents (Elt F) → (⟨S16384, .f32⟩ : BufTy).Contents (Elt F) → (⟨S16384, .f32⟩ : BufTy).Contents (Elt F)),
    StableHlo.unary main_v2131 main_v2382 (Host.negf : (⟨S16384, .f32⟩ : BufTy).Contents (Elt F) → (⟨S16384, .f32⟩ : BufTy).Contents (Elt F)),
    StableHlo.binary main_v1688 main_v2348 main_v2383 (subf : (⟨S16384, .f32⟩ : BufTy).Contents (Elt F) → (⟨S16384, .f32⟩ : BufTy).Contents (Elt F) → (⟨S16384, .f32⟩ : BufTy).Contents (Elt F)) ]

theorem part39_eq (d : Dev nD) : main_part39 (F := F) d = seq ops39 := rfl
theorem ops39_sub : (ops39 (F := F)).Forall fun op => op.bufs ⊆ tcRefs τ sig := by line_sub
theorem ops39_fresh : ∀ op ∈ (ops39 (F := F)), op.fresh = ∅ := by line_fresh
theorem ops39_ordered : Cert.Ssa.Ordered 2341 (ops39 (F := F)) := by line_ordered

end Cert.ReferenceIdeal.Line

end
-- ==== Proof.RefOps4.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

/-- Window 40 of @main: its operations, positions 2401 to 2460, in order. -/
abbrev ops40 : List (HloOp τ sig (Elt F)) :=
  [ StableHlo.binary main_v2174 main_v2174 main_v2384 (mulf : (⟨S16384, .f32⟩ : BufTy).Contents (Elt F) → (⟨S16384, .f32⟩ : BufTy).Contents (Elt F) → (⟨S16384, .f32⟩ : BufTy).Contents (Elt F)),
    StableHlo.binary main_v2203 main_v2282 main_v2385 (addf : (⟨S16384, .f32⟩ : BufTy).Contents (Elt F) → (⟨S16384, .f32⟩ : BufTy).Contents (Elt F) → (⟨S16384, .f32⟩ : BufTy).Contents (Elt F)),
    StableHlo.binary main_v1975 main_v2144 main_v2386 (addf : (⟨S16384, .f32⟩ : BufTy).Contents (Elt F) → (⟨S16384, .f32⟩ : BufTy).Contents (Elt F) → (⟨S16384, .f32⟩ : BufTy).Contents (Elt F)),
    StableHlo.unary main_v2217 main_v2387 (Host.negf : (⟨S16384, .f32⟩ : BufTy).Contents (Elt F) → (⟨S16384, .f32⟩ : BufTy).Contents (Elt F)),
    StableHlo.unary main_v2002 main_v2388 (Host.negf : (⟨S16384, .f32⟩ : BufTy).Contents (Elt F) → (⟨S16384, .f32⟩ : BufTy).Contents (Elt F)),
    StableHlo.unary main_v2302 main_v2389 (Host.cos : (⟨S16384, .f32⟩ : BufTy).Contents (Elt F) → (⟨S16384, .f32⟩ : BufTy).Contents (Elt F)),
    StableHlo.unary main_v2238 main_v2390 (Host.cos : (⟨S16384, .f32⟩ : BufTy).Contents (Elt F) → (⟨S16384, .f32⟩ : BufTy).Contents (Elt F)),
    StableHlo.binary main_v2175 main_v2249 main_v2391 (mulf : (⟨S16384, .f32⟩ : BufTy).Contents (Elt F) → (⟨S16384, .f32⟩ : BufTy).Contents (Elt F) → (⟨S16384, .f32⟩ : BufTy).Contents (Elt F)),
    StableHlo.unary main_v2336 main_v2392 (Host.cos : (⟨S16384, .f32⟩ : BufTy).Contents (Elt F) → (⟨S16384, .f32⟩ : BufTy).Contents (Elt F)),
    StableHlo.unary main_v1979 main_v2393 (Host.sin : (⟨S16384, .f32⟩ : BufTy).Contents (Elt F) → (⟨S16384, .f32⟩ : BufTy).Contents (Elt F)),
    StableHlo.unary main_v2190 main_v2394 (Host.sin : (⟨S16384, .f32⟩ : BufTy).Contents (Elt F) → (⟨S16384, .f32⟩ : BufTy).Contents (Elt F)),
    StableHlo.binary main_v2324 main_v1900 main_v2395 (mulf : (⟨S16384, .f32⟩ : BufTy).Contents (Elt F) → (⟨S16384, .f32⟩ : BufTy).Contents (Elt F) → (⟨S16384, .f32⟩ : BufTy).Contents (Elt F)),
    StableHlo.binary main_v1844 main_v2327 main_v2396 (subf : (⟨S16384, .f32⟩ : BufTy).Contents (Elt F) → (⟨S16384, .f32⟩ : BufTy).Contents (Elt F) → (⟨S16384, .f32⟩ : BufTy).Contents (Elt F)),
    StableHlo.binary main_v2324 main_v2354 main_v2397 (subf : (⟨S16384, .f32⟩ : BufTy).Contents (Elt F) → (⟨S16384, .f32⟩ : BufTy).Contents (Elt F) → (⟨S16384, .f32⟩ : BufTy).Contents (Elt F)),
    StableHlo.binary main_v2264 main_v2339 main_v2398 (mulf : (⟨S16384, .f32⟩ : BufTy).Contents (Elt F) → (⟨S16384, .f32⟩ : BufTy).Contents (Elt F) → (⟨S16384, .f32⟩ : BufTy).Contents (Elt F)),
    StableHlo.unary main_v2318 main_v2399 (Host.cos : (⟨S16384, .f32⟩ : BufTy).Contents (Elt F) → (⟨S16384, .f32⟩ : BufTy).Contents (Elt F)),
    StableHlo.unary main_v1900 main_v2400 (Host.sin : (⟨S16384, .f32⟩ : BufTy).Contents (Elt F) → (⟨S16384, .f32⟩ : BufTy).Contents (Elt F)),
    StableHlo.unary main_v1803 main_v2401 (Host.cos : (⟨S16384, .f32⟩ : BufTy).Contents (Elt F) → (⟨S16384, .f32⟩ : BufTy).Contents (Elt F)),
    StableHlo.binary main_v2326 main_v2307 main_v2402 (addf : (⟨S16384, .f32⟩ : BufTy).Contents (Elt F) → (⟨S16384, .f32⟩ : BufTy).Contents (Elt F) → (⟨S16384, .f32⟩ : BufTy).Contents (Elt F)),
    StableHlo.binary main_v2131 main_v2288 main_v2403 (addf : (⟨S16384, .f32⟩ : BufTy).Contents (Elt F) → (⟨S16384, .f32⟩ : BufTy).Contents (Elt F) → (⟨S16384, .f32⟩ : BufTy).Contents (Elt F)),
    StableHlo.unary main_v2190 main_v2404 (Host.sin : (⟨S16384, .f32⟩ : BufTy).Contents (Elt F) → (⟨S16384, .f32⟩ : BufTy).Contents (Elt F)),
    StableHlo.binary main_v2308 main_v2329 main_v2405 (mulf : (⟨S16384, .f32⟩ : BufTy).Contents (Elt F) → (⟨S16384, .f32⟩ : BufTy).Contents (Elt F) → (⟨S16384, .f32⟩ : BufTy).Contents (Elt F)),
    StableHlo.binary main_v2235 main_v2235 main_v2406 (mulf : (⟨S16384, .f32⟩ : BufTy).Contents (Elt F) → (⟨S16384, .f32⟩ : BufTy).Contents (Elt F) → (⟨S16384, .f32⟩ : BufTy).Contents (Elt F)),
    StableHlo.binary main_v2402 main_v1798 main_v2407 (addf : (⟨S16384, .f32⟩ : BufTy).Contents (Elt F) → (⟨S16384, .f32⟩ : BufTy).Contents (Elt F) → (⟨S16384, .f32⟩ : BufTy).Contents (Elt F)),
    StableHlo.unary main_v1920 main_v2408 (Host.sin : (⟨S16384, .f32⟩ : BufTy).Contents (Elt F) → (⟨S16384, .f32⟩ : BufTy).Contents (Elt F)),
    StableHlo.unary main_v2361 main_v2409 (Host.cos : (⟨S16384, .f32⟩ : BufTy).Contents (Elt F) → (⟨S16384, .f32⟩ : BufTy).Contents (Elt F)),
    StableHlo.unary main_v2191 main_v2410 (Host.cos : (⟨S16384, .f32⟩ : BufTy).Contents (Elt F) → (⟨S16384, .f32⟩ : BufTy).Contents (Elt F)),
    StableHlo.binary main_v1975 main_v1585 main_v2411 (subf : (⟨S16384, .f32⟩ : BufTy).Contents (Elt F) → (⟨S16384, .f32⟩ : BufTy).Contents (Elt F) → (⟨S16384, .f32⟩ : BufTy).Contents (Elt F)),
    StableHlo.binary main_v2377 main_v2305 main_v2412 (subf : (⟨S16384, .f32⟩ : BufTy).Contents (Elt F) → (⟨S16384, .f32⟩ : BufTy).Contents (Elt F) → (⟨S16384, .f32⟩ : BufTy).Contents (Elt F)),
    StableHlo.binary main_v2305 main_v2176 main_v2413 (mulf : (⟨S16384, .f32⟩ : BufTy).Contents (Elt F) → (⟨S16384, .f32⟩ : BufTy).Contents (Elt F) → (⟨S16384, .f32⟩ : BufTy).Contents (Elt F)),
    StableHlo.binary main_v2180 main_v1863 main_v2414 (addf : (⟨S16384, .f32⟩ : BufTy).Contents (Elt F) → (⟨S16384, .f32⟩ : BufTy).Contents (Elt F) → (⟨S16384, .f32⟩ : BufTy).Contents (Elt F)),
    StableHlo.unary main_v2362 main_v2415 (Host.cos : (⟨S16384, .f32⟩ : BufTy).Contents (Elt F) → (⟨S16384, .f32⟩ : BufTy).Contents (Elt F)),
    StableHlo.unary main_v1854 main_v2416 (Host.sin : (⟨S16384, .f32⟩ : BufTy).Contents (Elt F) → (⟨S16384, .f32⟩ : BufTy).Contents (Elt F)),
    StableHlo.unary main_v2339 main_v2417 (Host.sin : (⟨S16384, .f32⟩ : BufTy).Contents (Elt F) → (⟨S16384, .f32⟩ : BufTy).Contents (Elt F)),
    StableHlo.binary main_v2285 main_v2409 main_v2418 (mulf : (⟨S16384, .f32⟩ : BufTy).Contents (Elt F) → (⟨S16384, .f32⟩ : BufTy).Contents (Elt F) → (⟨S16384, .f32⟩ : BufTy).Contents (Elt F)),
    StableHlo.unary main_v1803 main_v2419 (Host.cos : (⟨S16384, .f32⟩ : BufTy).Contents (Elt F) → (⟨S16384, .f32⟩ : BufTy).Contents (Elt F)),
    StableHlo.binary main_v2289 main_v2350 main_v2420 (subf : (⟨S16384, .f32⟩ : BufTy).Contents (Elt F) → (⟨S16384, .f32⟩ : BufTy).Contents (Elt F) → (⟨S16384, .f32⟩ : BufTy).Contents (Elt F)),
    StableHlo.unary main_v1585 main_v2421 (Host.negf : (⟨S16384, .f32⟩ : BufTy).Contents (Elt F) → (⟨S16384, .f32⟩ : BufTy).Contents (Elt F)),
    StableHlo.unary main_v2375 main_v2422 (Host.sin : (⟨S16384, .f32⟩ : BufTy).Contents (Elt F) → (⟨S16384, .f32⟩ : BufTy).Contents (Elt F)),
    StableHlo.unary main_v2235 main_v2423 (Host.cos : (⟨S16384, .f32⟩ : BufTy).Contents (Elt F) → (⟨S16384, .f32⟩ : BufTy).Contents (Elt F)),
    StableHlo.unary main_v2238 main_v2424 (Host.cos : (⟨S16384, .f32⟩ : BufTy).Contents (Elt F) → (⟨S16384, .f32⟩ : BufTy).Contents (Elt F)),
    StableHlo.binary main_v2159 main_v2323 main_v2425 (subf : (⟨S16384, .f32⟩ : BufTy).Contents (Elt F) → (⟨S16384, .f32⟩ : BufTy).Contents (Elt F) → (⟨S16384, .f32⟩ : BufTy).Contents (Elt F)),
    StableHlo.binary main_v2192 main_v2196 main_v2426 (subf : (⟨S16384, .f32⟩ : BufTy).Contents (Elt F) → (⟨S16384, .f32⟩ : BufTy).Contents (Elt F) → (⟨S16384, .f32⟩ : BufTy).Contents (Elt F)),
    StableHlo.binary main_v1991 main_v1924 main_v2427 (addf : (⟨S16384, .f32⟩ : BufTy).Contents (Elt F) → (⟨S16384, .f32⟩ : BufTy).Contents (Elt F) → (⟨S16384, .f32⟩ : BufTy).Contents (Elt F)),
    StableHlo.unary main_v2341 main_v2428 (Host.cos : (⟨S16384, .f32⟩ : BufTy).Contents (Elt F) → (⟨S16384, .f32⟩ : BufTy).Contents (Elt F)),
    StableHlo.binary main_v1941 main_v2343 main_v2429 (addf : (⟨S16384, .f32⟩ : BufTy).Contents (Elt F) → (⟨S16384, .f32⟩ : BufTy).Contents (Elt F) → (⟨S16384, .f32⟩ : BufTy).Contents (Elt F)),
    StableHlo.binary main_v2285 main_v2343 main_v2430 (addf : (⟨S16384, .f32⟩ : BufTy).Contents (Elt F) → (⟨S16384, .f32⟩ : BufTy).Contents (Elt F) → (⟨S16384, .f32⟩ : BufTy).Contents (Elt F)),
    StableHlo.unary main_v2108 main_v2431 (Host.cos : (⟨S16384, .f32⟩ : BufTy).Contents (Elt F) → (⟨S16384, .f32⟩ : BufTy).Contents (Elt F)),
    StableHlo.binary main_v2130 main_v2301 main_v2432 (mulf : (⟨S16384, .f32⟩ : BufTy).Contents (Elt F) → (⟨S16384, .f32⟩ : BufTy).Contents (Elt F) → (⟨S16384, .f32⟩ : BufTy).Contents (Elt F)),
    StableHlo.binary main_v2292 main_v2362 main_v2433 (subf : (⟨S16384, .f32⟩ : BufTy).Contents (Elt F) → (⟨S16384, .f32⟩ : BufTy).Contents (Elt F) → (⟨S16384, .f32⟩ : BufTy).Contents (Elt F)),
    StableHlo.binary main_v2423 main_v2403 main_v2434 (addf : (⟨S16384, .f32⟩ : BufTy).Contents (Elt F) → (⟨S16384, .f32⟩ : BufTy).Contents (Elt F) → (⟨S16384, .f32⟩ : BufTy).Contents (Elt F)),
    StableHlo.binary main_v2297 main_v2123 main_v2435 (addf : (⟨S16384, .f32⟩ : BufTy).Contents (Elt F) → (⟨S16384, .f32⟩ : BufTy).Contents (Elt F) → (⟨S16384, .f32⟩ : BufTy).Contents (Elt F)),
    StableHlo.binary main_v2145 main_v2308 main_v2436 (addf : (⟨S16384, .f32⟩ : BufTy).Contents (Elt F) → (⟨S16384, .f32⟩ : BufTy).Contents (Elt F) → (⟨S16384, .f32⟩ : BufTy).Contents (Elt F)),
    StableHlo.unary main_v2393 main_v2437 (Host.cos : (⟨S16384, .f32⟩ : BufTy).Contents (Elt F) → (⟨S16384, .f32⟩ : BufTy).Contents (Elt F)),
    StableHlo.binary main_v1881 main_v2437 main_v2438 (mulf : (⟨S16384, .f32⟩ : BufTy).Contents (Elt F) → (⟨S16384, .f32⟩ : BufTy).Contents (Elt F) → (⟨S16384, .f32⟩ : BufTy).Contents (Elt F)),
    StableHlo.unary main_v2406 main_v2439 (Host.cos : (⟨S16384, .f32⟩ : BufTy).Contents (Elt F) → (⟨S16384, .f32⟩ : BufTy).Contents (Elt F)),
    StableHlo.binary main_v2095 main_v2235 main_v2440 (mulf : (⟨S16384, .f32⟩ : BufTy).Contents (Elt F) → (⟨S16384, .f32⟩ : BufTy).Contents (Elt F) → (⟨S16384, .f32⟩ : BufTy).Contents (Elt F)),
    StableHlo.unary main_v1666 main_v2441 (Host.sin : (⟨S16384, .f32⟩ : BufTy).Contents (Elt F) → (⟨S16384, .f32⟩ : BufTy).Contents (Elt F)),
    StableHlo.binary main_v2379 main_v2379 main_v2442 (mulf : (⟨S16384, .f32⟩ : BufTy).Contents (Elt F) → (⟨S16384, .f32⟩ : BufTy).Contents (Elt F) → (⟨S16384, .f32⟩ : BufTy).Contents (Elt F)),
    StableHlo.unary main_v2221 main_v2443 (Host.cos : (⟨S16384, .f32⟩ : BufTy).Contents (Elt F) → (⟨S16384, .f32⟩ : BufTy).Contents (Elt F)) ]

theorem part40_eq (d : Dev nD) : main_part40 (F := F) d = seq ops40 := rfl
theorem ops40_sub : (ops40 (F := F)).Forall fun op => op.bufs ⊆ tcRefs τ sig := by line_sub
theorem ops40_fresh : ∀ op ∈ (ops40 (F := F)), op.fresh = ∅ := by line_fresh
theorem ops40_ordered : Cert.Ssa.Ordered 2401 (ops40 (F := F)) := by line_ordered

/-- Window 41 of @main: its operations, positions 2461 to 2520, in order. -/
abbrev ops41 : List (HloOp τ sig (Elt F)) :=
  [ StableHlo.binary main_v2056 main_v2056 main_v2444 (mulf : (⟨S16384, .f32⟩ : BufTy).Contents (Elt F) → (⟨S16384, .f32⟩ : BufTy).Contents (Elt F) → (⟨S16384, .f32⟩ : BufTy).Contents (Elt F)),
    StableHlo.unary main_v2269 main_v2445 (Host.cos : (⟨S16384, .f32⟩ : BufTy).Contents (Elt F) → (⟨S16384, .f32⟩ : BufTy).Contents (Elt F)),
    StableHlo.unary main_v2357 main_v2446 (Host.cos : (⟨S16384, .f32⟩ : BufTy).Contents (Elt F) → (⟨S16384, .f32⟩ : BufTy).Contents (Elt F)),
    StableHlo.unary main_v2282 main_v2447 (Host.sin : (⟨S16384, .f32⟩ : BufTy).Contents (Elt F) → (⟨S16384, .f32⟩ : BufTy).Contents (Elt F)),
    StableHlo.unary main_v1820 main_v2448 (Host.cos : (⟨S16384, .f32⟩ : BufTy).Contents (Elt F) → (⟨S16384, .f32⟩ : BufTy).Contents (Elt F)),
    StableHlo.unary main_v2392 main_v2449 (Host.cos : (⟨S16384, .f32⟩ : BufTy).Contents (Elt F) → (⟨S16384, .f32⟩ : BufTy).Contents (Elt F)),
    StableHlo.unary main_v2241 main_v2450 (Host.cos : (⟨S16384, .f32⟩ : BufTy).Contents (Elt F) → (⟨S16384, .f32⟩ : BufTy).Contents (Elt F)),
    StableHlo.unary main_v2441 main_v2451 (Host.sin : (⟨S16384, .f32⟩ : BufTy).Contents (Elt F) → (⟨S16384, .f32⟩ : BufTy).Contents (Elt F)),
    StableHlo.unary main_v1899 main_v2452 (Host.cos : (⟨S16384, .f32⟩ : BufTy).Contents (Elt F) → (⟨S16384, .f32⟩ : BufTy).Contents (Elt F)),
    StableHlo.unary main_v2032 main_v2453 (Host.sin : (⟨S16384, .f32⟩ : BufTy).Contents (Elt F) → (⟨S16384, .f32⟩ : BufTy).Contents (Elt F)),
    StableHlo.binary main_v2127 main_v1706 main_v2454 (addf : (⟨S16384, .f32⟩ : BufTy).Contents (Elt F) → (⟨S16384, .f32⟩ : BufTy).Contents (Elt F) → (⟨S16384, .f32⟩ : BufTy).Contents (Elt F)),
    StableHlo.unary main_v2454 main_v2455 (Host.sin : (⟨S16384, .f32⟩ : BufTy).Contents (Elt F) → (⟨S16384, .f32⟩ : BufTy).Contents (Elt F)),
    StableHlo.binary main_v2022 main_v1903 main_v2456 (addf : (⟨S16384, .f32⟩ : BufTy).Contents (Elt F) → (⟨S16384, .f32⟩ : BufTy).Contents (Elt F) → (⟨S16384, .f32⟩ : BufTy).Contents (Elt F)),
    StableHlo.unary main_v2269 main_v2457 (Host.cos : (⟨S16384, .f32⟩ : BufTy).Contents (Elt F) → (⟨S16384, .f32⟩ : BufTy).Contents (Elt F)),
    StableHlo.binary main_v2127 main_v2455 main_v2458 (subf : (⟨S16384, .f32⟩ : BufTy).Contents (Elt F) → (⟨S16384, .f32⟩ : BufTy).Contents (Elt F) → (⟨S16384, .f32⟩ : BufTy).Contents (Elt F)),
    StableHlo.unary main_v2433 main_v2459 (Host.cos : (⟨S16384, .f32⟩ : BufTy).Contents (Elt F) → (⟨S16384, .f32⟩ : BufTy).Contents (Elt F)),
    StableHlo.unary main_v2145 main_v2460 (Host.sin : (⟨S16384, .f32⟩ : BufTy).Contents (Elt F) → (⟨S16384, .f32⟩ : BufTy).Contents (Elt F)),
    StableHlo.binary main_v2205 main_v2205 main_v2461 (mulf : (⟨S16384, .f32⟩ : BufTy).Contents (Elt F) → (⟨S16384, .f32⟩ : BufTy).Contents (Elt F) → (⟨S16384, .f32⟩ : BufTy).Contents (Elt F)),
    StableHlo.binary main_v1810 main_v2365 main_v2462 (addf : (⟨S16384, .f32⟩ : BufTy).Contents (Elt F) → (⟨S16384, .f32⟩ : BufTy).Contents (Elt F) → (⟨S16384, .f32⟩ : BufTy).Contents (Elt F)),
    StableHlo.unary main_v2455 main_v2463 (Host.cos : (⟨S16384, .f32⟩ : BufTy).Contents (Elt F) → (⟨S16384, .f32⟩ : BufTy).Contents (Elt F)),
    StableHlo.unary main_v2020 main_v2464 (Host.cos : (⟨S16384, .f32⟩ : BufTy).Contents (Elt F) → (⟨S16384, .f32⟩ : BufTy).Contents (Elt F)),
    StableHlo.binary main_v2389 main_v2437 main_v2465 (subf : (⟨S16384, .f32⟩ : BufTy).Contents (Elt F) → (⟨S16384, .f32⟩ : BufTy).Contents (Elt F) → (⟨S16384, .f32⟩ : BufTy).Contents (Elt F)),
    StableHlo.unary main_v2323 main_v2466 (Host.sin : (⟨S16384, .f32⟩ : BufTy).Contents (Elt F) → (⟨S16384, .f32⟩ : BufTy).Contents (Elt F)),
    StableHlo.binary main_v2155 main_v2393 main_v2467 (addf : (⟨S16384, .f32⟩ : BufTy).Contents (Elt F) → (⟨S16384, .f32⟩ : BufTy).Contents (Elt F) → (⟨S16384, .f32⟩ : BufTy).Contents (Elt F)),
    StableHlo.binary main_v2217 main_v2359 main_v2468 (mulf : (⟨S16384, .f32⟩ : BufTy).Contents (Elt F) → (⟨S16384, .f32⟩ : BufTy).Contents (Elt F) → (⟨S16384, .f32⟩ : BufTy).Contents (Elt F)),
    StableHlo.unary main_v2319 main_v2469 (Host.cos : (⟨S16384, .f32⟩ : BufTy).Contents (Elt F) → (⟨S16384, .f32⟩ : BufTy).Contents (Elt F)),
    StableHlo.binary main_v2341 main_v2341 main_v2470 (mulf : (⟨S16384, .f32⟩ : BufTy).Contents (Elt F) → (⟨S16384, .f32⟩ : BufTy).Contents (Elt F) → (⟨S16384, .f32⟩ : BufTy).Contents (Elt F)),
    StableHlo.binary main_v2341 main_v2405 main_v2471 (subf : (⟨S16384, .f32⟩ : BufTy).Contents (Elt F) → (⟨S16384, .f32⟩ : BufTy).Contents (Elt F) → (⟨S16384, .f32⟩ : BufTy).Contents (Elt F)),
    StableHlo.unary main_v2333 main_v2472 (Host.cos : (⟨S16384, .f32⟩ : BufTy).Contents (Elt F) → (⟨S16384, .f32⟩ : BufTy).Contents (Elt F)),
    StableHlo.unary main_v1740 main_v2473 (Host.cos : (⟨S16384, .f32⟩ : BufTy).Contents (Elt F) → (⟨S16384, .f32⟩ : BufTy).Contents (Elt F)),
    StableHlo.binary main_v2460 main_v2429 main_v2474 (addf : (⟨S16384, .f32⟩ : BufTy).Contents (Elt F) → (⟨S16384, .f32⟩ : BufTy).Contents (Elt F) → (⟨S16384, .f32⟩ : BufTy).Contents (Elt F)),
    StableHlo.binary main_v2456 main_v2384 main_v2475 (mulf : (⟨S16384, .f32⟩ : BufTy).Contents (Elt F) → (⟨S16384, .f32⟩ : BufTy).Contents (Elt F) → (⟨S16384, .f32⟩ : BufTy).Contents (Elt F)),
    StableHlo.binary main_v2458 main_v2458 main_v2476 (mulf : (⟨S16384, .f32⟩ : BufTy).Contents (Elt F) → (⟨S16384, .f32⟩ : BufTy).Contents (Elt F) → (⟨S16384, .f32⟩ : BufTy).Contents (Elt F)),
    StableHlo.unary main_v1704 main_v2477 (Host.cos : (⟨S16384, .f32⟩ : BufTy).Contents (Elt F) → (⟨S16384, .f32⟩ : BufTy).Contents (Elt F)),
    StableHlo.unary main_v2431 main_v2478 (Host.cos : (⟨S16384, .f32⟩ : BufTy).Contents (Elt F) → (⟨S16384, .f32⟩ : BufTy).Contents (Elt F)),
    StableHlo.binary main_v1585 main_v2470 main_v2479 (mulf : (⟨S16384, .f32⟩ : BufTy).Contents (Elt F) → (⟨S16384, .f32⟩ : BufTy).Contents (Elt F) → (⟨S16384, .f32⟩ : BufTy).Contents (Elt F)),
    StableHlo.binary main_v2020 main_v1900 main_v2480 (addf : (⟨S16384, .f32⟩ : BufTy).Contents (Elt F) → (⟨S16384, .f32⟩ : BufTy).Contents (Elt F) → (⟨S16384, .f32⟩ : BufTy).Contents (Elt F)),
    StableHlo.unary main_v2381 main_v2481 (Host.cos : (⟨S16384, .f32⟩ : BufTy).Contents (Elt F) → (⟨S16384, .f32⟩ : BufTy).Contents (Elt F)),
    StableHlo.binary main_v2274 main_v2422 main_v2482 (mulf : (⟨S16384, .f32⟩ : BufTy).Contents (Elt F) → (⟨S16384, .f32⟩ : BufTy).Contents (Elt F) → (⟨S16384, .f32⟩ : BufTy).Contents (Elt F)),
    StableHlo.unary main_v2458 main_v2483 (Host.cos : (⟨S16384, .f32⟩ : BufTy).Contents (Elt F) → (⟨S16384, .f32⟩ : BufTy).Contents (Elt F)),
    StableHlo.binary main_v2108 main_v2070 main_v2484 (subf : (⟨S16384, .f32⟩ : BufTy).Contents (Elt F) → (⟨S16384, .f32⟩ : BufTy).Contents (Elt F) → (⟨S16384, .f32⟩ : BufTy).Contents (Elt F)),
    StableHlo.binary main_v1687 main_v2406 main_v2485 (addf : (⟨S16384, .f32⟩ : BufTy).Contents (Elt F) → (⟨S16384, .f32⟩ : BufTy).Contents (Elt F) → (⟨S16384, .f32⟩ : BufTy).Contents (Elt F)),
    StableHlo.unary main_v1945 main_v2486 (Host.sin : (⟨S16384, .f32⟩ : BufTy).Contents (Elt F) → (⟨S16384, .f32⟩ : BufTy).Contents (Elt F)),
    StableHlo.unary main_v2112 main_v2487 (Host.sin : (⟨S16384, .f32⟩ : BufTy).Contents (Elt F) → (⟨S16384, .f32⟩ : BufTy).Contents (Elt F)),
    StableHlo.binary main_v2343 main_v1898 main_v2488 (subf : (⟨S16384, .f32⟩ : BufTy).Contents (Elt F) → (⟨S16384, .f32⟩ : BufTy).Contents (Elt F) → (⟨S16384, .f32⟩ : BufTy).Contents (Elt F)),
    StableHlo.unary main_v2460 main_v2489 (Host.sin : (⟨S16384, .f32⟩ : BufTy).Contents (Elt F) → (⟨S16384, .f32⟩ : BufTy).Contents (Elt F)),
    StableHlo.binary main_v2182 main_v2155 main_v2490 (subf : (⟨S16384, .f32⟩ : BufTy).Contents (Elt F) → (⟨S16384, .f32⟩ : BufTy).Contents (Elt F) → (⟨S16384, .f32⟩ : BufTy).Contents (Elt F)),
    StableHlo.unary main_v1763 main_v2491 (Host.sin : (⟨S16384, .f32⟩ : BufTy).Contents (Elt F) → (⟨S16384, .f32⟩ : BufTy).Contents (Elt F)),
    StableHlo.binary main_v2257 main_v1803 main_v2492 (mulf : (⟨S16384, .f32⟩ : BufTy).Contents (Elt F) → (⟨S16384, .f32⟩ : BufTy).Contents (Elt F) → (⟨S16384, .f32⟩ : BufTy).Contents (Elt F)),
    StableHlo.unary main_v1366 main_v2493 (Host.cos : (⟨S16384, .f32⟩ : BufTy).Contents (Elt F) → (⟨S16384, .f32⟩ : BufTy).Contents (Elt F)),
    StableHlo.binary main_v2458 main_v2458 main_v2494 (mulf : (⟨S16384, .f32⟩ : BufTy).Contents (Elt F) → (⟨S16384, .f32⟩ : BufTy).Contents (Elt F) → (⟨S16384, .f32⟩ : BufTy).Contents (Elt F)),
    StableHlo.binary main_v2421 main_v2377 main_v2495 (addf : (⟨S16384, .f32⟩ : BufTy).Contents (Elt F) → (⟨S16384, .f32⟩ : BufTy).Contents (Elt F) → (⟨S16384, .f32⟩ : BufTy).Contents (Elt F)),
    StableHlo.unary main_v2483 main_v2496 (Host.sin : (⟨S16384, .f32⟩ : BufTy).Contents (Elt F) → (⟨S16384, .f32⟩ : BufTy).Contents (Elt F)),
    StableHlo.binary main_v2406 main_v2392 main_v2497 (subf : (⟨S16384, .f32⟩ : BufTy).Contents (Elt F) → (⟨S16384, .f32⟩ : BufTy).Contents (Elt F) → (⟨S16384, .f32⟩ : BufTy).Contents (Elt F)),
    StableHlo.unary main_v2345 main_v2498 (Host.negf : (⟨S16384, .f32⟩ : BufTy).Contents (Elt F) → (⟨S16384, .f32⟩ : BufTy).Contents (Elt F)),
    StableHlo.unary main_v2496 main_v2499 (Host.cos : (⟨S16384, .f32⟩ : BufTy).Contents (Elt F) → (⟨S16384, .f32⟩ : BufTy).Contents (Elt F)),
    StableHlo.unary main_v2346 main_v2500 (Host.sin : (⟨S16384, .f32⟩ : BufTy).Contents (Elt F) → (⟨S16384, .f32⟩ : BufTy).Contents (Elt F)),
    StableHlo.binary main_v2455 main_v2274 main_v2501 (addf : (⟨S16384, .f32⟩ : BufTy).Contents (Elt F) → (⟨S16384, .f32⟩ : BufTy).Contents (Elt F) → (⟨S16384, .f32⟩ : BufTy).Contents (Elt F)),
    StableHlo.unary main_v1920 main_v2502 (Host.cos : (⟨S16384, .f32⟩ : BufTy).Contents (Elt F) → (⟨S16384, .f32⟩ : BufTy).Contents (Elt F)),
    StableHlo.unary main_v2385 main_v2503 (Host.cos : (⟨S16384, .f32⟩ : BufTy).Contents (Elt F) → (⟨S16384, .f32⟩ : BufTy).Contents (Elt F)) ]

theorem part41_eq (d : Dev nD) : main_part41 (F := F) d = seq ops41 := rfl
theorem ops41_sub : (ops41 (F := F)).Forall fun op => op.bufs ⊆ tcRefs τ sig := by line_sub
theorem ops41_fresh : ∀ op ∈ (ops41 (F := F)), op.fresh = ∅ := by line_fresh
theorem ops41_ordered : Cert.Ssa.Ordered 2461 (ops41 (F := F)) := by line_ordered

/-- Window 42 of @main: its operations, positions 2521 to 2580, in order. -/
abbrev ops42 : List (HloOp τ sig (Elt F)) :=
  [ StableHlo.unary main_v2155 main_v2504 (Host.sin : (⟨S16384, .f32⟩ : BufTy).Contents (Elt F) → (⟨S16384, .f32⟩ : BufTy).Contents (Elt F)),
    StableHlo.unary main_v2127 main_v2505 (Host.sin : (⟨S16384, .f32⟩ : BufTy).Contents (Elt F) → (⟨S16384, .f32⟩ : BufTy).Contents (Elt F)),
    StableHlo.binary main_v2430 main_v2360 main_v2506 (mulf : (⟨S16384, .f32⟩ : BufTy).Contents (Elt F) → (⟨S16384, .f32⟩ : BufTy).Contents (Elt F) → (⟨S16384, .f32⟩ : BufTy).Contents (Elt F)),
    StableHlo.binary main_v2476 main_v2388 main_v2507 (mulf : (⟨S16384, .f32⟩ : BufTy).Contents (Elt F) → (⟨S16384, .f32⟩ : BufTy).Contents (Elt F) → (⟨S16384, .f32⟩ : BufTy).Contents (Elt F)),
    StableHlo.unary main_v1981 main_v2508 (Host.cos : (⟨S16384, .f32⟩ : BufTy).Contents (Elt F) → (⟨S16384, .f32⟩ : BufTy).Contents (Elt F)),
    StableHlo.unary main_v1820 main_v2509 (Host.cos : (⟨S16384, .f32⟩ : BufTy).Contents (Elt F) → (⟨S16384, .f32⟩ : BufTy).Contents (Elt F)),
    StableHlo.binary main_v1333 main_v2487 main_v2510 (subf : (⟨S16384, .f32⟩ : BufTy).Contents (Elt F) → (⟨S16384, .f32⟩ : BufTy).Contents (Elt F) → (⟨S16384, .f32⟩ : BufTy).Contents (Elt F)),
    StableHlo.unary main_v2477 main_v2511 (Host.cos : (⟨S16384, .f32⟩ : BufTy).Contents (Elt F) → (⟨S16384, .f32⟩ : BufTy).Contents (Elt F)),
    StableHlo.unary main_v2407 main_v2512 (Host.sin : (⟨S16384, .f32⟩ : BufTy).Contents (Elt F) → (⟨S16384, .f32⟩ : BufTy).Contents (Elt F)),
    StableHlo.binary main_v2429 main_v2468 main_v2513 (subf : (⟨S16384, .f32⟩ : BufTy).Contents (Elt F) → (⟨S16384, .f32⟩ : BufTy).Contents (Elt F) → (⟨S16384, .f32⟩ : BufTy).Contents (Elt F)),
    StableHlo.binary main_v2504 main_v2107 main_v2514 (mulf : (⟨S16384, .f32⟩ : BufTy).Contents (Elt F) → (⟨S16384, .f32⟩ : BufTy).Contents (Elt F) → (⟨S16384, .f32⟩ : BufTy).Contents (Elt F)),
    StableHlo.unary main_v2506 main_v2515 (Host.cos : (⟨S16384, .f32⟩ : BufTy).Contents (Elt F) → (⟨S16384, .f32⟩ : BufTy).Contents (Elt F)),
    StableHlo.binary main_v2475 main_v2367 main_v2516 (subf : (⟨S16384, .f32⟩ : BufTy).Contents (Elt F) → (⟨S16384, .f32⟩ : BufTy).Contents (Elt F) → (⟨S16384, .f32⟩ : BufTy).Contents (Elt F)),
    StableHlo.binary main_v2381 main_v2431 main_v2517 (subf : (⟨S16384, .f32⟩ : BufTy).Contents (Elt F) → (⟨S16384, .f32⟩ : BufTy).Contents (Elt F) → (⟨S16384, .f32⟩ : BufTy).Contents (Elt F)),
    StableHlo.binary main_v2388 main_v2388 main_v2518 (mulf : (⟨S16384, .f32⟩ : BufTy).Contents (Elt F) → (⟨S16384, .f32⟩ : BufTy).Contents (Elt F) → (⟨S16384, .f32⟩ : BufTy).Contents (Elt F)),
    StableHlo.unary main_v2510 main_v2519 (Host.cos : (⟨S16384, .f32⟩ : BufTy).Contents (Elt F) → (⟨S16384, .f32⟩ : BufTy).Contents (Elt F)),
    StableHlo.binary main_v2433 main_v1333 main_v2520 (mulf : (⟨S16384, .f32⟩ : BufTy).Contents (Elt F) → (⟨S16384, .f32⟩ : BufTy).Contents (Elt F) → (⟨S16384, .f32⟩ : BufTy).Contents (Elt F)),
    StableHlo.unary main_v2297 main_v2521 (Host.sin : (⟨S16384, .f32⟩ : BufTy).Contents (Elt F) → (⟨S16384, .f32⟩ : BufTy).Contents (Elt F)),
    StableHlo.unary main_v2160 main_v2522 (Host.sin : (⟨S16384, .f32⟩ : BufTy).Contents (Elt F) → (⟨S16384, .f32⟩ : BufTy).Contents (Elt F)),
    StableHlo.binary main_v2042 main_v2344 main_v2523 (subf : (⟨S16384, .f32⟩ : BufTy).Contents (Elt F) → (⟨S16384, .f32⟩ : BufTy).Contents (Elt F) → (⟨S16384, .f32⟩ : BufTy).Contents (Elt F)),
    StableHlo.unary main_v2378 main_v2524 (Host.sin : (⟨S16384, .f32⟩ : BufTy).Contents (Elt F) → (⟨S16384, .f32⟩ : BufTy).Contents (Elt F)),
    StableHlo.unary main_v2464 main_v2525 (Host.sin : (⟨S16384, .f32⟩ : BufTy).Contents (Elt F) → (⟨S16384, .f32⟩ : BufTy).Contents (Elt F)),
    StableHlo.unary main_v2461 main_v2526 (Host.cos : (⟨S16384, .f32⟩ : BufTy).Contents (Elt F) → (⟨S16384, .f32⟩ : BufTy).Contents (Elt F)),
    StableHlo.binary main_v2362 main_v2515 main_v2527 (mulf : (⟨S16384, .f32⟩ : BufTy).Contents (Elt F) → (⟨S16384, .f32⟩ : BufTy).Contents (Elt F) → (⟨S16384, .f32⟩ : BufTy).Contents (Elt F)),
    StableHlo.unary main_v2248 main_v2528 (Host.sin : (⟨S16384, .f32⟩ : BufTy).Contents (Elt F) → (⟨S16384, .f32⟩ : BufTy).Contents (Elt F)),
    StableHlo.unary main_v2108 main_v2529 (Host.cos : (⟨S16384, .f32⟩ : BufTy).Contents (Elt F) → (⟨S16384, .f32⟩ : BufTy).Contents (Elt F)),
    StableHlo.unary main_v1687 main_v2530 (Host.sin : (⟨S16384, .f32⟩ : BufTy).Contents (Elt F) → (⟨S16384, .f32⟩ : BufTy).Contents (Elt F)),
    StableHlo.binary main_v2357 main_v2406 main_v2531 (mulf : (⟨S16384, .f32⟩ : BufTy).Contents (Elt F) → (⟨S16384, .f32⟩ : BufTy).Contents (Elt F) → (⟨S16384, .f32⟩ : BufTy).Contents (Elt F)),
    StableHlo.binary main_v2518 main_v2009 main_v2532 (subf : (⟨S16384, .f32⟩ : BufTy).Contents (Elt F) → (⟨S16384, .f32⟩ : BufTy).Contents (Elt F) → (⟨S16384, .f32⟩ : BufTy).Contents (Elt F)),
    StableHlo.unary main_v2211 main_v2533 (Host.cos : (⟨S16384, .f32⟩ : BufTy).Contents (Elt F) → (⟨S16384, .f32⟩ : BufTy).Contents (Elt F)),
    StableHlo.unary main_v2258 main_v2534 (Host.negf : (⟨S16384, .f32⟩ : BufTy).Contents (Elt F) → (⟨S16384, .f32⟩ : BufTy).Contents (Elt F)),
    StableHlo.unary main_v2360 main_v2535 (Host.sin : (⟨S16384, .f32⟩ : BufTy).Contents (Elt F) → (⟨S16384, .f32⟩ : BufTy).Contents (Elt F)),
    StableHlo.unary main_v2517 main_v2536 (Host.negf : (⟨S16384, .f32⟩ : BufTy).Contents (Elt F) → (⟨S16384, .f32⟩ : BufTy).Contents (Elt F)),
    StableHlo.binary main_v2397 main_v2485 main_v2537 (addf : (⟨S16384, .f32⟩ : BufTy).Contents (Elt F) → (⟨S16384, .f32⟩ : BufTy).Contents (Elt F) → (⟨S16384, .f32⟩ : BufTy).Contents (Elt F)),
    StableHlo.binary main_v2372 main_v2070 main_v2538 (addf : (⟨S16384, .f32⟩ : BufTy).Contents (Elt F) → (⟨S16384, .f32⟩ : BufTy).Contents (Elt F) → (⟨S16384, .f32⟩ : BufTy).Contents (Elt F)),
    StableHlo.unary main_v1845 main_v2539 (Host.sin : (⟨S16384, .f32⟩ : BufTy).Contents (Elt F) → (⟨S16384, .f32⟩ : BufTy).Contents (Elt F)),
    StableHlo.unary main_v1975 main_v2540 (Host.cos : (⟨S16384, .f32⟩ : BufTy).Contents (Elt F) → (⟨S16384, .f32⟩ : BufTy).Contents (Elt F)),
    StableHlo.unary main_v2487 main_v2541 (Host.negf : (⟨S16384, .f32⟩ : BufTy).Contents (Elt F) → (⟨S16384, .f32⟩ : BufTy).Contents (Elt F)),
    StableHlo.unary main_v2258 main_v2542 (Host.negf : (⟨S16384, .f32⟩ : BufTy).Contents (Elt F) → (⟨S16384, .f32⟩ : BufTy).Contents (Elt F)),
    StableHlo.unary main_v2440 main_v2543 (Host.sin : (⟨S16384, .f32⟩ : BufTy).Contents (Elt F) → (⟨S16384, .f32⟩ : BufTy).Contents (Elt F)),
    StableHlo.unary main_v2311 main_v2544 (Host.sin : (⟨S16384, .f32⟩ : BufTy).Contents (Elt F) → (⟨S16384, .f32⟩ : BufTy).Contents (Elt F)),
    StableHlo.unary main_v2274 main_v2545 (Host.cos : (⟨S16384, .f32⟩ : BufTy).Contents (Elt F) → (⟨S16384, .f32⟩ : BufTy).Contents (Elt F)),
    StableHlo.binary main_v2050 main_v2056 main_v2546 (mulf : (⟨S16384, .f32⟩ : BufTy).Contents (Elt F) → (⟨S16384, .f32⟩ : BufTy).Contents (Elt F) → (⟨S16384, .f32⟩ : BufTy).Contents (Elt F)),
    StableHlo.unary main_v2355 main_v2547 (Host.sin : (⟨S16384, .f32⟩ : BufTy).Contents (Elt F) → (⟨S16384, .f32⟩ : BufTy).Contents (Elt F)),
    StableHlo.unary main_v2221 main_v2548 (Host.sin : (⟨S16384, .f32⟩ : BufTy).Contents (Elt F) → (⟨S16384, .f32⟩ : BufTy).Contents (Elt F)),
    StableHlo.unary main_v2346 main_v2549 (Host.sin : (⟨S16384, .f32⟩ : BufTy).Contents (Elt F) → (⟨S16384, .f32⟩ : BufTy).Contents (Elt F)),
    StableHlo.unary main_v2219 main_v2550 (Host.sin : (⟨S16384, .f32⟩ : BufTy).Contents (Elt F) → (⟨S16384, .f32⟩ : BufTy).Contents (Elt F)),
    StableHlo.binary main_v2050 main_v2396 main_v2551 (addf : (⟨S16384, .f32⟩ : BufTy).Contents (Elt F) → (⟨S16384, .f32⟩ : BufTy).Contents (Elt F) → (⟨S16384, .f32⟩ : BufTy).Contents (Elt F)),
    StableHlo.unary main_v2513 main_v2552 (Host.negf : (⟨S16384, .f32⟩ : BufTy).Contents (Elt F) → (⟨S16384, .f32⟩ : BufTy).Contents (Elt F)),
    StableHlo.unary main_v1969 main_v2553 (Host.sin : (⟨S16384, .f32⟩ : BufTy).Contents (Elt F) → (⟨S16384, .f32⟩ : BufTy).Contents (Elt F)),
    StableHlo.binary main_v2487 main_v2070 main_v2554 (mulf : (⟨S16384, .f32⟩ : BufTy).Contents (Elt F) → (⟨S16384, .f32⟩ : BufTy).Contents (Elt F) → (⟨S16384, .f32⟩ : BufTy).Contents (Elt F)),
    StableHlo.unary main_v2301 main_v2555 (Host.cos : (⟨S16384, .f32⟩ : BufTy).Contents (Elt F) → (⟨S16384, .f32⟩ : BufTy).Contents (Elt F)),
    StableHlo.binary main_v2554 main_v2480 main_v2556 (addf : (⟨S16384, .f32⟩ : BufTy).Contents (Elt F) → (⟨S16384, .f32⟩ : BufTy).Contents (Elt F) → (⟨S16384, .f32⟩ : BufTy).Contents (Elt F)),
    StableHlo.binary main_v2411 main_v2504 main_v2557 (addf : (⟨S16384, .f32⟩ : BufTy).Contents (Elt F) → (⟨S16384, .f32⟩ : BufTy).Contents (Elt F) → (⟨S16384, .f32⟩ : BufTy).Contents (Elt F)),
    StableHlo.unary main_v2538 main_v2558 (Host.sin : (⟨S16384, .f32⟩ : BufTy).Contents (Elt F) → (⟨S16384, .f32⟩ : BufTy).Contents (Elt F)),
    StableHlo.binary main_v1687 main_v2390 main_v2559 (addf : (⟨S16384, .f32⟩ : BufTy).Contents (Elt F) → (⟨S16384, .f32⟩ : BufTy).Contents (Elt F) → (⟨S16384, .f32⟩ : BufTy).Contents (Elt F)),
    StableHlo.binary main_v2372 main_v2436 main_v2560 (mulf : (⟨S16384, .f32⟩ : BufTy).Contents (Elt F) → (⟨S16384, .f32⟩ : BufTy).Contents (Elt F) → (⟨S16384, .f32⟩ : BufTy).Contents (Elt F)),
    StableHlo.unary main_v2441 main_v2561 (Host.sin : (⟨S16384, .f32⟩ : BufTy).Contents (Elt F) → (⟨S16384, .f32⟩ : BufTy).Contents (Elt F)),
    StableHlo.unary main_v2401 main_v2562 (Host.sin : (⟨S16384, .f32⟩ : BufTy).Contents (Elt F) → (⟨S16384, .f32⟩ : BufTy).Contents (Elt F)),
    StableHlo.unary main_v2372 main_v2563 (Host.cos : (⟨S16384, .f32⟩ : BufTy).Contents (Elt F) → (⟨S16384, .f32⟩ : BufTy).Contents (Elt F)) ]

theorem part42_eq (d : Dev nD) : main_part42 (F := F) d = seq ops42 := rfl
theorem ops42_sub : (ops42 (F := F)).Forall fun op => op.bufs ⊆ tcRefs τ sig := by line_sub
theorem ops42_fresh : ∀ op ∈ (ops42 (F := F)), op.fresh = ∅ := by line_fresh
theorem ops42_ordered : Cert.Ssa.Ordered 2521 (ops42 (F := F)) := by line_ordered

/-- Window 43 of @main: its operations, positions 2581 to 2640, in order. -/
abbrev ops43 : List (HloOp τ sig (Elt F)) :=
  [ StableHlo.unary main_v2534 main_v2564 (Host.sin : (⟨S16384, .f32⟩ : BufTy).Contents (Elt F) → (⟨S16384, .f32⟩ : BufTy).Contents (Elt F)),
    StableHlo.binary main_v2389 main_v2480 main_v2565 (subf : (⟨S16384, .f32⟩ : BufTy).Contents (Elt F) → (⟨S16384, .f32⟩ : BufTy).Contents (Elt F) → (⟨S16384, .f32⟩ : BufTy).Contents (Elt F)),
    StableHlo.unary main_v2525 main_v2566 (Host.sin : (⟨S16384, .f32⟩ : BufTy).Contents (Elt F) → (⟨S16384, .f32⟩ : BufTy).Contents (Elt F)),
    StableHlo.binary main_v2555 main_v2070 main_v2567 (subf : (⟨S16384, .f32⟩ : BufTy).Contents (Elt F) → (⟨S16384, .f32⟩ : BufTy).Contents (Elt F) → (⟨S16384, .f32⟩ : BufTy).Contents (Elt F)),
    StableHlo.unary main_v2543 main_v2568 (Host.sin : (⟨S16384, .f32⟩ : BufTy).Contents (Elt F) → (⟨S16384, .f32⟩ : BufTy).Contents (Elt F)),
    StableHlo.unary main_v2520 main_v2569 (Host.sin : (⟨S16384, .f32⟩ : BufTy).Contents (Elt F) → (⟨S16384, .f32⟩ : BufTy).Contents (Elt F)),
    StableHlo.unary main_v2516 main_v2570 (Host.negf : (⟨S16384, .f32⟩ : BufTy).Contents (Elt F) → (⟨S16384, .f32⟩ : BufTy).Contents (Elt F)),
    StableHlo.binary main_v2205 main_v2205 main_v2571 (mulf : (⟨S16384, .f32⟩ : BufTy).Contents (Elt F) → (⟨S16384, .f32⟩ : BufTy).Contents (Elt F) → (⟨S16384, .f32⟩ : BufTy).Contents (Elt F)),
    StableHlo.unary main_v2322 main_v2572 (Host.cos : (⟨S16384, .f32⟩ : BufTy).Contents (Elt F) → (⟨S16384, .f32⟩ : BufTy).Contents (Elt F)),
    StableHlo.unary main_v2110 main_v2573 (Host.negf : (⟨S16384, .f32⟩ : BufTy).Contents (Elt F) → (⟨S16384, .f32⟩ : BufTy).Contents (Elt F)),
    StableHlo.unary main_v2295 main_v2574 (Host.cos : (⟨S16384, .f32⟩ : BufTy).Contents (Elt F) → (⟨S16384, .f32⟩ : BufTy).Contents (Elt F)),
    StableHlo.binary main_v2530 main_v2009 main_v2575 (subf : (⟨S16384, .f32⟩ : BufTy).Contents (Elt F) → (⟨S16384, .f32⟩ : BufTy).Contents (Elt F) → (⟨S16384, .f32⟩ : BufTy).Contents (Elt F)),
    StableHlo.unary main_v2160 main_v2576 (Host.cos : (⟨S16384, .f32⟩ : BufTy).Contents (Elt F) → (⟨S16384, .f32⟩ : BufTy).Contents (Elt F)),
    StableHlo.unary main_v2542 main_v2577 (Host.cos : (⟨S16384, .f32⟩ : BufTy).Contents (Elt F) → (⟨S16384, .f32⟩ : BufTy).Contents (Elt F)),
    StableHlo.unary main_v2376 main_v2578 (Host.negf : (⟨S16384, .f32⟩ : BufTy).Contents (Elt F) → (⟨S16384, .f32⟩ : BufTy).Contents (Elt F)),
    StableHlo.unary main_v2460 main_v2579 (Host.sin : (⟨S16384, .f32⟩ : BufTy).Contents (Elt F) → (⟨S16384, .f32⟩ : BufTy).Contents (Elt F)),
    StableHlo.binary main_v2475 main_v2319 main_v2580 (subf : (⟨S16384, .f32⟩ : BufTy).Contents (Elt F) → (⟨S16384, .f32⟩ : BufTy).Contents (Elt F) → (⟨S16384, .f32⟩ : BufTy).Contents (Elt F)),
    StableHlo.unary main_v2354 main_v2581 (Host.sin : (⟨S16384, .f32⟩ : BufTy).Contents (Elt F) → (⟨S16384, .f32⟩ : BufTy).Contents (Elt F)),
    StableHlo.binary main_v2435 main_v2537 main_v2582 (addf : (⟨S16384, .f32⟩ : BufTy).Contents (Elt F) → (⟨S16384, .f32⟩ : BufTy).Contents (Elt F) → (⟨S16384, .f32⟩ : BufTy).Contents (Elt F)),
    StableHlo.binary main_v2123 main_v1789 main_v2583 (subf : (⟨S16384, .f32⟩ : BufTy).Contents (Elt F) → (⟨S16384, .f32⟩ : BufTy).Contents (Elt F) → (⟨S16384, .f32⟩ : BufTy).Contents (Elt F)),
    StableHlo.binary main_v2435 main_v2311 main_v2584 (mulf : (⟨S16384, .f32⟩ : BufTy).Contents (Elt F) → (⟨S16384, .f32⟩ : BufTy).Contents (Elt F) → (⟨S16384, .f32⟩ : BufTy).Contents (Elt F)),
    StableHlo.unary main_v2110 main_v2585 (Host.cos : (⟨S16384, .f32⟩ : BufTy).Contents (Elt F) → (⟨S16384, .f32⟩ : BufTy).Contents (Elt F)),
    StableHlo.binary main_v2484 main_v2564 main_v2586 (subf : (⟨S16384, .f32⟩ : BufTy).Contents (Elt F) → (⟨S16384, .f32⟩ : BufTy).Contents (Elt F) → (⟨S16384, .f32⟩ : BufTy).Contents (Elt F)),
    StableHlo.unary main_v1763 main_v2587 (Host.cos : (⟨S16384, .f32⟩ : BufTy).Contents (Elt F) → (⟨S16384, .f32⟩ : BufTy).Contents (Elt F)),
    StableHlo.binary main_v2389 main_v2472 main_v2588 (subf : (⟨S16384, .f32⟩ : BufTy).Contents (Elt F) → (⟨S16384, .f32⟩ : BufTy).Contents (Elt F) → (⟨S16384, .f32⟩ : BufTy).Contents (Elt F)),
    StableHlo.unary main_v2508 main_v2589 (Host.cos : (⟨S16384, .f32⟩ : BufTy).Contents (Elt F) → (⟨S16384, .f32⟩ : BufTy).Contents (Elt F)),
    StableHlo.unary main_v1820 main_v2590 (Host.cos : (⟨S16384, .f32⟩ : BufTy).Contents (Elt F) → (⟨S16384, .f32⟩ : BufTy).Contents (Elt F)),
    StableHlo.binary main_v2483 main_v2353 main_v2591 (addf : (⟨S16384, .f32⟩ : BufTy).Contents (Elt F) → (⟨S16384, .f32⟩ : BufTy).Contents (Elt F) → (⟨S16384, .f32⟩ : BufTy).Contents (Elt F)),
    StableHlo.binary main_v2446 main_v2420 main_v2592 (subf : (⟨S16384, .f32⟩ : BufTy).Contents (Elt F) → (⟨S16384, .f32⟩ : BufTy).Contents (Elt F) → (⟨S16384, .f32⟩ : BufTy).Contents (Elt F)),
    StableHlo.unary main_v1898 main_v2593 (Host.cos : (⟨S16384, .f32⟩ : BufTy).Contents (Elt F) → (⟨S16384, .f32⟩ : BufTy).Contents (Elt F)),
    StableHlo.unary main_v2112 main_v2594 (Host.sin : (⟨S16384, .f32⟩ : BufTy).Contents (Elt F) → (⟨S16384, .f32⟩ : BufTy).Contents (Elt F)),
    StableHlo.binary main_v2553 main_v2584 main_v2595 (subf : (⟨S16384, .f32⟩ : BufTy).Contents (Elt F) → (⟨S16384, .f32⟩ : BufTy).Contents (Elt F) → (⟨S16384, .f32⟩ : BufTy).Contents (Elt F)),
    StableHlo.binary main_v2162 main_v2502 main_v2596 (subf : (⟨S16384, .f32⟩ : BufTy).Contents (Elt F) → (⟨S16384, .f32⟩ : BufTy).Contents (Elt F) → (⟨S16384, .f32⟩ : BufTy).Contents (Elt F)),
    StableHlo.unary main_v2547 main_v2597 (Host.sin : (⟨S16384, .f32⟩ : BufTy).Contents (Elt F) → (⟨S16384, .f32⟩ : BufTy).Contents (Elt F)),
    StableHlo.binary main_v2533 main_v2507 main_v2598 (addf : (⟨S16384, .f32⟩ : BufTy).Contents (Elt F) → (⟨S16384, .f32⟩ : BufTy).Contents (Elt F) → (⟨S16384, .f32⟩ : BufTy).Contents (Elt F)),
    StableHlo.unary main_v2497 main_v2599 (Host.cos : (⟨S16384, .f32⟩ : BufTy).Contents (Elt F) → (⟨S16384, .f32⟩ : BufTy).Contents (Elt F)),
    StableHlo.binary main_v1979 main_v2507 main_v2600 (addf : (⟨S16384, .f32⟩ : BufTy).Contents (Elt F) → (⟨S16384, .f32⟩ : BufTy).Contents (Elt F) → (⟨S16384, .f32⟩ : BufTy).Contents (Elt F)),
    StableHlo.binary main_v2233 main_v1682 main_v2601 (addf : (⟨S16384, .f32⟩ : BufTy).Contents (Elt F) → (⟨S16384, .f32⟩ : BufTy).Contents (Elt F) → (⟨S16384, .f32⟩ : BufTy).Contents (Elt F)),
    StableHlo.unary main_v2576 main_v2602 (Host.negf : (⟨S16384, .f32⟩ : BufTy).Contents (Elt F) → (⟨S16384, .f32⟩ : BufTy).Contents (Elt F)),
    StableHlo.unary main_v2551 main_v2603 (Host.cos : (⟨S16384, .f32⟩ : BufTy).Contents (Elt F) → (⟨S16384, .f32⟩ : BufTy).Contents (Elt F)),
    StableHlo.unary main_v2579 main_v2604 (Host.sin : (⟨S16384, .f32⟩ : BufTy).Contents (Elt F) → (⟨S16384, .f32⟩ : BufTy).Contents (Elt F)),
    StableHlo.binary main_v2360 main_v1880 main_v2605 (addf : (⟨S16384, .f32⟩ : BufTy).Contents (Elt F) → (⟨S16384, .f32⟩ : BufTy).Contents (Elt F) → (⟨S16384, .f32⟩ : BufTy).Contents (Elt F)),
    StableHlo.unary main_v2544 main_v2606 (Host.cos : (⟨S16384, .f32⟩ : BufTy).Contents (Elt F) → (⟨S16384, .f32⟩ : BufTy).Contents (Elt F)),
    StableHlo.unary main_v2360 main_v2607 (Host.sin : (⟨S16384, .f32⟩ : BufTy).Contents (Elt F) → (⟨S16384, .f32⟩ : BufTy).Contents (Elt F)),
    StableHlo.binary main_v2392 main_v2392 main_v2608 (mulf : (⟨S16384, .f32⟩ : BufTy).Contents (Elt F) → (⟨S16384, .f32⟩ : BufTy).Contents (Elt F) → (⟨S16384, .f32⟩ : BufTy).Contents (Elt F)),
    StableHlo.binary main_v2354 main_v2553 main_v2609 (addf : (⟨S16384, .f32⟩ : BufTy).Contents (Elt F) → (⟨S16384, .f32⟩ : BufTy).Contents (Elt F) → (⟨S16384, .f32⟩ : BufTy).Contents (Elt F)),
    StableHlo.unary main_v2407 main_v2610 (Host.sin : (⟨S16384, .f32⟩ : BufTy).Contents (Elt F) → (⟨S16384, .f32⟩ : BufTy).Contents (Elt F)),
    StableHlo.binary main_v2432 main_v2432 main_v2611 (mulf : (⟨S16384, .f32⟩ : BufTy).Contents (Elt F) → (⟨S16384, .f32⟩ : BufTy).Contents (Elt F) → (⟨S16384, .f32⟩ : BufTy).Contents (Elt F)),
    StableHlo.unary main_v2388 main_v2612 (Host.cos : (⟨S16384, .f32⟩ : BufTy).Contents (Elt F) → (⟨S16384, .f32⟩ : BufTy).Contents (Elt F)),
    StableHlo.unary main_v2432 main_v2613 (Host.cos : (⟨S16384, .f32⟩ : BufTy).Contents (Elt F) → (⟨S16384, .f32⟩ : BufTy).Contents (Elt F)),
    StableHlo.binary main_v2577 main_v2580 main_v2614 (subf : (⟨S16384, .f32⟩ : BufTy).Contents (Elt F) → (⟨S16384, .f32⟩ : BufTy).Contents (Elt F) → (⟨S16384, .f32⟩ : BufTy).Contents (Elt F)),
    StableHlo.unary main_v1991 main_v2615 (Host.cos : (⟨S16384, .f32⟩ : BufTy).Contents (Elt F) → (⟨S16384, .f32⟩ : BufTy).Contents (Elt F)),
    StableHlo.binary main_v2461 main_v2461 main_v2616 (mulf : (⟨S16384, .f32⟩ : BufTy).Contents (Elt F) → (⟨S16384, .f32⟩ : BufTy).Contents (Elt F) → (⟨S16384, .f32⟩ : BufTy).Contents (Elt F)),
    StableHlo.binary main_v2578 main_v2508 main_v2617 (mulf : (⟨S16384, .f32⟩ : BufTy).Contents (Elt F) → (⟨S16384, .f32⟩ : BufTy).Contents (Elt F) → (⟨S16384, .f32⟩ : BufTy).Contents (Elt F)),
    StableHlo.binary main_v2384 main_v2601 main_v2618 (subf : (⟨S16384, .f32⟩ : BufTy).Contents (Elt F) → (⟨S16384, .f32⟩ : BufTy).Contents (Elt F) → (⟨S16384, .f32⟩ : BufTy).Contents (Elt F)),
    StableHlo.binary main_v2468 main_v2407 main_v2619 (addf : (⟨S16384, .f32⟩ : BufTy).Contents (Elt F) → (⟨S16384, .f32⟩ : BufTy).Contents (Elt F) → (⟨S16384, .f32⟩ : BufTy).Contents (Elt F)),
    StableHlo.binary main_v1682 main_v2431 main_v2620 (addf : (⟨S16384, .f32⟩ : BufTy).Contents (Elt F) → (⟨S16384, .f32⟩ : BufTy).Contents (Elt F) → (⟨S16384, .f32⟩ : BufTy).Contents (Elt F)),
    StableHlo.binary main_v2104 main_v2076 main_v2621 (subf : (⟨S16384, .f32⟩ : BufTy).Contents (Elt F) → (⟨S16384, .f32⟩ : BufTy).Contents (Elt F) → (⟨S16384, .f32⟩ : BufTy).Contents (Elt F)),
    StableHlo.unary main_v2375 main_v2622 (Host.cos : (⟨S16384, .f32⟩ : BufTy).Contents (Elt F) → (⟨S16384, .f32⟩ : BufTy).Contents (Elt F)),
    StableHlo.binary main_v2492 main_v2525 main_v2623 (subf : (⟨S16384, .f32⟩ : BufTy).Contents (Elt F) → (⟨S16384, .f32⟩ : BufTy).Contents (Elt F) → (⟨S16384, .f32⟩ : BufTy).Contents (Elt F)) ]

theorem part43_eq (d : Dev nD) : main_part43 (F := F) d = seq ops43 := rfl
theorem ops43_sub : (ops43 (F := F)).Forall fun op => op.bufs ⊆ tcRefs τ sig := by line_sub
theorem ops43_fresh : ∀ op ∈ (ops43 (F := F)), op.fresh = ∅ := by line_fresh
theorem ops43_ordered : Cert.Ssa.Ordered 2581 (ops43 (F := F)) := by line_ordered

/-- Window 44 of @main: its operations, positions 2641 to 2700, in order. -/
abbrev ops44 : List (HloOp τ sig (Elt F)) :=
  [ StableHlo.unary main_v2446 main_v2624 (Host.sin : (⟨S16384, .f32⟩ : BufTy).Contents (Elt F) → (⟨S16384, .f32⟩ : BufTy).Contents (Elt F)),
    StableHlo.binary main_v2570 main_v1908 main_v2625 (subf : (⟨S16384, .f32⟩ : BufTy).Contents (Elt F) → (⟨S16384, .f32⟩ : BufTy).Contents (Elt F) → (⟨S16384, .f32⟩ : BufTy).Contents (Elt F)),
    StableHlo.binary main_v2072 main_v2496 main_v2626 (subf : (⟨S16384, .f32⟩ : BufTy).Contents (Elt F) → (⟨S16384, .f32⟩ : BufTy).Contents (Elt F) → (⟨S16384, .f32⟩ : BufTy).Contents (Elt F)),
    StableHlo.binary main_v2322 main_v2322 main_v2627 (mulf : (⟨S16384, .f32⟩ : BufTy).Contents (Elt F) → (⟨S16384, .f32⟩ : BufTy).Contents (Elt F) → (⟨S16384, .f32⟩ : BufTy).Contents (Elt F)),
    StableHlo.binary main_v1856 main_v2581 main_v2628 (subf : (⟨S16384, .f32⟩ : BufTy).Contents (Elt F) → (⟨S16384, .f32⟩ : BufTy).Contents (Elt F) → (⟨S16384, .f32⟩ : BufTy).Contents (Elt F)),
    StableHlo.binary main_v2377 main_v2091 main_v2629 (subf : (⟨S16384, .f32⟩ : BufTy).Contents (Elt F) → (⟨S16384, .f32⟩ : BufTy).Contents (Elt F) → (⟨S16384, .f32⟩ : BufTy).Contents (Elt F)),
    StableHlo.binary main_v2275 main_v2432 main_v2630 (addf : (⟨S16384, .f32⟩ : BufTy).Contents (Elt F) → (⟨S16384, .f32⟩ : BufTy).Contents (Elt F) → (⟨S16384, .f32⟩ : BufTy).Contents (Elt F)),
    StableHlo.unary main_v2376 main_v2631 (Host.cos : (⟨S16384, .f32⟩ : BufTy).Contents (Elt F) → (⟨S16384, .f32⟩ : BufTy).Contents (Elt F)),
    StableHlo.unary main_v2462 main_v2632 (Host.cos : (⟨S16384, .f32⟩ : BufTy).Contents (Elt F) → (⟨S16384, .f32⟩ : BufTy).Contents (Elt F)),
    StableHlo.unary main_v2392 main_v2633 (Host.cos : (⟨S16384, .f32⟩ : BufTy).Contents (Elt F) → (⟨S16384, .f32⟩ : BufTy).Contents (Elt F)),
    StableHlo.unary main_v1704 main_v2634 (Host.sin : (⟨S16384, .f32⟩ : BufTy).Contents (Elt F) → (⟨S16384, .f32⟩ : BufTy).Contents (Elt F)),
    StableHlo.binary main_v2626 main_v2508 main_v2635 (addf : (⟨S16384, .f32⟩ : BufTy).Contents (Elt F) → (⟨S16384, .f32⟩ : BufTy).Contents (Elt F) → (⟨S16384, .f32⟩ : BufTy).Contents (Elt F)),
    StableHlo.binary main_v2377 main_v2401 main_v2636 (mulf : (⟨S16384, .f32⟩ : BufTy).Contents (Elt F) → (⟨S16384, .f32⟩ : BufTy).Contents (Elt F) → (⟨S16384, .f32⟩ : BufTy).Contents (Elt F)),
    StableHlo.binary main_v2570 main_v2406 main_v2637 (subf : (⟨S16384, .f32⟩ : BufTy).Contents (Elt F) → (⟨S16384, .f32⟩ : BufTy).Contents (Elt F) → (⟨S16384, .f32⟩ : BufTy).Contents (Elt F)),
    StableHlo.binary main_v2414 main_v2414 main_v2638 (mulf : (⟨S16384, .f32⟩ : BufTy).Contents (Elt F) → (⟨S16384, .f32⟩ : BufTy).Contents (Elt F) → (⟨S16384, .f32⟩ : BufTy).Contents (Elt F)),
    StableHlo.unary main_v2533 main_v2639 (Host.cos : (⟨S16384, .f32⟩ : BufTy).Contents (Elt F) → (⟨S16384, .f32⟩ : BufTy).Contents (Elt F)),
    StableHlo.binary main_v2233 main_v2584 main_v2640 (subf : (⟨S16384, .f32⟩ : BufTy).Contents (Elt F) → (⟨S16384, .f32⟩ : BufTy).Contents (Elt F) → (⟨S16384, .f32⟩ : BufTy).Contents (Elt F)),
    StableHlo.binary main_v2436 main_v2566 main_v2641 (subf : (⟨S16384, .f32⟩ : BufTy).Contents (Elt F) → (⟨S16384, .f32⟩ : BufTy).Contents (Elt F) → (⟨S16384, .f32⟩ : BufTy).Contents (Elt F)),
    StableHlo.binary main_v2564 main_v2584 main_v2642 (mulf : (⟨S16384, .f32⟩ : BufTy).Contents (Elt F) → (⟨S16384, .f32⟩ : BufTy).Contents (Elt F) → (⟨S16384, .f32⟩ : BufTy).Contents (Elt F)),
    StableHlo.unary main_v2609 main_v2643 (Host.cos : (⟨S16384, .f32⟩ : BufTy).Contents (Elt F) → (⟨S16384, .f32⟩ : BufTy).Contents (Elt F)),
    StableHlo.unary main_v2533 main_v2644 (Host.sin : (⟨S16384, .f32⟩ : BufTy).Contents (Elt F) → (⟨S16384, .f32⟩ : BufTy).Contents (Elt F)),
    StableHlo.binary main_v2530 main_v2642 main_v2645 (addf : (⟨S16384, .f32⟩ : BufTy).Contents (Elt F) → (⟨S16384, .f32⟩ : BufTy).Contents (Elt F) → (⟨S16384, .f32⟩ : BufTy).Contents (Elt F)),
    StableHlo.unary main_v2570 main_v2646 (Host.sin : (⟨S16384, .f32⟩ : BufTy).Contents (Elt F) → (⟨S16384, .f32⟩ : BufTy).Contents (Elt F)),
    StableHlo.unary main_v2630 main_v2647 (Host.sin : (⟨S16384, .f32⟩ : BufTy).Contents (Elt F) → (⟨S16384, .f32⟩ : BufTy).Contents (Elt F)),
    StableHlo.binary main_v2554 main_v2565 main_v2648 (addf : (⟨S16384, .f32⟩ : BufTy).Contents (Elt F) → (⟨S16384, .f32⟩ : BufTy).Contents (Elt F) → (⟨S16384, .f32⟩ : BufTy).Contents (Elt F)),
    StableHlo.unary main_v2480 main_v2649 (Host.sin : (⟨S16384, .f32⟩ : BufTy).Contents (Elt F) → (⟨S16384, .f32⟩ : BufTy).Contents (Elt F)),
    StableHlo.unary main_v2624 main_v2650 (Host.cos : (⟨S16384, .f32⟩ : BufTy).Contents (Elt F) → (⟨S16384, .f32⟩ : BufTy).Contents (Elt F)),
    StableHlo.binary main_v1666 main_v1666 main_v2651 (mulf : (⟨S16384, .f32⟩ : BufTy).Contents (Elt F) → (⟨S16384, .f32⟩ : BufTy).Contents (Elt F) → (⟨S16384, .f32⟩ : BufTy).Contents (Elt F)),
    StableHlo.binary main_v2472 main_v2192 main_v2652 (addf : (⟨S16384, .f32⟩ : BufTy).Contents (Elt F) → (⟨S16384, .f32⟩ : BufTy).Contents (Elt F) → (⟨S16384, .f32⟩ : BufTy).Contents (Elt F)),
    StableHlo.binary main_v2544 main_v2475 main_v2653 (addf : (⟨S16384, .f32⟩ : BufTy).Contents (Elt F) → (⟨S16384, .f32⟩ : BufTy).Contents (Elt F) → (⟨S16384, .f32⟩ : BufTy).Contents (Elt F)),
    StableHlo.binary main_v2474 main_v2474 main_v2654 (mulf : (⟨S16384, .f32⟩ : BufTy).Contents (Elt F) → (⟨S16384, .f32⟩ : BufTy).Contents (Elt F) → (⟨S16384, .f32⟩ : BufTy).Contents (Elt F)),
    StableHlo.unary main_v2503 main_v2655 (Host.sin : (⟨S16384, .f32⟩ : BufTy).Contents (Elt F) → (⟨S16384, .f32⟩ : BufTy).Contents (Elt F)),
    StableHlo.binary main_v2473 main_v2343 main_v2656 (subf : (⟨S16384, .f32⟩ : BufTy).Contents (Elt F) → (⟨S16384, .f32⟩ : BufTy).Contents (Elt F) → (⟨S16384, .f32⟩ : BufTy).Contents (Elt F)),
    StableHlo.binary main_v2054 main_v2414 main_v2657 (mulf : (⟨S16384, .f32⟩ : BufTy).Contents (Elt F) → (⟨S16384, .f32⟩ : BufTy).Contents (Elt F) → (⟨S16384, .f32⟩ : BufTy).Contents (Elt F)),
    StableHlo.binary main_v2354 main_v2076 main_v2658 (mulf : (⟨S16384, .f32⟩ : BufTy).Contents (Elt F) → (⟨S16384, .f32⟩ : BufTy).Contents (Elt F) → (⟨S16384, .f32⟩ : BufTy).Contents (Elt F)),
    StableHlo.binary main_v2566 main_v1995 main_v2659 (subf : (⟨S16384, .f32⟩ : BufTy).Contents (Elt F) → (⟨S16384, .f32⟩ : BufTy).Contents (Elt F) → (⟨S16384, .f32⟩ : BufTy).Contents (Elt F)),
    StableHlo.unary main_v2440 main_v2660 (Host.sin : (⟨S16384, .f32⟩ : BufTy).Contents (Elt F) → (⟨S16384, .f32⟩ : BufTy).Contents (Elt F)),
    StableHlo.unary main_v2592 main_v2661 (Host.cos : (⟨S16384, .f32⟩ : BufTy).Contents (Elt F) → (⟨S16384, .f32⟩ : BufTy).Contents (Elt F)),
    StableHlo.unary main_v1979 main_v2662 (Host.sin : (⟨S16384, .f32⟩ : BufTy).Contents (Elt F) → (⟨S16384, .f32⟩ : BufTy).Contents (Elt F)),
    StableHlo.unary main_v2384 main_v2663 (Host.sin : (⟨S16384, .f32⟩ : BufTy).Contents (Elt F) → (⟨S16384, .f32⟩ : BufTy).Contents (Elt F)),
    StableHlo.unary main_v2377 main_v2664 (Host.negf : (⟨S16384, .f32⟩ : BufTy).Contents (Elt F) → (⟨S16384, .f32⟩ : BufTy).Contents (Elt F)),
    StableHlo.binary main_v1844 main_v2457 main_v2665 (subf : (⟨S16384, .f32⟩ : BufTy).Contents (Elt F) → (⟨S16384, .f32⟩ : BufTy).Contents (Elt F) → (⟨S16384, .f32⟩ : BufTy).Contents (Elt F)),
    StableHlo.binary main_v2191 main_v2644 main_v2666 (subf : (⟨S16384, .f32⟩ : BufTy).Contents (Elt F) → (⟨S16384, .f32⟩ : BufTy).Contents (Elt F) → (⟨S16384, .f32⟩ : BufTy).Contents (Elt F)),
    StableHlo.unary main_v2307 main_v2667 (Host.sin : (⟨S16384, .f32⟩ : BufTy).Contents (Elt F) → (⟨S16384, .f32⟩ : BufTy).Contents (Elt F)),
    StableHlo.binary main_v2453 main_v2654 main_v2668 (mulf : (⟨S16384, .f32⟩ : BufTy).Contents (Elt F) → (⟨S16384, .f32⟩ : BufTy).Contents (Elt F) → (⟨S16384, .f32⟩ : BufTy).Contents (Elt F)),
    StableHlo.binary main_v2619 main_v2022 main_v2669 (addf : (⟨S16384, .f32⟩ : BufTy).Contents (Elt F) → (⟨S16384, .f32⟩ : BufTy).Contents (Elt F) → (⟨S16384, .f32⟩ : BufTy).Contents (Elt F)),
    StableHlo.unary main_v2497 main_v2670 (Host.cos : (⟨S16384, .f32⟩ : BufTy).Contents (Elt F) → (⟨S16384, .f32⟩ : BufTy).Contents (Elt F)),
    StableHlo.unary main_v2002 main_v2671 (Host.cos : (⟨S16384, .f32⟩ : BufTy).Contents (Elt F) → (⟨S16384, .f32⟩ : BufTy).Contents (Elt F)),
    StableHlo.binary main_v1995 main_v1995 main_v2672 (mulf : (⟨S16384, .f32⟩ : BufTy).Contents (Elt F) → (⟨S16384, .f32⟩ : BufTy).Contents (Elt F) → (⟨S16384, .f32⟩ : BufTy).Contents (Elt F)),
    StableHlo.unary main_v2323 main_v2673 (Host.cos : (⟨S16384, .f32⟩ : BufTy).Contents (Elt F) → (⟨S16384, .f32⟩ : BufTy).Contents (Elt F)),
    StableHlo.unary main_v2640 main_v2674 (Host.sin : (⟨S16384, .f32⟩ : BufTy).Contents (Elt F) → (⟨S16384, .f32⟩ : BufTy).Contents (Elt F)),
    StableHlo.unary main_v2470 main_v2675 (Host.cos : (⟨S16384, .f32⟩ : BufTy).Contents (Elt F) → (⟨S16384, .f32⟩ : BufTy).Contents (Elt F)),
    StableHlo.unary main_v2530 main_v2676 (Host.sin : (⟨S16384, .f32⟩ : BufTy).Contents (Elt F) → (⟨S16384, .f32⟩ : BufTy).Contents (Elt F)),
    StableHlo.unary main_v2578 main_v2677 (Host.cos : (⟨S16384, .f32⟩ : BufTy).Contents (Elt F) → (⟨S16384, .f32⟩ : BufTy).Contents (Elt F)),
    StableHlo.unary main_v2639 main_v2678 (Host.cos : (⟨S16384, .f32⟩ : BufTy).Contents (Elt F) → (⟨S16384, .f32⟩ : BufTy).Contents (Elt F)),
    StableHlo.unary main_v2618 main_v2679 (Host.cos : (⟨S16384, .f32⟩ : BufTy).Contents (Elt F) → (⟨S16384, .f32⟩ : BufTy).Contents (Elt F)),
    StableHlo.binary main_v2544 main_v2533 main_v2680 (addf : (⟨S16384, .f32⟩ : BufTy).Contents (Elt F) → (⟨S16384, .f32⟩ : BufTy).Contents (Elt F) → (⟨S16384, .f32⟩ : BufTy).Contents (Elt F)),
    StableHlo.binary main_v2509 main_v1995 main_v2681 (addf : (⟨S16384, .f32⟩ : BufTy).Contents (Elt F) → (⟨S16384, .f32⟩ : BufTy).Contents (Elt F) → (⟨S16384, .f32⟩ : BufTy).Contents (Elt F)),
    StableHlo.binary main_v2548 main_v2635 main_v2682 (subf : (⟨S16384, .f32⟩ : BufTy).Contents (Elt F) → (⟨S16384, .f32⟩ : BufTy).Contents (Elt F) → (⟨S16384, .f32⟩ : BufTy).Contents (Elt F)),
    StableHlo.unary main_v2070 main_v2683 (Host.sin : (⟨S16384, .f32⟩ : BufTy).Contents (Elt F) → (⟨S16384, .f32⟩ : BufTy).Contents (Elt F)) ]

theorem part44_eq (d : Dev nD) : main_part44 (F := F) d = seq ops44 := rfl
theorem ops44_sub : (ops44 (F := F)).Forall fun op => op.bufs ⊆ tcRefs τ sig := by line_sub
theorem ops44_fresh : ∀ op ∈ (ops44 (F := F)), op.fresh = ∅ := by line_fresh
theorem ops44_ordered : Cert.Ssa.Ordered 2641 (ops44 (F := F)) := by line_ordered

/-- Window 45 of @main: its operations, positions 2701 to 2760, in order. -/
abbrev ops45 : List (HloOp τ sig (Elt F)) :=
  [ StableHlo.unary main_v2667 main_v2684 (Host.cos : (⟨S16384, .f32⟩ : BufTy).Contents (Elt F) → (⟨S16384, .f32⟩ : BufTy).Contents (Elt F)),
    StableHlo.unary main_v1991 main_v2685 (Host.sin : (⟨S16384, .f32⟩ : BufTy).Contents (Elt F) → (⟨S16384, .f32⟩ : BufTy).Contents (Elt F)),
    StableHlo.binary main_v2660 main_v2372 main_v2686 (subf : (⟨S16384, .f32⟩ : BufTy).Contents (Elt F) → (⟨S16384, .f32⟩ : BufTy).Contents (Elt F) → (⟨S16384, .f32⟩ : BufTy).Contents (Elt F)),
    StableHlo.unary main_v1981 main_v2687 (Host.sin : (⟨S16384, .f32⟩ : BufTy).Contents (Elt F) → (⟨S16384, .f32⟩ : BufTy).Contents (Elt F)),
    StableHlo.binary main_v2376 main_v2328 main_v2688 (subf : (⟨S16384, .f32⟩ : BufTy).Contents (Elt F) → (⟨S16384, .f32⟩ : BufTy).Contents (Elt F) → (⟨S16384, .f32⟩ : BufTy).Contents (Elt F)),
    StableHlo.binary main_v1884 main_v2420 main_v2689 (addf : (⟨S16384, .f32⟩ : BufTy).Contents (Elt F) → (⟨S16384, .f32⟩ : BufTy).Contents (Elt F) → (⟨S16384, .f32⟩ : BufTy).Contents (Elt F)),
    StableHlo.unary main_v2666 main_v2690 (Host.sin : (⟨S16384, .f32⟩ : BufTy).Contents (Elt F) → (⟨S16384, .f32⟩ : BufTy).Contents (Elt F)),
    StableHlo.unary main_v2621 main_v2691 (Host.cos : (⟨S16384, .f32⟩ : BufTy).Contents (Elt F) → (⟨S16384, .f32⟩ : BufTy).Contents (Elt F)),
    StableHlo.binary main_v2569 main_v2648 main_v2692 (subf : (⟨S16384, .f32⟩ : BufTy).Contents (Elt F) → (⟨S16384, .f32⟩ : BufTy).Contents (Elt F) → (⟨S16384, .f32⟩ : BufTy).Contents (Elt F)),
    StableHlo.binary main_v1704 main_v2632 main_v2693 (subf : (⟨S16384, .f32⟩ : BufTy).Contents (Elt F) → (⟨S16384, .f32⟩ : BufTy).Contents (Elt F) → (⟨S16384, .f32⟩ : BufTy).Contents (Elt F)),
    StableHlo.unary main_v2663 main_v2694 (Host.sin : (⟨S16384, .f32⟩ : BufTy).Contents (Elt F) → (⟨S16384, .f32⟩ : BufTy).Contents (Elt F)),
    StableHlo.binary main_v2614 main_v2183 main_v2695 (subf : (⟨S16384, .f32⟩ : BufTy).Contents (Elt F) → (⟨S16384, .f32⟩ : BufTy).Contents (Elt F) → (⟨S16384, .f32⟩ : BufTy).Contents (Elt F)),
    StableHlo.binary main_v2533 main_v2637 main_v2696 (addf : (⟨S16384, .f32⟩ : BufTy).Contents (Elt F) → (⟨S16384, .f32⟩ : BufTy).Contents (Elt F) → (⟨S16384, .f32⟩ : BufTy).Contents (Elt F)),
    StableHlo.binary main_v2396 main_v2564 main_v2697 (addf : (⟨S16384, .f32⟩ : BufTy).Contents (Elt F) → (⟨S16384, .f32⟩ : BufTy).Contents (Elt F) → (⟨S16384, .f32⟩ : BufTy).Contents (Elt F)),
    StableHlo.unary main_v2675 main_v2698 (Host.negf : (⟨S16384, .f32⟩ : BufTy).Contents (Elt F) → (⟨S16384, .f32⟩ : BufTy).Contents (Elt F)),
    StableHlo.unary main_v2682 main_v2699 (Host.cos : (⟨S16384, .f32⟩ : BufTy).Contents (Elt F) → (⟨S16384, .f32⟩ : BufTy).Contents (Elt F)),
    StableHlo.unary main_v2477 main_v2700 (Host.sin : (⟨S16384, .f32⟩ : BufTy).Contents (Elt F) → (⟨S16384, .f32⟩ : BufTy).Contents (Elt F)),
    StableHlo.unary main_v2604 main_v2701 (Host.sin : (⟨S16384, .f32⟩ : BufTy).Contents (Elt F) → (⟨S16384, .f32⟩ : BufTy).Contents (Elt F)),
    StableHlo.binary main_v2453 main_v2453 main_v2702 (mulf : (⟨S16384, .f32⟩ : BufTy).Contents (Elt F) → (⟨S16384, .f32⟩ : BufTy).Contents (Elt F) → (⟨S16384, .f32⟩ : BufTy).Contents (Elt F)),
    StableHlo.binary main_v1991 main_v2112 main_v2703 (addf : (⟨S16384, .f32⟩ : BufTy).Contents (Elt F) → (⟨S16384, .f32⟩ : BufTy).Contents (Elt F) → (⟨S16384, .f32⟩ : BufTy).Contents (Elt F)),
    StableHlo.unary main_v2165 main_v2704 (Host.cos : (⟨S16384, .f32⟩ : BufTy).Contents (Elt F) → (⟨S16384, .f32⟩ : BufTy).Contents (Elt F)),
    StableHlo.unary main_v1958 main_v2705 (Host.cos : (⟨S16384, .f32⟩ : BufTy).Contents (Elt F) → (⟨S16384, .f32⟩ : BufTy).Contents (Elt F)),
    StableHlo.unary main_v2495 main_v2706 (Host.sin : (⟨S16384, .f32⟩ : BufTy).Contents (Elt F) → (⟨S16384, .f32⟩ : BufTy).Contents (Elt F)),
    StableHlo.unary main_v2562 main_v2707 (Host.cos : (⟨S16384, .f32⟩ : BufTy).Contents (Elt F) → (⟨S16384, .f32⟩ : BufTy).Contents (Elt F)),
    StableHlo.unary main_v1704 main_v2708 (Host.cos : (⟨S16384, .f32⟩ : BufTy).Contents (Elt F) → (⟨S16384, .f32⟩ : BufTy).Contents (Elt F)),
    StableHlo.binary main_v2499 main_v2499 main_v2709 (mulf : (⟨S16384, .f32⟩ : BufTy).Contents (Elt F) → (⟨S16384, .f32⟩ : BufTy).Contents (Elt F) → (⟨S16384, .f32⟩ : BufTy).Contents (Elt F)),
    StableHlo.unary main_v2373 main_v2710 (Host.sin : (⟨S16384, .f32⟩ : BufTy).Contents (Elt F) → (⟨S16384, .f32⟩ : BufTy).Contents (Elt F)),
    StableHlo.unary main_v2699 main_v2711 (Host.sin : (⟨S16384, .f32⟩ : BufTy).Contents (Elt F) → (⟨S16384, .f32⟩ : BufTy).Contents (Elt F)),
    StableHlo.unary main_v2551 main_v2712 (Host.cos : (⟨S16384, .f32⟩ : BufTy).Contents (Elt F) → (⟨S16384, .f32⟩ : BufTy).Contents (Elt F)),
    StableHlo.unary main_v2591 main_v2713 (Host.sin : (⟨S16384, .f32⟩ : BufTy).Contents (Elt F) → (⟨S16384, .f32⟩ : BufTy).Contents (Elt F)),
    StableHlo.unary main_v2555 main_v2714 (Host.negf : (⟨S16384, .f32⟩ : BufTy).Contents (Elt F) → (⟨S16384, .f32⟩ : BufTy).Contents (Elt F)),
    StableHlo.binary main_v2558 main_v2526 main_v2715 (subf : (⟨S16384, .f32⟩ : BufTy).Contents (Elt F) → (⟨S16384, .f32⟩ : BufTy).Contents (Elt F) → (⟨S16384, .f32⟩ : BufTy).Contents (Elt F)),
    StableHlo.unary main_v2390 main_v2716 (Host.cos : (⟨S16384, .f32⟩ : BufTy).Contents (Elt F) → (⟨S16384, .f32⟩ : BufTy).Contents (Elt F)),
    StableHlo.binary main_v2712 main_v2165 main_v2717 (mulf : (⟨S16384, .f32⟩ : BufTy).Contents (Elt F) → (⟨S16384, .f32⟩ : BufTy).Contents (Elt F) → (⟨S16384, .f32⟩ : BufTy).Contents (Elt F)),
    StableHlo.unary main_v2705 main_v2718 (Host.cos : (⟨S16384, .f32⟩ : BufTy).Contents (Elt F) → (⟨S16384, .f32⟩ : BufTy).Contents (Elt F)),
    StableHlo.binary main_v2376 main_v2660 main_v2719 (subf : (⟨S16384, .f32⟩ : BufTy).Contents (Elt F) → (⟨S16384, .f32⟩ : BufTy).Contents (Elt F) → (⟨S16384, .f32⟩ : BufTy).Contents (Elt F)),
    StableHlo.unary main_v2054 main_v2720 (Host.cos : (⟨S16384, .f32⟩ : BufTy).Contents (Elt F) → (⟨S16384, .f32⟩ : BufTy).Contents (Elt F)),
    StableHlo.unary main_v2411 main_v2721 (Host.cos : (⟨S16384, .f32⟩ : BufTy).Contents (Elt F) → (⟨S16384, .f32⟩ : BufTy).Contents (Elt F)),
    StableHlo.unary main_v2489 main_v2722 (Host.sin : (⟨S16384, .f32⟩ : BufTy).Contents (Elt F) → (⟨S16384, .f32⟩ : BufTy).Contents (Elt F)),
    StableHlo.binary main_v2431 main_v2295 main_v2723 (addf : (⟨S16384, .f32⟩ : BufTy).Contents (Elt F) → (⟨S16384, .f32⟩ : BufTy).Contents (Elt F) → (⟨S16384, .f32⟩ : BufTy).Contents (Elt F)),
    StableHlo.unary main_v2232 main_v2724 (Host.cos : (⟨S16384, .f32⟩ : BufTy).Contents (Elt F) → (⟨S16384, .f32⟩ : BufTy).Contents (Elt F)),
    StableHlo.binary main_v2699 main_v2682 main_v2725 (addf : (⟨S16384, .f32⟩ : BufTy).Contents (Elt F) → (⟨S16384, .f32⟩ : BufTy).Contents (Elt F) → (⟨S16384, .f32⟩ : BufTy).Contents (Elt F)),
    StableHlo.binary main_v2627 main_v2633 main_v2726 (subf : (⟨S16384, .f32⟩ : BufTy).Contents (Elt F) → (⟨S16384, .f32⟩ : BufTy).Contents (Elt F) → (⟨S16384, .f32⟩ : BufTy).Contents (Elt F)),
    StableHlo.unary main_v2448 main_v2727 (Host.sin : (⟨S16384, .f32⟩ : BufTy).Contents (Elt F) → (⟨S16384, .f32⟩ : BufTy).Contents (Elt F)),
    StableHlo.unary main_v2533 main_v2728 (Host.cos : (⟨S16384, .f32⟩ : BufTy).Contents (Elt F) → (⟨S16384, .f32⟩ : BufTy).Contents (Elt F)),
    StableHlo.unary main_v1898 main_v2729 (Host.sin : (⟨S16384, .f32⟩ : BufTy).Contents (Elt F) → (⟨S16384, .f32⟩ : BufTy).Contents (Elt F)),
    StableHlo.unary main_v2680 main_v2730 (Host.sin : (⟨S16384, .f32⟩ : BufTy).Contents (Elt F) → (⟨S16384, .f32⟩ : BufTy).Contents (Elt F)),
    StableHlo.unary main_v2556 main_v2731 (Host.sin : (⟨S16384, .f32⟩ : BufTy).Contents (Elt F) → (⟨S16384, .f32⟩ : BufTy).Contents (Elt F)),
    StableHlo.binary main_v2624 main_v2499 main_v2732 (addf : (⟨S16384, .f32⟩ : BufTy).Contents (Elt F) → (⟨S16384, .f32⟩ : BufTy).Contents (Elt F) → (⟨S16384, .f32⟩ : BufTy).Contents (Elt F)),
    StableHlo.unary main_v2341 main_v2733 (Host.cos : (⟨S16384, .f32⟩ : BufTy).Contents (Elt F) → (⟨S16384, .f32⟩ : BufTy).Contents (Elt F)),
    StableHlo.binary main_v2516 main_v2549 main_v2734 (mulf : (⟨S16384, .f32⟩ : BufTy).Contents (Elt F) → (⟨S16384, .f32⟩ : BufTy).Contents (Elt F) → (⟨S16384, .f32⟩ : BufTy).Contents (Elt F)),
    StableHlo.binary main_v2671 main_v2477 main_v2735 (addf : (⟨S16384, .f32⟩ : BufTy).Contents (Elt F) → (⟨S16384, .f32⟩ : BufTy).Contents (Elt F) → (⟨S16384, .f32⟩ : BufTy).Contents (Elt F)),
    StableHlo.unary main_v2295 main_v2736 (Host.cos : (⟨S16384, .f32⟩ : BufTy).Contents (Elt F) → (⟨S16384, .f32⟩ : BufTy).Contents (Elt F)),
    StableHlo.unary main_v2721 main_v2737 (Host.sin : (⟨S16384, .f32⟩ : BufTy).Contents (Elt F) → (⟨S16384, .f32⟩ : BufTy).Contents (Elt F)),
    StableHlo.binary main_v2538 main_v2497 main_v2738 (subf : (⟨S16384, .f32⟩ : BufTy).Contents (Elt F) → (⟨S16384, .f32⟩ : BufTy).Contents (Elt F) → (⟨S16384, .f32⟩ : BufTy).Contents (Elt F)),
    StableHlo.unary main_v2110 main_v2739 (Host.cos : (⟨S16384, .f32⟩ : BufTy).Contents (Elt F) → (⟨S16384, .f32⟩ : BufTy).Contents (Elt F)),
    StableHlo.unary main_v2564 main_v2740 (Host.cos : (⟨S16384, .f32⟩ : BufTy).Contents (Elt F) → (⟨S16384, .f32⟩ : BufTy).Contents (Elt F)),
    StableHlo.unary main_v2525 main_v2741 (Host.sin : (⟨S16384, .f32⟩ : BufTy).Contents (Elt F) → (⟨S16384, .f32⟩ : BufTy).Contents (Elt F)),
    StableHlo.binary main_v2439 main_v2669 main_v2742 (subf : (⟨S16384, .f32⟩ : BufTy).Contents (Elt F) → (⟨S16384, .f32⟩ : BufTy).Contents (Elt F) → (⟨S16384, .f32⟩ : BufTy).Contents (Elt F)),
    StableHlo.binary main_v2740 main_v2513 main_v2743 (mulf : (⟨S16384, .f32⟩ : BufTy).Contents (Elt F) → (⟨S16384, .f32⟩ : BufTy).Contents (Elt F) → (⟨S16384, .f32⟩ : BufTy).Contents (Elt F)) ]

theorem part45_eq (d : Dev nD) : main_part45 (F := F) d = seq ops45 := rfl
theorem ops45_sub : (ops45 (F := F)).Forall fun op => op.bufs ⊆ tcRefs τ sig := by line_sub
theorem ops45_fresh : ∀ op ∈ (ops45 (F := F)), op.fresh = ∅ := by line_fresh
theorem ops45_ordered : Cert.Ssa.Ordered 2701 (ops45 (F := F)) := by line_ordered

/-- Window 46 of @main: its operations, positions 2761 to 2820, in order. -/
abbrev ops46 : List (HloOp τ sig (Elt F)) :=
  [ StableHlo.unary main_v2378 main_v2744 (Host.cos : (⟨S16384, .f32⟩ : BufTy).Contents (Elt F) → (⟨S16384, .f32⟩ : BufTy).Contents (Elt F)),
    StableHlo.unary main_v2702 main_v2745 (Host.cos : (⟨S16384, .f32⟩ : BufTy).Contents (Elt F) → (⟨S16384, .f32⟩ : BufTy).Contents (Elt F)),
    StableHlo.unary main_v2565 main_v2746 (Host.cos : (⟨S16384, .f32⟩ : BufTy).Contents (Elt F) → (⟨S16384, .f32⟩ : BufTy).Contents (Elt F)),
    StableHlo.binary main_v2624 main_v2615 main_v2747 (addf : (⟨S16384, .f32⟩ : BufTy).Contents (Elt F) → (⟨S16384, .f32⟩ : BufTy).Contents (Elt F) → (⟨S16384, .f32⟩ : BufTy).Contents (Elt F)),
    StableHlo.binary main_v2683 main_v2736 main_v2748 (mulf : (⟨S16384, .f32⟩ : BufTy).Contents (Elt F) → (⟨S16384, .f32⟩ : BufTy).Contents (Elt F) → (⟨S16384, .f32⟩ : BufTy).Contents (Elt F)),
    StableHlo.binary main_v2533 main_v2738 main_v2749 (addf : (⟨S16384, .f32⟩ : BufTy).Contents (Elt F) → (⟨S16384, .f32⟩ : BufTy).Contents (Elt F) → (⟨S16384, .f32⟩ : BufTy).Contents (Elt F)),
    StableHlo.binary main_v2353 main_v2639 main_v2750 (mulf : (⟨S16384, .f32⟩ : BufTy).Contents (Elt F) → (⟨S16384, .f32⟩ : BufTy).Contents (Elt F) → (⟨S16384, .f32⟩ : BufTy).Contents (Elt F)),
    StableHlo.binary main_v2440 main_v2431 main_v2751 (subf : (⟨S16384, .f32⟩ : BufTy).Contents (Elt F) → (⟨S16384, .f32⟩ : BufTy).Contents (Elt F) → (⟨S16384, .f32⟩ : BufTy).Contents (Elt F)),
    StableHlo.unary main_v2626 main_v2752 (Host.sin : (⟨S16384, .f32⟩ : BufTy).Contents (Elt F) → (⟨S16384, .f32⟩ : BufTy).Contents (Elt F)),
    StableHlo.unary main_v2667 main_v2753 (Host.sin : (⟨S16384, .f32⟩ : BufTy).Contents (Elt F) → (⟨S16384, .f32⟩ : BufTy).Contents (Elt F)),
    StableHlo.unary main_v2499 main_v2754 (Host.sin : (⟨S16384, .f32⟩ : BufTy).Contents (Elt F) → (⟨S16384, .f32⟩ : BufTy).Contents (Elt F)),
    StableHlo.binary main_v2482 main_v2695 main_v2755 (subf : (⟨S16384, .f32⟩ : BufTy).Contents (Elt F) → (⟨S16384, .f32⟩ : BufTy).Contents (Elt F) → (⟨S16384, .f32⟩ : BufTy).Contents (Elt F)),
    StableHlo.binary main_v2668 main_v2373 main_v2756 (addf : (⟨S16384, .f32⟩ : BufTy).Contents (Elt F) → (⟨S16384, .f32⟩ : BufTy).Contents (Elt F) → (⟨S16384, .f32⟩ : BufTy).Contents (Elt F)),
    StableHlo.unary main_v2722 main_v2757 (Host.sin : (⟨S16384, .f32⟩ : BufTy).Contents (Elt F) → (⟨S16384, .f32⟩ : BufTy).Contents (Elt F)),
    StableHlo.unary main_v2458 main_v2758 (Host.sin : (⟨S16384, .f32⟩ : BufTy).Contents (Elt F) → (⟨S16384, .f32⟩ : BufTy).Contents (Elt F)),
    StableHlo.binary main_v2706 main_v2660 main_v2759 (addf : (⟨S16384, .f32⟩ : BufTy).Contents (Elt F) → (⟨S16384, .f32⟩ : BufTy).Contents (Elt F) → (⟨S16384, .f32⟩ : BufTy).Contents (Elt F)),
    StableHlo.unary main_v2734 main_v2760 (Host.cos : (⟨S16384, .f32⟩ : BufTy).Contents (Elt F) → (⟨S16384, .f32⟩ : BufTy).Contents (Elt F)),
    StableHlo.unary main_v2311 main_v2761 (Host.cos : (⟨S16384, .f32⟩ : BufTy).Contents (Elt F) → (⟨S16384, .f32⟩ : BufTy).Contents (Elt F)),
    StableHlo.binary main_v2734 main_v2295 main_v2762 (addf : (⟨S16384, .f32⟩ : BufTy).Contents (Elt F) → (⟨S16384, .f32⟩ : BufTy).Contents (Elt F) → (⟨S16384, .f32⟩ : BufTy).Contents (Elt F)),
    StableHlo.binary main_v2536 main_v2668 main_v2763 (addf : (⟨S16384, .f32⟩ : BufTy).Contents (Elt F) → (⟨S16384, .f32⟩ : BufTy).Contents (Elt F) → (⟨S16384, .f32⟩ : BufTy).Contents (Elt F)),
    StableHlo.unary main_v2123 main_v2764 (Host.cos : (⟨S16384, .f32⟩ : BufTy).Contents (Elt F) → (⟨S16384, .f32⟩ : BufTy).Contents (Elt F)),
    StableHlo.binary main_v2598 main_v2693 main_v2765 (mulf : (⟨S16384, .f32⟩ : BufTy).Contents (Elt F) → (⟨S16384, .f32⟩ : BufTy).Contents (Elt F) → (⟨S16384, .f32⟩ : BufTy).Contents (Elt F)),
    StableHlo.unary main_v2497 main_v2766 (Host.cos : (⟨S16384, .f32⟩ : BufTy).Contents (Elt F) → (⟨S16384, .f32⟩ : BufTy).Contents (Elt F)),
    StableHlo.unary main_v2764 main_v2767 (Host.cos : (⟨S16384, .f32⟩ : BufTy).Contents (Elt F) → (⟨S16384, .f32⟩ : BufTy).Contents (Elt F)),
    StableHlo.unary main_v2551 main_v2768 (Host.cos : (⟨S16384, .f32⟩ : BufTy).Contents (Elt F) → (⟨S16384, .f32⟩ : BufTy).Contents (Elt F)),
    StableHlo.unary main_v2742 main_v2769 (Host.sin : (⟨S16384, .f32⟩ : BufTy).Contents (Elt F) → (⟨S16384, .f32⟩ : BufTy).Contents (Elt F)),
    StableHlo.binary main_v2603 main_v2414 main_v2770 (subf : (⟨S16384, .f32⟩ : BufTy).Contents (Elt F) → (⟨S16384, .f32⟩ : BufTy).Contents (Elt F) → (⟨S16384, .f32⟩ : BufTy).Contents (Elt F)),
    StableHlo.unary main_v2505 main_v2771 (Host.cos : (⟨S16384, .f32⟩ : BufTy).Contents (Elt F) → (⟨S16384, .f32⟩ : BufTy).Contents (Elt F)),
    StableHlo.binary main_v2734 main_v2420 main_v2772 (mulf : (⟨S16384, .f32⟩ : BufTy).Contents (Elt F) → (⟨S16384, .f32⟩ : BufTy).Contents (Elt F) → (⟨S16384, .f32⟩ : BufTy).Contents (Elt F)),
    StableHlo.unary main_v2695 main_v2773 (Host.cos : (⟨S16384, .f32⟩ : BufTy).Contents (Elt F) → (⟨S16384, .f32⟩ : BufTy).Contents (Elt F)),
    StableHlo.unary main_v2546 main_v2774 (Host.cos : (⟨S16384, .f32⟩ : BufTy).Contents (Elt F) → (⟨S16384, .f32⟩ : BufTy).Contents (Elt F)),
    StableHlo.binary main_v2576 main_v2674 main_v2775 (subf : (⟨S16384, .f32⟩ : BufTy).Contents (Elt F) → (⟨S16384, .f32⟩ : BufTy).Contents (Elt F) → (⟨S16384, .f32⟩ : BufTy).Contents (Elt F)),
    StableHlo.binary main_v2749 main_v2440 main_v2776 (addf : (⟨S16384, .f32⟩ : BufTy).Contents (Elt F) → (⟨S16384, .f32⟩ : BufTy).Contents (Elt F) → (⟨S16384, .f32⟩ : BufTy).Contents (Elt F)),
    StableHlo.unary main_v2658 main_v2777 (Host.sin : (⟨S16384, .f32⟩ : BufTy).Contents (Elt F) → (⟨S16384, .f32⟩ : BufTy).Contents (Elt F)),
    StableHlo.unary main_v2618 main_v2778 (Host.cos : (⟨S16384, .f32⟩ : BufTy).Contents (Elt F) → (⟨S16384, .f32⟩ : BufTy).Contents (Elt F)),
    StableHlo.unary main_v2562 main_v2779 (Host.sin : (⟨S16384, .f32⟩ : BufTy).Contents (Elt F) → (⟨S16384, .f32⟩ : BufTy).Contents (Elt F)),
    StableHlo.binary main_v2503 main_v2503 main_v2780 (mulf : (⟨S16384, .f32⟩ : BufTy).Contents (Elt F) → (⟨S16384, .f32⟩ : BufTy).Contents (Elt F) → (⟨S16384, .f32⟩ : BufTy).Contents (Elt F)),
    StableHlo.unary main_v2392 main_v2781 (Host.sin : (⟨S16384, .f32⟩ : BufTy).Contents (Elt F) → (⟨S16384, .f32⟩ : BufTy).Contents (Elt F)),
    StableHlo.binary main_v2632 main_v1991 main_v2782 (subf : (⟨S16384, .f32⟩ : BufTy).Contents (Elt F) → (⟨S16384, .f32⟩ : BufTy).Contents (Elt F) → (⟨S16384, .f32⟩ : BufTy).Contents (Elt F)),
    StableHlo.unary main_v2661 main_v2783 (Host.sin : (⟨S16384, .f32⟩ : BufTy).Contents (Elt F) → (⟨S16384, .f32⟩ : BufTy).Contents (Elt F)),
    StableHlo.unary main_v2688 main_v2784 (Host.cos : (⟨S16384, .f32⟩ : BufTy).Contents (Elt F) → (⟨S16384, .f32⟩ : BufTy).Contents (Elt F)),
    StableHlo.unary main_v2499 main_v2785 (Host.negf : (⟨S16384, .f32⟩ : BufTy).Contents (Elt F) → (⟨S16384, .f32⟩ : BufTy).Contents (Elt F)),
    StableHlo.binary main_v2771 main_v2519 main_v2786 (subf : (⟨S16384, .f32⟩ : BufTy).Contents (Elt F) → (⟨S16384, .f32⟩ : BufTy).Contents (Elt F) → (⟨S16384, .f32⟩ : BufTy).Contents (Elt F)),
    StableHlo.binary main_v2754 main_v2509 main_v2787 (subf : (⟨S16384, .f32⟩ : BufTy).Contents (Elt F) → (⟨S16384, .f32⟩ : BufTy).Contents (Elt F) → (⟨S16384, .f32⟩ : BufTy).Contents (Elt F)),
    StableHlo.binary main_v2638 main_v2531 main_v2788 (subf : (⟨S16384, .f32⟩ : BufTy).Contents (Elt F) → (⟨S16384, .f32⟩ : BufTy).Contents (Elt F) → (⟨S16384, .f32⟩ : BufTy).Contents (Elt F)),
    StableHlo.binary main_v2644 main_v2771 main_v2789 (addf : (⟨S16384, .f32⟩ : BufTy).Contents (Elt F) → (⟨S16384, .f32⟩ : BufTy).Contents (Elt F) → (⟨S16384, .f32⟩ : BufTy).Contents (Elt F)),
    StableHlo.binary main_v2661 main_v2773 main_v2790 (addf : (⟨S16384, .f32⟩ : BufTy).Contents (Elt F) → (⟨S16384, .f32⟩ : BufTy).Contents (Elt F) → (⟨S16384, .f32⟩ : BufTy).Contents (Elt F)),
    StableHlo.unary main_v2713 main_v2791 (Host.cos : (⟨S16384, .f32⟩ : BufTy).Contents (Elt F) → (⟨S16384, .f32⟩ : BufTy).Contents (Elt F)),
    StableHlo.binary main_v2332 main_v2332 main_v2792 (mulf : (⟨S16384, .f32⟩ : BufTy).Contents (Elt F) → (⟨S16384, .f32⟩ : BufTy).Contents (Elt F) → (⟨S16384, .f32⟩ : BufTy).Contents (Elt F)),
    StableHlo.unary main_v2614 main_v2793 (Host.cos : (⟨S16384, .f32⟩ : BufTy).Contents (Elt F) → (⟨S16384, .f32⟩ : BufTy).Contents (Elt F)),
    StableHlo.binary main_v2775 main_v2414 main_v2794 (subf : (⟨S16384, .f32⟩ : BufTy).Contents (Elt F) → (⟨S16384, .f32⟩ : BufTy).Contents (Elt F) → (⟨S16384, .f32⟩ : BufTy).Contents (Elt F)),
    StableHlo.binary main_v2184 main_v2748 main_v2795 (addf : (⟨S16384, .f32⟩ : BufTy).Contents (Elt F) → (⟨S16384, .f32⟩ : BufTy).Contents (Elt F) → (⟨S16384, .f32⟩ : BufTy).Contents (Elt F)),
    StableHlo.binary main_v2781 main_v2720 main_v2796 (addf : (⟨S16384, .f32⟩ : BufTy).Contents (Elt F) → (⟨S16384, .f32⟩ : BufTy).Contents (Elt F) → (⟨S16384, .f32⟩ : BufTy).Contents (Elt F)),
    StableHlo.unary main_v2783 main_v2797 (Host.negf : (⟨S16384, .f32⟩ : BufTy).Contents (Elt F) → (⟨S16384, .f32⟩ : BufTy).Contents (Elt F)),
    StableHlo.binary main_v2722 main_v2703 main_v2798 (subf : (⟨S16384, .f32⟩ : BufTy).Contents (Elt F) → (⟨S16384, .f32⟩ : BufTy).Contents (Elt F) → (⟨S16384, .f32⟩ : BufTy).Contents (Elt F)),
    StableHlo.binary main_v2341 main_v2779 main_v2799 (subf : (⟨S16384, .f32⟩ : BufTy).Contents (Elt F) → (⟨S16384, .f32⟩ : BufTy).Contents (Elt F) → (⟨S16384, .f32⟩ : BufTy).Contents (Elt F)),
    StableHlo.binary main_v2740 main_v2372 main_v2800 (mulf : (⟨S16384, .f32⟩ : BufTy).Contents (Elt F) → (⟨S16384, .f32⟩ : BufTy).Contents (Elt F) → (⟨S16384, .f32⟩ : BufTy).Contents (Elt F)),
    StableHlo.unary main_v1969 main_v2801 (Host.cos : (⟨S16384, .f32⟩ : BufTy).Contents (Elt F) → (⟨S16384, .f32⟩ : BufTy).Contents (Elt F)),
    StableHlo.binary main_v2761 main_v2780 main_v2802 (addf : (⟨S16384, .f32⟩ : BufTy).Contents (Elt F) → (⟨S16384, .f32⟩ : BufTy).Contents (Elt F) → (⟨S16384, .f32⟩ : BufTy).Contents (Elt F)),
    StableHlo.binary main_v2794 main_v2794 main_v2803 (mulf : (⟨S16384, .f32⟩ : BufTy).Contents (Elt F) → (⟨S16384, .f32⟩ : BufTy).Contents (Elt F) → (⟨S16384, .f32⟩ : BufTy).Contents (Elt F)) ]

theorem part46_eq (d : Dev nD) : main_part46 (F := F) d = seq ops46 := rfl
theorem ops46_sub : (ops46 (F := F)).Forall fun op => op.bufs ⊆ tcRefs τ sig := by line_sub
theorem ops46_fresh : ∀ op ∈ (ops46 (F := F)), op.fresh = ∅ := by line_fresh
theorem ops46_ordered : Cert.Ssa.Ordered 2761 (ops46 (F := F)) := by line_ordered

/-- Window 47 of @main: its operations, positions 2821 to 2880, in order. -/
abbrev ops47 : List (HloOp τ sig (Elt F)) :=
  [ StableHlo.binary main_v2341 main_v2282 main_v2804 (subf : (⟨S16384, .f32⟩ : BufTy).Contents (Elt F) → (⟨S16384, .f32⟩ : BufTy).Contents (Elt F) → (⟨S16384, .f32⟩ : BufTy).Contents (Elt F)),
    StableHlo.unary main_v2721 main_v2805 (Host.cos : (⟨S16384, .f32⟩ : BufTy).Contents (Elt F) → (⟨S16384, .f32⟩ : BufTy).Contents (Elt F)),
    StableHlo.unary main_v2656 main_v2806 (Host.negf : (⟨S16384, .f32⟩ : BufTy).Contents (Elt F) → (⟨S16384, .f32⟩ : BufTy).Contents (Elt F)),
    StableHlo.unary main_v2332 main_v2807 (Host.sin : (⟨S16384, .f32⟩ : BufTy).Contents (Elt F) → (⟨S16384, .f32⟩ : BufTy).Contents (Elt F)),
    StableHlo.unary main_v2795 main_v2808 (Host.cos : (⟨S16384, .f32⟩ : BufTy).Contents (Elt F) → (⟨S16384, .f32⟩ : BufTy).Contents (Elt F)),
    StableHlo.binary main_v2549 main_v2769 main_v2809 (mulf : (⟨S16384, .f32⟩ : BufTy).Contents (Elt F) → (⟨S16384, .f32⟩ : BufTy).Contents (Elt F) → (⟨S16384, .f32⟩ : BufTy).Contents (Elt F)),
    StableHlo.unary main_v2495 main_v2810 (Host.negf : (⟨S16384, .f32⟩ : BufTy).Contents (Elt F) → (⟨S16384, .f32⟩ : BufTy).Contents (Elt F)),
    StableHlo.unary main_v1991 main_v2811 (Host.cos : (⟨S16384, .f32⟩ : BufTy).Contents (Elt F) → (⟨S16384, .f32⟩ : BufTy).Contents (Elt F)),
    StableHlo.unary main_v1995 main_v2812 (Host.sin : (⟨S16384, .f32⟩ : BufTy).Contents (Elt F) → (⟨S16384, .f32⟩ : BufTy).Contents (Elt F)),
    StableHlo.unary main_v2183 main_v2813 (Host.cos : (⟨S16384, .f32⟩ : BufTy).Contents (Elt F) → (⟨S16384, .f32⟩ : BufTy).Contents (Elt F)),
    StableHlo.binary main_v2054 main_v2674 main_v2814 (subf : (⟨S16384, .f32⟩ : BufTy).Contents (Elt F) → (⟨S16384, .f32⟩ : BufTy).Contents (Elt F) → (⟨S16384, .f32⟩ : BufTy).Contents (Elt F)),
    StableHlo.unary main_v2712 main_v2815 (Host.negf : (⟨S16384, .f32⟩ : BufTy).Contents (Elt F) → (⟨S16384, .f32⟩ : BufTy).Contents (Elt F)),
    StableHlo.unary main_v2275 main_v2816 (Host.cos : (⟨S16384, .f32⟩ : BufTy).Contents (Elt F) → (⟨S16384, .f32⟩ : BufTy).Contents (Elt F)),
    StableHlo.unary main_v2804 main_v2817 (Host.sin : (⟨S16384, .f32⟩ : BufTy).Contents (Elt F) → (⟨S16384, .f32⟩ : BufTy).Contents (Elt F)),
    StableHlo.binary main_v2377 main_v2288 main_v2818 (mulf : (⟨S16384, .f32⟩ : BufTy).Contents (Elt F) → (⟨S16384, .f32⟩ : BufTy).Contents (Elt F) → (⟨S16384, .f32⟩ : BufTy).Contents (Elt F)),
    StableHlo.binary main_v2474 main_v2497 main_v2819 (addf : (⟨S16384, .f32⟩ : BufTy).Contents (Elt F) → (⟨S16384, .f32⟩ : BufTy).Contents (Elt F) → (⟨S16384, .f32⟩ : BufTy).Contents (Elt F)),
    StableHlo.binary main_v2640 main_v2553 main_v2820 (mulf : (⟨S16384, .f32⟩ : BufTy).Contents (Elt F) → (⟨S16384, .f32⟩ : BufTy).Contents (Elt F) → (⟨S16384, .f32⟩ : BufTy).Contents (Elt F)),
    StableHlo.unary main_v1929 main_v2821 (Host.sin : (⟨S16384, .f32⟩ : BufTy).Contents (Elt F) → (⟨S16384, .f32⟩ : BufTy).Contents (Elt F)),
    StableHlo.unary main_v2735 main_v2822 (Host.sin : (⟨S16384, .f32⟩ : BufTy).Contents (Elt F) → (⟨S16384, .f32⟩ : BufTy).Contents (Elt F)),
    StableHlo.unary main_v2747 main_v2823 (Host.sin : (⟨S16384, .f32⟩ : BufTy).Contents (Elt F) → (⟨S16384, .f32⟩ : BufTy).Contents (Elt F)),
    StableHlo.binary main_v1995 main_v2702 main_v2824 (subf : (⟨S16384, .f32⟩ : BufTy).Contents (Elt F) → (⟨S16384, .f32⟩ : BufTy).Contents (Elt F) → (⟨S16384, .f32⟩ : BufTy).Contents (Elt F)),
    StableHlo.unary main_v2571 main_v2825 (Host.sin : (⟨S16384, .f32⟩ : BufTy).Contents (Elt F) → (⟨S16384, .f32⟩ : BufTy).Contents (Elt F)),
    StableHlo.unary main_v2528 main_v2826 (Host.sin : (⟨S16384, .f32⟩ : BufTy).Contents (Elt F) → (⟨S16384, .f32⟩ : BufTy).Contents (Elt F)),
    StableHlo.unary main_v2721 main_v2827 (Host.sin : (⟨S16384, .f32⟩ : BufTy).Contents (Elt F) → (⟨S16384, .f32⟩ : BufTy).Contents (Elt F)),
    StableHlo.binary main_v2420 main_v2736 main_v2828 (addf : (⟨S16384, .f32⟩ : BufTy).Contents (Elt F) → (⟨S16384, .f32⟩ : BufTy).Contents (Elt F) → (⟨S16384, .f32⟩ : BufTy).Contents (Elt F)),
    StableHlo.unary main_v2712 main_v2829 (Host.cos : (⟨S16384, .f32⟩ : BufTy).Contents (Elt F) → (⟨S16384, .f32⟩ : BufTy).Contents (Elt F)),
    StableHlo.unary main_v2824 main_v2830 (Host.sin : (⟨S16384, .f32⟩ : BufTy).Contents (Elt F) → (⟨S16384, .f32⟩ : BufTy).Contents (Elt F)),
    StableHlo.binary main_v1880 main_v2341 main_v2831 (addf : (⟨S16384, .f32⟩ : BufTy).Contents (Elt F) → (⟨S16384, .f32⟩ : BufTy).Contents (Elt F) → (⟨S16384, .f32⟩ : BufTy).Contents (Elt F)),
    StableHlo.unary main_v2705 main_v2832 (Host.sin : (⟨S16384, .f32⟩ : BufTy).Contents (Elt F) → (⟨S16384, .f32⟩ : BufTy).Contents (Elt F)),
    StableHlo.unary main_v2567 main_v2833 (Host.cos : (⟨S16384, .f32⟩ : BufTy).Contents (Elt F) → (⟨S16384, .f32⟩ : BufTy).Contents (Elt F)),
    StableHlo.binary main_v2593 main_v2720 main_v2834 (subf : (⟨S16384, .f32⟩ : BufTy).Contents (Elt F) → (⟨S16384, .f32⟩ : BufTy).Contents (Elt F) → (⟨S16384, .f32⟩ : BufTy).Contents (Elt F)),
    StableHlo.unary main_v2695 main_v2835 (Host.cos : (⟨S16384, .f32⟩ : BufTy).Contents (Elt F) → (⟨S16384, .f32⟩ : BufTy).Contents (Elt F)),
    StableHlo.unary main_v2176 main_v2836 (Host.cos : (⟨S16384, .f32⟩ : BufTy).Contents (Elt F) → (⟨S16384, .f32⟩ : BufTy).Contents (Elt F)),
    StableHlo.unary main_v2332 main_v2837 (Host.sin : (⟨S16384, .f32⟩ : BufTy).Contents (Elt F) → (⟨S16384, .f32⟩ : BufTy).Contents (Elt F)),
    StableHlo.unary main_v2836 main_v2838 (Host.cos : (⟨S16384, .f32⟩ : BufTy).Contents (Elt F) → (⟨S16384, .f32⟩ : BufTy).Contents (Elt F)),
    StableHlo.binary main_v2810 main_v2705 main_v2839 (addf : (⟨S16384, .f32⟩ : BufTy).Contents (Elt F) → (⟨S16384, .f32⟩ : BufTy).Contents (Elt F) → (⟨S16384, .f32⟩ : BufTy).Contents (Elt F)),
    StableHlo.unary main_v2672 main_v2840 (Host.cos : (⟨S16384, .f32⟩ : BufTy).Contents (Elt F) → (⟨S16384, .f32⟩ : BufTy).Contents (Elt F)),
    StableHlo.unary main_v2827 main_v2841 (Host.sin : (⟨S16384, .f32⟩ : BufTy).Contents (Elt F) → (⟨S16384, .f32⟩ : BufTy).Contents (Elt F)),
    StableHlo.unary main_v2827 main_v2842 (Host.cos : (⟨S16384, .f32⟩ : BufTy).Contents (Elt F) → (⟨S16384, .f32⟩ : BufTy).Contents (Elt F)),
    StableHlo.unary main_v2774 main_v2843 (Host.negf : (⟨S16384, .f32⟩ : BufTy).Contents (Elt F) → (⟨S16384, .f32⟩ : BufTy).Contents (Elt F)),
    StableHlo.binary main_v2054 main_v2681 main_v2844 (addf : (⟨S16384, .f32⟩ : BufTy).Contents (Elt F) → (⟨S16384, .f32⟩ : BufTy).Contents (Elt F) → (⟨S16384, .f32⟩ : BufTy).Contents (Elt F)),
    StableHlo.unary main_v2820 main_v2845 (Host.sin : (⟨S16384, .f32⟩ : BufTy).Contents (Elt F) → (⟨S16384, .f32⟩ : BufTy).Contents (Elt F)),
    StableHlo.binary main_v2754 main_v2801 main_v2846 (addf : (⟨S16384, .f32⟩ : BufTy).Contents (Elt F) → (⟨S16384, .f32⟩ : BufTy).Contents (Elt F) → (⟨S16384, .f32⟩ : BufTy).Contents (Elt F)),
    StableHlo.binary main_v2414 main_v2593 main_v2847 (subf : (⟨S16384, .f32⟩ : BufTy).Contents (Elt F) → (⟨S16384, .f32⟩ : BufTy).Contents (Elt F) → (⟨S16384, .f32⟩ : BufTy).Contents (Elt F)),
    StableHlo.unary main_v1908 main_v2848 (Host.cos : (⟨S16384, .f32⟩ : BufTy).Contents (Elt F) → (⟨S16384, .f32⟩ : BufTy).Contents (Elt F)),
    StableHlo.binary main_v2701 main_v2561 main_v2849 (mulf : (⟨S16384, .f32⟩ : BufTy).Contents (Elt F) → (⟨S16384, .f32⟩ : BufTy).Contents (Elt F) → (⟨S16384, .f32⟩ : BufTy).Contents (Elt F)),
    StableHlo.unary main_v2311 main_v2850 (Host.sin : (⟨S16384, .f32⟩ : BufTy).Contents (Elt F) → (⟨S16384, .f32⟩ : BufTy).Contents (Elt F)),
    StableHlo.unary main_v2232 main_v2851 (Host.sin : (⟨S16384, .f32⟩ : BufTy).Contents (Elt F) → (⟨S16384, .f32⟩ : BufTy).Contents (Elt F)),
    StableHlo.binary main_v2499 main_v2771 main_v2852 (mulf : (⟨S16384, .f32⟩ : BufTy).Contents (Elt F) → (⟨S16384, .f32⟩ : BufTy).Contents (Elt F) → (⟨S16384, .f32⟩ : BufTy).Contents (Elt F)),
    StableHlo.unary main_v2599 main_v2853 (Host.cos : (⟨S16384, .f32⟩ : BufTy).Contents (Elt F) → (⟨S16384, .f32⟩ : BufTy).Contents (Elt F)),
    StableHlo.binary main_v2569 main_v2733 main_v2854 (addf : (⟨S16384, .f32⟩ : BufTy).Contents (Elt F) → (⟨S16384, .f32⟩ : BufTy).Contents (Elt F) → (⟨S16384, .f32⟩ : BufTy).Contents (Elt F)),
    StableHlo.unary main_v2708 main_v2855 (Host.sin : (⟨S16384, .f32⟩ : BufTy).Contents (Elt F) → (⟨S16384, .f32⟩ : BufTy).Contents (Elt F)),
    StableHlo.binary main_v2705 main_v2440 main_v2856 (mulf : (⟨S16384, .f32⟩ : BufTy).Contents (Elt F) → (⟨S16384, .f32⟩ : BufTy).Contents (Elt F) → (⟨S16384, .f32⟩ : BufTy).Contents (Elt F)),
    StableHlo.unary main_v2747 main_v2857 (Host.cos : (⟨S16384, .f32⟩ : BufTy).Contents (Elt F) → (⟨S16384, .f32⟩ : BufTy).Contents (Elt F)),
    StableHlo.unary main_v2538 main_v2858 (Host.cos : (⟨S16384, .f32⟩ : BufTy).Contents (Elt F) → (⟨S16384, .f32⟩ : BufTy).Contents (Elt F)),
    StableHlo.binary main_v1535 main_v2525 main_v2859 (addf : (⟨S16384, .f32⟩ : BufTy).Contents (Elt F) → (⟨S16384, .f32⟩ : BufTy).Contents (Elt F) → (⟨S16384, .f32⟩ : BufTy).Contents (Elt F)),
    StableHlo.unary main_v2790 main_v2860 (Host.sin : (⟨S16384, .f32⟩ : BufTy).Contents (Elt F) → (⟨S16384, .f32⟩ : BufTy).Contents (Elt F)),
    StableHlo.binary main_v2754 main_v2508 main_v2861 (addf : (⟨S16384, .f32⟩ : BufTy).Contents (Elt F) → (⟨S16384, .f32⟩ : BufTy).Contents (Elt F) → (⟨S16384, .f32⟩ : BufTy).Contents (Elt F)),
    StableHlo.binary main_v2715 main_v2553 main_v2862 (mulf : (⟨S16384, .f32⟩ : BufTy).Contents (Elt F) → (⟨S16384, .f32⟩ : BufTy).Contents (Elt F) → (⟨S16384, .f32⟩ : BufTy).Contents (Elt F)),
    StableHlo.binary main_v2681 main_v2782 main_v2863 (subf : (⟨S16384, .f32⟩ : BufTy).Contents (Elt F) → (⟨S16384, .f32⟩ : BufTy).Contents (Elt F) → (⟨S16384, .f32⟩ : BufTy).Contents (Elt F)) ]

theorem part47_eq (d : Dev nD) : main_part47 (F := F) d = seq ops47 := rfl
theorem ops47_sub : (ops47 (F := F)).Forall fun op => op.bufs ⊆ tcRefs τ sig := by line_sub
theorem ops47_fresh : ∀ op ∈ (ops47 (F := F)), op.fresh = ∅ := by line_fresh
theorem ops47_ordered : Cert.Ssa.Ordered 2821 (ops47 (F := F)) := by line_ordered

/-- Window 48 of @main: its operations, positions 2881 to 2940, in order. -/
abbrev ops48 : List (HloOp τ sig (Elt F)) :=
  [ StableHlo.binary main_v1995 main_v2764 main_v2864 (mulf : (⟨S16384, .f32⟩ : BufTy).Contents (Elt F) → (⟨S16384, .f32⟩ : BufTy).Contents (Elt F) → (⟨S16384, .f32⟩ : BufTy).Contents (Elt F)),
    StableHlo.binary main_v2390 main_v1995 main_v2865 (subf : (⟨S16384, .f32⟩ : BufTy).Contents (Elt F) → (⟨S16384, .f32⟩ : BufTy).Contents (Elt F) → (⟨S16384, .f32⟩ : BufTy).Contents (Elt F)),
    StableHlo.unary main_v2372 main_v2866 (Host.sin : (⟨S16384, .f32⟩ : BufTy).Contents (Elt F) → (⟨S16384, .f32⟩ : BufTy).Contents (Elt F)),
    StableHlo.binary main_v2499 main_v2704 main_v2867 (addf : (⟨S16384, .f32⟩ : BufTy).Contents (Elt F) → (⟨S16384, .f32⟩ : BufTy).Contents (Elt F) → (⟨S16384, .f32⟩ : BufTy).Contents (Elt F)),
    StableHlo.unary main_v2702 main_v2868 (Host.cos : (⟨S16384, .f32⟩ : BufTy).Contents (Elt F) → (⟨S16384, .f32⟩ : BufTy).Contents (Elt F)),
    StableHlo.binary main_v2738 main_v2569 main_v2869 (mulf : (⟨S16384, .f32⟩ : BufTy).Contents (Elt F) → (⟨S16384, .f32⟩ : BufTy).Contents (Elt F) → (⟨S16384, .f32⟩ : BufTy).Contents (Elt F)),
    StableHlo.binary main_v2539 main_v2539 main_v2870 (mulf : (⟨S16384, .f32⟩ : BufTy).Contents (Elt F) → (⟨S16384, .f32⟩ : BufTy).Contents (Elt F) → (⟨S16384, .f32⟩ : BufTy).Contents (Elt F)),
    StableHlo.binary main_v2819 main_v2525 main_v2871 (addf : (⟨S16384, .f32⟩ : BufTy).Contents (Elt F) → (⟨S16384, .f32⟩ : BufTy).Contents (Elt F) → (⟨S16384, .f32⟩ : BufTy).Contents (Elt F)),
    StableHlo.binary main_v2470 main_v2192 main_v2872 (subf : (⟨S16384, .f32⟩ : BufTy).Contents (Elt F) → (⟨S16384, .f32⟩ : BufTy).Contents (Elt F) → (⟨S16384, .f32⟩ : BufTy).Contents (Elt F)),
    StableHlo.binary main_v2758 main_v2868 main_v2873 (subf : (⟨S16384, .f32⟩ : BufTy).Contents (Elt F) → (⟨S16384, .f32⟩ : BufTy).Contents (Elt F) → (⟨S16384, .f32⟩ : BufTy).Contents (Elt F)),
    StableHlo.unary main_v2406 main_v2874 (Host.cos : (⟨S16384, .f32⟩ : BufTy).Contents (Elt F) → (⟨S16384, .f32⟩ : BufTy).Contents (Elt F)),
    StableHlo.binary main_v2674 main_v2249 main_v2875 (addf : (⟨S16384, .f32⟩ : BufTy).Contents (Elt F) → (⟨S16384, .f32⟩ : BufTy).Contents (Elt F) → (⟨S16384, .f32⟩ : BufTy).Contents (Elt F)),
    StableHlo.unary main_v2610 main_v2876 (Host.sin : (⟨S16384, .f32⟩ : BufTy).Contents (Elt F) → (⟨S16384, .f32⟩ : BufTy).Contents (Elt F)),
    StableHlo.unary main_v2526 main_v2877 (Host.sin : (⟨S16384, .f32⟩ : BufTy).Contents (Elt F) → (⟨S16384, .f32⟩ : BufTy).Contents (Elt F)),
    StableHlo.unary main_v2288 main_v2878 (Host.cos : (⟨S16384, .f32⟩ : BufTy).Contents (Elt F) → (⟨S16384, .f32⟩ : BufTy).Contents (Elt F)),
    StableHlo.unary main_v2869 main_v2879 (Host.sin : (⟨S16384, .f32⟩ : BufTy).Contents (Elt F) → (⟨S16384, .f32⟩ : BufTy).Contents (Elt F)),
    StableHlo.unary main_v2795 main_v2880 (Host.negf : (⟨S16384, .f32⟩ : BufTy).Contents (Elt F) → (⟨S16384, .f32⟩ : BufTy).Contents (Elt F)),
    StableHlo.unary main_v2704 main_v2881 (Host.sin : (⟨S16384, .f32⟩ : BufTy).Contents (Elt F) → (⟨S16384, .f32⟩ : BufTy).Contents (Elt F)),
    StableHlo.unary main_v2406 main_v2882 (Host.sin : (⟨S16384, .f32⟩ : BufTy).Contents (Elt F) → (⟨S16384, .f32⟩ : BufTy).Contents (Elt F)),
    StableHlo.unary main_v2817 main_v2883 (Host.cos : (⟨S16384, .f32⟩ : BufTy).Contents (Elt F) → (⟨S16384, .f32⟩ : BufTy).Contents (Elt F)),
    StableHlo.binary main_v1687 main_v2882 main_v2884 (subf : (⟨S16384, .f32⟩ : BufTy).Contents (Elt F) → (⟨S16384, .f32⟩ : BufTy).Contents (Elt F) → (⟨S16384, .f32⟩ : BufTy).Contents (Elt F)),
    StableHlo.unary main_v2633 main_v2885 (Host.sin : (⟨S16384, .f32⟩ : BufTy).Contents (Elt F) → (⟨S16384, .f32⟩ : BufTy).Contents (Elt F)),
    StableHlo.unary main_v2615 main_v2886 (Host.sin : (⟨S16384, .f32⟩ : BufTy).Contents (Elt F) → (⟨S16384, .f32⟩ : BufTy).Contents (Elt F)),
    StableHlo.unary main_v2539 main_v2887 (Host.cos : (⟨S16384, .f32⟩ : BufTy).Contents (Elt F) → (⟨S16384, .f32⟩ : BufTy).Contents (Elt F)),
    StableHlo.binary main_v2721 main_v2647 main_v2888 (addf : (⟨S16384, .f32⟩ : BufTy).Contents (Elt F) → (⟨S16384, .f32⟩ : BufTy).Contents (Elt F) → (⟨S16384, .f32⟩ : BufTy).Contents (Elt F)),
    StableHlo.unary main_v2591 main_v2889 (Host.negf : (⟨S16384, .f32⟩ : BufTy).Contents (Elt F) → (⟨S16384, .f32⟩ : BufTy).Contents (Elt F)),
    StableHlo.binary main_v2691 main_v2755 main_v2890 (addf : (⟨S16384, .f32⟩ : BufTy).Contents (Elt F) → (⟨S16384, .f32⟩ : BufTy).Contents (Elt F) → (⟨S16384, .f32⟩ : BufTy).Contents (Elt F)),
    StableHlo.unary main_v2724 main_v2891 (Host.cos : (⟨S16384, .f32⟩ : BufTy).Contents (Elt F) → (⟨S16384, .f32⟩ : BufTy).Contents (Elt F)),
    StableHlo.binary main_v2665 main_v2755 main_v2892 (subf : (⟨S16384, .f32⟩ : BufTy).Contents (Elt F) → (⟨S16384, .f32⟩ : BufTy).Contents (Elt F) → (⟨S16384, .f32⟩ : BufTy).Contents (Elt F)),
    StableHlo.unary main_v2626 main_v2893 (Host.sin : (⟨S16384, .f32⟩ : BufTy).Contents (Elt F) → (⟨S16384, .f32⟩ : BufTy).Contents (Elt F)),
    StableHlo.binary main_v2862 main_v2482 main_v2894 (subf : (⟨S16384, .f32⟩ : BufTy).Contents (Elt F) → (⟨S16384, .f32⟩ : BufTy).Contents (Elt F) → (⟨S16384, .f32⟩ : BufTy).Contents (Elt F)),
    StableHlo.unary main_v2633 main_v2895 (Host.sin : (⟨S16384, .f32⟩ : BufTy).Contents (Elt F) → (⟨S16384, .f32⟩ : BufTy).Contents (Elt F)),
    StableHlo.unary main_v2484 main_v2896 (Host.sin : (⟨S16384, .f32⟩ : BufTy).Contents (Elt F) → (⟨S16384, .f32⟩ : BufTy).Contents (Elt F)),
    StableHlo.unary main_v2800 main_v2897 (Host.sin : (⟨S16384, .f32⟩ : BufTy).Contents (Elt F) → (⟨S16384, .f32⟩ : BufTy).Contents (Elt F)),
    StableHlo.unary main_v2674 main_v2898 (Host.negf : (⟨S16384, .f32⟩ : BufTy).Contents (Elt F) → (⟨S16384, .f32⟩ : BufTy).Contents (Elt F)),
    StableHlo.unary main_v2372 main_v2899 (Host.cos : (⟨S16384, .f32⟩ : BufTy).Contents (Elt F) → (⟨S16384, .f32⟩ : BufTy).Contents (Elt F)),
    StableHlo.unary main_v1687 main_v2900 (Host.sin : (⟨S16384, .f32⟩ : BufTy).Contents (Elt F) → (⟨S16384, .f32⟩ : BufTy).Contents (Elt F)),
    StableHlo.binary main_v2104 main_v2817 main_v2901 (addf : (⟨S16384, .f32⟩ : BufTy).Contents (Elt F) → (⟨S16384, .f32⟩ : BufTy).Contents (Elt F) → (⟨S16384, .f32⟩ : BufTy).Contents (Elt F)),
    StableHlo.unary main_v2797 main_v2902 (Host.cos : (⟨S16384, .f32⟩ : BufTy).Contents (Elt F) → (⟨S16384, .f32⟩ : BufTy).Contents (Elt F)),
    StableHlo.unary main_v2825 main_v2903 (Host.sin : (⟨S16384, .f32⟩ : BufTy).Contents (Elt F) → (⟨S16384, .f32⟩ : BufTy).Contents (Elt F)),
    StableHlo.unary main_v2743 main_v2904 (Host.cos : (⟨S16384, .f32⟩ : BufTy).Contents (Elt F) → (⟨S16384, .f32⟩ : BufTy).Contents (Elt F)),
    StableHlo.unary main_v2854 main_v2905 (Host.cos : (⟨S16384, .f32⟩ : BufTy).Contents (Elt F) → (⟨S16384, .f32⟩ : BufTy).Contents (Elt F)),
    StableHlo.unary main_v2838 main_v2906 (Host.sin : (⟨S16384, .f32⟩ : BufTy).Contents (Elt F) → (⟨S16384, .f32⟩ : BufTy).Contents (Elt F)),
    StableHlo.unary main_v2891 main_v2907 (Host.sin : (⟨S16384, .f32⟩ : BufTy).Contents (Elt F) → (⟨S16384, .f32⟩ : BufTy).Contents (Elt F)),
    StableHlo.unary main_v1898 main_v2908 (Host.sin : (⟨S16384, .f32⟩ : BufTy).Contents (Elt F) → (⟨S16384, .f32⟩ : BufTy).Contents (Elt F)),
    StableHlo.binary main_v2720 main_v2842 main_v2909 (subf : (⟨S16384, .f32⟩ : BufTy).Contents (Elt F) → (⟨S16384, .f32⟩ : BufTy).Contents (Elt F) → (⟨S16384, .f32⟩ : BufTy).Contents (Elt F)),
    StableHlo.binary main_v2876 main_v2869 main_v2910 (subf : (⟨S16384, .f32⟩ : BufTy).Contents (Elt F) → (⟨S16384, .f32⟩ : BufTy).Contents (Elt F) → (⟨S16384, .f32⟩ : BufTy).Contents (Elt F)),
    StableHlo.unary main_v2712 main_v2911 (Host.sin : (⟨S16384, .f32⟩ : BufTy).Contents (Elt F) → (⟨S16384, .f32⟩ : BufTy).Contents (Elt F)),
    StableHlo.binary main_v2647 main_v2569 main_v2912 (mulf : (⟨S16384, .f32⟩ : BufTy).Contents (Elt F) → (⟨S16384, .f32⟩ : BufTy).Contents (Elt F) → (⟨S16384, .f32⟩ : BufTy).Contents (Elt F)),
    StableHlo.unary main_v2809 main_v2913 (Host.cos : (⟨S16384, .f32⟩ : BufTy).Contents (Elt F) → (⟨S16384, .f32⟩ : BufTy).Contents (Elt F)),
    StableHlo.binary main_v2696 main_v2508 main_v2914 (subf : (⟨S16384, .f32⟩ : BufTy).Contents (Elt F) → (⟨S16384, .f32⟩ : BufTy).Contents (Elt F) → (⟨S16384, .f32⟩ : BufTy).Contents (Elt F)),
    StableHlo.unary main_v2680 main_v2915 (Host.sin : (⟨S16384, .f32⟩ : BufTy).Contents (Elt F) → (⟨S16384, .f32⟩ : BufTy).Contents (Elt F)),
    StableHlo.unary main_v2720 main_v2916 (Host.sin : (⟨S16384, .f32⟩ : BufTy).Contents (Elt F) → (⟨S16384, .f32⟩ : BufTy).Contents (Elt F)),
    StableHlo.unary main_v2470 main_v2917 (Host.cos : (⟨S16384, .f32⟩ : BufTy).Contents (Elt F) → (⟨S16384, .f32⟩ : BufTy).Contents (Elt F)),
    StableHlo.unary main_v2569 main_v2918 (Host.cos : (⟨S16384, .f32⟩ : BufTy).Contents (Elt F) → (⟨S16384, .f32⟩ : BufTy).Contents (Elt F)),
    StableHlo.unary main_v2839 main_v2919 (Host.sin : (⟨S16384, .f32⟩ : BufTy).Contents (Elt F) → (⟨S16384, .f32⟩ : BufTy).Contents (Elt F)),
    StableHlo.unary main_v2610 main_v2920 (Host.cos : (⟨S16384, .f32⟩ : BufTy).Contents (Elt F) → (⟨S16384, .f32⟩ : BufTy).Contents (Elt F)),
    StableHlo.unary main_v2401 main_v2921 (Host.cos : (⟨S16384, .f32⟩ : BufTy).Contents (Elt F) → (⟨S16384, .f32⟩ : BufTy).Contents (Elt F)),
    StableHlo.unary main_v2530 main_v2922 (Host.negf : (⟨S16384, .f32⟩ : BufTy).Contents (Elt F) → (⟨S16384, .f32⟩ : BufTy).Contents (Elt F)),
    StableHlo.unary main_v2820 main_v2923 (Host.sin : (⟨S16384, .f32⟩ : BufTy).Contents (Elt F) → (⟨S16384, .f32⟩ : BufTy).Contents (Elt F)) ]

theorem part48_eq (d : Dev nD) : main_part48 (F := F) d = seq ops48 := rfl
theorem ops48_sub : (ops48 (F := F)).Forall fun op => op.bufs ⊆ tcRefs τ sig := by line_sub
theorem ops48_fresh : ∀ op ∈ (ops48 (F := F)), op.fresh = ∅ := by line_fresh
theorem ops48_ordered : Cert.Ssa.Ordered 2881 (ops48 (F := F)) := by line_ordered

/-- Window 49 of @main: its operations, positions 2941 to 3000, in order. -/
abbrev ops49 : List (HloOp τ sig (Elt F)) :=
  [ StableHlo.binary main_v2832 main_v1929 main_v2924 (subf : (⟨S16384, .f32⟩ : BufTy).Contents (Elt F) → (⟨S16384, .f32⟩ : BufTy).Contents (Elt F) → (⟨S16384, .f32⟩ : BufTy).Contents (Elt F)),
    StableHlo.binary main_v2516 main_v2565 main_v2925 (mulf : (⟨S16384, .f32⟩ : BufTy).Contents (Elt F) → (⟨S16384, .f32⟩ : BufTy).Contents (Elt F) → (⟨S16384, .f32⟩ : BufTy).Contents (Elt F)),
    StableHlo.binary main_v2823 main_v2830 main_v2926 (mulf : (⟨S16384, .f32⟩ : BufTy).Contents (Elt F) → (⟨S16384, .f32⟩ : BufTy).Contents (Elt F) → (⟨S16384, .f32⟩ : BufTy).Contents (Elt F)),
    StableHlo.unary main_v2907 main_v2927 (Host.cos : (⟨S16384, .f32⟩ : BufTy).Contents (Elt F) → (⟨S16384, .f32⟩ : BufTy).Contents (Elt F)),
    StableHlo.unary main_v2869 main_v2928 (Host.sin : (⟨S16384, .f32⟩ : BufTy).Contents (Elt F) → (⟨S16384, .f32⟩ : BufTy).Contents (Elt F)),
    StableHlo.binary main_v2865 main_v2497 main_v2929 (subf : (⟨S16384, .f32⟩ : BufTy).Contents (Elt F) → (⟨S16384, .f32⟩ : BufTy).Contents (Elt F) → (⟨S16384, .f32⟩ : BufTy).Contents (Elt F)),
    StableHlo.unary main_v2577 main_v2930 (Host.cos : (⟨S16384, .f32⟩ : BufTy).Contents (Elt F) → (⟨S16384, .f32⟩ : BufTy).Contents (Elt F)),
    StableHlo.unary main_v2904 main_v2931 (Host.cos : (⟨S16384, .f32⟩ : BufTy).Contents (Elt F) → (⟨S16384, .f32⟩ : BufTy).Contents (Elt F)),
    StableHlo.binary main_v2902 main_v2610 main_v2932 (subf : (⟨S16384, .f32⟩ : BufTy).Contents (Elt F) → (⟨S16384, .f32⟩ : BufTy).Contents (Elt F) → (⟨S16384, .f32⟩ : BufTy).Contents (Elt F)),
    StableHlo.unary main_v2516 main_v2933 (Host.sin : (⟨S16384, .f32⟩ : BufTy).Contents (Elt F) → (⟨S16384, .f32⟩ : BufTy).Contents (Elt F)),
    StableHlo.binary main_v2672 main_v2295 main_v2934 (addf : (⟨S16384, .f32⟩ : BufTy).Contents (Elt F) → (⟨S16384, .f32⟩ : BufTy).Contents (Elt F) → (⟨S16384, .f32⟩ : BufTy).Contents (Elt F)),
    StableHlo.binary main_v2307 main_v2665 main_v2935 (mulf : (⟨S16384, .f32⟩ : BufTy).Contents (Elt F) → (⟨S16384, .f32⟩ : BufTy).Contents (Elt F) → (⟨S16384, .f32⟩ : BufTy).Contents (Elt F)),
    StableHlo.unary main_v2643 main_v2936 (Host.sin : (⟨S16384, .f32⟩ : BufTy).Contents (Elt F) → (⟨S16384, .f32⟩ : BufTy).Contents (Elt F)),
    StableHlo.unary main_v2647 main_v2937 (Host.sin : (⟨S16384, .f32⟩ : BufTy).Contents (Elt F) → (⟨S16384, .f32⟩ : BufTy).Contents (Elt F)),
    StableHlo.unary main_v2733 main_v2938 (Host.sin : (⟨S16384, .f32⟩ : BufTy).Contents (Elt F) → (⟨S16384, .f32⟩ : BufTy).Contents (Elt F)),
    StableHlo.binary main_v2876 main_v2594 main_v2939 (mulf : (⟨S16384, .f32⟩ : BufTy).Contents (Elt F) → (⟨S16384, .f32⟩ : BufTy).Contents (Elt F) → (⟨S16384, .f32⟩ : BufTy).Contents (Elt F)),
    StableHlo.binary main_v2859 main_v2748 main_v2940 (subf : (⟨S16384, .f32⟩ : BufTy).Contents (Elt F) → (⟨S16384, .f32⟩ : BufTy).Contents (Elt F) → (⟨S16384, .f32⟩ : BufTy).Contents (Elt F)),
    StableHlo.binary main_v2716 main_v2913 main_v2941 (addf : (⟨S16384, .f32⟩ : BufTy).Contents (Elt F) → (⟨S16384, .f32⟩ : BufTy).Contents (Elt F) → (⟨S16384, .f32⟩ : BufTy).Contents (Elt F)),
    StableHlo.unary main_v2851 main_v2942 (Host.sin : (⟨S16384, .f32⟩ : BufTy).Contents (Elt F) → (⟨S16384, .f32⟩ : BufTy).Contents (Elt F)),
    StableHlo.binary main_v2688 main_v2836 main_v2943 (addf : (⟨S16384, .f32⟩ : BufTy).Contents (Elt F) → (⟨S16384, .f32⟩ : BufTy).Contents (Elt F) → (⟨S16384, .f32⟩ : BufTy).Contents (Elt F)),
    StableHlo.unary main_v2882 main_v2944 (Host.cos : (⟨S16384, .f32⟩ : BufTy).Contents (Elt F) → (⟨S16384, .f32⟩ : BufTy).Contents (Elt F)),
    StableHlo.unary main_v2708 main_v2945 (Host.sin : (⟨S16384, .f32⟩ : BufTy).Contents (Elt F) → (⟨S16384, .f32⟩ : BufTy).Contents (Elt F)),
    StableHlo.binary main_v2869 main_v2054 main_v2946 (mulf : (⟨S16384, .f32⟩ : BufTy).Contents (Elt F) → (⟨S16384, .f32⟩ : BufTy).Contents (Elt F) → (⟨S16384, .f32⟩ : BufTy).Contents (Elt F)),
    StableHlo.unary main_v2827 main_v2947 (Host.sin : (⟨S16384, .f32⟩ : BufTy).Contents (Elt F) → (⟨S16384, .f32⟩ : BufTy).Contents (Elt F)),
    StableHlo.binary main_v1958 main_v2610 main_v2948 (mulf : (⟨S16384, .f32⟩ : BufTy).Contents (Elt F) → (⟨S16384, .f32⟩ : BufTy).Contents (Elt F) → (⟨S16384, .f32⟩ : BufTy).Contents (Elt F)),
    StableHlo.binary main_v2733 main_v2889 main_v2949 (addf : (⟨S16384, .f32⟩ : BufTy).Contents (Elt F) → (⟨S16384, .f32⟩ : BufTy).Contents (Elt F) → (⟨S16384, .f32⟩ : BufTy).Contents (Elt F)),
    StableHlo.unary main_v2307 main_v2950 (Host.cos : (⟨S16384, .f32⟩ : BufTy).Contents (Elt F) → (⟨S16384, .f32⟩ : BufTy).Contents (Elt F)),
    StableHlo.unary main_v2674 main_v2951 (Host.sin : (⟨S16384, .f32⟩ : BufTy).Contents (Elt F) → (⟨S16384, .f32⟩ : BufTy).Contents (Elt F)),
    StableHlo.binary main_v2392 main_v2893 main_v2952 (subf : (⟨S16384, .f32⟩ : BufTy).Contents (Elt F) → (⟨S16384, .f32⟩ : BufTy).Contents (Elt F) → (⟨S16384, .f32⟩ : BufTy).Contents (Elt F)),
    StableHlo.unary main_v2837 main_v2953 (Host.sin : (⟨S16384, .f32⟩ : BufTy).Contents (Elt F) → (⟨S16384, .f32⟩ : BufTy).Contents (Elt F)),
    StableHlo.binary main_v2112 main_v2112 main_v2954 (mulf : (⟨S16384, .f32⟩ : BufTy).Contents (Elt F) → (⟨S16384, .f32⟩ : BufTy).Contents (Elt F) → (⟨S16384, .f32⟩ : BufTy).Contents (Elt F)),
    StableHlo.binary main_v2867 main_v2160 main_v2955 (subf : (⟨S16384, .f32⟩ : BufTy).Contents (Elt F) → (⟨S16384, .f32⟩ : BufTy).Contents (Elt F) → (⟨S16384, .f32⟩ : BufTy).Contents (Elt F)),
    StableHlo.binary main_v2743 main_v1958 main_v2956 (mulf : (⟨S16384, .f32⟩ : BufTy).Contents (Elt F) → (⟨S16384, .f32⟩ : BufTy).Contents (Elt F) → (⟨S16384, .f32⟩ : BufTy).Contents (Elt F)),
    StableHlo.unary main_v2332 main_v2957 (Host.cos : (⟨S16384, .f32⟩ : BufTy).Contents (Elt F) → (⟨S16384, .f32⟩ : BufTy).Contents (Elt F)),
    StableHlo.binary main_v2851 main_v2870 main_v2958 (subf : (⟨S16384, .f32⟩ : BufTy).Contents (Elt F) → (⟨S16384, .f32⟩ : BufTy).Contents (Elt F) → (⟨S16384, .f32⟩ : BufTy).Contents (Elt F)),
    StableHlo.unary main_v2705 main_v2959 (Host.cos : (⟨S16384, .f32⟩ : BufTy).Contents (Elt F) → (⟨S16384, .f32⟩ : BufTy).Contents (Elt F)),
    StableHlo.binary main_v2885 main_v2855 main_v2960 (addf : (⟨S16384, .f32⟩ : BufTy).Contents (Elt F) → (⟨S16384, .f32⟩ : BufTy).Contents (Elt F) → (⟨S16384, .f32⟩ : BufTy).Contents (Elt F)),
    StableHlo.unary main_v2642 main_v2961 (Host.negf : (⟨S16384, .f32⟩ : BufTy).Contents (Elt F) → (⟨S16384, .f32⟩ : BufTy).Contents (Elt F)),
    StableHlo.binary main_v2727 main_v2598 main_v2962 (mulf : (⟨S16384, .f32⟩ : BufTy).Contents (Elt F) → (⟨S16384, .f32⟩ : BufTy).Contents (Elt F) → (⟨S16384, .f32⟩ : BufTy).Contents (Elt F)),
    StableHlo.unary main_v2912 main_v2963 (Host.negf : (⟨S16384, .f32⟩ : BufTy).Contents (Elt F) → (⟨S16384, .f32⟩ : BufTy).Contents (Elt F)),
    StableHlo.binary main_v2724 main_v2724 main_v2964 (mulf : (⟨S16384, .f32⟩ : BufTy).Contents (Elt F) → (⟨S16384, .f32⟩ : BufTy).Contents (Elt F) → (⟨S16384, .f32⟩ : BufTy).Contents (Elt F)),
    StableHlo.binary main_v2694 main_v2900 main_v2965 (addf : (⟨S16384, .f32⟩ : BufTy).Contents (Elt F) → (⟨S16384, .f32⟩ : BufTy).Contents (Elt F) → (⟨S16384, .f32⟩ : BufTy).Contents (Elt F)),
    StableHlo.binary main_v2936 main_v2958 main_v2966 (subf : (⟨S16384, .f32⟩ : BufTy).Contents (Elt F) → (⟨S16384, .f32⟩ : BufTy).Contents (Elt F) → (⟨S16384, .f32⟩ : BufTy).Contents (Elt F)),
    StableHlo.binary main_v2935 main_v2935 main_v2967 (mulf : (⟨S16384, .f32⟩ : BufTy).Contents (Elt F) → (⟨S16384, .f32⟩ : BufTy).Contents (Elt F) → (⟨S16384, .f32⟩ : BufTy).Contents (Elt F)),
    StableHlo.binary main_v2900 main_v2539 main_v2968 (addf : (⟨S16384, .f32⟩ : BufTy).Contents (Elt F) → (⟨S16384, .f32⟩ : BufTy).Contents (Elt F) → (⟨S16384, .f32⟩ : BufTy).Contents (Elt F)),
    StableHlo.unary main_v2719 main_v2969 (Host.sin : (⟨S16384, .f32⟩ : BufTy).Contents (Elt F) → (⟨S16384, .f32⟩ : BufTy).Contents (Elt F)),
    StableHlo.binary main_v2569 main_v2953 main_v2970 (subf : (⟨S16384, .f32⟩ : BufTy).Contents (Elt F) → (⟨S16384, .f32⟩ : BufTy).Contents (Elt F) → (⟨S16384, .f32⟩ : BufTy).Contents (Elt F)),
    StableHlo.binary main_v2863 main_v2932 main_v2971 (mulf : (⟨S16384, .f32⟩ : BufTy).Contents (Elt F) → (⟨S16384, .f32⟩ : BufTy).Contents (Elt F) → (⟨S16384, .f32⟩ : BufTy).Contents (Elt F)),
    StableHlo.binary main_v2902 main_v2870 main_v2972 (addf : (⟨S16384, .f32⟩ : BufTy).Contents (Elt F) → (⟨S16384, .f32⟩ : BufTy).Contents (Elt F) → (⟨S16384, .f32⟩ : BufTy).Contents (Elt F)),
    StableHlo.binary main_v2850 main_v2680 main_v2973 (subf : (⟨S16384, .f32⟩ : BufTy).Contents (Elt F) → (⟨S16384, .f32⟩ : BufTy).Contents (Elt F) → (⟨S16384, .f32⟩ : BufTy).Contents (Elt F)),
    StableHlo.binary main_v2431 main_v2561 main_v2974 (mulf : (⟨S16384, .f32⟩ : BufTy).Contents (Elt F) → (⟨S16384, .f32⟩ : BufTy).Contents (Elt F) → (⟨S16384, .f32⟩ : BufTy).Contents (Elt F)),
    StableHlo.unary main_v2343 main_v2975 (Host.cos : (⟨S16384, .f32⟩ : BufTy).Contents (Elt F) → (⟨S16384, .f32⟩ : BufTy).Contents (Elt F)),
    StableHlo.unary main_v2905 main_v2976 (Host.sin : (⟨S16384, .f32⟩ : BufTy).Contents (Elt F) → (⟨S16384, .f32⟩ : BufTy).Contents (Elt F)),
    StableHlo.binary main_v2763 main_v2856 main_v2977 (subf : (⟨S16384, .f32⟩ : BufTy).Contents (Elt F) → (⟨S16384, .f32⟩ : BufTy).Contents (Elt F) → (⟨S16384, .f32⟩ : BufTy).Contents (Elt F)),
    StableHlo.unary main_v2696 main_v2978 (Host.sin : (⟨S16384, .f32⟩ : BufTy).Contents (Elt F) → (⟨S16384, .f32⟩ : BufTy).Contents (Elt F)),
    StableHlo.unary main_v2525 main_v2979 (Host.cos : (⟨S16384, .f32⟩ : BufTy).Contents (Elt F) → (⟨S16384, .f32⟩ : BufTy).Contents (Elt F)),
    StableHlo.unary main_v2968 main_v2980 (Host.sin : (⟨S16384, .f32⟩ : BufTy).Contents (Elt F) → (⟨S16384, .f32⟩ : BufTy).Contents (Elt F)),
    StableHlo.unary main_v2896 main_v2981 (Host.sin : (⟨S16384, .f32⟩ : BufTy).Contents (Elt F) → (⟨S16384, .f32⟩ : BufTy).Contents (Elt F)),
    StableHlo.unary main_v2160 main_v2982 (Host.cos : (⟨S16384, .f32⟩ : BufTy).Contents (Elt F) → (⟨S16384, .f32⟩ : BufTy).Contents (Elt F)),
    StableHlo.binary main_v2406 main_v2406 main_v2983 (mulf : (⟨S16384, .f32⟩ : BufTy).Contents (Elt F) → (⟨S16384, .f32⟩ : BufTy).Contents (Elt F) → (⟨S16384, .f32⟩ : BufTy).Contents (Elt F)) ]

theorem part49_eq (d : Dev nD) : main_part49 (F := F) d = seq ops49 := rfl
theorem ops49_sub : (ops49 (F := F)).Forall fun op => op.bufs ⊆ tcRefs τ sig := by line_sub
theorem ops49_fresh : ∀ op ∈ (ops49 (F := F)), op.fresh = ∅ := by line_fresh
theorem ops49_ordered : Cert.Ssa.Ordered 2941 (ops49 (F := F)) := by line_ordered

end Cert.ReferenceIdeal.Line

end
-- ==== Proof.RefOps5.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

/-- Window 50 of @main: its operations, positions 3001 to 3060, in order. -/
abbrev ops50 : List (HloOp τ sig (Elt F)) :=
  [ StableHlo.unary main_v2983 main_v2984 (Host.negf : (⟨S16384, .f32⟩ : BufTy).Contents (Elt F) → (⟨S16384, .f32⟩ : BufTy).Contents (Elt F)),
    StableHlo.unary main_v2784 main_v2985 (Host.cos : (⟨S16384, .f32⟩ : BufTy).Contents (Elt F) → (⟨S16384, .f32⟩ : BufTy).Contents (Elt F)),
    StableHlo.unary main_v2967 main_v2986 (Host.sin : (⟨S16384, .f32⟩ : BufTy).Contents (Elt F) → (⟨S16384, .f32⟩ : BufTy).Contents (Elt F)),
    StableHlo.binary main_v2401 main_v2864 main_v2987 (addf : (⟨S16384, .f32⟩ : BufTy).Contents (Elt F) → (⟨S16384, .f32⟩ : BufTy).Contents (Elt F) → (⟨S16384, .f32⟩ : BufTy).Contents (Elt F)),
    StableHlo.unary main_v2887 main_v2988 (Host.negf : (⟨S16384, .f32⟩ : BufTy).Contents (Elt F) → (⟨S16384, .f32⟩ : BufTy).Contents (Elt F)),
    StableHlo.binary main_v2712 main_v2980 main_v2989 (addf : (⟨S16384, .f32⟩ : BufTy).Contents (Elt F) → (⟨S16384, .f32⟩ : BufTy).Contents (Elt F) → (⟨S16384, .f32⟩ : BufTy).Contents (Elt F)),
    StableHlo.unary main_v2889 main_v2990 (Host.cos : (⟨S16384, .f32⟩ : BufTy).Contents (Elt F) → (⟨S16384, .f32⟩ : BufTy).Contents (Elt F)),
    StableHlo.binary main_v2841 main_v2983 main_v2991 (addf : (⟨S16384, .f32⟩ : BufTy).Contents (Elt F) → (⟨S16384, .f32⟩ : BufTy).Contents (Elt F) → (⟨S16384, .f32⟩ : BufTy).Contents (Elt F)),
    StableHlo.unary main_v2890 main_v2992 (Host.negf : (⟨S16384, .f32⟩ : BufTy).Contents (Elt F) → (⟨S16384, .f32⟩ : BufTy).Contents (Elt F)),
    StableHlo.binary main_v2887 main_v2883 main_v2993 (addf : (⟨S16384, .f32⟩ : BufTy).Contents (Elt F) → (⟨S16384, .f32⟩ : BufTy).Contents (Elt F) → (⟨S16384, .f32⟩ : BufTy).Contents (Elt F)),
    StableHlo.binary main_v2969 main_v2786 main_v2994 (addf : (⟨S16384, .f32⟩ : BufTy).Contents (Elt F) → (⟨S16384, .f32⟩ : BufTy).Contents (Elt F) → (⟨S16384, .f32⟩ : BufTy).Contents (Elt F)),
    StableHlo.binary main_v2805 main_v2878 main_v2995 (mulf : (⟨S16384, .f32⟩ : BufTy).Contents (Elt F) → (⟨S16384, .f32⟩ : BufTy).Contents (Elt F) → (⟨S16384, .f32⟩ : BufTy).Contents (Elt F)),
    StableHlo.binary main_v2724 main_v2551 main_v2996 (subf : (⟨S16384, .f32⟩ : BufTy).Contents (Elt F) → (⟨S16384, .f32⟩ : BufTy).Contents (Elt F) → (⟨S16384, .f32⟩ : BufTy).Contents (Elt F)),
    StableHlo.binary main_v2865 main_v2895 main_v2997 (subf : (⟨S16384, .f32⟩ : BufTy).Contents (Elt F) → (⟨S16384, .f32⟩ : BufTy).Contents (Elt F) → (⟨S16384, .f32⟩ : BufTy).Contents (Elt F)),
    StableHlo.binary main_v2909 main_v2996 main_v2998 (subf : (⟨S16384, .f32⟩ : BufTy).Contents (Elt F) → (⟨S16384, .f32⟩ : BufTy).Contents (Elt F) → (⟨S16384, .f32⟩ : BufTy).Contents (Elt F)),
    StableHlo.binary main_v2332 main_v2637 main_v2999 (subf : (⟨S16384, .f32⟩ : BufTy).Contents (Elt F) → (⟨S16384, .f32⟩ : BufTy).Contents (Elt F) → (⟨S16384, .f32⟩ : BufTy).Contents (Elt F)),
    StableHlo.binary main_v2941 main_v2941 main_v3000 (mulf : (⟨S16384, .f32⟩ : BufTy).Contents (Elt F) → (⟨S16384, .f32⟩ : BufTy).Contents (Elt F) → (⟨S16384, .f32⟩ : BufTy).Contents (Elt F)),
    StableHlo.binary main_v2869 main_v2721 main_v3001 (subf : (⟨S16384, .f32⟩ : BufTy).Contents (Elt F) → (⟨S16384, .f32⟩ : BufTy).Contents (Elt F) → (⟨S16384, .f32⟩ : BufTy).Contents (Elt F)),
    StableHlo.unary main_v2733 main_v3002 (Host.negf : (⟨S16384, .f32⟩ : BufTy).Contents (Elt F) → (⟨S16384, .f32⟩ : BufTy).Contents (Elt F)),
    StableHlo.unary main_v2914 main_v3003 (Host.sin : (⟨S16384, .f32⟩ : BufTy).Contents (Elt F) → (⟨S16384, .f32⟩ : BufTy).Contents (Elt F)),
    StableHlo.binary main_v2772 main_v2909 main_v3004 (subf : (⟨S16384, .f32⟩ : BufTy).Contents (Elt F) → (⟨S16384, .f32⟩ : BufTy).Contents (Elt F) → (⟨S16384, .f32⟩ : BufTy).Contents (Elt F)),
    StableHlo.binary main_v2546 main_v2859 main_v3005 (subf : (⟨S16384, .f32⟩ : BufTy).Contents (Elt F) → (⟨S16384, .f32⟩ : BufTy).Contents (Elt F) → (⟨S16384, .f32⟩ : BufTy).Contents (Elt F)),
    StableHlo.unary main_v2826 main_v3006 (Host.sin : (⟨S16384, .f32⟩ : BufTy).Contents (Elt F) → (⟨S16384, .f32⟩ : BufTy).Contents (Elt F)),
    StableHlo.binary main_v2959 main_v2758 main_v3007 (subf : (⟨S16384, .f32⟩ : BufTy).Contents (Elt F) → (⟨S16384, .f32⟩ : BufTy).Contents (Elt F) → (⟨S16384, .f32⟩ : BufTy).Contents (Elt F)),
    StableHlo.unary main_v2820 main_v3008 (Host.cos : (⟨S16384, .f32⟩ : BufTy).Contents (Elt F) → (⟨S16384, .f32⟩ : BufTy).Contents (Elt F)),
    StableHlo.unary main_v2647 main_v3009 (Host.cos : (⟨S16384, .f32⟩ : BufTy).Contents (Elt F) → (⟨S16384, .f32⟩ : BufTy).Contents (Elt F)),
    StableHlo.unary main_v2705 main_v3010 (Host.negf : (⟨S16384, .f32⟩ : BufTy).Contents (Elt F) → (⟨S16384, .f32⟩ : BufTy).Contents (Elt F)),
    StableHlo.binary main_v2417 main_v2781 main_v3011 (subf : (⟨S16384, .f32⟩ : BufTy).Contents (Elt F) → (⟨S16384, .f32⟩ : BufTy).Contents (Elt F) → (⟨S16384, .f32⟩ : BufTy).Contents (Elt F)),
    StableHlo.unary main_v2815 main_v3012 (Host.sin : (⟨S16384, .f32⟩ : BufTy).Contents (Elt F) → (⟨S16384, .f32⟩ : BufTy).Contents (Elt F)),
    StableHlo.binary main_v3003 main_v2594 main_v3013 (addf : (⟨S16384, .f32⟩ : BufTy).Contents (Elt F) → (⟨S16384, .f32⟩ : BufTy).Contents (Elt F) → (⟨S16384, .f32⟩ : BufTy).Contents (Elt F)),
    StableHlo.binary main_v2869 main_v2840 main_v3014 (subf : (⟨S16384, .f32⟩ : BufTy).Contents (Elt F) → (⟨S16384, .f32⟩ : BufTy).Contents (Elt F) → (⟨S16384, .f32⟩ : BufTy).Contents (Elt F)),
    StableHlo.unary main_v2898 main_v3015 (Host.cos : (⟨S16384, .f32⟩ : BufTy).Contents (Elt F) → (⟨S16384, .f32⟩ : BufTy).Contents (Elt F)),
    StableHlo.unary main_v2571 main_v3016 (Host.cos : (⟨S16384, .f32⟩ : BufTy).Contents (Elt F) → (⟨S16384, .f32⟩ : BufTy).Contents (Elt F)),
    StableHlo.unary main_v2530 main_v3017 (Host.sin : (⟨S16384, .f32⟩ : BufTy).Contents (Elt F) → (⟨S16384, .f32⟩ : BufTy).Contents (Elt F)),
    StableHlo.unary main_v3009 main_v3018 (Host.sin : (⟨S16384, .f32⟩ : BufTy).Contents (Elt F) → (⟨S16384, .f32⟩ : BufTy).Contents (Elt F)),
    StableHlo.unary main_v2054 main_v3019 (Host.sin : (⟨S16384, .f32⟩ : BufTy).Contents (Elt F) → (⟨S16384, .f32⟩ : BufTy).Contents (Elt F)),
    StableHlo.unary main_v2976 main_v3020 (Host.sin : (⟨S16384, .f32⟩ : BufTy).Contents (Elt F) → (⟨S16384, .f32⟩ : BufTy).Contents (Elt F)),
    StableHlo.binary main_v2933 main_v2970 main_v3021 (subf : (⟨S16384, .f32⟩ : BufTy).Contents (Elt F) → (⟨S16384, .f32⟩ : BufTy).Contents (Elt F) → (⟨S16384, .f32⟩ : BufTy).Contents (Elt F)),
    StableHlo.unary main_v2184 main_v3022 (Host.cos : (⟨S16384, .f32⟩ : BufTy).Contents (Elt F) → (⟨S16384, .f32⟩ : BufTy).Contents (Elt F)),
    StableHlo.unary main_v2937 main_v3023 (Host.sin : (⟨S16384, .f32⟩ : BufTy).Contents (Elt F) → (⟨S16384, .f32⟩ : BufTy).Contents (Elt F)),
    StableHlo.binary main_v2843 main_v2593 main_v3024 (subf : (⟨S16384, .f32⟩ : BufTy).Contents (Elt F) → (⟨S16384, .f32⟩ : BufTy).Contents (Elt F) → (⟨S16384, .f32⟩ : BufTy).Contents (Elt F)),
    StableHlo.unary main_v2539 main_v3025 (Host.cos : (⟨S16384, .f32⟩ : BufTy).Contents (Elt F) → (⟨S16384, .f32⟩ : BufTy).Contents (Elt F)),
    StableHlo.binary main_v2176 main_v2796 main_v3026 (addf : (⟨S16384, .f32⟩ : BufTy).Contents (Elt F) → (⟨S16384, .f32⟩ : BufTy).Contents (Elt F) → (⟨S16384, .f32⟩ : BufTy).Contents (Elt F)),
    StableHlo.unary main_v2664 main_v3027 (Host.cos : (⟨S16384, .f32⟩ : BufTy).Contents (Elt F) → (⟨S16384, .f32⟩ : BufTy).Contents (Elt F)),
    StableHlo.unary main_v2614 main_v3028 (Host.cos : (⟨S16384, .f32⟩ : BufTy).Contents (Elt F) → (⟨S16384, .f32⟩ : BufTy).Contents (Elt F)),
    StableHlo.unary main_v2377 main_v3029 (Host.cos : (⟨S16384, .f32⟩ : BufTy).Contents (Elt F) → (⟨S16384, .f32⟩ : BufTy).Contents (Elt F)),
    StableHlo.unary main_v2691 main_v3030 (Host.sin : (⟨S16384, .f32⟩ : BufTy).Contents (Elt F) → (⟨S16384, .f32⟩ : BufTy).Contents (Elt F)),
    StableHlo.binary main_v2720 main_v2829 main_v3031 (subf : (⟨S16384, .f32⟩ : BufTy).Contents (Elt F) → (⟨S16384, .f32⟩ : BufTy).Contents (Elt F) → (⟨S16384, .f32⟩ : BufTy).Contents (Elt F)),
    StableHlo.unary main_v2619 main_v3032 (Host.cos : (⟨S16384, .f32⟩ : BufTy).Contents (Elt F) → (⟨S16384, .f32⟩ : BufTy).Contents (Elt F)),
    StableHlo.unary main_v2249 main_v3033 (Host.cos : (⟨S16384, .f32⟩ : BufTy).Contents (Elt F) → (⟨S16384, .f32⟩ : BufTy).Contents (Elt F)),
    StableHlo.unary main_v2941 main_v3034 (Host.cos : (⟨S16384, .f32⟩ : BufTy).Contents (Elt F) → (⟨S16384, .f32⟩ : BufTy).Contents (Elt F)),
    StableHlo.unary main_v2919 main_v3035 (Host.negf : (⟨S16384, .f32⟩ : BufTy).Contents (Elt F) → (⟨S16384, .f32⟩ : BufTy).Contents (Elt F)),
    StableHlo.binary main_v2952 main_v2948 main_v3036 (addf : (⟨S16384, .f32⟩ : BufTy).Contents (Elt F) → (⟨S16384, .f32⟩ : BufTy).Contents (Elt F) → (⟨S16384, .f32⟩ : BufTy).Contents (Elt F)),
    StableHlo.unary main_v3020 main_v3037 (Host.sin : (⟨S16384, .f32⟩ : BufTy).Contents (Elt F) → (⟨S16384, .f32⟩ : BufTy).Contents (Elt F)),
    StableHlo.unary main_v2903 main_v3038 (Host.sin : (⟨S16384, .f32⟩ : BufTy).Contents (Elt F) → (⟨S16384, .f32⟩ : BufTy).Contents (Elt F)),
    StableHlo.binary main_v2905 main_v2843 main_v3039 (addf : (⟨S16384, .f32⟩ : BufTy).Contents (Elt F) → (⟨S16384, .f32⟩ : BufTy).Contents (Elt F) → (⟨S16384, .f32⟩ : BufTy).Contents (Elt F)),
    StableHlo.unary main_v2856 main_v3040 (Host.sin : (⟨S16384, .f32⟩ : BufTy).Contents (Elt F) → (⟨S16384, .f32⟩ : BufTy).Contents (Elt F)),
    StableHlo.binary main_v2984 main_v2925 main_v3041 (subf : (⟨S16384, .f32⟩ : BufTy).Contents (Elt F) → (⟨S16384, .f32⟩ : BufTy).Contents (Elt F) → (⟨S16384, .f32⟩ : BufTy).Contents (Elt F)),
    StableHlo.binary main_v2949 main_v2691 main_v3042 (addf : (⟨S16384, .f32⟩ : BufTy).Contents (Elt F) → (⟨S16384, .f32⟩ : BufTy).Contents (Elt F) → (⟨S16384, .f32⟩ : BufTy).Contents (Elt F)),
    StableHlo.binary main_v2658 main_v2658 main_v3043 (addf : (⟨S16384, .f32⟩ : BufTy).Contents (Elt F) → (⟨S16384, .f32⟩ : BufTy).Contents (Elt F) → (⟨S16384, .f32⟩ : BufTy).Contents (Elt F)) ]

theorem part50_eq (d : Dev nD) : main_part50 (F := F) d = seq ops50 := rfl
theorem ops50_sub : (ops50 (F := F)).Forall fun op => op.bufs ⊆ tcRefs τ sig := by line_sub
theorem ops50_fresh : ∀ op ∈ (ops50 (F := F)), op.fresh = ∅ := by line_fresh
theorem ops50_ordered : Cert.Ssa.Ordered 3001 (ops50 (F := F)) := by line_ordered

/-- Window 51 of @main: its operations, positions 3061 to 3120, in order. -/
abbrev ops51 : List (HloOp τ sig (Elt F)) :=
  [ StableHlo.binary main_v2343 main_v2938 main_v3044 (addf : (⟨S16384, .f32⟩ : BufTy).Contents (Elt F) → (⟨S16384, .f32⟩ : BufTy).Contents (Elt F) → (⟨S16384, .f32⟩ : BufTy).Contents (Elt F)),
    StableHlo.unary main_v2898 main_v3045 (Host.cos : (⟨S16384, .f32⟩ : BufTy).Contents (Elt F) → (⟨S16384, .f32⟩ : BufTy).Contents (Elt F)),
    StableHlo.binary main_v2544 main_v2921 main_v3046 (mulf : (⟨S16384, .f32⟩ : BufTy).Contents (Elt F) → (⟨S16384, .f32⟩ : BufTy).Contents (Elt F) → (⟨S16384, .f32⟩ : BufTy).Contents (Elt F)),
    StableHlo.unary main_v3025 main_v3047 (Host.negf : (⟨S16384, .f32⟩ : BufTy).Contents (Elt F) → (⟨S16384, .f32⟩ : BufTy).Contents (Elt F)),
    StableHlo.unary main_v2647 main_v3048 (Host.negf : (⟨S16384, .f32⟩ : BufTy).Contents (Elt F) → (⟨S16384, .f32⟩ : BufTy).Contents (Elt F)),
    StableHlo.binary main_v2962 main_v1535 main_v3049 (subf : (⟨S16384, .f32⟩ : BufTy).Contents (Elt F) → (⟨S16384, .f32⟩ : BufTy).Contents (Elt F) → (⟨S16384, .f32⟩ : BufTy).Contents (Elt F)),
    StableHlo.unary main_v2618 main_v3050 (Host.cos : (⟨S16384, .f32⟩ : BufTy).Contents (Elt F) → (⟨S16384, .f32⟩ : BufTy).Contents (Elt F)),
    StableHlo.unary main_v2850 main_v3051 (Host.sin : (⟨S16384, .f32⟩ : BufTy).Contents (Elt F) → (⟨S16384, .f32⟩ : BufTy).Contents (Elt F)),
    StableHlo.unary main_v2812 main_v3052 (Host.cos : (⟨S16384, .f32⟩ : BufTy).Contents (Elt F) → (⟨S16384, .f32⟩ : BufTy).Contents (Elt F)),
    StableHlo.unary main_v2619 main_v3053 (Host.cos : (⟨S16384, .f32⟩ : BufTy).Contents (Elt F) → (⟨S16384, .f32⟩ : BufTy).Contents (Elt F)),
    StableHlo.binary main_v2820 main_v3030 main_v3054 (subf : (⟨S16384, .f32⟩ : BufTy).Contents (Elt F) → (⟨S16384, .f32⟩ : BufTy).Contents (Elt F) → (⟨S16384, .f32⟩ : BufTy).Contents (Elt F)),
    StableHlo.unary main_v2852 main_v3055 (Host.sin : (⟨S16384, .f32⟩ : BufTy).Contents (Elt F) → (⟨S16384, .f32⟩ : BufTy).Contents (Elt F)),
    StableHlo.unary main_v2917 main_v3056 (Host.cos : (⟨S16384, .f32⟩ : BufTy).Contents (Elt F) → (⟨S16384, .f32⟩ : BufTy).Contents (Elt F)),
    StableHlo.unary main_v3006 main_v3057 (Host.sin : (⟨S16384, .f32⟩ : BufTy).Contents (Elt F) → (⟨S16384, .f32⟩ : BufTy).Contents (Elt F)),
    StableHlo.binary main_v1687 main_v2598 main_v3058 (subf : (⟨S16384, .f32⟩ : BufTy).Contents (Elt F) → (⟨S16384, .f32⟩ : BufTy).Contents (Elt F) → (⟨S16384, .f32⟩ : BufTy).Contents (Elt F)),
    StableHlo.unary main_v2544 main_v3059 (Host.negf : (⟨S16384, .f32⟩ : BufTy).Contents (Elt F) → (⟨S16384, .f32⟩ : BufTy).Contents (Elt F)),
    StableHlo.binary main_v2564 main_v3005 main_v3060 (mulf : (⟨S16384, .f32⟩ : BufTy).Contents (Elt F) → (⟨S16384, .f32⟩ : BufTy).Contents (Elt F) → (⟨S16384, .f32⟩ : BufTy).Contents (Elt F)),
    StableHlo.binary main_v3042 main_v2979 main_v3061 (subf : (⟨S16384, .f32⟩ : BufTy).Contents (Elt F) → (⟨S16384, .f32⟩ : BufTy).Contents (Elt F) → (⟨S16384, .f32⟩ : BufTy).Contents (Elt F)),
    StableHlo.unary main_v3028 main_v3062 (Host.cos : (⟨S16384, .f32⟩ : BufTy).Contents (Elt F) → (⟨S16384, .f32⟩ : BufTy).Contents (Elt F)),
    StableHlo.binary main_v3048 main_v2433 main_v3063 (subf : (⟨S16384, .f32⟩ : BufTy).Contents (Elt F) → (⟨S16384, .f32⟩ : BufTy).Contents (Elt F) → (⟨S16384, .f32⟩ : BufTy).Contents (Elt F)),
    StableHlo.binary main_v2929 main_v1535 main_v3064 (subf : (⟨S16384, .f32⟩ : BufTy).Contents (Elt F) → (⟨S16384, .f32⟩ : BufTy).Contents (Elt F) → (⟨S16384, .f32⟩ : BufTy).Contents (Elt F)),
    StableHlo.unary main_v2618 main_v3065 (Host.cos : (⟨S16384, .f32⟩ : BufTy).Contents (Elt F) → (⟨S16384, .f32⟩ : BufTy).Contents (Elt F)),
    StableHlo.binary main_v3042 main_v2680 main_v3066 (addf : (⟨S16384, .f32⟩ : BufTy).Contents (Elt F) → (⟨S16384, .f32⟩ : BufTy).Contents (Elt F) → (⟨S16384, .f32⟩ : BufTy).Contents (Elt F)),
    StableHlo.unary main_v2978 main_v3067 (Host.sin : (⟨S16384, .f32⟩ : BufTy).Contents (Elt F) → (⟨S16384, .f32⟩ : BufTy).Contents (Elt F)),
    StableHlo.unary main_v2758 main_v3068 (Host.sin : (⟨S16384, .f32⟩ : BufTy).Contents (Elt F) → (⟨S16384, .f32⟩ : BufTy).Contents (Elt F)),
    StableHlo.binary main_v2947 main_v2694 main_v3069 (subf : (⟨S16384, .f32⟩ : BufTy).Contents (Elt F) → (⟨S16384, .f32⟩ : BufTy).Contents (Elt F) → (⟨S16384, .f32⟩ : BufTy).Contents (Elt F)),
    StableHlo.unary main_v2531 main_v3070 (Host.sin : (⟨S16384, .f32⟩ : BufTy).Contents (Elt F) → (⟨S16384, .f32⟩ : BufTy).Contents (Elt F)),
    StableHlo.binary main_v2614 main_v2796 main_v3071 (addf : (⟨S16384, .f32⟩ : BufTy).Contents (Elt F) → (⟨S16384, .f32⟩ : BufTy).Contents (Elt F) → (⟨S16384, .f32⟩ : BufTy).Contents (Elt F)),
    StableHlo.binary main_v3046 main_v2836 main_v3072 (subf : (⟨S16384, .f32⟩ : BufTy).Contents (Elt F) → (⟨S16384, .f32⟩ : BufTy).Contents (Elt F) → (⟨S16384, .f32⟩ : BufTy).Contents (Elt F)),
    StableHlo.unary main_v3028 main_v3073 (Host.sin : (⟨S16384, .f32⟩ : BufTy).Contents (Elt F) → (⟨S16384, .f32⟩ : BufTy).Contents (Elt F)),
    StableHlo.unary main_v2793 main_v3074 (Host.cos : (⟨S16384, .f32⟩ : BufTy).Contents (Elt F) → (⟨S16384, .f32⟩ : BufTy).Contents (Elt F)),
    StableHlo.binary main_v2815 main_v2815 main_v3075 (mulf : (⟨S16384, .f32⟩ : BufTy).Contents (Elt F) → (⟨S16384, .f32⟩ : BufTy).Contents (Elt F) → (⟨S16384, .f32⟩ : BufTy).Contents (Elt F)),
    StableHlo.binary main_v2704 main_v2499 main_v3076 (addf : (⟨S16384, .f32⟩ : BufTy).Contents (Elt F) → (⟨S16384, .f32⟩ : BufTy).Contents (Elt F) → (⟨S16384, .f32⟩ : BufTy).Contents (Elt F)),
    StableHlo.unary main_v3025 main_v3077 (Host.cos : (⟨S16384, .f32⟩ : BufTy).Contents (Elt F) → (⟨S16384, .f32⟩ : BufTy).Contents (Elt F)),
    StableHlo.binary main_v3027 main_v2852 main_v3078 (mulf : (⟨S16384, .f32⟩ : BufTy).Contents (Elt F) → (⟨S16384, .f32⟩ : BufTy).Contents (Elt F) → (⟨S16384, .f32⟩ : BufTy).Contents (Elt F)),
    StableHlo.binary main_v2742 main_v2742 main_v3079 (mulf : (⟨S16384, .f32⟩ : BufTy).Contents (Elt F) → (⟨S16384, .f32⟩ : BufTy).Contents (Elt F) → (⟨S16384, .f32⟩ : BufTy).Contents (Elt F)),
    StableHlo.binary main_v2857 main_v3074 main_v3080 (subf : (⟨S16384, .f32⟩ : BufTy).Contents (Elt F) → (⟨S16384, .f32⟩ : BufTy).Contents (Elt F) → (⟨S16384, .f32⟩ : BufTy).Contents (Elt F)),
    StableHlo.unary main_v2842 main_v3081 (Host.sin : (⟨S16384, .f32⟩ : BufTy).Contents (Elt F) → (⟨S16384, .f32⟩ : BufTy).Contents (Elt F)),
    StableHlo.unary main_v2912 main_v3082 (Host.sin : (⟨S16384, .f32⟩ : BufTy).Contents (Elt F) → (⟨S16384, .f32⟩ : BufTy).Contents (Elt F)),
    StableHlo.binary main_v2796 main_v2618 main_v3083 (mulf : (⟨S16384, .f32⟩ : BufTy).Contents (Elt F) → (⟨S16384, .f32⟩ : BufTy).Contents (Elt F) → (⟨S16384, .f32⟩ : BufTy).Contents (Elt F)),
    StableHlo.binary main_v2741 main_v3038 main_v3084 (mulf : (⟨S16384, .f32⟩ : BufTy).Contents (Elt F) → (⟨S16384, .f32⟩ : BufTy).Contents (Elt F) → (⟨S16384, .f32⟩ : BufTy).Contents (Elt F)),
    StableHlo.unary main_v3047 main_v3085 (Host.cos : (⟨S16384, .f32⟩ : BufTy).Contents (Elt F) → (⟨S16384, .f32⟩ : BufTy).Contents (Elt F)),
    StableHlo.binary main_v2902 main_v3059 main_v3086 (subf : (⟨S16384, .f32⟩ : BufTy).Contents (Elt F) → (⟨S16384, .f32⟩ : BufTy).Contents (Elt F) → (⟨S16384, .f32⟩ : BufTy).Contents (Elt F)),
    StableHlo.unary main_v2957 main_v3087 (Host.negf : (⟨S16384, .f32⟩ : BufTy).Contents (Elt F) → (⟨S16384, .f32⟩ : BufTy).Contents (Elt F)),
    StableHlo.unary main_v2763 main_v3088 (Host.sin : (⟨S16384, .f32⟩ : BufTy).Contents (Elt F) → (⟨S16384, .f32⟩ : BufTy).Contents (Elt F)),
    StableHlo.unary main_v2531 main_v3089 (Host.sin : (⟨S16384, .f32⟩ : BufTy).Contents (Elt F) → (⟨S16384, .f32⟩ : BufTy).Contents (Elt F)),
    StableHlo.unary main_v2705 main_v3090 (Host.sin : (⟨S16384, .f32⟩ : BufTy).Contents (Elt F) → (⟨S16384, .f32⟩ : BufTy).Contents (Elt F)),
    StableHlo.binary main_v3062 main_v2637 main_v3091 (mulf : (⟨S16384, .f32⟩ : BufTy).Contents (Elt F) → (⟨S16384, .f32⟩ : BufTy).Contents (Elt F) → (⟨S16384, .f32⟩ : BufTy).Contents (Elt F)),
    StableHlo.unary main_v3086 main_v3092 (Host.sin : (⟨S16384, .f32⟩ : BufTy).Contents (Elt F) → (⟨S16384, .f32⟩ : BufTy).Contents (Elt F)),
    StableHlo.unary main_v2993 main_v3093 (Host.sin : (⟨S16384, .f32⟩ : BufTy).Contents (Elt F) → (⟨S16384, .f32⟩ : BufTy).Contents (Elt F)),
    StableHlo.binary main_v3080 main_v3047 main_v3094 (mulf : (⟨S16384, .f32⟩ : BufTy).Contents (Elt F) → (⟨S16384, .f32⟩ : BufTy).Contents (Elt F) → (⟨S16384, .f32⟩ : BufTy).Contents (Elt F)),
    StableHlo.unary main_v3082 main_v3095 (Host.cos : (⟨S16384, .f32⟩ : BufTy).Contents (Elt F) → (⟨S16384, .f32⟩ : BufTy).Contents (Elt F)),
    StableHlo.binary main_v3047 main_v3047 main_v3096 (mulf : (⟨S16384, .f32⟩ : BufTy).Contents (Elt F) → (⟨S16384, .f32⟩ : BufTy).Contents (Elt F) → (⟨S16384, .f32⟩ : BufTy).Contents (Elt F)),
    StableHlo.unary main_v2733 main_v3097 (Host.sin : (⟨S16384, .f32⟩ : BufTy).Contents (Elt F) → (⟨S16384, .f32⟩ : BufTy).Contents (Elt F)),
    StableHlo.unary main_v2750 main_v3098 (Host.sin : (⟨S16384, .f32⟩ : BufTy).Contents (Elt F) → (⟨S16384, .f32⟩ : BufTy).Contents (Elt F)),
    StableHlo.unary main_v2482 main_v3099 (Host.cos : (⟨S16384, .f32⟩ : BufTy).Contents (Elt F) → (⟨S16384, .f32⟩ : BufTy).Contents (Elt F)),
    StableHlo.unary main_v2984 main_v3100 (Host.sin : (⟨S16384, .f32⟩ : BufTy).Contents (Elt F) → (⟨S16384, .f32⟩ : BufTy).Contents (Elt F)),
    StableHlo.binary main_v2763 main_v3006 main_v3101 (addf : (⟨S16384, .f32⟩ : BufTy).Contents (Elt F) → (⟨S16384, .f32⟩ : BufTy).Contents (Elt F) → (⟨S16384, .f32⟩ : BufTy).Contents (Elt F)),
    StableHlo.binary main_v2758 main_v2793 main_v3102 (subf : (⟨S16384, .f32⟩ : BufTy).Contents (Elt F) → (⟨S16384, .f32⟩ : BufTy).Contents (Elt F) → (⟨S16384, .f32⟩ : BufTy).Contents (Elt F)),
    StableHlo.unary main_v2940 main_v3103 (Host.sin : (⟨S16384, .f32⟩ : BufTy).Contents (Elt F) → (⟨S16384, .f32⟩ : BufTy).Contents (Elt F)) ]

theorem part51_eq (d : Dev nD) : main_part51 (F := F) d = seq ops51 := rfl
theorem ops51_sub : (ops51 (F := F)).Forall fun op => op.bufs ⊆ tcRefs τ sig := by line_sub
theorem ops51_fresh : ∀ op ∈ (ops51 (F := F)), op.fresh = ∅ := by line_fresh
theorem ops51_ordered : Cert.Ssa.Ordered 3061 (ops51 (F := F)) := by line_ordered

/-- Window 52 of @main: its operations, positions 3121 to 3180, in order. -/
abbrev ops52 : List (HloOp τ sig (Elt F)) :=
  [ StableHlo.binary main_v2942 main_v2758 main_v3104 (mulf : (⟨S16384, .f32⟩ : BufTy).Contents (Elt F) → (⟨S16384, .f32⟩ : BufTy).Contents (Elt F) → (⟨S16384, .f32⟩ : BufTy).Contents (Elt F)),
    StableHlo.unary main_v2619 main_v3105 (Host.cos : (⟨S16384, .f32⟩ : BufTy).Contents (Elt F) → (⟨S16384, .f32⟩ : BufTy).Contents (Elt F)),
    StableHlo.binary main_v2715 main_v3086 main_v3106 (subf : (⟨S16384, .f32⟩ : BufTy).Contents (Elt F) → (⟨S16384, .f32⟩ : BufTy).Contents (Elt F) → (⟨S16384, .f32⟩ : BufTy).Contents (Elt F)),
    StableHlo.binary main_v3021 main_v2755 main_v3107 (mulf : (⟨S16384, .f32⟩ : BufTy).Contents (Elt F) → (⟨S16384, .f32⟩ : BufTy).Contents (Elt F) → (⟨S16384, .f32⟩ : BufTy).Contents (Elt F)),
    StableHlo.unary main_v3070 main_v3108 (Host.cos : (⟨S16384, .f32⟩ : BufTy).Contents (Elt F) → (⟨S16384, .f32⟩ : BufTy).Contents (Elt F)),
    StableHlo.binary main_v2935 main_v3014 main_v3109 (addf : (⟨S16384, .f32⟩ : BufTy).Contents (Elt F) → (⟨S16384, .f32⟩ : BufTy).Contents (Elt F) → (⟨S16384, .f32⟩ : BufTy).Contents (Elt F)),
    StableHlo.binary main_v2739 main_v2739 main_v3110 (mulf : (⟨S16384, .f32⟩ : BufTy).Contents (Elt F) → (⟨S16384, .f32⟩ : BufTy).Contents (Elt F) → (⟨S16384, .f32⟩ : BufTy).Contents (Elt F)),
    StableHlo.unary main_v3073 main_v3111 (Host.sin : (⟨S16384, .f32⟩ : BufTy).Contents (Elt F) → (⟨S16384, .f32⟩ : BufTy).Contents (Elt F)),
    StableHlo.binary main_v2614 main_v3064 main_v3112 (mulf : (⟨S16384, .f32⟩ : BufTy).Contents (Elt F) → (⟨S16384, .f32⟩ : BufTy).Contents (Elt F) → (⟨S16384, .f32⟩ : BufTy).Contents (Elt F)),
    StableHlo.unary main_v3043 main_v3113 (Host.sin : (⟨S16384, .f32⟩ : BufTy).Contents (Elt F) → (⟨S16384, .f32⟩ : BufTy).Contents (Elt F)),
    StableHlo.unary main_v3023 main_v3114 (Host.cos : (⟨S16384, .f32⟩ : BufTy).Contents (Elt F) → (⟨S16384, .f32⟩ : BufTy).Contents (Elt F)),
    StableHlo.binary main_v3049 main_v3049 main_v3115 (mulf : (⟨S16384, .f32⟩ : BufTy).Contents (Elt F) → (⟨S16384, .f32⟩ : BufTy).Contents (Elt F) → (⟨S16384, .f32⟩ : BufTy).Contents (Elt F)),
    StableHlo.binary main_v2843 main_v2989 main_v3116 (mulf : (⟨S16384, .f32⟩ : BufTy).Contents (Elt F) → (⟨S16384, .f32⟩ : BufTy).Contents (Elt F) → (⟨S16384, .f32⟩ : BufTy).Contents (Elt F)),
    StableHlo.binary main_v3073 main_v2772 main_v3117 (addf : (⟨S16384, .f32⟩ : BufTy).Contents (Elt F) → (⟨S16384, .f32⟩ : BufTy).Contents (Elt F) → (⟨S16384, .f32⟩ : BufTy).Contents (Elt F)),
    StableHlo.unary main_v3071 main_v3118 (Host.cos : (⟨S16384, .f32⟩ : BufTy).Contents (Elt F) → (⟨S16384, .f32⟩ : BufTy).Contents (Elt F)),
    StableHlo.unary main_v3087 main_v3119 (Host.cos : (⟨S16384, .f32⟩ : BufTy).Contents (Elt F) → (⟨S16384, .f32⟩ : BufTy).Contents (Elt F)),
    StableHlo.unary main_v2390 main_v3120 (Host.cos : (⟨S16384, .f32⟩ : BufTy).Contents (Elt F) → (⟨S16384, .f32⟩ : BufTy).Contents (Elt F)),
    StableHlo.unary main_v1535 main_v3121 (Host.cos : (⟨S16384, .f32⟩ : BufTy).Contents (Elt F) → (⟨S16384, .f32⟩ : BufTy).Contents (Elt F)),
    StableHlo.binary main_v2954 main_v2954 main_v3122 (mulf : (⟨S16384, .f32⟩ : BufTy).Contents (Elt F) → (⟨S16384, .f32⟩ : BufTy).Contents (Elt F) → (⟨S16384, .f32⟩ : BufTy).Contents (Elt F)),
    StableHlo.binary main_v2805 main_v3037 main_v3123 (subf : (⟨S16384, .f32⟩ : BufTy).Contents (Elt F) → (⟨S16384, .f32⟩ : BufTy).Contents (Elt F) → (⟨S16384, .f32⟩ : BufTy).Contents (Elt F)),
    StableHlo.unary main_v2898 main_v3124 (Host.sin : (⟨S16384, .f32⟩ : BufTy).Contents (Elt F) → (⟨S16384, .f32⟩ : BufTy).Contents (Elt F)),
    StableHlo.unary main_v2851 main_v3125 (Host.cos : (⟨S16384, .f32⟩ : BufTy).Contents (Elt F) → (⟨S16384, .f32⟩ : BufTy).Contents (Elt F)),
    StableHlo.unary main_v2990 main_v3126 (Host.cos : (⟨S16384, .f32⟩ : BufTy).Contents (Elt F) → (⟨S16384, .f32⟩ : BufTy).Contents (Elt F)),
    StableHlo.unary main_v2838 main_v3127 (Host.cos : (⟨S16384, .f32⟩ : BufTy).Contents (Elt F) → (⟨S16384, .f32⟩ : BufTy).Contents (Elt F)),
    StableHlo.binary main_v3061 main_v2997 main_v3128 (addf : (⟨S16384, .f32⟩ : BufTy).Contents (Elt F) → (⟨S16384, .f32⟩ : BufTy).Contents (Elt F) → (⟨S16384, .f32⟩ : BufTy).Contents (Elt F)),
    StableHlo.unary main_v2598 main_v3129 (Host.cos : (⟨S16384, .f32⟩ : BufTy).Contents (Elt F) → (⟨S16384, .f32⟩ : BufTy).Contents (Elt F)),
    StableHlo.unary main_v2997 main_v3130 (Host.cos : (⟨S16384, .f32⟩ : BufTy).Contents (Elt F) → (⟨S16384, .f32⟩ : BufTy).Contents (Elt F)),
    StableHlo.unary main_v3120 main_v3131 (Host.cos : (⟨S16384, .f32⟩ : BufTy).Contents (Elt F) → (⟨S16384, .f32⟩ : BufTy).Contents (Elt F)),
    StableHlo.unary main_v2832 main_v3132 (Host.cos : (⟨S16384, .f32⟩ : BufTy).Contents (Elt F) → (⟨S16384, .f32⟩ : BufTy).Contents (Elt F)),
    StableHlo.binary main_v2593 main_v3097 main_v3133 (subf : (⟨S16384, .f32⟩ : BufTy).Contents (Elt F) → (⟨S16384, .f32⟩ : BufTy).Contents (Elt F) → (⟨S16384, .f32⟩ : BufTy).Contents (Elt F)),
    StableHlo.unary main_v2249 main_v3134 (Host.sin : (⟨S16384, .f32⟩ : BufTy).Contents (Elt F) → (⟨S16384, .f32⟩ : BufTy).Contents (Elt F)),
    StableHlo.unary main_v3024 main_v3135 (Host.sin : (⟨S16384, .f32⟩ : BufTy).Contents (Elt F) → (⟨S16384, .f32⟩ : BufTy).Contents (Elt F)),
    StableHlo.binary main_v2530 main_v3112 main_v3136 (addf : (⟨S16384, .f32⟩ : BufTy).Contents (Elt F) → (⟨S16384, .f32⟩ : BufTy).Contents (Elt F) → (⟨S16384, .f32⟩ : BufTy).Contents (Elt F)),
    StableHlo.unary main_v2482 main_v3137 (Host.sin : (⟨S16384, .f32⟩ : BufTy).Contents (Elt F) → (⟨S16384, .f32⟩ : BufTy).Contents (Elt F)),
    StableHlo.unary main_v3092 main_v3138 (Host.sin : (⟨S16384, .f32⟩ : BufTy).Contents (Elt F) → (⟨S16384, .f32⟩ : BufTy).Contents (Elt F)),
    StableHlo.unary main_v1535 main_v3139 (Host.sin : (⟨S16384, .f32⟩ : BufTy).Contents (Elt F) → (⟨S16384, .f32⟩ : BufTy).Contents (Elt F)),
    StableHlo.binary main_v2888 main_v2888 main_v3140 (mulf : (⟨S16384, .f32⟩ : BufTy).Contents (Elt F) → (⟨S16384, .f32⟩ : BufTy).Contents (Elt F) → (⟨S16384, .f32⟩ : BufTy).Contents (Elt F)),
    StableHlo.unary main_v3021 main_v3141 (Host.sin : (⟨S16384, .f32⟩ : BufTy).Contents (Elt F) → (⟨S16384, .f32⟩ : BufTy).Contents (Elt F)),
    StableHlo.binary main_v3109 main_v2917 main_v3142 (subf : (⟨S16384, .f32⟩ : BufTy).Contents (Elt F) → (⟨S16384, .f32⟩ : BufTy).Contents (Elt F) → (⟨S16384, .f32⟩ : BufTy).Contents (Elt F)),
    StableHlo.unary main_v2722 main_v3143 (Host.cos : (⟨S16384, .f32⟩ : BufTy).Contents (Elt F) → (⟨S16384, .f32⟩ : BufTy).Contents (Elt F)),
    StableHlo.binary main_v3124 main_v2804 main_v3144 (mulf : (⟨S16384, .f32⟩ : BufTy).Contents (Elt F) → (⟨S16384, .f32⟩ : BufTy).Contents (Elt F) → (⟨S16384, .f32⟩ : BufTy).Contents (Elt F)),
    StableHlo.unary main_v3058 main_v3145 (Host.cos : (⟨S16384, .f32⟩ : BufTy).Contents (Elt F) → (⟨S16384, .f32⟩ : BufTy).Contents (Elt F)),
    StableHlo.binary main_v3092 main_v3062 main_v3146 (subf : (⟨S16384, .f32⟩ : BufTy).Contents (Elt F) → (⟨S16384, .f32⟩ : BufTy).Contents (Elt F) → (⟨S16384, .f32⟩ : BufTy).Contents (Elt F)),
    StableHlo.binary main_v2942 main_v3130 main_v3147 (mulf : (⟨S16384, .f32⟩ : BufTy).Contents (Elt F) → (⟨S16384, .f32⟩ : BufTy).Contents (Elt F) → (⟨S16384, .f32⟩ : BufTy).Contents (Elt F)),
    StableHlo.unary main_v2898 main_v3148 (Host.negf : (⟨S16384, .f32⟩ : BufTy).Contents (Elt F) → (⟨S16384, .f32⟩ : BufTy).Contents (Elt F)),
    StableHlo.unary main_v2939 main_v3149 (Host.cos : (⟨S16384, .f32⟩ : BufTy).Contents (Elt F) → (⟨S16384, .f32⟩ : BufTy).Contents (Elt F)),
    StableHlo.unary main_v2401 main_v3150 (Host.cos : (⟨S16384, .f32⟩ : BufTy).Contents (Elt F) → (⟨S16384, .f32⟩ : BufTy).Contents (Elt F)),
    StableHlo.unary main_v3070 main_v3151 (Host.sin : (⟨S16384, .f32⟩ : BufTy).Contents (Elt F) → (⟨S16384, .f32⟩ : BufTy).Contents (Elt F)),
    StableHlo.unary main_v2902 main_v3152 (Host.negf : (⟨S16384, .f32⟩ : BufTy).Contents (Elt F) → (⟨S16384, .f32⟩ : BufTy).Contents (Elt F)),
    StableHlo.binary main_v2772 main_v2772 main_v3153 (mulf : (⟨S16384, .f32⟩ : BufTy).Contents (Elt F) → (⟨S16384, .f32⟩ : BufTy).Contents (Elt F) → (⟨S16384, .f32⟩ : BufTy).Contents (Elt F)),
    StableHlo.binary main_v3021 main_v2969 main_v3154 (addf : (⟨S16384, .f32⟩ : BufTy).Contents (Elt F) → (⟨S16384, .f32⟩ : BufTy).Contents (Elt F) → (⟨S16384, .f32⟩ : BufTy).Contents (Elt F)),
    StableHlo.unary main_v2898 main_v3155 (Host.cos : (⟨S16384, .f32⟩ : BufTy).Contents (Elt F) → (⟨S16384, .f32⟩ : BufTy).Contents (Elt F)),
    StableHlo.unary main_v2888 main_v3156 (Host.sin : (⟨S16384, .f32⟩ : BufTy).Contents (Elt F) → (⟨S16384, .f32⟩ : BufTy).Contents (Elt F)),
    StableHlo.unary main_v2909 main_v3157 (Host.sin : (⟨S16384, .f32⟩ : BufTy).Contents (Elt F) → (⟨S16384, .f32⟩ : BufTy).Contents (Elt F)),
    StableHlo.unary main_v3040 main_v3158 (Host.sin : (⟨S16384, .f32⟩ : BufTy).Contents (Elt F) → (⟨S16384, .f32⟩ : BufTy).Contents (Elt F)),
    StableHlo.unary main_v3071 main_v3159 (Host.cos : (⟨S16384, .f32⟩ : BufTy).Contents (Elt F) → (⟨S16384, .f32⟩ : BufTy).Contents (Elt F)),
    StableHlo.binary main_v3145 main_v3133 main_v3160 (addf : (⟨S16384, .f32⟩ : BufTy).Contents (Elt F) → (⟨S16384, .f32⟩ : BufTy).Contents (Elt F) → (⟨S16384, .f32⟩ : BufTy).Contents (Elt F)),
    StableHlo.unary main_v3112 main_v3161 (Host.sin : (⟨S16384, .f32⟩ : BufTy).Contents (Elt F) → (⟨S16384, .f32⟩ : BufTy).Contents (Elt F)),
    StableHlo.unary main_v3058 main_v3162 (Host.sin : (⟨S16384, .f32⟩ : BufTy).Contents (Elt F) → (⟨S16384, .f32⟩ : BufTy).Contents (Elt F)),
    StableHlo.binary main_v3066 main_v2966 main_v3163 (subf : (⟨S16384, .f32⟩ : BufTy).Contents (Elt F) → (⟨S16384, .f32⟩ : BufTy).Contents (Elt F) → (⟨S16384, .f32⟩ : BufTy).Contents (Elt F)) ]

theorem part52_eq (d : Dev nD) : main_part52 (F := F) d = seq ops52 := rfl
theorem ops52_sub : (ops52 (F := F)).Forall fun op => op.bufs ⊆ tcRefs τ sig := by line_sub
theorem ops52_fresh : ∀ op ∈ (ops52 (F := F)), op.fresh = ∅ := by line_fresh
theorem ops52_ordered : Cert.Ssa.Ordered 3121 (ops52 (F := F)) := by line_ordered

/-- Window 53 of @main: its operations, positions 3181 to 3240, in order. -/
abbrev ops53 : List (HloOp τ sig (Elt F)) :=
  [ StableHlo.unary main_v2742 main_v3164 (Host.sin : (⟨S16384, .f32⟩ : BufTy).Contents (Elt F) → (⟨S16384, .f32⟩ : BufTy).Contents (Elt F)),
    StableHlo.unary main_v3036 main_v3165 (Host.sin : (⟨S16384, .f32⟩ : BufTy).Contents (Elt F) → (⟨S16384, .f32⟩ : BufTy).Contents (Elt F)),
    StableHlo.binary main_v3054 main_v3165 main_v3166 (addf : (⟨S16384, .f32⟩ : BufTy).Contents (Elt F) → (⟨S16384, .f32⟩ : BufTy).Contents (Elt F) → (⟨S16384, .f32⟩ : BufTy).Contents (Elt F)),
    StableHlo.binary main_v3014 main_v2896 main_v3167 (subf : (⟨S16384, .f32⟩ : BufTy).Contents (Elt F) → (⟨S16384, .f32⟩ : BufTy).Contents (Elt F) → (⟨S16384, .f32⟩ : BufTy).Contents (Elt F)),
    StableHlo.unary main_v2924 main_v3168 (Host.sin : (⟨S16384, .f32⟩ : BufTy).Contents (Elt F) → (⟨S16384, .f32⟩ : BufTy).Contents (Elt F)),
    StableHlo.unary main_v3167 main_v3169 (Host.negf : (⟨S16384, .f32⟩ : BufTy).Contents (Elt F) → (⟨S16384, .f32⟩ : BufTy).Contents (Elt F)),
    StableHlo.unary main_v2815 main_v3170 (Host.cos : (⟨S16384, .f32⟩ : BufTy).Contents (Elt F) → (⟨S16384, .f32⟩ : BufTy).Contents (Elt F)),
    StableHlo.unary main_v2499 main_v3171 (Host.cos : (⟨S16384, .f32⟩ : BufTy).Contents (Elt F) → (⟨S16384, .f32⟩ : BufTy).Contents (Elt F)),
    StableHlo.unary main_v2841 main_v3172 (Host.sin : (⟨S16384, .f32⟩ : BufTy).Contents (Elt F) → (⟨S16384, .f32⟩ : BufTy).Contents (Elt F)),
    StableHlo.binary main_v2680 main_v2377 main_v3173 (addf : (⟨S16384, .f32⟩ : BufTy).Contents (Elt F) → (⟨S16384, .f32⟩ : BufTy).Contents (Elt F) → (⟨S16384, .f32⟩ : BufTy).Contents (Elt F)),
    StableHlo.unary main_v3085 main_v3174 (Host.negf : (⟨S16384, .f32⟩ : BufTy).Contents (Elt F) → (⟨S16384, .f32⟩ : BufTy).Contents (Elt F)),
    StableHlo.unary main_v3167 main_v3175 (Host.negf : (⟨S16384, .f32⟩ : BufTy).Contents (Elt F) → (⟨S16384, .f32⟩ : BufTy).Contents (Elt F)),
    StableHlo.binary main_v3087 main_v3065 main_v3176 (mulf : (⟨S16384, .f32⟩ : BufTy).Contents (Elt F) → (⟨S16384, .f32⟩ : BufTy).Contents (Elt F) → (⟨S16384, .f32⟩ : BufTy).Contents (Elt F)),
    StableHlo.binary main_v3176 main_v3073 main_v3177 (addf : (⟨S16384, .f32⟩ : BufTy).Contents (Elt F) → (⟨S16384, .f32⟩ : BufTy).Contents (Elt F) → (⟨S16384, .f32⟩ : BufTy).Contents (Elt F)),
    StableHlo.unary main_v3029 main_v3178 (Host.cos : (⟨S16384, .f32⟩ : BufTy).Contents (Elt F) → (⟨S16384, .f32⟩ : BufTy).Contents (Elt F)),
    StableHlo.unary main_v2870 main_v3179 (Host.cos : (⟨S16384, .f32⟩ : BufTy).Contents (Elt F) → (⟨S16384, .f32⟩ : BufTy).Contents (Elt F)),
    StableHlo.binary main_v3135 main_v1929 main_v3180 (subf : (⟨S16384, .f32⟩ : BufTy).Contents (Elt F) → (⟨S16384, .f32⟩ : BufTy).Contents (Elt F) → (⟨S16384, .f32⟩ : BufTy).Contents (Elt F)),
    StableHlo.unary main_v3065 main_v3181 (Host.cos : (⟨S16384, .f32⟩ : BufTy).Contents (Elt F) → (⟨S16384, .f32⟩ : BufTy).Contents (Elt F)),
    StableHlo.unary main_v2656 main_v3182 (Host.cos : (⟨S16384, .f32⟩ : BufTy).Contents (Elt F) → (⟨S16384, .f32⟩ : BufTy).Contents (Elt F)),
    StableHlo.unary main_v3112 main_v3183 (Host.cos : (⟨S16384, .f32⟩ : BufTy).Contents (Elt F) → (⟨S16384, .f32⟩ : BufTy).Contents (Elt F)),
    StableHlo.unary main_v3049 main_v3184 (Host.cos : (⟨S16384, .f32⟩ : BufTy).Contents (Elt F) → (⟨S16384, .f32⟩ : BufTy).Contents (Elt F)),
    StableHlo.binary main_v2898 main_v2605 main_v3185 (addf : (⟨S16384, .f32⟩ : BufTy).Contents (Elt F) → (⟨S16384, .f32⟩ : BufTy).Contents (Elt F) → (⟨S16384, .f32⟩ : BufTy).Contents (Elt F)),
    StableHlo.unary main_v2640 main_v3186 (Host.cos : (⟨S16384, .f32⟩ : BufTy).Contents (Elt F) → (⟨S16384, .f32⟩ : BufTy).Contents (Elt F)),
    StableHlo.binary main_v3097 main_v2934 main_v3187 (addf : (⟨S16384, .f32⟩ : BufTy).Contents (Elt F) → (⟨S16384, .f32⟩ : BufTy).Contents (Elt F) → (⟨S16384, .f32⟩ : BufTy).Contents (Elt F)),
    StableHlo.binary main_v3163 main_v2759 main_v3188 (subf : (⟨S16384, .f32⟩ : BufTy).Contents (Elt F) → (⟨S16384, .f32⟩ : BufTy).Contents (Elt F) → (⟨S16384, .f32⟩ : BufTy).Contents (Elt F)),
    StableHlo.unary main_v2618 main_v3189 (Host.sin : (⟨S16384, .f32⟩ : BufTy).Contents (Elt F) → (⟨S16384, .f32⟩ : BufTy).Contents (Elt F)),
    StableHlo.unary main_v3049 main_v3190 (Host.sin : (⟨S16384, .f32⟩ : BufTy).Contents (Elt F) → (⟨S16384, .f32⟩ : BufTy).Contents (Elt F)),
    StableHlo.unary main_v3125 main_v3191 (Host.sin : (⟨S16384, .f32⟩ : BufTy).Contents (Elt F) → (⟨S16384, .f32⟩ : BufTy).Contents (Elt F)),
    StableHlo.unary main_v3185 main_v3192 (Host.cos : (⟨S16384, .f32⟩ : BufTy).Contents (Elt F) → (⟨S16384, .f32⟩ : BufTy).Contents (Elt F)),
    StableHlo.unary main_v2605 main_v3193 (Host.cos : (⟨S16384, .f32⟩ : BufTy).Contents (Elt F) → (⟨S16384, .f32⟩ : BufTy).Contents (Elt F)),
    StableHlo.binary main_v2840 main_v3163 main_v3194 (addf : (⟨S16384, .f32⟩ : BufTy).Contents (Elt F) → (⟨S16384, .f32⟩ : BufTy).Contents (Elt F) → (⟨S16384, .f32⟩ : BufTy).Contents (Elt F)),
    StableHlo.unary main_v2406 main_v3195 (Host.negf : (⟨S16384, .f32⟩ : BufTy).Contents (Elt F) → (⟨S16384, .f32⟩ : BufTy).Contents (Elt F)),
    StableHlo.binary main_v2842 main_v2160 main_v3196 (subf : (⟨S16384, .f32⟩ : BufTy).Contents (Elt F) → (⟨S16384, .f32⟩ : BufTy).Contents (Elt F) → (⟨S16384, .f32⟩ : BufTy).Contents (Elt F)),
    StableHlo.binary main_v2741 main_v2594 main_v3197 (addf : (⟨S16384, .f32⟩ : BufTy).Contents (Elt F) → (⟨S16384, .f32⟩ : BufTy).Contents (Elt F) → (⟨S16384, .f32⟩ : BufTy).Contents (Elt F)),
    StableHlo.binary main_v2878 main_v2878 main_v3198 (mulf : (⟨S16384, .f32⟩ : BufTy).Contents (Elt F) → (⟨S16384, .f32⟩ : BufTy).Contents (Elt F) → (⟨S16384, .f32⟩ : BufTy).Contents (Elt F)),
    StableHlo.unary main_v3035 main_v3199 (Host.sin : (⟨S16384, .f32⟩ : BufTy).Contents (Elt F) → (⟨S16384, .f32⟩ : BufTy).Contents (Elt F)),
    StableHlo.unary main_v2660 main_v3200 (Host.cos : (⟨S16384, .f32⟩ : BufTy).Contents (Elt F) → (⟨S16384, .f32⟩ : BufTy).Contents (Elt F)),
    StableHlo.unary main_v3056 main_v3201 (Host.sin : (⟨S16384, .f32⟩ : BufTy).Contents (Elt F) → (⟨S16384, .f32⟩ : BufTy).Contents (Elt F)),
    StableHlo.unary main_v3085 main_v3202 (Host.sin : (⟨S16384, .f32⟩ : BufTy).Contents (Elt F) → (⟨S16384, .f32⟩ : BufTy).Contents (Elt F)),
    StableHlo.binary main_v2997 main_v2919 main_v3203 (mulf : (⟨S16384, .f32⟩ : BufTy).Contents (Elt F) → (⟨S16384, .f32⟩ : BufTy).Contents (Elt F) → (⟨S16384, .f32⟩ : BufTy).Contents (Elt F)),
    StableHlo.binary main_v3168 main_v2720 main_v3204 (subf : (⟨S16384, .f32⟩ : BufTy).Contents (Elt F) → (⟨S16384, .f32⟩ : BufTy).Contents (Elt F) → (⟨S16384, .f32⟩ : BufTy).Contents (Elt F)),
    StableHlo.unary main_v3036 main_v3205 (Host.sin : (⟨S16384, .f32⟩ : BufTy).Contents (Elt F) → (⟨S16384, .f32⟩ : BufTy).Contents (Elt F)),
    StableHlo.binary main_v2944 main_v3135 main_v3206 (mulf : (⟨S16384, .f32⟩ : BufTy).Contents (Elt F) → (⟨S16384, .f32⟩ : BufTy).Contents (Elt F) → (⟨S16384, .f32⟩ : BufTy).Contents (Elt F)),
    StableHlo.unary main_v2377 main_v3207 (Host.sin : (⟨S16384, .f32⟩ : BufTy).Contents (Elt F) → (⟨S16384, .f32⟩ : BufTy).Contents (Elt F)),
    StableHlo.unary main_v3035 main_v3208 (Host.sin : (⟨S16384, .f32⟩ : BufTy).Contents (Elt F) → (⟨S16384, .f32⟩ : BufTy).Contents (Elt F)),
    StableHlo.binary main_v3036 main_v3187 main_v3209 (subf : (⟨S16384, .f32⟩ : BufTy).Contents (Elt F) → (⟨S16384, .f32⟩ : BufTy).Contents (Elt F) → (⟨S16384, .f32⟩ : BufTy).Contents (Elt F)),
    StableHlo.unary main_v3107 main_v3210 (Host.cos : (⟨S16384, .f32⟩ : BufTy).Contents (Elt F) → (⟨S16384, .f32⟩ : BufTy).Contents (Elt F)),
    StableHlo.unary main_v2736 main_v3211 (Host.sin : (⟨S16384, .f32⟩ : BufTy).Contents (Elt F) → (⟨S16384, .f32⟩ : BufTy).Contents (Elt F)),
    StableHlo.binary main_v3170 main_v3198 main_v3212 (addf : (⟨S16384, .f32⟩ : BufTy).Contents (Elt F) → (⟨S16384, .f32⟩ : BufTy).Contents (Elt F) → (⟨S16384, .f32⟩ : BufTy).Contents (Elt F)),
    StableHlo.binary main_v3039 main_v3039 main_v3213 (mulf : (⟨S16384, .f32⟩ : BufTy).Contents (Elt F) → (⟨S16384, .f32⟩ : BufTy).Contents (Elt F) → (⟨S16384, .f32⟩ : BufTy).Contents (Elt F)),
    StableHlo.binary main_v3015 main_v3164 main_v3214 (addf : (⟨S16384, .f32⟩ : BufTy).Contents (Elt F) → (⟨S16384, .f32⟩ : BufTy).Contents (Elt F) → (⟨S16384, .f32⟩ : BufTy).Contents (Elt F)),
    StableHlo.binary main_v3141 main_v2594 main_v3215 (subf : (⟨S16384, .f32⟩ : BufTy).Contents (Elt F) → (⟨S16384, .f32⟩ : BufTy).Contents (Elt F) → (⟨S16384, .f32⟩ : BufTy).Contents (Elt F)),
    StableHlo.binary main_v2474 main_v2474 main_v3216 (mulf : (⟨S16384, .f32⟩ : BufTy).Contents (Elt F) → (⟨S16384, .f32⟩ : BufTy).Contents (Elt F) → (⟨S16384, .f32⟩ : BufTy).Contents (Elt F)),
    StableHlo.unary main_v3025 main_v3217 (Host.sin : (⟨S16384, .f32⟩ : BufTy).Contents (Elt F) → (⟨S16384, .f32⟩ : BufTy).Contents (Elt F)),
    StableHlo.unary main_v3135 main_v3218 (Host.negf : (⟨S16384, .f32⟩ : BufTy).Contents (Elt F) → (⟨S16384, .f32⟩ : BufTy).Contents (Elt F)),
    StableHlo.unary main_v3097 main_v3219 (Host.sin : (⟨S16384, .f32⟩ : BufTy).Contents (Elt F) → (⟨S16384, .f32⟩ : BufTy).Contents (Elt F)),
    StableHlo.unary main_v3050 main_v3220 (Host.sin : (⟨S16384, .f32⟩ : BufTy).Contents (Elt F) → (⟨S16384, .f32⟩ : BufTy).Contents (Elt F)),
    StableHlo.unary main_v3200 main_v3221 (Host.cos : (⟨S16384, .f32⟩ : BufTy).Contents (Elt F) → (⟨S16384, .f32⟩ : BufTy).Contents (Elt F)),
    StableHlo.binary main_v2022 main_v3120 main_v3222 (addf : (⟨S16384, .f32⟩ : BufTy).Contents (Elt F) → (⟨S16384, .f32⟩ : BufTy).Contents (Elt F) → (⟨S16384, .f32⟩ : BufTy).Contents (Elt F)),
    StableHlo.binary main_v2946 main_v2820 main_v3223 (subf : (⟨S16384, .f32⟩ : BufTy).Contents (Elt F) → (⟨S16384, .f32⟩ : BufTy).Contents (Elt F) → (⟨S16384, .f32⟩ : BufTy).Contents (Elt F)) ]

theorem part53_eq (d : Dev nD) : main_part53 (F := F) d = seq ops53 := rfl
theorem ops53_sub : (ops53 (F := F)).Forall fun op => op.bufs ⊆ tcRefs τ sig := by line_sub
theorem ops53_fresh : ∀ op ∈ (ops53 (F := F)), op.fresh = ∅ := by line_fresh
theorem ops53_ordered : Cert.Ssa.Ordered 3181 (ops53 (F := F)) := by line_ordered

/-- Window 54 of @main: its operations, positions 3241 to 3300, in order. -/
abbrev ops54 : List (HloOp τ sig (Elt F)) :=
  [ StableHlo.unary main_v3121 main_v3224 (Host.cos : (⟨S16384, .f32⟩ : BufTy).Contents (Elt F) → (⟨S16384, .f32⟩ : BufTy).Contents (Elt F)),
    StableHlo.binary main_v3056 main_v2433 main_v3225 (mulf : (⟨S16384, .f32⟩ : BufTy).Contents (Elt F) → (⟨S16384, .f32⟩ : BufTy).Contents (Elt F) → (⟨S16384, .f32⟩ : BufTy).Contents (Elt F)),
    StableHlo.binary main_v2997 main_v3037 main_v3226 (addf : (⟨S16384, .f32⟩ : BufTy).Contents (Elt F) → (⟨S16384, .f32⟩ : BufTy).Contents (Elt F) → (⟨S16384, .f32⟩ : BufTy).Contents (Elt F)),
    StableHlo.unary main_v1535 main_v3227 (Host.cos : (⟨S16384, .f32⟩ : BufTy).Contents (Elt F) → (⟨S16384, .f32⟩ : BufTy).Contents (Elt F)),
    StableHlo.binary main_v2694 main_v3145 main_v3228 (subf : (⟨S16384, .f32⟩ : BufTy).Contents (Elt F) → (⟨S16384, .f32⟩ : BufTy).Contents (Elt F) → (⟨S16384, .f32⟩ : BufTy).Contents (Elt F)),
    StableHlo.unary main_v3030 main_v3229 (Host.cos : (⟨S16384, .f32⟩ : BufTy).Contents (Elt F) → (⟨S16384, .f32⟩ : BufTy).Contents (Elt F)),
    StableHlo.binary main_v3224 main_v2660 main_v3230 (mulf : (⟨S16384, .f32⟩ : BufTy).Contents (Elt F) → (⟨S16384, .f32⟩ : BufTy).Contents (Elt F) → (⟨S16384, .f32⟩ : BufTy).Contents (Elt F)),
    StableHlo.unary main_v3205 main_v3231 (Host.cos : (⟨S16384, .f32⟩ : BufTy).Contents (Elt F) → (⟨S16384, .f32⟩ : BufTy).Contents (Elt F)),
    StableHlo.unary main_v3205 main_v3232 (Host.sin : (⟨S16384, .f32⟩ : BufTy).Contents (Elt F) → (⟨S16384, .f32⟩ : BufTy).Contents (Elt F)),
    StableHlo.unary main_v3164 main_v3233 (Host.sin : (⟨S16384, .f32⟩ : BufTy).Contents (Elt F) → (⟨S16384, .f32⟩ : BufTy).Contents (Elt F)),
    StableHlo.unary main_v2963 main_v3234 (Host.cos : (⟨S16384, .f32⟩ : BufTy).Contents (Elt F) → (⟨S16384, .f32⟩ : BufTy).Contents (Elt F)),
    StableHlo.binary main_v2656 main_v3226 main_v3235 (mulf : (⟨S16384, .f32⟩ : BufTy).Contents (Elt F) → (⟨S16384, .f32⟩ : BufTy).Contents (Elt F) → (⟨S16384, .f32⟩ : BufTy).Contents (Elt F)),
    StableHlo.unary main_v3056 main_v3236 (Host.sin : (⟨S16384, .f32⟩ : BufTy).Contents (Elt F) → (⟨S16384, .f32⟩ : BufTy).Contents (Elt F)),
    StableHlo.binary main_v3008 main_v2377 main_v3237 (addf : (⟨S16384, .f32⟩ : BufTy).Contents (Elt F) → (⟨S16384, .f32⟩ : BufTy).Contents (Elt F) → (⟨S16384, .f32⟩ : BufTy).Contents (Elt F)),
    StableHlo.unary main_v3186 main_v3238 (Host.cos : (⟨S16384, .f32⟩ : BufTy).Contents (Elt F) → (⟨S16384, .f32⟩ : BufTy).Contents (Elt F)),
    StableHlo.binary main_v2842 main_v3068 main_v3239 (addf : (⟨S16384, .f32⟩ : BufTy).Contents (Elt F) → (⟨S16384, .f32⟩ : BufTy).Contents (Elt F) → (⟨S16384, .f32⟩ : BufTy).Contents (Elt F)),
    StableHlo.binary main_v2968 main_v2742 main_v3240 (subf : (⟨S16384, .f32⟩ : BufTy).Contents (Elt F) → (⟨S16384, .f32⟩ : BufTy).Contents (Elt F) → (⟨S16384, .f32⟩ : BufTy).Contents (Elt F)),
    StableHlo.unary main_v1535 main_v3241 (Host.sin : (⟨S16384, .f32⟩ : BufTy).Contents (Elt F) → (⟨S16384, .f32⟩ : BufTy).Contents (Elt F)),
    StableHlo.unary main_v2594 main_v3242 (Host.cos : (⟨S16384, .f32⟩ : BufTy).Contents (Elt F) → (⟨S16384, .f32⟩ : BufTy).Contents (Elt F)),
    StableHlo.binary main_v3117 main_v3041 main_v3243 (mulf : (⟨S16384, .f32⟩ : BufTy).Contents (Elt F) → (⟨S16384, .f32⟩ : BufTy).Contents (Elt F) → (⟨S16384, .f32⟩ : BufTy).Contents (Elt F)),
    StableHlo.binary main_v2902 main_v2902 main_v3244 (mulf : (⟨S16384, .f32⟩ : BufTy).Contents (Elt F) → (⟨S16384, .f32⟩ : BufTy).Contents (Elt F) → (⟨S16384, .f32⟩ : BufTy).Contents (Elt F)),
    StableHlo.unary main_v3182 main_v3245 (Host.sin : (⟨S16384, .f32⟩ : BufTy).Contents (Elt F) → (⟨S16384, .f32⟩ : BufTy).Contents (Elt F)),
    StableHlo.unary main_v2530 main_v3246 (Host.cos : (⟨S16384, .f32⟩ : BufTy).Contents (Elt F) → (⟨S16384, .f32⟩ : BufTy).Contents (Elt F)),
    StableHlo.unary main_v3077 main_v3247 (Host.cos : (⟨S16384, .f32⟩ : BufTy).Contents (Elt F) → (⟨S16384, .f32⟩ : BufTy).Contents (Elt F)),
    StableHlo.binary main_v2539 main_v2840 main_v3248 (mulf : (⟨S16384, .f32⟩ : BufTy).Contents (Elt F) → (⟨S16384, .f32⟩ : BufTy).Contents (Elt F) → (⟨S16384, .f32⟩ : BufTy).Contents (Elt F)),
    StableHlo.binary main_v2896 main_v2998 main_v3249 (mulf : (⟨S16384, .f32⟩ : BufTy).Contents (Elt F) → (⟨S16384, .f32⟩ : BufTy).Contents (Elt F) → (⟨S16384, .f32⟩ : BufTy).Contents (Elt F)),
    StableHlo.unary main_v3165 main_v3250 (Host.sin : (⟨S16384, .f32⟩ : BufTy).Contents (Elt F) → (⟨S16384, .f32⟩ : BufTy).Contents (Elt F)),
    StableHlo.binary main_v2715 main_v2658 main_v3251 (mulf : (⟨S16384, .f32⟩ : BufTy).Contents (Elt F) → (⟨S16384, .f32⟩ : BufTy).Contents (Elt F) → (⟨S16384, .f32⟩ : BufTy).Contents (Elt F)),
    StableHlo.binary main_v3064 main_v2957 main_v3252 (addf : (⟨S16384, .f32⟩ : BufTy).Contents (Elt F) → (⟨S16384, .f32⟩ : BufTy).Contents (Elt F) → (⟨S16384, .f32⟩ : BufTy).Contents (Elt F)),
    StableHlo.binary main_v2482 main_v3207 main_v3253 (mulf : (⟨S16384, .f32⟩ : BufTy).Contents (Elt F) → (⟨S16384, .f32⟩ : BufTy).Contents (Elt F) → (⟨S16384, .f32⟩ : BufTy).Contents (Elt F)),
    StableHlo.unary main_v3120 main_v3254 (Host.cos : (⟨S16384, .f32⟩ : BufTy).Contents (Elt F) → (⟨S16384, .f32⟩ : BufTy).Contents (Elt F)),
    StableHlo.unary main_v3226 main_v3255 (Host.cos : (⟨S16384, .f32⟩ : BufTy).Contents (Elt F) → (⟨S16384, .f32⟩ : BufTy).Contents (Elt F)),
    StableHlo.unary main_v3220 main_v3256 (Host.sin : (⟨S16384, .f32⟩ : BufTy).Contents (Elt F) → (⟨S16384, .f32⟩ : BufTy).Contents (Elt F)),
    StableHlo.unary main_v3220 main_v3257 (Host.sin : (⟨S16384, .f32⟩ : BufTy).Contents (Elt F) → (⟨S16384, .f32⟩ : BufTy).Contents (Elt F)),
    StableHlo.unary main_v2691 main_v3258 (Host.cos : (⟨S16384, .f32⟩ : BufTy).Contents (Elt F) → (⟨S16384, .f32⟩ : BufTy).Contents (Elt F)),
    StableHlo.binary main_v3186 main_v3232 main_v3259 (subf : (⟨S16384, .f32⟩ : BufTy).Contents (Elt F) → (⟨S16384, .f32⟩ : BufTy).Contents (Elt F) → (⟨S16384, .f32⟩ : BufTy).Contents (Elt F)),
    StableHlo.unary main_v3193 main_v3260 (Host.sin : (⟨S16384, .f32⟩ : BufTy).Contents (Elt F) → (⟨S16384, .f32⟩ : BufTy).Contents (Elt F)),
    StableHlo.unary main_v3039 main_v3261 (Host.sin : (⟨S16384, .f32⟩ : BufTy).Contents (Elt F) → (⟨S16384, .f32⟩ : BufTy).Contents (Elt F)),
    StableHlo.binary main_v2793 main_v3164 main_v3262 (subf : (⟨S16384, .f32⟩ : BufTy).Contents (Elt F) → (⟨S16384, .f32⟩ : BufTy).Contents (Elt F) → (⟨S16384, .f32⟩ : BufTy).Contents (Elt F)),
    StableHlo.binary main_v3206 main_v3259 main_v3263 (subf : (⟨S16384, .f32⟩ : BufTy).Contents (Elt F) → (⟨S16384, .f32⟩ : BufTy).Contents (Elt F) → (⟨S16384, .f32⟩ : BufTy).Contents (Elt F)),
    StableHlo.unary main_v3254 main_v3264 (Host.sin : (⟨S16384, .f32⟩ : BufTy).Contents (Elt F) → (⟨S16384, .f32⟩ : BufTy).Contents (Elt F)),
    StableHlo.binary main_v2759 main_v2741 main_v3265 (subf : (⟨S16384, .f32⟩ : BufTy).Contents (Elt F) → (⟨S16384, .f32⟩ : BufTy).Contents (Elt F) → (⟨S16384, .f32⟩ : BufTy).Contents (Elt F)),
    StableHlo.binary main_v3112 main_v3258 main_v3266 (addf : (⟨S16384, .f32⟩ : BufTy).Contents (Elt F) → (⟨S16384, .f32⟩ : BufTy).Contents (Elt F) → (⟨S16384, .f32⟩ : BufTy).Contents (Elt F)),
    StableHlo.binary main_v3259 main_v3259 main_v3267 (mulf : (⟨S16384, .f32⟩ : BufTy).Contents (Elt F) → (⟨S16384, .f32⟩ : BufTy).Contents (Elt F) → (⟨S16384, .f32⟩ : BufTy).Contents (Elt F)),
    StableHlo.binary main_v3174 main_v3122 main_v3268 (addf : (⟨S16384, .f32⟩ : BufTy).Contents (Elt F) → (⟨S16384, .f32⟩ : BufTy).Contents (Elt F) → (⟨S16384, .f32⟩ : BufTy).Contents (Elt F)),
    StableHlo.unary main_v3108 main_v3269 (Host.cos : (⟨S16384, .f32⟩ : BufTy).Contents (Elt F) → (⟨S16384, .f32⟩ : BufTy).Contents (Elt F)),
    StableHlo.binary main_v2989 main_v3250 main_v3270 (addf : (⟨S16384, .f32⟩ : BufTy).Contents (Elt F) → (⟨S16384, .f32⟩ : BufTy).Contents (Elt F) → (⟨S16384, .f32⟩ : BufTy).Contents (Elt F)),
    StableHlo.binary main_v2761 main_v2761 main_v3271 (mulf : (⟨S16384, .f32⟩ : BufTy).Contents (Elt F) → (⟨S16384, .f32⟩ : BufTy).Contents (Elt F) → (⟨S16384, .f32⟩ : BufTy).Contents (Elt F)),
    StableHlo.binary main_v3050 main_v2406 main_v3272 (subf : (⟨S16384, .f32⟩ : BufTy).Contents (Elt F) → (⟨S16384, .f32⟩ : BufTy).Contents (Elt F) → (⟨S16384, .f32⟩ : BufTy).Contents (Elt F)),
    StableHlo.unary main_v2921 main_v3273 (Host.cos : (⟨S16384, .f32⟩ : BufTy).Contents (Elt F) → (⟨S16384, .f32⟩ : BufTy).Contents (Elt F)),
    StableHlo.binary main_v2656 main_v3218 main_v3274 (subf : (⟨S16384, .f32⟩ : BufTy).Contents (Elt F) → (⟨S16384, .f32⟩ : BufTy).Contents (Elt F) → (⟨S16384, .f32⟩ : BufTy).Contents (Elt F)),
    StableHlo.unary main_v3004 main_v3275 (Host.cos : (⟨S16384, .f32⟩ : BufTy).Contents (Elt F) → (⟨S16384, .f32⟩ : BufTy).Contents (Elt F)),
    StableHlo.unary main_v3194 main_v3276 (Host.cos : (⟨S16384, .f32⟩ : BufTy).Contents (Elt F) → (⟨S16384, .f32⟩ : BufTy).Contents (Elt F)),
    StableHlo.unary main_v3182 main_v3277 (Host.cos : (⟨S16384, .f32⟩ : BufTy).Contents (Elt F) → (⟨S16384, .f32⟩ : BufTy).Contents (Elt F)),
    StableHlo.binary main_v3182 main_v3252 main_v3278 (subf : (⟨S16384, .f32⟩ : BufTy).Contents (Elt F) → (⟨S16384, .f32⟩ : BufTy).Contents (Elt F) → (⟨S16384, .f32⟩ : BufTy).Contents (Elt F)),
    StableHlo.unary main_v3263 main_v3279 (Host.sin : (⟨S16384, .f32⟩ : BufTy).Contents (Elt F) → (⟨S16384, .f32⟩ : BufTy).Contents (Elt F)),
    StableHlo.binary main_v2989 main_v3265 main_v3280 (addf : (⟨S16384, .f32⟩ : BufTy).Contents (Elt F) → (⟨S16384, .f32⟩ : BufTy).Contents (Elt F) → (⟨S16384, .f32⟩ : BufTy).Contents (Elt F)),
    StableHlo.binary main_v2499 main_v3219 main_v3281 (mulf : (⟨S16384, .f32⟩ : BufTy).Contents (Elt F) → (⟨S16384, .f32⟩ : BufTy).Contents (Elt F) → (⟨S16384, .f32⟩ : BufTy).Contents (Elt F)),
    StableHlo.binary main_v3265 main_v3236 main_v3282 (addf : (⟨S16384, .f32⟩ : BufTy).Contents (Elt F) → (⟨S16384, .f32⟩ : BufTy).Contents (Elt F) → (⟨S16384, .f32⟩ : BufTy).Contents (Elt F)),
    StableHlo.unary main_v3143 main_v3283 (Host.negf : (⟨S16384, .f32⟩ : BufTy).Contents (Elt F) → (⟨S16384, .f32⟩ : BufTy).Contents (Elt F)) ]

theorem part54_eq (d : Dev nD) : main_part54 (F := F) d = seq ops54 := rfl
theorem ops54_sub : (ops54 (F := F)).Forall fun op => op.bufs ⊆ tcRefs τ sig := by line_sub
theorem ops54_fresh : ∀ op ∈ (ops54 (F := F)), op.fresh = ∅ := by line_fresh
theorem ops54_ordered : Cert.Ssa.Ordered 3241 (ops54 (F := F)) := by line_ordered

/-- Window 55 of @main: its operations, positions 3301 to 3360, in order. -/
abbrev ops55 : List (HloOp τ sig (Elt F)) :=
  [ StableHlo.unary main_v3262 main_v3284 (Host.sin : (⟨S16384, .f32⟩ : BufTy).Contents (Elt F) → (⟨S16384, .f32⟩ : BufTy).Contents (Elt F)),
    StableHlo.unary main_v3005 main_v3285 (Host.cos : (⟨S16384, .f32⟩ : BufTy).Contents (Elt F) → (⟨S16384, .f32⟩ : BufTy).Contents (Elt F)),
    StableHlo.binary main_v3049 main_v2642 main_v3286 (subf : (⟨S16384, .f32⟩ : BufTy).Contents (Elt F) → (⟨S16384, .f32⟩ : BufTy).Contents (Elt F) → (⟨S16384, .f32⟩ : BufTy).Contents (Elt F)),
    StableHlo.unary main_v3186 main_v3287 (Host.cos : (⟨S16384, .f32⟩ : BufTy).Contents (Elt F) → (⟨S16384, .f32⟩ : BufTy).Contents (Elt F)),
    StableHlo.binary main_v3046 main_v3169 main_v3288 (mulf : (⟨S16384, .f32⟩ : BufTy).Contents (Elt F) → (⟨S16384, .f32⟩ : BufTy).Contents (Elt F) → (⟨S16384, .f32⟩ : BufTy).Contents (Elt F)),
    StableHlo.unary main_v3240 main_v3289 (Host.sin : (⟨S16384, .f32⟩ : BufTy).Contents (Elt F) → (⟨S16384, .f32⟩ : BufTy).Contents (Elt F)),
    StableHlo.binary main_v2660 main_v2786 main_v3290 (addf : (⟨S16384, .f32⟩ : BufTy).Contents (Elt F) → (⟨S16384, .f32⟩ : BufTy).Contents (Elt F) → (⟨S16384, .f32⟩ : BufTy).Contents (Elt F)),
    StableHlo.unary main_v3025 main_v3291 (Host.cos : (⟨S16384, .f32⟩ : BufTy).Contents (Elt F) → (⟨S16384, .f32⟩ : BufTy).Contents (Elt F)),
    StableHlo.unary main_v3099 main_v3292 (Host.sin : (⟨S16384, .f32⟩ : BufTy).Contents (Elt F) → (⟨S16384, .f32⟩ : BufTy).Contents (Elt F)),
    StableHlo.binary main_v2942 main_v3268 main_v3293 (subf : (⟨S16384, .f32⟩ : BufTy).Contents (Elt F) → (⟨S16384, .f32⟩ : BufTy).Contents (Elt F) → (⟨S16384, .f32⟩ : BufTy).Contents (Elt F)),
    StableHlo.unary main_v2530 main_v3294 (Host.negf : (⟨S16384, .f32⟩ : BufTy).Contents (Elt F) → (⟨S16384, .f32⟩ : BufTy).Contents (Elt F)),
    StableHlo.unary main_v3056 main_v3295 (Host.sin : (⟨S16384, .f32⟩ : BufTy).Contents (Elt F) → (⟨S16384, .f32⟩ : BufTy).Contents (Elt F)),
    StableHlo.unary main_v2932 main_v3296 (Host.cos : (⟨S16384, .f32⟩ : BufTy).Contents (Elt F) → (⟨S16384, .f32⟩ : BufTy).Contents (Elt F)),
    StableHlo.unary main_v2341 main_v3297 (Host.cos : (⟨S16384, .f32⟩ : BufTy).Contents (Elt F) → (⟨S16384, .f32⟩ : BufTy).Contents (Elt F)),
    StableHlo.binary main_v3269 main_v3253 main_v3298 (subf : (⟨S16384, .f32⟩ : BufTy).Contents (Elt F) → (⟨S16384, .f32⟩ : BufTy).Contents (Elt F) → (⟨S16384, .f32⟩ : BufTy).Contents (Elt F)),
    StableHlo.binary main_v3067 main_v3011 main_v3299 (addf : (⟨S16384, .f32⟩ : BufTy).Contents (Elt F) → (⟨S16384, .f32⟩ : BufTy).Contents (Elt F) → (⟨S16384, .f32⟩ : BufTy).Contents (Elt F)),
    StableHlo.binary main_v3190 main_v3190 main_v3300 (mulf : (⟨S16384, .f32⟩ : BufTy).Contents (Elt F) → (⟨S16384, .f32⟩ : BufTy).Contents (Elt F) → (⟨S16384, .f32⟩ : BufTy).Contents (Elt F)),
    StableHlo.unary main_v3290 main_v3301 (Host.sin : (⟨S16384, .f32⟩ : BufTy).Contents (Elt F) → (⟨S16384, .f32⟩ : BufTy).Contents (Elt F)),
    StableHlo.binary main_v2953 main_v3203 main_v3302 (subf : (⟨S16384, .f32⟩ : BufTy).Contents (Elt F) → (⟨S16384, .f32⟩ : BufTy).Contents (Elt F) → (⟨S16384, .f32⟩ : BufTy).Contents (Elt F)),
    StableHlo.binary main_v2565 main_v3202 main_v3303 (addf : (⟨S16384, .f32⟩ : BufTy).Contents (Elt F) → (⟨S16384, .f32⟩ : BufTy).Contents (Elt F) → (⟨S16384, .f32⟩ : BufTy).Contents (Elt F)),
    StableHlo.unary main_v3193 main_v3304 (Host.cos : (⟨S16384, .f32⟩ : BufTy).Contents (Elt F) → (⟨S16384, .f32⟩ : BufTy).Contents (Elt F)),
    StableHlo.unary main_v3281 main_v3305 (Host.cos : (⟨S16384, .f32⟩ : BufTy).Contents (Elt F) → (⟨S16384, .f32⟩ : BufTy).Contents (Elt F)),
    StableHlo.unary main_v3083 main_v3306 (Host.negf : (⟨S16384, .f32⟩ : BufTy).Contents (Elt F) → (⟨S16384, .f32⟩ : BufTy).Contents (Elt F)),
    StableHlo.unary main_v2815 main_v3307 (Host.cos : (⟨S16384, .f32⟩ : BufTy).Contents (Elt F) → (⟨S16384, .f32⟩ : BufTy).Contents (Elt F)),
    StableHlo.unary main_v3279 main_v3308 (Host.cos : (⟨S16384, .f32⟩ : BufTy).Contents (Elt F) → (⟨S16384, .f32⟩ : BufTy).Contents (Elt F)),
    StableHlo.unary main_v3259 main_v3309 (Host.sin : (⟨S16384, .f32⟩ : BufTy).Contents (Elt F) → (⟨S16384, .f32⟩ : BufTy).Contents (Elt F)),
    StableHlo.unary main_v3291 main_v3310 (Host.cos : (⟨S16384, .f32⟩ : BufTy).Contents (Elt F) → (⟨S16384, .f32⟩ : BufTy).Contents (Elt F)),
    StableHlo.binary main_v3192 main_v3192 main_v3311 (mulf : (⟨S16384, .f32⟩ : BufTy).Contents (Elt F) → (⟨S16384, .f32⟩ : BufTy).Contents (Elt F) → (⟨S16384, .f32⟩ : BufTy).Contents (Elt F)),
    StableHlo.unary main_v2850 main_v3312 (Host.sin : (⟨S16384, .f32⟩ : BufTy).Contents (Elt F) → (⟨S16384, .f32⟩ : BufTy).Contents (Elt F)),
    StableHlo.unary main_v3098 main_v3313 (Host.negf : (⟨S16384, .f32⟩ : BufTy).Contents (Elt F) → (⟨S16384, .f32⟩ : BufTy).Contents (Elt F)),
    StableHlo.binary main_v3176 main_v3202 main_v3314 (subf : (⟨S16384, .f32⟩ : BufTy).Contents (Elt F) → (⟨S16384, .f32⟩ : BufTy).Contents (Elt F) → (⟨S16384, .f32⟩ : BufTy).Contents (Elt F)),
    StableHlo.unary main_v3269 main_v3315 (Host.cos : (⟨S16384, .f32⟩ : BufTy).Contents (Elt F) → (⟨S16384, .f32⟩ : BufTy).Contents (Elt F)),
    StableHlo.unary main_v3117 main_v3316 (Host.sin : (⟨S16384, .f32⟩ : BufTy).Contents (Elt F) → (⟨S16384, .f32⟩ : BufTy).Contents (Elt F)),
    StableHlo.unary main_v3239 main_v3317 (Host.cos : (⟨S16384, .f32⟩ : BufTy).Contents (Elt F) → (⟨S16384, .f32⟩ : BufTy).Contents (Elt F)),
    StableHlo.binary main_v2942 main_v3313 main_v3318 (mulf : (⟨S16384, .f32⟩ : BufTy).Contents (Elt F) → (⟨S16384, .f32⟩ : BufTy).Contents (Elt F) → (⟨S16384, .f32⟩ : BufTy).Contents (Elt F)),
    StableHlo.binary main_v3170 main_v3277 main_v3319 (subf : (⟨S16384, .f32⟩ : BufTy).Contents (Elt F) → (⟨S16384, .f32⟩ : BufTy).Contents (Elt F) → (⟨S16384, .f32⟩ : BufTy).Contents (Elt F)),
    StableHlo.binary main_v2944 main_v3036 main_v3320 (mulf : (⟨S16384, .f32⟩ : BufTy).Contents (Elt F) → (⟨S16384, .f32⟩ : BufTy).Contents (Elt F) → (⟨S16384, .f32⟩ : BufTy).Contents (Elt F)),
    StableHlo.binary main_v3037 main_v2729 main_v3321 (subf : (⟨S16384, .f32⟩ : BufTy).Contents (Elt F) → (⟨S16384, .f32⟩ : BufTy).Contents (Elt F) → (⟨S16384, .f32⟩ : BufTy).Contents (Elt F)),
    StableHlo.binary main_v3049 main_v3257 main_v3322 (addf : (⟨S16384, .f32⟩ : BufTy).Contents (Elt F) → (⟨S16384, .f32⟩ : BufTy).Contents (Elt F) → (⟨S16384, .f32⟩ : BufTy).Contents (Elt F)),
    StableHlo.unary main_v2750 main_v3323 (Host.cos : (⟨S16384, .f32⟩ : BufTy).Contents (Elt F) → (⟨S16384, .f32⟩ : BufTy).Contents (Elt F)),
    StableHlo.binary main_v3210 main_v3169 main_v3324 (mulf : (⟨S16384, .f32⟩ : BufTy).Contents (Elt F) → (⟨S16384, .f32⟩ : BufTy).Contents (Elt F) → (⟨S16384, .f32⟩ : BufTy).Contents (Elt F)),
    StableHlo.binary main_v2499 main_v3322 main_v3325 (mulf : (⟨S16384, .f32⟩ : BufTy).Contents (Elt F) → (⟨S16384, .f32⟩ : BufTy).Contents (Elt F) → (⟨S16384, .f32⟩ : BufTy).Contents (Elt F)),
    StableHlo.binary main_v2341 main_v3287 main_v3326 (mulf : (⟨S16384, .f32⟩ : BufTy).Contents (Elt F) → (⟨S16384, .f32⟩ : BufTy).Contents (Elt F) → (⟨S16384, .f32⟩ : BufTy).Contents (Elt F)),
    StableHlo.binary main_v2530 main_v3205 main_v3327 (subf : (⟨S16384, .f32⟩ : BufTy).Contents (Elt F) → (⟨S16384, .f32⟩ : BufTy).Contents (Elt F) → (⟨S16384, .f32⟩ : BufTy).Contents (Elt F)),
    StableHlo.binary main_v3241 main_v3299 main_v3328 (subf : (⟨S16384, .f32⟩ : BufTy).Contents (Elt F) → (⟨S16384, .f32⟩ : BufTy).Contents (Elt F) → (⟨S16384, .f32⟩ : BufTy).Contents (Elt F)),
    StableHlo.unary main_v3205 main_v3329 (Host.sin : (⟨S16384, .f32⟩ : BufTy).Contents (Elt F) → (⟨S16384, .f32⟩ : BufTy).Contents (Elt F)),
    StableHlo.unary main_v3068 main_v3330 (Host.sin : (⟨S16384, .f32⟩ : BufTy).Contents (Elt F) → (⟨S16384, .f32⟩ : BufTy).Contents (Elt F)),
    StableHlo.unary main_v2530 main_v3331 (Host.cos : (⟨S16384, .f32⟩ : BufTy).Contents (Elt F) → (⟨S16384, .f32⟩ : BufTy).Contents (Elt F)),
    StableHlo.binary main_v3285 main_v3285 main_v3332 (mulf : (⟨S16384, .f32⟩ : BufTy).Contents (Elt F) → (⟨S16384, .f32⟩ : BufTy).Contents (Elt F) → (⟨S16384, .f32⟩ : BufTy).Contents (Elt F)),
    StableHlo.unary main_v3320 main_v3333 (Host.cos : (⟨S16384, .f32⟩ : BufTy).Contents (Elt F) → (⟨S16384, .f32⟩ : BufTy).Contents (Elt F)),
    StableHlo.binary main_v3014 main_v3227 main_v3334 (addf : (⟨S16384, .f32⟩ : BufTy).Contents (Elt F) → (⟨S16384, .f32⟩ : BufTy).Contents (Elt F) → (⟨S16384, .f32⟩ : BufTy).Contents (Elt F)),
    StableHlo.binary main_v1535 main_v3083 main_v3335 (subf : (⟨S16384, .f32⟩ : BufTy).Contents (Elt F) → (⟨S16384, .f32⟩ : BufTy).Contents (Elt F) → (⟨S16384, .f32⟩ : BufTy).Contents (Elt F)),
    StableHlo.unary main_v3042 main_v3336 (Host.negf : (⟨S16384, .f32⟩ : BufTy).Contents (Elt F) → (⟨S16384, .f32⟩ : BufTy).Contents (Elt F)),
    StableHlo.binary main_v3224 main_v3096 main_v3337 (subf : (⟨S16384, .f32⟩ : BufTy).Contents (Elt F) → (⟨S16384, .f32⟩ : BufTy).Contents (Elt F) → (⟨S16384, .f32⟩ : BufTy).Contents (Elt F)),
    StableHlo.binary main_v3227 main_v3233 main_v3338 (addf : (⟨S16384, .f32⟩ : BufTy).Contents (Elt F) → (⟨S16384, .f32⟩ : BufTy).Contents (Elt F) → (⟨S16384, .f32⟩ : BufTy).Contents (Elt F)),
    StableHlo.unary main_v3314 main_v3339 (Host.cos : (⟨S16384, .f32⟩ : BufTy).Contents (Elt F) → (⟨S16384, .f32⟩ : BufTy).Contents (Elt F)),
    StableHlo.unary main_v3120 main_v3340 (Host.cos : (⟨S16384, .f32⟩ : BufTy).Contents (Elt F) → (⟨S16384, .f32⟩ : BufTy).Contents (Elt F)),
    StableHlo.unary main_v2979 main_v3341 (Host.sin : (⟨S16384, .f32⟩ : BufTy).Contents (Elt F) → (⟨S16384, .f32⟩ : BufTy).Contents (Elt F)),
    StableHlo.unary main_v2963 main_v3342 (Host.sin : (⟨S16384, .f32⟩ : BufTy).Contents (Elt F) → (⟨S16384, .f32⟩ : BufTy).Contents (Elt F)),
    StableHlo.binary main_v3299 main_v3071 main_v3343 (subf : (⟨S16384, .f32⟩ : BufTy).Contents (Elt F) → (⟨S16384, .f32⟩ : BufTy).Contents (Elt F) → (⟨S16384, .f32⟩ : BufTy).Contents (Elt F)) ]

theorem part55_eq (d : Dev nD) : main_part55 (F := F) d = seq ops55 := rfl
theorem ops55_sub : (ops55 (F := F)).Forall fun op => op.bufs ⊆ tcRefs τ sig := by line_sub
theorem ops55_fresh : ∀ op ∈ (ops55 (F := F)), op.fresh = ∅ := by line_fresh
theorem ops55_ordered : Cert.Ssa.Ordered 3301 (ops55 (F := F)) := by line_ordered

/-- Window 56 of @main: its operations, positions 3361 to 3420, in order. -/
abbrev ops56 : List (HloOp τ sig (Elt F)) :=
  [ StableHlo.unary main_v2564 main_v3344 (Host.sin : (⟨S16384, .f32⟩ : BufTy).Contents (Elt F) → (⟨S16384, .f32⟩ : BufTy).Contents (Elt F)),
    StableHlo.binary main_v3183 main_v3183 main_v3345 (mulf : (⟨S16384, .f32⟩ : BufTy).Contents (Elt F) → (⟨S16384, .f32⟩ : BufTy).Contents (Elt F) → (⟨S16384, .f32⟩ : BufTy).Contents (Elt F)),
    StableHlo.unary main_v3186 main_v3346 (Host.cos : (⟨S16384, .f32⟩ : BufTy).Contents (Elt F) → (⟨S16384, .f32⟩ : BufTy).Contents (Elt F)),
    StableHlo.unary main_v2786 main_v3347 (Host.sin : (⟨S16384, .f32⟩ : BufTy).Contents (Elt F) → (⟨S16384, .f32⟩ : BufTy).Contents (Elt F)),
    StableHlo.unary main_v2859 main_v3348 (Host.cos : (⟨S16384, .f32⟩ : BufTy).Contents (Elt F) → (⟨S16384, .f32⟩ : BufTy).Contents (Elt F)),
    StableHlo.binary main_v2944 main_v3128 main_v3349 (mulf : (⟨S16384, .f32⟩ : BufTy).Contents (Elt F) → (⟨S16384, .f32⟩ : BufTy).Contents (Elt F) → (⟨S16384, .f32⟩ : BufTy).Contents (Elt F)),
    StableHlo.unary main_v3014 main_v3350 (Host.sin : (⟨S16384, .f32⟩ : BufTy).Contents (Elt F) → (⟨S16384, .f32⟩ : BufTy).Contents (Elt F)),
    StableHlo.binary main_v2898 main_v2942 main_v3351 (subf : (⟨S16384, .f32⟩ : BufTy).Contents (Elt F) → (⟨S16384, .f32⟩ : BufTy).Contents (Elt F) → (⟨S16384, .f32⟩ : BufTy).Contents (Elt F)),
    StableHlo.binary main_v1535 main_v3300 main_v3352 (mulf : (⟨S16384, .f32⟩ : BufTy).Contents (Elt F) → (⟨S16384, .f32⟩ : BufTy).Contents (Elt F) → (⟨S16384, .f32⟩ : BufTy).Contents (Elt F)),
    StableHlo.unary main_v1535 main_v3353 (Host.sin : (⟨S16384, .f32⟩ : BufTy).Contents (Elt F) → (⟨S16384, .f32⟩ : BufTy).Contents (Elt F)),
    StableHlo.unary main_v3316 main_v3354 (Host.sin : (⟨S16384, .f32⟩ : BufTy).Contents (Elt F) → (⟨S16384, .f32⟩ : BufTy).Contents (Elt F)),
    StableHlo.unary main_v3232 main_v3355 (Host.sin : (⟨S16384, .f32⟩ : BufTy).Contents (Elt F) → (⟨S16384, .f32⟩ : BufTy).Contents (Elt F)),
    StableHlo.binary main_v3128 main_v3342 main_v3356 (addf : (⟨S16384, .f32⟩ : BufTy).Contents (Elt F) → (⟨S16384, .f32⟩ : BufTy).Contents (Elt F) → (⟨S16384, .f32⟩ : BufTy).Contents (Elt F)),
    StableHlo.unary main_v3116 main_v3357 (Host.sin : (⟨S16384, .f32⟩ : BufTy).Contents (Elt F) → (⟨S16384, .f32⟩ : BufTy).Contents (Elt F)),
    StableHlo.binary main_v3337 main_v3174 main_v3358 (subf : (⟨S16384, .f32⟩ : BufTy).Contents (Elt F) → (⟨S16384, .f32⟩ : BufTy).Contents (Elt F) → (⟨S16384, .f32⟩ : BufTy).Contents (Elt F)),
    StableHlo.unary main_v3324 main_v3359 (Host.cos : (⟨S16384, .f32⟩ : BufTy).Contents (Elt F) → (⟨S16384, .f32⟩ : BufTy).Contents (Elt F)),
    StableHlo.unary main_v2499 main_v3360 (Host.cos : (⟨S16384, .f32⟩ : BufTy).Contents (Elt F) → (⟨S16384, .f32⟩ : BufTy).Contents (Elt F)),
    StableHlo.unary main_v3165 main_v3361 (Host.sin : (⟨S16384, .f32⟩ : BufTy).Contents (Elt F) → (⟨S16384, .f32⟩ : BufTy).Contents (Elt F)),
    StableHlo.binary main_v3230 main_v3011 main_v3362 (subf : (⟨S16384, .f32⟩ : BufTy).Contents (Elt F) → (⟨S16384, .f32⟩ : BufTy).Contents (Elt F) → (⟨S16384, .f32⟩ : BufTy).Contents (Elt F)),
    StableHlo.unary main_v3098 main_v3363 (Host.sin : (⟨S16384, .f32⟩ : BufTy).Contents (Elt F) → (⟨S16384, .f32⟩ : BufTy).Contents (Elt F)),
    StableHlo.unary main_v2997 main_v3364 (Host.sin : (⟨S16384, .f32⟩ : BufTy).Contents (Elt F) → (⟨S16384, .f32⟩ : BufTy).Contents (Elt F)),
    StableHlo.unary main_v2530 main_v3365 (Host.sin : (⟨S16384, .f32⟩ : BufTy).Contents (Elt F) → (⟨S16384, .f32⟩ : BufTy).Contents (Elt F)),
    StableHlo.unary main_v2729 main_v3366 (Host.cos : (⟨S16384, .f32⟩ : BufTy).Contents (Elt F) → (⟨S16384, .f32⟩ : BufTy).Contents (Elt F)),
    StableHlo.unary main_v3242 main_v3367 (Host.sin : (⟨S16384, .f32⟩ : BufTy).Contents (Elt F) → (⟨S16384, .f32⟩ : BufTy).Contents (Elt F)),
    StableHlo.binary main_v2406 main_v3206 main_v3368 (subf : (⟨S16384, .f32⟩ : BufTy).Contents (Elt F) → (⟨S16384, .f32⟩ : BufTy).Contents (Elt F) → (⟨S16384, .f32⟩ : BufTy).Contents (Elt F)),
    StableHlo.binary main_v3160 main_v3005 main_v3369 (subf : (⟨S16384, .f32⟩ : BufTy).Contents (Elt F) → (⟨S16384, .f32⟩ : BufTy).Contents (Elt F) → (⟨S16384, .f32⟩ : BufTy).Contents (Elt F)),
    StableHlo.binary main_v3128 main_v3128 main_v3370 (mulf : (⟨S16384, .f32⟩ : BufTy).Contents (Elt F) → (⟨S16384, .f32⟩ : BufTy).Contents (Elt F) → (⟨S16384, .f32⟩ : BufTy).Contents (Elt F)),
    StableHlo.unary main_v3170 main_v3371 (Host.sin : (⟨S16384, .f32⟩ : BufTy).Contents (Elt F) → (⟨S16384, .f32⟩ : BufTy).Contents (Elt F)),
    StableHlo.binary main_v3235 main_v3085 main_v3372 (addf : (⟨S16384, .f32⟩ : BufTy).Contents (Elt F) → (⟨S16384, .f32⟩ : BufTy).Contents (Elt F) → (⟨S16384, .f32⟩ : BufTy).Contents (Elt F)),
    StableHlo.unary main_v3233 main_v3373 (Host.cos : (⟨S16384, .f32⟩ : BufTy).Contents (Elt F) → (⟨S16384, .f32⟩ : BufTy).Contents (Elt F)),
    StableHlo.unary main_v3317 main_v3374 (Host.cos : (⟨S16384, .f32⟩ : BufTy).Contents (Elt F) → (⟨S16384, .f32⟩ : BufTy).Contents (Elt F)),
    StableHlo.unary main_v3370 main_v3375 (Host.cos : (⟨S16384, .f32⟩ : BufTy).Contents (Elt F) → (⟨S16384, .f32⟩ : BufTy).Contents (Elt F)),
    StableHlo.unary main_v3225 main_v3376 (Host.sin : (⟨S16384, .f32⟩ : BufTy).Contents (Elt F) → (⟨S16384, .f32⟩ : BufTy).Contents (Elt F)),
    StableHlo.unary main_v3123 main_v3377 (Host.sin : (⟨S16384, .f32⟩ : BufTy).Contents (Elt F) → (⟨S16384, .f32⟩ : BufTy).Contents (Elt F)),
    StableHlo.unary main_v3187 main_v3378 (Host.cos : (⟨S16384, .f32⟩ : BufTy).Contents (Elt F) → (⟨S16384, .f32⟩ : BufTy).Contents (Elt F)),
    StableHlo.unary main_v2993 main_v3379 (Host.sin : (⟨S16384, .f32⟩ : BufTy).Contents (Elt F) → (⟨S16384, .f32⟩ : BufTy).Contents (Elt F)),
    StableHlo.unary main_v3283 main_v3380 (Host.cos : (⟨S16384, .f32⟩ : BufTy).Contents (Elt F) → (⟨S16384, .f32⟩ : BufTy).Contents (Elt F)),
    StableHlo.unary main_v3346 main_v3381 (Host.negf : (⟨S16384, .f32⟩ : BufTy).Contents (Elt F) → (⟨S16384, .f32⟩ : BufTy).Contents (Elt F)),
    StableHlo.binary main_v3068 main_v3259 main_v3382 (subf : (⟨S16384, .f32⟩ : BufTy).Contents (Elt F) → (⟨S16384, .f32⟩ : BufTy).Contents (Elt F) → (⟨S16384, .f32⟩ : BufTy).Contents (Elt F)),
    StableHlo.binary main_v2691 main_v2433 main_v3383 (addf : (⟨S16384, .f32⟩ : BufTy).Contents (Elt F) → (⟨S16384, .f32⟩ : BufTy).Contents (Elt F) → (⟨S16384, .f32⟩ : BufTy).Contents (Elt F)),
    StableHlo.binary main_v3316 main_v2476 main_v3384 (mulf : (⟨S16384, .f32⟩ : BufTy).Contents (Elt F) → (⟨S16384, .f32⟩ : BufTy).Contents (Elt F) → (⟨S16384, .f32⟩ : BufTy).Contents (Elt F)),
    StableHlo.unary main_v3233 main_v3385 (Host.cos : (⟨S16384, .f32⟩ : BufTy).Contents (Elt F) → (⟨S16384, .f32⟩ : BufTy).Contents (Elt F)),
    StableHlo.binary main_v3382 main_v3230 main_v3386 (mulf : (⟨S16384, .f32⟩ : BufTy).Contents (Elt F) → (⟨S16384, .f32⟩ : BufTy).Contents (Elt F) → (⟨S16384, .f32⟩ : BufTy).Contents (Elt F)),
    StableHlo.unary main_v3302 main_v3387 (Host.cos : (⟨S16384, .f32⟩ : BufTy).Contents (Elt F) → (⟨S16384, .f32⟩ : BufTy).Contents (Elt F)),
    StableHlo.unary main_v3360 main_v3388 (Host.cos : (⟨S16384, .f32⟩ : BufTy).Contents (Elt F) → (⟨S16384, .f32⟩ : BufTy).Contents (Elt F)),
    StableHlo.unary main_v3064 main_v3389 (Host.cos : (⟨S16384, .f32⟩ : BufTy).Contents (Elt F) → (⟨S16384, .f32⟩ : BufTy).Contents (Elt F)),
    StableHlo.binary main_v3269 main_v3041 main_v3390 (addf : (⟨S16384, .f32⟩ : BufTy).Contents (Elt F) → (⟨S16384, .f32⟩ : BufTy).Contents (Elt F) → (⟨S16384, .f32⟩ : BufTy).Contents (Elt F)),
    StableHlo.unary main_v3370 main_v3391 (Host.sin : (⟨S16384, .f32⟩ : BufTy).Contents (Elt F) → (⟨S16384, .f32⟩ : BufTy).Contents (Elt F)),
    StableHlo.binary main_v3112 main_v3291 main_v3392 (subf : (⟨S16384, .f32⟩ : BufTy).Contents (Elt F) → (⟨S16384, .f32⟩ : BufTy).Contents (Elt F) → (⟨S16384, .f32⟩ : BufTy).Contents (Elt F)),
    StableHlo.binary main_v3369 main_v3344 main_v3393 (subf : (⟨S16384, .f32⟩ : BufTy).Contents (Elt F) → (⟨S16384, .f32⟩ : BufTy).Contents (Elt F) → (⟨S16384, .f32⟩ : BufTy).Contents (Elt F)),
    StableHlo.unary main_v2917 main_v3394 (Host.cos : (⟨S16384, .f32⟩ : BufTy).Contents (Elt F) → (⟨S16384, .f32⟩ : BufTy).Contents (Elt F)),
    StableHlo.binary main_v3370 main_v3173 main_v3395 (subf : (⟨S16384, .f32⟩ : BufTy).Contents (Elt F) → (⟨S16384, .f32⟩ : BufTy).Contents (Elt F) → (⟨S16384, .f32⟩ : BufTy).Contents (Elt F)),
    StableHlo.binary main_v3374 main_v3304 main_v3396 (mulf : (⟨S16384, .f32⟩ : BufTy).Contents (Elt F) → (⟨S16384, .f32⟩ : BufTy).Contents (Elt F) → (⟨S16384, .f32⟩ : BufTy).Contents (Elt F)),
    StableHlo.binary main_v3120 main_v2729 main_v3397 (mulf : (⟨S16384, .f32⟩ : BufTy).Contents (Elt F) → (⟨S16384, .f32⟩ : BufTy).Contents (Elt F) → (⟨S16384, .f32⟩ : BufTy).Contents (Elt F)),
    StableHlo.binary main_v3384 main_v3384 main_v3398 (mulf : (⟨S16384, .f32⟩ : BufTy).Contents (Elt F) → (⟨S16384, .f32⟩ : BufTy).Contents (Elt F) → (⟨S16384, .f32⟩ : BufTy).Contents (Elt F)),
    StableHlo.unary main_v2942 main_v3399 (Host.cos : (⟨S16384, .f32⟩ : BufTy).Contents (Elt F) → (⟨S16384, .f32⟩ : BufTy).Contents (Elt F)),
    StableHlo.unary main_v3355 main_v3400 (Host.cos : (⟨S16384, .f32⟩ : BufTy).Contents (Elt F) → (⟨S16384, .f32⟩ : BufTy).Contents (Elt F)),
    StableHlo.unary main_v3036 main_v3401 (Host.sin : (⟨S16384, .f32⟩ : BufTy).Contents (Elt F) → (⟨S16384, .f32⟩ : BufTy).Contents (Elt F)),
    StableHlo.unary main_v3310 main_v3402 (Host.cos : (⟨S16384, .f32⟩ : BufTy).Contents (Elt F) → (⟨S16384, .f32⟩ : BufTy).Contents (Elt F)),
    StableHlo.unary main_v3360 main_v3403 (Host.cos : (⟨S16384, .f32⟩ : BufTy).Contents (Elt F) → (⟨S16384, .f32⟩ : BufTy).Contents (Elt F)) ]

theorem part56_eq (d : Dev nD) : main_part56 (F := F) d = seq ops56 := rfl
theorem ops56_sub : (ops56 (F := F)).Forall fun op => op.bufs ⊆ tcRefs τ sig := by line_sub
theorem ops56_fresh : ∀ op ∈ (ops56 (F := F)), op.fresh = ∅ := by line_fresh
theorem ops56_ordered : Cert.Ssa.Ordered 3361 (ops56 (F := F)) := by line_ordered

/-- Window 57 of @main: its operations, positions 3421 to 3480, in order. -/
abbrev ops57 : List (HloOp τ sig (Elt F)) :=
  [ StableHlo.unary main_v3096 main_v3404 (Host.cos : (⟨S16384, .f32⟩ : BufTy).Contents (Elt F) → (⟨S16384, .f32⟩ : BufTy).Contents (Elt F)),
    StableHlo.binary main_v3122 main_v3327 main_v3405 (mulf : (⟨S16384, .f32⟩ : BufTy).Contents (Elt F) → (⟨S16384, .f32⟩ : BufTy).Contents (Elt F) → (⟨S16384, .f32⟩ : BufTy).Contents (Elt F)),
    StableHlo.unary main_v2877 main_v3406 (Host.sin : (⟨S16384, .f32⟩ : BufTy).Contents (Elt F) → (⟨S16384, .f32⟩ : BufTy).Contents (Elt F)),
    StableHlo.unary main_v2917 main_v3407 (Host.sin : (⟨S16384, .f32⟩ : BufTy).Contents (Elt F) → (⟨S16384, .f32⟩ : BufTy).Contents (Elt F)),
    StableHlo.unary main_v3064 main_v3408 (Host.cos : (⟨S16384, .f32⟩ : BufTy).Contents (Elt F) → (⟨S16384, .f32⟩ : BufTy).Contents (Elt F)),
    StableHlo.unary main_v2993 main_v3409 (Host.cos : (⟨S16384, .f32⟩ : BufTy).Contents (Elt F) → (⟨S16384, .f32⟩ : BufTy).Contents (Elt F)),
    StableHlo.binary main_v3361 main_v3372 main_v3410 (addf : (⟨S16384, .f32⟩ : BufTy).Contents (Elt F) → (⟨S16384, .f32⟩ : BufTy).Contents (Elt F) → (⟨S16384, .f32⟩ : BufTy).Contents (Elt F)),
    StableHlo.unary main_v2976 main_v3411 (Host.cos : (⟨S16384, .f32⟩ : BufTy).Contents (Elt F) → (⟨S16384, .f32⟩ : BufTy).Contents (Elt F)),
    StableHlo.unary main_v3351 main_v3412 (Host.cos : (⟨S16384, .f32⟩ : BufTy).Contents (Elt F) → (⟨S16384, .f32⟩ : BufTy).Contents (Elt F)),
    StableHlo.binary main_v3408 main_v2953 main_v3413 (mulf : (⟨S16384, .f32⟩ : BufTy).Contents (Elt F) → (⟨S16384, .f32⟩ : BufTy).Contents (Elt F) → (⟨S16384, .f32⟩ : BufTy).Contents (Elt F)),
    StableHlo.binary main_v2401 main_v3171 main_v3414 (subf : (⟨S16384, .f32⟩ : BufTy).Contents (Elt F) → (⟨S16384, .f32⟩ : BufTy).Contents (Elt F) → (⟨S16384, .f32⟩ : BufTy).Contents (Elt F)),
    StableHlo.binary main_v2851 main_v3358 main_v3415 (subf : (⟨S16384, .f32⟩ : BufTy).Contents (Elt F) → (⟨S16384, .f32⟩ : BufTy).Contents (Elt F) → (⟨S16384, .f32⟩ : BufTy).Contents (Elt F)),
    StableHlo.unary main_v3309 main_v3416 (Host.sin : (⟨S16384, .f32⟩ : BufTy).Contents (Elt F) → (⟨S16384, .f32⟩ : BufTy).Contents (Elt F)),
    StableHlo.unary main_v2942 main_v3417 (Host.cos : (⟨S16384, .f32⟩ : BufTy).Contents (Elt F) → (⟨S16384, .f32⟩ : BufTy).Contents (Elt F)),
    StableHlo.unary main_v2978 main_v3418 (Host.cos : (⟨S16384, .f32⟩ : BufTy).Contents (Elt F) → (⟨S16384, .f32⟩ : BufTy).Contents (Elt F)),
    StableHlo.binary main_v2978 main_v3200 main_v3419 (addf : (⟨S16384, .f32⟩ : BufTy).Contents (Elt F) → (⟨S16384, .f32⟩ : BufTy).Contents (Elt F) → (⟨S16384, .f32⟩ : BufTy).Contents (Elt F)),
    StableHlo.binary main_v3132 main_v3302 main_v3420 (addf : (⟨S16384, .f32⟩ : BufTy).Contents (Elt F) → (⟨S16384, .f32⟩ : BufTy).Contents (Elt F) → (⟨S16384, .f32⟩ : BufTy).Contents (Elt F)),
    StableHlo.unary main_v3377 main_v3421 (Host.sin : (⟨S16384, .f32⟩ : BufTy).Contents (Elt F) → (⟨S16384, .f32⟩ : BufTy).Contents (Elt F)),
    StableHlo.binary main_v3187 main_v3359 main_v3422 (subf : (⟨S16384, .f32⟩ : BufTy).Contents (Elt F) → (⟨S16384, .f32⟩ : BufTy).Contents (Elt F) → (⟨S16384, .f32⟩ : BufTy).Contents (Elt F)),
    StableHlo.unary main_v3386 main_v3423 (Host.sin : (⟨S16384, .f32⟩ : BufTy).Contents (Elt F) → (⟨S16384, .f32⟩ : BufTy).Contents (Elt F)),
    StableHlo.unary main_v3391 main_v3424 (Host.cos : (⟨S16384, .f32⟩ : BufTy).Contents (Elt F) → (⟨S16384, .f32⟩ : BufTy).Contents (Elt F)),
    StableHlo.binary main_v3303 main_v3248 main_v3425 (subf : (⟨S16384, .f32⟩ : BufTy).Contents (Elt F) → (⟨S16384, .f32⟩ : BufTy).Contents (Elt F) → (⟨S16384, .f32⟩ : BufTy).Contents (Elt F)),
    StableHlo.binary main_v3301 main_v3301 main_v3426 (mulf : (⟨S16384, .f32⟩ : BufTy).Contents (Elt F) → (⟨S16384, .f32⟩ : BufTy).Contents (Elt F) → (⟨S16384, .f32⟩ : BufTy).Contents (Elt F)),
    StableHlo.binary main_v3344 main_v2898 main_v3427 (subf : (⟨S16384, .f32⟩ : BufTy).Contents (Elt F) → (⟨S16384, .f32⟩ : BufTy).Contents (Elt F) → (⟨S16384, .f32⟩ : BufTy).Contents (Elt F)),
    StableHlo.unary main_v3068 main_v3428 (Host.cos : (⟨S16384, .f32⟩ : BufTy).Contents (Elt F) → (⟨S16384, .f32⟩ : BufTy).Contents (Elt F)),
    StableHlo.unary main_v2957 main_v3429 (Host.cos : (⟨S16384, .f32⟩ : BufTy).Contents (Elt F) → (⟨S16384, .f32⟩ : BufTy).Contents (Elt F)),
    StableHlo.binary main_v2605 main_v2850 main_v3430 (addf : (⟨S16384, .f32⟩ : BufTy).Contents (Elt F) → (⟨S16384, .f32⟩ : BufTy).Contents (Elt F) → (⟨S16384, .f32⟩ : BufTy).Contents (Elt F)),
    StableHlo.unary main_v3405 main_v3431 (Host.cos : (⟨S16384, .f32⟩ : BufTy).Contents (Elt F) → (⟨S16384, .f32⟩ : BufTy).Contents (Elt F)),
    StableHlo.binary main_v3183 main_v3187 main_v3432 (addf : (⟨S16384, .f32⟩ : BufTy).Contents (Elt F) → (⟨S16384, .f32⟩ : BufTy).Contents (Elt F) → (⟨S16384, .f32⟩ : BufTy).Contents (Elt F)),
    StableHlo.unary main_v3194 main_v3433 (Host.cos : (⟨S16384, .f32⟩ : BufTy).Contents (Elt F) → (⟨S16384, .f32⟩ : BufTy).Contents (Elt F)),
    StableHlo.unary main_v3190 main_v3434 (Host.cos : (⟨S16384, .f32⟩ : BufTy).Contents (Elt F) → (⟨S16384, .f32⟩ : BufTy).Contents (Elt F)),
    StableHlo.binary main_v3076 main_v3076 main_v3435 (mulf : (⟨S16384, .f32⟩ : BufTy).Contents (Elt F) → (⟨S16384, .f32⟩ : BufTy).Contents (Elt F) → (⟨S16384, .f32⟩ : BufTy).Contents (Elt F)),
    StableHlo.unary main_v3233 main_v3436 (Host.cos : (⟨S16384, .f32⟩ : BufTy).Contents (Elt F) → (⟨S16384, .f32⟩ : BufTy).Contents (Elt F)),
    StableHlo.binary main_v3338 main_v3384 main_v3437 (subf : (⟨S16384, .f32⟩ : BufTy).Contents (Elt F) → (⟨S16384, .f32⟩ : BufTy).Contents (Elt F) → (⟨S16384, .f32⟩ : BufTy).Contents (Elt F)),
    StableHlo.unary main_v2963 main_v3438 (Host.negf : (⟨S16384, .f32⟩ : BufTy).Contents (Elt F) → (⟨S16384, .f32⟩ : BufTy).Contents (Elt F)),
    StableHlo.unary main_v3300 main_v3439 (Host.negf : (⟨S16384, .f32⟩ : BufTy).Contents (Elt F) → (⟨S16384, .f32⟩ : BufTy).Contents (Elt F)),
    StableHlo.binary main_v2976 main_v2976 main_v3440 (mulf : (⟨S16384, .f32⟩ : BufTy).Contents (Elt F) → (⟨S16384, .f32⟩ : BufTy).Contents (Elt F) → (⟨S16384, .f32⟩ : BufTy).Contents (Elt F)),
    StableHlo.unary main_v2249 main_v3441 (Host.sin : (⟨S16384, .f32⟩ : BufTy).Contents (Elt F) → (⟨S16384, .f32⟩ : BufTy).Contents (Elt F)),
    StableHlo.unary main_v3375 main_v3442 (Host.sin : (⟨S16384, .f32⟩ : BufTy).Contents (Elt F) → (⟨S16384, .f32⟩ : BufTy).Contents (Elt F)),
    StableHlo.binary main_v3354 main_v3354 main_v3443 (mulf : (⟨S16384, .f32⟩ : BufTy).Contents (Elt F) → (⟨S16384, .f32⟩ : BufTy).Contents (Elt F) → (⟨S16384, .f32⟩ : BufTy).Contents (Elt F)),
    StableHlo.binary main_v3359 main_v3318 main_v3444 (mulf : (⟨S16384, .f32⟩ : BufTy).Contents (Elt F) → (⟨S16384, .f32⟩ : BufTy).Contents (Elt F) → (⟨S16384, .f32⟩ : BufTy).Contents (Elt F)),
    StableHlo.unary main_v3398 main_v3445 (Host.sin : (⟨S16384, .f32⟩ : BufTy).Contents (Elt F) → (⟨S16384, .f32⟩ : BufTy).Contents (Elt F)),
    StableHlo.unary main_v3355 main_v3446 (Host.sin : (⟨S16384, .f32⟩ : BufTy).Contents (Elt F) → (⟨S16384, .f32⟩ : BufTy).Contents (Elt F)),
    StableHlo.binary main_v3102 main_v2993 main_v3447 (subf : (⟨S16384, .f32⟩ : BufTy).Contents (Elt F) → (⟨S16384, .f32⟩ : BufTy).Contents (Elt F) → (⟨S16384, .f32⟩ : BufTy).Contents (Elt F)),
    StableHlo.unary main_v3200 main_v3448 (Host.cos : (⟨S16384, .f32⟩ : BufTy).Contents (Elt F) → (⟨S16384, .f32⟩ : BufTy).Contents (Elt F)),
    StableHlo.binary main_v2851 main_v3416 main_v3449 (mulf : (⟨S16384, .f32⟩ : BufTy).Contents (Elt F) → (⟨S16384, .f32⟩ : BufTy).Contents (Elt F) → (⟨S16384, .f32⟩ : BufTy).Contents (Elt F)),
    StableHlo.binary main_v2841 main_v2841 main_v3450 (mulf : (⟨S16384, .f32⟩ : BufTy).Contents (Elt F) → (⟨S16384, .f32⟩ : BufTy).Contents (Elt F) → (⟨S16384, .f32⟩ : BufTy).Contents (Elt F)),
    StableHlo.unary main_v3096 main_v3451 (Host.cos : (⟨S16384, .f32⟩ : BufTy).Contents (Elt F) → (⟨S16384, .f32⟩ : BufTy).Contents (Elt F)),
    StableHlo.unary main_v3372 main_v3452 (Host.sin : (⟨S16384, .f32⟩ : BufTy).Contents (Elt F) → (⟨S16384, .f32⟩ : BufTy).Contents (Elt F)),
    StableHlo.binary main_v3330 main_v3405 main_v3453 (addf : (⟨S16384, .f32⟩ : BufTy).Contents (Elt F) → (⟨S16384, .f32⟩ : BufTy).Contents (Elt F) → (⟨S16384, .f32⟩ : BufTy).Contents (Elt F)),
    StableHlo.binary main_v2594 main_v3427 main_v3454 (subf : (⟨S16384, .f32⟩ : BufTy).Contents (Elt F) → (⟨S16384, .f32⟩ : BufTy).Contents (Elt F) → (⟨S16384, .f32⟩ : BufTy).Contents (Elt F)),
    StableHlo.unary main_v2656 main_v3455 (Host.cos : (⟨S16384, .f32⟩ : BufTy).Contents (Elt F) → (⟨S16384, .f32⟩ : BufTy).Contents (Elt F)),
    StableHlo.binary main_v3342 main_v3099 main_v3456 (subf : (⟨S16384, .f32⟩ : BufTy).Contents (Elt F) → (⟨S16384, .f32⟩ : BufTy).Contents (Elt F) → (⟨S16384, .f32⟩ : BufTy).Contents (Elt F)),
    StableHlo.unary main_v3135 main_v3457 (Host.sin : (⟨S16384, .f32⟩ : BufTy).Contents (Elt F) → (⟨S16384, .f32⟩ : BufTy).Contents (Elt F)),
    StableHlo.binary main_v3371 main_v3428 main_v3458 (addf : (⟨S16384, .f32⟩ : BufTy).Contents (Elt F) → (⟨S16384, .f32⟩ : BufTy).Contents (Elt F) → (⟨S16384, .f32⟩ : BufTy).Contents (Elt F)),
    StableHlo.binary main_v3284 main_v3230 main_v3459 (subf : (⟨S16384, .f32⟩ : BufTy).Contents (Elt F) → (⟨S16384, .f32⟩ : BufTy).Contents (Elt F) → (⟨S16384, .f32⟩ : BufTy).Contents (Elt F)),
    StableHlo.unary main_v3300 main_v3460 (Host.negf : (⟨S16384, .f32⟩ : BufTy).Contents (Elt F) → (⟨S16384, .f32⟩ : BufTy).Contents (Elt F)),
    StableHlo.unary main_v3232 main_v3461 (Host.cos : (⟨S16384, .f32⟩ : BufTy).Contents (Elt F) → (⟨S16384, .f32⟩ : BufTy).Contents (Elt F)),
    StableHlo.unary main_v3306 main_v3462 (Host.sin : (⟨S16384, .f32⟩ : BufTy).Contents (Elt F) → (⟨S16384, .f32⟩ : BufTy).Contents (Elt F)),
    StableHlo.binary main_v3046 main_v2729 main_v3463 (mulf : (⟨S16384, .f32⟩ : BufTy).Contents (Elt F) → (⟨S16384, .f32⟩ : BufTy).Contents (Elt F) → (⟨S16384, .f32⟩ : BufTy).Contents (Elt F)) ]

theorem part57_eq (d : Dev nD) : main_part57 (F := F) d = seq ops57 := rfl
theorem ops57_sub : (ops57 (F := F)).Forall fun op => op.bufs ⊆ tcRefs τ sig := by line_sub
theorem ops57_fresh : ∀ op ∈ (ops57 (F := F)), op.fresh = ∅ := by line_fresh
theorem ops57_ordered : Cert.Ssa.Ordered 3421 (ops57 (F := F)) := by line_ordered

/-- Window 58 of @main: its operations, positions 3481 to 3540, in order. -/
abbrev ops58 : List (HloOp τ sig (Elt F)) :=
  [ StableHlo.binary main_v3064 main_v2249 main_v3464 (subf : (⟨S16384, .f32⟩ : BufTy).Contents (Elt F) → (⟨S16384, .f32⟩ : BufTy).Contents (Elt F) → (⟨S16384, .f32⟩ : BufTy).Contents (Elt F)),
    StableHlo.binary main_v3401 main_v2838 main_v3465 (addf : (⟨S16384, .f32⟩ : BufTy).Contents (Elt F) → (⟨S16384, .f32⟩ : BufTy).Contents (Elt F) → (⟨S16384, .f32⟩ : BufTy).Contents (Elt F)),
    StableHlo.unary main_v2796 main_v3466 (Host.cos : (⟨S16384, .f32⟩ : BufTy).Contents (Elt F) → (⟨S16384, .f32⟩ : BufTy).Contents (Elt F)),
    StableHlo.unary main_v3165 main_v3467 (Host.cos : (⟨S16384, .f32⟩ : BufTy).Contents (Elt F) → (⟨S16384, .f32⟩ : BufTy).Contents (Elt F)),
    StableHlo.unary main_v3188 main_v3468 (Host.cos : (⟨S16384, .f32⟩ : BufTy).Contents (Elt F) → (⟨S16384, .f32⟩ : BufTy).Contents (Elt F)),
    StableHlo.unary main_v3235 main_v3469 (Host.cos : (⟨S16384, .f32⟩ : BufTy).Contents (Elt F) → (⟨S16384, .f32⟩ : BufTy).Contents (Elt F)),
    StableHlo.binary main_v3141 main_v3141 main_v3470 (mulf : (⟨S16384, .f32⟩ : BufTy).Contents (Elt F) → (⟨S16384, .f32⟩ : BufTy).Contents (Elt F) → (⟨S16384, .f32⟩ : BufTy).Contents (Elt F)),
    StableHlo.unary main_v3065 main_v3471 (Host.sin : (⟨S16384, .f32⟩ : BufTy).Contents (Elt F) → (⟨S16384, .f32⟩ : BufTy).Contents (Elt F)),
    StableHlo.unary main_v3436 main_v3472 (Host.cos : (⟨S16384, .f32⟩ : BufTy).Contents (Elt F) → (⟨S16384, .f32⟩ : BufTy).Contents (Elt F)),
    StableHlo.binary main_v3348 main_v2656 main_v3473 (addf : (⟨S16384, .f32⟩ : BufTy).Contents (Elt F) → (⟨S16384, .f32⟩ : BufTy).Contents (Elt F) → (⟨S16384, .f32⟩ : BufTy).Contents (Elt F)),
    StableHlo.binary main_v3276 main_v2978 main_v3474 (addf : (⟨S16384, .f32⟩ : BufTy).Contents (Elt F) → (⟨S16384, .f32⟩ : BufTy).Contents (Elt F) → (⟨S16384, .f32⟩ : BufTy).Contents (Elt F)),
    StableHlo.unary main_v3365 main_v3475 (Host.negf : (⟨S16384, .f32⟩ : BufTy).Contents (Elt F) → (⟨S16384, .f32⟩ : BufTy).Contents (Elt F)),
    StableHlo.unary main_v3056 main_v3476 (Host.sin : (⟨S16384, .f32⟩ : BufTy).Contents (Elt F) → (⟨S16384, .f32⟩ : BufTy).Contents (Elt F)),
    StableHlo.unary main_v2594 main_v3477 (Host.sin : (⟨S16384, .f32⟩ : BufTy).Contents (Elt F) → (⟨S16384, .f32⟩ : BufTy).Contents (Elt F)),
    StableHlo.unary main_v3102 main_v3478 (Host.cos : (⟨S16384, .f32⟩ : BufTy).Contents (Elt F) → (⟨S16384, .f32⟩ : BufTy).Contents (Elt F)),
    StableHlo.unary main_v3365 main_v3479 (Host.cos : (⟨S16384, .f32⟩ : BufTy).Contents (Elt F) → (⟨S16384, .f32⟩ : BufTy).Contents (Elt F)),
    StableHlo.unary main_v3466 main_v3480 (Host.cos : (⟨S16384, .f32⟩ : BufTy).Contents (Elt F) → (⟨S16384, .f32⟩ : BufTy).Contents (Elt F)),
    StableHlo.binary main_v3265 main_v3422 main_v3481 (addf : (⟨S16384, .f32⟩ : BufTy).Contents (Elt F) → (⟨S16384, .f32⟩ : BufTy).Contents (Elt F) → (⟨S16384, .f32⟩ : BufTy).Contents (Elt F)),
    StableHlo.unary main_v3265 main_v3482 (Host.sin : (⟨S16384, .f32⟩ : BufTy).Contents (Elt F) → (⟨S16384, .f32⟩ : BufTy).Contents (Elt F)),
    StableHlo.unary main_v3421 main_v3483 (Host.sin : (⟨S16384, .f32⟩ : BufTy).Contents (Elt F) → (⟨S16384, .f32⟩ : BufTy).Contents (Elt F)),
    StableHlo.unary main_v3202 main_v3484 (Host.sin : (⟨S16384, .f32⟩ : BufTy).Contents (Elt F) → (⟨S16384, .f32⟩ : BufTy).Contents (Elt F)),
    StableHlo.unary main_v3372 main_v3485 (Host.cos : (⟨S16384, .f32⟩ : BufTy).Contents (Elt F) → (⟨S16384, .f32⟩ : BufTy).Contents (Elt F)),
    StableHlo.unary main_v3429 main_v3486 (Host.cos : (⟨S16384, .f32⟩ : BufTy).Contents (Elt F) → (⟨S16384, .f32⟩ : BufTy).Contents (Elt F)),
    StableHlo.binary main_v3254 main_v3315 main_v3487 (mulf : (⟨S16384, .f32⟩ : BufTy).Contents (Elt F) → (⟨S16384, .f32⟩ : BufTy).Contents (Elt F) → (⟨S16384, .f32⟩ : BufTy).Contents (Elt F)),
    StableHlo.unary main_v3276 main_v3488 (Host.sin : (⟨S16384, .f32⟩ : BufTy).Contents (Elt F) → (⟨S16384, .f32⟩ : BufTy).Contents (Elt F)),
    StableHlo.unary main_v3287 main_v3489 (Host.sin : (⟨S16384, .f32⟩ : BufTy).Contents (Elt F) → (⟨S16384, .f32⟩ : BufTy).Contents (Elt F)),
    StableHlo.binary main_v3190 main_v2876 main_v3490 (subf : (⟨S16384, .f32⟩ : BufTy).Contents (Elt F) → (⟨S16384, .f32⟩ : BufTy).Contents (Elt F) → (⟨S16384, .f32⟩ : BufTy).Contents (Elt F)),
    StableHlo.unary main_v3190 main_v3491 (Host.sin : (⟨S16384, .f32⟩ : BufTy).Contents (Elt F) → (⟨S16384, .f32⟩ : BufTy).Contents (Elt F)),
    StableHlo.unary main_v3468 main_v3492 (Host.sin : (⟨S16384, .f32⟩ : BufTy).Contents (Elt F) → (⟨S16384, .f32⟩ : BufTy).Contents (Elt F)),
    StableHlo.unary main_v3271 main_v3493 (Host.cos : (⟨S16384, .f32⟩ : BufTy).Contents (Elt F) → (⟨S16384, .f32⟩ : BufTy).Contents (Elt F)),
    StableHlo.unary main_v3061 main_v3494 (Host.cos : (⟨S16384, .f32⟩ : BufTy).Contents (Elt F) → (⟨S16384, .f32⟩ : BufTy).Contents (Elt F)),
    StableHlo.binary main_v2851 main_v3362 main_v3495 (mulf : (⟨S16384, .f32⟩ : BufTy).Contents (Elt F) → (⟨S16384, .f32⟩ : BufTy).Contents (Elt F) → (⟨S16384, .f32⟩ : BufTy).Contents (Elt F)),
    StableHlo.unary main_v3464 main_v3496 (Host.sin : (⟨S16384, .f32⟩ : BufTy).Contents (Elt F) → (⟨S16384, .f32⟩ : BufTy).Contents (Elt F)),
    StableHlo.binary main_v3107 main_v3290 main_v3497 (subf : (⟨S16384, .f32⟩ : BufTy).Contents (Elt F) → (⟨S16384, .f32⟩ : BufTy).Contents (Elt F) → (⟨S16384, .f32⟩ : BufTy).Contents (Elt F)),
    StableHlo.unary main_v3461 main_v3498 (Host.cos : (⟨S16384, .f32⟩ : BufTy).Contents (Elt F) → (⟨S16384, .f32⟩ : BufTy).Contents (Elt F)),
    StableHlo.unary main_v2820 main_v3499 (Host.sin : (⟨S16384, .f32⟩ : BufTy).Contents (Elt F) → (⟨S16384, .f32⟩ : BufTy).Contents (Elt F)),
    StableHlo.binary main_v3041 main_v3451 main_v3500 (addf : (⟨S16384, .f32⟩ : BufTy).Contents (Elt F) → (⟨S16384, .f32⟩ : BufTy).Contents (Elt F) → (⟨S16384, .f32⟩ : BufTy).Contents (Elt F)),
    StableHlo.unary main_v3476 main_v3501 (Host.sin : (⟨S16384, .f32⟩ : BufTy).Contents (Elt F) → (⟨S16384, .f32⟩ : BufTy).Contents (Elt F)),
    StableHlo.binary main_v3461 main_v3329 main_v3502 (subf : (⟨S16384, .f32⟩ : BufTy).Contents (Elt F) → (⟨S16384, .f32⟩ : BufTy).Contents (Elt F) → (⟨S16384, .f32⟩ : BufTy).Contents (Elt F)),
    StableHlo.unary main_v3288 main_v3503 (Host.negf : (⟨S16384, .f32⟩ : BufTy).Contents (Elt F) → (⟨S16384, .f32⟩ : BufTy).Contents (Elt F)),
    StableHlo.unary main_v3171 main_v3504 (Host.cos : (⟨S16384, .f32⟩ : BufTy).Contents (Elt F) → (⟨S16384, .f32⟩ : BufTy).Contents (Elt F)),
    StableHlo.unary main_v2876 main_v3505 (Host.sin : (⟨S16384, .f32⟩ : BufTy).Contents (Elt F) → (⟨S16384, .f32⟩ : BufTy).Contents (Elt F)),
    StableHlo.unary main_v3445 main_v3506 (Host.cos : (⟨S16384, .f32⟩ : BufTy).Contents (Elt F) → (⟨S16384, .f32⟩ : BufTy).Contents (Elt F)),
    StableHlo.unary main_v3435 main_v3507 (Host.sin : (⟨S16384, .f32⟩ : BufTy).Contents (Elt F) → (⟨S16384, .f32⟩ : BufTy).Contents (Elt F)),
    StableHlo.unary main_v3491 main_v3508 (Host.negf : (⟨S16384, .f32⟩ : BufTy).Contents (Elt F) → (⟨S16384, .f32⟩ : BufTy).Contents (Elt F)),
    StableHlo.binary main_v3345 main_v3417 main_v3509 (addf : (⟨S16384, .f32⟩ : BufTy).Contents (Elt F) → (⟨S16384, .f32⟩ : BufTy).Contents (Elt F) → (⟨S16384, .f32⟩ : BufTy).Contents (Elt F)),
    StableHlo.binary main_v2736 main_v3364 main_v3510 (subf : (⟨S16384, .f32⟩ : BufTy).Contents (Elt F) → (⟨S16384, .f32⟩ : BufTy).Contents (Elt F) → (⟨S16384, .f32⟩ : BufTy).Contents (Elt F)),
    StableHlo.binary main_v3453 main_v3440 main_v3511 (addf : (⟨S16384, .f32⟩ : BufTy).Contents (Elt F) → (⟨S16384, .f32⟩ : BufTy).Contents (Elt F) → (⟨S16384, .f32⟩ : BufTy).Contents (Elt F)),
    StableHlo.unary main_v3011 main_v3512 (Host.negf : (⟨S16384, .f32⟩ : BufTy).Contents (Elt F) → (⟨S16384, .f32⟩ : BufTy).Contents (Elt F)),
    StableHlo.unary main_v3500 main_v3513 (Host.sin : (⟨S16384, .f32⟩ : BufTy).Contents (Elt F) → (⟨S16384, .f32⟩ : BufTy).Contents (Elt F)),
    StableHlo.binary main_v3431 main_v3233 main_v3514 (subf : (⟨S16384, .f32⟩ : BufTy).Contents (Elt F) → (⟨S16384, .f32⟩ : BufTy).Contents (Elt F) → (⟨S16384, .f32⟩ : BufTy).Contents (Elt F)),
    StableHlo.binary main_v3076 main_v3376 main_v3515 (subf : (⟨S16384, .f32⟩ : BufTy).Contents (Elt F) → (⟨S16384, .f32⟩ : BufTy).Contents (Elt F) → (⟨S16384, .f32⟩ : BufTy).Contents (Elt F)),
    StableHlo.unary main_v3206 main_v3516 (Host.sin : (⟨S16384, .f32⟩ : BufTy).Contents (Elt F) → (⟨S16384, .f32⟩ : BufTy).Contents (Elt F)),
    StableHlo.binary main_v3288 main_v3431 main_v3517 (subf : (⟨S16384, .f32⟩ : BufTy).Contents (Elt F) → (⟨S16384, .f32⟩ : BufTy).Contents (Elt F) → (⟨S16384, .f32⟩ : BufTy).Contents (Elt F)),
    StableHlo.binary main_v3467 main_v3436 main_v3518 (addf : (⟨S16384, .f32⟩ : BufTy).Contents (Elt F) → (⟨S16384, .f32⟩ : BufTy).Contents (Elt F) → (⟨S16384, .f32⟩ : BufTy).Contents (Elt F)),
    StableHlo.binary main_v3511 main_v3477 main_v3519 (mulf : (⟨S16384, .f32⟩ : BufTy).Contents (Elt F) → (⟨S16384, .f32⟩ : BufTy).Contents (Elt F) → (⟨S16384, .f32⟩ : BufTy).Contents (Elt F)),
    StableHlo.binary main_v3448 main_v2694 main_v3520 (addf : (⟨S16384, .f32⟩ : BufTy).Contents (Elt F) → (⟨S16384, .f32⟩ : BufTy).Contents (Elt F) → (⟨S16384, .f32⟩ : BufTy).Contents (Elt F)),
    StableHlo.binary main_v3330 main_v2963 main_v3521 (subf : (⟨S16384, .f32⟩ : BufTy).Contents (Elt F) → (⟨S16384, .f32⟩ : BufTy).Contents (Elt F) → (⟨S16384, .f32⟩ : BufTy).Contents (Elt F)),
    StableHlo.binary main_v3264 main_v3366 main_v3522 (subf : (⟨S16384, .f32⟩ : BufTy).Contents (Elt F) → (⟨S16384, .f32⟩ : BufTy).Contents (Elt F) → (⟨S16384, .f32⟩ : BufTy).Contents (Elt F)),
    StableHlo.binary main_v3112 main_v3202 main_v3523 (subf : (⟨S16384, .f32⟩ : BufTy).Contents (Elt F) → (⟨S16384, .f32⟩ : BufTy).Contents (Elt F) → (⟨S16384, .f32⟩ : BufTy).Contents (Elt F)) ]

theorem part58_eq (d : Dev nD) : main_part58 (F := F) d = seq ops58 := rfl
theorem ops58_sub : (ops58 (F := F)).Forall fun op => op.bufs ⊆ tcRefs τ sig := by line_sub
theorem ops58_fresh : ∀ op ∈ (ops58 (F := F)), op.fresh = ∅ := by line_fresh
theorem ops58_ordered : Cert.Ssa.Ordered 3481 (ops58 (F := F)) := by line_ordered

/-- Window 59 of @main: its operations, positions 3541 to 3600, in order. -/
abbrev ops59 : List (HloOp τ sig (Elt F)) :=
  [ StableHlo.unary main_v3453 main_v3524 (Host.sin : (⟨S16384, .f32⟩ : BufTy).Contents (Elt F) → (⟨S16384, .f32⟩ : BufTy).Contents (Elt F)),
    StableHlo.binary main_v3364 main_v3479 main_v3525 (subf : (⟨S16384, .f32⟩ : BufTy).Contents (Elt F) → (⟨S16384, .f32⟩ : BufTy).Contents (Elt F) → (⟨S16384, .f32⟩ : BufTy).Contents (Elt F)),
    StableHlo.unary main_v3284 main_v3526 (Host.cos : (⟨S16384, .f32⟩ : BufTy).Contents (Elt F) → (⟨S16384, .f32⟩ : BufTy).Contents (Elt F)),
    StableHlo.binary main_v3452 main_v3453 main_v3527 (subf : (⟨S16384, .f32⟩ : BufTy).Contents (Elt F) → (⟨S16384, .f32⟩ : BufTy).Contents (Elt F) → (⟨S16384, .f32⟩ : BufTy).Contents (Elt F)),
    StableHlo.binary main_v2665 main_v3186 main_v3528 (mulf : (⟨S16384, .f32⟩ : BufTy).Contents (Elt F) → (⟨S16384, .f32⟩ : BufTy).Contents (Elt F) → (⟨S16384, .f32⟩ : BufTy).Contents (Elt F)),
    StableHlo.unary main_v1535 main_v3529 (Host.sin : (⟨S16384, .f32⟩ : BufTy).Contents (Elt F) → (⟨S16384, .f32⟩ : BufTy).Contents (Elt F)),
    StableHlo.binary main_v3372 main_v3076 main_v3530 (mulf : (⟨S16384, .f32⟩ : BufTy).Contents (Elt F) → (⟨S16384, .f32⟩ : BufTy).Contents (Elt F) → (⟨S16384, .f32⟩ : BufTy).Contents (Elt F)),
    StableHlo.unary main_v3304 main_v3531 (Host.sin : (⟨S16384, .f32⟩ : BufTy).Contents (Elt F) → (⟨S16384, .f32⟩ : BufTy).Contents (Elt F)),
    StableHlo.unary main_v3397 main_v3532 (Host.cos : (⟨S16384, .f32⟩ : BufTy).Contents (Elt F) → (⟨S16384, .f32⟩ : BufTy).Contents (Elt F)),
    StableHlo.binary main_v3431 main_v3071 main_v3533 (subf : (⟨S16384, .f32⟩ : BufTy).Contents (Elt F) → (⟨S16384, .f32⟩ : BufTy).Contents (Elt F) → (⟨S16384, .f32⟩ : BufTy).Contents (Elt F)),
    StableHlo.unary main_v3242 main_v3534 (Host.cos : (⟨S16384, .f32⟩ : BufTy).Contents (Elt F) → (⟨S16384, .f32⟩ : BufTy).Contents (Elt F)),
    StableHlo.binary main_v3160 main_v3393 main_v3535 (addf : (⟨S16384, .f32⟩ : BufTy).Contents (Elt F) → (⟨S16384, .f32⟩ : BufTy).Contents (Elt F) → (⟨S16384, .f32⟩ : BufTy).Contents (Elt F)),
    StableHlo.unary main_v3269 main_v3536 (Host.cos : (⟨S16384, .f32⟩ : BufTy).Contents (Elt F) → (⟨S16384, .f32⟩ : BufTy).Contents (Elt F)),
    StableHlo.unary main_v3438 main_v3537 (Host.cos : (⟨S16384, .f32⟩ : BufTy).Contents (Elt F) → (⟨S16384, .f32⟩ : BufTy).Contents (Elt F)),
    StableHlo.binary main_v3453 main_v3479 main_v3538 (subf : (⟨S16384, .f32⟩ : BufTy).Contents (Elt F) → (⟨S16384, .f32⟩ : BufTy).Contents (Elt F) → (⟨S16384, .f32⟩ : BufTy).Contents (Elt F)),
    StableHlo.binary main_v2742 main_v3257 main_v3539 (addf : (⟨S16384, .f32⟩ : BufTy).Contents (Elt F) → (⟨S16384, .f32⟩ : BufTy).Contents (Elt F) → (⟨S16384, .f32⟩ : BufTy).Contents (Elt F)),
    StableHlo.binary main_v3194 main_v3205 main_v3540 (addf : (⟨S16384, .f32⟩ : BufTy).Contents (Elt F) → (⟨S16384, .f32⟩ : BufTy).Contents (Elt F) → (⟨S16384, .f32⟩ : BufTy).Contents (Elt F)),
    StableHlo.binary main_v3290 main_v3290 main_v3541 (mulf : (⟨S16384, .f32⟩ : BufTy).Contents (Elt F) → (⟨S16384, .f32⟩ : BufTy).Contents (Elt F) → (⟨S16384, .f32⟩ : BufTy).Contents (Elt F)),
    StableHlo.unary main_v3046 main_v3542 (Host.cos : (⟨S16384, .f32⟩ : BufTy).Contents (Elt F) → (⟨S16384, .f32⟩ : BufTy).Contents (Elt F)),
    StableHlo.unary main_v3171 main_v3543 (Host.sin : (⟨S16384, .f32⟩ : BufTy).Contents (Elt F) → (⟨S16384, .f32⟩ : BufTy).Contents (Elt F)),
    StableHlo.binary main_v3396 main_v3396 main_v3544 (mulf : (⟨S16384, .f32⟩ : BufTy).Contents (Elt F) → (⟨S16384, .f32⟩ : BufTy).Contents (Elt F) → (⟨S16384, .f32⟩ : BufTy).Contents (Elt F)),
    StableHlo.binary main_v3362 main_v3329 main_v3545 (subf : (⟨S16384, .f32⟩ : BufTy).Contents (Elt F) → (⟨S16384, .f32⟩ : BufTy).Contents (Elt F) → (⟨S16384, .f32⟩ : BufTy).Contents (Elt F)),
    StableHlo.binary main_v3496 main_v3522 main_v3546 (addf : (⟨S16384, .f32⟩ : BufTy).Contents (Elt F) → (⟨S16384, .f32⟩ : BufTy).Contents (Elt F) → (⟨S16384, .f32⟩ : BufTy).Contents (Elt F)),
    StableHlo.unary main_v3543 main_v3547 (Host.sin : (⟨S16384, .f32⟩ : BufTy).Contents (Elt F) → (⟨S16384, .f32⟩ : BufTy).Contents (Elt F)),
    StableHlo.unary main_v3416 main_v3548 (Host.sin : (⟨S16384, .f32⟩ : BufTy).Contents (Elt F) → (⟨S16384, .f32⟩ : BufTy).Contents (Elt F)),
    StableHlo.binary main_v3479 main_v3223 main_v3549 (mulf : (⟨S16384, .f32⟩ : BufTy).Contents (Elt F) → (⟨S16384, .f32⟩ : BufTy).Contents (Elt F) → (⟨S16384, .f32⟩ : BufTy).Contents (Elt F)),
    StableHlo.unary main_v3487 main_v3550 (Host.cos : (⟨S16384, .f32⟩ : BufTy).Contents (Elt F) → (⟨S16384, .f32⟩ : BufTy).Contents (Elt F)),
    StableHlo.unary main_v3329 main_v3551 (Host.cos : (⟨S16384, .f32⟩ : BufTy).Contents (Elt F) → (⟨S16384, .f32⟩ : BufTy).Contents (Elt F)),
    StableHlo.unary main_v3071 main_v3552 (Host.cos : (⟨S16384, .f32⟩ : BufTy).Contents (Elt F) → (⟨S16384, .f32⟩ : BufTy).Contents (Elt F)),
    StableHlo.binary main_v3223 main_v3472 main_v3553 (subf : (⟨S16384, .f32⟩ : BufTy).Contents (Elt F) → (⟨S16384, .f32⟩ : BufTy).Contents (Elt F) → (⟨S16384, .f32⟩ : BufTy).Contents (Elt F)),
    StableHlo.unary main_v3481 main_v3554 (Host.cos : (⟨S16384, .f32⟩ : BufTy).Contents (Elt F) → (⟨S16384, .f32⟩ : BufTy).Contents (Elt F)),
    StableHlo.unary main_v3330 main_v3555 (Host.cos : (⟨S16384, .f32⟩ : BufTy).Contents (Elt F) → (⟨S16384, .f32⟩ : BufTy).Contents (Elt F)),
    StableHlo.unary main_v3397 main_v3556 (Host.cos : (⟨S16384, .f32⟩ : BufTy).Contents (Elt F) → (⟨S16384, .f32⟩ : BufTy).Contents (Elt F)),
    StableHlo.binary main_v3553 main_v3379 main_v3557 (addf : (⟨S16384, .f32⟩ : BufTy).Contents (Elt F) → (⟨S16384, .f32⟩ : BufTy).Contents (Elt F) → (⟨S16384, .f32⟩ : BufTy).Contents (Elt F)),
    StableHlo.unary main_v3494 main_v3558 (Host.cos : (⟨S16384, .f32⟩ : BufTy).Contents (Elt F) → (⟨S16384, .f32⟩ : BufTy).Contents (Elt F)),
    StableHlo.binary main_v3497 main_v3490 main_v3559 (subf : (⟨S16384, .f32⟩ : BufTy).Contents (Elt F) → (⟨S16384, .f32⟩ : BufTy).Contents (Elt F) → (⟨S16384, .f32⟩ : BufTy).Contents (Elt F)),
    StableHlo.binary main_v1535 main_v2898 main_v3560 (subf : (⟨S16384, .f32⟩ : BufTy).Contents (Elt F) → (⟨S16384, .f32⟩ : BufTy).Contents (Elt F) → (⟨S16384, .f32⟩ : BufTy).Contents (Elt F)),
    StableHlo.binary main_v3498 main_v3329 main_v3561 (addf : (⟨S16384, .f32⟩ : BufTy).Contents (Elt F) → (⟨S16384, .f32⟩ : BufTy).Contents (Elt F) → (⟨S16384, .f32⟩ : BufTy).Contents (Elt F)),
    StableHlo.unary main_v3494 main_v3562 (Host.cos : (⟨S16384, .f32⟩ : BufTy).Contents (Elt F) → (⟨S16384, .f32⟩ : BufTy).Contents (Elt F)),
    StableHlo.binary main_v3522 main_v3065 main_v3563 (addf : (⟨S16384, .f32⟩ : BufTy).Contents (Elt F) → (⟨S16384, .f32⟩ : BufTy).Contents (Elt F) → (⟨S16384, .f32⟩ : BufTy).Contents (Elt F)),
    StableHlo.unary main_v3377 main_v3564 (Host.sin : (⟨S16384, .f32⟩ : BufTy).Contents (Elt F) → (⟨S16384, .f32⟩ : BufTy).Contents (Elt F)),
    StableHlo.unary main_v3190 main_v3565 (Host.sin : (⟨S16384, .f32⟩ : BufTy).Contents (Elt F) → (⟨S16384, .f32⟩ : BufTy).Contents (Elt F)),
    StableHlo.unary main_v3449 main_v3566 (Host.sin : (⟨S16384, .f32⟩ : BufTy).Contents (Elt F) → (⟨S16384, .f32⟩ : BufTy).Contents (Elt F)),
    StableHlo.binary main_v3290 main_v2953 main_v3567 (mulf : (⟨S16384, .f32⟩ : BufTy).Contents (Elt F) → (⟨S16384, .f32⟩ : BufTy).Contents (Elt F) → (⟨S16384, .f32⟩ : BufTy).Contents (Elt F)),
    StableHlo.unary main_v3400 main_v3568 (Host.cos : (⟨S16384, .f32⟩ : BufTy).Contents (Elt F) → (⟨S16384, .f32⟩ : BufTy).Contents (Elt F)),
    StableHlo.unary main_v3555 main_v3569 (Host.sin : (⟨S16384, .f32⟩ : BufTy).Contents (Elt F) → (⟨S16384, .f32⟩ : BufTy).Contents (Elt F)),
    StableHlo.binary main_v3342 main_v3475 main_v3570 (subf : (⟨S16384, .f32⟩ : BufTy).Contents (Elt F) → (⟨S16384, .f32⟩ : BufTy).Contents (Elt F) → (⟨S16384, .f32⟩ : BufTy).Contents (Elt F)),
    StableHlo.unary main_v3314 main_v3571 (Host.cos : (⟨S16384, .f32⟩ : BufTy).Contents (Elt F) → (⟨S16384, .f32⟩ : BufTy).Contents (Elt F)),
    StableHlo.unary main_v3355 main_v3572 (Host.cos : (⟨S16384, .f32⟩ : BufTy).Contents (Elt F) → (⟨S16384, .f32⟩ : BufTy).Contents (Elt F)),
    StableHlo.binary main_v3563 main_v3275 main_v3573 (subf : (⟨S16384, .f32⟩ : BufTy).Contents (Elt F) → (⟨S16384, .f32⟩ : BufTy).Contents (Elt F) → (⟨S16384, .f32⟩ : BufTy).Contents (Elt F)),
    StableHlo.binary main_v3288 main_v2742 main_v3574 (addf : (⟨S16384, .f32⟩ : BufTy).Contents (Elt F) → (⟨S16384, .f32⟩ : BufTy).Contents (Elt F) → (⟨S16384, .f32⟩ : BufTy).Contents (Elt F)),
    StableHlo.unary main_v3508 main_v3575 (Host.sin : (⟨S16384, .f32⟩ : BufTy).Contents (Elt F) → (⟨S16384, .f32⟩ : BufTy).Contents (Elt F)),
    StableHlo.binary main_v2838 main_v3555 main_v3576 (mulf : (⟨S16384, .f32⟩ : BufTy).Contents (Elt F) → (⟨S16384, .f32⟩ : BufTy).Contents (Elt F) → (⟨S16384, .f32⟩ : BufTy).Contents (Elt F)),
    StableHlo.binary main_v3411 main_v3187 main_v3577 (mulf : (⟨S16384, .f32⟩ : BufTy).Contents (Elt F) → (⟨S16384, .f32⟩ : BufTy).Contents (Elt F) → (⟨S16384, .f32⟩ : BufTy).Contents (Elt F)),
    StableHlo.unary main_v3537 main_v3578 (Host.sin : (⟨S16384, .f32⟩ : BufTy).Contents (Elt F) → (⟨S16384, .f32⟩ : BufTy).Contents (Elt F)),
    StableHlo.binary main_v3479 main_v3435 main_v3579 (subf : (⟨S16384, .f32⟩ : BufTy).Contents (Elt F) → (⟨S16384, .f32⟩ : BufTy).Contents (Elt F) → (⟨S16384, .f32⟩ : BufTy).Contents (Elt F)),
    StableHlo.binary main_v3483 main_v2786 main_v3580 (addf : (⟨S16384, .f32⟩ : BufTy).Contents (Elt F) → (⟨S16384, .f32⟩ : BufTy).Contents (Elt F) → (⟨S16384, .f32⟩ : BufTy).Contents (Elt F)),
    StableHlo.binary main_v3235 main_v3467 main_v3581 (mulf : (⟨S16384, .f32⟩ : BufTy).Contents (Elt F) → (⟨S16384, .f32⟩ : BufTy).Contents (Elt F) → (⟨S16384, .f32⟩ : BufTy).Contents (Elt F)),
    StableHlo.binary main_v3445 main_v3445 main_v3582 (mulf : (⟨S16384, .f32⟩ : BufTy).Contents (Elt F) → (⟨S16384, .f32⟩ : BufTy).Contents (Elt F) → (⟨S16384, .f32⟩ : BufTy).Contents (Elt F)),
    StableHlo.binary main_v2249 main_v2691 main_v3583 (subf : (⟨S16384, .f32⟩ : BufTy).Contents (Elt F) → (⟨S16384, .f32⟩ : BufTy).Contents (Elt F) → (⟨S16384, .f32⟩ : BufTy).Contents (Elt F)) ]

theorem part59_eq (d : Dev nD) : main_part59 (F := F) d = seq ops59 := rfl
theorem ops59_sub : (ops59 (F := F)).Forall fun op => op.bufs ⊆ tcRefs τ sig := by line_sub
theorem ops59_fresh : ∀ op ∈ (ops59 (F := F)), op.fresh = ∅ := by line_fresh
theorem ops59_ordered : Cert.Ssa.Ordered 3541 (ops59 (F := F)) := by line_ordered

end Cert.ReferenceIdeal.Line

end
-- ==== Proof.RefOps6.lean ====
import proofs.«146075_j27728308863612_2_alg».proof.ReferenceIdeal
import Idealize.ShloMosaic.Lib.StableHlo.Run
import proofs.«146075_j27728308863612_2_alg».proof.Proof.Ssa
import proofs.«146075_j27728308863612_2_alg».proof.Proof.RefTactics

set_option synthInstance.maxSize 4096
set_option maxHeartbeats 40000000
set_option maxRecDepth 100000

noncomputable section

namespace Cert.ReferenceIdeal.Line

open Idealize.ShloMosaic Idealize.SL.Sem
open Idealize.ShloMosaic.RefSig (ofTc tcTables tileCredit tileCredit_eq_zero tileCredit_pos)
open Idealize.ShloMosaic.StableHlo (seq after tcRefs)
open Cert.ReferenceIdeal

variable {F : FTy → Type} [FloatOps F]

variable [Facts]
open Facts₀ Facts

open Idealize.ShloMosaic.TcCoe

/-- Window 60 of @main: its operations, positions 3601 to 3660, in order. -/
abbrev ops60 : List (HloOp τ sig (Elt F)) :=
  [ StableHlo.binary main_v3489 main_v3567 main_v3584 (addf : (⟨S16384, .f32⟩ : BufTy).Contents (Elt F) → (⟨S16384, .f32⟩ : BufTy).Contents (Elt F) → (⟨S16384, .f32⟩ : BufTy).Contents (Elt F)),
    StableHlo.unary main_v3449 main_v3585 (Host.sin : (⟨S16384, .f32⟩ : BufTy).Contents (Elt F) → (⟨S16384, .f32⟩ : BufTy).Contents (Elt F)),
    StableHlo.unary main_v3456 main_v3586 (Host.sin : (⟨S16384, .f32⟩ : BufTy).Contents (Elt F) → (⟨S16384, .f32⟩ : BufTy).Contents (Elt F)),
    StableHlo.binary main_v3342 main_v3581 main_v3587 (addf : (⟨S16384, .f32⟩ : BufTy).Contents (Elt F) → (⟨S16384, .f32⟩ : BufTy).Contents (Elt F) → (⟨S16384, .f32⟩ : BufTy).Contents (Elt F)),
    StableHlo.binary main_v3518 main_v3535 main_v3588 (subf : (⟨S16384, .f32⟩ : BufTy).Contents (Elt F) → (⟨S16384, .f32⟩ : BufTy).Contents (Elt F) → (⟨S16384, .f32⟩ : BufTy).Contents (Elt F)),
    StableHlo.binary main_v3313 main_v3428 main_v3589 (mulf : (⟨S16384, .f32⟩ : BufTy).Contents (Elt F) → (⟨S16384, .f32⟩ : BufTy).Contents (Elt F) → (⟨S16384, .f32⟩ : BufTy).Contents (Elt F)),
    StableHlo.unary main_v3586 main_v3590 (Host.sin : (⟨S16384, .f32⟩ : BufTy).Contents (Elt F) → (⟨S16384, .f32⟩ : BufTy).Contents (Elt F)),
    StableHlo.binary main_v3495 main_v3400 main_v3591 (mulf : (⟨S16384, .f32⟩ : BufTy).Contents (Elt F) → (⟨S16384, .f32⟩ : BufTy).Contents (Elt F) → (⟨S16384, .f32⟩ : BufTy).Contents (Elt F)),
    StableHlo.binary main_v3377 main_v3460 main_v3592 (addf : (⟨S16384, .f32⟩ : BufTy).Contents (Elt F) → (⟨S16384, .f32⟩ : BufTy).Contents (Elt F) → (⟨S16384, .f32⟩ : BufTy).Contents (Elt F)),
    StableHlo.unary main_v3359 main_v3593 (Host.sin : (⟨S16384, .f32⟩ : BufTy).Contents (Elt F) → (⟨S16384, .f32⟩ : BufTy).Contents (Elt F)),
    StableHlo.unary main_v3449 main_v3594 (Host.cos : (⟨S16384, .f32⟩ : BufTy).Contents (Elt F) → (⟨S16384, .f32⟩ : BufTy).Contents (Elt F)),
    StableHlo.binary main_v3536 main_v3329 main_v3595 (mulf : (⟨S16384, .f32⟩ : BufTy).Contents (Elt F) → (⟨S16384, .f32⟩ : BufTy).Contents (Elt F) → (⟨S16384, .f32⟩ : BufTy).Contents (Elt F)),
    StableHlo.binary main_v3513 main_v2961 main_v3596 (addf : (⟨S16384, .f32⟩ : BufTy).Contents (Elt F) → (⟨S16384, .f32⟩ : BufTy).Contents (Elt F) → (⟨S16384, .f32⟩ : BufTy).Contents (Elt F)),
    StableHlo.unary main_v3320 main_v3597 (Host.sin : (⟨S16384, .f32⟩ : BufTy).Contents (Elt F) → (⟨S16384, .f32⟩ : BufTy).Contents (Elt F)),
    StableHlo.binary main_v3553 main_v3171 main_v3598 (mulf : (⟨S16384, .f32⟩ : BufTy).Contents (Elt F) → (⟨S16384, .f32⟩ : BufTy).Contents (Elt F) → (⟨S16384, .f32⟩ : BufTy).Contents (Elt F)),
    StableHlo.binary main_v3539 main_v2605 main_v3599 (addf : (⟨S16384, .f32⟩ : BufTy).Contents (Elt F) → (⟨S16384, .f32⟩ : BufTy).Contents (Elt F) → (⟨S16384, .f32⟩ : BufTy).Contents (Elt F)),
    StableHlo.unary main_v3464 main_v3600 (Host.sin : (⟨S16384, .f32⟩ : BufTy).Contents (Elt F) → (⟨S16384, .f32⟩ : BufTy).Contents (Elt F)),
    StableHlo.binary main_v3580 main_v3264 main_v3601 (subf : (⟨S16384, .f32⟩ : BufTy).Contents (Elt F) → (⟨S16384, .f32⟩ : BufTy).Contents (Elt F) → (⟨S16384, .f32⟩ : BufTy).Contents (Elt F)),
    StableHlo.unary main_v3188 main_v3602 (Host.sin : (⟨S16384, .f32⟩ : BufTy).Contents (Elt F) → (⟨S16384, .f32⟩ : BufTy).Contents (Elt F)),
    StableHlo.unary main_v3230 main_v3603 (Host.sin : (⟨S16384, .f32⟩ : BufTy).Contents (Elt F) → (⟨S16384, .f32⟩ : BufTy).Contents (Elt F)),
    StableHlo.unary main_v3548 main_v3604 (Host.sin : (⟨S16384, .f32⟩ : BufTy).Contents (Elt F) → (⟨S16384, .f32⟩ : BufTy).Contents (Elt F)),
    StableHlo.unary main_v3468 main_v3605 (Host.cos : (⟨S16384, .f32⟩ : BufTy).Contents (Elt F) → (⟨S16384, .f32⟩ : BufTy).Contents (Elt F)),
    StableHlo.binary main_v2838 main_v3494 main_v3606 (subf : (⟨S16384, .f32⟩ : BufTy).Contents (Elt F) → (⟨S16384, .f32⟩ : BufTy).Contents (Elt F) → (⟨S16384, .f32⟩ : BufTy).Contents (Elt F)),
    StableHlo.unary main_v3596 main_v3607 (Host.sin : (⟨S16384, .f32⟩ : BufTy).Contents (Elt F) → (⟨S16384, .f32⟩ : BufTy).Contents (Elt F)),
    StableHlo.binary main_v3501 main_v3501 main_v3608 (mulf : (⟨S16384, .f32⟩ : BufTy).Contents (Elt F) → (⟨S16384, .f32⟩ : BufTy).Contents (Elt F) → (⟨S16384, .f32⟩ : BufTy).Contents (Elt F)),
    StableHlo.binary main_v3206 main_v3107 main_v3609 (mulf : (⟨S16384, .f32⟩ : BufTy).Contents (Elt F) → (⟨S16384, .f32⟩ : BufTy).Contents (Elt F) → (⟨S16384, .f32⟩ : BufTy).Contents (Elt F)),
    StableHlo.unary main_v2917 main_v3610 (Host.cos : (⟨S16384, .f32⟩ : BufTy).Contents (Elt F) → (⟨S16384, .f32⟩ : BufTy).Contents (Elt F)),
    StableHlo.unary main_v3597 main_v3611 (Host.sin : (⟨S16384, .f32⟩ : BufTy).Contents (Elt F) → (⟨S16384, .f32⟩ : BufTy).Contents (Elt F)),
    StableHlo.unary main_v3484 main_v3612 (Host.cos : (⟨S16384, .f32⟩ : BufTy).Contents (Elt F) → (⟨S16384, .f32⟩ : BufTy).Contents (Elt F)),
    StableHlo.unary main_v3448 main_v3613 (Host.cos : (⟨S16384, .f32⟩ : BufTy).Contents (Elt F) → (⟨S16384, .f32⟩ : BufTy).Contents (Elt F)),
    StableHlo.unary main_v3076 main_v3614 (Host.sin : (⟨S16384, .f32⟩ : BufTy).Contents (Elt F) → (⟨S16384, .f32⟩ : BufTy).Contents (Elt F)),
    StableHlo.unary main_v3555 main_v3615 (Host.sin : (⟨S16384, .f32⟩ : BufTy).Contents (Elt F) → (⟨S16384, .f32⟩ : BufTy).Contents (Elt F)),
    StableHlo.unary main_v2995 main_v3616 (Host.sin : (⟨S16384, .f32⟩ : BufTy).Contents (Elt F) → (⟨S16384, .f32⟩ : BufTy).Contents (Elt F)),
    StableHlo.binary main_v3312 main_v3436 main_v3617 (addf : (⟨S16384, .f32⟩ : BufTy).Contents (Elt F) → (⟨S16384, .f32⟩ : BufTy).Contents (Elt F) → (⟨S16384, .f32⟩ : BufTy).Contents (Elt F)),
    StableHlo.unary main_v3353 main_v3618 (Host.negf : (⟨S16384, .f32⟩ : BufTy).Contents (Elt F) → (⟨S16384, .f32⟩ : BufTy).Contents (Elt F)),
    StableHlo.unary main_v3464 main_v3619 (Host.cos : (⟨S16384, .f32⟩ : BufTy).Contents (Elt F) → (⟨S16384, .f32⟩ : BufTy).Contents (Elt F)),
    StableHlo.binary main_v3186 main_v3288 main_v3620 (addf : (⟨S16384, .f32⟩ : BufTy).Contents (Elt F) → (⟨S16384, .f32⟩ : BufTy).Contents (Elt F) → (⟨S16384, .f32⟩ : BufTy).Contents (Elt F)),
    StableHlo.binary main_v3041 main_v3377 main_v3621 (mulf : (⟨S16384, .f32⟩ : BufTy).Contents (Elt F) → (⟨S16384, .f32⟩ : BufTy).Contents (Elt F) → (⟨S16384, .f32⟩ : BufTy).Contents (Elt F)),
    StableHlo.binary main_v3041 main_v3405 main_v3622 (mulf : (⟨S16384, .f32⟩ : BufTy).Contents (Elt F) → (⟨S16384, .f32⟩ : BufTy).Contents (Elt F) → (⟨S16384, .f32⟩ : BufTy).Contents (Elt F)),
    StableHlo.unary main_v3592 main_v3623 (Host.cos : (⟨S16384, .f32⟩ : BufTy).Contents (Elt F) → (⟨S16384, .f32⟩ : BufTy).Contents (Elt F)),
    StableHlo.unary main_v3425 main_v3624 (Host.sin : (⟨S16384, .f32⟩ : BufTy).Contents (Elt F) → (⟨S16384, .f32⟩ : BufTy).Contents (Elt F)),
    StableHlo.unary main_v3494 main_v3625 (Host.cos : (⟨S16384, .f32⟩ : BufTy).Contents (Elt F) → (⟨S16384, .f32⟩ : BufTy).Contents (Elt F)),
    StableHlo.unary main_v3194 main_v3626 (Host.sin : (⟨S16384, .f32⟩ : BufTy).Contents (Elt F) → (⟨S16384, .f32⟩ : BufTy).Contents (Elt F)),
    StableHlo.unary main_v3448 main_v3627 (Host.sin : (⟨S16384, .f32⟩ : BufTy).Contents (Elt F) → (⟨S16384, .f32⟩ : BufTy).Contents (Elt F)),
    StableHlo.unary main_v2665 main_v3628 (Host.sin : (⟨S16384, .f32⟩ : BufTy).Contents (Elt F) → (⟨S16384, .f32⟩ : BufTy).Contents (Elt F)),
    StableHlo.binary main_v3548 main_v3548 main_v3629 (mulf : (⟨S16384, .f32⟩ : BufTy).Contents (Elt F) → (⟨S16384, .f32⟩ : BufTy).Contents (Elt F) → (⟨S16384, .f32⟩ : BufTy).Contents (Elt F)),
    StableHlo.unary main_v3429 main_v3630 (Host.negf : (⟨S16384, .f32⟩ : BufTy).Contents (Elt F) → (⟨S16384, .f32⟩ : BufTy).Contents (Elt F)),
    StableHlo.binary main_v3546 main_v3439 main_v3631 (addf : (⟨S16384, .f32⟩ : BufTy).Contents (Elt F) → (⟨S16384, .f32⟩ : BufTy).Contents (Elt F) → (⟨S16384, .f32⟩ : BufTy).Contents (Elt F)),
    StableHlo.unary main_v3269 main_v3632 (Host.sin : (⟨S16384, .f32⟩ : BufTy).Contents (Elt F) → (⟨S16384, .f32⟩ : BufTy).Contents (Elt F)),
    StableHlo.unary main_v3607 main_v3633 (Host.sin : (⟨S16384, .f32⟩ : BufTy).Contents (Elt F) → (⟨S16384, .f32⟩ : BufTy).Contents (Elt F)),
    StableHlo.unary main_v3603 main_v3634 (Host.sin : (⟨S16384, .f32⟩ : BufTy).Contents (Elt F) → (⟨S16384, .f32⟩ : BufTy).Contents (Elt F)),
    StableHlo.unary main_v3486 main_v3635 (Host.cos : (⟨S16384, .f32⟩ : BufTy).Contents (Elt F) → (⟨S16384, .f32⟩ : BufTy).Contents (Elt F)),
    StableHlo.binary main_v3575 main_v3516 main_v3636 (subf : (⟨S16384, .f32⟩ : BufTy).Contents (Elt F) → (⟨S16384, .f32⟩ : BufTy).Contents (Elt F) → (⟨S16384, .f32⟩ : BufTy).Contents (Elt F)),
    StableHlo.binary main_v2665 main_v3620 main_v3637 (subf : (⟨S16384, .f32⟩ : BufTy).Contents (Elt F) → (⟨S16384, .f32⟩ : BufTy).Contents (Elt F) → (⟨S16384, .f32⟩ : BufTy).Contents (Elt F)),
    StableHlo.unary main_v2963 main_v3638 (Host.cos : (⟨S16384, .f32⟩ : BufTy).Contents (Elt F) → (⟨S16384, .f32⟩ : BufTy).Contents (Elt F)),
    StableHlo.unary main_v3065 main_v3639 (Host.sin : (⟨S16384, .f32⟩ : BufTy).Contents (Elt F) → (⟨S16384, .f32⟩ : BufTy).Contents (Elt F)),
    StableHlo.binary main_v3452 main_v3160 main_v3640 (subf : (⟨S16384, .f32⟩ : BufTy).Contents (Elt F) → (⟨S16384, .f32⟩ : BufTy).Contents (Elt F) → (⟨S16384, .f32⟩ : BufTy).Contents (Elt F)),
    StableHlo.unary main_v2850 main_v3641 (Host.sin : (⟨S16384, .f32⟩ : BufTy).Contents (Elt F) → (⟨S16384, .f32⟩ : BufTy).Contents (Elt F)),
    StableHlo.unary main_v3065 main_v3642 (Host.cos : (⟨S16384, .f32⟩ : BufTy).Contents (Elt F) → (⟨S16384, .f32⟩ : BufTy).Contents (Elt F)),
    StableHlo.unary main_v3607 main_v3643 (Host.cos : (⟨S16384, .f32⟩ : BufTy).Contents (Elt F) → (⟨S16384, .f32⟩ : BufTy).Contents (Elt F)) ]

theorem part60_eq (d : Dev nD) : main_part60 (F := F) d = seq ops60 := rfl
theorem ops60_sub : (ops60 (F := F)).Forall fun op => op.bufs ⊆ tcRefs τ sig := by line_sub
theorem ops60_fresh : ∀ op ∈ (ops60 (F := F)), op.fresh = ∅ := by line_fresh
theorem ops60_ordered : Cert.Ssa.Ordered 3601 (ops60 (F := F)) := by line_ordered

/-- Window 61 of @main: its operations, positions 3661 to 3720, in order. -/
abbrev ops61 : List (HloOp τ sig (Elt F)) :=
  [ StableHlo.binary main_v3563 main_v2850 main_v3644 (addf : (⟨S16384, .f32⟩ : BufTy).Contents (Elt F) → (⟨S16384, .f32⟩ : BufTy).Contents (Elt F) → (⟨S16384, .f32⟩ : BufTy).Contents (Elt F)),
    StableHlo.unary main_v3171 main_v3645 (Host.cos : (⟨S16384, .f32⟩ : BufTy).Contents (Elt F) → (⟨S16384, .f32⟩ : BufTy).Contents (Elt F)),
    StableHlo.unary main_v3617 main_v3646 (Host.cos : (⟨S16384, .f32⟩ : BufTy).Contents (Elt F) → (⟨S16384, .f32⟩ : BufTy).Contents (Elt F)),
    StableHlo.binary main_v3633 main_v3514 main_v3647 (addf : (⟨S16384, .f32⟩ : BufTy).Contents (Elt F) → (⟨S16384, .f32⟩ : BufTy).Contents (Elt F) → (⟨S16384, .f32⟩ : BufTy).Contents (Elt F)),
    StableHlo.unary main_v3497 main_v3648 (Host.cos : (⟨S16384, .f32⟩ : BufTy).Contents (Elt F) → (⟨S16384, .f32⟩ : BufTy).Contents (Elt F)),
    StableHlo.unary main_v2433 main_v3649 (Host.cos : (⟨S16384, .f32⟩ : BufTy).Contents (Elt F) → (⟨S16384, .f32⟩ : BufTy).Contents (Elt F)),
    StableHlo.unary main_v3628 main_v3650 (Host.sin : (⟨S16384, .f32⟩ : BufTy).Contents (Elt F) → (⟨S16384, .f32⟩ : BufTy).Contents (Elt F)),
    StableHlo.unary main_v3486 main_v3651 (Host.cos : (⟨S16384, .f32⟩ : BufTy).Contents (Elt F) → (⟨S16384, .f32⟩ : BufTy).Contents (Elt F)),
    StableHlo.unary main_v3265 main_v3652 (Host.sin : (⟨S16384, .f32⟩ : BufTy).Contents (Elt F) → (⟨S16384, .f32⟩ : BufTy).Contents (Elt F)),
    StableHlo.unary main_v3464 main_v3653 (Host.cos : (⟨S16384, .f32⟩ : BufTy).Contents (Elt F) → (⟨S16384, .f32⟩ : BufTy).Contents (Elt F)),
    StableHlo.unary main_v3645 main_v3654 (Host.sin : (⟨S16384, .f32⟩ : BufTy).Contents (Elt F) → (⟨S16384, .f32⟩ : BufTy).Contents (Elt F)),
    StableHlo.binary main_v3609 main_v3306 main_v3655 (subf : (⟨S16384, .f32⟩ : BufTy).Contents (Elt F) → (⟨S16384, .f32⟩ : BufTy).Contents (Elt F) → (⟨S16384, .f32⟩ : BufTy).Contents (Elt F)),
    StableHlo.unary main_v3627 main_v3656 (Host.sin : (⟨S16384, .f32⟩ : BufTy).Contents (Elt F) → (⟨S16384, .f32⟩ : BufTy).Contents (Elt F)),
    StableHlo.binary main_v3464 main_v3485 main_v3657 (subf : (⟨S16384, .f32⟩ : BufTy).Contents (Elt F) → (⟨S16384, .f32⟩ : BufTy).Contents (Elt F) → (⟨S16384, .f32⟩ : BufTy).Contents (Elt F)),
    StableHlo.unary main_v3588 main_v3658 (Host.sin : (⟨S16384, .f32⟩ : BufTy).Contents (Elt F) → (⟨S16384, .f32⟩ : BufTy).Contents (Elt F)),
    StableHlo.unary main_v3358 main_v3659 (Host.sin : (⟨S16384, .f32⟩ : BufTy).Contents (Elt F) → (⟨S16384, .f32⟩ : BufTy).Contents (Elt F)),
    StableHlo.unary main_v3476 main_v3660 (Host.negf : (⟨S16384, .f32⟩ : BufTy).Contents (Elt F) → (⟨S16384, .f32⟩ : BufTy).Contents (Elt F)),
    StableHlo.unary main_v3634 main_v3661 (Host.negf : (⟨S16384, .f32⟩ : BufTy).Contents (Elt F) → (⟨S16384, .f32⟩ : BufTy).Contents (Elt F)),
    StableHlo.unary main_v3504 main_v3662 (Host.sin : (⟨S16384, .f32⟩ : BufTy).Contents (Elt F) → (⟨S16384, .f32⟩ : BufTy).Contents (Elt F)),
    StableHlo.unary main_v3095 main_v3663 (Host.sin : (⟨S16384, .f32⟩ : BufTy).Contents (Elt F) → (⟨S16384, .f32⟩ : BufTy).Contents (Elt F)),
    StableHlo.unary main_v3620 main_v3664 (Host.cos : (⟨S16384, .f32⟩ : BufTy).Contents (Elt F) → (⟨S16384, .f32⟩ : BufTy).Contents (Elt F)),
    StableHlo.binary main_v2656 main_v3358 main_v3665 (mulf : (⟨S16384, .f32⟩ : BufTy).Contents (Elt F) → (⟨S16384, .f32⟩ : BufTy).Contents (Elt F) → (⟨S16384, .f32⟩ : BufTy).Contents (Elt F)),
    StableHlo.binary main_v3489 main_v3659 main_v3666 (addf : (⟨S16384, .f32⟩ : BufTy).Contents (Elt F) → (⟨S16384, .f32⟩ : BufTy).Contents (Elt F) → (⟨S16384, .f32⟩ : BufTy).Contents (Elt F)),
    StableHlo.binary main_v3651 main_v3329 main_v3667 (addf : (⟨S16384, .f32⟩ : BufTy).Contents (Elt F) → (⟨S16384, .f32⟩ : BufTy).Contents (Elt F) → (⟨S16384, .f32⟩ : BufTy).Contents (Elt F)),
    StableHlo.unary main_v3614 main_v3668 (Host.negf : (⟨S16384, .f32⟩ : BufTy).Contents (Elt F) → (⟨S16384, .f32⟩ : BufTy).Contents (Elt F)),
    StableHlo.binary main_v3372 main_v3646 main_v3669 (subf : (⟨S16384, .f32⟩ : BufTy).Contents (Elt F) → (⟨S16384, .f32⟩ : BufTy).Contents (Elt F) → (⟨S16384, .f32⟩ : BufTy).Contents (Elt F)),
    StableHlo.unary main_v3639 main_v3670 (Host.cos : (⟨S16384, .f32⟩ : BufTy).Contents (Elt F) → (⟨S16384, .f32⟩ : BufTy).Contents (Elt F)),
    StableHlo.binary main_v3647 main_v3341 main_v3671 (addf : (⟨S16384, .f32⟩ : BufTy).Contents (Elt F) → (⟨S16384, .f32⟩ : BufTy).Contents (Elt F) → (⟨S16384, .f32⟩ : BufTy).Contents (Elt F)),
    StableHlo.binary main_v3041 main_v2997 main_v3672 (subf : (⟨S16384, .f32⟩ : BufTy).Contents (Elt F) → (⟨S16384, .f32⟩ : BufTy).Contents (Elt F) → (⟨S16384, .f32⟩ : BufTy).Contents (Elt F)),
    StableHlo.unary main_v3641 main_v3673 (Host.negf : (⟨S16384, .f32⟩ : BufTy).Contents (Elt F) → (⟨S16384, .f32⟩ : BufTy).Contents (Elt F)),
    StableHlo.binary main_v2439 main_v3612 main_v3674 (mulf : (⟨S16384, .f32⟩ : BufTy).Contents (Elt F) → (⟨S16384, .f32⟩ : BufTy).Contents (Elt F) → (⟨S16384, .f32⟩ : BufTy).Contents (Elt F)),
    StableHlo.binary main_v3171 main_v3171 main_v3675 (mulf : (⟨S16384, .f32⟩ : BufTy).Contents (Elt F) → (⟨S16384, .f32⟩ : BufTy).Contents (Elt F) → (⟨S16384, .f32⟩ : BufTy).Contents (Elt F)),
    StableHlo.binary main_v3603 main_v3665 main_v3676 (addf : (⟨S16384, .f32⟩ : BufTy).Contents (Elt F) → (⟨S16384, .f32⟩ : BufTy).Contents (Elt F) → (⟨S16384, .f32⟩ : BufTy).Contents (Elt F)),
    StableHlo.binary main_v3529 main_v3269 main_v3677 (subf : (⟨S16384, .f32⟩ : BufTy).Contents (Elt F) → (⟨S16384, .f32⟩ : BufTy).Contents (Elt F) → (⟨S16384, .f32⟩ : BufTy).Contents (Elt F)),
    StableHlo.unary main_v3619 main_v3678 (Host.cos : (⟨S16384, .f32⟩ : BufTy).Contents (Elt F) → (⟨S16384, .f32⟩ : BufTy).Contents (Elt F)),
    StableHlo.unary main_v3366 main_v3679 (Host.sin : (⟨S16384, .f32⟩ : BufTy).Contents (Elt F) → (⟨S16384, .f32⟩ : BufTy).Contents (Elt F)),
    StableHlo.binary main_v3676 main_v2838 main_v3680 (addf : (⟨S16384, .f32⟩ : BufTy).Contents (Elt F) → (⟨S16384, .f32⟩ : BufTy).Contents (Elt F) → (⟨S16384, .f32⟩ : BufTy).Contents (Elt F)),
    StableHlo.unary main_v3520 main_v3681 (Host.cos : (⟨S16384, .f32⟩ : BufTy).Contents (Elt F) → (⟨S16384, .f32⟩ : BufTy).Contents (Elt F)),
    StableHlo.binary main_v3496 main_v3575 main_v3682 (addf : (⟨S16384, .f32⟩ : BufTy).Contents (Elt F) → (⟨S16384, .f32⟩ : BufTy).Contents (Elt F) → (⟨S16384, .f32⟩ : BufTy).Contents (Elt F)),
    StableHlo.unary main_v3661 main_v3683 (Host.negf : (⟨S16384, .f32⟩ : BufTy).Contents (Elt F) → (⟨S16384, .f32⟩ : BufTy).Contents (Elt F)),
    StableHlo.unary main_v3427 main_v3684 (Host.sin : (⟨S16384, .f32⟩ : BufTy).Contents (Elt F) → (⟨S16384, .f32⟩ : BufTy).Contents (Elt F)),
    StableHlo.unary main_v3478 main_v3685 (Host.sin : (⟨S16384, .f32⟩ : BufTy).Contents (Elt F) → (⟨S16384, .f32⟩ : BufTy).Contents (Elt F)),
    StableHlo.binary main_v3332 main_v3332 main_v3686 (mulf : (⟨S16384, .f32⟩ : BufTy).Contents (Elt F) → (⟨S16384, .f32⟩ : BufTy).Contents (Elt F) → (⟨S16384, .f32⟩ : BufTy).Contents (Elt F)),
    StableHlo.unary main_v3669 main_v3687 (Host.negf : (⟨S16384, .f32⟩ : BufTy).Contents (Elt F) → (⟨S16384, .f32⟩ : BufTy).Contents (Elt F)),
    StableHlo.binary main_v3235 main_v3570 main_v3688 (subf : (⟨S16384, .f32⟩ : BufTy).Contents (Elt F) → (⟨S16384, .f32⟩ : BufTy).Contents (Elt F) → (⟨S16384, .f32⟩ : BufTy).Contents (Elt F)),
    StableHlo.binary main_v3332 main_v3332 main_v3689 (mulf : (⟨S16384, .f32⟩ : BufTy).Contents (Elt F) → (⟨S16384, .f32⟩ : BufTy).Contents (Elt F) → (⟨S16384, .f32⟩ : BufTy).Contents (Elt F)),
    StableHlo.binary main_v3095 main_v3269 main_v3690 (subf : (⟨S16384, .f32⟩ : BufTy).Contents (Elt F) → (⟨S16384, .f32⟩ : BufTy).Contents (Elt F) → (⟨S16384, .f32⟩ : BufTy).Contents (Elt F)),
    StableHlo.binary main_v3643 main_v3643 main_v3691 (mulf : (⟨S16384, .f32⟩ : BufTy).Contents (Elt F) → (⟨S16384, .f32⟩ : BufTy).Contents (Elt F) → (⟨S16384, .f32⟩ : BufTy).Contents (Elt F)),
    StableHlo.unary main_v3461 main_v3692 (Host.sin : (⟨S16384, .f32⟩ : BufTy).Contents (Elt F) → (⟨S16384, .f32⟩ : BufTy).Contents (Elt F)),
    StableHlo.unary main_v3444 main_v3693 (Host.cos : (⟨S16384, .f32⟩ : BufTy).Contents (Elt F) → (⟨S16384, .f32⟩ : BufTy).Contents (Elt F)),
    StableHlo.unary main_v3329 main_v3694 (Host.cos : (⟨S16384, .f32⟩ : BufTy).Contents (Elt F) → (⟨S16384, .f32⟩ : BufTy).Contents (Elt F)),
    StableHlo.unary main_v2594 main_v3695 (Host.cos : (⟨S16384, .f32⟩ : BufTy).Contents (Elt F) → (⟨S16384, .f32⟩ : BufTy).Contents (Elt F)),
    StableHlo.unary main_v3575 main_v3696 (Host.cos : (⟨S16384, .f32⟩ : BufTy).Contents (Elt F) → (⟨S16384, .f32⟩ : BufTy).Contents (Elt F)),
    StableHlo.unary main_v3646 main_v3697 (Host.sin : (⟨S16384, .f32⟩ : BufTy).Contents (Elt F) → (⟨S16384, .f32⟩ : BufTy).Contents (Elt F)),
    StableHlo.binary main_v3452 main_v3578 main_v3698 (subf : (⟨S16384, .f32⟩ : BufTy).Contents (Elt F) → (⟨S16384, .f32⟩ : BufTy).Contents (Elt F) → (⟨S16384, .f32⟩ : BufTy).Contents (Elt F)),
    StableHlo.unary main_v3513 main_v3699 (Host.cos : (⟨S16384, .f32⟩ : BufTy).Contents (Elt F) → (⟨S16384, .f32⟩ : BufTy).Contents (Elt F)),
    StableHlo.binary main_v3461 main_v3560 main_v3700 (subf : (⟨S16384, .f32⟩ : BufTy).Contents (Elt F) → (⟨S16384, .f32⟩ : BufTy).Contents (Elt F) → (⟨S16384, .f32⟩ : BufTy).Contents (Elt F)),
    StableHlo.unary main_v3397 main_v3701 (Host.sin : (⟨S16384, .f32⟩ : BufTy).Contents (Elt F) → (⟨S16384, .f32⟩ : BufTy).Contents (Elt F)),
    StableHlo.binary main_v3679 main_v3654 main_v3702 (mulf : (⟨S16384, .f32⟩ : BufTy).Contents (Elt F) → (⟨S16384, .f32⟩ : BufTy).Contents (Elt F) → (⟨S16384, .f32⟩ : BufTy).Contents (Elt F)),
    StableHlo.binary main_v3698 main_v3688 main_v3703 (mulf : (⟨S16384, .f32⟩ : BufTy).Contents (Elt F) → (⟨S16384, .f32⟩ : BufTy).Contents (Elt F) → (⟨S16384, .f32⟩ : BufTy).Contents (Elt F)) ]

theorem part61_eq (d : Dev nD) : main_part61 (F := F) d = seq ops61 := rfl
theorem ops61_sub : (ops61 (F := F)).Forall fun op => op.bufs ⊆ tcRefs τ sig := by line_sub
theorem ops61_fresh : ∀ op ∈ (ops61 (F := F)), op.fresh = ∅ := by line_fresh
theorem ops61_ordered : Cert.Ssa.Ordered 3661 (ops61 (F := F)) := by line_ordered

/-- Window 62 of @main: its operations, positions 3721 to 3780, in order. -/
abbrev ops62 : List (HloOp τ sig (Elt F)) :=
  [ StableHlo.unary main_v3392 main_v3704 (Host.cos : (⟨S16384, .f32⟩ : BufTy).Contents (Elt F) → (⟨S16384, .f32⟩ : BufTy).Contents (Elt F)),
    StableHlo.unary main_v3573 main_v3705 (Host.sin : (⟨S16384, .f32⟩ : BufTy).Contents (Elt F) → (⟨S16384, .f32⟩ : BufTy).Contents (Elt F)),
    StableHlo.unary main_v3557 main_v3706 (Host.cos : (⟨S16384, .f32⟩ : BufTy).Contents (Elt F) → (⟨S16384, .f32⟩ : BufTy).Contents (Elt F)),
    StableHlo.unary main_v3290 main_v3707 (Host.sin : (⟨S16384, .f32⟩ : BufTy).Contents (Elt F) → (⟨S16384, .f32⟩ : BufTy).Contents (Elt F)),
    StableHlo.binary main_v3330 main_v3563 main_v3708 (mulf : (⟨S16384, .f32⟩ : BufTy).Contents (Elt F) → (⟨S16384, .f32⟩ : BufTy).Contents (Elt F) → (⟨S16384, .f32⟩ : BufTy).Contents (Elt F)),
    StableHlo.binary main_v3462 main_v3528 main_v3709 (subf : (⟨S16384, .f32⟩ : BufTy).Contents (Elt F) → (⟨S16384, .f32⟩ : BufTy).Contents (Elt F) → (⟨S16384, .f32⟩ : BufTy).Contents (Elt F)),
    StableHlo.binary main_v3359 main_v3481 main_v3710 (addf : (⟨S16384, .f32⟩ : BufTy).Contents (Elt F) → (⟨S16384, .f32⟩ : BufTy).Contents (Elt F) → (⟨S16384, .f32⟩ : BufTy).Contents (Elt F)),
    StableHlo.unary main_v3610 main_v3711 (Host.sin : (⟨S16384, .f32⟩ : BufTy).Contents (Elt F) → (⟨S16384, .f32⟩ : BufTy).Contents (Elt F)),
    StableHlo.unary main_v3522 main_v3712 (Host.negf : (⟨S16384, .f32⟩ : BufTy).Contents (Elt F) → (⟨S16384, .f32⟩ : BufTy).Contents (Elt F)),
    StableHlo.binary main_v3463 main_v3463 main_v3713 (mulf : (⟨S16384, .f32⟩ : BufTy).Contents (Elt F) → (⟨S16384, .f32⟩ : BufTy).Contents (Elt F) → (⟨S16384, .f32⟩ : BufTy).Contents (Elt F)),
    StableHlo.unary main_v3547 main_v3714 (Host.negf : (⟨S16384, .f32⟩ : BufTy).Contents (Elt F) → (⟨S16384, .f32⟩ : BufTy).Contents (Elt F)),
    StableHlo.binary main_v3628 main_v3621 main_v3715 (addf : (⟨S16384, .f32⟩ : BufTy).Contents (Elt F) → (⟨S16384, .f32⟩ : BufTy).Contents (Elt F) → (⟨S16384, .f32⟩ : BufTy).Contents (Elt F)),
    StableHlo.unary main_v2961 main_v3716 (Host.sin : (⟨S16384, .f32⟩ : BufTy).Contents (Elt F) → (⟨S16384, .f32⟩ : BufTy).Contents (Elt F)),
    StableHlo.binary main_v3707 main_v3576 main_v3717 (subf : (⟨S16384, .f32⟩ : BufTy).Contents (Elt F) → (⟨S16384, .f32⟩ : BufTy).Contents (Elt F) → (⟨S16384, .f32⟩ : BufTy).Contents (Elt F)),
    StableHlo.unary main_v3419 main_v3718 (Host.sin : (⟨S16384, .f32⟩ : BufTy).Contents (Elt F) → (⟨S16384, .f32⟩ : BufTy).Contents (Elt F)),
    StableHlo.binary main_v2953 main_v2439 main_v3719 (mulf : (⟨S16384, .f32⟩ : BufTy).Contents (Elt F) → (⟨S16384, .f32⟩ : BufTy).Contents (Elt F) → (⟨S16384, .f32⟩ : BufTy).Contents (Elt F)),
    StableHlo.binary main_v3477 main_v3280 main_v3720 (subf : (⟨S16384, .f32⟩ : BufTy).Contents (Elt F) → (⟨S16384, .f32⟩ : BufTy).Contents (Elt F) → (⟨S16384, .f32⟩ : BufTy).Contents (Elt F)),
    StableHlo.unary main_v3564 main_v3721 (Host.cos : (⟨S16384, .f32⟩ : BufTy).Contents (Elt F) → (⟨S16384, .f32⟩ : BufTy).Contents (Elt F)),
    StableHlo.unary main_v3532 main_v3722 (Host.sin : (⟨S16384, .f32⟩ : BufTy).Contents (Elt F) → (⟨S16384, .f32⟩ : BufTy).Contents (Elt F)),
    StableHlo.unary main_v3617 main_v3723 (Host.sin : (⟨S16384, .f32⟩ : BufTy).Contents (Elt F) → (⟨S16384, .f32⟩ : BufTy).Contents (Elt F)),
    StableHlo.binary main_v3634 main_v2851 main_v3724 (subf : (⟨S16384, .f32⟩ : BufTy).Contents (Elt F) → (⟨S16384, .f32⟩ : BufTy).Contents (Elt F) → (⟨S16384, .f32⟩ : BufTy).Contents (Elt F)),
    StableHlo.binary main_v3107 main_v3313 main_v3725 (addf : (⟨S16384, .f32⟩ : BufTy).Contents (Elt F) → (⟨S16384, .f32⟩ : BufTy).Contents (Elt F) → (⟨S16384, .f32⟩ : BufTy).Contents (Elt F)),
    StableHlo.unary main_v3701 main_v3726 (Host.cos : (⟨S16384, .f32⟩ : BufTy).Contents (Elt F) → (⟨S16384, .f32⟩ : BufTy).Contents (Elt F)),
    StableHlo.unary main_v3599 main_v3727 (Host.sin : (⟨S16384, .f32⟩ : BufTy).Contents (Elt F) → (⟨S16384, .f32⟩ : BufTy).Contents (Elt F)),
    StableHlo.binary main_v3448 main_v3626 main_v3728 (mulf : (⟨S16384, .f32⟩ : BufTy).Contents (Elt F) → (⟨S16384, .f32⟩ : BufTy).Contents (Elt F) → (⟨S16384, .f32⟩ : BufTy).Contents (Elt F)),
    StableHlo.unary main_v3637 main_v3729 (Host.sin : (⟨S16384, .f32⟩ : BufTy).Contents (Elt F) → (⟨S16384, .f32⟩ : BufTy).Contents (Elt F)),
    StableHlo.unary main_v3509 main_v3730 (Host.cos : (⟨S16384, .f32⟩ : BufTy).Contents (Elt F) → (⟨S16384, .f32⟩ : BufTy).Contents (Elt F)),
    StableHlo.binary main_v3603 main_v3728 main_v3731 (subf : (⟨S16384, .f32⟩ : BufTy).Contents (Elt F) → (⟨S16384, .f32⟩ : BufTy).Contents (Elt F) → (⟨S16384, .f32⟩ : BufTy).Contents (Elt F)),
    StableHlo.binary main_v3626 main_v3698 main_v3732 (addf : (⟨S16384, .f32⟩ : BufTy).Contents (Elt F) → (⟨S16384, .f32⟩ : BufTy).Contents (Elt F) → (⟨S16384, .f32⟩ : BufTy).Contents (Elt F)),
    StableHlo.unary main_v3699 main_v3733 (Host.cos : (⟨S16384, .f32⟩ : BufTy).Contents (Elt F) → (⟨S16384, .f32⟩ : BufTy).Contents (Elt F)),
    StableHlo.unary main_v3477 main_v3734 (Host.sin : (⟨S16384, .f32⟩ : BufTy).Contents (Elt F) → (⟨S16384, .f32⟩ : BufTy).Contents (Elt F)),
    StableHlo.binary main_v3313 main_v3313 main_v3735 (mulf : (⟨S16384, .f32⟩ : BufTy).Contents (Elt F) → (⟨S16384, .f32⟩ : BufTy).Contents (Elt F) → (⟨S16384, .f32⟩ : BufTy).Contents (Elt F)),
    StableHlo.unary main_v3673 main_v3736 (Host.sin : (⟨S16384, .f32⟩ : BufTy).Contents (Elt F) → (⟨S16384, .f32⟩ : BufTy).Contents (Elt F)),
    StableHlo.binary main_v3669 main_v3522 main_v3737 (addf : (⟨S16384, .f32⟩ : BufTy).Contents (Elt F) → (⟨S16384, .f32⟩ : BufTy).Contents (Elt F) → (⟨S16384, .f32⟩ : BufTy).Contents (Elt F)),
    StableHlo.unary main_v3733 main_v3738 (Host.cos : (⟨S16384, .f32⟩ : BufTy).Contents (Elt F) → (⟨S16384, .f32⟩ : BufTy).Contents (Elt F)),
    StableHlo.unary main_v3483 main_v3739 (Host.cos : (⟨S16384, .f32⟩ : BufTy).Contents (Elt F) → (⟨S16384, .f32⟩ : BufTy).Contents (Elt F)),
    StableHlo.binary main_v3547 main_v3626 main_v3740 (subf : (⟨S16384, .f32⟩ : BufTy).Contents (Elt F) → (⟨S16384, .f32⟩ : BufTy).Contents (Elt F) → (⟨S16384, .f32⟩ : BufTy).Contents (Elt F)),
    StableHlo.unary main_v3610 main_v3741 (Host.cos : (⟨S16384, .f32⟩ : BufTy).Contents (Elt F) → (⟨S16384, .f32⟩ : BufTy).Contents (Elt F)),
    StableHlo.unary main_v3690 main_v3742 (Host.sin : (⟨S16384, .f32⟩ : BufTy).Contents (Elt F) → (⟨S16384, .f32⟩ : BufTy).Contents (Elt F)),
    StableHlo.binary main_v3651 main_v3695 main_v3743 (subf : (⟨S16384, .f32⟩ : BufTy).Contents (Elt F) → (⟨S16384, .f32⟩ : BufTy).Contents (Elt F) → (⟨S16384, .f32⟩ : BufTy).Contents (Elt F)),
    StableHlo.binary main_v3664 main_v3728 main_v3744 (subf : (⟨S16384, .f32⟩ : BufTy).Contents (Elt F) → (⟨S16384, .f32⟩ : BufTy).Contents (Elt F) → (⟨S16384, .f32⟩ : BufTy).Contents (Elt F)),
    StableHlo.binary main_v2656 main_v3612 main_v3745 (mulf : (⟨S16384, .f32⟩ : BufTy).Contents (Elt F) → (⟨S16384, .f32⟩ : BufTy).Contents (Elt F) → (⟨S16384, .f32⟩ : BufTy).Contents (Elt F)),
    StableHlo.binary main_v3500 main_v3299 main_v3746 (mulf : (⟨S16384, .f32⟩ : BufTy).Contents (Elt F) → (⟨S16384, .f32⟩ : BufTy).Contents (Elt F) → (⟨S16384, .f32⟩ : BufTy).Contents (Elt F)),
    StableHlo.unary main_v3269 main_v3747 (Host.sin : (⟨S16384, .f32⟩ : BufTy).Contents (Elt F) → (⟨S16384, .f32⟩ : BufTy).Contents (Elt F)),
    StableHlo.unary main_v3739 main_v3748 (Host.cos : (⟨S16384, .f32⟩ : BufTy).Contents (Elt F) → (⟨S16384, .f32⟩ : BufTy).Contents (Elt F)),
    StableHlo.binary main_v3708 main_v3585 main_v3749 (mulf : (⟨S16384, .f32⟩ : BufTy).Contents (Elt F) → (⟨S16384, .f32⟩ : BufTy).Contents (Elt F) → (⟨S16384, .f32⟩ : BufTy).Contents (Elt F)),
    StableHlo.binary main_v3632 main_v3646 main_v3750 (subf : (⟨S16384, .f32⟩ : BufTy).Contents (Elt F) → (⟨S16384, .f32⟩ : BufTy).Contents (Elt F) → (⟨S16384, .f32⟩ : BufTy).Contents (Elt F)),
    StableHlo.binary main_v3312 main_v3649 main_v3751 (addf : (⟨S16384, .f32⟩ : BufTy).Contents (Elt F) → (⟨S16384, .f32⟩ : BufTy).Contents (Elt F) → (⟨S16384, .f32⟩ : BufTy).Contents (Elt F)),
    StableHlo.binary main_v3421 main_v3528 main_v3752 (addf : (⟨S16384, .f32⟩ : BufTy).Contents (Elt F) → (⟨S16384, .f32⟩ : BufTy).Contents (Elt F) → (⟨S16384, .f32⟩ : BufTy).Contents (Elt F)),
    StableHlo.unary main_v3563 main_v3753 (Host.cos : (⟨S16384, .f32⟩ : BufTy).Contents (Elt F) → (⟨S16384, .f32⟩ : BufTy).Contents (Elt F)),
    StableHlo.binary main_v3745 main_v3575 main_v3754 (subf : (⟨S16384, .f32⟩ : BufTy).Contents (Elt F) → (⟨S16384, .f32⟩ : BufTy).Contents (Elt F) → (⟨S16384, .f32⟩ : BufTy).Contents (Elt F)),
    StableHlo.binary main_v3457 main_v3513 main_v3755 (addf : (⟨S16384, .f32⟩ : BufTy).Contents (Elt F) → (⟨S16384, .f32⟩ : BufTy).Contents (Elt F) → (⟨S16384, .f32⟩ : BufTy).Contents (Elt F)),
    StableHlo.binary main_v3579 main_v3413 main_v3756 (addf : (⟨S16384, .f32⟩ : BufTy).Contents (Elt F) → (⟨S16384, .f32⟩ : BufTy).Contents (Elt F) → (⟨S16384, .f32⟩ : BufTy).Contents (Elt F)),
    StableHlo.binary main_v3071 main_v3082 main_v3757 (subf : (⟨S16384, .f32⟩ : BufTy).Contents (Elt F) → (⟨S16384, .f32⟩ : BufTy).Contents (Elt F) → (⟨S16384, .f32⟩ : BufTy).Contents (Elt F)),
    StableHlo.binary main_v3682 main_v3099 main_v3758 (subf : (⟨S16384, .f32⟩ : BufTy).Contents (Elt F) → (⟨S16384, .f32⟩ : BufTy).Contents (Elt F) → (⟨S16384, .f32⟩ : BufTy).Contents (Elt F)),
    StableHlo.binary main_v3463 main_v3432 main_v3759 (subf : (⟨S16384, .f32⟩ : BufTy).Contents (Elt F) → (⟨S16384, .f32⟩ : BufTy).Contents (Elt F) → (⟨S16384, .f32⟩ : BufTy).Contents (Elt F)),
    StableHlo.unary main_v3609 main_v3760 (Host.sin : (⟨S16384, .f32⟩ : BufTy).Contents (Elt F) → (⟨S16384, .f32⟩ : BufTy).Contents (Elt F)),
    StableHlo.unary main_v3445 main_v3761 (Host.sin : (⟨S16384, .f32⟩ : BufTy).Contents (Elt F) → (⟨S16384, .f32⟩ : BufTy).Contents (Elt F)),
    StableHlo.binary main_v3448 main_v3624 main_v3762 (mulf : (⟨S16384, .f32⟩ : BufTy).Contents (Elt F) → (⟨S16384, .f32⟩ : BufTy).Contents (Elt F) → (⟨S16384, .f32⟩ : BufTy).Contents (Elt F)),
    StableHlo.unary main_v3569 main_v3763 (Host.sin : (⟨S16384, .f32⟩ : BufTy).Contents (Elt F) → (⟨S16384, .f32⟩ : BufTy).Contents (Elt F)) ]

theorem part62_eq (d : Dev nD) : main_part62 (F := F) d = seq ops62 := rfl
theorem ops62_sub : (ops62 (F := F)).Forall fun op => op.bufs ⊆ tcRefs τ sig := by line_sub
theorem ops62_fresh : ∀ op ∈ (ops62 (F := F)), op.fresh = ∅ := by line_fresh
theorem ops62_ordered : Cert.Ssa.Ordered 3721 (ops62 (F := F)) := by line_ordered

/-- Window 63 of @main: its operations, positions 3781 to 3840, in order. -/
abbrev ops63 : List (HloOp τ sig (Elt F)) :=
  [ StableHlo.binary main_v3641 main_v3641 main_v3764 (mulf : (⟨S16384, .f32⟩ : BufTy).Contents (Elt F) → (⟨S16384, .f32⟩ : BufTy).Contents (Elt F) → (⟨S16384, .f32⟩ : BufTy).Contents (Elt F)),
    StableHlo.unary main_v3645 main_v3765 (Host.negf : (⟨S16384, .f32⟩ : BufTy).Contents (Elt F) → (⟨S16384, .f32⟩ : BufTy).Contents (Elt F)),
    StableHlo.unary main_v3739 main_v3766 (Host.cos : (⟨S16384, .f32⟩ : BufTy).Contents (Elt F) → (⟨S16384, .f32⟩ : BufTy).Contents (Elt F)),
    StableHlo.binary main_v3651 main_v3095 main_v3767 (subf : (⟨S16384, .f32⟩ : BufTy).Contents (Elt F) → (⟨S16384, .f32⟩ : BufTy).Contents (Elt F) → (⟨S16384, .f32⟩ : BufTy).Contents (Elt F)),
    StableHlo.unary main_v3304 main_v3768 (Host.negf : (⟨S16384, .f32⟩ : BufTy).Contents (Elt F) → (⟨S16384, .f32⟩ : BufTy).Contents (Elt F)),
    StableHlo.binary main_v3750 main_v3505 main_v3769 (addf : (⟨S16384, .f32⟩ : BufTy).Contents (Elt F) → (⟨S16384, .f32⟩ : BufTy).Contents (Elt F) → (⟨S16384, .f32⟩ : BufTy).Contents (Elt F)),
    StableHlo.binary main_v3627 main_v3598 main_v3770 (subf : (⟨S16384, .f32⟩ : BufTy).Contents (Elt F) → (⟨S16384, .f32⟩ : BufTy).Contents (Elt F) → (⟨S16384, .f32⟩ : BufTy).Contents (Elt F)),
    StableHlo.binary main_v3346 main_v3470 main_v3771 (mulf : (⟨S16384, .f32⟩ : BufTy).Contents (Elt F) → (⟨S16384, .f32⟩ : BufTy).Contents (Elt F) → (⟨S16384, .f32⟩ : BufTy).Contents (Elt F)),
    StableHlo.binary main_v3717 main_v3656 main_v3772 (mulf : (⟨S16384, .f32⟩ : BufTy).Contents (Elt F) → (⟨S16384, .f32⟩ : BufTy).Contents (Elt F) → (⟨S16384, .f32⟩ : BufTy).Contents (Elt F)),
    StableHlo.binary main_v3762 main_v3764 main_v3773 (mulf : (⟨S16384, .f32⟩ : BufTy).Contents (Elt F) → (⟨S16384, .f32⟩ : BufTy).Contents (Elt F) → (⟨S16384, .f32⟩ : BufTy).Contents (Elt F)),
    StableHlo.unary main_v3496 main_v3774 (Host.cos : (⟨S16384, .f32⟩ : BufTy).Contents (Elt F) → (⟨S16384, .f32⟩ : BufTy).Contents (Elt F)),
    StableHlo.unary main_v3706 main_v3775 (Host.cos : (⟨S16384, .f32⟩ : BufTy).Contents (Elt F) → (⟨S16384, .f32⟩ : BufTy).Contents (Elt F)),
    StableHlo.unary main_v3722 main_v3776 (Host.sin : (⟨S16384, .f32⟩ : BufTy).Contents (Elt F) → (⟨S16384, .f32⟩ : BufTy).Contents (Elt F)),
    StableHlo.unary main_v3642 main_v3777 (Host.sin : (⟨S16384, .f32⟩ : BufTy).Contents (Elt F) → (⟨S16384, .f32⟩ : BufTy).Contents (Elt F)),
    StableHlo.binary main_v3768 main_v3750 main_v3778 (mulf : (⟨S16384, .f32⟩ : BufTy).Contents (Elt F) → (⟨S16384, .f32⟩ : BufTy).Contents (Elt F) → (⟨S16384, .f32⟩ : BufTy).Contents (Elt F)),
    StableHlo.unary main_v3684 main_v3779 (Host.sin : (⟨S16384, .f32⟩ : BufTy).Contents (Elt F) → (⟨S16384, .f32⟩ : BufTy).Contents (Elt F)),
    StableHlo.binary main_v3773 main_v3440 main_v3780 (mulf : (⟨S16384, .f32⟩ : BufTy).Contents (Elt F) → (⟨S16384, .f32⟩ : BufTy).Contents (Elt F) → (⟨S16384, .f32⟩ : BufTy).Contents (Elt F)),
    StableHlo.binary main_v3683 main_v3329 main_v3781 (mulf : (⟨S16384, .f32⟩ : BufTy).Contents (Elt F) → (⟨S16384, .f32⟩ : BufTy).Contents (Elt F) → (⟨S16384, .f32⟩ : BufTy).Contents (Elt F)),
    StableHlo.binary main_v3578 main_v2953 main_v3782 (mulf : (⟨S16384, .f32⟩ : BufTy).Contents (Elt F) → (⟨S16384, .f32⟩ : BufTy).Contents (Elt F) → (⟨S16384, .f32⟩ : BufTy).Contents (Elt F)),
    StableHlo.unary main_v3692 main_v3783 (Host.sin : (⟨S16384, .f32⟩ : BufTy).Contents (Elt F) → (⟨S16384, .f32⟩ : BufTy).Contents (Elt F)),
    StableHlo.unary main_v3772 main_v3784 (Host.sin : (⟨S16384, .f32⟩ : BufTy).Contents (Elt F) → (⟨S16384, .f32⟩ : BufTy).Contents (Elt F)),
    StableHlo.unary main_v3745 main_v3785 (Host.sin : (⟨S16384, .f32⟩ : BufTy).Contents (Elt F) → (⟨S16384, .f32⟩ : BufTy).Contents (Elt F)),
    StableHlo.binary main_v3483 main_v3269 main_v3786 (addf : (⟨S16384, .f32⟩ : BufTy).Contents (Elt F) → (⟨S16384, .f32⟩ : BufTy).Contents (Elt F) → (⟨S16384, .f32⟩ : BufTy).Contents (Elt F)),
    StableHlo.unary main_v3737 main_v3787 (Host.cos : (⟨S16384, .f32⟩ : BufTy).Contents (Elt F) → (⟨S16384, .f32⟩ : BufTy).Contents (Elt F)),
    StableHlo.unary main_v3618 main_v3788 (Host.cos : (⟨S16384, .f32⟩ : BufTy).Contents (Elt F) → (⟨S16384, .f32⟩ : BufTy).Contents (Elt F)),
    StableHlo.unary main_v3205 main_v3789 (Host.cos : (⟨S16384, .f32⟩ : BufTy).Contents (Elt F) → (⟨S16384, .f32⟩ : BufTy).Contents (Elt F)),
    StableHlo.unary main_v3757 main_v3790 (Host.cos : (⟨S16384, .f32⟩ : BufTy).Contents (Elt F) → (⟨S16384, .f32⟩ : BufTy).Contents (Elt F)),
    StableHlo.binary main_v3477 main_v3645 main_v3791 (addf : (⟨S16384, .f32⟩ : BufTy).Contents (Elt F) → (⟨S16384, .f32⟩ : BufTy).Contents (Elt F) → (⟨S16384, .f32⟩ : BufTy).Contents (Elt F)),
    StableHlo.binary main_v2742 main_v3440 main_v3792 (subf : (⟨S16384, .f32⟩ : BufTy).Contents (Elt F) → (⟨S16384, .f32⟩ : BufTy).Contents (Elt F) → (⟨S16384, .f32⟩ : BufTy).Contents (Elt F)),
    StableHlo.binary main_v3764 main_v3413 main_v3793 (subf : (⟨S16384, .f32⟩ : BufTy).Contents (Elt F) → (⟨S16384, .f32⟩ : BufTy).Contents (Elt F) → (⟨S16384, .f32⟩ : BufTy).Contents (Elt F)),
    StableHlo.binary main_v3122 main_v3761 main_v3794 (subf : (⟨S16384, .f32⟩ : BufTy).Contents (Elt F) → (⟨S16384, .f32⟩ : BufTy).Contents (Elt F) → (⟨S16384, .f32⟩ : BufTy).Contents (Elt F)),
    StableHlo.binary main_v3413 main_v3618 main_v3795 (subf : (⟨S16384, .f32⟩ : BufTy).Contents (Elt F) → (⟨S16384, .f32⟩ : BufTy).Contents (Elt F) → (⟨S16384, .f32⟩ : BufTy).Contents (Elt F)),
    StableHlo.unary main_v3734 main_v3796 (Host.cos : (⟨S16384, .f32⟩ : BufTy).Contents (Elt F) → (⟨S16384, .f32⟩ : BufTy).Contents (Elt F)),
    StableHlo.binary main_v3432 main_v3795 main_v3797 (mulf : (⟨S16384, .f32⟩ : BufTy).Contents (Elt F) → (⟨S16384, .f32⟩ : BufTy).Contents (Elt F) → (⟨S16384, .f32⟩ : BufTy).Contents (Elt F)),
    StableHlo.unary main_v3656 main_v3798 (Host.sin : (⟨S16384, .f32⟩ : BufTy).Contents (Elt F) → (⟨S16384, .f32⟩ : BufTy).Contents (Elt F)),
    StableHlo.unary main_v3752 main_v3799 (Host.sin : (⟨S16384, .f32⟩ : BufTy).Contents (Elt F) → (⟨S16384, .f32⟩ : BufTy).Contents (Elt F)),
    StableHlo.binary main_v3780 main_v3397 main_v3800 (mulf : (⟨S16384, .f32⟩ : BufTy).Contents (Elt F) → (⟨S16384, .f32⟩ : BufTy).Contents (Elt F) → (⟨S16384, .f32⟩ : BufTy).Contents (Elt F)),
    StableHlo.binary main_v3772 main_v3800 main_v3801 (subf : (⟨S16384, .f32⟩ : BufTy).Contents (Elt F) → (⟨S16384, .f32⟩ : BufTy).Contents (Elt F) → (⟨S16384, .f32⟩ : BufTy).Contents (Elt F)),
    StableHlo.unary main_v3791 main_v3802 (Host.cos : (⟨S16384, .f32⟩ : BufTy).Contents (Elt F) → (⟨S16384, .f32⟩ : BufTy).Contents (Elt F)),
    StableHlo.binary main_v3738 main_v3646 main_v3803 (subf : (⟨S16384, .f32⟩ : BufTy).Contents (Elt F) → (⟨S16384, .f32⟩ : BufTy).Contents (Elt F) → (⟨S16384, .f32⟩ : BufTy).Contents (Elt F)),
    StableHlo.binary main_v3099 main_v3099 main_v3804 (mulf : (⟨S16384, .f32⟩ : BufTy).Contents (Elt F) → (⟨S16384, .f32⟩ : BufTy).Contents (Elt F) → (⟨S16384, .f32⟩ : BufTy).Contents (Elt F)),
    StableHlo.unary main_v3733 main_v3805 (Host.sin : (⟨S16384, .f32⟩ : BufTy).Contents (Elt F) → (⟨S16384, .f32⟩ : BufTy).Contents (Elt F)),
    StableHlo.binary main_v3445 main_v3223 main_v3806 (mulf : (⟨S16384, .f32⟩ : BufTy).Contents (Elt F) → (⟨S16384, .f32⟩ : BufTy).Contents (Elt F) → (⟨S16384, .f32⟩ : BufTy).Contents (Elt F)),
    StableHlo.unary main_v3306 main_v3807 (Host.negf : (⟨S16384, .f32⟩ : BufTy).Contents (Elt F) → (⟨S16384, .f32⟩ : BufTy).Contents (Elt F)),
    StableHlo.binary main_v3591 main_v3591 main_v3808 (mulf : (⟨S16384, .f32⟩ : BufTy).Contents (Elt F) → (⟨S16384, .f32⟩ : BufTy).Contents (Elt F) → (⟨S16384, .f32⟩ : BufTy).Contents (Elt F)),
    StableHlo.unary main_v3312 main_v3809 (Host.cos : (⟨S16384, .f32⟩ : BufTy).Contents (Elt F) → (⟨S16384, .f32⟩ : BufTy).Contents (Elt F)),
    StableHlo.binary main_v3358 main_v3359 main_v3810 (subf : (⟨S16384, .f32⟩ : BufTy).Contents (Elt F) → (⟨S16384, .f32⟩ : BufTy).Contents (Elt F) → (⟨S16384, .f32⟩ : BufTy).Contents (Elt F)),
    StableHlo.unary main_v3575 main_v3811 (Host.cos : (⟨S16384, .f32⟩ : BufTy).Contents (Elt F) → (⟨S16384, .f32⟩ : BufTy).Contents (Elt F)),
    StableHlo.binary main_v2961 main_v3573 main_v3812 (subf : (⟨S16384, .f32⟩ : BufTy).Contents (Elt F) → (⟨S16384, .f32⟩ : BufTy).Contents (Elt F) → (⟨S16384, .f32⟩ : BufTy).Contents (Elt F)),
    StableHlo.unary main_v3107 main_v3813 (Host.sin : (⟨S16384, .f32⟩ : BufTy).Contents (Elt F) → (⟨S16384, .f32⟩ : BufTy).Contents (Elt F)),
    StableHlo.binary main_v3535 main_v3738 main_v3814 (mulf : (⟨S16384, .f32⟩ : BufTy).Contents (Elt F) → (⟨S16384, .f32⟩ : BufTy).Contents (Elt F) → (⟨S16384, .f32⟩ : BufTy).Contents (Elt F)),
    StableHlo.binary main_v3579 main_v2838 main_v3815 (mulf : (⟨S16384, .f32⟩ : BufTy).Contents (Elt F) → (⟨S16384, .f32⟩ : BufTy).Contents (Elt F) → (⟨S16384, .f32⟩ : BufTy).Contents (Elt F)),
    StableHlo.unary main_v3601 main_v3816 (Host.cos : (⟨S16384, .f32⟩ : BufTy).Contents (Elt F) → (⟨S16384, .f32⟩ : BufTy).Contents (Elt F)),
    StableHlo.binary main_v3637 main_v3637 main_v3817 (mulf : (⟨S16384, .f32⟩ : BufTy).Contents (Elt F) → (⟨S16384, .f32⟩ : BufTy).Contents (Elt F) → (⟨S16384, .f32⟩ : BufTy).Contents (Elt F)),
    StableHlo.unary main_v2660 main_v3818 (Host.cos : (⟨S16384, .f32⟩ : BufTy).Contents (Elt F) → (⟨S16384, .f32⟩ : BufTy).Contents (Elt F)),
    StableHlo.unary main_v3579 main_v3819 (Host.cos : (⟨S16384, .f32⟩ : BufTy).Contents (Elt F) → (⟨S16384, .f32⟩ : BufTy).Contents (Elt F)),
    StableHlo.unary main_v3505 main_v3820 (Host.cos : (⟨S16384, .f32⟩ : BufTy).Contents (Elt F) → (⟨S16384, .f32⟩ : BufTy).Contents (Elt F)),
    StableHlo.binary main_v3444 main_v3733 main_v3821 (addf : (⟨S16384, .f32⟩ : BufTy).Contents (Elt F) → (⟨S16384, .f32⟩ : BufTy).Contents (Elt F) → (⟨S16384, .f32⟩ : BufTy).Contents (Elt F)),
    StableHlo.binary main_v3444 main_v3665 main_v3822 (addf : (⟨S16384, .f32⟩ : BufTy).Contents (Elt F) → (⟨S16384, .f32⟩ : BufTy).Contents (Elt F) → (⟨S16384, .f32⟩ : BufTy).Contents (Elt F)),
    StableHlo.unary main_v3640 main_v3823 (Host.cos : (⟨S16384, .f32⟩ : BufTy).Contents (Elt F) → (⟨S16384, .f32⟩ : BufTy).Contents (Elt F)) ]

theorem part63_eq (d : Dev nD) : main_part63 (F := F) d = seq ops63 := rfl
theorem ops63_sub : (ops63 (F := F)).Forall fun op => op.bufs ⊆ tcRefs τ sig := by line_sub
theorem ops63_fresh : ∀ op ∈ (ops63 (F := F)), op.fresh = ∅ := by line_fresh
theorem ops63_ordered : Cert.Ssa.Ordered 3781 (ops63 (F := F)) := by line_ordered

/-- Window 64 of @main: its operations, positions 3841 to 3900, in order. -/
abbrev ops64 : List (HloOp τ sig (Elt F)) :=
  [ StableHlo.binary main_v3481 main_v3674 main_v3824 (subf : (⟨S16384, .f32⟩ : BufTy).Contents (Elt F) → (⟨S16384, .f32⟩ : BufTy).Contents (Elt F) → (⟨S16384, .f32⟩ : BufTy).Contents (Elt F)),
    StableHlo.binary main_v3095 main_v3788 main_v3825 (addf : (⟨S16384, .f32⟩ : BufTy).Contents (Elt F) → (⟨S16384, .f32⟩ : BufTy).Contents (Elt F) → (⟨S16384, .f32⟩ : BufTy).Contents (Elt F)),
    StableHlo.binary main_v3569 main_v3505 main_v3826 (addf : (⟨S16384, .f32⟩ : BufTy).Contents (Elt F) → (⟨S16384, .f32⟩ : BufTy).Contents (Elt F) → (⟨S16384, .f32⟩ : BufTy).Contents (Elt F)),
    StableHlo.unary main_v3798 main_v3827 (Host.cos : (⟨S16384, .f32⟩ : BufTy).Contents (Elt F) → (⟨S16384, .f32⟩ : BufTy).Contents (Elt F)),
    StableHlo.binary main_v3649 main_v3649 main_v3828 (mulf : (⟨S16384, .f32⟩ : BufTy).Contents (Elt F) → (⟨S16384, .f32⟩ : BufTy).Contents (Elt F) → (⟨S16384, .f32⟩ : BufTy).Contents (Elt F)),
    StableHlo.unary main_v3787 main_v3829 (Host.sin : (⟨S16384, .f32⟩ : BufTy).Contents (Elt F) → (⟨S16384, .f32⟩ : BufTy).Contents (Elt F)),
    StableHlo.unary main_v3702 main_v3830 (Host.cos : (⟨S16384, .f32⟩ : BufTy).Contents (Elt F) → (⟨S16384, .f32⟩ : BufTy).Contents (Elt F)),
    StableHlo.binary main_v3769 main_v3699 main_v3831 (addf : (⟨S16384, .f32⟩ : BufTy).Contents (Elt F) → (⟨S16384, .f32⟩ : BufTy).Contents (Elt F) → (⟨S16384, .f32⟩ : BufTy).Contents (Elt F)),
    StableHlo.unary main_v3320 main_v3832 (Host.sin : (⟨S16384, .f32⟩ : BufTy).Contents (Elt F) → (⟨S16384, .f32⟩ : BufTy).Contents (Elt F)),
    StableHlo.binary main_v3662 main_v3310 main_v3833 (subf : (⟨S16384, .f32⟩ : BufTy).Contents (Elt F) → (⟨S16384, .f32⟩ : BufTy).Contents (Elt F) → (⟨S16384, .f32⟩ : BufTy).Contents (Elt F)),
    StableHlo.binary main_v3689 main_v3786 main_v3834 (addf : (⟨S16384, .f32⟩ : BufTy).Contents (Elt F) → (⟨S16384, .f32⟩ : BufTy).Contents (Elt F) → (⟨S16384, .f32⟩ : BufTy).Contents (Elt F)),
    StableHlo.binary main_v3754 main_v3431 main_v3835 (addf : (⟨S16384, .f32⟩ : BufTy).Contents (Elt F) → (⟨S16384, .f32⟩ : BufTy).Contents (Elt F) → (⟨S16384, .f32⟩ : BufTy).Contents (Elt F)),
    StableHlo.unary main_v3781 main_v3836 (Host.sin : (⟨S16384, .f32⟩ : BufTy).Contents (Elt F) → (⟨S16384, .f32⟩ : BufTy).Contents (Elt F)),
    StableHlo.unary main_v3626 main_v3837 (Host.cos : (⟨S16384, .f32⟩ : BufTy).Contents (Elt F) → (⟨S16384, .f32⟩ : BufTy).Contents (Elt F)),
    StableHlo.unary main_v3753 main_v3838 (Host.cos : (⟨S16384, .f32⟩ : BufTy).Contents (Elt F) → (⟨S16384, .f32⟩ : BufTy).Contents (Elt F)),
    StableHlo.unary main_v3306 main_v3839 (Host.sin : (⟨S16384, .f32⟩ : BufTy).Contents (Elt F) → (⟨S16384, .f32⟩ : BufTy).Contents (Elt F)),
    StableHlo.unary main_v2961 main_v3840 (Host.sin : (⟨S16384, .f32⟩ : BufTy).Contents (Elt F) → (⟨S16384, .f32⟩ : BufTy).Contents (Elt F)),
    StableHlo.unary main_v3741 main_v3841 (Host.sin : (⟨S16384, .f32⟩ : BufTy).Contents (Elt F) → (⟨S16384, .f32⟩ : BufTy).Contents (Elt F)),
    StableHlo.unary main_v3358 main_v3842 (Host.cos : (⟨S16384, .f32⟩ : BufTy).Contents (Elt F) → (⟨S16384, .f32⟩ : BufTy).Contents (Elt F)),
    StableHlo.unary main_v3760 main_v3843 (Host.cos : (⟨S16384, .f32⟩ : BufTy).Contents (Elt F) → (⟨S16384, .f32⟩ : BufTy).Contents (Elt F)),
    StableHlo.unary main_v3588 main_v3844 (Host.sin : (⟨S16384, .f32⟩ : BufTy).Contents (Elt F) → (⟨S16384, .f32⟩ : BufTy).Contents (Elt F)),
    StableHlo.unary main_v3768 main_v3845 (Host.cos : (⟨S16384, .f32⟩ : BufTy).Contents (Elt F) → (⟨S16384, .f32⟩ : BufTy).Contents (Elt F)),
    StableHlo.unary main_v3660 main_v3846 (Host.sin : (⟨S16384, .f32⟩ : BufTy).Contents (Elt F) → (⟨S16384, .f32⟩ : BufTy).Contents (Elt F)),
    StableHlo.unary main_v3774 main_v3847 (Host.sin : (⟨S16384, .f32⟩ : BufTy).Contents (Elt F) → (⟨S16384, .f32⟩ : BufTy).Contents (Elt F)),
    StableHlo.binary main_v3065 main_v3751 main_v3848 (mulf : (⟨S16384, .f32⟩ : BufTy).Contents (Elt F) → (⟨S16384, .f32⟩ : BufTy).Contents (Elt F) → (⟨S16384, .f32⟩ : BufTy).Contents (Elt F)),
    StableHlo.binary main_v3837 main_v3690 main_v3849 (mulf : (⟨S16384, .f32⟩ : BufTy).Contents (Elt F) → (⟨S16384, .f32⟩ : BufTy).Contents (Elt F) → (⟨S16384, .f32⟩ : BufTy).Contents (Elt F)),
    StableHlo.unary main_v3756 main_v3850 (Host.cos : (⟨S16384, .f32⟩ : BufTy).Contents (Elt F) → (⟨S16384, .f32⟩ : BufTy).Contents (Elt F)),
    StableHlo.unary main_v3759 main_v3851 (Host.sin : (⟨S16384, .f32⟩ : BufTy).Contents (Elt F) → (⟨S16384, .f32⟩ : BufTy).Contents (Elt F)),
    StableHlo.binary main_v3695 main_v3188 main_v3852 (subf : (⟨S16384, .f32⟩ : BufTy).Contents (Elt F) → (⟨S16384, .f32⟩ : BufTy).Contents (Elt F) → (⟨S16384, .f32⟩ : BufTy).Contents (Elt F)),
    StableHlo.unary main_v3834 main_v3853 (Host.negf : (⟨S16384, .f32⟩ : BufTy).Contents (Elt F) → (⟨S16384, .f32⟩ : BufTy).Contents (Elt F)),
    StableHlo.unary main_v3832 main_v3854 (Host.cos : (⟨S16384, .f32⟩ : BufTy).Contents (Elt F) → (⟨S16384, .f32⟩ : BufTy).Contents (Elt F)),
    StableHlo.binary main_v3791 main_v3837 main_v3855 (subf : (⟨S16384, .f32⟩ : BufTy).Contents (Elt F) → (⟨S16384, .f32⟩ : BufTy).Contents (Elt F) → (⟨S16384, .f32⟩ : BufTy).Contents (Elt F)),
    StableHlo.binary main_v3803 main_v2851 main_v3856 (mulf : (⟨S16384, .f32⟩ : BufTy).Contents (Elt F) → (⟨S16384, .f32⟩ : BufTy).Contents (Elt F) → (⟨S16384, .f32⟩ : BufTy).Contents (Elt F)),
    StableHlo.binary main_v2961 main_v3842 main_v3857 (mulf : (⟨S16384, .f32⟩ : BufTy).Contents (Elt F) → (⟨S16384, .f32⟩ : BufTy).Contents (Elt F) → (⟨S16384, .f32⟩ : BufTy).Contents (Elt F)),
    StableHlo.binary main_v3837 main_v3718 main_v3858 (mulf : (⟨S16384, .f32⟩ : BufTy).Contents (Elt F) → (⟨S16384, .f32⟩ : BufTy).Contents (Elt F) → (⟨S16384, .f32⟩ : BufTy).Contents (Elt F)),
    StableHlo.unary main_v3496 main_v3859 (Host.sin : (⟨S16384, .f32⟩ : BufTy).Contents (Elt F) → (⟨S16384, .f32⟩ : BufTy).Contents (Elt F)),
    StableHlo.binary main_v3570 main_v2953 main_v3860 (mulf : (⟨S16384, .f32⟩ : BufTy).Contents (Elt F) → (⟨S16384, .f32⟩ : BufTy).Contents (Elt F) → (⟨S16384, .f32⟩ : BufTy).Contents (Elt F)),
    StableHlo.unary main_v3771 main_v3861 (Host.cos : (⟨S16384, .f32⟩ : BufTy).Contents (Elt F) → (⟨S16384, .f32⟩ : BufTy).Contents (Elt F)),
    StableHlo.binary main_v3725 main_v3596 main_v3862 (addf : (⟨S16384, .f32⟩ : BufTy).Contents (Elt F) → (⟨S16384, .f32⟩ : BufTy).Contents (Elt F) → (⟨S16384, .f32⟩ : BufTy).Contents (Elt F)),
    StableHlo.binary main_v2961 main_v3766 main_v3863 (subf : (⟨S16384, .f32⟩ : BufTy).Contents (Elt F) → (⟨S16384, .f32⟩ : BufTy).Contents (Elt F) → (⟨S16384, .f32⟩ : BufTy).Contents (Elt F)),
    StableHlo.binary main_v3358 main_v3452 main_v3864 (mulf : (⟨S16384, .f32⟩ : BufTy).Contents (Elt F) → (⟨S16384, .f32⟩ : BufTy).Contents (Elt F) → (⟨S16384, .f32⟩ : BufTy).Contents (Elt F)),
    StableHlo.unary main_v3817 main_v3865 (Host.cos : (⟨S16384, .f32⟩ : BufTy).Contents (Elt F) → (⟨S16384, .f32⟩ : BufTy).Contents (Elt F)),
    StableHlo.unary main_v3824 main_v3866 (Host.sin : (⟨S16384, .f32⟩ : BufTy).Contents (Elt F) → (⟨S16384, .f32⟩ : BufTy).Contents (Elt F)),
    StableHlo.binary main_v3839 main_v3839 main_v3867 (mulf : (⟨S16384, .f32⟩ : BufTy).Contents (Elt F) → (⟨S16384, .f32⟩ : BufTy).Contents (Elt F) → (⟨S16384, .f32⟩ : BufTy).Contents (Elt F)),
    StableHlo.unary main_v3654 main_v3868 (Host.cos : (⟨S16384, .f32⟩ : BufTy).Contents (Elt F) → (⟨S16384, .f32⟩ : BufTy).Contents (Elt F)),
    StableHlo.binary main_v3623 main_v3664 main_v3869 (mulf : (⟨S16384, .f32⟩ : BufTy).Contents (Elt F) → (⟨S16384, .f32⟩ : BufTy).Contents (Elt F) → (⟨S16384, .f32⟩ : BufTy).Contents (Elt F)),
    StableHlo.binary main_v3254 main_v3724 main_v3870 (mulf : (⟨S16384, .f32⟩ : BufTy).Contents (Elt F) → (⟨S16384, .f32⟩ : BufTy).Contents (Elt F) → (⟨S16384, .f32⟩ : BufTy).Contents (Elt F)),
    StableHlo.binary main_v3579 main_v3784 main_v3871 (subf : (⟨S16384, .f32⟩ : BufTy).Contents (Elt F) → (⟨S16384, .f32⟩ : BufTy).Contents (Elt F) → (⟨S16384, .f32⟩ : BufTy).Contents (Elt F)),
    StableHlo.binary main_v3681 main_v3681 main_v3872 (mulf : (⟨S16384, .f32⟩ : BufTy).Contents (Elt F) → (⟨S16384, .f32⟩ : BufTy).Contents (Elt F) → (⟨S16384, .f32⟩ : BufTy).Contents (Elt F)),
    StableHlo.unary main_v3588 main_v3873 (Host.sin : (⟨S16384, .f32⟩ : BufTy).Contents (Elt F) → (⟨S16384, .f32⟩ : BufTy).Contents (Elt F)),
    StableHlo.binary main_v3581 main_v3811 main_v3874 (addf : (⟨S16384, .f32⟩ : BufTy).Contents (Elt F) → (⟨S16384, .f32⟩ : BufTy).Contents (Elt F) → (⟨S16384, .f32⟩ : BufTy).Contents (Elt F)),
    StableHlo.unary main_v3660 main_v3875 (Host.sin : (⟨S16384, .f32⟩ : BufTy).Contents (Elt F) → (⟨S16384, .f32⟩ : BufTy).Contents (Elt F)),
    StableHlo.unary main_v3312 main_v3876 (Host.cos : (⟨S16384, .f32⟩ : BufTy).Contents (Elt F) → (⟨S16384, .f32⟩ : BufTy).Contents (Elt F)),
    StableHlo.unary main_v3802 main_v3877 (Host.sin : (⟨S16384, .f32⟩ : BufTy).Contents (Elt F) → (⟨S16384, .f32⟩ : BufTy).Contents (Elt F)),
    StableHlo.binary main_v3758 main_v3316 main_v3878 (addf : (⟨S16384, .f32⟩ : BufTy).Contents (Elt F) → (⟨S16384, .f32⟩ : BufTy).Contents (Elt F) → (⟨S16384, .f32⟩ : BufTy).Contents (Elt F)),
    StableHlo.unary main_v3171 main_v3879 (Host.sin : (⟨S16384, .f32⟩ : BufTy).Contents (Elt F) → (⟨S16384, .f32⟩ : BufTy).Contents (Elt F)),
    StableHlo.binary main_v2691 main_v2691 main_v3880 (mulf : (⟨S16384, .f32⟩ : BufTy).Contents (Elt F) → (⟨S16384, .f32⟩ : BufTy).Contents (Elt F) → (⟨S16384, .f32⟩ : BufTy).Contents (Elt F)),
    StableHlo.binary main_v3834 main_v3645 main_v3881 (mulf : (⟨S16384, .f32⟩ : BufTy).Contents (Elt F) → (⟨S16384, .f32⟩ : BufTy).Contents (Elt F) → (⟨S16384, .f32⟩ : BufTy).Contents (Elt F)),
    StableHlo.binary main_v3755 main_v3846 main_v3882 (mulf : (⟨S16384, .f32⟩ : BufTy).Contents (Elt F) → (⟨S16384, .f32⟩ : BufTy).Contents (Elt F) → (⟨S16384, .f32⟩ : BufTy).Contents (Elt F)),
    StableHlo.unary main_v3752 main_v3883 (Host.cos : (⟨S16384, .f32⟩ : BufTy).Contents (Elt F) → (⟨S16384, .f32⟩ : BufTy).Contents (Elt F)) ]

theorem part64_eq (d : Dev nD) : main_part64 (F := F) d = seq ops64 := rfl
theorem ops64_sub : (ops64 (F := F)).Forall fun op => op.bufs ⊆ tcRefs τ sig := by line_sub
theorem ops64_fresh : ∀ op ∈ (ops64 (F := F)), op.fresh = ∅ := by line_fresh
theorem ops64_ordered : Cert.Ssa.Ordered 3841 (ops64 (F := F)) := by line_ordered

/-- Window 65 of @main: its operations, positions 3901 to 3960, in order. -/
abbrev ops65 : List (HloOp τ sig (Elt F)) :=
  [ StableHlo.binary main_v3874 main_v3758 main_v3884 (subf : (⟨S16384, .f32⟩ : BufTy).Contents (Elt F) → (⟨S16384, .f32⟩ : BufTy).Contents (Elt F) → (⟨S16384, .f32⟩ : BufTy).Contents (Elt F)),
    StableHlo.unary main_v3494 main_v3885 (Host.sin : (⟨S16384, .f32⟩ : BufTy).Contents (Elt F) → (⟨S16384, .f32⟩ : BufTy).Contents (Elt F)),
    StableHlo.unary main_v3071 main_v3886 (Host.sin : (⟨S16384, .f32⟩ : BufTy).Contents (Elt F) → (⟨S16384, .f32⟩ : BufTy).Contents (Elt F)),
    StableHlo.binary main_v3690 main_v3861 main_v3887 (addf : (⟨S16384, .f32⟩ : BufTy).Contents (Elt F) → (⟨S16384, .f32⟩ : BufTy).Contents (Elt F) → (⟨S16384, .f32⟩ : BufTy).Contents (Elt F)),
    StableHlo.binary main_v3596 main_v3646 main_v3888 (subf : (⟨S16384, .f32⟩ : BufTy).Contents (Elt F) → (⟨S16384, .f32⟩ : BufTy).Contents (Elt F) → (⟨S16384, .f32⟩ : BufTy).Contents (Elt F)),
    StableHlo.unary main_v3485 main_v3889 (Host.cos : (⟨S16384, .f32⟩ : BufTy).Contents (Elt F) → (⟨S16384, .f32⟩ : BufTy).Contents (Elt F)),
    StableHlo.binary main_v3462 main_v3879 main_v3890 (addf : (⟨S16384, .f32⟩ : BufTy).Contents (Elt F) → (⟨S16384, .f32⟩ : BufTy).Contents (Elt F) → (⟨S16384, .f32⟩ : BufTy).Contents (Elt F)),
    StableHlo.binary main_v3656 main_v3575 main_v3891 (addf : (⟨S16384, .f32⟩ : BufTy).Contents (Elt F) → (⟨S16384, .f32⟩ : BufTy).Contents (Elt F) → (⟨S16384, .f32⟩ : BufTy).Contents (Elt F)),
    StableHlo.binary main_v3065 main_v3575 main_v3892 (subf : (⟨S16384, .f32⟩ : BufTy).Contents (Elt F) → (⟨S16384, .f32⟩ : BufTy).Contents (Elt F) → (⟨S16384, .f32⟩ : BufTy).Contents (Elt F)),
    StableHlo.binary main_v3642 main_v3444 main_v3893 (addf : (⟨S16384, .f32⟩ : BufTy).Contents (Elt F) → (⟨S16384, .f32⟩ : BufTy).Contents (Elt F) → (⟨S16384, .f32⟩ : BufTy).Contents (Elt F)),
    StableHlo.binary main_v3808 main_v3808 main_v3894 (mulf : (⟨S16384, .f32⟩ : BufTy).Contents (Elt F) → (⟨S16384, .f32⟩ : BufTy).Contents (Elt F) → (⟨S16384, .f32⟩ : BufTy).Contents (Elt F)),
    StableHlo.unary main_v3706 main_v3895 (Host.sin : (⟨S16384, .f32⟩ : BufTy).Contents (Elt F) → (⟨S16384, .f32⟩ : BufTy).Contents (Elt F)),
    StableHlo.binary main_v3801 main_v3801 main_v3896 (mulf : (⟨S16384, .f32⟩ : BufTy).Contents (Elt F) → (⟨S16384, .f32⟩ : BufTy).Contents (Elt F) → (⟨S16384, .f32⟩ : BufTy).Contents (Elt F)),
    StableHlo.unary main_v3448 main_v3897 (Host.negf : (⟨S16384, .f32⟩ : BufTy).Contents (Elt F) → (⟨S16384, .f32⟩ : BufTy).Contents (Elt F)),
    StableHlo.binary main_v3654 main_v3785 main_v3898 (subf : (⟨S16384, .f32⟩ : BufTy).Contents (Elt F) → (⟨S16384, .f32⟩ : BufTy).Contents (Elt F) → (⟨S16384, .f32⟩ : BufTy).Contents (Elt F)),
    StableHlo.binary main_v3833 main_v3646 main_v3899 (addf : (⟨S16384, .f32⟩ : BufTy).Contents (Elt F) → (⟨S16384, .f32⟩ : BufTy).Contents (Elt F) → (⟨S16384, .f32⟩ : BufTy).Contents (Elt F)),
    StableHlo.unary main_v3669 main_v3900 (Host.cos : (⟨S16384, .f32⟩ : BufTy).Contents (Elt F) → (⟨S16384, .f32⟩ : BufTy).Contents (Elt F)),
    StableHlo.binary main_v3788 main_v3887 main_v3901 (addf : (⟨S16384, .f32⟩ : BufTy).Contents (Elt F) → (⟨S16384, .f32⟩ : BufTy).Contents (Elt F) → (⟨S16384, .f32⟩ : BufTy).Contents (Elt F)),
    StableHlo.binary main_v3883 main_v3076 main_v3902 (addf : (⟨S16384, .f32⟩ : BufTy).Contents (Elt F) → (⟨S16384, .f32⟩ : BufTy).Contents (Elt F) → (⟨S16384, .f32⟩ : BufTy).Contents (Elt F)),
    StableHlo.unary main_v3836 main_v3903 (Host.sin : (⟨S16384, .f32⟩ : BufTy).Contents (Elt F) → (⟨S16384, .f32⟩ : BufTy).Contents (Elt F)),
    StableHlo.unary main_v2850 main_v3904 (Host.cos : (⟨S16384, .f32⟩ : BufTy).Contents (Elt F) → (⟨S16384, .f32⟩ : BufTy).Contents (Elt F)),
    StableHlo.binary main_v3816 main_v3467 main_v3905 (mulf : (⟨S16384, .f32⟩ : BufTy).Contents (Elt F) → (⟨S16384, .f32⟩ : BufTy).Contents (Elt F) → (⟨S16384, .f32⟩ : BufTy).Contents (Elt F)),
    StableHlo.binary main_v3693 main_v3477 main_v3906 (mulf : (⟨S16384, .f32⟩ : BufTy).Contents (Elt F) → (⟨S16384, .f32⟩ : BufTy).Contents (Elt F) → (⟨S16384, .f32⟩ : BufTy).Contents (Elt F)),
    StableHlo.unary main_v3630 main_v3907 (Host.sin : (⟨S16384, .f32⟩ : BufTy).Contents (Elt F) → (⟨S16384, .f32⟩ : BufTy).Contents (Elt F)),
    StableHlo.unary main_v3730 main_v3908 (Host.sin : (⟨S16384, .f32⟩ : BufTy).Contents (Elt F) → (⟨S16384, .f32⟩ : BufTy).Contents (Elt F)),
    StableHlo.unary main_v3736 main_v3909 (Host.cos : (⟨S16384, .f32⟩ : BufTy).Contents (Elt F) → (⟨S16384, .f32⟩ : BufTy).Contents (Elt F)),
    StableHlo.unary main_v3770 main_v3910 (Host.sin : (⟨S16384, .f32⟩ : BufTy).Contents (Elt F) → (⟨S16384, .f32⟩ : BufTy).Contents (Elt F)),
    StableHlo.unary main_v3892 main_v3911 (Host.negf : (⟨S16384, .f32⟩ : BufTy).Contents (Elt F) → (⟨S16384, .f32⟩ : BufTy).Contents (Elt F)),
    StableHlo.binary main_v3726 main_v3882 main_v3912 (mulf : (⟨S16384, .f32⟩ : BufTy).Contents (Elt F) → (⟨S16384, .f32⟩ : BufTy).Contents (Elt F) → (⟨S16384, .f32⟩ : BufTy).Contents (Elt F)),
    StableHlo.unary main_v3828 main_v3913 (Host.sin : (⟨S16384, .f32⟩ : BufTy).Contents (Elt F) → (⟨S16384, .f32⟩ : BufTy).Contents (Elt F)),
    StableHlo.unary main_v3849 main_v3914 (Host.cos : (⟨S16384, .f32⟩ : BufTy).Contents (Elt F) → (⟨S16384, .f32⟩ : BufTy).Contents (Elt F)),
    StableHlo.binary main_v3896 main_v3579 main_v3915 (addf : (⟨S16384, .f32⟩ : BufTy).Contents (Elt F) → (⟨S16384, .f32⟩ : BufTy).Contents (Elt F) → (⟨S16384, .f32⟩ : BufTy).Contents (Elt F)),
    StableHlo.binary main_v3306 main_v3540 main_v3916 (subf : (⟨S16384, .f32⟩ : BufTy).Contents (Elt F) → (⟨S16384, .f32⟩ : BufTy).Contents (Elt F) → (⟨S16384, .f32⟩ : BufTy).Contents (Elt F)),
    StableHlo.unary main_v3312 main_v3917 (Host.cos : (⟨S16384, .f32⟩ : BufTy).Contents (Elt F) → (⟨S16384, .f32⟩ : BufTy).Contents (Elt F)),
    StableHlo.binary main_v3656 main_v3896 main_v3918 (mulf : (⟨S16384, .f32⟩ : BufTy).Contents (Elt F) → (⟨S16384, .f32⟩ : BufTy).Contents (Elt F) → (⟨S16384, .f32⟩ : BufTy).Contents (Elt F)),
    StableHlo.unary main_v3726 main_v3919 (Host.sin : (⟨S16384, .f32⟩ : BufTy).Contents (Elt F) → (⟨S16384, .f32⟩ : BufTy).Contents (Elt F)),
    StableHlo.binary main_v3312 main_v3076 main_v3920 (subf : (⟨S16384, .f32⟩ : BufTy).Contents (Elt F) → (⟨S16384, .f32⟩ : BufTy).Contents (Elt F) → (⟨S16384, .f32⟩ : BufTy).Contents (Elt F)),
    StableHlo.unary main_v3065 main_v3921 (Host.sin : (⟨S16384, .f32⟩ : BufTy).Contents (Elt F) → (⟨S16384, .f32⟩ : BufTy).Contents (Elt F)),
    StableHlo.unary main_v3855 main_v3922 (Host.negf : (⟨S16384, .f32⟩ : BufTy).Contents (Elt F) → (⟨S16384, .f32⟩ : BufTy).Contents (Elt F)),
    StableHlo.binary main_v3753 main_v3839 main_v3923 (subf : (⟨S16384, .f32⟩ : BufTy).Contents (Elt F) → (⟨S16384, .f32⟩ : BufTy).Contents (Elt F) → (⟨S16384, .f32⟩ : BufTy).Contents (Elt F)),
    StableHlo.unary main_v3733 main_v3924 (Host.sin : (⟨S16384, .f32⟩ : BufTy).Contents (Elt F) → (⟨S16384, .f32⟩ : BufTy).Contents (Elt F)),
    StableHlo.unary main_v3733 main_v3925 (Host.cos : (⟨S16384, .f32⟩ : BufTy).Contents (Elt F) → (⟨S16384, .f32⟩ : BufTy).Contents (Elt F)),
    StableHlo.unary main_v3863 main_v3926 (Host.sin : (⟨S16384, .f32⟩ : BufTy).Contents (Elt F) → (⟨S16384, .f32⟩ : BufTy).Contents (Elt F)),
    StableHlo.unary main_v3880 main_v3927 (Host.sin : (⟨S16384, .f32⟩ : BufTy).Contents (Elt F) → (⟨S16384, .f32⟩ : BufTy).Contents (Elt F)),
    StableHlo.unary main_v3808 main_v3928 (Host.negf : (⟨S16384, .f32⟩ : BufTy).Contents (Elt F) → (⟨S16384, .f32⟩ : BufTy).Contents (Elt F)),
    StableHlo.binary main_v3669 main_v3822 main_v3929 (mulf : (⟨S16384, .f32⟩ : BufTy).Contents (Elt F) → (⟨S16384, .f32⟩ : BufTy).Contents (Elt F) → (⟨S16384, .f32⟩ : BufTy).Contents (Elt F)),
    StableHlo.unary main_v3599 main_v3930 (Host.sin : (⟨S16384, .f32⟩ : BufTy).Contents (Elt F) → (⟨S16384, .f32⟩ : BufTy).Contents (Elt F)),
    StableHlo.unary main_v2961 main_v3931 (Host.cos : (⟨S16384, .f32⟩ : BufTy).Contents (Elt F) → (⟨S16384, .f32⟩ : BufTy).Contents (Elt F)),
    StableHlo.unary main_v3927 main_v3932 (Host.sin : (⟨S16384, .f32⟩ : BufTy).Contents (Elt F) → (⟨S16384, .f32⟩ : BufTy).Contents (Elt F)),
    StableHlo.unary main_v3906 main_v3933 (Host.cos : (⟨S16384, .f32⟩ : BufTy).Contents (Elt F) → (⟨S16384, .f32⟩ : BufTy).Contents (Elt F)),
    StableHlo.binary main_v3927 main_v3766 main_v3934 (subf : (⟨S16384, .f32⟩ : BufTy).Contents (Elt F) → (⟨S16384, .f32⟩ : BufTy).Contents (Elt F) → (⟨S16384, .f32⟩ : BufTy).Contents (Elt F)),
    StableHlo.binary main_v3852 main_v3839 main_v3935 (addf : (⟨S16384, .f32⟩ : BufTy).Contents (Elt F) → (⟨S16384, .f32⟩ : BufTy).Contents (Elt F) → (⟨S16384, .f32⟩ : BufTy).Contents (Elt F)),
    StableHlo.binary main_v3660 main_v3800 main_v3936 (addf : (⟨S16384, .f32⟩ : BufTy).Contents (Elt F) → (⟨S16384, .f32⟩ : BufTy).Contents (Elt F) → (⟨S16384, .f32⟩ : BufTy).Contents (Elt F)),
    StableHlo.unary main_v3441 main_v3937 (Host.sin : (⟨S16384, .f32⟩ : BufTy).Contents (Elt F) → (⟨S16384, .f32⟩ : BufTy).Contents (Elt F)),
    StableHlo.unary main_v3570 main_v3938 (Host.cos : (⟨S16384, .f32⟩ : BufTy).Contents (Elt F) → (⟨S16384, .f32⟩ : BufTy).Contents (Elt F)),
    StableHlo.unary main_v3188 main_v3939 (Host.cos : (⟨S16384, .f32⟩ : BufTy).Contents (Elt F) → (⟨S16384, .f32⟩ : BufTy).Contents (Elt F)),
    StableHlo.binary main_v3918 main_v3641 main_v3940 (addf : (⟨S16384, .f32⟩ : BufTy).Contents (Elt F) → (⟨S16384, .f32⟩ : BufTy).Contents (Elt F) → (⟨S16384, .f32⟩ : BufTy).Contents (Elt F)),
    StableHlo.unary main_v3769 main_v3941 (Host.sin : (⟨S16384, .f32⟩ : BufTy).Contents (Elt F) → (⟨S16384, .f32⟩ : BufTy).Contents (Elt F)),
    StableHlo.unary main_v3665 main_v3942 (Host.sin : (⟨S16384, .f32⟩ : BufTy).Contents (Elt F) → (⟨S16384, .f32⟩ : BufTy).Contents (Elt F)),
    StableHlo.binary main_v3789 main_v3800 main_v3943 (addf : (⟨S16384, .f32⟩ : BufTy).Contents (Elt F) → (⟨S16384, .f32⟩ : BufTy).Contents (Elt F) → (⟨S16384, .f32⟩ : BufTy).Contents (Elt F)) ]

theorem part65_eq (d : Dev nD) : main_part65 (F := F) d = seq ops65 := rfl
theorem ops65_sub : (ops65 (F := F)).Forall fun op => op.bufs ⊆ tcRefs τ sig := by line_sub
theorem ops65_fresh : ∀ op ∈ (ops65 (F := F)), op.fresh = ∅ := by line_fresh
theorem ops65_ordered : Cert.Ssa.Ordered 3901 (ops65 (F := F)) := by line_ordered

/-- Window 66 of @main: its operations, positions 3961 to 4020, in order. -/
abbrev ops66 : List (HloOp τ sig (Elt F)) :=
  [ StableHlo.unary main_v3942 main_v3944 (Host.sin : (⟨S16384, .f32⟩ : BufTy).Contents (Elt F) → (⟨S16384, .f32⟩ : BufTy).Contents (Elt F)),
    StableHlo.unary main_v3713 main_v3945 (Host.cos : (⟨S16384, .f32⟩ : BufTy).Contents (Elt F) → (⟨S16384, .f32⟩ : BufTy).Contents (Elt F)),
    StableHlo.unary main_v3870 main_v3946 (Host.cos : (⟨S16384, .f32⟩ : BufTy).Contents (Elt F) → (⟨S16384, .f32⟩ : BufTy).Contents (Elt F)),
    StableHlo.unary main_v2742 main_v3947 (Host.cos : (⟨S16384, .f32⟩ : BufTy).Contents (Elt F) → (⟨S16384, .f32⟩ : BufTy).Contents (Elt F)),
    StableHlo.binary main_v3736 main_v3878 main_v3948 (subf : (⟨S16384, .f32⟩ : BufTy).Contents (Elt F) → (⟨S16384, .f32⟩ : BufTy).Contents (Elt F) → (⟨S16384, .f32⟩ : BufTy).Contents (Elt F)),
    StableHlo.binary main_v3845 main_v3649 main_v3949 (addf : (⟨S16384, .f32⟩ : BufTy).Contents (Elt F) → (⟨S16384, .f32⟩ : BufTy).Contents (Elt F) → (⟨S16384, .f32⟩ : BufTy).Contents (Elt F)),
    StableHlo.binary main_v3441 main_v3859 main_v3950 (mulf : (⟨S16384, .f32⟩ : BufTy).Contents (Elt F) → (⟨S16384, .f32⟩ : BufTy).Contents (Elt F) → (⟨S16384, .f32⟩ : BufTy).Contents (Elt F)),
    StableHlo.unary main_v3448 main_v3951 (Host.cos : (⟨S16384, .f32⟩ : BufTy).Contents (Elt F) → (⟨S16384, .f32⟩ : BufTy).Contents (Elt F)),
    StableHlo.binary main_v3736 main_v3071 main_v3952 (subf : (⟨S16384, .f32⟩ : BufTy).Contents (Elt F) → (⟨S16384, .f32⟩ : BufTy).Contents (Elt F) → (⟨S16384, .f32⟩ : BufTy).Contents (Elt F)),
    StableHlo.unary main_v3789 main_v3953 (Host.negf : (⟨S16384, .f32⟩ : BufTy).Contents (Elt F) → (⟨S16384, .f32⟩ : BufTy).Contents (Elt F)),
    StableHlo.unary main_v3876 main_v3954 (Host.cos : (⟨S16384, .f32⟩ : BufTy).Contents (Elt F) → (⟨S16384, .f32⟩ : BufTy).Contents (Elt F)),
    StableHlo.unary main_v3903 main_v3955 (Host.sin : (⟨S16384, .f32⟩ : BufTy).Contents (Elt F) → (⟨S16384, .f32⟩ : BufTy).Contents (Elt F)),
    StableHlo.unary main_v3769 main_v3956 (Host.cos : (⟨S16384, .f32⟩ : BufTy).Contents (Elt F) → (⟨S16384, .f32⟩ : BufTy).Contents (Elt F)),
    StableHlo.binary main_v3910 main_v3200 main_v3957 (subf : (⟨S16384, .f32⟩ : BufTy).Contents (Elt F) → (⟨S16384, .f32⟩ : BufTy).Contents (Elt F) → (⟨S16384, .f32⟩ : BufTy).Contents (Elt F)),
    StableHlo.unary main_v3759 main_v3958 (Host.sin : (⟨S16384, .f32⟩ : BufTy).Contents (Elt F) → (⟨S16384, .f32⟩ : BufTy).Contents (Elt F)),
    StableHlo.binary main_v2851 main_v3942 main_v3959 (subf : (⟨S16384, .f32⟩ : BufTy).Contents (Elt F) → (⟨S16384, .f32⟩ : BufTy).Contents (Elt F) → (⟨S16384, .f32⟩ : BufTy).Contents (Elt F)),
    StableHlo.unary main_v3934 main_v3960 (Host.cos : (⟨S16384, .f32⟩ : BufTy).Contents (Elt F) → (⟨S16384, .f32⟩ : BufTy).Contents (Elt F)),
    StableHlo.binary main_v3346 main_v3235 main_v3961 (addf : (⟨S16384, .f32⟩ : BufTy).Contents (Elt F) → (⟨S16384, .f32⟩ : BufTy).Contents (Elt F) → (⟨S16384, .f32⟩ : BufTy).Contents (Elt F)),
    StableHlo.binary main_v3899 main_v3819 main_v3962 (addf : (⟨S16384, .f32⟩ : BufTy).Contents (Elt F) → (⟨S16384, .f32⟩ : BufTy).Contents (Elt F) → (⟨S16384, .f32⟩ : BufTy).Contents (Elt F)),
    StableHlo.unary main_v3441 main_v3963 (Host.cos : (⟨S16384, .f32⟩ : BufTy).Contents (Elt F) → (⟨S16384, .f32⟩ : BufTy).Contents (Elt F)),
    StableHlo.binary main_v3846 main_v3846 main_v3964 (mulf : (⟨S16384, .f32⟩ : BufTy).Contents (Elt F) → (⟨S16384, .f32⟩ : BufTy).Contents (Elt F) → (⟨S16384, .f32⟩ : BufTy).Contents (Elt F)),
    StableHlo.binary main_v3859 main_v3859 main_v3965 (mulf : (⟨S16384, .f32⟩ : BufTy).Contents (Elt F) → (⟨S16384, .f32⟩ : BufTy).Contents (Elt F) → (⟨S16384, .f32⟩ : BufTy).Contents (Elt F)),
    StableHlo.unary main_v3330 main_v3966 (Host.sin : (⟨S16384, .f32⟩ : BufTy).Contents (Elt F) → (⟨S16384, .f32⟩ : BufTy).Contents (Elt F)),
    StableHlo.unary main_v3695 main_v3967 (Host.cos : (⟨S16384, .f32⟩ : BufTy).Contents (Elt F) → (⟨S16384, .f32⟩ : BufTy).Contents (Elt F)),
    StableHlo.unary main_v3330 main_v3968 (Host.cos : (⟨S16384, .f32⟩ : BufTy).Contents (Elt F) → (⟨S16384, .f32⟩ : BufTy).Contents (Elt F)),
    StableHlo.unary main_v3767 main_v3969 (Host.cos : (⟨S16384, .f32⟩ : BufTy).Contents (Elt F) → (⟨S16384, .f32⟩ : BufTy).Contents (Elt F)),
    StableHlo.binary main_v3758 main_v3417 main_v3970 (addf : (⟨S16384, .f32⟩ : BufTy).Contents (Elt F) → (⟨S16384, .f32⟩ : BufTy).Contents (Elt F) → (⟨S16384, .f32⟩ : BufTy).Contents (Elt F)),
    StableHlo.binary main_v3956 main_v3913 main_v3971 (addf : (⟨S16384, .f32⟩ : BufTy).Contents (Elt F) → (⟨S16384, .f32⟩ : BufTy).Contents (Elt F) → (⟨S16384, .f32⟩ : BufTy).Contents (Elt F)),
    StableHlo.unary main_v3821 main_v3972 (Host.cos : (⟨S16384, .f32⟩ : BufTy).Contents (Elt F) → (⟨S16384, .f32⟩ : BufTy).Contents (Elt F)),
    StableHlo.unary main_v3484 main_v3973 (Host.negf : (⟨S16384, .f32⟩ : BufTy).Contents (Elt F) → (⟨S16384, .f32⟩ : BufTy).Contents (Elt F)),
    StableHlo.unary main_v3575 main_v3974 (Host.cos : (⟨S16384, .f32⟩ : BufTy).Contents (Elt F) → (⟨S16384, .f32⟩ : BufTy).Contents (Elt F)),
    StableHlo.binary main_v3787 main_v3408 main_v3975 (subf : (⟨S16384, .f32⟩ : BufTy).Contents (Elt F) → (⟨S16384, .f32⟩ : BufTy).Contents (Elt F) → (⟨S16384, .f32⟩ : BufTy).Contents (Elt F)),
    StableHlo.binary main_v3859 main_v3821 main_v3976 (addf : (⟨S16384, .f32⟩ : BufTy).Contents (Elt F) → (⟨S16384, .f32⟩ : BufTy).Contents (Elt F) → (⟨S16384, .f32⟩ : BufTy).Contents (Elt F)),
    StableHlo.binary main_v3928 main_v3850 main_v3977 (addf : (⟨S16384, .f32⟩ : BufTy).Contents (Elt F) → (⟨S16384, .f32⟩ : BufTy).Contents (Elt F) → (⟨S16384, .f32⟩ : BufTy).Contents (Elt F)),
    StableHlo.binary main_v3637 main_v3557 main_v3978 (mulf : (⟨S16384, .f32⟩ : BufTy).Contents (Elt F) → (⟨S16384, .f32⟩ : BufTy).Contents (Elt F) → (⟨S16384, .f32⟩ : BufTy).Contents (Elt F)),
    StableHlo.unary main_v2660 main_v3979 (Host.sin : (⟨S16384, .f32⟩ : BufTy).Contents (Elt F) → (⟨S16384, .f32⟩ : BufTy).Contents (Elt F)),
    StableHlo.binary main_v3858 main_v2851 main_v3980 (subf : (⟨S16384, .f32⟩ : BufTy).Contents (Elt F) → (⟨S16384, .f32⟩ : BufTy).Contents (Elt F) → (⟨S16384, .f32⟩ : BufTy).Contents (Elt F)),
    StableHlo.binary main_v3645 main_v3784 main_v3981 (subf : (⟨S16384, .f32⟩ : BufTy).Contents (Elt F) → (⟨S16384, .f32⟩ : BufTy).Contents (Elt F) → (⟨S16384, .f32⟩ : BufTy).Contents (Elt F)),
    StableHlo.unary main_v3909 main_v3982 (Host.sin : (⟨S16384, .f32⟩ : BufTy).Contents (Elt F) → (⟨S16384, .f32⟩ : BufTy).Contents (Elt F)),
    StableHlo.binary main_v3484 main_v3444 main_v3983 (subf : (⟨S16384, .f32⟩ : BufTy).Contents (Elt F) → (⟨S16384, .f32⟩ : BufTy).Contents (Elt F) → (⟨S16384, .f32⟩ : BufTy).Contents (Elt F)),
    StableHlo.unary main_v3494 main_v3984 (Host.cos : (⟨S16384, .f32⟩ : BufTy).Contents (Elt F) → (⟨S16384, .f32⟩ : BufTy).Contents (Elt F)),
    StableHlo.unary main_v3954 main_v3985 (Host.cos : (⟨S16384, .f32⟩ : BufTy).Contents (Elt F) → (⟨S16384, .f32⟩ : BufTy).Contents (Elt F)),
    StableHlo.unary main_v3776 main_v3986 (Host.cos : (⟨S16384, .f32⟩ : BufTy).Contents (Elt F) → (⟨S16384, .f32⟩ : BufTy).Contents (Elt F)),
    StableHlo.unary main_v3834 main_v3987 (Host.sin : (⟨S16384, .f32⟩ : BufTy).Contents (Elt F) → (⟨S16384, .f32⟩ : BufTy).Contents (Elt F)),
    StableHlo.binary main_v3742 main_v3971 main_v3988 (subf : (⟨S16384, .f32⟩ : BufTy).Contents (Elt F) → (⟨S16384, .f32⟩ : BufTy).Contents (Elt F) → (⟨S16384, .f32⟩ : BufTy).Contents (Elt F)),
    StableHlo.binary main_v3648 main_v3903 main_v3989 (subf : (⟨S16384, .f32⟩ : BufTy).Contents (Elt F) → (⟨S16384, .f32⟩ : BufTy).Contents (Elt F) → (⟨S16384, .f32⟩ : BufTy).Contents (Elt F)),
    StableHlo.unary main_v3957 main_v3990 (Host.sin : (⟨S16384, .f32⟩ : BufTy).Contents (Elt F) → (⟨S16384, .f32⟩ : BufTy).Contents (Elt F)),
    StableHlo.binary main_v3858 main_v3772 main_v3991 (addf : (⟨S16384, .f32⟩ : BufTy).Contents (Elt F) → (⟨S16384, .f32⟩ : BufTy).Contents (Elt F) → (⟨S16384, .f32⟩ : BufTy).Contents (Elt F)),
    StableHlo.unary main_v3755 main_v3992 (Host.cos : (⟨S16384, .f32⟩ : BufTy).Contents (Elt F) → (⟨S16384, .f32⟩ : BufTy).Contents (Elt F)),
    StableHlo.unary main_v3739 main_v3993 (Host.cos : (⟨S16384, .f32⟩ : BufTy).Contents (Elt F) → (⟨S16384, .f32⟩ : BufTy).Contents (Elt F)),
    StableHlo.unary main_v3408 main_v3994 (Host.cos : (⟨S16384, .f32⟩ : BufTy).Contents (Elt F) → (⟨S16384, .f32⟩ : BufTy).Contents (Elt F)),
    StableHlo.binary main_v3484 main_v3880 main_v3995 (mulf : (⟨S16384, .f32⟩ : BufTy).Contents (Elt F) → (⟨S16384, .f32⟩ : BufTy).Contents (Elt F) → (⟨S16384, .f32⟩ : BufTy).Contents (Elt F)),
    StableHlo.unary main_v3925 main_v3996 (Host.cos : (⟨S16384, .f32⟩ : BufTy).Contents (Elt F) → (⟨S16384, .f32⟩ : BufTy).Contents (Elt F)),
    StableHlo.unary main_v3992 main_v3997 (Host.cos : (⟨S16384, .f32⟩ : BufTy).Contents (Elt F) → (⟨S16384, .f32⟩ : BufTy).Contents (Elt F)),
    StableHlo.unary main_v3988 main_v3998 (Host.cos : (⟨S16384, .f32⟩ : BufTy).Contents (Elt F) → (⟨S16384, .f32⟩ : BufTy).Contents (Elt F)),
    StableHlo.binary main_v3644 main_v3892 main_v3999 (addf : (⟨S16384, .f32⟩ : BufTy).Contents (Elt F) → (⟨S16384, .f32⟩ : BufTy).Contents (Elt F) → (⟨S16384, .f32⟩ : BufTy).Contents (Elt F)),
    StableHlo.binary main_v3687 main_v3695 main_v4000 (subf : (⟨S16384, .f32⟩ : BufTy).Contents (Elt F) → (⟨S16384, .f32⟩ : BufTy).Contents (Elt F) → (⟨S16384, .f32⟩ : BufTy).Contents (Elt F)),
    StableHlo.binary main_v3769 main_v3770 main_v4001 (mulf : (⟨S16384, .f32⟩ : BufTy).Contents (Elt F) → (⟨S16384, .f32⟩ : BufTy).Contents (Elt F) → (⟨S16384, .f32⟩ : BufTy).Contents (Elt F)),
    StableHlo.unary main_v3421 main_v4002 (Host.cos : (⟨S16384, .f32⟩ : BufTy).Contents (Elt F) → (⟨S16384, .f32⟩ : BufTy).Contents (Elt F)),
    StableHlo.unary main_v3914 main_v4003 (Host.sin : (⟨S16384, .f32⟩ : BufTy).Contents (Elt F) → (⟨S16384, .f32⟩ : BufTy).Contents (Elt F)) ]

theorem part66_eq (d : Dev nD) : main_part66 (F := F) d = seq ops66 := rfl
theorem ops66_sub : (ops66 (F := F)).Forall fun op => op.bufs ⊆ tcRefs τ sig := by line_sub
theorem ops66_fresh : ∀ op ∈ (ops66 (F := F)), op.fresh = ∅ := by line_fresh
theorem ops66_ordered : Cert.Ssa.Ordered 3961 (ops66 (F := F)) := by line_ordered

/-- Window 67 of @main: its operations, positions 4021 to 4080, in order. -/
abbrev ops67 : List (HloOp τ sig (Elt F)) :=
  [ StableHlo.unary main_v3959 main_v4004 (Host.cos : (⟨S16384, .f32⟩ : BufTy).Contents (Elt F) → (⟨S16384, .f32⟩ : BufTy).Contents (Elt F)),
    StableHlo.unary main_v3739 main_v4005 (Host.cos : (⟨S16384, .f32⟩ : BufTy).Contents (Elt F) → (⟨S16384, .f32⟩ : BufTy).Contents (Elt F)),
    StableHlo.unary main_v3973 main_v4006 (Host.cos : (⟨S16384, .f32⟩ : BufTy).Contents (Elt F) → (⟨S16384, .f32⟩ : BufTy).Contents (Elt F)),
    StableHlo.unary main_v3768 main_v4007 (Host.sin : (⟨S16384, .f32⟩ : BufTy).Contents (Elt F) → (⟨S16384, .f32⟩ : BufTy).Contents (Elt F)),
    StableHlo.binary main_v3421 main_v3702 main_v4008 (addf : (⟨S16384, .f32⟩ : BufTy).Contents (Elt F) → (⟨S16384, .f32⟩ : BufTy).Contents (Elt F) → (⟨S16384, .f32⟩ : BufTy).Contents (Elt F)),
    StableHlo.unary main_v3654 main_v4009 (Host.negf : (⟨S16384, .f32⟩ : BufTy).Contents (Elt F) → (⟨S16384, .f32⟩ : BufTy).Contents (Elt F)),
    StableHlo.binary main_v3626 main_v3766 main_v4010 (subf : (⟨S16384, .f32⟩ : BufTy).Contents (Elt F) → (⟨S16384, .f32⟩ : BufTy).Contents (Elt F) → (⟨S16384, .f32⟩ : BufTy).Contents (Elt F)),
    StableHlo.unary main_v3991 main_v4011 (Host.cos : (⟨S16384, .f32⟩ : BufTy).Contents (Elt F) → (⟨S16384, .f32⟩ : BufTy).Contents (Elt F)),
    StableHlo.binary main_v3684 main_v3826 main_v4012 (addf : (⟨S16384, .f32⟩ : BufTy).Contents (Elt F) → (⟨S16384, .f32⟩ : BufTy).Contents (Elt F) → (⟨S16384, .f32⟩ : BufTy).Contents (Elt F)),
    StableHlo.binary main_v3769 main_v3951 main_v4013 (subf : (⟨S16384, .f32⟩ : BufTy).Contents (Elt F) → (⟨S16384, .f32⟩ : BufTy).Contents (Elt F) → (⟨S16384, .f32⟩ : BufTy).Contents (Elt F)),
    StableHlo.unary main_v3872 main_v4014 (Host.cos : (⟨S16384, .f32⟩ : BufTy).Contents (Elt F) → (⟨S16384, .f32⟩ : BufTy).Contents (Elt F)),
    StableHlo.binary main_v3750 main_v3071 main_v4015 (subf : (⟨S16384, .f32⟩ : BufTy).Contents (Elt F) → (⟨S16384, .f32⟩ : BufTy).Contents (Elt F) → (⟨S16384, .f32⟩ : BufTy).Contents (Elt F)),
    StableHlo.unary main_v3808 main_v4016 (Host.cos : (⟨S16384, .f32⟩ : BufTy).Contents (Elt F) → (⟨S16384, .f32⟩ : BufTy).Contents (Elt F)),
    StableHlo.unary main_v3967 main_v4017 (Host.sin : (⟨S16384, .f32⟩ : BufTy).Contents (Elt F) → (⟨S16384, .f32⟩ : BufTy).Contents (Elt F)),
    StableHlo.binary main_v3930 main_v3878 main_v4018 (mulf : (⟨S16384, .f32⟩ : BufTy).Contents (Elt F) → (⟨S16384, .f32⟩ : BufTy).Contents (Elt F) → (⟨S16384, .f32⟩ : BufTy).Contents (Elt F)),
    StableHlo.unary main_v3989 main_v4019 (Host.cos : (⟨S16384, .f32⟩ : BufTy).Contents (Elt F) → (⟨S16384, .f32⟩ : BufTy).Contents (Elt F)),
    StableHlo.binary main_v3676 main_v3945 main_v4020 (addf : (⟨S16384, .f32⟩ : BufTy).Contents (Elt F) → (⟨S16384, .f32⟩ : BufTy).Contents (Elt F) → (⟨S16384, .f32⟩ : BufTy).Contents (Elt F)),
    StableHlo.unary main_v3839 main_v4021 (Host.cos : (⟨S16384, .f32⟩ : BufTy).Contents (Elt F) → (⟨S16384, .f32⟩ : BufTy).Contents (Elt F)),
    StableHlo.unary main_v4017 main_v4022 (Host.sin : (⟨S16384, .f32⟩ : BufTy).Contents (Elt F) → (⟨S16384, .f32⟩ : BufTy).Contents (Elt F)),
    StableHlo.unary main_v3887 main_v4023 (Host.cos : (⟨S16384, .f32⟩ : BufTy).Contents (Elt F) → (⟨S16384, .f32⟩ : BufTy).Contents (Elt F)),
    StableHlo.binary main_v3934 main_v3952 main_v4024 (addf : (⟨S16384, .f32⟩ : BufTy).Contents (Elt F) → (⟨S16384, .f32⟩ : BufTy).Contents (Elt F) → (⟨S16384, .f32⟩ : BufTy).Contents (Elt F)),
    StableHlo.unary main_v4000 main_v4025 (Host.sin : (⟨S16384, .f32⟩ : BufTy).Contents (Elt F) → (⟨S16384, .f32⟩ : BufTy).Contents (Elt F)),
    StableHlo.unary main_v3970 main_v4026 (Host.cos : (⟨S16384, .f32⟩ : BufTy).Contents (Elt F) → (⟨S16384, .f32⟩ : BufTy).Contents (Elt F)),
    StableHlo.unary main_v3768 main_v4027 (Host.cos : (⟨S16384, .f32⟩ : BufTy).Contents (Elt F) → (⟨S16384, .f32⟩ : BufTy).Contents (Elt F)),
    StableHlo.unary main_v3674 main_v4028 (Host.negf : (⟨S16384, .f32⟩ : BufTy).Contents (Elt F) → (⟨S16384, .f32⟩ : BufTy).Contents (Elt F)),
    StableHlo.unary main_v4022 main_v4029 (Host.cos : (⟨S16384, .f32⟩ : BufTy).Contents (Elt F) → (⟨S16384, .f32⟩ : BufTy).Contents (Elt F)),
    StableHlo.unary main_v4009 main_v4030 (Host.sin : (⟨S16384, .f32⟩ : BufTy).Contents (Elt F) → (⟨S16384, .f32⟩ : BufTy).Contents (Elt F)),
    StableHlo.unary main_v3767 main_v4031 (Host.sin : (⟨S16384, .f32⟩ : BufTy).Contents (Elt F) → (⟨S16384, .f32⟩ : BufTy).Contents (Elt F)),
    StableHlo.binary main_v3780 main_v4008 main_v4032 (subf : (⟨S16384, .f32⟩ : BufTy).Contents (Elt F) → (⟨S16384, .f32⟩ : BufTy).Contents (Elt F) → (⟨S16384, .f32⟩ : BufTy).Contents (Elt F)),
    StableHlo.binary main_v3643 main_v3926 main_v4033 (subf : (⟨S16384, .f32⟩ : BufTy).Contents (Elt F) → (⟨S16384, .f32⟩ : BufTy).Contents (Elt F) → (⟨S16384, .f32⟩ : BufTy).Contents (Elt F)),
    StableHlo.unary main_v3828 main_v4034 (Host.sin : (⟨S16384, .f32⟩ : BufTy).Contents (Elt F) → (⟨S16384, .f32⟩ : BufTy).Contents (Elt F)),
    StableHlo.unary main_v3929 main_v4035 (Host.sin : (⟨S16384, .f32⟩ : BufTy).Contents (Elt F) → (⟨S16384, .f32⟩ : BufTy).Contents (Elt F)),
    StableHlo.binary main_v3917 main_v3917 main_v4036 (mulf : (⟨S16384, .f32⟩ : BufTy).Contents (Elt F) → (⟨S16384, .f32⟩ : BufTy).Contents (Elt F) → (⟨S16384, .f32⟩ : BufTy).Contents (Elt F)),
    StableHlo.binary main_v3171 main_v3408 main_v4037 (mulf : (⟨S16384, .f32⟩ : BufTy).Contents (Elt F) → (⟨S16384, .f32⟩ : BufTy).Contents (Elt F) → (⟨S16384, .f32⟩ : BufTy).Contents (Elt F)),
    StableHlo.binary main_v3922 main_v3529 main_v4038 (addf : (⟨S16384, .f32⟩ : BufTy).Contents (Elt F) → (⟨S16384, .f32⟩ : BufTy).Contents (Elt F) → (⟨S16384, .f32⟩ : BufTy).Contents (Elt F)),
    StableHlo.binary main_v3888 main_v3904 main_v4039 (addf : (⟨S16384, .f32⟩ : BufTy).Contents (Elt F) → (⟨S16384, .f32⟩ : BufTy).Contents (Elt F) → (⟨S16384, .f32⟩ : BufTy).Contents (Elt F)),
    StableHlo.unary main_v3838 main_v4040 (Host.sin : (⟨S16384, .f32⟩ : BufTy).Contents (Elt F) → (⟨S16384, .f32⟩ : BufTy).Contents (Elt F)),
    StableHlo.unary main_v3684 main_v4041 (Host.sin : (⟨S16384, .f32⟩ : BufTy).Contents (Elt F) → (⟨S16384, .f32⟩ : BufTy).Contents (Elt F)),
    StableHlo.binary main_v4000 main_v4030 main_v4042 (subf : (⟨S16384, .f32⟩ : BufTy).Contents (Elt F) → (⟨S16384, .f32⟩ : BufTy).Contents (Elt F) → (⟨S16384, .f32⟩ : BufTy).Contents (Elt F)),
    StableHlo.unary main_v2530 main_v4043 (Host.cos : (⟨S16384, .f32⟩ : BufTy).Contents (Elt F) → (⟨S16384, .f32⟩ : BufTy).Contents (Elt F)),
    StableHlo.binary main_v3788 main_v3578 main_v4044 (addf : (⟨S16384, .f32⟩ : BufTy).Contents (Elt F) → (⟨S16384, .f32⟩ : BufTy).Contents (Elt F) → (⟨S16384, .f32⟩ : BufTy).Contents (Elt F)),
    StableHlo.binary main_v3766 main_v3833 main_v4045 (addf : (⟨S16384, .f32⟩ : BufTy).Contents (Elt F) → (⟨S16384, .f32⟩ : BufTy).Contents (Elt F) → (⟨S16384, .f32⟩ : BufTy).Contents (Elt F)),
    StableHlo.binary main_v3618 main_v3826 main_v4046 (addf : (⟨S16384, .f32⟩ : BufTy).Contents (Elt F) → (⟨S16384, .f32⟩ : BufTy).Contents (Elt F) → (⟨S16384, .f32⟩ : BufTy).Contents (Elt F)),
    StableHlo.unary main_v3947 main_v4047 (Host.sin : (⟨S16384, .f32⟩ : BufTy).Contents (Elt F) → (⟨S16384, .f32⟩ : BufTy).Contents (Elt F)),
    StableHlo.unary main_v3539 main_v4048 (Host.sin : (⟨S16384, .f32⟩ : BufTy).Contents (Elt F) → (⟨S16384, .f32⟩ : BufTy).Contents (Elt F)),
    StableHlo.unary main_v3510 main_v4049 (Host.cos : (⟨S16384, .f32⟩ : BufTy).Contents (Elt F) → (⟨S16384, .f32⟩ : BufTy).Contents (Elt F)),
    StableHlo.binary main_v3570 main_v3994 main_v4050 (subf : (⟨S16384, .f32⟩ : BufTy).Contents (Elt F) → (⟨S16384, .f32⟩ : BufTy).Contents (Elt F) → (⟨S16384, .f32⟩ : BufTy).Contents (Elt F)),
    StableHlo.unary main_v3872 main_v4051 (Host.cos : (⟨S16384, .f32⟩ : BufTy).Contents (Elt F) → (⟨S16384, .f32⟩ : BufTy).Contents (Elt F)),
    StableHlo.binary main_v3915 main_v3945 main_v4052 (subf : (⟨S16384, .f32⟩ : BufTy).Contents (Elt F) → (⟨S16384, .f32⟩ : BufTy).Contents (Elt F) → (⟨S16384, .f32⟩ : BufTy).Contents (Elt F)),
    StableHlo.unary main_v4021 main_v4053 (Host.sin : (⟨S16384, .f32⟩ : BufTy).Contents (Elt F) → (⟨S16384, .f32⟩ : BufTy).Contents (Elt F)),
    StableHlo.unary main_v4049 main_v4054 (Host.cos : (⟨S16384, .f32⟩ : BufTy).Contents (Elt F) → (⟨S16384, .f32⟩ : BufTy).Contents (Elt F)),
    StableHlo.unary main_v3957 main_v4055 (Host.cos : (⟨S16384, .f32⟩ : BufTy).Contents (Elt F) → (⟨S16384, .f32⟩ : BufTy).Contents (Elt F)),
    StableHlo.binary main_v3645 main_v3599 main_v4056 (mulf : (⟨S16384, .f32⟩ : BufTy).Contents (Elt F) → (⟨S16384, .f32⟩ : BufTy).Contents (Elt F) → (⟨S16384, .f32⟩ : BufTy).Contents (Elt F)),
    StableHlo.binary main_v3999 main_v3799 main_v4057 (addf : (⟨S16384, .f32⟩ : BufTy).Contents (Elt F) → (⟨S16384, .f32⟩ : BufTy).Contents (Elt F) → (⟨S16384, .f32⟩ : BufTy).Contents (Elt F)),
    StableHlo.unary main_v4043 main_v4058 (Host.negf : (⟨S16384, .f32⟩ : BufTy).Contents (Elt F) → (⟨S16384, .f32⟩ : BufTy).Contents (Elt F)),
    StableHlo.unary main_v4057 main_v4059 (Host.cos : (⟨S16384, .f32⟩ : BufTy).Contents (Elt F) → (⟨S16384, .f32⟩ : BufTy).Contents (Elt F)),
    StableHlo.binary main_v3983 main_v3983 main_v4060 (mulf : (⟨S16384, .f32⟩ : BufTy).Contents (Elt F) → (⟨S16384, .f32⟩ : BufTy).Contents (Elt F) → (⟨S16384, .f32⟩ : BufTy).Contents (Elt F)),
    StableHlo.unary main_v4055 main_v4061 (Host.sin : (⟨S16384, .f32⟩ : BufTy).Contents (Elt F) → (⟨S16384, .f32⟩ : BufTy).Contents (Elt F)),
    StableHlo.unary main_v3585 main_v4062 (Host.sin : (⟨S16384, .f32⟩ : BufTy).Contents (Elt F) → (⟨S16384, .f32⟩ : BufTy).Contents (Elt F)),
    StableHlo.unary main_v3421 main_v4063 (Host.cos : (⟨S16384, .f32⟩ : BufTy).Contents (Elt F) → (⟨S16384, .f32⟩ : BufTy).Contents (Elt F)) ]

theorem part67_eq (d : Dev nD) : main_part67 (F := F) d = seq ops67 := rfl
theorem ops67_sub : (ops67 (F := F)).Forall fun op => op.bufs ⊆ tcRefs τ sig := by line_sub
theorem ops67_fresh : ∀ op ∈ (ops67 (F := F)), op.fresh = ∅ := by line_fresh
theorem ops67_ordered : Cert.Ssa.Ordered 4021 (ops67 (F := F)) := by line_ordered

/-- Window 68 of @main: its operations, positions 4081 to 4140, in order. -/
abbrev ops68 : List (HloOp τ sig (Elt F)) :=
  [ StableHlo.unary main_v3943 main_v4064 (Host.cos : (⟨S16384, .f32⟩ : BufTy).Contents (Elt F) → (⟨S16384, .f32⟩ : BufTy).Contents (Elt F)),
    StableHlo.unary main_v3828 main_v4065 (Host.cos : (⟨S16384, .f32⟩ : BufTy).Contents (Elt F) → (⟨S16384, .f32⟩ : BufTy).Contents (Elt F)),
    StableHlo.binary main_v4042 main_v3910 main_v4066 (addf : (⟨S16384, .f32⟩ : BufTy).Contents (Elt F) → (⟨S16384, .f32⟩ : BufTy).Contents (Elt F) → (⟨S16384, .f32⟩ : BufTy).Contents (Elt F)),
    StableHlo.unary main_v3826 main_v4067 (Host.sin : (⟨S16384, .f32⟩ : BufTy).Contents (Elt F) → (⟨S16384, .f32⟩ : BufTy).Contents (Elt F)),
    StableHlo.binary main_v3961 main_v3995 main_v4068 (subf : (⟨S16384, .f32⟩ : BufTy).Contents (Elt F) → (⟨S16384, .f32⟩ : BufTy).Contents (Elt F) → (⟨S16384, .f32⟩ : BufTy).Contents (Elt F)),
    StableHlo.unary main_v4024 main_v4069 (Host.cos : (⟨S16384, .f32⟩ : BufTy).Contents (Elt F) → (⟨S16384, .f32⟩ : BufTy).Contents (Elt F)),
    StableHlo.binary main_v4015 main_v4015 main_v4070 (mulf : (⟨S16384, .f32⟩ : BufTy).Contents (Elt F) → (⟨S16384, .f32⟩ : BufTy).Contents (Elt F) → (⟨S16384, .f32⟩ : BufTy).Contents (Elt F)),
    StableHlo.unary main_v3484 main_v4071 (Host.negf : (⟨S16384, .f32⟩ : BufTy).Contents (Elt F) → (⟨S16384, .f32⟩ : BufTy).Contents (Elt F)),
    StableHlo.unary main_v3462 main_v4072 (Host.sin : (⟨S16384, .f32⟩ : BufTy).Contents (Elt F) → (⟨S16384, .f32⟩ : BufTy).Contents (Elt F)),
    StableHlo.unary main_v3255 main_v4073 (Host.cos : (⟨S16384, .f32⟩ : BufTy).Contents (Elt F) → (⟨S16384, .f32⟩ : BufTy).Contents (Elt F)),
    StableHlo.binary main_v3470 main_v4072 main_v4074 (mulf : (⟨S16384, .f32⟩ : BufTy).Contents (Elt F) → (⟨S16384, .f32⟩ : BufTy).Contents (Elt F) → (⟨S16384, .f32⟩ : BufTy).Contents (Elt F)),
    StableHlo.binary main_v3975 main_v3966 main_v4075 (mulf : (⟨S16384, .f32⟩ : BufTy).Contents (Elt F) → (⟨S16384, .f32⟩ : BufTy).Contents (Elt F) → (⟨S16384, .f32⟩ : BufTy).Contents (Elt F)),
    StableHlo.binary main_v3485 main_v3975 main_v4076 (addf : (⟨S16384, .f32⟩ : BufTy).Contents (Elt F) → (⟨S16384, .f32⟩ : BufTy).Contents (Elt F) → (⟨S16384, .f32⟩ : BufTy).Contents (Elt F)),
    StableHlo.binary main_v3892 main_v4076 main_v4077 (addf : (⟨S16384, .f32⟩ : BufTy).Contents (Elt F) → (⟨S16384, .f32⟩ : BufTy).Contents (Elt F) → (⟨S16384, .f32⟩ : BufTy).Contents (Elt F)),
    StableHlo.binary main_v3999 main_v3914 main_v4078 (mulf : (⟨S16384, .f32⟩ : BufTy).Contents (Elt F) → (⟨S16384, .f32⟩ : BufTy).Contents (Elt F) → (⟨S16384, .f32⟩ : BufTy).Contents (Elt F)),
    StableHlo.binary main_v3973 main_v3780 main_v4079 (addf : (⟨S16384, .f32⟩ : BufTy).Contents (Elt F) → (⟨S16384, .f32⟩ : BufTy).Contents (Elt F) → (⟨S16384, .f32⟩ : BufTy).Contents (Elt F)),
    StableHlo.unary main_v3884 main_v4080 (Host.cos : (⟨S16384, .f32⟩ : BufTy).Contents (Elt F) → (⟨S16384, .f32⟩ : BufTy).Contents (Elt F)),
    StableHlo.unary main_v4000 main_v4081 (Host.sin : (⟨S16384, .f32⟩ : BufTy).Contents (Elt F) → (⟨S16384, .f32⟩ : BufTy).Contents (Elt F)),
    StableHlo.unary main_v3888 main_v4082 (Host.sin : (⟨S16384, .f32⟩ : BufTy).Contents (Elt F) → (⟨S16384, .f32⟩ : BufTy).Contents (Elt F)),
    StableHlo.binary main_v4024 main_v4008 main_v4083 (addf : (⟨S16384, .f32⟩ : BufTy).Contents (Elt F) → (⟨S16384, .f32⟩ : BufTy).Contents (Elt F) → (⟨S16384, .f32⟩ : BufTy).Contents (Elt F)),
    StableHlo.binary main_v4068 main_v3462 main_v4084 (addf : (⟨S16384, .f32⟩ : BufTy).Contents (Elt F) → (⟨S16384, .f32⟩ : BufTy).Contents (Elt F) → (⟨S16384, .f32⟩ : BufTy).Contents (Elt F)),
    StableHlo.unary main_v4005 main_v4085 (Host.sin : (⟨S16384, .f32⟩ : BufTy).Contents (Elt F) → (⟨S16384, .f32⟩ : BufTy).Contents (Elt F)),
    StableHlo.unary main_v3477 main_v4086 (Host.sin : (⟨S16384, .f32⟩ : BufTy).Contents (Elt F) → (⟨S16384, .f32⟩ : BufTy).Contents (Elt F)),
    StableHlo.unary main_v3510 main_v4087 (Host.cos : (⟨S16384, .f32⟩ : BufTy).Contents (Elt F) → (⟨S16384, .f32⟩ : BufTy).Contents (Elt F)),
    StableHlo.unary main_v3958 main_v4088 (Host.negf : (⟨S16384, .f32⟩ : BufTy).Contents (Elt F) → (⟨S16384, .f32⟩ : BufTy).Contents (Elt F)),
    StableHlo.binary main_v3507 main_v3876 main_v4089 (addf : (⟨S16384, .f32⟩ : BufTy).Contents (Elt F) → (⟨S16384, .f32⟩ : BufTy).Contents (Elt F) → (⟨S16384, .f32⟩ : BufTy).Contents (Elt F)),
    StableHlo.unary main_v4040 main_v4090 (Host.cos : (⟨S16384, .f32⟩ : BufTy).Contents (Elt F) → (⟨S16384, .f32⟩ : BufTy).Contents (Elt F)),
    StableHlo.unary main_v3888 main_v4091 (Host.cos : (⟨S16384, .f32⟩ : BufTy).Contents (Elt F) → (⟨S16384, .f32⟩ : BufTy).Contents (Elt F)),
    StableHlo.binary main_v4002 main_v4002 main_v4092 (mulf : (⟨S16384, .f32⟩ : BufTy).Contents (Elt F) → (⟨S16384, .f32⟩ : BufTy).Contents (Elt F) → (⟨S16384, .f32⟩ : BufTy).Contents (Elt F)),
    StableHlo.binary main_v4033 main_v4033 main_v4093 (mulf : (⟨S16384, .f32⟩ : BufTy).Contents (Elt F) → (⟨S16384, .f32⟩ : BufTy).Contents (Elt F) → (⟨S16384, .f32⟩ : BufTy).Contents (Elt F)),
    StableHlo.binary main_v3421 main_v4002 main_v4094 (subf : (⟨S16384, .f32⟩ : BufTy).Contents (Elt F) → (⟨S16384, .f32⟩ : BufTy).Contents (Elt F) → (⟨S16384, .f32⟩ : BufTy).Contents (Elt F)),
    StableHlo.unary main_v4030 main_v4095 (Host.sin : (⟨S16384, .f32⟩ : BufTy).Contents (Elt F) → (⟨S16384, .f32⟩ : BufTy).Contents (Elt F)),
    StableHlo.unary main_v3484 main_v4096 (broadcastInDim S16384x1 ![0] bcast_S16384_S16384x1_0 : (⟨S16384, .f32⟩ : BufTy).Contents (Elt F) → (⟨S16384x1, .f32⟩ : BufTy).Contents (Elt F)),
    StableHlo.unary main_v3643 main_v4097 (broadcastInDim S16384x1 ![0] bcast_S16384_S16384x1_0 : (⟨S16384, .f32⟩ : BufTy).Contents (Elt F) → (⟨S16384x1, .f32⟩ : BufTy).Contents (Elt F)),
    StableHlo.unary main_v3911 main_v4098 (broadcastInDim S16384x1 ![0] bcast_S16384_S16384x1_0 : (⟨S16384, .f32⟩ : BufTy).Contents (Elt F) → (⟨S16384x1, .f32⟩ : BufTy).Contents (Elt F)),
    StableHlo.unary main_v4085 main_v4099 (broadcastInDim S16384x1 ![0] bcast_S16384_S16384x1_0 : (⟨S16384, .f32⟩ : BufTy).Contents (Elt F) → (⟨S16384x1, .f32⟩ : BufTy).Contents (Elt F)),
    StableHlo.unary main_v3310 main_v4100 (broadcastInDim S16384x1 ![0] bcast_S16384_S16384x1_0 : (⟨S16384, .f32⟩ : BufTy).Contents (Elt F) → (⟨S16384x1, .f32⟩ : BufTy).Contents (Elt F)),
    StableHlo.unary main_v3971 main_v4101 (broadcastInDim S16384x1 ![0] bcast_S16384_S16384x1_0 : (⟨S16384, .f32⟩ : BufTy).Contents (Elt F) → (⟨S16384x1, .f32⟩ : BufTy).Contents (Elt F)),
    StableHlo.unary main_v4041 main_v4102 (broadcastInDim S16384x1 ![0] bcast_S16384_S16384x1_0 : (⟨S16384, .f32⟩ : BufTy).Contents (Elt F) → (⟨S16384x1, .f32⟩ : BufTy).Contents (Elt F)),
    StableHlo.unary main_v4079 main_v4103 (broadcastInDim S16384x1 ![0] bcast_S16384_S16384x1_0 : (⟨S16384, .f32⟩ : BufTy).Contents (Elt F) → (⟨S16384x1, .f32⟩ : BufTy).Contents (Elt F)),
    StableHlo.unary main_v3772 main_v4104 (broadcastInDim S16384x1 ![0] bcast_S16384_S16384x1_0 : (⟨S16384, .f32⟩ : BufTy).Contents (Elt F) → (⟨S16384x1, .f32⟩ : BufTy).Contents (Elt F)),
    StableHlo.unary main_v3967 main_v4105 (broadcastInDim S16384x1 ![0] bcast_S16384_S16384x1_0 : (⟨S16384, .f32⟩ : BufTy).Contents (Elt F) → (⟨S16384x1, .f32⟩ : BufTy).Contents (Elt F)),
    StableHlo.unary main_v3981 main_v4106 (broadcastInDim S16384x1 ![0] bcast_S16384_S16384x1_0 : (⟨S16384, .f32⟩ : BufTy).Contents (Elt F) → (⟨S16384x1, .f32⟩ : BufTy).Contents (Elt F)),
    StableHlo.unary main_v4047 main_v4107 (broadcastInDim S16384x1 ![0] bcast_S16384_S16384x1_0 : (⟨S16384, .f32⟩ : BufTy).Contents (Elt F) → (⟨S16384x1, .f32⟩ : BufTy).Contents (Elt F)),
    StableHlo.unary main_v4011 main_v4108 (broadcastInDim S16384x1 ![0] bcast_S16384_S16384x1_0 : (⟨S16384, .f32⟩ : BufTy).Contents (Elt F) → (⟨S16384x1, .f32⟩ : BufTy).Contents (Elt F)),
    StableHlo.unary main_v3729 main_v4109 (broadcastInDim S16384x1 ![0] bcast_S16384_S16384x1_0 : (⟨S16384, .f32⟩ : BufTy).Contents (Elt F) → (⟨S16384x1, .f32⟩ : BufTy).Contents (Elt F)),
    StableHlo.unary main_v3882 main_v4110 (broadcastInDim S16384x1 ![0] bcast_S16384_S16384x1_0 : (⟨S16384, .f32⟩ : BufTy).Contents (Elt F) → (⟨S16384x1, .f32⟩ : BufTy).Contents (Elt F)),
    StableHlo.unary main_v4073 main_v4111 (broadcastInDim S16384x1 ![0] bcast_S16384_S16384x1_0 : (⟨S16384, .f32⟩ : BufTy).Contents (Elt F) → (⟨S16384x1, .f32⟩ : BufTy).Contents (Elt F)),
    StableHlo.unary main_v3767 main_v4112 (broadcastInDim S16384x1 ![0] bcast_S16384_S16384x1_0 : (⟨S16384, .f32⟩ : BufTy).Contents (Elt F) → (⟨S16384x1, .f32⟩ : BufTy).Contents (Elt F)),
    StableHlo.unary main_v3973 main_v4113 (broadcastInDim S16384x1 ![0] bcast_S16384_S16384x1_0 : (⟨S16384, .f32⟩ : BufTy).Contents (Elt F) → (⟨S16384x1, .f32⟩ : BufTy).Contents (Elt F)),
    StableHlo.unary main_v3796 main_v4114 (broadcastInDim S16384x1 ![0] bcast_S16384_S16384x1_0 : (⟨S16384, .f32⟩ : BufTy).Contents (Elt F) → (⟨S16384x1, .f32⟩ : BufTy).Contents (Elt F)),
    StableHlo.unary main_v3699 main_v4115 (broadcastInDim S16384x1 ![0] bcast_S16384_S16384x1_0 : (⟨S16384, .f32⟩ : BufTy).Contents (Elt F) → (⟨S16384x1, .f32⟩ : BufTy).Contents (Elt F)),
    StableHlo.unary main_v3665 main_v4116 (broadcastInDim S16384x1 ![0] bcast_S16384_S16384x1_0 : (⟨S16384, .f32⟩ : BufTy).Contents (Elt F) → (⟨S16384x1, .f32⟩ : BufTy).Contents (Elt F)),
    StableHlo.unary main_v3903 main_v4117 (broadcastInDim S16384x1 ![0] bcast_S16384_S16384x1_0 : (⟨S16384, .f32⟩ : BufTy).Contents (Elt F) → (⟨S16384x1, .f32⟩ : BufTy).Contents (Elt F)),
    StableHlo.unary main_v3912 main_v4118 (broadcastInDim S16384x1 ![0] bcast_S16384_S16384x1_0 : (⟨S16384, .f32⟩ : BufTy).Contents (Elt F) → (⟨S16384x1, .f32⟩ : BufTy).Contents (Elt F)),
    StableHlo.unary main_v3255 main_v4119 (broadcastInDim S16384x1 ![0] bcast_S16384_S16384x1_0 : (⟨S16384, .f32⟩ : BufTy).Contents (Elt F) → (⟨S16384x1, .f32⟩ : BufTy).Contents (Elt F)),
    StableHlo.unary main_v3705 main_v4120 (broadcastInDim S16384x1 ![0] bcast_S16384_S16384x1_0 : (⟨S16384, .f32⟩ : BufTy).Contents (Elt F) → (⟨S16384x1, .f32⟩ : BufTy).Contents (Elt F)),
    StableHlo.unary main_v3913 main_v4121 (broadcastInDim S16384x1 ![0] bcast_S16384_S16384x1_0 : (⟨S16384, .f32⟩ : BufTy).Contents (Elt F) → (⟨S16384x1, .f32⟩ : BufTy).Contents (Elt F)),
    StableHlo.unary main_v3912 main_v4122 (broadcastInDim S16384x1 ![0] bcast_S16384_S16384x1_0 : (⟨S16384, .f32⟩ : BufTy).Contents (Elt F) → (⟨S16384x1, .f32⟩ : BufTy).Contents (Elt F)),
    StableHlo.unary main_v3908 main_v4123 (broadcastInDim S16384x1 ![0] bcast_S16384_S16384x1_0 : (⟨S16384, .f32⟩ : BufTy).Contents (Elt F) → (⟨S16384x1, .f32⟩ : BufTy).Contents (Elt F)) ]

theorem part68_eq (d : Dev nD) : main_part68 (F := F) d = seq ops68 := rfl
theorem ops68_sub : (ops68 (F := F)).Forall fun op => op.bufs ⊆ tcRefs τ sig := by line_sub
theorem ops68_fresh : ∀ op ∈ (ops68 (F := F)), op.fresh = ∅ := by line_fresh
theorem ops68_ordered : Cert.Ssa.Ordered 4081 (ops68 (F := F)) := by line_ordered

/-- The operands of concatenate 0 are buffers of the device, none scoped. -/
theorem cat0_refs : ∀ k : Fin 16, ((![main_v4096, main_v4097, main_v4098, main_v4099, main_v4100, main_v4101, main_v4102, main_v4103, main_v4104, main_v4105, main_v4106, main_v4107, main_v4108, main_v4109, main_v4110, main_v4111] k : Ref sig .tc)).space ≠ .host ∧ (((![main_v4096, main_v4097, main_v4098, main_v4099, main_v4100, main_v4101, main_v4102, main_v4103, main_v4104, main_v4105, main_v4106, main_v4107, main_v4108, main_v4109, main_v4110, main_v4111] k : Ref sig .tc)) : DevRef τ sig).isScoped = false := by decide

/-- Concatenate 0's function of its operands' contents (the printed text), under a name. -/
def catf0 : ((k : Fin 16) → ((![main_v4096, main_v4097, main_v4098, main_v4099, main_v4100, main_v4101, main_v4102, main_v4103, main_v4104, main_v4105, main_v4106, main_v4107, main_v4108, main_v4109, main_v4110, main_v4111] k : Ref sig .tc)).ty.Contents (Elt F)) → main_v4160.ty.Contents (Elt F) :=
  (fun u => concatenate S16384x16 1 [⟨S16384x1, u 0⟩, ⟨S16384x1, u 1⟩, ⟨S16384x1, u 2⟩, ⟨S16384x1, u 3⟩, ⟨S16384x1, u 4⟩, ⟨S16384x1, u 5⟩, ⟨S16384x1, u 6⟩, ⟨S16384x1, u 7⟩, ⟨S16384x1, u 8⟩, ⟨S16384x1, u 9⟩, ⟨S16384x1, u 10⟩, ⟨S16384x1, u 11⟩, ⟨S16384x1, u 12⟩, ⟨S16384x1, u 13⟩, ⟨S16384x1, u 14⟩, ⟨S16384x1, u 15⟩] concatenates_S16384x1_S16384x1_S16384x1_S16384x1_S16384x1_S16384x1_S16384x1_S16384x1_S16384x1_S16384x1_S16384x1_S16384x1_S16384x1_S16384x1_S16384x1_S16384x1_S16384x16_d1)

/-- Concatenate 0, the operation in position 4177: the printed operation, its function and its side condition by name. -/
abbrev cat0 : HloOp τ sig (Elt F) := StableHlo.nary ![main_v4096, main_v4097, main_v4098, main_v4099, main_v4100, main_v4101, main_v4102, main_v4103, main_v4104, main_v4105, main_v4106, main_v4107, main_v4108, main_v4109, main_v4110, main_v4111] main_v4160 catf0 cat0_refs

/-- Contents that concatenate 0 maps to themselves hold, at its result, the concatenation of what they hold at its operands. -/
theorem cat0_eq (W : Valuation τ sig (Elt F)) (h : (cat0 (F := F)).result W = W) :
    W (main_v4160 : DevRef τ sig) = concatenate S16384x16 1 [⟨S16384x1, W (main_v4096 : DevRef τ sig)⟩, ⟨S16384x1, W (main_v4097 : DevRef τ sig)⟩, ⟨S16384x1, W (main_v4098 : DevRef τ sig)⟩, ⟨S16384x1, W (main_v4099 : DevRef τ sig)⟩, ⟨S16384x1, W (main_v4100 : DevRef τ sig)⟩, ⟨S16384x1, W (main_v4101 : DevRef τ sig)⟩, ⟨S16384x1, W (main_v4102 : DevRef τ sig)⟩, ⟨S16384x1, W (main_v4103 : DevRef τ sig)⟩, ⟨S16384x1, W (main_v4104 : DevRef τ sig)⟩, ⟨S16384x1, W (main_v4105 : DevRef τ sig)⟩, ⟨S16384x1, W (main_v4106 : DevRef τ sig)⟩, ⟨S16384x1, W (main_v4107 : DevRef τ sig)⟩, ⟨S16384x1, W (main_v4108 : DevRef τ sig)⟩, ⟨S16384x1, W (main_v4109 : DevRef τ sig)⟩, ⟨S16384x1, W (main_v4110 : DevRef τ sig)⟩, ⟨S16384x1, W (main_v4111 : DevRef τ sig)⟩] concatenates_S16384x1_S16384x1_S16384x1_S16384x1_S16384x1_S16384x1_S16384x1_S16384x1_S16384x1_S16384x1_S16384x1_S16384x1_S16384x1_S16384x1_S16384x1_S16384x1_S16384x16_d1 :=
  (Cert.Ssa.nary_fix_iff _ _ _ _ W).1 h

/-- The operands of concatenate 1 are buffers of the device, none scoped. -/
theorem cat1_refs : ∀ k : Fin 16, ((![main_v4112, main_v4113, main_v4114, main_v4115, main_v4116, main_v4117, main_v4118, main_v4119, main_v4120, main_v4121, main_v4122, main_v4123, main_v4124, main_v4125, main_v4126, main_v4127] k : Ref sig .tc)).space ≠ .host ∧ (((![main_v4112, main_v4113, main_v4114, main_v4115, main_v4116, main_v4117, main_v4118, main_v4119, main_v4120, main_v4121, main_v4122, main_v4123, main_v4124, main_v4125, main_v4126, main_v4127] k : Ref sig .tc)) : DevRef τ sig).isScoped = false := by decide

/-- Concatenate 1's function of its operands' contents (the printed text), under a name. -/
def catf1 : ((k : Fin 16) → ((![main_v4112, main_v4113, main_v4114, main_v4115, main_v4116, main_v4117, main_v4118, main_v4119, main_v4120, main_v4121, main_v4122, main_v4123, main_v4124, main_v4125, main_v4126, main_v4127] k : Ref sig .tc)).ty.Contents (Elt F)) → main_v4161.ty.Contents (Elt F) :=
  (fun u => concatenate S16384x16 1 [⟨S16384x1, u 0⟩, ⟨S16384x1, u 1⟩, ⟨S16384x1, u 2⟩, ⟨S16384x1, u 3⟩, ⟨S16384x1, u 4⟩, ⟨S16384x1, u 5⟩, ⟨S16384x1, u 6⟩, ⟨S16384x1, u 7⟩, ⟨S16384x1, u 8⟩, ⟨S16384x1, u 9⟩, ⟨S16384x1, u 10⟩, ⟨S16384x1, u 11⟩, ⟨S16384x1, u 12⟩, ⟨S16384x1, u 13⟩, ⟨S16384x1, u 14⟩, ⟨S16384x1, u 15⟩] concatenates_S16384x1_S16384x1_S16384x1_S16384x1_S16384x1_S16384x1_S16384x1_S16384x1_S16384x1_S16384x1_S16384x1_S16384x1_S16384x1_S16384x1_S16384x1_S16384x1_S16384x16_d1)

/-- Concatenate 1, the operation in position 4178: the printed operation, its function and its side condition by name. -/
abbrev cat1 : HloOp τ sig (Elt F) := StableHlo.nary ![main_v4112, main_v4113, main_v4114, main_v4115, main_v4116, main_v4117, main_v4118, main_v4119, main_v4120, main_v4121, main_v4122, main_v4123, main_v4124, main_v4125, main_v4126, main_v4127] main_v4161 catf1 cat1_refs

/-- Contents that concatenate 1 maps to themselves hold, at its result, the concatenation of what they hold at its operands. -/
theorem cat1_eq (W : Valuation τ sig (Elt F)) (h : (cat1 (F := F)).result W = W) :
    W (main_v4161 : DevRef τ sig) = concatenate S16384x16 1 [⟨S16384x1, W (main_v4112 : DevRef τ sig)⟩, ⟨S16384x1, W (main_v4113 : DevRef τ sig)⟩, ⟨S16384x1, W (main_v4114 : DevRef τ sig)⟩, ⟨S16384x1, W (main_v4115 : DevRef τ sig)⟩, ⟨S16384x1, W (main_v4116 : DevRef τ sig)⟩, ⟨S16384x1, W (main_v4117 : DevRef τ sig)⟩, ⟨S16384x1, W (main_v4118 : DevRef τ sig)⟩, ⟨S16384x1, W (main_v4119 : DevRef τ sig)⟩, ⟨S16384x1, W (main_v4120 : DevRef τ sig)⟩, ⟨S16384x1, W (main_v4121 : DevRef τ sig)⟩, ⟨S16384x1, W (main_v4122 : DevRef τ sig)⟩, ⟨S16384x1, W (main_v4123 : DevRef τ sig)⟩, ⟨S16384x1, W (main_v4124 : DevRef τ sig)⟩, ⟨S16384x1, W (main_v4125 : DevRef τ sig)⟩, ⟨S16384x1, W (main_v4126 : DevRef τ sig)⟩, ⟨S16384x1, W (main_v4127 : DevRef τ sig)⟩] concatenates_S16384x1_S16384x1_S16384x1_S16384x1_S16384x1_S16384x1_S16384x1_S16384x1_S16384x1_S16384x1_S16384x1_S16384x1_S16384x1_S16384x1_S16384x1_S16384x1_S16384x16_d1 :=
  (Cert.Ssa.nary_fix_iff _ _ _ _ W).1 h

/-- The operands of concatenate 2 are buffers of the device, none scoped. -/
theorem cat2_refs : ∀ k : Fin 16, ((![main_v4128, main_v4129, main_v4130, main_v4131, main_v4132, main_v4133, main_v4134, main_v4135, main_v4136, main_v4137, main_v4138, main_v4139, main_v4140, main_v4141, main_v4142, main_v4143] k : Ref sig .tc)).space ≠ .host ∧ (((![main_v4128, main_v4129, main_v4130, main_v4131, main_v4132, main_v4133, main_v4134, main_v4135, main_v4136, main_v4137, main_v4138, main_v4139, main_v4140, main_v4141, main_v4142, main_v4143] k : Ref sig .tc)) : DevRef τ sig).isScoped = false := by decide

/-- Concatenate 2's function of its operands' contents (the printed text), under a name. -/
def catf2 : ((k : Fin 16) → ((![main_v4128, main_v4129, main_v4130, main_v4131, main_v4132, main_v4133, main_v4134, main_v4135, main_v4136, main_v4137, main_v4138, main_v4139, main_v4140, main_v4141, main_v4142, main_v4143] k : Ref sig .tc)).ty.Contents (Elt F)) → main_v4162.ty.Contents (Elt F) :=
  (fun u => concatenate S16384x16 1 [⟨S16384x1, u 0⟩, ⟨S16384x1, u 1⟩, ⟨S16384x1, u 2⟩, ⟨S16384x1, u 3⟩, ⟨S16384x1, u 4⟩, ⟨S16384x1, u 5⟩, ⟨S16384x1, u 6⟩, ⟨S16384x1, u 7⟩, ⟨S16384x1, u 8⟩, ⟨S16384x1, u 9⟩, ⟨S16384x1, u 10⟩, ⟨S16384x1, u 11⟩, ⟨S16384x1, u 12⟩, ⟨S16384x1, u 13⟩, ⟨S16384x1, u 14⟩, ⟨S16384x1, u 15⟩] concatenates_S16384x1_S16384x1_S16384x1_S16384x1_S16384x1_S16384x1_S16384x1_S16384x1_S16384x1_S16384x1_S16384x1_S16384x1_S16384x1_S16384x1_S16384x1_S16384x1_S16384x16_d1)

/-- Concatenate 2, the operation in position 4179: the printed operation, its function and its side condition by name. -/
abbrev cat2 : HloOp τ sig (Elt F) := StableHlo.nary ![main_v4128, main_v4129, main_v4130, main_v4131, main_v4132, main_v4133, main_v4134, main_v4135, main_v4136, main_v4137, main_v4138, main_v4139, main_v4140, main_v4141, main_v4142, main_v4143] main_v4162 catf2 cat2_refs

/-- Contents that concatenate 2 maps to themselves hold, at its result, the concatenation of what they hold at its operands. -/
theorem cat2_eq (W : Valuation τ sig (Elt F)) (h : (cat2 (F := F)).result W = W) :
    W (main_v4162 : DevRef τ sig) = concatenate S16384x16 1 [⟨S16384x1, W (main_v4128 : DevRef τ sig)⟩, ⟨S16384x1, W (main_v4129 : DevRef τ sig)⟩, ⟨S16384x1, W (main_v4130 : DevRef τ sig)⟩, ⟨S16384x1, W (main_v4131 : DevRef τ sig)⟩, ⟨S16384x1, W (main_v4132 : DevRef τ sig)⟩, ⟨S16384x1, W (main_v4133 : DevRef τ sig)⟩, ⟨S16384x1, W (main_v4134 : DevRef τ sig)⟩, ⟨S16384x1, W (main_v4135 : DevRef τ sig)⟩, ⟨S16384x1, W (main_v4136 : DevRef τ sig)⟩, ⟨S16384x1, W (main_v4137 : DevRef τ sig)⟩, ⟨S16384x1, W (main_v4138 : DevRef τ sig)⟩, ⟨S16384x1, W (main_v4139 : DevRef τ sig)⟩, ⟨S16384x1, W (main_v4140 : DevRef τ sig)⟩, ⟨S16384x1, W (main_v4141 : DevRef τ sig)⟩, ⟨S16384x1, W (main_v4142 : DevRef τ sig)⟩, ⟨S16384x1, W (main_v4143 : DevRef τ sig)⟩] concatenates_S16384x1_S16384x1_S16384x1_S16384x1_S16384x1_S16384x1_S16384x1_S16384x1_S16384x1_S16384x1_S16384x1_S16384x1_S16384x1_S16384x1_S16384x1_S16384x1_S16384x16_d1 :=
  (Cert.Ssa.nary_fix_iff _ _ _ _ W).1 h

/-- The operands of concatenate 3 are buffers of the device, none scoped. -/
theorem cat3_refs : ∀ k : Fin 16, ((![main_v4144, main_v4145, main_v4146, main_v4147, main_v4148, main_v4149, main_v4150, main_v4151, main_v4152, main_v4153, main_v4154, main_v4155, main_v4156, main_v4157, main_v4158, main_v4159] k : Ref sig .tc)).space ≠ .host ∧ (((![main_v4144, main_v4145, main_v4146, main_v4147, main_v4148, main_v4149, main_v4150, main_v4151, main_v4152, main_v4153, main_v4154, main_v4155, main_v4156, main_v4157, main_v4158, main_v4159] k : Ref sig .tc)) : DevRef τ sig).isScoped = false := by decide

/-- Concatenate 3's function of its operands' contents (the printed text), under a name. -/
def catf3 : ((k : Fin 16) → ((![main_v4144, main_v4145, main_v4146, main_v4147, main_v4148, main_v4149, main_v4150, main_v4151, main_v4152, main_v4153, main_v4154, main_v4155, main_v4156, main_v4157, main_v4158, main_v4159] k : Ref sig .tc)).ty.Contents (Elt F)) → main_v4163.ty.Contents (Elt F) :=
  (fun u => concatenate S16384x16 1 [⟨S16384x1, u 0⟩, ⟨S16384x1, u 1⟩, ⟨S16384x1, u 2⟩, ⟨S16384x1, u 3⟩, ⟨S16384x1, u 4⟩, ⟨S16384x1, u 5⟩, ⟨S16384x1, u 6⟩, ⟨S16384x1, u 7⟩, ⟨S16384x1, u 8⟩, ⟨S16384x1, u 9⟩, ⟨S16384x1, u 10⟩, ⟨S16384x1, u 11⟩, ⟨S16384x1, u 12⟩, ⟨S16384x1, u 13⟩, ⟨S16384x1, u 14⟩, ⟨S16384x1, u 15⟩] concatenates_S16384x1_S16384x1_S16384x1_S16384x1_S16384x1_S16384x1_S16384x1_S16384x1_S16384x1_S16384x1_S16384x1_S16384x1_S16384x1_S16384x1_S16384x1_S16384x1_S16384x16_d1)

/-- Concatenate 3, the operation in position 4180: the printed operation, its function and its side condition by name. -/
abbrev cat3 : HloOp τ sig (Elt F) := StableHlo.nary ![main_v4144, main_v4145, main_v4146, main_v4147, main_v4148, main_v4149, main_v4150, main_v4151, main_v4152, main_v4153, main_v4154, main_v4155, main_v4156, main_v4157, main_v4158, main_v4159] main_v4163 catf3 cat3_refs

/-- Contents that concatenate 3 maps to themselves hold, at its result, the concatenation of what they hold at its operands. -/
theorem cat3_eq (W : Valuation τ sig (Elt F)) (h : (cat3 (F := F)).result W = W) :
    W (main_v4163 : DevRef τ sig) = concatenate S16384x16 1 [⟨S16384x1, W (main_v4144 : DevRef τ sig)⟩, ⟨S16384x1, W (main_v4145 : DevRef τ sig)⟩, ⟨S16384x1, W (main_v4146 : DevRef τ sig)⟩, ⟨S16384x1, W (main_v4147 : DevRef τ sig)⟩, ⟨S16384x1, W (main_v4148 : DevRef τ sig)⟩, ⟨S16384x1, W (main_v4149 : DevRef τ sig)⟩, ⟨S16384x1, W (main_v4150 : DevRef τ sig)⟩, ⟨S16384x1, W (main_v4151 : DevRef τ sig)⟩, ⟨S16384x1, W (main_v4152 : DevRef τ sig)⟩, ⟨S16384x1, W (main_v4153 : DevRef τ sig)⟩, ⟨S16384x1, W (main_v4154 : DevRef τ sig)⟩, ⟨S16384x1, W (main_v4155 : DevRef τ sig)⟩, ⟨S16384x1, W (main_v4156 : DevRef τ sig)⟩, ⟨S16384x1, W (main_v4157 : DevRef τ sig)⟩, ⟨S16384x1, W (main_v4158 : DevRef τ sig)⟩, ⟨S16384x1, W (main_v4159 : DevRef τ sig)⟩] concatenates_S16384x1_S16384x1_S16384x1_S16384x1_S16384x1_S16384x1_S16384x1_S16384x1_S16384x1_S16384x1_S16384x1_S16384x1_S16384x1_S16384x1_S16384x1_S16384x1_S16384x16_d1 :=
  (Cert.Ssa.nary_fix_iff _ _ _ _ W).1 h

/-- The operands of concatenate 4 are buffers of the device, none scoped. -/
theorem cat4_refs : ∀ k : Fin 4, ((![main_v4160, main_v4161, main_v4162, main_v4163] k : Ref sig .tc)).space ≠ .host ∧ (((![main_v4160, main_v4161, main_v4162, main_v4163] k : Ref sig .tc)) : DevRef τ sig).isScoped = false := by decide

/-- Concatenate 4's function of its operands' contents (the printed text), under a name. -/
def catf4 : ((k : Fin 4) → ((![main_v4160, main_v4161, main_v4162, main_v4163] k : Ref sig .tc)).ty.Contents (Elt F)) → main_v4164.ty.Contents (Elt F) :=
  (fun u => concatenate S16384x64 1 [⟨S16384x16, u 0⟩, ⟨S16384x16, u 1⟩, ⟨S16384x16, u 2⟩, ⟨S16384x16, u 3⟩] concatenates_S16384x16_S16384x16_S16384x16_S16384x16_S16384x64_d1)

/-- Concatenate 4, the operation in position 4181: the printed operation, its function and its side condition by name. -/
abbrev cat4 : HloOp τ sig (Elt F) := StableHlo.nary ![main_v4160, main_v4161, main_v4162, main_v4163] main_v4164 catf4 cat4_refs

/-- Contents that concatenate 4 maps to themselves hold, at its result, the concatenation of what they hold at its operands. -/
theorem cat4_eq (W : Valuation τ sig (Elt F)) (h : (cat4 (F := F)).result W = W) :
    W (main_v4164 : DevRef τ sig) = concatenate S16384x64 1 [⟨S16384x16, W (main_v4160 : DevRef τ sig)⟩, ⟨S16384x16, W (main_v4161 : DevRef τ sig)⟩, ⟨S16384x16, W (main_v4162 : DevRef τ sig)⟩, ⟨S16384x16, W (main_v4163 : DevRef τ sig)⟩] concatenates_S16384x16_S16384x16_S16384x16_S16384x16_S16384x64_d1 :=
  (Cert.Ssa.nary_fix_iff _ _ _ _ W).1 h

/-- Window 69 of @main: its operations, positions 4141 to 4181, in order. -/
abbrev ops69 : List (HloOp τ sig (Elt F)) :=
  [ StableHlo.unary main_v4071 main_v4124 (broadcastInDim S16384x1 ![0] bcast_S16384_S16384x1_0 : (⟨S16384, .f32⟩ : BufTy).Contents (Elt F) → (⟨S16384x1, .f32⟩ : BufTy).Contents (Elt F)),
    StableHlo.unary main_v3784 main_v4125 (broadcastInDim S16384x1 ![0] bcast_S16384_S16384x1_0 : (⟨S16384, .f32⟩ : BufTy).Contents (Elt F) → (⟨S16384x1, .f32⟩ : BufTy).Contents (Elt F)),
    StableHlo.unary main_v3700 main_v4126 (broadcastInDim S16384x1 ![0] bcast_S16384_S16384x1_0 : (⟨S16384, .f32⟩ : BufTy).Contents (Elt F) → (⟨S16384x1, .f32⟩ : BufTy).Contents (Elt F)),
    StableHlo.unary main_v3826 main_v4127 (broadcastInDim S16384x1 ![0] bcast_S16384_S16384x1_0 : (⟨S16384, .f32⟩ : BufTy).Contents (Elt F) → (⟨S16384x1, .f32⟩ : BufTy).Contents (Elt F)),
    StableHlo.unary main_v3933 main_v4128 (broadcastInDim S16384x1 ![0] bcast_S16384_S16384x1_0 : (⟨S16384, .f32⟩ : BufTy).Contents (Elt F) → (⟨S16384x1, .f32⟩ : BufTy).Contents (Elt F)),
    StableHlo.unary main_v3882 main_v4129 (broadcastInDim S16384x1 ![0] bcast_S16384_S16384x1_0 : (⟨S16384, .f32⟩ : BufTy).Contents (Elt F) → (⟨S16384x1, .f32⟩ : BufTy).Contents (Elt F)),
    StableHlo.unary main_v4088 main_v4130 (broadcastInDim S16384x1 ![0] bcast_S16384_S16384x1_0 : (⟨S16384, .f32⟩ : BufTy).Contents (Elt F) → (⟨S16384x1, .f32⟩ : BufTy).Contents (Elt F)),
    StableHlo.unary main_v3808 main_v4131 (broadcastInDim S16384x1 ![0] bcast_S16384_S16384x1_0 : (⟨S16384, .f32⟩ : BufTy).Contents (Elt F) → (⟨S16384x1, .f32⟩ : BufTy).Contents (Elt F)),
    StableHlo.unary main_v4028 main_v4132 (broadcastInDim S16384x1 ![0] bcast_S16384_S16384x1_0 : (⟨S16384, .f32⟩ : BufTy).Contents (Elt F) → (⟨S16384x1, .f32⟩ : BufTy).Contents (Elt F)),
    StableHlo.unary main_v3769 main_v4133 (broadcastInDim S16384x1 ![0] bcast_S16384_S16384x1_0 : (⟨S16384, .f32⟩ : BufTy).Contents (Elt F) → (⟨S16384x1, .f32⟩ : BufTy).Contents (Elt F)),
    StableHlo.unary main_v3977 main_v4134 (broadcastInDim S16384x1 ![0] bcast_S16384_S16384x1_0 : (⟨S16384, .f32⟩ : BufTy).Contents (Elt F) → (⟨S16384x1, .f32⟩ : BufTy).Contents (Elt F)),
    StableHlo.unary main_v3964 main_v4135 (broadcastInDim S16384x1 ![0] bcast_S16384_S16384x1_0 : (⟨S16384, .f32⟩ : BufTy).Contents (Elt F) → (⟨S16384x1, .f32⟩ : BufTy).Contents (Elt F)),
    StableHlo.unary main_v4081 main_v4136 (broadcastInDim S16384x1 ![0] bcast_S16384_S16384x1_0 : (⟨S16384, .f32⟩ : BufTy).Contents (Elt F) → (⟨S16384x1, .f32⟩ : BufTy).Contents (Elt F)),
    StableHlo.unary main_v4002 main_v4137 (broadcastInDim S16384x1 ![0] bcast_S16384_S16384x1_0 : (⟨S16384, .f32⟩ : BufTy).Contents (Elt F) → (⟨S16384x1, .f32⟩ : BufTy).Contents (Elt F)),
    StableHlo.unary main_v3999 main_v4138 (broadcastInDim S16384x1 ![0] bcast_S16384_S16384x1_0 : (⟨S16384, .f32⟩ : BufTy).Contents (Elt F) → (⟨S16384x1, .f32⟩ : BufTy).Contents (Elt F)),
    StableHlo.unary main_v3448 main_v4139 (broadcastInDim S16384x1 ![0] bcast_S16384_S16384x1_0 : (⟨S16384, .f32⟩ : BufTy).Contents (Elt F) → (⟨S16384x1, .f32⟩ : BufTy).Contents (Elt F)),
    StableHlo.unary main_v3681 main_v4140 (broadcastInDim S16384x1 ![0] bcast_S16384_S16384x1_0 : (⟨S16384, .f32⟩ : BufTy).Contents (Elt F) → (⟨S16384x1, .f32⟩ : BufTy).Contents (Elt F)),
    StableHlo.unary main_v3612 main_v4141 (broadcastInDim S16384x1 ![0] bcast_S16384_S16384x1_0 : (⟨S16384, .f32⟩ : BufTy).Contents (Elt F) → (⟨S16384x1, .f32⟩ : BufTy).Contents (Elt F)),
    StableHlo.unary main_v3707 main_v4142 (broadcastInDim S16384x1 ![0] bcast_S16384_S16384x1_0 : (⟨S16384, .f32⟩ : BufTy).Contents (Elt F) → (⟨S16384x1, .f32⟩ : BufTy).Contents (Elt F)),
    StableHlo.unary main_v4004 main_v4143 (broadcastInDim S16384x1 ![0] bcast_S16384_S16384x1_0 : (⟨S16384, .f32⟩ : BufTy).Contents (Elt F) → (⟨S16384x1, .f32⟩ : BufTy).Contents (Elt F)),
    StableHlo.unary main_v3817 main_v4144 (broadcastInDim S16384x1 ![0] bcast_S16384_S16384x1_0 : (⟨S16384, .f32⟩ : BufTy).Contents (Elt F) → (⟨S16384x1, .f32⟩ : BufTy).Contents (Elt F)),
    StableHlo.unary main_v4034 main_v4145 (broadcastInDim S16384x1 ![0] bcast_S16384_S16384x1_0 : (⟨S16384, .f32⟩ : BufTy).Contents (Elt F) → (⟨S16384x1, .f32⟩ : BufTy).Contents (Elt F)),
    StableHlo.unary main_v3626 main_v4146 (broadcastInDim S16384x1 ![0] bcast_S16384_S16384x1_0 : (⟨S16384, .f32⟩ : BufTy).Contents (Elt F) → (⟨S16384x1, .f32⟩ : BufTy).Contents (Elt F)),
    StableHlo.unary main_v3806 main_v4147 (broadcastInDim S16384x1 ![0] bcast_S16384_S16384x1_0 : (⟨S16384, .f32⟩ : BufTy).Contents (Elt F) → (⟨S16384x1, .f32⟩ : BufTy).Contents (Elt F)),
    StableHlo.unary main_v3767 main_v4148 (broadcastInDim S16384x1 ![0] bcast_S16384_S16384x1_0 : (⟨S16384, .f32⟩ : BufTy).Contents (Elt F) → (⟨S16384x1, .f32⟩ : BufTy).Contents (Elt F)),
    StableHlo.unary main_v3432 main_v4149 (broadcastInDim S16384x1 ![0] bcast_S16384_S16384x1_0 : (⟨S16384, .f32⟩ : BufTy).Contents (Elt F) → (⟨S16384x1, .f32⟩ : BufTy).Contents (Elt F)),
    StableHlo.unary main_v3927 main_v4150 (broadcastInDim S16384x1 ![0] bcast_S16384_S16384x1_0 : (⟨S16384, .f32⟩ : BufTy).Contents (Elt F) → (⟨S16384x1, .f32⟩ : BufTy).Contents (Elt F)),
    StableHlo.unary main_v4085 main_v4151 (broadcastInDim S16384x1 ![0] bcast_S16384_S16384x1_0 : (⟨S16384, .f32⟩ : BufTy).Contents (Elt F) → (⟨S16384x1, .f32⟩ : BufTy).Contents (Elt F)),
    StableHlo.unary main_v4076 main_v4152 (broadcastInDim S16384x1 ![0] bcast_S16384_S16384x1_0 : (⟨S16384, .f32⟩ : BufTy).Contents (Elt F) → (⟨S16384x1, .f32⟩ : BufTy).Contents (Elt F)),
    StableHlo.unary main_v3618 main_v4153 (broadcastInDim S16384x1 ![0] bcast_S16384_S16384x1_0 : (⟨S16384, .f32⟩ : BufTy).Contents (Elt F) → (⟨S16384x1, .f32⟩ : BufTy).Contents (Elt F)),
    StableHlo.unary main_v4072 main_v4154 (broadcastInDim S16384x1 ![0] bcast_S16384_S16384x1_0 : (⟨S16384, .f32⟩ : BufTy).Contents (Elt F) → (⟨S16384x1, .f32⟩ : BufTy).Contents (Elt F)),
    StableHlo.unary main_v4054 main_v4155 (broadcastInDim S16384x1 ![0] bcast_S16384_S16384x1_0 : (⟨S16384, .f32⟩ : BufTy).Contents (Elt F) → (⟨S16384x1, .f32⟩ : BufTy).Contents (Elt F)),
    StableHlo.unary main_v3910 main_v4156 (broadcastInDim S16384x1 ![0] bcast_S16384_S16384x1_0 : (⟨S16384, .f32⟩ : BufTy).Contents (Elt F) → (⟨S16384x1, .f32⟩ : BufTy).Contents (Elt F)),
    StableHlo.unary main_v3890 main_v4157 (broadcastInDim S16384x1 ![0] bcast_S16384_S16384x1_0 : (⟨S16384, .f32⟩ : BufTy).Contents (Elt F) → (⟨S16384x1, .f32⟩ : BufTy).Contents (Elt F)),
    StableHlo.unary main_v3481 main_v4158 (broadcastInDim S16384x1 ![0] bcast_S16384_S16384x1_0 : (⟨S16384, .f32⟩ : BufTy).Contents (Elt F) → (⟨S16384x1, .f32⟩ : BufTy).Contents (Elt F)),
    StableHlo.unary main_v4070 main_v4159 (broadcastInDim S16384x1 ![0] bcast_S16384_S16384x1_0 : (⟨S16384, .f32⟩ : BufTy).Contents (Elt F) → (⟨S16384x1, .f32⟩ : BufTy).Contents (Elt F)),
    cat0,
    cat1,
    cat2,
    cat3,
    cat4 ]

theorem part69_eq (d : Dev nD) : main_part69 (F := F) d = seq ops69 := rfl
theorem ops69_sub : (ops69 (F := F)).Forall fun op => op.bufs ⊆ tcRefs τ sig := by line_sub
theorem ops69_fresh : ∀ op ∈ (ops69 (F := F)), op.fresh = ∅ := by line_fresh
theorem ops69_ordered : Cert.Ssa.Ordered 4141 (ops69 (F := F)) := by line_ordered

end Cert.ReferenceIdeal.Line

end
-- ==== Proof.RefLine.lean ====
/-
  The reference's @main as ONE line of host operations, and its run.

  @main is printed in 70 windows; each window is a literal list of operations (the table modules), equal to
  the window's program, touching TensorCore references only, determining all it writes, and in
  single-assignment order from the window's first position.  Here the windows are joined:

    * the line `ops` is the concatenation of the windows' lists, nested to the right,
      `ops0 ++ (ops1 ++ (… ++ ops69))`, which is the shape in which `@main` binds its windows, so that each
      of the four facts about the line is the same right fold over the windows' facts, through one lemma
      about `++` each;
    * `@main` is the line run as a program (`main_eq`);
    * hence its run (`run`): from any memory with zero counters every weakly fair execution terminates with
      every TensorCore buffer at the fold of the operations' results over the launch contents;
    * the line is in single-assignment order from position 1 (`ordered`), so the contents it ends with are
      mapped to themselves by every operation (`fix`) -- every defining equation holds of the final
      contents at once -- and the argument, at index 0, is never written (`arg_kept`).
-/
import Mathlib.Data.List.Basic
import Mathlib.Data.Finset.Filter
import Idealize.ShloMosaic.Lib.StableHlo.Run
import proofs.«146075_j27728308863612_2_alg».proof.Proof.Ssa
import proofs.«146075_j27728308863612_2_alg».proof.Proof.RefTactics
import proofs.«146075_j27728308863612_2_alg».proof.Proof.RefOps0
import proofs.«146075_j27728308863612_2_alg».proof.Proof.RefOps1
import proofs.«146075_j27728308863612_2_alg».proof.Proof.RefOps2
import proofs.«146075_j27728308863612_2_alg».proof.Proof.RefOps3
import proofs.«146075_j27728308863612_2_alg».proof.Proof.RefOps4
import proofs.«146075_j27728308863612_2_alg».proof.Proof.RefOps5
import proofs.«146075_j27728308863612_2_alg».proof.Proof.RefOps6

set_option synthInstance.maxSize 4096

noncomputable section

namespace Cert.ReferenceIdeal.Line

open Idealize.ShloMosaic Idealize.SL.Sem
open Idealize.ShloMosaic.StableHlo (seq seq_append after tcRefs launchContents run_seq)
open Cert.ReferenceIdeal

/-! ## Joining two lines -/

section Join

variable {nD : Nat} {τ : Topo} {sig : RefSig} {Val : EltTy → Type} {Λ : Labels}

/-- Two programs that are lines, run one after the other, are the concatenated line. -/
theorem seq_join {l₁ l₂ : List (HloOp τ sig Val)} {p₁ p₂ : Prog (TpuEff nD τ sig Val Λ .tc) PUnit}
    (h₁ : p₁ = seq l₁) (h₂ : p₂ = seq l₂) : (p₁ >>= fun _ => p₂) = seq (l₁ ++ l₂) := by
  rw [seq_append, h₁, h₂]

/-- A property of every member of two lists is one of every member of their concatenation. -/
theorem forall_join {α : Type*} {p : α → Prop} {l₁ l₂ : List α} (h₁ : l₁.Forall p) (h₂ : l₂.Forall p) :
    (l₁ ++ l₂).Forall p := List.forall_append.2 ⟨h₁, h₂⟩

/-- The same, for a property stated over membership. -/
theorem mem_join {α : Type*} {p : α → Prop} {l₁ l₂ : List α} (h₁ : ∀ x ∈ l₁, p x) (h₂ : ∀ x ∈ l₂, p x) :
    ∀ x ∈ l₁ ++ l₂, p x := List.forall_mem_append.2 ⟨h₁, h₂⟩

/-- A line in single-assignment order from position k, followed by one in order from the position after its
    last, is in order from k. -/
theorem ordered_join {k k' : ℕ} {l₁ l₂ : List (HloOp τ sig Val)} (h₁ : Cert.Ssa.Ordered k l₁)
    (e : k + l₁.length = k') (h₂ : Cert.Ssa.Ordered k' l₂) : Cert.Ssa.Ordered k (l₁ ++ l₂) :=
  h₁.append (e ▸ h₂)

end Join

variable {F : FTy → Type} [FloatOps F]

variable [Facts]
open Facts₀ Facts

/-! ## The line -/

/-- @main's 4181 operations, in order: the 70 windows' lists, concatenated to the right. -/
abbrev ops : List (HloOp τ sig (Elt F)) :=
  ops0 ++ (ops1 ++ (ops2 ++ (ops3 ++ (ops4 ++ (ops5 ++ (ops6 ++ (ops7 ++ (ops8 ++ (ops9 ++ (
  ops10 ++ (ops11 ++ (ops12 ++ (ops13 ++ (ops14 ++ (ops15 ++ (ops16 ++ (ops17 ++ (ops18 ++ (ops19 ++ (
  ops20 ++ (ops21 ++ (ops22 ++ (ops23 ++ (ops24 ++ (ops25 ++ (ops26 ++ (ops27 ++ (ops28 ++ (ops29 ++ (
  ops30 ++ (ops31 ++ (ops32 ++ (ops33 ++ (ops34 ++ (ops35 ++ (ops36 ++ (ops37 ++ (ops38 ++ (ops39 ++ (
  ops40 ++ (ops41 ++ (ops42 ++ (ops43 ++ (ops44 ++ (ops45 ++ (ops46 ++ (ops47 ++ (ops48 ++ (ops49 ++ (
  ops50 ++ (ops51 ++ (ops52 ++ (ops53 ++ (ops54 ++ (ops55 ++ (ops56 ++ (ops57 ++ (ops58 ++ (ops59 ++ (
  ops60 ++ (ops61 ++ (ops62 ++ (ops63 ++ (ops64 ++ (ops65 ++ (ops66 ++ (ops67 ++ (ops68 ++ (
  ops69)))))))))))))))))))))))))))))))))))))))))))))))))))))))))))))))))))))

/-- @main is the line, run. -/
theorem main_eq (d : Dev nD) : main (F := F) d = seq ops :=
  seq_join (part0_eq d) <| seq_join (part1_eq d) <| seq_join (part2_eq d) <| seq_join (part3_eq d) <| seq_join (part4_eq d) <|
  seq_join (part5_eq d) <| seq_join (part6_eq d) <| seq_join (part7_eq d) <| seq_join (part8_eq d) <| seq_join (part9_eq d) <|
  seq_join (part10_eq d) <| seq_join (part11_eq d) <| seq_join (part12_eq d) <| seq_join (part13_eq d) <| seq_join (part14_eq d) <|
  seq_join (part15_eq d) <| seq_join (part16_eq d) <| seq_join (part17_eq d) <| seq_join (part18_eq d) <| seq_join (part19_eq d) <|
  seq_join (part20_eq d) <| seq_join (part21_eq d) <| seq_join (part22_eq d) <| seq_join (part23_eq d) <| seq_join (part24_eq d) <|
  seq_join (part25_eq d) <| seq_join (part26_eq d) <| seq_join (part27_eq d) <| seq_join (part28_eq d) <| seq_join (part29_eq d) <|
  seq_join (part30_eq d) <| seq_join (part31_eq d) <| seq_join (part32_eq d) <| seq_join (part33_eq d) <| seq_join (part34_eq d) <|
  seq_join (part35_eq d) <| seq_join (part36_eq d) <| seq_join (part37_eq d) <| seq_join (part38_eq d) <| seq_join (part39_eq d) <|
  seq_join (part40_eq d) <| seq_join (part41_eq d) <| seq_join (part42_eq d) <| seq_join (part43_eq d) <| seq_join (part44_eq d) <|
  seq_join (part45_eq d) <| seq_join (part46_eq d) <| seq_join (part47_eq d) <| seq_join (part48_eq d) <| seq_join (part49_eq d) <|
  seq_join (part50_eq d) <| seq_join (part51_eq d) <| seq_join (part52_eq d) <| seq_join (part53_eq d) <| seq_join (part54_eq d) <|
  seq_join (part55_eq d) <| seq_join (part56_eq d) <| seq_join (part57_eq d) <| seq_join (part58_eq d) <| seq_join (part59_eq d) <|
  seq_join (part60_eq d) <| seq_join (part61_eq d) <| seq_join (part62_eq d) <| seq_join (part63_eq d) <| seq_join (part64_eq d) <|
  seq_join (part65_eq d) <| seq_join (part66_eq d) <| seq_join (part67_eq d) <| seq_join (part68_eq d) <|
  part69_eq d

/-- Every operation of the line touches TensorCore references only. -/
theorem ops_sub : (ops (F := F)).Forall fun op => op.bufs ⊆ tcRefs τ sig :=
  forall_join ops0_sub <| forall_join ops1_sub <| forall_join ops2_sub <| forall_join ops3_sub <| forall_join ops4_sub <|
  forall_join ops5_sub <| forall_join ops6_sub <| forall_join ops7_sub <| forall_join ops8_sub <| forall_join ops9_sub <|
  forall_join ops10_sub <| forall_join ops11_sub <| forall_join ops12_sub <| forall_join ops13_sub <| forall_join ops14_sub <|
  forall_join ops15_sub <| forall_join ops16_sub <| forall_join ops17_sub <| forall_join ops18_sub <| forall_join ops19_sub <|
  forall_join ops20_sub <| forall_join ops21_sub <| forall_join ops22_sub <| forall_join ops23_sub <| forall_join ops24_sub <|
  forall_join ops25_sub <| forall_join ops26_sub <| forall_join ops27_sub <| forall_join ops28_sub <| forall_join ops29_sub <|
  forall_join ops30_sub <| forall_join ops31_sub <| forall_join ops32_sub <| forall_join ops33_sub <| forall_join ops34_sub <|
  forall_join ops35_sub <| forall_join ops36_sub <| forall_join ops37_sub <| forall_join ops38_sub <| forall_join ops39_sub <|
  forall_join ops40_sub <| forall_join ops41_sub <| forall_join ops42_sub <| forall_join ops43_sub <| forall_join ops44_sub <|
  forall_join ops45_sub <| forall_join ops46_sub <| forall_join ops47_sub <| forall_join ops48_sub <| forall_join ops49_sub <|
  forall_join ops50_sub <| forall_join ops51_sub <| forall_join ops52_sub <| forall_join ops53_sub <| forall_join ops54_sub <|
  forall_join ops55_sub <| forall_join ops56_sub <| forall_join ops57_sub <| forall_join ops58_sub <| forall_join ops59_sub <|
  forall_join ops60_sub <| forall_join ops61_sub <| forall_join ops62_sub <| forall_join ops63_sub <| forall_join ops64_sub <|
  forall_join ops65_sub <| forall_join ops66_sub <| forall_join ops67_sub <| forall_join ops68_sub <|
  ops69_sub

/-- Every operation of the line determines all it writes. -/
theorem ops_fresh : ∀ op ∈ (ops (F := F)), op.fresh = ∅ :=
  mem_join ops0_fresh <| mem_join ops1_fresh <| mem_join ops2_fresh <| mem_join ops3_fresh <| mem_join ops4_fresh <|
  mem_join ops5_fresh <| mem_join ops6_fresh <| mem_join ops7_fresh <| mem_join ops8_fresh <| mem_join ops9_fresh <|
  mem_join ops10_fresh <| mem_join ops11_fresh <| mem_join ops12_fresh <| mem_join ops13_fresh <| mem_join ops14_fresh <|
  mem_join ops15_fresh <| mem_join ops16_fresh <| mem_join ops17_fresh <| mem_join ops18_fresh <| mem_join ops19_fresh <|
  mem_join ops20_fresh <| mem_join ops21_fresh <| mem_join ops22_fresh <| mem_join ops23_fresh <| mem_join ops24_fresh <|
  mem_join ops25_fresh <| mem_join ops26_fresh <| mem_join ops27_fresh <| mem_join ops28_fresh <| mem_join ops29_fresh <|
  mem_join ops30_fresh <| mem_join ops31_fresh <| mem_join ops32_fresh <| mem_join ops33_fresh <| mem_join ops34_fresh <|
  mem_join ops35_fresh <| mem_join ops36_fresh <| mem_join ops37_fresh <| mem_join ops38_fresh <| mem_join ops39_fresh <|
  mem_join ops40_fresh <| mem_join ops41_fresh <| mem_join ops42_fresh <| mem_join ops43_fresh <| mem_join ops44_fresh <|
  mem_join ops45_fresh <| mem_join ops46_fresh <| mem_join ops47_fresh <| mem_join ops48_fresh <| mem_join ops49_fresh <|
  mem_join ops50_fresh <| mem_join ops51_fresh <| mem_join ops52_fresh <| mem_join ops53_fresh <| mem_join ops54_fresh <|
  mem_join ops55_fresh <| mem_join ops56_fresh <| mem_join ops57_fresh <| mem_join ops58_fresh <| mem_join ops59_fresh <|
  mem_join ops60_fresh <| mem_join ops61_fresh <| mem_join ops62_fresh <| mem_join ops63_fresh <| mem_join ops64_fresh <|
  mem_join ops65_fresh <| mem_join ops66_fresh <| mem_join ops67_fresh <| mem_join ops68_fresh <|
  ops69_fresh

-- each of the 69 equations `k + (a window's length) = k'` between positions is the computation of a literal list's length
set_option maxHeartbeats 16000000 in
/-- The line is in single-assignment order: its j-th operation in position j. -/
theorem ordered : Cert.Ssa.Ordered 1 (ops (F := F)) :=
  ordered_join ops0_ordered rfl <| ordered_join ops1_ordered rfl <| ordered_join ops2_ordered rfl <| ordered_join ops3_ordered rfl <|
  ordered_join ops4_ordered rfl <| ordered_join ops5_ordered rfl <| ordered_join ops6_ordered rfl <| ordered_join ops7_ordered rfl <|
  ordered_join ops8_ordered rfl <| ordered_join ops9_ordered rfl <| ordered_join ops10_ordered rfl <| ordered_join ops11_ordered rfl <|
  ordered_join ops12_ordered rfl <| ordered_join ops13_ordered rfl <| ordered_join ops14_ordered rfl <| ordered_join ops15_ordered rfl <|
  ordered_join ops16_ordered rfl <| ordered_join ops17_ordered rfl <| ordered_join ops18_ordered rfl <| ordered_join ops19_ordered rfl <|
  ordered_join ops20_ordered rfl <| ordered_join ops21_ordered rfl <| ordered_join ops22_ordered rfl <| ordered_join ops23_ordered rfl <|
  ordered_join ops24_ordered rfl <| ordered_join ops25_ordered rfl <| ordered_join ops26_ordered rfl <| ordered_join ops27_ordered rfl <|
  ordered_join ops28_ordered rfl <| ordered_join ops29_ordered rfl <| ordered_join ops30_ordered rfl <| ordered_join ops31_ordered rfl <|
  ordered_join ops32_ordered rfl <| ordered_join ops33_ordered rfl <| ordered_join ops34_ordered rfl <| ordered_join ops35_ordered rfl <|
  ordered_join ops36_ordered rfl <| ordered_join ops37_ordered rfl <| ordered_join ops38_ordered rfl <| ordered_join ops39_ordered rfl <|
  ordered_join ops40_ordered rfl <| ordered_join ops41_ordered rfl <| ordered_join ops42_ordered rfl <| ordered_join ops43_ordered rfl <|
  ordered_join ops44_ordered rfl <| ordered_join ops45_ordered rfl <| ordered_join ops46_ordered rfl <| ordered_join ops47_ordered rfl <|
  ordered_join ops48_ordered rfl <| ordered_join ops49_ordered rfl <| ordered_join ops50_ordered rfl <| ordered_join ops51_ordered rfl <|
  ordered_join ops52_ordered rfl <| ordered_join ops53_ordered rfl <| ordered_join ops54_ordered rfl <| ordered_join ops55_ordered rfl <|
  ordered_join ops56_ordered rfl <| ordered_join ops57_ordered rfl <| ordered_join ops58_ordered rfl <| ordered_join ops59_ordered rfl <|
  ordered_join ops60_ordered rfl <| ordered_join ops61_ordered rfl <| ordered_join ops62_ordered rfl <| ordered_join ops63_ordered rfl <|
  ordered_join ops64_ordered rfl <| ordered_join ops65_ordered rfl <| ordered_join ops66_ordered rfl <| ordered_join ops67_ordered rfl <|
  ordered_join ops68_ordered rfl <|
  ops69_ordered

/-! ## The run -/

/-- The signature scopes no TensorCore buffer: its HBM buffers are the tensor values of @main, and it has no
    other. -/
theorem scopedRefs_eq : (Finset.univ.filter fun b : Ref sig .tc => b.isScoped) = ∅ := by
  refine Finset.filter_eq_empty_iff.2 fun b _ => ?_
  rcases b with ⟨sp, i, h⟩
  cases sp with
  | hbm => simp [Ref.isScoped]
  | host => simp [Ref.isScoped]
  | shared => exact i.elim0
  | core cs => cases cs <;> exact i.elim0

/-- The signature has no semaphore, so none scoped. -/
theorem scopedSems_eq : (Finset.univ.filter fun sm : SemLoc sig => sm.isScoped .tc) = ∅ := by decide

/-- On every device, for any float values, from any memory with zero counters: every weakly fair execution of
    @main terminates, and every TensorCore buffer ends at the fold of the line's results over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The final contents satisfy every operation's equation -/

/-- The contents the line ends with are mapped to themselves by each of its operations. -/
theorem fix (V : Valuation τ sig (Elt F)) : ∀ op ∈ (ops (F := F)), op.result (after ops V) = after ops V :=
  ordered.fix V

/-- The argument is never written: it ends as it began. -/
theorem arg_kept (V : Valuation τ sig (Elt F)) :
    after ops V (Proc.devRef .tc main_arg0) = V (Proc.devRef .tc main_arg0) :=
  ordered.after_eq V _ (by decide)

end Cert.ReferenceIdeal.Line

end
-- ==== Proof.RefEqnsTac.lean ====
/-
  The command that writes, for each window of the reference's line, the conjunction of its operations' equations
  with its proof (used by RefEqns0, RefEqns1, RefEqns2).
-/
import proofs.«146075_j27728308863612_2_alg».proof.Proof.RefLine
import Idealize.ShloMosaic.PureOps.Ideal

set_option maxHeartbeats 0
set_option maxRecDepth 100000

noncomputable section

namespace Cert.ReferenceIdeal.Line

open Idealize.ShloMosaic Idealize.ShloMosaic.TcCoe Idealize.ShloMosaic.StableHlo
open Cert.Ssa Cert.ReferenceIdeal

variable [Facts]

set_option hygiene false in
open Lean Elab Command in
/-- `line_eqns lo hi`: for each window `lo ≤ K < hi` the definition `eqnsK W hfix`: a proposition -- the
    conjunction of the window's equations, found by unfolding the window's list -- together with its proof (a flattening of an input column is left
    as the statement that it maps W to itself: RefCols reads those). -/
elab "line_eqns " lo:num hi:num : command => do
  for K in [lo.getNat:hi.getNat] do
    let name := mkIdent (Name.mkSimple s!"eqns{K}")
    let opsK := mkIdent (Name.mkSimple s!"ops{K}")
    let kLit := Syntax.mkNumLit (toString K)
    elabCommand (← `(command|
      @[reducible] def $name (W : Valuation τ sig (Elt Ideal)) (hfix : ∀ op ∈ (ops (F := Ideal)), op.result W = W) :
          Σ' P : Prop, P :=
        ⟨_, by
          have h : ∀ op ∈ ($opsK (F := Ideal)), op.result W = W := fun op hop => hfix op (by line_mem $kLit)
          simp only [$opsK:ident, List.forall_mem_cons, List.not_mem_nil, false_imp_iff, implies_true, and_true,
            unary_fix_iff, binary_fix_iff, nullary_fix_iff] at h
          exact h⟩))

end Cert.ReferenceIdeal.Line

end
-- ==== Proof.RefEqns0.lean ====
/-
  The reference's line, window by window, as equations: each operation of a window, which maps the line's final
  contents W to themselves (Ssa), says what W holds in the buffer it writes -- its function of what W holds in the
  buffers it reads.  For every window the conjunction of these equations, with its proof.
-/
import proofs.«146075_j27728308863612_2_alg».proof.Proof.RefEqnsTac

set_option maxHeartbeats 0
set_option maxRecDepth 100000

noncomputable section

namespace Cert.ReferenceIdeal.Line

open Idealize.ShloMosaic Idealize.ShloMosaic.TcCoe Idealize.ShloMosaic.StableHlo
open Cert.Ssa Cert.ReferenceIdeal

variable [Facts]

line_eqns 0 24

end Cert.ReferenceIdeal.Line

end
-- ==== Proof.RefEqns1.lean ====
/-
  The reference's line, window by window, as equations: each operation of a window, which maps the line's final
  contents W to themselves (Ssa), says what W holds in the buffer it writes -- its function of what W holds in the
  buffers it reads.  For every window the conjunction of these equations, with its proof.
-/
import proofs.«146075_j27728308863612_2_alg».proof.Proof.RefEqnsTac

set_option maxHeartbeats 0
set_option maxRecDepth 100000

noncomputable section

namespace Cert.ReferenceIdeal.Line

open Idealize.ShloMosaic Idealize.ShloMosaic.TcCoe Idealize.ShloMosaic.StableHlo
open Cert.Ssa Cert.ReferenceIdeal

variable [Facts]

line_eqns 24 47

end Cert.ReferenceIdeal.Line

end
-- ==== Proof.RefEqns2.lean ====
/-
  The reference's line, window by window, as equations: each operation of a window, which maps the line's final
  contents W to themselves (Ssa), says what W holds in the buffer it writes -- its function of what W holds in the
  buffers it reads.  For every window the conjunction of these equations, with its proof.
-/
import proofs.«146075_j27728308863612_2_alg».proof.Proof.RefEqnsTac

set_option maxHeartbeats 0
set_option maxRecDepth 100000

noncomputable section

namespace Cert.ReferenceIdeal.Line

open Idealize.ShloMosaic Idealize.ShloMosaic.TcCoe Idealize.ShloMosaic.StableHlo
open Cert.Ssa Cert.ReferenceIdeal

variable [Facts]

line_eqns 47 70

end Cert.ReferenceIdeal.Line

end
-- ==== Proof.TapeRows.lean ====
/-
  Reading row-wise programs one row at a time.

  Every value the tape computes is a length-n vector indexed by the row (the "environment"), and every
  operation acts on each row separately: a column of the [n, 64] input is read at row p, an elementwise
  operation at row p is the scalar operation on the operands at row p, and the stacked [n, 64] result at
  (p, q) is the q-th stacked vector at row p.  The lemmas below state this for an arbitrary row count n,
  so the same statements serve the kernel's 512-row blocks and the reference's 16384-row arrays; at the
  ideal instance the scalar operations are those of the extended reals.
-/
import Idealize.ShloMosaic.Lib.Pipeline.Value
import Idealize.ShloMosaic.Lib.ValueIdx
import Idealize.ShloMosaic.PureOps.Ideal.Laws

noncomputable section

namespace Cert.TapeRows

open Idealize.ShloMosaic Idealize.ShloMosaic.ValueIdx

variable {α : Type} {n : Nat}

/-- Column c of an [n, 64] array, flattened to a length-n vector, holds at row p the array's entry (p, c). -/
theorem col_apply (c : Nat) (x : (⟨2, ![n, 64]⟩ : Shape).Idx → α)
    (hs : (⟨2, ![n, 64]⟩ : Shape).Slices ![0, c] ⟨2, ![n, 1]⟩)
    (hr : (⟨2, ![n, 1]⟩ : Shape).ShapeCasts ⟨1, ![n]⟩) (p : Fin n) :
    shapeCast ⟨1, ![n]⟩ (extractStridedSlice ⟨2, ![n, 1]⟩ ![0, c] x hs) hr (ix1 p) = x (ix2 p (Fin.ofNat 64 c)) := by
  have hc : c + 1 ≤ 64 := hs.2 1
  refine (shapeCast_apply _ hr (ix1 p) (ix2 p (0 : Fin 1)) ?_).trans ?_
  · rw [Shape.rowMajor_val_two, Shape.rowMajor_val_one]
    show p.val * 1 + 0 = p.val
    omega
  · refine extractStridedSlice_apply _ x hs _ _ fun a => ?_
    match a with
    | ⟨0, _⟩ => show p.val = 0 + p.val; omega
    | ⟨1, _⟩ => show c % 64 = c + 0; omega

/-- A length-n vector viewed as an [n, 1] column holds at (p, 0) its entry p. -/
theorem asCol_apply (v : (⟨1, ![n]⟩ : Shape).Idx → α) (h : (⟨1, ![n]⟩ : Shape).ShapeCasts ⟨2, ![n, 1]⟩)
    (p : Fin n) (z : Fin 1) : shapeCast ⟨2, ![n, 1]⟩ v h (ix2 p z) = v (ix1 p) := by
  refine shapeCast_apply v h _ _ ?_
  rw [Shape.rowMajor_val_two, Shape.rowMajor_val_one]
  show p.val = p.val * 1 + z.val
  omega

/-- The same column made by broadcasting along a new trailing unit axis. -/
theorem bcastCol_apply (v : (⟨1, ![n]⟩ : Shape).Idx → α)
    (h : (⟨1, ![n]⟩ : Shape).BroadcastsInDim ⟨2, ![n, 1]⟩ ![0]) (p : Fin n) (z : Fin 1) :
    broadcastInDim ⟨2, ![n, 1]⟩ ![0] h v (ix2 p z) = v (ix1 p) := by
  refine broadcastInDim_apply _ h v _ _ fun a => ?_
  match a with
  | ⟨0, _⟩ =>
    show p.val = if n = 1 then 0 else p.val
    split
    · omega
    · rfl

/-- The first k of a list of pieces that all have one shape S, of width w along the axis, have total width k·w
    (the offset at which piece k of a concatenation starts). -/
theorem widths_take (t : Shape) (a : Fin t.rank) (S : Shape) (hr : S.rank = t.rank) (w : ℕ)
    (hw : S.size (a.cast hr.symm) = w) (xs : List ((s : Shape) × (s.Idx → α))) (hall : ∀ x ∈ xs, x.1 = S) :
    ∀ (k pre : ℕ), k ≤ xs.length → k * w = pre →
      (((xs.take k).map (·.1)).map fun s : Shape => if h : s.rank = t.rank then s.size (a.cast h.symm) else 0).sum = pre := by
  induction xs with
  | nil =>
    intro k pre hk hp
    have : k = 0 := by simpa using hk
    subst this; simpa using hp
  | cons x xs ih =>
    intro k pre hk hp
    cases k with
    | zero => simpa using hp
    | succ k =>
      have hx : x.1 = S := hall x List.mem_cons_self
      have hxs : ∀ y ∈ xs, y.1 = S := fun y hy => hall y (List.mem_cons_of_mem _ hy)
      have hk' : k ≤ xs.length := by simpa using hk
      rw [List.take_succ_cons, List.map_cons, List.map_cons, List.sum_cons, ih hxs k (k * w) hk' rfl]
      have h1 : (if h : x.1.rank = t.rank then x.1.size (a.cast h.symm) else 0) = w := by
        rw [hx, dif_pos hr]; exact hw
      rw [h1, ← hp, Nat.succ_mul, Nat.add_comm]

/-- Every piece of a literal list has the given shape: the list taken apart. -/
macro "all_shape" : tactic => `(tactic|
  repeat' first
    | exact fun _ h => absurd h List.not_mem_nil
    | refine List.forall_mem_cons.2 ⟨rfl, ?_⟩)

/-! ## The elementwise operations at a row, at the ideal instance

Kernel and reference spell the same scalar operation differently (the kernel's sine is the vector unit's, the
reference's the host's; the kernel negates by subtracting from zero; a constant is a splat in the kernel and a
broadcast scalar tensor in the reference).  On the extended reals each pair is one function: both spellings are
read here to the same term. -/

section AtIdeal
variable {s : Shape} {φ : FTy}

theorem sin_at (v : FVec Ideal s φ) (i : s.Idx) : sin v i = Ideal.sin (v i) := rfl
theorem cos_at (v : FVec Ideal s φ) (i : s.Idx) : cos v i = Ideal.cos (v i) := rfl
theorem hostSin_at (v : FVec Ideal s φ) (i : s.Idx) : Host.sin v i = Ideal.sin (v i) := rfl
theorem hostCos_at (v : FVec Ideal s φ) (i : s.Idx) : Host.cos v i = Ideal.cos (v i) := rfl
theorem hostNeg_at (v : FVec Ideal s φ) (i : s.Idx) : Host.negf v i = -(v i) := rfl
theorem add_at (v w : FVec Ideal s φ) (i : s.Idx) : addf v w i = v i + w i := rfl
theorem sub_at (v w : FVec Ideal s φ) (i : s.Idx) : subf v w i = v i - w i := rfl
theorem mul_at (v w : FVec Ideal s φ) (i : s.Idx) : mulf v w i = v i * w i := rfl
/-- A splat constant at a row is the constant's value. -/
theorem splat_at (b : BitVec 32) (i : s.Idx) : broadcast s (Scalar.ofBits (F := Ideal) .f32 b) i = Ideal.ofBits .f32 b := rfl
/-- A constant tensor broadcast to a vector is, at a row, the constant's value (whatever the axes it is broadcast along). -/
theorem hostSplat_at {s0 : Shape} (dims : Fin s0.rank → Fin s.rank) (h : s0.BroadcastsInDim s dims) (b : BitVec 32) (i : s.Idx) :
    broadcastInDim s dims h (constant (F := Ideal) s0 .f32 b) i = Ideal.ofBits .f32 b := rfl
/-- Subtracting from the zero word is negation, on every extended real. -/
theorem zero_sub_at (t : Ideal .f32) : Ideal.ofBits .f32 0x00000000#32 - t = -t := by
  show Ideal.ofBits .f32 0x00000000#32 - (t : EReal) = -(t : EReal)
  rw [Ideal.ofBits_zero_f32, zero_sub]

end AtIdeal

end Cert.TapeRows

end
-- ==== Proof.RefCols.lean ====
/-
  The reference's input columns: buffer 2j+1 of the line is column j of the argument, flattened, so at row r it
  holds the argument's entry (r, j).
-/
import proofs.«146075_j27728308863612_2_alg».proof.Proof.RefEqns0
import proofs.«146075_j27728308863612_2_alg».proof.Proof.TapeRows

set_option maxHeartbeats 0
set_option maxRecDepth 100000

noncomputable section

namespace Cert.ReferenceIdeal.Line

open Idealize.ShloMosaic Idealize.ShloMosaic.ValueIdx Idealize.ShloMosaic.TcCoe Idealize.ShloMosaic.StableHlo
open Cert.TapeRows Cert.Ssa Cert.ReferenceIdeal

variable [Facts]

set_option hygiene false in
open Lean Elab Command in
/-- `input_cols`: for each column j the theorem `col_row_j`, from the equations of the window (j / 30) that holds the
    column's slice and its flattening. -/
elab "input_cols" : command => do
  for j in [0:64] do
    let name := mkIdent (Name.mkSimple s!"col_row_{j}")
    let v := mkIdent (Name.mkSimple s!"main_v{2 * j + 1}")
    let e := mkIdent (Name.mkSimple s!"eqns{j / 30}")
    let jL := Syntax.mkNumLit (toString j)
    elabCommand (← `(command|
      theorem $name (W : Valuation τ sig (Elt Ideal)) (hfix : ∀ op ∈ (ops (F := Ideal)), op.result W = W) (r : Fin 16384) :
          W ($v : DevRef τ sig) (ix1 r) = W (main_arg0 : DevRef τ sig) (ix2 r (Fin.ofNat 64 $jL)) := by
        have h := ($e W hfix).2
        dsimp only [$e:ident] at h
        simp only [reshape_fix_iff] at h
        simp only [h]
        exact col_apply $jL _ _ _ r))

input_cols

end Cert.ReferenceIdeal.Line

end
-- ==== Proof.TapeBridge.lean ====
/-
  The kernel's block result and the reference's result, one row and one column at a time.

  Both programs run the same tape on every row: column c of the input is read, the same scalar operations
  are applied in the same order, and the q-th output column is one of the values computed.  Fix a row p of
  a kernel block and a row r of the reference's array that hold the same 64 inputs.  Reading the kernel's
  stored block at (p, q) and the reference's result at (r, q) through the tape -- each vector operation at a
  row is the scalar operation on the operands at that row (TapeRows), each of the reference's buffers is what
  its defining operation makes of its operands (the single-assignment equations, Ssa) -- turns both sides into
  the same expression over the extended reals in the 64 inputs.  The kernel drops the instructions no output
  depends on and negates by subtracting from zero; neither changes the expression.
-/
import proofs.«146075_j27728308863612_2_alg».proof.Proof.KernelIdealFrame
import proofs.«146075_j27728308863612_2_alg».proof.Proof.RefEqns0
import proofs.«146075_j27728308863612_2_alg».proof.Proof.RefEqns1
import proofs.«146075_j27728308863612_2_alg».proof.Proof.RefEqns2
import proofs.«146075_j27728308863612_2_alg».proof.Proof.RefCols
import proofs.«146075_j27728308863612_2_alg».proof.Proof.TapeRows

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

theorem offsets_zero : (![0, 0] : Fin 2 → Nat) = fun _ => 0 := funext fun a => by fin_cases a <;> rfl

set_option hygiene false in
open Lean Elab Tactic Meta in
/-- `line_hyps`: the equations of every window of the reference's line (RefEqns), as hypotheses `h0` … `h69`. -/
elab "line_hyps" : tactic => do
  for K in [0:70] do
    let h := mkIdent (Name.mkSimple s!"h{K}")
    let e := mkIdent (Name.mkSimple s!"eqns{K}")
    evalTactic (← `(tactic| have $h := ($e W hfix).2))
    evalTactic (← `(tactic| dsimp only [$e:ident] at $h:ident))

set_option hygiene false in
open Lean Elab Tactic Meta in
/-- The closing step: both sides read down to the inputs, with the windows' equations, the kernel's payload
    definitions and the row lemmas. -/
elab "tape_simp" hrow:ident : tactic => do
  let mut stx : Array (TSyntax ``Lean.Parser.Tactic.simpLemma) := #[]
  for K in [0:70] do
    let h := mkIdent (Name.mkSimple s!"h{K}")
    stx := stx.push (← `(Lean.Parser.Tactic.simpLemma| $h:ident))
  for j in [0:64] do
    let c := mkIdent (Name.mkSimple s!"col_row_{j}")
    stx := stx.push (← `(Lean.Parser.Tactic.simpLemma| $c:ident W hfix))
  for i in [2:932] do
    let id := mkIdent (Name.mkStr (Name.mkStr (Name.mkStr (Name.mkSimple "Cert") "KernelIdeal") "Gen") s!"k0_pay{i}")
    stx := stx.push (← `(Lean.Parser.Tactic.simpLemma| $id:ident))
  evalTactic (← `(tactic| simp only [$stx,*, $hrow:ident, asCol_apply, bcastCol_apply, col_apply, sin_at, cos_at, hostSin_at, hostCos_at,
    hostNeg_at, add_at, sub_at, mul_at, splat_at, hostSplat_at, zero_sub_at]))

/-- One concatenation along axis 1 read at a column: piece `k` (all pieces of shape `S`, width `w` each, so piece `k`
    starts at column `pre = k·w`), at the index `idx` inside the piece. -/
macro "piece " k:num S:term:max w:num pre:num idx:term:max : tactic => `(tactic|
  refine Eq.trans (concatenate_apply_piece _ _ _ _ $k (by simp only [List.length_cons]; omega) $S _ (by rfl) (by rfl) $pre
    (by exact widths_take _ _ $S rfl $w rfl _ (by all_shape) $k $pre (by simp only [List.length_cons]; omega) (by decide))
    $idx (by intro b hb; match b with | ⟨0, _⟩ => rfl | ⟨1, _⟩ => exact absurd rfl hb) (by rfl)) ?_)

set_option hygiene false in
/-- Column `k` of the result, `k = 16 a + z`, brought to the stacked vectors: on the reference's side the concatenation
    of four groups of sixteen columns, then of the sixteen columns of group `a`, then the stacked vector viewed as a
    column; on the kernel's side the one concatenation of 64 columns. -/
macro "tape_col_pre" k:num a:num z:num pre:num : tactic => `(tactic| (
  symm
  rw [cat4_eq W h_cat4]
  piece $a S16384x16 16 $pre (ix2 r (⟨$z, by decide⟩ : Fin 16))
  first | rw [cat0_eq W h_cat0] | rw [cat1_eq W h_cat1] | rw [cat2_eq W h_cat2] | rw [cat3_eq W h_cat3]
  piece $z S16384x1 1 $z (ix2 r (0 : Fin 1))
  simp (config := {singlePass := true}) only [h68, h69]
  rw [bcastCol_apply]
  symm
  unfold Cert.KernelIdeal.GenP.out0_1
  rw [View.canon_unit_zero offsets_zero]
  simp only [View.ld_unit_zero (S := Cert.KernelIdeal.S512x64) offsets_zero]
  rw [Cert.KernelIdeal.Gen.k0_pay1]
  piece $k Cert.KernelIdeal.S512x1 1 $k (ix2 p (0 : Fin 1))))

open Lean Meta Elab Tactic in
/-- `merge_goals`: the open goals (which share one context) become the one goal that is their conjunction, so that
    one simplification reads them all and visits what they share once. -/
elab "merge_goals" : tactic => do
  let gs ← getGoals
  match gs with
  | [] => return
  | g0 :: _ =>
    g0.withContext do
      let tys ← gs.mapM fun g => do instantiateMVars (← g.getType)
      let conj := tys.dropLast.foldr (fun t acc => mkApp2 (mkConst ``And) t acc) tys.getLast!
      let m ← mkFreshExprSyntheticOpaqueMVar conj
      let mut pr := m
      let n := gs.length
      let mut i := 0
      for g in gs do
        if i + 1 == n then
          g.assign pr
        else
          g.assign (← mkAppM ``And.left #[pr])
          pr ← mkAppM ``And.right #[pr]
        i := i + 1
      setGoals [m.mvarId!]

set_option hygiene false in
/-- The hypotheses a column is read with: that the five concatenations map the final contents to themselves, and
    the equations of every window. -/
macro "tape_prep" : tactic => `(tactic| (
  have m_cat0 : cat0 (F := Ideal) ∈ (ops69 (F := Ideal)) := by simp only [ops69, List.mem_cons, eq_self_iff_true, true_or, or_true]
  have m_cat1 : cat1 (F := Ideal) ∈ (ops69 (F := Ideal)) := by simp only [ops69, List.mem_cons, eq_self_iff_true, true_or, or_true]
  have m_cat2 : cat2 (F := Ideal) ∈ (ops69 (F := Ideal)) := by simp only [ops69, List.mem_cons, eq_self_iff_true, true_or, or_true]
  have m_cat3 : cat3 (F := Ideal) ∈ (ops69 (F := Ideal)) := by simp only [ops69, List.mem_cons, eq_self_iff_true, true_or, or_true]
  have m_cat4 : cat4 (F := Ideal) ∈ (ops69 (F := Ideal)) := by simp only [ops69, List.mem_cons, eq_self_iff_true, true_or, or_true]
  have h_cat0 : (cat0 (F := Ideal)).result W = W := hfix _ (by line_mem 69)
  have h_cat1 : (cat1 (F := Ideal)).result W = W := hfix _ (by line_mem 69)
  have h_cat2 : (cat2 (F := Ideal)).result W = W := hfix _ (by line_mem 69)
  have h_cat3 : (cat3 (F := Ideal)).result W = W := hfix _ (by line_mem 69)
  have h_cat4 : (cat4 (F := Ideal)).result W = W := hfix _ (by line_mem 69)
  line_hyps))

set_option hygiene false in
open Lean Elab Tactic in
/-- `tape_cols_merged lo hi`: the goal, a conjunction of the columns `lo ≤ k < hi`, split; each column brought to
    its stacked vectors; the goals merged again and read down to the inputs together. -/
elab "tape_cols_merged " lo:num hi:num : tactic => do
  let lo := lo.getNat
  let hi := hi.getNat
  evalTactic (← `(tactic| tape_prep))
  evalTactic (← `(tactic| repeat' refine And.intro ?_ ?_))
  for k in [lo:hi] do
    let kL := Syntax.mkNumLit (toString k)
    let aL := Syntax.mkNumLit (toString (k / 16))
    let zL := Syntax.mkNumLit (toString (k % 16))
    let pL := Syntax.mkNumLit (toString (16 * (k / 16)))
    evalTactic (← `(tactic| tape_col_pre $kL $aL $zL $pL))
    evalTactic (← `(tactic| rotate_left))
  evalTactic (← `(tactic| merge_goals))
  evalTactic (← `(tactic| tape_simp hrow <;> (repeat' refine And.intro ?_ ?_) <;> first | trivial | rfl))

end Cert.TapeBridge

end
-- ==== Proof.TapeCols0.lean ====
/-
  Columns 0 to 7 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_0 :
    Cert.KernelIdeal.GenP.out0_1 (F := Ideal) x0 (ix2 p (⟨0, by decide⟩ : Fin 64)) = W (main_v4164 : DevRef τ sig) (ix2 r (⟨0, by decide⟩ : Fin 64)) ∧
    Cert.KernelIdeal.GenP.out0_1 (F := Ideal) x0 (ix2 p (⟨1, by decide⟩ : Fin 64)) = W (main_v4164 : DevRef τ sig) (ix2 r (⟨1, by decide⟩ : Fin 64)) ∧
    Cert.KernelIdeal.GenP.out0_1 (F := Ideal) x0 (ix2 p (⟨2, by decide⟩ : Fin 64)) = W (main_v4164 : DevRef τ sig) (ix2 r (⟨2, by decide⟩ : Fin 64)) ∧
    Cert.KernelIdeal.GenP.out0_1 (F := Ideal) x0 (ix2 p (⟨3, by decide⟩ : Fin 64)) = W (main_v4164 : DevRef τ sig) (ix2 r (⟨3, by decide⟩ : Fin 64)) ∧
    Cert.KernelIdeal.GenP.out0_1 (F := Ideal) x0 (ix2 p (⟨4, by decide⟩ : Fin 64)) = W (main_v4164 : DevRef τ sig) (ix2 r (⟨4, by decide⟩ : Fin 64)) ∧
    Cert.KernelIdeal.GenP.out0_1 (F := Ideal) x0 (ix2 p (⟨5, by decide⟩ : Fin 64)) = W (main_v4164 : DevRef τ sig) (ix2 r (⟨5, by decide⟩ : Fin 64)) ∧
    Cert.KernelIdeal.GenP.out0_1 (F := Ideal) x0 (ix2 p (⟨6, by decide⟩ : Fin 64)) = W (main_v4164 : DevRef τ sig) (ix2 r (⟨6, by decide⟩ : Fin 64)) ∧
    Cert.KernelIdeal.GenP.out0_1 (F := Ideal) x0 (ix2 p (⟨7, by decide⟩ : Fin 64)) = W (main_v4164 : DevRef τ sig) (ix2 r (⟨7, by decide⟩ : Fin 64)) := by
  tape_cols_merged 0 8

end Cert.TapeBridge

end
-- ==== Proof.TapeCols1.lean ====
/-
  Columns 8 to 15 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_1 :
    Cert.KernelIdeal.GenP.out0_1 (F := Ideal) x0 (ix2 p (⟨8, by decide⟩ : Fin 64)) = W (main_v4164 : DevRef τ sig) (ix2 r (⟨8, by decide⟩ : Fin 64)) ∧
    Cert.KernelIdeal.GenP.out0_1 (F := Ideal) x0 (ix2 p (⟨9, by decide⟩ : Fin 64)) = W (main_v4164 : DevRef τ sig) (ix2 r (⟨9, by decide⟩ : Fin 64)) ∧
    Cert.KernelIdeal.GenP.out0_1 (F := Ideal) x0 (ix2 p (⟨10, by decide⟩ : Fin 64)) = W (main_v4164 : DevRef τ sig) (ix2 r (⟨10, by decide⟩ : Fin 64)) ∧
    Cert.KernelIdeal.GenP.out0_1 (F := Ideal) x0 (ix2 p (⟨11, by decide⟩ : Fin 64)) = W (main_v4164 : DevRef τ sig) (ix2 r (⟨11, by decide⟩ : Fin 64)) ∧
    Cert.KernelIdeal.GenP.out0_1 (F := Ideal) x0 (ix2 p (⟨12, by decide⟩ : Fin 64)) = W (main_v4164 : DevRef τ sig) (ix2 r (⟨12, by decide⟩ : Fin 64)) ∧
    Cert.KernelIdeal.GenP.out0_1 (F := Ideal) x0 (ix2 p (⟨13, by decide⟩ : Fin 64)) = W (main_v4164 : DevRef τ sig) (ix2 r (⟨13, by decide⟩ : Fin 64)) ∧
    Cert.KernelIdeal.GenP.out0_1 (F := Ideal) x0 (ix2 p (⟨14, by decide⟩ : Fin 64)) = W (main_v4164 : DevRef τ sig) (ix2 r (⟨14, by decide⟩ : Fin 64)) ∧
    Cert.KernelIdeal.GenP.out0_1 (F := Ideal) x0 (ix2 p (⟨15, by decide⟩ : Fin 64)) = W (main_v4164 : DevRef τ sig) (ix2 r (⟨15, by decide⟩ : Fin 64)) := by
  tape_cols_merged 8 16

end Cert.TapeBridge

end
-- ==== Proof.TapeCols2.lean ====
/-
  Columns 16 to 23 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_2 :
    Cert.KernelIdeal.GenP.out0_1 (F := Ideal) x0 (ix2 p (⟨16, by decide⟩ : Fin 64)) = W (main_v4164 : DevRef τ sig) (ix2 r (⟨16, by decide⟩ : Fin 64)) ∧
    Cert.KernelIdeal.GenP.out0_1 (F := Ideal) x0 (ix2 p (⟨17, by decide⟩ : Fin 64)) = W (main_v4164 : DevRef τ sig) (ix2 r (⟨17, by decide⟩ : Fin 64)) ∧
    Cert.KernelIdeal.GenP.out0_1 (F := Ideal) x0 (ix2 p (⟨18, by decide⟩ : Fin 64)) = W (main_v4164 : DevRef τ sig) (ix2 r (⟨18, by decide⟩ : Fin 64)) ∧
    Cert.KernelIdeal.GenP.out0_1 (F := Ideal) x0 (ix2 p (⟨19, by decide⟩ : Fin 64)) = W (main_v4164 : DevRef τ sig) (ix2 r (⟨19, by decide⟩ : Fin 64)) ∧
    Cert.KernelIdeal.GenP.out0_1 (F := Ideal) x0 (ix2 p (⟨20, by decide⟩ : Fin 64)) = W (main_v4164 : DevRef τ sig) (ix2 r (⟨20, by decide⟩ : Fin 64)) ∧
    Cert.KernelIdeal.GenP.out0_1 (F := Ideal) x0 (ix2 p (⟨21, by decide⟩ : Fin 64)) = W (main_v4164 : DevRef τ sig) (ix2 r (⟨21, by decide⟩ : Fin 64)) ∧
    Cert.KernelIdeal.GenP.out0_1 (F := Ideal) x0 (ix2 p (⟨22, by decide⟩ : Fin 64)) = W (main_v4164 : DevRef τ sig) (ix2 r (⟨22, by decide⟩ : Fin 64)) ∧
    Cert.KernelIdeal.GenP.out0_1 (F := Ideal) x0 (ix2 p (⟨23, by decide⟩ : Fin 64)) = W (main_v4164 : DevRef τ sig) (ix2 r (⟨23, by decide⟩ : Fin 64)) := by
  tape_cols_merged 16 24

end Cert.TapeBridge

end
-- ==== Proof.TapeCols3.lean ====
/-
  Columns 24 to 31 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_3 :
    Cert.KernelIdeal.GenP.out0_1 (F := Ideal) x0 (ix2 p (⟨24, by decide⟩ : Fin 64)) = W (main_v4164 : DevRef τ sig) (ix2 r (⟨24, by decide⟩ : Fin 64)) ∧
    Cert.KernelIdeal.GenP.out0_1 (F := Ideal) x0 (ix2 p (⟨25, by decide⟩ : Fin 64)) = W (main_v4164 : DevRef τ sig) (ix2 r (⟨25, by decide⟩ : Fin 64)) ∧
    Cert.KernelIdeal.GenP.out0_1 (F := Ideal) x0 (ix2 p (⟨26, by decide⟩ : Fin 64)) = W (main_v4164 : DevRef τ sig) (ix2 r (⟨26, by decide⟩ : Fin 64)) ∧
    Cert.KernelIdeal.GenP.out0_1 (F := Ideal) x0 (ix2 p (⟨27, by decide⟩ : Fin 64)) = W (main_v4164 : DevRef τ sig) (ix2 r (⟨27, by decide⟩ : Fin 64)) ∧
    Cert.KernelIdeal.GenP.out0_1 (F := Ideal) x0 (ix2 p (⟨28, by decide⟩ : Fin 64)) = W (main_v4164 : DevRef τ sig) (ix2 r (⟨28, by decide⟩ : Fin 64)) ∧
    Cert.KernelIdeal.GenP.out0_1 (F := Ideal) x0 (ix2 p (⟨29, by decide⟩ : Fin 64)) = W (main_v4164 : DevRef τ sig) (ix2 r (⟨29, by decide⟩ : Fin 64)) ∧
    Cert.KernelIdeal.GenP.out0_1 (F := Ideal) x0 (ix2 p (⟨30, by decide⟩ : Fin 64)) = W (main_v4164 : DevRef τ sig) (ix2 r (⟨30, by decide⟩ : Fin 64)) ∧
    Cert.KernelIdeal.GenP.out0_1 (F := Ideal) x0 (ix2 p (⟨31, by decide⟩ : Fin 64)) = W (main_v4164 : DevRef τ sig) (ix2 r (⟨31, by decide⟩ : Fin 64)) := by
  tape_cols_merged 24 32

end Cert.TapeBridge

end
-- ==== Proof.TapeCols4.lean ====
/-
  Columns 32 to 39 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_4 :
    Cert.KernelIdeal.GenP.out0_1 (F := Ideal) x0 (ix2 p (⟨32, by decide⟩ : Fin 64)) = W (main_v4164 : DevRef τ sig) (ix2 r (⟨32, by decide⟩ : Fin 64)) ∧
    Cert.KernelIdeal.GenP.out0_1 (F := Ideal) x0 (ix2 p (⟨33, by decide⟩ : Fin 64)) = W (main_v4164 : DevRef τ sig) (ix2 r (⟨33, by decide⟩ : Fin 64)) ∧
    Cert.KernelIdeal.GenP.out0_1 (F := Ideal) x0 (ix2 p (⟨34, by decide⟩ : Fin 64)) = W (main_v4164 : DevRef τ sig) (ix2 r (⟨34, by decide⟩ : Fin 64)) ∧
    Cert.KernelIdeal.GenP.out0_1 (F := Ideal) x0 (ix2 p (⟨35, by decide⟩ : Fin 64)) = W (main_v4164 : DevRef τ sig) (ix2 r (⟨35, by decide⟩ : Fin 64)) ∧
    Cert.KernelIdeal.GenP.out0_1 (F := Ideal) x0 (ix2 p (⟨36, by decide⟩ : Fin 64)) = W (main_v4164 : DevRef τ sig) (ix2 r (⟨36, by decide⟩ : Fin 64)) ∧
    Cert.KernelIdeal.GenP.out0_1 (F := Ideal) x0 (ix2 p (⟨37, by decide⟩ : Fin 64)) = W (main_v4164 : DevRef τ sig) (ix2 r (⟨37, by decide⟩ : Fin 64)) ∧
    Cert.KernelIdeal.GenP.out0_1 (F := Ideal) x0 (ix2 p (⟨38, by decide⟩ : Fin 64)) = W (main_v4164 : DevRef τ sig) (ix2 r (⟨38, by decide⟩ : Fin 64)) ∧
    Cert.KernelIdeal.GenP.out0_1 (F := Ideal) x0 (ix2 p (⟨39, by decide⟩ : Fin 64)) = W (main_v4164 : DevRef τ sig) (ix2 r (⟨39, by decide⟩ : Fin 64)) := by
  tape_cols_merged 32 40

end Cert.TapeBridge

end
-- ==== Proof.TapeCols5.lean ====
/-
  Columns 40 to 47 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_5 :
    Cert.KernelIdeal.GenP.out0_1 (F := Ideal) x0 (ix2 p (⟨40, by decide⟩ : Fin 64)) = W (main_v4164 : DevRef τ sig) (ix2 r (⟨40, by decide⟩ : Fin 64)) ∧
    Cert.KernelIdeal.GenP.out0_1 (F := Ideal) x0 (ix2 p (⟨41, by decide⟩ : Fin 64)) = W (main_v4164 : DevRef τ sig) (ix2 r (⟨41, by decide⟩ : Fin 64)) ∧
    Cert.KernelIdeal.GenP.out0_1 (F := Ideal) x0 (ix2 p (⟨42, by decide⟩ : Fin 64)) = W (main_v4164 : DevRef τ sig) (ix2 r (⟨42, by decide⟩ : Fin 64)) ∧
    Cert.KernelIdeal.GenP.out0_1 (F := Ideal) x0 (ix2 p (⟨43, by decide⟩ : Fin 64)) = W (main_v4164 : DevRef τ sig) (ix2 r (⟨43, by decide⟩ : Fin 64)) ∧
    Cert.KernelIdeal.GenP.out0_1 (F := Ideal) x0 (ix2 p (⟨44, by decide⟩ : Fin 64)) = W (main_v4164 : DevRef τ sig) (ix2 r (⟨44, by decide⟩ : Fin 64)) ∧
    Cert.KernelIdeal.GenP.out0_1 (F := Ideal) x0 (ix2 p (⟨45, by decide⟩ : Fin 64)) = W (main_v4164 : DevRef τ sig) (ix2 r (⟨45, by decide⟩ : Fin 64)) ∧
    Cert.KernelIdeal.GenP.out0_1 (F := Ideal) x0 (ix2 p (⟨46, by decide⟩ : Fin 64)) = W (main_v4164 : DevRef τ sig) (ix2 r (⟨46, by decide⟩ : Fin 64)) ∧
    Cert.KernelIdeal.GenP.out0_1 (F := Ideal) x0 (ix2 p (⟨47, by decide⟩ : Fin 64)) = W (main_v4164 : DevRef τ sig) (ix2 r (⟨47, by decide⟩ : Fin 64)) := by
  tape_cols_merged 40 48

end Cert.TapeBridge

end
-- ==== Proof.TapeCols6.lean ====
/-
  Columns 48 to 55 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_6 :
    Cert.KernelIdeal.GenP.out0_1 (F := Ideal) x0 (ix2 p (⟨48, by decide⟩ : Fin 64)) = W (main_v4164 : DevRef τ sig) (ix2 r (⟨48, by decide⟩ : Fin 64)) ∧
    Cert.KernelIdeal.GenP.out0_1 (F := Ideal) x0 (ix2 p (⟨49, by decide⟩ : Fin 64)) = W (main_v4164 : DevRef τ sig) (ix2 r (⟨49, by decide⟩ : Fin 64)) ∧
    Cert.KernelIdeal.GenP.out0_1 (F := Ideal) x0 (ix2 p (⟨50, by decide⟩ : Fin 64)) = W (main_v4164 : DevRef τ sig) (ix2 r (⟨50, by decide⟩ : Fin 64)) ∧
    Cert.KernelIdeal.GenP.out0_1 (F := Ideal) x0 (ix2 p (⟨51, by decide⟩ : Fin 64)) = W (main_v4164 : DevRef τ sig) (ix2 r (⟨51, by decide⟩ : Fin 64)) ∧
    Cert.KernelIdeal.GenP.out0_1 (F := Ideal) x0 (ix2 p (⟨52, by decide⟩ : Fin 64)) = W (main_v4164 : DevRef τ sig) (ix2 r (⟨52, by decide⟩ : Fin 64)) ∧
    Cert.KernelIdeal.GenP.out0_1 (F := Ideal) x0 (ix2 p (⟨53, by decide⟩ : Fin 64)) = W (main_v4164 : DevRef τ sig) (ix2 r (⟨53, by decide⟩ : Fin 64)) ∧
    Cert.KernelIdeal.GenP.out0_1 (F := Ideal) x0 (ix2 p (⟨54, by decide⟩ : Fin 64)) = W (main_v4164 : DevRef τ sig) (ix2 r (⟨54, by decide⟩ : Fin 64)) ∧
    Cert.KernelIdeal.GenP.out0_1 (F := Ideal) x0 (ix2 p (⟨55, by decide⟩ : Fin 64)) = W (main_v4164 : DevRef τ sig) (ix2 r (⟨55, by decide⟩ : Fin 64)) := by
  tape_cols_merged 48 56

end Cert.TapeBridge

end
-- ==== Proof.TapeCols7.lean ====
/-
  Columns 56 to 63 of the result: the kernel's stored block at (p, q) is the reference's result at (r, q) when row p
  of the block and row r of the reference's argument hold the same inputs.
-/
import proofs.«146075_j27728308863612_2_alg».proof.Proof.TapeBridge

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem cols_7 :
    Cert.KernelIdeal.GenP.out0_1 (F := Ideal) x0 (ix2 p (⟨56, by decide⟩ : Fin 64)) = W (main_v4164 : DevRef τ sig) (ix2 r (⟨56, by decide⟩ : Fin 64)) ∧
    Cert.KernelIdeal.GenP.out0_1 (F := Ideal) x0 (ix2 p (⟨57, by decide⟩ : Fin 64)) = W (main_v4164 : DevRef τ sig) (ix2 r (⟨57, by decide⟩ : Fin 64)) ∧
    Cert.KernelIdeal.GenP.out0_1 (F := Ideal) x0 (ix2 p (⟨58, by decide⟩ : Fin 64)) = W (main_v4164 : DevRef τ sig) (ix2 r (⟨58, by decide⟩ : Fin 64)) ∧
    Cert.KernelIdeal.GenP.out0_1 (F := Ideal) x0 (ix2 p (⟨59, by decide⟩ : Fin 64)) = W (main_v4164 : DevRef τ sig) (ix2 r (⟨59, by decide⟩ : Fin 64)) ∧
    Cert.KernelIdeal.GenP.out0_1 (F := Ideal) x0 (ix2 p (⟨60, by decide⟩ : Fin 64)) = W (main_v4164 : DevRef τ sig) (ix2 r (⟨60, by decide⟩ : Fin 64)) ∧
    Cert.KernelIdeal.GenP.out0_1 (F := Ideal) x0 (ix2 p (⟨61, by decide⟩ : Fin 64)) = W (main_v4164 : DevRef τ sig) (ix2 r (⟨61, by decide⟩ : Fin 64)) ∧
    Cert.KernelIdeal.GenP.out0_1 (F := Ideal) x0 (ix2 p (⟨62, by decide⟩ : Fin 64)) = W (main_v4164 : DevRef τ sig) (ix2 r (⟨62, by decide⟩ : Fin 64)) ∧
    Cert.KernelIdeal.GenP.out0_1 (F := Ideal) x0 (ix2 p (⟨63, by decide⟩ : Fin 64)) = W (main_v4164 : DevRef τ sig) (ix2 r (⟨63, by decide⟩ : Fin 64)) := by
  tape_cols_merged 56 64

end Cert.TapeBridge

end
-- ==== Proof.TapeCols.lean ====
/-
  Every column of the result: the kernel's stored block at (p, q) is the reference's result at (r, q) when row p
  of the block and row r of the reference's argument hold the same inputs (eight columns to a module: TapeCols0 … TapeCols7).
-/
import proofs.«146075_j27728308863612_2_alg».proof.Proof.TapeCols0
import proofs.«146075_j27728308863612_2_alg».proof.Proof.TapeCols1
import proofs.«146075_j27728308863612_2_alg».proof.Proof.TapeCols2
import proofs.«146075_j27728308863612_2_alg».proof.Proof.TapeCols3
import proofs.«146075_j27728308863612_2_alg».proof.Proof.TapeCols4
import proofs.«146075_j27728308863612_2_alg».proof.Proof.TapeCols5
import proofs.«146075_j27728308863612_2_alg».proof.Proof.TapeCols6
import proofs.«146075_j27728308863612_2_alg».proof.Proof.TapeCols7

set_option maxHeartbeats 0
set_option maxRecDepth 100000

noncomputable section

namespace Cert.TapeBridge

open Idealize.ShloMosaic Idealize.ShloMosaic.ValueIdx Idealize.ShloMosaic.TcCoe Idealize.ShloMosaic.StableHlo
open Cert.TapeRows Cert.Ssa
open Cert.ReferenceIdeal Cert.ReferenceIdeal.Line

variable [Cert.ReferenceIdeal.Facts]
variable (W : Valuation τ sig (Elt Ideal)) (hfix : ∀ op ∈ (ops (F := Ideal)), op.result W = W)
  (x0 : Vec Ideal Cert.KernelIdeal.S512x64 .f32) (p : Fin 512) (r : Fin 16384)
  (hrow : ∀ c : Fin 64, x0 (ix2 p c) = W (main_arg0 : DevRef τ sig) (ix2 r c))

include hfix hrow

theorem col (q : Fin 64) :
    Cert.KernelIdeal.GenP.out0_1 (F := Ideal) x0 (ix2 p q) = W (main_v4164 : DevRef τ sig) (ix2 r q) := by
  obtain ⟨k, hk⟩ := q
  interval_cases k
  · exact (cols_0 W hfix x0 p r hrow).1
  · exact (cols_0 W hfix x0 p r hrow).2.1
  · exact (cols_0 W hfix x0 p r hrow).2.2.1
  · exact (cols_0 W hfix x0 p r hrow).2.2.2.1
  · exact (cols_0 W hfix x0 p r hrow).2.2.2.2.1
  · exact (cols_0 W hfix x0 p r hrow).2.2.2.2.2.1
  · exact (cols_0 W hfix x0 p r hrow).2.2.2.2.2.2.1
  · exact (cols_0 W hfix x0 p r hrow).2.2.2.2.2.2.2
  · exact (cols_1 W hfix x0 p r hrow).1
  · exact (cols_1 W hfix x0 p r hrow).2.1
  · exact (cols_1 W hfix x0 p r hrow).2.2.1
  · exact (cols_1 W hfix x0 p r hrow).2.2.2.1
  · exact (cols_1 W hfix x0 p r hrow).2.2.2.2.1
  · exact (cols_1 W hfix x0 p r hrow).2.2.2.2.2.1
  · exact (cols_1 W hfix x0 p r hrow).2.2.2.2.2.2.1
  · exact (cols_1 W hfix x0 p r hrow).2.2.2.2.2.2.2
  · exact (cols_2 W hfix x0 p r hrow).1
  · exact (cols_2 W hfix x0 p r hrow).2.1
  · exact (cols_2 W hfix x0 p r hrow).2.2.1
  · exact (cols_2 W hfix x0 p r hrow).2.2.2.1
  · exact (cols_2 W hfix x0 p r hrow).2.2.2.2.1
  · exact (cols_2 W hfix x0 p r hrow).2.2.2.2.2.1
  · exact (cols_2 W hfix x0 p r hrow).2.2.2.2.2.2.1
  · exact (cols_2 W hfix x0 p r hrow).2.2.2.2.2.2.2
  · exact (cols_3 W hfix x0 p r hrow).1
  · exact (cols_3 W hfix x0 p r hrow).2.1
  · exact (cols_3 W hfix x0 p r hrow).2.2.1
  · exact (cols_3 W hfix x0 p r hrow).2.2.2.1
  · exact (cols_3 W hfix x0 p r hrow).2.2.2.2.1
  · exact (cols_3 W hfix x0 p r hrow).2.2.2.2.2.1
  · exact (cols_3 W hfix x0 p r hrow).2.2.2.2.2.2.1
  · exact (cols_3 W hfix x0 p r hrow).2.2.2.2.2.2.2
  · exact (cols_4 W hfix x0 p r hrow).1
  · exact (cols_4 W hfix x0 p r hrow).2.1
  · exact (cols_4 W hfix x0 p r hrow).2.2.1
  · exact (cols_4 W hfix x0 p r hrow).2.2.2.1
  · exact (cols_4 W hfix x0 p r hrow).2.2.2.2.1
  · exact (cols_4 W hfix x0 p r hrow).2.2.2.2.2.1
  · exact (cols_4 W hfix x0 p r hrow).2.2.2.2.2.2.1
  · exact (cols_4 W hfix x0 p r hrow).2.2.2.2.2.2.2
  · exact (cols_5 W hfix x0 p r hrow).1
  · exact (cols_5 W hfix x0 p r hrow).2.1
  · exact (cols_5 W hfix x0 p r hrow).2.2.1
  · exact (cols_5 W hfix x0 p r hrow).2.2.2.1
  · exact (cols_5 W hfix x0 p r hrow).2.2.2.2.1
  · exact (cols_5 W hfix x0 p r hrow).2.2.2.2.2.1
  · exact (cols_5 W hfix x0 p r hrow).2.2.2.2.2.2.1
  · exact (cols_5 W hfix x0 p r hrow).2.2.2.2.2.2.2
  · exact (cols_6 W hfix x0 p r hrow).1
  · exact (cols_6 W hfix x0 p r hrow).2.1
  · exact (cols_6 W hfix x0 p r hrow).2.2.1
  · exact (cols_6 W hfix x0 p r hrow).2.2.2.1
  · exact (cols_6 W hfix x0 p r hrow).2.2.2.2.1
  · exact (cols_6 W hfix x0 p r hrow).2.2.2.2.2.1
  · exact (cols_6 W hfix x0 p r hrow).2.2.2.2.2.2.1
  · exact (cols_6 W hfix x0 p r hrow).2.2.2.2.2.2.2
  · exact (cols_7 W hfix x0 p r hrow).1
  · exact (cols_7 W hfix x0 p r hrow).2.1
  · exact (cols_7 W hfix x0 p r hrow).2.2.1
  · exact (cols_7 W hfix x0 p r hrow).2.2.2.1
  · exact (cols_7 W hfix x0 p r hrow).2.2.2.2.1
  · exact (cols_7 W hfix x0 p r hrow).2.2.2.2.2.1
  · exact (cols_7 W hfix x0 p r hrow).2.2.2.2.2.2.1
  · exact (cols_7 W hfix x0 p r hrow).2.2.2.2.2.2.2

end Cert.TapeBridge

end
-- ==== Proof.TapeResult.lean ====
/-
  The two result arrays are equal.

  The kernel's result array is, block by block, the body's value on the argument's block (KernelValue); the
  reference's is what its line of operations leaves in its last buffer (RefLine).  An index (a, q) of the
  [16384, 64] result lies in block t = a / 512 at row p = a % 512; the block's row p is the argument's row a,
  which is also the row the reference reads, so the column-by-column comparison (TapeCols) applies.
-/
import proofs.«146075_j27728308863612_2_alg».proof.Proof.KernelValue
import proofs.«146075_j27728308863612_2_alg».proof.Proof.TapeCols

noncomputable section

namespace Cert.TapeBridge

open Idealize.ShloMosaic Idealize.ShloMosaic.ValueIdx Idealize.ShloMosaic.TcCoe Idealize.ShloMosaic.StableHlo
open Cert.ReferenceIdeal Cert.ReferenceIdeal.Line

variable [Cert.ReferenceIdeal.Facts]

/-- From contents V whose argument buffer holds X, the reference's line leaves in its result buffer the array the
    kernel computes from X. -/
theorem result_eq (V : Valuation τ sig (Elt Ideal)) (X : Vec Ideal Cert.KernelIdeal.S16384x64 .f32)
    (hX : V (main_arg0 : DevRef τ sig) = X) :
    after (ops (F := Ideal)) V (main_v4164 : DevRef τ sig) = Cert.KernelIdeal.RowValue.outArr X := by
  funext j
  obtain ⟨a, q, rfl⟩ : ∃ (a : Fin 16384) (q : Fin 64), j = ix2 a q := ⟨j 0, j 1, eq_ix2 j⟩
  have ht : a.val / 512 < 32 := by have := a.isLt; omega
  have hp : a.val % 512 < 512 := Nat.mod_lt _ (by decide)
  have ha : a = ⟨512 * (⟨a.val / 512, ht⟩ : Fin 32).val + (⟨a.val % 512, hp⟩ : Fin 512).val, by
      show 512 * (a.val / 512) + a.val % 512 < 16384; have := a.isLt; omega⟩ :=
    Fin.ext (Nat.div_add_mod a.val 512).symm
  rw [ha, Cert.KernelIdeal.RowValue.outArr_apply X ⟨a.val / 512, ht⟩ ⟨a.val % 512, hp⟩ q]
  refine (col (after (ops (F := Ideal)) V) (fix V) (Cert.KernelIdeal.RowValue.blk X ⟨a.val / 512, ht⟩) ⟨a.val % 512, hp⟩ _
    (fun c => ?_) q).symm
  rw [Cert.KernelIdeal.RowValue.blk_apply, arg_kept V, hX]

end Cert.TapeBridge

end
-- ==== Proof.lean ====
/- The proof of the certificate's claim.

   Kernel and reference run one tape of 4096 scalar instructions (loads of the 64 input columns, 16 constants,
   sums, differences, negations, products, squares, sines and cosines, and 64 stores) on each of the 16384 rows
   of x.  The kernel does it block by block, 512 rows to a grid point, with the instructions no output depends
   on dropped; the reference on whole columns.  On the extended reals every instruction is the same function in
   both programs, so the results agree entry by entry, whatever the inputs: the precondition is not used.

   The frames of the two kernel programs are frame certificates of the generated kind (KernelFrame,
   KernelIdealFrame: the body run by symbolic execution over the skeleton's payloads); the reference's frame and value come from its run as a line of host operations (RefLine);
   the kernel's value from its frame run (KernelValue); the comparison is TapeResult.  The ideal pass rewrote
   nothing, so there is nothing to preserve. -/
import proofs.«146075_j27728308863612_2_alg».proof.Defs
import proofs.«146075_j27728308863612_2_alg».proof.Proof.Gen.Kernel
import proofs.«146075_j27728308863612_2_alg».proof.Proof.Gen.KernelIdeal
import proofs.«146075_j27728308863612_2_alg».proof.Proof.Gen.ReferenceIdeal
import proofs.«146075_j27728308863612_2_alg».proof.Proof.Gen.Pre_finite_inputs
import proofs.«146075_j27728308863612_2_alg».proof.Proof.KernelFrame
import proofs.«146075_j27728308863612_2_alg».proof.Proof.KernelIdealFrame
import proofs.«146075_j27728308863612_2_alg».proof.Proof.KernelValue
import proofs.«146075_j27728308863612_2_alg».proof.Proof.RefLine
import proofs.«146075_j27728308863612_2_alg».proof.Proof.TapeResult
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.GenP.frame m ρ

theorem frame_kernelIdeal : Cert.frame_KernelIdeal := fun m ρ _ => Cert.KernelIdeal.GenP.frame m ρ

/-- No operation of the reference's line writes its argument. -/
theorem frame_referenceIdeal : Cert.frame_ReferenceIdeal := fun m ρ _ =>
  (θ_run Cert.ReferenceIdeal.defs _ _).mono
    (fun _ h c => (h c Cert.ReferenceIdeal.main_arg0).trans (Cert.ReferenceIdeal.Line.arg_kept _))
    (Cert.ReferenceIdeal.Line.run (F := Ideal) m ρ)

theorem preserves : Cert.preserves_Kernel_KernelIdeal := trivial

/-- Both programs run, and the reference's result array is the kernel's, as a function of the shared argument. -/
theorem algebraic : Cert.algebraic_KernelIdeal_ReferenceIdeal := by
  intro m ρ m' ρ' _ hagree
  refine ⟨fun c => Cert.KernelIdeal.RowValue.outArr
      (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨?_, ?_⟩) (Cert.ReferenceIdeal.Line.run (F := Ideal) m' ρ')
  · exact (h c Cert.ReferenceIdeal.main_v4164).trans (Cert.TapeBridge.result_eq _ _ (hagree c))
  · exact (h c Cert.ReferenceIdeal.main_arg0).trans (Cert.ReferenceIdeal.Line.arg_kept _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
